-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v777)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v777) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v741) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x128x128x16 : Shape := ⟨5, ![2, 128, 128, 128, 16]⟩
abbrev S2x64x64x64x32 : Shape := ⟨5, ![2, 64, 64, 64, 32]⟩
abbrev S2x32x32x32x64 : Shape := ⟨5, ![2, 32, 32, 32, 64]⟩
abbrev S2x16x16x16x128 : Shape := ⟨5, ![2, 16, 16, 16, 128]⟩
abbrev S2x8x8x8x256 : Shape := ⟨5, ![2, 8, 8, 8, 256]⟩
abbrev S2x100000x3 : Shape := ⟨3, ![2, 100000, 3]⟩
abbrev S_ : Shape := ⟨0, ![]⟩

class Facts : Prop where
  bcast_S_S2x128x128x128x16 : S_.BroadcastsInDim S2x128x128x128x16 (![] : Fin 0 → Fin S2x128x128x128x16.rank)
  reducesTo_S2x128x128x128x16_S_d0_1_2_3_4 : S2x128x128x128x16.ReducesTo [0, 1, 2, 3, 4] S_
  h_S_ : 0 < S_.numel
  bcast_S_S2x64x64x64x32 : S_.BroadcastsInDim S2x64x64x64x32 (![] : Fin 0 → Fin S2x64x64x64x32.rank)
  reducesTo_S2x64x64x64x32_S_d0_1_2_3_4 : S2x64x64x64x32.ReducesTo [0, 1, 2, 3, 4] S_
  bcast_S_S2x32x32x32x64 : S_.BroadcastsInDim S2x32x32x32x64 (![] : Fin 0 → Fin S2x32x32x32x64.rank)
  reducesTo_S2x32x32x32x64_S_d0_1_2_3_4 : S2x32x32x32x64.ReducesTo [0, 1, 2, 3, 4] S_
  bcast_S_S2x16x16x16x128 : S_.BroadcastsInDim S2x16x16x16x128 (![] : Fin 0 → Fin S2x16x16x16x128.rank)
  reducesTo_S2x16x16x16x128_S_d0_1_2_3_4 : S2x16x16x16x128.ReducesTo [0, 1, 2, 3, 4] S_
  bcast_S_S2x8x8x8x256 : S_.BroadcastsInDim S2x8x8x8x256 (![] : Fin 0 → Fin S2x8x8x8x256.rank)
  reducesTo_S2x8x8x8x256_S_d0_1_2_3_4 : S2x8x8x8x256.ReducesTo [0, 1, 2, 3, 4] S_
  bcast_S_S2x100000x3 : S_.BroadcastsInDim S2x100000x3 (![] : Fin 0 → Fin S2x100000x3.rank)
  reducesTo_S2x100000x3_S_d0_1_2 : S2x100000x3.ReducesTo [0, 1, 2] S_

variable [Facts]

def fn_part1 {F : FTy → Type} [FloatOps F] (main_arg4 : FVec F S2x8x8x8x256 .f32) (main_arg5 : FVec F S2x100000x3 .f32) (main_v13 : IVec S_ 1) (main_v16 : IVec S2x16x16x16x128 1) : IVec S_ 1 :=
  let main_c_5 : IVec S_ 1 := constantI S_ 1 1#1
  let main_v17 : IVec S_ 1 := (fun x v => Host.reduce IntOp.andi x v reducesTo_S2x16x16x16x128_S_d0_1_2_3_4 h_S_) main_v16 main_c_5
  let main_v18 : IVec S_ 1 := andi main_v13 main_v17
  let main_v19 : FVec F S2x8x8x8x256 .f32 := Host.absf main_arg4
  let main_cst_6 : FVec F S_ .f32 := constant S_ .f32 0x7F800000#32
  let main_v20 : FVec F S2x8x8x8x256 .f32 := broadcastInDim S2x8x8x8x256 ![] bcast_S_S2x8x8x8x256 main_cst_6
  let main_v21 : IVec S2x8x8x8x256 1 := cmpf .olt main_v19 main_v20
  let main_c_7 : IVec S_ 1 := constantI S_ 1 1#1
  let main_v22 : IVec S_ 1 := (fun x v => Host.reduce IntOp.andi x v reducesTo_S2x8x8x8x256_S_d0_1_2_3_4 h_S_) main_v21 main_c_7
  let main_v23 : IVec S_ 1 := andi main_v18 main_v22
  let main_v24 : FVec F S2x100000x3 .f32 := Host.absf main_arg5
  let main_cst_8 : FVec F S_ .f32 := constant S_ .f32 0x7F800000#32
  let main_v25 : FVec F S2x100000x3 .f32 := broadcastInDim S2x100000x3 ![] bcast_S_S2x100000x3 main_cst_8
  let main_v26 : IVec S2x100000x3 1 := cmpf .olt main_v24 main_v25
  let main_c_9 : IVec S_ 1 := constantI S_ 1 1#1
  let main_v27 : IVec S_ 1 := (fun x v => Host.reduce IntOp.andi x v reducesTo_S2x100000x3_S_d0_1_2 h_S_) main_v26 main_c_9
  let main_v28 : IVec S_ 1 := andi main_v23 main_v27
  main_v28

def fn {F : FTy → Type} [FloatOps F] (main_arg0 : FVec F S2x128x128x128x16 .f32) (main_arg1 : FVec F S2x64x64x64x32 .f32) (main_arg2 : FVec F S2x32x32x32x64 .f32) (main_arg3 : FVec F S2x16x16x16x128 .f32) (main_arg4 : FVec F S2x8x8x8x256 .f32) (main_arg5 : FVec F S2x100000x3 .f32) : IVec S_ 1 :=
  let main_v0 : FVec F S2x128x128x128x16 .f32 := Host.absf main_arg0
  let main_cst : FVec F S_ .f32 := constant S_ .f32 0x7F800000#32
  let main_v1 : FVec F S2x128x128x128x16 .f32 := broadcastInDim S2x128x128x128x16 ![] bcast_S_S2x128x128x128x16 main_cst
  let main_v2 : IVec S2x128x128x128x16 1 := cmpf .olt main_v0 main_v1
  let main_c : IVec S_ 1 := constantI S_ 1 1#1
  let main_v3 : IVec S_ 1 := (fun x v => Host.reduce IntOp.andi x v reducesTo_S2x128x128x128x16_S_d0_1_2_3_4 h_S_) main_v2 main_c
  let main_v4 : FVec F S2x64x64x64x32 .f32 := Host.absf main_arg1
  let main_cst_0 : FVec F S_ .f32 := constant S_ .f32 0x7F800000#32
  let main_v5 : FVec F S2x64x64x64x32 .f32 := broadcastInDim S2x64x64x64x32 ![] bcast_S_S2x64x64x64x32 main_cst_0
  let main_v6 : IVec S2x64x64x64x32 1 := cmpf .olt main_v4 main_v5
  let main_c_1 : IVec S_ 1 := constantI S_ 1 1#1
  let main_v7 : IVec S_ 1 := (fun x v => Host.reduce IntOp.andi x v reducesTo_S2x64x64x64x32_S_d0_1_2_3_4 h_S_) main_v6 main_c_1
  let main_v8 : IVec S_ 1 := andi main_v3 main_v7
  let main_v9 : FVec F S2x32x32x32x64 .f32 := Host.absf main_arg2
  let main_cst_2 : FVec F S_ .f32 := constant S_ .f32 0x7F800000#32
  let main_v10 : FVec F S2x32x32x32x64 .f32 := broadcastInDim S2x32x32x32x64 ![] bcast_S_S2x32x32x32x64 main_cst_2
  let main_v11 : IVec S2x32x32x32x64 1 := cmpf .olt main_v9 main_v10
  let main_c_3 : IVec S_ 1 := constantI S_ 1 1#1
  let main_v12 : IVec S_ 1 := (fun x v => Host.reduce IntOp.andi x v reducesTo_S2x32x32x32x64_S_d0_1_2_3_4 h_S_) main_v11 main_c_3
  let main_v13 : IVec S_ 1 := andi main_v8 main_v12
  let main_v14 : FVec F S2x16x16x16x128 .f32 := Host.absf main_arg3
  let main_cst_4 : FVec F S_ .f32 := constant S_ .f32 0x7F800000#32
  let main_v15 : FVec F S2x16x16x16x128 .f32 := broadcastInDim S2x16x16x16x128 ![] bcast_S_S2x16x16x16x128 main_cst_4
  let main_v16 : IVec S2x16x16x16x128 1 := cmpf .olt main_v14 main_v15
  fn_part1 (F := F) main_arg4 main_arg5 main_v13 main_v16
-- ==== Kernel.lean ====
abbrev S2x128x128x128x16 : Shape := ⟨5, ![2, 128, 128, 128, 16]⟩
abbrev S2x64x64x64x32 : Shape := ⟨5, ![2, 64, 64, 64, 32]⟩
abbrev S2x32x32x32x64 : Shape := ⟨5, ![2, 32, 32, 32, 64]⟩
abbrev S2x16x16x16x128 : Shape := ⟨5, ![2, 16, 16, 16, 128]⟩
abbrev S2x8x8x8x256 : Shape := ⟨5, ![2, 8, 8, 8, 256]⟩
abbrev S2x100000x3 : Shape := ⟨3, ![2, 100000, 3]⟩
abbrev S3 : Shape := ⟨1, ![3]⟩
abbrev S1x1x3 : Shape := ⟨3, ![1, 1, 3]⟩
abbrev S_ : Shape := ⟨0, ![]⟩
abbrev S2x100000x1 : Shape := ⟨3, ![2, 100000, 1]⟩
abbrev S2x100000 : Shape := ⟨2, ![2, 100000]⟩
abbrev S2x100000x32 : Shape := ⟨3, ![2, 100000, 32]⟩
abbrev S200000x32 : Shape := ⟨2, ![200000, 32]⟩
abbrev S200000 : Shape := ⟨1, ![200000]⟩
abbrev S200000x1 : Shape := ⟨2, ![200000, 1]⟩
abbrev S200000x8 : Shape := ⟨2, ![200000, 8]⟩
abbrev S200704x32 : Shape := ⟨2, ![200704, 32]⟩
abbrev S200704x8 : Shape := ⟨2, ![200704, 8]⟩
abbrev S2048x32 : Shape := ⟨2, ![2048, 32]⟩
abbrev S2048x8 : Shape := ⟨2, ![2048, 8]⟩
abbrev S2048x1 : Shape := ⟨2, ![2048, 1]⟩
abbrev S2x100000x64 : Shape := ⟨3, ![2, 100000, 64]⟩
abbrev S200000x64 : Shape := ⟨2, ![200000, 64]⟩
abbrev S200704x64 : Shape := ⟨2, ![200704, 64]⟩
abbrev S2048x64 : Shape := ⟨2, ![2048, 64]⟩
abbrev S2x100000x128 : Shape := ⟨3, ![2, 100000, 128]⟩
abbrev S200000x128 : Shape := ⟨2, ![200000, 128]⟩
abbrev S200704x128 : Shape := ⟨2, ![200704, 128]⟩
abbrev S2048x128 : Shape := ⟨2, ![2048, 128]⟩
abbrev S2x100000x224 : Shape := ⟨3, ![2, 100000, 224]⟩

abbrev nBuf : Space → Nat
  | .hbm => 1006
  | .vmem => 60
  | .smem => 0
  | _ => 0

abbrev hbmTy0_0 (i : Nat) : BufTy := match i % 128 with
  | 0 => ⟨S2x128x128x128x16, .f32⟩
  | 1 => ⟨S2x64x64x64x32, .f32⟩
  | 2 => ⟨S2x32x32x32x64, .f32⟩
  | 3 => ⟨S2x16x16x16x128, .f32⟩
  | 4 => ⟨S2x8x8x8x256, .f32⟩
  | 5 => ⟨S2x100000x3, .f32⟩
  | 6 => ⟨S3, .f32⟩
  | 7 => ⟨S3, .f32⟩
  | 8 => ⟨S3, .f32⟩
  | 9 => ⟨S1x1x3, .f32⟩
  | 10 => ⟨S2x100000x3, .f32⟩
  | 11 => ⟨S2x100000x3, .f32⟩
  | 12 => ⟨S_, .f32⟩
  | 13 => ⟨S_, .f32⟩
  | 14 => ⟨S_, .f32⟩
  | 15 => ⟨S2x100000x3, .f32⟩
  | 16 => ⟨S2x100000x3, .f32⟩
  | 17 => ⟨S_, .f32⟩
  | 18 => ⟨S2x100000x3, .f32⟩
  | 19 => ⟨S2x100000x3, .f32⟩
  | 20 => ⟨S2x100000x1, .f32⟩
  | 21 => ⟨S2x100000, .f32⟩
  | 22 => ⟨S2x100000, .f32⟩
  | 23 => ⟨S2x100000x1, .f32⟩
  | 24 => ⟨S2x100000, .f32⟩
  | 25 => ⟨S2x100000, .f32⟩
  | 26 => ⟨S2x100000x1, .f32⟩
  | 27 => ⟨S2x100000, .f32⟩
  | 28 => ⟨S2x100000, .f32⟩
  | 29 => ⟨S2x100000x1, .f32⟩
  | 30 => ⟨S2x100000, .f32⟩
  | 31 => ⟨S2x100000, .f32⟩
  | 32 => ⟨S2x100000x1, .f32⟩
  | 33 => ⟨S2x100000, .f32⟩
  | 34 => ⟨S2x100000, .f32⟩
  | 35 => ⟨S2x100000x1, .f32⟩
  | 36 => ⟨S2x100000, .f32⟩
  | 37 => ⟨S2x100000, .f32⟩
  | 38 => ⟨S2x100000, .i32⟩
  | 39 => ⟨S2x100000, .i32⟩
  | 40 => ⟨S2x100000, .i32⟩
  | 41 => ⟨S2x100000, .i32⟩
  | 42 => ⟨S2x100000, .i32⟩
  | 43 => ⟨S2x100000, .i32⟩
  | 44 => ⟨S2x100000x1, .f32⟩
  | 45 => ⟨S2x100000, .f32⟩
  | 46 => ⟨S2x100000, .f32⟩
  | 47 => ⟨S2x100000x1, .f32⟩
  | 48 => ⟨S2x100000, .f32⟩
  | 49 => ⟨S2x100000, .f32⟩
  | 50 => ⟨S2x100000x1, .f32⟩
  | 51 => ⟨S2x100000, .f32⟩
  | 52 => ⟨S2x100000, .f32⟩
  | 53 => ⟨S2x100000x1, .f32⟩
  | 54 => ⟨S2x100000, .f32⟩
  | 55 => ⟨S2x100000, .f32⟩
  | 56 => ⟨S2x100000x1, .f32⟩
  | 57 => ⟨S2x100000, .f32⟩
  | 58 => ⟨S2x100000, .f32⟩
  | 59 => ⟨S2x100000x1, .f32⟩
  | 60 => ⟨S2x100000, .f32⟩
  | 61 => ⟨S2x100000, .f32⟩
  | 62 => ⟨S_, .i32⟩
  | 63 => ⟨S2x100000, .i32⟩
  | 64 => ⟨S2x100000, .i1⟩
  | 65 => ⟨S_, .i32⟩
  | 66 => ⟨S2x100000, .i32⟩
  | 67 => ⟨S2x100000, .i32⟩
  | 68 => ⟨S2x100000, .i32⟩
  | 69 => ⟨S_, .i32⟩
  | 70 => ⟨S2x100000, .i32⟩
  | 71 => ⟨S2x100000, .i1⟩
  | 72 => ⟨S_, .i32⟩
  | 73 => ⟨S2x100000, .i32⟩
  | 74 => ⟨S2x100000, .i32⟩
  | 75 => ⟨S2x100000, .i32⟩
  | 76 => ⟨S_, .i32⟩
  | 77 => ⟨S2x100000, .i32⟩
  | 78 => ⟨S2x100000, .i1⟩
  | 79 => ⟨S_, .i32⟩
  | 80 => ⟨S2x100000, .i32⟩
  | 81 => ⟨S2x100000, .i32⟩
  | 82 => ⟨S2x100000, .i32⟩
  | 83 => ⟨S2x100000x1, .i32⟩
  | 84 => ⟨S2x100000x1, .i32⟩
  | 85 => ⟨S2x100000x1, .i32⟩
  | 86 => ⟨S2x100000x3, .i32⟩
  | 87 => ⟨S2x100000x32, .f32⟩
  | 88 => ⟨S_, .i32⟩
  | 89 => ⟨S2x100000, .i32⟩
  | 90 => ⟨S2x100000, .i1⟩
  | 91 => ⟨S_, .i32⟩
  | 92 => ⟨S2x100000, .i32⟩
  | 93 => ⟨S2x100000, .i32⟩
  | 94 => ⟨S2x100000, .i32⟩
  | 95 => ⟨S_, .i32⟩
  | 96 => ⟨S2x100000, .i32⟩
  | 97 => ⟨S2x100000, .i1⟩
  | 98 => ⟨S_, .i32⟩
  | 99 => ⟨S2x100000, .i32⟩
  | 100 => ⟨S2x100000, .i32⟩
  | 101 => ⟨S2x100000, .i32⟩
  | 102 => ⟨S_, .i32⟩
  | 103 => ⟨S2x100000, .i32⟩
  | 104 => ⟨S2x100000, .i1⟩
  | 105 => ⟨S_, .i32⟩
  | 106 => ⟨S2x100000, .i32⟩
  | 107 => ⟨S2x100000, .i32⟩
  | 108 => ⟨S2x100000, .i32⟩
  | 109 => ⟨S2x100000x1, .i32⟩
  | 110 => ⟨S2x100000x1, .i32⟩
  | 111 => ⟨S2x100000x1, .i32⟩
  | 112 => ⟨S2x100000x3, .i32⟩
  | 113 => ⟨S2x100000x32, .f32⟩
  | 114 => ⟨S_, .i32⟩
  | 115 => ⟨S2x100000, .i32⟩
  | 116 => ⟨S2x100000, .i1⟩
  | 117 => ⟨S_, .i32⟩
  | 118 => ⟨S2x100000, .i32⟩
  | 119 => ⟨S2x100000, .i32⟩
  | 120 => ⟨S2x100000, .i32⟩
  | 121 => ⟨S_, .i32⟩
  | 122 => ⟨S2x100000, .i32⟩
  | 123 => ⟨S2x100000, .i1⟩
  | 124 => ⟨S_, .i32⟩
  | 125 => ⟨S2x100000, .i32⟩
  | 126 => ⟨S2x100000, .i32⟩
  | 127 => ⟨S2x100000, .i32⟩
  | _ => ⟨S2x128x128x128x16, .f32⟩

abbrev hbmTy0_1 (i : Nat) : BufTy := match i % 128 with
  | 0 => ⟨S_, .i32⟩
  | 1 => ⟨S2x100000, .i32⟩
  | 2 => ⟨S2x100000, .i1⟩
  | 3 => ⟨S_, .i32⟩
  | 4 => ⟨S2x100000, .i32⟩
  | 5 => ⟨S2x100000, .i32⟩
  | 6 => ⟨S2x100000, .i32⟩
  | 7 => ⟨S2x100000x1, .i32⟩
  | 8 => ⟨S2x100000x1, .i32⟩
  | 9 => ⟨S2x100000x1, .i32⟩
  | 10 => ⟨S2x100000x3, .i32⟩
  | 11 => ⟨S2x100000x32, .f32⟩
  | 12 => ⟨S_, .i32⟩
  | 13 => ⟨S2x100000, .i32⟩
  | 14 => ⟨S2x100000, .i1⟩
  | 15 => ⟨S_, .i32⟩
  | 16 => ⟨S2x100000, .i32⟩
  | 17 => ⟨S2x100000, .i32⟩
  | 18 => ⟨S2x100000, .i32⟩
  | 19 => ⟨S_, .i32⟩
  | 20 => ⟨S2x100000, .i32⟩
  | 21 => ⟨S2x100000, .i1⟩
  | 22 => ⟨S_, .i32⟩
  | 23 => ⟨S2x100000, .i32⟩
  | 24 => ⟨S2x100000, .i32⟩
  | 25 => ⟨S2x100000, .i32⟩
  | 26 => ⟨S_, .i32⟩
  | 27 => ⟨S2x100000, .i32⟩
  | 28 => ⟨S2x100000, .i1⟩
  | 29 => ⟨S_, .i32⟩
  | 30 => ⟨S2x100000, .i32⟩
  | 31 => ⟨S2x100000, .i32⟩
  | 32 => ⟨S2x100000, .i32⟩
  | 33 => ⟨S2x100000x1, .i32⟩
  | 34 => ⟨S2x100000x1, .i32⟩
  | 35 => ⟨S2x100000x1, .i32⟩
  | 36 => ⟨S2x100000x3, .i32⟩
  | 37 => ⟨S2x100000x32, .f32⟩
  | 38 => ⟨S_, .i32⟩
  | 39 => ⟨S2x100000, .i32⟩
  | 40 => ⟨S2x100000, .i1⟩
  | 41 => ⟨S_, .i32⟩
  | 42 => ⟨S2x100000, .i32⟩
  | 43 => ⟨S2x100000, .i32⟩
  | 44 => ⟨S2x100000, .i32⟩
  | 45 => ⟨S_, .i32⟩
  | 46 => ⟨S2x100000, .i32⟩
  | 47 => ⟨S2x100000, .i1⟩
  | 48 => ⟨S_, .i32⟩
  | 49 => ⟨S2x100000, .i32⟩
  | 50 => ⟨S2x100000, .i32⟩
  | 51 => ⟨S2x100000, .i32⟩
  | 52 => ⟨S_, .i32⟩
  | 53 => ⟨S2x100000, .i32⟩
  | 54 => ⟨S2x100000, .i1⟩
  | 55 => ⟨S_, .i32⟩
  | 56 => ⟨S2x100000, .i32⟩
  | 57 => ⟨S2x100000, .i32⟩
  | 58 => ⟨S2x100000, .i32⟩
  | 59 => ⟨S2x100000x1, .i32⟩
  | 60 => ⟨S2x100000x1, .i32⟩
  | 61 => ⟨S2x100000x1, .i32⟩
  | 62 => ⟨S2x100000x3, .i32⟩
  | 63 => ⟨S2x100000x32, .f32⟩
  | 64 => ⟨S_, .i32⟩
  | 65 => ⟨S2x100000, .i32⟩
  | 66 => ⟨S2x100000, .i1⟩
  | 67 => ⟨S_, .i32⟩
  | 68 => ⟨S2x100000, .i32⟩
  | 69 => ⟨S2x100000, .i32⟩
  | 70 => ⟨S2x100000, .i32⟩
  | 71 => ⟨S_, .i32⟩
  | 72 => ⟨S2x100000, .i32⟩
  | 73 => ⟨S2x100000, .i1⟩
  | 74 => ⟨S_, .i32⟩
  | 75 => ⟨S2x100000, .i32⟩
  | 76 => ⟨S2x100000, .i32⟩
  | 77 => ⟨S2x100000, .i32⟩
  | 78 => ⟨S_, .i32⟩
  | 79 => ⟨S2x100000, .i32⟩
  | 80 => ⟨S2x100000, .i1⟩
  | 81 => ⟨S_, .i32⟩
  | 82 => ⟨S2x100000, .i32⟩
  | 83 => ⟨S2x100000, .i32⟩
  | 84 => ⟨S2x100000, .i32⟩
  | 85 => ⟨S2x100000x1, .i32⟩
  | 86 => ⟨S2x100000x1, .i32⟩
  | 87 => ⟨S2x100000x1, .i32⟩
  | 88 => ⟨S2x100000x3, .i32⟩
  | 89 => ⟨S2x100000x32, .f32⟩
  | 90 => ⟨S_, .i32⟩
  | 91 => ⟨S2x100000, .i32⟩
  | 92 => ⟨S2x100000, .i1⟩
  | 93 => ⟨S_, .i32⟩
  | 94 => ⟨S2x100000, .i32⟩
  | 95 => ⟨S2x100000, .i32⟩
  | 96 => ⟨S2x100000, .i32⟩
  | 97 => ⟨S_, .i32⟩
  | 98 => ⟨S2x100000, .i32⟩
  | 99 => ⟨S2x100000, .i1⟩
  | 100 => ⟨S_, .i32⟩
  | 101 => ⟨S2x100000, .i32⟩
  | 102 => ⟨S2x100000, .i32⟩
  | 103 => ⟨S2x100000, .i32⟩
  | 104 => ⟨S_, .i32⟩
  | 105 => ⟨S2x100000, .i32⟩
  | 106 => ⟨S2x100000, .i1⟩
  | 107 => ⟨S_, .i32⟩
  | 108 => ⟨S2x100000, .i32⟩
  | 109 => ⟨S2x100000, .i32⟩
  | 110 => ⟨S2x100000, .i32⟩
  | 111 => ⟨S2x100000x1, .i32⟩
  | 112 => ⟨S2x100000x1, .i32⟩
  | 113 => ⟨S2x100000x1, .i32⟩
  | 114 => ⟨S2x100000x3, .i32⟩
  | 115 => ⟨S2x100000x32, .f32⟩
  | 116 => ⟨S_, .i32⟩
  | 117 => ⟨S2x100000, .i32⟩
  | 118 => ⟨S2x100000, .i1⟩
  | 119 => ⟨S_, .i32⟩
  | 120 => ⟨S2x100000, .i32⟩
  | 121 => ⟨S2x100000, .i32⟩
  | 122 => ⟨S2x100000, .i32⟩
  | 123 => ⟨S_, .i32⟩
  | 124 => ⟨S2x100000, .i32⟩
  | 125 => ⟨S2x100000, .i1⟩
  | 126 => ⟨S_, .i32⟩
  | 127 => ⟨S2x100000, .i32⟩
  | _ => ⟨S2x128x128x128x16, .f32⟩

abbrev hbmTy0_2 (i : Nat) : BufTy := match i % 128 with
  | 0 => ⟨S2x100000, .i32⟩
  | 1 => ⟨S2x100000, .i32⟩
  | 2 => ⟨S_, .i32⟩
  | 3 => ⟨S2x100000, .i32⟩
  | 4 => ⟨S2x100000, .i1⟩
  | 5 => ⟨S_, .i32⟩
  | 6 => ⟨S2x100000, .i32⟩
  | 7 => ⟨S2x100000, .i32⟩
  | 8 => ⟨S2x100000, .i32⟩
  | 9 => ⟨S2x100000x1, .i32⟩
  | 10 => ⟨S2x100000x1, .i32⟩
  | 11 => ⟨S2x100000x1, .i32⟩
  | 12 => ⟨S2x100000x3, .i32⟩
  | 13 => ⟨S2x100000x32, .f32⟩
  | 14 => ⟨S2x100000, .f32⟩
  | 15 => ⟨S2x100000, .f32⟩
  | 16 => ⟨S2x100000, .f32⟩
  | 17 => ⟨S2x100000, .f32⟩
  | 18 => ⟨S2x100000, .f32⟩
  | 19 => ⟨S2x100000, .f32⟩
  | 20 => ⟨S2x100000, .f32⟩
  | 21 => ⟨S2x100000, .f32⟩
  | 22 => ⟨S2x100000, .f32⟩
  | 23 => ⟨S2x100000, .f32⟩
  | 24 => ⟨S2x100000, .f32⟩
  | 25 => ⟨S2x100000, .f32⟩
  | 26 => ⟨S2x100000, .f32⟩
  | 27 => ⟨S2x100000, .f32⟩
  | 28 => ⟨S2x100000, .f32⟩
  | 29 => ⟨S2x100000, .f32⟩
  | 30 => ⟨S200000x32, .f32⟩
  | 31 => ⟨S200000x32, .f32⟩
  | 32 => ⟨S200000x32, .f32⟩
  | 33 => ⟨S200000x32, .f32⟩
  | 34 => ⟨S200000x32, .f32⟩
  | 35 => ⟨S200000x32, .f32⟩
  | 36 => ⟨S200000x32, .f32⟩
  | 37 => ⟨S200000x32, .f32⟩
  | 38 => ⟨S200000, .f32⟩
  | 39 => ⟨S200000, .f32⟩
  | 40 => ⟨S200000, .f32⟩
  | 41 => ⟨S200000, .f32⟩
  | 42 => ⟨S200000, .f32⟩
  | 43 => ⟨S200000, .f32⟩
  | 44 => ⟨S200000, .f32⟩
  | 45 => ⟨S200000, .f32⟩
  | 46 => ⟨S200000x1, .f32⟩
  | 47 => ⟨S200000x1, .f32⟩
  | 48 => ⟨S200000x1, .f32⟩
  | 49 => ⟨S200000x1, .f32⟩
  | 50 => ⟨S200000x1, .f32⟩
  | 51 => ⟨S200000x1, .f32⟩
  | 52 => ⟨S200000x1, .f32⟩
  | 53 => ⟨S200000x1, .f32⟩
  | 54 => ⟨S200000x8, .f32⟩
  | 55 => ⟨S_, .i32⟩
  | 56 => ⟨S_, .f32⟩
  | 57 => ⟨S200704x32, .f32⟩
  | 58 => ⟨S_, .i32⟩
  | 59 => ⟨S_, .f32⟩
  | 60 => ⟨S200704x32, .f32⟩
  | 61 => ⟨S_, .i32⟩
  | 62 => ⟨S_, .f32⟩
  | 63 => ⟨S200704x32, .f32⟩
  | 64 => ⟨S_, .i32⟩
  | 65 => ⟨S_, .f32⟩
  | 66 => ⟨S200704x32, .f32⟩
  | 67 => ⟨S_, .i32⟩
  | 68 => ⟨S_, .f32⟩
  | 69 => ⟨S200704x32, .f32⟩
  | 70 => ⟨S_, .i32⟩
  | 71 => ⟨S_, .f32⟩
  | 72 => ⟨S200704x32, .f32⟩
  | 73 => ⟨S_, .i32⟩
  | 74 => ⟨S_, .f32⟩
  | 75 => ⟨S200704x32, .f32⟩
  | 76 => ⟨S_, .i32⟩
  | 77 => ⟨S_, .f32⟩
  | 78 => ⟨S200704x32, .f32⟩
  | 79 => ⟨S_, .i32⟩
  | 80 => ⟨S_, .f32⟩
  | 81 => ⟨S200704x8, .f32⟩
  | 82 => ⟨S200704x32, .f32⟩
  | 83 => ⟨S200000x32, .f32⟩
  | 84 => ⟨S2x100000x32, .f32⟩
  | 85 => ⟨S1x1x3, .f32⟩
  | 86 => ⟨S2x100000x3, .f32⟩
  | 87 => ⟨S2x100000x3, .f32⟩
  | 88 => ⟨S_, .f32⟩
  | 89 => ⟨S_, .f32⟩
  | 90 => ⟨S_, .f32⟩
  | 91 => ⟨S2x100000x3, .f32⟩
  | 92 => ⟨S2x100000x3, .f32⟩
  | 93 => ⟨S_, .f32⟩
  | 94 => ⟨S2x100000x3, .f32⟩
  | 95 => ⟨S2x100000x3, .f32⟩
  | 96 => ⟨S2x100000x1, .f32⟩
  | 97 => ⟨S2x100000, .f32⟩
  | 98 => ⟨S2x100000, .f32⟩
  | 99 => ⟨S2x100000x1, .f32⟩
  | 100 => ⟨S2x100000, .f32⟩
  | 101 => ⟨S2x100000, .f32⟩
  | 102 => ⟨S2x100000x1, .f32⟩
  | 103 => ⟨S2x100000, .f32⟩
  | 104 => ⟨S2x100000, .f32⟩
  | 105 => ⟨S2x100000x1, .f32⟩
  | 106 => ⟨S2x100000, .f32⟩
  | 107 => ⟨S2x100000, .f32⟩
  | 108 => ⟨S2x100000x1, .f32⟩
  | 109 => ⟨S2x100000, .f32⟩
  | 110 => ⟨S2x100000, .f32⟩
  | 111 => ⟨S2x100000x1, .f32⟩
  | 112 => ⟨S2x100000, .f32⟩
  | 113 => ⟨S2x100000, .f32⟩
  | 114 => ⟨S2x100000, .i32⟩
  | 115 => ⟨S2x100000, .i32⟩
  | 116 => ⟨S2x100000, .i32⟩
  | 117 => ⟨S2x100000, .i32⟩
  | 118 => ⟨S2x100000, .i32⟩
  | 119 => ⟨S2x100000, .i32⟩
  | 120 => ⟨S2x100000x1, .f32⟩
  | 121 => ⟨S2x100000, .f32⟩
  | 122 => ⟨S2x100000, .f32⟩
  | 123 => ⟨S2x100000x1, .f32⟩
  | 124 => ⟨S2x100000, .f32⟩
  | 125 => ⟨S2x100000, .f32⟩
  | 126 => ⟨S2x100000x1, .f32⟩
  | 127 => ⟨S2x100000, .f32⟩
  | _ => ⟨S2x128x128x128x16, .f32⟩

abbrev hbmTy0_3 (i : Nat) : BufTy := match i % 128 with
  | 0 => ⟨S2x100000, .f32⟩
  | 1 => ⟨S2x100000x1, .f32⟩
  | 2 => ⟨S2x100000, .f32⟩
  | 3 => ⟨S2x100000, .f32⟩
  | 4 => ⟨S2x100000x1, .f32⟩
  | 5 => ⟨S2x100000, .f32⟩
  | 6 => ⟨S2x100000, .f32⟩
  | 7 => ⟨S2x100000x1, .f32⟩
  | 8 => ⟨S2x100000, .f32⟩
  | 9 => ⟨S2x100000, .f32⟩
  | 10 => ⟨S_, .i32⟩
  | 11 => ⟨S2x100000, .i32⟩
  | 12 => ⟨S2x100000, .i1⟩
  | 13 => ⟨S_, .i32⟩
  | 14 => ⟨S2x100000, .i32⟩
  | 15 => ⟨S2x100000, .i32⟩
  | 16 => ⟨S2x100000, .i32⟩
  | 17 => ⟨S_, .i32⟩
  | 18 => ⟨S2x100000, .i32⟩
  | 19 => ⟨S2x100000, .i1⟩
  | 20 => ⟨S_, .i32⟩
  | 21 => ⟨S2x100000, .i32⟩
  | 22 => ⟨S2x100000, .i32⟩
  | 23 => ⟨S2x100000, .i32⟩
  | 24 => ⟨S_, .i32⟩
  | 25 => ⟨S2x100000, .i32⟩
  | 26 => ⟨S2x100000, .i1⟩
  | 27 => ⟨S_, .i32⟩
  | 28 => ⟨S2x100000, .i32⟩
  | 29 => ⟨S2x100000, .i32⟩
  | 30 => ⟨S2x100000, .i32⟩
  | 31 => ⟨S2x100000x1, .i32⟩
  | 32 => ⟨S2x100000x1, .i32⟩
  | 33 => ⟨S2x100000x1, .i32⟩
  | 34 => ⟨S2x100000x3, .i32⟩
  | 35 => ⟨S2x100000x64, .f32⟩
  | 36 => ⟨S_, .i32⟩
  | 37 => ⟨S2x100000, .i32⟩
  | 38 => ⟨S2x100000, .i1⟩
  | 39 => ⟨S_, .i32⟩
  | 40 => ⟨S2x100000, .i32⟩
  | 41 => ⟨S2x100000, .i32⟩
  | 42 => ⟨S2x100000, .i32⟩
  | 43 => ⟨S_, .i32⟩
  | 44 => ⟨S2x100000, .i32⟩
  | 45 => ⟨S2x100000, .i1⟩
  | 46 => ⟨S_, .i32⟩
  | 47 => ⟨S2x100000, .i32⟩
  | 48 => ⟨S2x100000, .i32⟩
  | 49 => ⟨S2x100000, .i32⟩
  | 50 => ⟨S_, .i32⟩
  | 51 => ⟨S2x100000, .i32⟩
  | 52 => ⟨S2x100000, .i1⟩
  | 53 => ⟨S_, .i32⟩
  | 54 => ⟨S2x100000, .i32⟩
  | 55 => ⟨S2x100000, .i32⟩
  | 56 => ⟨S2x100000, .i32⟩
  | 57 => ⟨S2x100000x1, .i32⟩
  | 58 => ⟨S2x100000x1, .i32⟩
  | 59 => ⟨S2x100000x1, .i32⟩
  | 60 => ⟨S2x100000x3, .i32⟩
  | 61 => ⟨S2x100000x64, .f32⟩
  | 62 => ⟨S_, .i32⟩
  | 63 => ⟨S2x100000, .i32⟩
  | 64 => ⟨S2x100000, .i1⟩
  | 65 => ⟨S_, .i32⟩
  | 66 => ⟨S2x100000, .i32⟩
  | 67 => ⟨S2x100000, .i32⟩
  | 68 => ⟨S2x100000, .i32⟩
  | 69 => ⟨S_, .i32⟩
  | 70 => ⟨S2x100000, .i32⟩
  | 71 => ⟨S2x100000, .i1⟩
  | 72 => ⟨S_, .i32⟩
  | 73 => ⟨S2x100000, .i32⟩
  | 74 => ⟨S2x100000, .i32⟩
  | 75 => ⟨S2x100000, .i32⟩
  | 76 => ⟨S_, .i32⟩
  | 77 => ⟨S2x100000, .i32⟩
  | 78 => ⟨S2x100000, .i1⟩
  | 79 => ⟨S_, .i32⟩
  | 80 => ⟨S2x100000, .i32⟩
  | 81 => ⟨S2x100000, .i32⟩
  | 82 => ⟨S2x100000, .i32⟩
  | 83 => ⟨S2x100000x1, .i32⟩
  | 84 => ⟨S2x100000x1, .i32⟩
  | 85 => ⟨S2x100000x1, .i32⟩
  | 86 => ⟨S2x100000x3, .i32⟩
  | 87 => ⟨S2x100000x64, .f32⟩
  | 88 => ⟨S_, .i32⟩
  | 89 => ⟨S2x100000, .i32⟩
  | 90 => ⟨S2x100000, .i1⟩
  | 91 => ⟨S_, .i32⟩
  | 92 => ⟨S2x100000, .i32⟩
  | 93 => ⟨S2x100000, .i32⟩
  | 94 => ⟨S2x100000, .i32⟩
  | 95 => ⟨S_, .i32⟩
  | 96 => ⟨S2x100000, .i32⟩
  | 97 => ⟨S2x100000, .i1⟩
  | 98 => ⟨S_, .i32⟩
  | 99 => ⟨S2x100000, .i32⟩
  | 100 => ⟨S2x100000, .i32⟩
  | 101 => ⟨S2x100000, .i32⟩
  | 102 => ⟨S_, .i32⟩
  | 103 => ⟨S2x100000, .i32⟩
  | 104 => ⟨S2x100000, .i1⟩
  | 105 => ⟨S_, .i32⟩
  | 106 => ⟨S2x100000, .i32⟩
  | 107 => ⟨S2x100000, .i32⟩
  | 108 => ⟨S2x100000, .i32⟩
  | 109 => ⟨S2x100000x1, .i32⟩
  | 110 => ⟨S2x100000x1, .i32⟩
  | 111 => ⟨S2x100000x1, .i32⟩
  | 112 => ⟨S2x100000x3, .i32⟩
  | 113 => ⟨S2x100000x64, .f32⟩
  | 114 => ⟨S_, .i32⟩
  | 115 => ⟨S2x100000, .i32⟩
  | 116 => ⟨S2x100000, .i1⟩
  | 117 => ⟨S_, .i32⟩
  | 118 => ⟨S2x100000, .i32⟩
  | 119 => ⟨S2x100000, .i32⟩
  | 120 => ⟨S2x100000, .i32⟩
  | 121 => ⟨S_, .i32⟩
  | 122 => ⟨S2x100000, .i32⟩
  | 123 => ⟨S2x100000, .i1⟩
  | 124 => ⟨S_, .i32⟩
  | 125 => ⟨S2x100000, .i32⟩
  | 126 => ⟨S2x100000, .i32⟩
  | 127 => ⟨S2x100000, .i32⟩
  | _ => ⟨S2x128x128x128x16, .f32⟩

abbrev hbmTy0_4 (i : Nat) : BufTy := match i % 128 with
  | 0 => ⟨S_, .i32⟩
  | 1 => ⟨S2x100000, .i32⟩
  | 2 => ⟨S2x100000, .i1⟩
  | 3 => ⟨S_, .i32⟩
  | 4 => ⟨S2x100000, .i32⟩
  | 5 => ⟨S2x100000, .i32⟩
  | 6 => ⟨S2x100000, .i32⟩
  | 7 => ⟨S2x100000x1, .i32⟩
  | 8 => ⟨S2x100000x1, .i32⟩
  | 9 => ⟨S2x100000x1, .i32⟩
  | 10 => ⟨S2x100000x3, .i32⟩
  | 11 => ⟨S2x100000x64, .f32⟩
  | 12 => ⟨S_, .i32⟩
  | 13 => ⟨S2x100000, .i32⟩
  | 14 => ⟨S2x100000, .i1⟩
  | 15 => ⟨S_, .i32⟩
  | 16 => ⟨S2x100000, .i32⟩
  | 17 => ⟨S2x100000, .i32⟩
  | 18 => ⟨S2x100000, .i32⟩
  | 19 => ⟨S_, .i32⟩
  | 20 => ⟨S2x100000, .i32⟩
  | 21 => ⟨S2x100000, .i1⟩
  | 22 => ⟨S_, .i32⟩
  | 23 => ⟨S2x100000, .i32⟩
  | 24 => ⟨S2x100000, .i32⟩
  | 25 => ⟨S2x100000, .i32⟩
  | 26 => ⟨S_, .i32⟩
  | 27 => ⟨S2x100000, .i32⟩
  | 28 => ⟨S2x100000, .i1⟩
  | 29 => ⟨S_, .i32⟩
  | 30 => ⟨S2x100000, .i32⟩
  | 31 => ⟨S2x100000, .i32⟩
  | 32 => ⟨S2x100000, .i32⟩
  | 33 => ⟨S2x100000x1, .i32⟩
  | 34 => ⟨S2x100000x1, .i32⟩
  | 35 => ⟨S2x100000x1, .i32⟩
  | 36 => ⟨S2x100000x3, .i32⟩
  | 37 => ⟨S2x100000x64, .f32⟩
  | 38 => ⟨S_, .i32⟩
  | 39 => ⟨S2x100000, .i32⟩
  | 40 => ⟨S2x100000, .i1⟩
  | 41 => ⟨S_, .i32⟩
  | 42 => ⟨S2x100000, .i32⟩
  | 43 => ⟨S2x100000, .i32⟩
  | 44 => ⟨S2x100000, .i32⟩
  | 45 => ⟨S_, .i32⟩
  | 46 => ⟨S2x100000, .i32⟩
  | 47 => ⟨S2x100000, .i1⟩
  | 48 => ⟨S_, .i32⟩
  | 49 => ⟨S2x100000, .i32⟩
  | 50 => ⟨S2x100000, .i32⟩
  | 51 => ⟨S2x100000, .i32⟩
  | 52 => ⟨S_, .i32⟩
  | 53 => ⟨S2x100000, .i32⟩
  | 54 => ⟨S2x100000, .i1⟩
  | 55 => ⟨S_, .i32⟩
  | 56 => ⟨S2x100000, .i32⟩
  | 57 => ⟨S2x100000, .i32⟩
  | 58 => ⟨S2x100000, .i32⟩
  | 59 => ⟨S2x100000x1, .i32⟩
  | 60 => ⟨S2x100000x1, .i32⟩
  | 61 => ⟨S2x100000x1, .i32⟩
  | 62 => ⟨S2x100000x3, .i32⟩
  | 63 => ⟨S2x100000x64, .f32⟩
  | 64 => ⟨S_, .i32⟩
  | 65 => ⟨S2x100000, .i32⟩
  | 66 => ⟨S2x100000, .i1⟩
  | 67 => ⟨S_, .i32⟩
  | 68 => ⟨S2x100000, .i32⟩
  | 69 => ⟨S2x100000, .i32⟩
  | 70 => ⟨S2x100000, .i32⟩
  | 71 => ⟨S_, .i32⟩
  | 72 => ⟨S2x100000, .i32⟩
  | 73 => ⟨S2x100000, .i1⟩
  | 74 => ⟨S_, .i32⟩
  | 75 => ⟨S2x100000, .i32⟩
  | 76 => ⟨S2x100000, .i32⟩
  | 77 => ⟨S2x100000, .i32⟩
  | 78 => ⟨S_, .i32⟩
  | 79 => ⟨S2x100000, .i32⟩
  | 80 => ⟨S2x100000, .i1⟩
  | 81 => ⟨S_, .i32⟩
  | 82 => ⟨S2x100000, .i32⟩
  | 83 => ⟨S2x100000, .i32⟩
  | 84 => ⟨S2x100000, .i32⟩
  | 85 => ⟨S2x100000x1, .i32⟩
  | 86 => ⟨S2x100000x1, .i32⟩
  | 87 => ⟨S2x100000x1, .i32⟩
  | 88 => ⟨S2x100000x3, .i32⟩
  | 89 => ⟨S2x100000x64, .f32⟩
  | 90 => ⟨S2x100000, .f32⟩
  | 91 => ⟨S2x100000, .f32⟩
  | 92 => ⟨S2x100000, .f32⟩
  | 93 => ⟨S2x100000, .f32⟩
  | 94 => ⟨S2x100000, .f32⟩
  | 95 => ⟨S2x100000, .f32⟩
  | 96 => ⟨S2x100000, .f32⟩
  | 97 => ⟨S2x100000, .f32⟩
  | 98 => ⟨S2x100000, .f32⟩
  | 99 => ⟨S2x100000, .f32⟩
  | 100 => ⟨S2x100000, .f32⟩
  | 101 => ⟨S2x100000, .f32⟩
  | 102 => ⟨S2x100000, .f32⟩
  | 103 => ⟨S2x100000, .f32⟩
  | 104 => ⟨S2x100000, .f32⟩
  | 105 => ⟨S2x100000, .f32⟩
  | 106 => ⟨S200000x64, .f32⟩
  | 107 => ⟨S200000x64, .f32⟩
  | 108 => ⟨S200000x64, .f32⟩
  | 109 => ⟨S200000x64, .f32⟩
  | 110 => ⟨S200000x64, .f32⟩
  | 111 => ⟨S200000x64, .f32⟩
  | 112 => ⟨S200000x64, .f32⟩
  | 113 => ⟨S200000x64, .f32⟩
  | 114 => ⟨S200000, .f32⟩
  | 115 => ⟨S200000, .f32⟩
  | 116 => ⟨S200000, .f32⟩
  | 117 => ⟨S200000, .f32⟩
  | 118 => ⟨S200000, .f32⟩
  | 119 => ⟨S200000, .f32⟩
  | 120 => ⟨S200000, .f32⟩
  | 121 => ⟨S200000, .f32⟩
  | 122 => ⟨S200000x1, .f32⟩
  | 123 => ⟨S200000x1, .f32⟩
  | 124 => ⟨S200000x1, .f32⟩
  | 125 => ⟨S200000x1, .f32⟩
  | 126 => ⟨S200000x1, .f32⟩
  | 127 => ⟨S200000x1, .f32⟩
  | _ => ⟨S2x128x128x128x16, .f32⟩

abbrev hbmTy0_5 (i : Nat) : BufTy := match i % 128 with
  | 0 => ⟨S200000x1, .f32⟩
  | 1 => ⟨S200000x1, .f32⟩
  | 2 => ⟨S200000x8, .f32⟩
  | 3 => ⟨S_, .i32⟩
  | 4 => ⟨S_, .f32⟩
  | 5 => ⟨S200704x64, .f32⟩
  | 6 => ⟨S_, .i32⟩
  | 7 => ⟨S_, .f32⟩
  | 8 => ⟨S200704x64, .f32⟩
  | 9 => ⟨S_, .i32⟩
  | 10 => ⟨S_, .f32⟩
  | 11 => ⟨S200704x64, .f32⟩
  | 12 => ⟨S_, .i32⟩
  | 13 => ⟨S_, .f32⟩
  | 14 => ⟨S200704x64, .f32⟩
  | 15 => ⟨S_, .i32⟩
  | 16 => ⟨S_, .f32⟩
  | 17 => ⟨S200704x64, .f32⟩
  | 18 => ⟨S_, .i32⟩
  | 19 => ⟨S_, .f32⟩
  | 20 => ⟨S200704x64, .f32⟩
  | 21 => ⟨S_, .i32⟩
  | 22 => ⟨S_, .f32⟩
  | 23 => ⟨S200704x64, .f32⟩
  | 24 => ⟨S_, .i32⟩
  | 25 => ⟨S_, .f32⟩
  | 26 => ⟨S200704x64, .f32⟩
  | 27 => ⟨S_, .i32⟩
  | 28 => ⟨S_, .f32⟩
  | 29 => ⟨S200704x8, .f32⟩
  | 30 => ⟨S200704x64, .f32⟩
  | 31 => ⟨S200000x64, .f32⟩
  | 32 => ⟨S2x100000x64, .f32⟩
  | 33 => ⟨S1x1x3, .f32⟩
  | 34 => ⟨S2x100000x3, .f32⟩
  | 35 => ⟨S2x100000x3, .f32⟩
  | 36 => ⟨S_, .f32⟩
  | 37 => ⟨S_, .f32⟩
  | 38 => ⟨S_, .f32⟩
  | 39 => ⟨S2x100000x3, .f32⟩
  | 40 => ⟨S2x100000x3, .f32⟩
  | 41 => ⟨S_, .f32⟩
  | 42 => ⟨S2x100000x3, .f32⟩
  | 43 => ⟨S2x100000x3, .f32⟩
  | 44 => ⟨S2x100000x1, .f32⟩
  | 45 => ⟨S2x100000, .f32⟩
  | 46 => ⟨S2x100000, .f32⟩
  | 47 => ⟨S2x100000x1, .f32⟩
  | 48 => ⟨S2x100000, .f32⟩
  | 49 => ⟨S2x100000, .f32⟩
  | 50 => ⟨S2x100000x1, .f32⟩
  | 51 => ⟨S2x100000, .f32⟩
  | 52 => ⟨S2x100000, .f32⟩
  | 53 => ⟨S2x100000x1, .f32⟩
  | 54 => ⟨S2x100000, .f32⟩
  | 55 => ⟨S2x100000, .f32⟩
  | 56 => ⟨S2x100000x1, .f32⟩
  | 57 => ⟨S2x100000, .f32⟩
  | 58 => ⟨S2x100000, .f32⟩
  | 59 => ⟨S2x100000x1, .f32⟩
  | 60 => ⟨S2x100000, .f32⟩
  | 61 => ⟨S2x100000, .f32⟩
  | 62 => ⟨S2x100000, .i32⟩
  | 63 => ⟨S2x100000, .i32⟩
  | 64 => ⟨S2x100000, .i32⟩
  | 65 => ⟨S2x100000, .i32⟩
  | 66 => ⟨S2x100000, .i32⟩
  | 67 => ⟨S2x100000, .i32⟩
  | 68 => ⟨S2x100000x1, .f32⟩
  | 69 => ⟨S2x100000, .f32⟩
  | 70 => ⟨S2x100000, .f32⟩
  | 71 => ⟨S2x100000x1, .f32⟩
  | 72 => ⟨S2x100000, .f32⟩
  | 73 => ⟨S2x100000, .f32⟩
  | 74 => ⟨S2x100000x1, .f32⟩
  | 75 => ⟨S2x100000, .f32⟩
  | 76 => ⟨S2x100000, .f32⟩
  | 77 => ⟨S2x100000x1, .f32⟩
  | 78 => ⟨S2x100000, .f32⟩
  | 79 => ⟨S2x100000, .f32⟩
  | 80 => ⟨S2x100000x1, .f32⟩
  | 81 => ⟨S2x100000, .f32⟩
  | 82 => ⟨S2x100000, .f32⟩
  | 83 => ⟨S2x100000x1, .f32⟩
  | 84 => ⟨S2x100000, .f32⟩
  | 85 => ⟨S2x100000, .f32⟩
  | 86 => ⟨S_, .i32⟩
  | 87 => ⟨S2x100000, .i32⟩
  | 88 => ⟨S2x100000, .i1⟩
  | 89 => ⟨S_, .i32⟩
  | 90 => ⟨S2x100000, .i32⟩
  | 91 => ⟨S2x100000, .i32⟩
  | 92 => ⟨S2x100000, .i32⟩
  | 93 => ⟨S_, .i32⟩
  | 94 => ⟨S2x100000, .i32⟩
  | 95 => ⟨S2x100000, .i1⟩
  | 96 => ⟨S_, .i32⟩
  | 97 => ⟨S2x100000, .i32⟩
  | 98 => ⟨S2x100000, .i32⟩
  | 99 => ⟨S2x100000, .i32⟩
  | 100 => ⟨S_, .i32⟩
  | 101 => ⟨S2x100000, .i32⟩
  | 102 => ⟨S2x100000, .i1⟩
  | 103 => ⟨S_, .i32⟩
  | 104 => ⟨S2x100000, .i32⟩
  | 105 => ⟨S2x100000, .i32⟩
  | 106 => ⟨S2x100000, .i32⟩
  | 107 => ⟨S2x100000x1, .i32⟩
  | 108 => ⟨S2x100000x1, .i32⟩
  | 109 => ⟨S2x100000x1, .i32⟩
  | 110 => ⟨S2x100000x3, .i32⟩
  | 111 => ⟨S2x100000x128, .f32⟩
  | 112 => ⟨S_, .i32⟩
  | 113 => ⟨S2x100000, .i32⟩
  | 114 => ⟨S2x100000, .i1⟩
  | 115 => ⟨S_, .i32⟩
  | 116 => ⟨S2x100000, .i32⟩
  | 117 => ⟨S2x100000, .i32⟩
  | 118 => ⟨S2x100000, .i32⟩
  | 119 => ⟨S_, .i32⟩
  | 120 => ⟨S2x100000, .i32⟩
  | 121 => ⟨S2x100000, .i1⟩
  | 122 => ⟨S_, .i32⟩
  | 123 => ⟨S2x100000, .i32⟩
  | 124 => ⟨S2x100000, .i32⟩
  | 125 => ⟨S2x100000, .i32⟩
  | 126 => ⟨S_, .i32⟩
  | 127 => ⟨S2x100000, .i32⟩
  | _ => ⟨S2x128x128x128x16, .f32⟩

abbrev hbmTy0_6 (i : Nat) : BufTy := match i % 128 with
  | 0 => ⟨S2x100000, .i1⟩
  | 1 => ⟨S_, .i32⟩
  | 2 => ⟨S2x100000, .i32⟩
  | 3 => ⟨S2x100000, .i32⟩
  | 4 => ⟨S2x100000, .i32⟩
  | 5 => ⟨S2x100000x1, .i32⟩
  | 6 => ⟨S2x100000x1, .i32⟩
  | 7 => ⟨S2x100000x1, .i32⟩
  | 8 => ⟨S2x100000x3, .i32⟩
  | 9 => ⟨S2x100000x128, .f32⟩
  | 10 => ⟨S_, .i32⟩
  | 11 => ⟨S2x100000, .i32⟩
  | 12 => ⟨S2x100000, .i1⟩
  | 13 => ⟨S_, .i32⟩
  | 14 => ⟨S2x100000, .i32⟩
  | 15 => ⟨S2x100000, .i32⟩
  | 16 => ⟨S2x100000, .i32⟩
  | 17 => ⟨S_, .i32⟩
  | 18 => ⟨S2x100000, .i32⟩
  | 19 => ⟨S2x100000, .i1⟩
  | 20 => ⟨S_, .i32⟩
  | 21 => ⟨S2x100000, .i32⟩
  | 22 => ⟨S2x100000, .i32⟩
  | 23 => ⟨S2x100000, .i32⟩
  | 24 => ⟨S_, .i32⟩
  | 25 => ⟨S2x100000, .i32⟩
  | 26 => ⟨S2x100000, .i1⟩
  | 27 => ⟨S_, .i32⟩
  | 28 => ⟨S2x100000, .i32⟩
  | 29 => ⟨S2x100000, .i32⟩
  | 30 => ⟨S2x100000, .i32⟩
  | 31 => ⟨S2x100000x1, .i32⟩
  | 32 => ⟨S2x100000x1, .i32⟩
  | 33 => ⟨S2x100000x1, .i32⟩
  | 34 => ⟨S2x100000x3, .i32⟩
  | 35 => ⟨S2x100000x128, .f32⟩
  | 36 => ⟨S_, .i32⟩
  | 37 => ⟨S2x100000, .i32⟩
  | 38 => ⟨S2x100000, .i1⟩
  | 39 => ⟨S_, .i32⟩
  | 40 => ⟨S2x100000, .i32⟩
  | 41 => ⟨S2x100000, .i32⟩
  | 42 => ⟨S2x100000, .i32⟩
  | 43 => ⟨S_, .i32⟩
  | 44 => ⟨S2x100000, .i32⟩
  | 45 => ⟨S2x100000, .i1⟩
  | 46 => ⟨S_, .i32⟩
  | 47 => ⟨S2x100000, .i32⟩
  | 48 => ⟨S2x100000, .i32⟩
  | 49 => ⟨S2x100000, .i32⟩
  | 50 => ⟨S_, .i32⟩
  | 51 => ⟨S2x100000, .i32⟩
  | 52 => ⟨S2x100000, .i1⟩
  | 53 => ⟨S_, .i32⟩
  | 54 => ⟨S2x100000, .i32⟩
  | 55 => ⟨S2x100000, .i32⟩
  | 56 => ⟨S2x100000, .i32⟩
  | 57 => ⟨S2x100000x1, .i32⟩
  | 58 => ⟨S2x100000x1, .i32⟩
  | 59 => ⟨S2x100000x1, .i32⟩
  | 60 => ⟨S2x100000x3, .i32⟩
  | 61 => ⟨S2x100000x128, .f32⟩
  | 62 => ⟨S_, .i32⟩
  | 63 => ⟨S2x100000, .i32⟩
  | 64 => ⟨S2x100000, .i1⟩
  | 65 => ⟨S_, .i32⟩
  | 66 => ⟨S2x100000, .i32⟩
  | 67 => ⟨S2x100000, .i32⟩
  | 68 => ⟨S2x100000, .i32⟩
  | 69 => ⟨S_, .i32⟩
  | 70 => ⟨S2x100000, .i32⟩
  | 71 => ⟨S2x100000, .i1⟩
  | 72 => ⟨S_, .i32⟩
  | 73 => ⟨S2x100000, .i32⟩
  | 74 => ⟨S2x100000, .i32⟩
  | 75 => ⟨S2x100000, .i32⟩
  | 76 => ⟨S_, .i32⟩
  | 77 => ⟨S2x100000, .i32⟩
  | 78 => ⟨S2x100000, .i1⟩
  | 79 => ⟨S_, .i32⟩
  | 80 => ⟨S2x100000, .i32⟩
  | 81 => ⟨S2x100000, .i32⟩
  | 82 => ⟨S2x100000, .i32⟩
  | 83 => ⟨S2x100000x1, .i32⟩
  | 84 => ⟨S2x100000x1, .i32⟩
  | 85 => ⟨S2x100000x1, .i32⟩
  | 86 => ⟨S2x100000x3, .i32⟩
  | 87 => ⟨S2x100000x128, .f32⟩
  | 88 => ⟨S_, .i32⟩
  | 89 => ⟨S2x100000, .i32⟩
  | 90 => ⟨S2x100000, .i1⟩
  | 91 => ⟨S_, .i32⟩
  | 92 => ⟨S2x100000, .i32⟩
  | 93 => ⟨S2x100000, .i32⟩
  | 94 => ⟨S2x100000, .i32⟩
  | 95 => ⟨S_, .i32⟩
  | 96 => ⟨S2x100000, .i32⟩
  | 97 => ⟨S2x100000, .i1⟩
  | 98 => ⟨S_, .i32⟩
  | 99 => ⟨S2x100000, .i32⟩
  | 100 => ⟨S2x100000, .i32⟩
  | 101 => ⟨S2x100000, .i32⟩
  | 102 => ⟨S_, .i32⟩
  | 103 => ⟨S2x100000, .i32⟩
  | 104 => ⟨S2x100000, .i1⟩
  | 105 => ⟨S_, .i32⟩
  | 106 => ⟨S2x100000, .i32⟩
  | 107 => ⟨S2x100000, .i32⟩
  | 108 => ⟨S2x100000, .i32⟩
  | 109 => ⟨S2x100000x1, .i32⟩
  | 110 => ⟨S2x100000x1, .i32⟩
  | 111 => ⟨S2x100000x1, .i32⟩
  | 112 => ⟨S2x100000x3, .i32⟩
  | 113 => ⟨S2x100000x128, .f32⟩
  | 114 => ⟨S_, .i32⟩
  | 115 => ⟨S2x100000, .i32⟩
  | 116 => ⟨S2x100000, .i1⟩
  | 117 => ⟨S_, .i32⟩
  | 118 => ⟨S2x100000, .i32⟩
  | 119 => ⟨S2x100000, .i32⟩
  | 120 => ⟨S2x100000, .i32⟩
  | 121 => ⟨S_, .i32⟩
  | 122 => ⟨S2x100000, .i32⟩
  | 123 => ⟨S2x100000, .i1⟩
  | 124 => ⟨S_, .i32⟩
  | 125 => ⟨S2x100000, .i32⟩
  | 126 => ⟨S2x100000, .i32⟩
  | 127 => ⟨S2x100000, .i32⟩
  | _ => ⟨S2x128x128x128x16, .f32⟩

abbrev hbmTy0_7 (i : Nat) : BufTy := match i % 128 with
  | 0 => ⟨S_, .i32⟩
  | 1 => ⟨S2x100000, .i32⟩
  | 2 => ⟨S2x100000, .i1⟩
  | 3 => ⟨S_, .i32⟩
  | 4 => ⟨S2x100000, .i32⟩
  | 5 => ⟨S2x100000, .i32⟩
  | 6 => ⟨S2x100000, .i32⟩
  | 7 => ⟨S2x100000x1, .i32⟩
  | 8 => ⟨S2x100000x1, .i32⟩
  | 9 => ⟨S2x100000x1, .i32⟩
  | 10 => ⟨S2x100000x3, .i32⟩
  | 11 => ⟨S2x100000x128, .f32⟩
  | 12 => ⟨S_, .i32⟩
  | 13 => ⟨S2x100000, .i32⟩
  | 14 => ⟨S2x100000, .i1⟩
  | 15 => ⟨S_, .i32⟩
  | 16 => ⟨S2x100000, .i32⟩
  | 17 => ⟨S2x100000, .i32⟩
  | 18 => ⟨S2x100000, .i32⟩
  | 19 => ⟨S_, .i32⟩
  | 20 => ⟨S2x100000, .i32⟩
  | 21 => ⟨S2x100000, .i1⟩
  | 22 => ⟨S_, .i32⟩
  | 23 => ⟨S2x100000, .i32⟩
  | 24 => ⟨S2x100000, .i32⟩
  | 25 => ⟨S2x100000, .i32⟩
  | 26 => ⟨S_, .i32⟩
  | 27 => ⟨S2x100000, .i32⟩
  | 28 => ⟨S2x100000, .i1⟩
  | 29 => ⟨S_, .i32⟩
  | 30 => ⟨S2x100000, .i32⟩
  | 31 => ⟨S2x100000, .i32⟩
  | 32 => ⟨S2x100000, .i32⟩
  | 33 => ⟨S2x100000x1, .i32⟩
  | 34 => ⟨S2x100000x1, .i32⟩
  | 35 => ⟨S2x100000x1, .i32⟩
  | 36 => ⟨S2x100000x3, .i32⟩
  | 37 => ⟨S2x100000x128, .f32⟩
  | 38 => ⟨S2x100000, .f32⟩
  | 39 => ⟨S2x100000, .f32⟩
  | 40 => ⟨S2x100000, .f32⟩
  | 41 => ⟨S2x100000, .f32⟩
  | 42 => ⟨S2x100000, .f32⟩
  | 43 => ⟨S2x100000, .f32⟩
  | 44 => ⟨S2x100000, .f32⟩
  | 45 => ⟨S2x100000, .f32⟩
  | 46 => ⟨S2x100000, .f32⟩
  | 47 => ⟨S2x100000, .f32⟩
  | 48 => ⟨S2x100000, .f32⟩
  | 49 => ⟨S2x100000, .f32⟩
  | 50 => ⟨S2x100000, .f32⟩
  | 51 => ⟨S2x100000, .f32⟩
  | 52 => ⟨S2x100000, .f32⟩
  | 53 => ⟨S2x100000, .f32⟩
  | 54 => ⟨S200000x128, .f32⟩
  | 55 => ⟨S200000x128, .f32⟩
  | 56 => ⟨S200000x128, .f32⟩
  | 57 => ⟨S200000x128, .f32⟩
  | 58 => ⟨S200000x128, .f32⟩
  | 59 => ⟨S200000x128, .f32⟩
  | 60 => ⟨S200000x128, .f32⟩
  | 61 => ⟨S200000x128, .f32⟩
  | 62 => ⟨S200000, .f32⟩
  | 63 => ⟨S200000, .f32⟩
  | 64 => ⟨S200000, .f32⟩
  | 65 => ⟨S200000, .f32⟩
  | 66 => ⟨S200000, .f32⟩
  | 67 => ⟨S200000, .f32⟩
  | 68 => ⟨S200000, .f32⟩
  | 69 => ⟨S200000, .f32⟩
  | 70 => ⟨S200000x1, .f32⟩
  | 71 => ⟨S200000x1, .f32⟩
  | 72 => ⟨S200000x1, .f32⟩
  | 73 => ⟨S200000x1, .f32⟩
  | 74 => ⟨S200000x1, .f32⟩
  | 75 => ⟨S200000x1, .f32⟩
  | 76 => ⟨S200000x1, .f32⟩
  | 77 => ⟨S200000x1, .f32⟩
  | 78 => ⟨S200000x8, .f32⟩
  | 79 => ⟨S_, .i32⟩
  | 80 => ⟨S_, .f32⟩
  | 81 => ⟨S200704x128, .f32⟩
  | 82 => ⟨S_, .i32⟩
  | 83 => ⟨S_, .f32⟩
  | 84 => ⟨S200704x128, .f32⟩
  | 85 => ⟨S_, .i32⟩
  | 86 => ⟨S_, .f32⟩
  | 87 => ⟨S200704x128, .f32⟩
  | 88 => ⟨S_, .i32⟩
  | 89 => ⟨S_, .f32⟩
  | 90 => ⟨S200704x128, .f32⟩
  | 91 => ⟨S_, .i32⟩
  | 92 => ⟨S_, .f32⟩
  | 93 => ⟨S200704x128, .f32⟩
  | 94 => ⟨S_, .i32⟩
  | 95 => ⟨S_, .f32⟩
  | 96 => ⟨S200704x128, .f32⟩
  | 97 => ⟨S_, .i32⟩
  | 98 => ⟨S_, .f32⟩
  | 99 => ⟨S200704x128, .f32⟩
  | 100 => ⟨S_, .i32⟩
  | 101 => ⟨S_, .f32⟩
  | 102 => ⟨S200704x128, .f32⟩
  | 103 => ⟨S_, .i32⟩
  | 104 => ⟨S_, .f32⟩
  | 105 => ⟨S200704x8, .f32⟩
  | 106 => ⟨S200704x128, .f32⟩
  | 107 => ⟨S200000x128, .f32⟩
  | 108 => ⟨S2x100000x128, .f32⟩
  | 109 => ⟨S2x100000x224, .f32⟩
  | _ => ⟨S2x128x128x128x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x128x128x128x16, .f32⟩

abbrev bufTy : (tb : Table) → Fin (tcTables nBuf tb) → BufTy
  | .hbm, ⟨i, _⟩ => hbmTy i
  | .local _ .vmem, ⟨0, _⟩ => ⟨S2048x32, .f32⟩
  | .local _ .vmem, ⟨1, _⟩ => ⟨S2048x32, .f32⟩
  | .local _ .vmem, ⟨2, _⟩ => ⟨S2048x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x32, .f32⟩
  | .local _ .vmem, ⟨10, _⟩ => ⟨S2048x32, .f32⟩
  | .local _ .vmem, ⟨11, _⟩ => ⟨S2048x32, .f32⟩
  | .local _ .vmem, ⟨12, _⟩ => ⟨S2048x32, .f32⟩
  | .local _ .vmem, ⟨13, _⟩ => ⟨S2048x32, .f32⟩
  | .local _ .vmem, ⟨14, _⟩ => ⟨S2048x32, .f32⟩
  | .local _ .vmem, ⟨15, _⟩ => ⟨S2048x32, .f32⟩
  | .local _ .vmem, ⟨16, _⟩ => ⟨S2048x8, .f32⟩
  | .local _ .vmem, ⟨17, _⟩ => ⟨S2048x8, .f32⟩
  | .local _ .vmem, ⟨18, _⟩ => ⟨S2048x32, .f32⟩
  | .local _ .vmem, ⟨19, _⟩ => ⟨S2048x32, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S2048x64, .f32⟩
  | .local _ .vmem, ⟨35, _⟩ => ⟨S2048x64, .f32⟩
  | .local _ .vmem, ⟨36, _⟩ => ⟨S2048x8, .f32⟩
  | .local _ .vmem, ⟨37, _⟩ => ⟨S2048x8, .f32⟩
  | .local _ .vmem, ⟨38, _⟩ => ⟨S2048x64, .f32⟩
  | .local _ .vmem, ⟨39, _⟩ => ⟨S2048x64, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | .local _ .vmem, ⟨48, _⟩ => ⟨S2048x128, .f32⟩
  | .local _ .vmem, ⟨49, _⟩ => ⟨S2048x128, .f32⟩
  | .local _ .vmem, ⟨50, _⟩ => ⟨S2048x128, .f32⟩
  | .local _ .vmem, ⟨51, _⟩ => ⟨S2048x128, .f32⟩
  | .local _ .vmem, ⟨52, _⟩ => ⟨S2048x128, .f32⟩
  | .local _ .vmem, ⟨53, _⟩ => ⟨S2048x128, .f32⟩
  | .local _ .vmem, ⟨54, _⟩ => ⟨S2048x128, .f32⟩
  | .local _ .vmem, ⟨55, _⟩ => ⟨S2048x128, .f32⟩
  | .local _ .vmem, ⟨56, _⟩ => ⟨S2048x8, .f32⟩
  | .local _ .vmem, ⟨57, _⟩ => ⟨S2048x8, .f32⟩
  | .local _ .vmem, ⟨58, _⟩ => ⟨S2048x128, .f32⟩
  | .local _ .vmem, ⟨59, _⟩ => ⟨S2048x128, .f32⟩
  | _, _ => ⟨S2x128x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_5 : Ref sig .tc := ⟨.hbm, 69, rfl⟩
abbrev main_v51 : Ref sig .tc := ⟨.hbm, 70, rfl⟩
abbrev main_v52 : Ref sig .tc := ⟨.hbm, 71, rfl⟩
abbrev main_c_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_7 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_9 : Ref sig .tc := ⟨.hbm, 88, rfl⟩
abbrev main_v66 : Ref sig .tc := ⟨.hbm, 89, rfl⟩
abbrev main_v67 : Ref sig .tc := ⟨.hbm, 90, rfl⟩
abbrev main_c_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_11 : Ref sig .tc := ⟨.hbm, 95, rfl⟩
abbrev main_v71 : Ref sig .tc := ⟨.hbm, 96, rfl⟩
abbrev main_v72 : Ref sig .tc := ⟨.hbm, 97, rfl⟩
abbrev main_c_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_13 : Ref sig .tc := ⟨.hbm, 102, rfl⟩
abbrev main_v76 : Ref sig .tc := ⟨.hbm, 103, rfl⟩
abbrev main_v77 : Ref sig .tc := ⟨.hbm, 104, rfl⟩
abbrev main_c_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_15 : Ref sig .tc := ⟨.hbm, 114, rfl⟩
abbrev main_v86 : Ref sig .tc := ⟨.hbm, 115, rfl⟩
abbrev main_v87 : Ref sig .tc := ⟨.hbm, 116, rfl⟩
abbrev main_c_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_17 : Ref sig .tc := ⟨.hbm, 121, rfl⟩
abbrev main_v91 : Ref sig .tc := ⟨.hbm, 122, rfl⟩
abbrev main_v92 : Ref sig .tc := ⟨.hbm, 123, rfl⟩
abbrev main_c_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_19 : Ref sig .tc := ⟨.hbm, 128, rfl⟩
abbrev main_v96 : Ref sig .tc := ⟨.hbm, 129, rfl⟩
abbrev main_v97 : Ref sig .tc := ⟨.hbm, 130, rfl⟩
abbrev main_c_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_21 : Ref sig .tc := ⟨.hbm, 140, rfl⟩
abbrev main_v106 : Ref sig .tc := ⟨.hbm, 141, rfl⟩
abbrev main_v107 : Ref sig .tc := ⟨.hbm, 142, rfl⟩
abbrev main_c_22 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_23 : Ref sig .tc := ⟨.hbm, 147, rfl⟩
abbrev main_v111 : Ref sig .tc := ⟨.hbm, 148, rfl⟩
abbrev main_v112 : Ref sig .tc := ⟨.hbm, 149, rfl⟩
abbrev main_c_24 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_25 : Ref sig .tc := ⟨.hbm, 154, rfl⟩
abbrev main_v116 : Ref sig .tc := ⟨.hbm, 155, rfl⟩
abbrev main_v117 : Ref sig .tc := ⟨.hbm, 156, rfl⟩
abbrev main_c_26 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_27 : Ref sig .tc := ⟨.hbm, 166, rfl⟩
abbrev main_v126 : Ref sig .tc := ⟨.hbm, 167, rfl⟩
abbrev main_v127 : Ref sig .tc := ⟨.hbm, 168, rfl⟩
abbrev main_c_28 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_c_29 : Ref sig .tc := ⟨.hbm, 173, rfl⟩
abbrev main_v131 : Ref sig .tc := ⟨.hbm, 174, rfl⟩
abbrev main_v132 : Ref sig .tc := ⟨.hbm, 175, rfl⟩
abbrev main_c_30 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_c_31 : Ref sig .tc := ⟨.hbm, 180, rfl⟩
abbrev main_v136 : Ref sig .tc := ⟨.hbm, 181, rfl⟩
abbrev main_v137 : Ref sig .tc := ⟨.hbm, 182, rfl⟩
abbrev main_c_32 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_c_33 : Ref sig .tc := ⟨.hbm, 192, rfl⟩
abbrev main_v146 : Ref sig .tc := ⟨.hbm, 193, rfl⟩
abbrev main_v147 : Ref sig .tc := ⟨.hbm, 194, rfl⟩
abbrev main_c_34 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_35 : Ref sig .tc := ⟨.hbm, 199, rfl⟩
abbrev main_v151 : Ref sig .tc := ⟨.hbm, 200, rfl⟩
abbrev main_v152 : Ref sig .tc := ⟨.hbm, 201, rfl⟩
abbrev main_c_36 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_c_37 : Ref sig .tc := ⟨.hbm, 206, rfl⟩
abbrev main_v156 : Ref sig .tc := ⟨.hbm, 207, rfl⟩
abbrev main_v157 : Ref sig .tc := ⟨.hbm, 208, rfl⟩
abbrev main_c_38 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_c_39 : Ref sig .tc := ⟨.hbm, 218, rfl⟩
abbrev main_v166 : Ref sig .tc := ⟨.hbm, 219, rfl⟩
abbrev main_v167 : Ref sig .tc := ⟨.hbm, 220, rfl⟩
abbrev main_c_40 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_c_41 : Ref sig .tc := ⟨.hbm, 225, rfl⟩
abbrev main_v171 : Ref sig .tc := ⟨.hbm, 226, rfl⟩
abbrev main_v172 : Ref sig .tc := ⟨.hbm, 227, rfl⟩
abbrev main_c_42 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_c_43 : Ref sig .tc := ⟨.hbm, 232, rfl⟩
abbrev main_v176 : Ref sig .tc := ⟨.hbm, 233, rfl⟩
abbrev main_v177 : Ref sig .tc := ⟨.hbm, 234, rfl⟩
abbrev main_c_44 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_c_45 : Ref sig .tc := ⟨.hbm, 244, rfl⟩
abbrev main_v186 : Ref sig .tc := ⟨.hbm, 245, rfl⟩
abbrev main_v187 : Ref sig .tc := ⟨.hbm, 246, rfl⟩
abbrev main_c_46 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_c_47 : Ref sig .tc := ⟨.hbm, 251, rfl⟩
abbrev main_v191 : Ref sig .tc := ⟨.hbm, 252, rfl⟩
abbrev main_v192 : Ref sig .tc := ⟨.hbm, 253, rfl⟩
abbrev main_c_48 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_c_49 : Ref sig .tc := ⟨.hbm, 258, rfl⟩
abbrev main_v196 : Ref sig .tc := ⟨.hbm, 259, rfl⟩
abbrev main_v197 : Ref sig .tc := ⟨.hbm, 260, rfl⟩
abbrev main_c_50 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_c_51 : Ref sig .tc := ⟨.hbm, 311, rfl⟩
abbrev main_call1_v0 : Ref sig .tc := ⟨.hbm, 312, rfl⟩
abbrev main_v247 : Ref sig .tc := ⟨.hbm, 313, rfl⟩
abbrev main_c_52 : Ref sig .tc := ⟨.hbm, 314, rfl⟩
abbrev main_call2_v0 : Ref sig .tc := ⟨.hbm, 315, rfl⟩
abbrev main_v248 : Ref sig .tc := ⟨.hbm, 316, rfl⟩
abbrev main_c_53 : Ref sig .tc := ⟨.hbm, 317, rfl⟩
abbrev main_call3_v0 : Ref sig .tc := ⟨.hbm, 318, rfl⟩
abbrev main_v249 : Ref sig .tc := ⟨.hbm, 319, rfl⟩
abbrev main_c_54 : Ref sig .tc := ⟨.hbm, 320, rfl⟩
abbrev main_call4_v0 : Ref sig .tc := ⟨.hbm, 321, rfl⟩
abbrev main_v250 : Ref sig .tc := ⟨.hbm, 322, rfl⟩
abbrev main_c_55 : Ref sig .tc := ⟨.hbm, 323, rfl⟩
abbrev main_call5_v0 : Ref sig .tc := ⟨.hbm, 324, rfl⟩
abbrev main_v251 : Ref sig .tc := ⟨.hbm, 325, rfl⟩
abbrev main_c_56 : Ref sig .tc := ⟨.hbm, 326, rfl⟩
abbrev main_call6_v0 : Ref sig .tc := ⟨.hbm, 327, rfl⟩
abbrev main_v252 : Ref sig .tc := ⟨.hbm, 328, rfl⟩
abbrev main_c_57 : Ref sig .tc := ⟨.hbm, 329, rfl⟩
abbrev main_call7_v0 : Ref sig .tc := ⟨.hbm, 330, rfl⟩
abbrev main_v253 : Ref sig .tc := ⟨.hbm, 331, rfl⟩
abbrev main_c_58 : Ref sig .tc := ⟨.hbm, 332, rfl⟩
abbrev main_call8_v0 : Ref sig .tc := ⟨.hbm, 333, rfl⟩
abbrev main_v254 : Ref sig .tc := ⟨.hbm, 334, rfl⟩
abbrev main_c_59 : Ref sig .tc := ⟨.hbm, 335, rfl⟩
abbrev main_call9_v0 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_60 : Ref sig .tc := ⟨.hbm, 344, rfl⟩
abbrev main_cst_61 : Ref sig .tc := ⟨.hbm, 345, rfl⟩
abbrev main_call10_v0 : Ref sig .tc := ⟨.hbm, 346, rfl⟩
abbrev main_call10_v1 : Ref sig .tc := ⟨.hbm, 347, rfl⟩
abbrev main_call10_v2 : Ref sig .tc := ⟨.hbm, 348, rfl⟩
abbrev main_call10_v3 : Ref sig .tc := ⟨.hbm, 349, rfl⟩
abbrev main_call10_v4 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_v279 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_v296 : Ref sig .tc := ⟨.hbm, 385, rfl⟩
abbrev main_v297 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_c_62 : Ref sig .tc := ⟨.hbm, 394, rfl⟩
abbrev main_v305 : Ref sig .tc := ⟨.hbm, 395, rfl⟩
abbrev main_v306 : Ref sig .tc := ⟨.hbm, 396, rfl⟩
abbrev main_c_63 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_c_64 : Ref sig .tc := ⟨.hbm, 401, rfl⟩
abbrev main_v310 : Ref sig .tc := ⟨.hbm, 402, rfl⟩
abbrev main_v311 : Ref sig .tc := ⟨.hbm, 403, rfl⟩
abbrev main_c_65 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_c_66 : Ref sig .tc := ⟨.hbm, 408, rfl⟩
abbrev main_v315 : Ref sig .tc := ⟨.hbm, 409, rfl⟩
abbrev main_v316 : Ref sig .tc := ⟨.hbm, 410, rfl⟩
abbrev main_c_67 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_v320 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_c_68 : Ref sig .tc := ⟨.hbm, 420, rfl⟩
abbrev main_v325 : Ref sig .tc := ⟨.hbm, 421, rfl⟩
abbrev main_v326 : Ref sig .tc := ⟨.hbm, 422, rfl⟩
abbrev main_c_69 : Ref sig .tc := ⟨.hbm, 423, rfl⟩
abbrev main_v327 : Ref sig .tc := ⟨.hbm, 424, rfl⟩
abbrev main_v328 : Ref sig .tc := ⟨.hbm, 425, rfl⟩
abbrev main_v329 : Ref sig .tc := ⟨.hbm, 426, rfl⟩
abbrev main_c_70 : Ref sig .tc := ⟨.hbm, 427, rfl⟩
abbrev main_v330 : Ref sig .tc := ⟨.hbm, 428, rfl⟩
abbrev main_v331 : Ref sig .tc := ⟨.hbm, 429, rfl⟩
abbrev main_c_71 : Ref sig .tc := ⟨.hbm, 430, rfl⟩
abbrev main_v332 : Ref sig .tc := ⟨.hbm, 431, rfl⟩
abbrev main_v333 : Ref sig .tc := ⟨.hbm, 432, rfl⟩
abbrev main_v334 : Ref sig .tc := ⟨.hbm, 433, rfl⟩
abbrev main_c_72 : Ref sig .tc := ⟨.hbm, 434, rfl⟩
abbrev main_v335 : Ref sig .tc := ⟨.hbm, 435, rfl⟩
abbrev main_v336 : Ref sig .tc := ⟨.hbm, 436, rfl⟩
abbrev main_c_73 : Ref sig .tc := ⟨.hbm, 437, rfl⟩
abbrev main_v337 : Ref sig .tc := ⟨.hbm, 438, rfl⟩
abbrev main_v338 : Ref sig .tc := ⟨.hbm, 439, rfl⟩
abbrev main_v339 : Ref sig .tc := ⟨.hbm, 440, rfl⟩
abbrev main_v340 : Ref sig .tc := ⟨.hbm, 441, rfl⟩
abbrev main_v341 : Ref sig .tc := ⟨.hbm, 442, rfl⟩
abbrev main_v342 : Ref sig .tc := ⟨.hbm, 443, rfl⟩
abbrev main_v343 : Ref sig .tc := ⟨.hbm, 444, rfl⟩
abbrev main_v344 : Ref sig .tc := ⟨.hbm, 445, rfl⟩
abbrev main_c_74 : Ref sig .tc := ⟨.hbm, 446, rfl⟩
abbrev main_v345 : Ref sig .tc := ⟨.hbm, 447, rfl⟩
abbrev main_v346 : Ref sig .tc := ⟨.hbm, 448, rfl⟩
abbrev main_c_75 : Ref sig .tc := ⟨.hbm, 449, rfl⟩
abbrev main_v347 : Ref sig .tc := ⟨.hbm, 450, rfl⟩
abbrev main_v348 : Ref sig .tc := ⟨.hbm, 451, rfl⟩
abbrev main_v349 : Ref sig .tc := ⟨.hbm, 452, rfl⟩
abbrev main_c_76 : Ref sig .tc := ⟨.hbm, 453, rfl⟩
abbrev main_v350 : Ref sig .tc := ⟨.hbm, 454, rfl⟩
abbrev main_v351 : Ref sig .tc := ⟨.hbm, 455, rfl⟩
abbrev main_c_77 : Ref sig .tc := ⟨.hbm, 456, rfl⟩
abbrev main_v352 : Ref sig .tc := ⟨.hbm, 457, rfl⟩
abbrev main_v353 : Ref sig .tc := ⟨.hbm, 458, rfl⟩
abbrev main_v354 : Ref sig .tc := ⟨.hbm, 459, rfl⟩
abbrev main_c_78 : Ref sig .tc := ⟨.hbm, 460, rfl⟩
abbrev main_v355 : Ref sig .tc := ⟨.hbm, 461, rfl⟩
abbrev main_v356 : Ref sig .tc := ⟨.hbm, 462, rfl⟩
abbrev main_c_79 : Ref sig .tc := ⟨.hbm, 463, rfl⟩
abbrev main_v357 : Ref sig .tc := ⟨.hbm, 464, rfl⟩
abbrev main_v358 : Ref sig .tc := ⟨.hbm, 465, rfl⟩
abbrev main_v359 : Ref sig .tc := ⟨.hbm, 466, rfl⟩
abbrev main_v360 : Ref sig .tc := ⟨.hbm, 467, rfl⟩
abbrev main_v361 : Ref sig .tc := ⟨.hbm, 468, rfl⟩
abbrev main_v362 : Ref sig .tc := ⟨.hbm, 469, rfl⟩
abbrev main_v363 : Ref sig .tc := ⟨.hbm, 470, rfl⟩
abbrev main_v364 : Ref sig .tc := ⟨.hbm, 471, rfl⟩
abbrev main_c_80 : Ref sig .tc := ⟨.hbm, 472, rfl⟩
abbrev main_v365 : Ref sig .tc := ⟨.hbm, 473, rfl⟩
abbrev main_v366 : Ref sig .tc := ⟨.hbm, 474, rfl⟩
abbrev main_c_81 : Ref sig .tc := ⟨.hbm, 475, rfl⟩
abbrev main_v367 : Ref sig .tc := ⟨.hbm, 476, rfl⟩
abbrev main_v368 : Ref sig .tc := ⟨.hbm, 477, rfl⟩
abbrev main_v369 : Ref sig .tc := ⟨.hbm, 478, rfl⟩
abbrev main_c_82 : Ref sig .tc := ⟨.hbm, 479, rfl⟩
abbrev main_v370 : Ref sig .tc := ⟨.hbm, 480, rfl⟩
abbrev main_v371 : Ref sig .tc := ⟨.hbm, 481, rfl⟩
abbrev main_c_83 : Ref sig .tc := ⟨.hbm, 482, rfl⟩
abbrev main_v372 : Ref sig .tc := ⟨.hbm, 483, rfl⟩
abbrev main_v373 : Ref sig .tc := ⟨.hbm, 484, rfl⟩
abbrev main_v374 : Ref sig .tc := ⟨.hbm, 485, rfl⟩
abbrev main_c_84 : Ref sig .tc := ⟨.hbm, 486, rfl⟩
abbrev main_v375 : Ref sig .tc := ⟨.hbm, 487, rfl⟩
abbrev main_v376 : Ref sig .tc := ⟨.hbm, 488, rfl⟩
abbrev main_c_85 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_c_86 : Ref sig .tc := ⟨.hbm, 498, rfl⟩
abbrev main_v385 : Ref sig .tc := ⟨.hbm, 499, rfl⟩
abbrev main_v386 : Ref sig .tc := ⟨.hbm, 500, rfl⟩
abbrev main_c_87 : Ref sig .tc := ⟨.hbm, 501, rfl⟩
abbrev main_v387 : Ref sig .tc := ⟨.hbm, 502, rfl⟩
abbrev main_v388 : Ref sig .tc := ⟨.hbm, 503, rfl⟩
abbrev main_v389 : Ref sig .tc := ⟨.hbm, 504, rfl⟩
abbrev main_c_88 : Ref sig .tc := ⟨.hbm, 505, rfl⟩
abbrev main_v390 : Ref sig .tc := ⟨.hbm, 506, rfl⟩
abbrev main_v391 : Ref sig .tc := ⟨.hbm, 507, rfl⟩
abbrev main_c_89 : Ref sig .tc := ⟨.hbm, 508, rfl⟩
abbrev main_v392 : Ref sig .tc := ⟨.hbm, 509, rfl⟩
abbrev main_v393 : Ref sig .tc := ⟨.hbm, 510, rfl⟩
abbrev main_v394 : Ref sig .tc := ⟨.hbm, 511, rfl⟩
abbrev main_c_90 : Ref sig .tc := ⟨.hbm, 512, rfl⟩
abbrev main_v395 : Ref sig .tc := ⟨.hbm, 513, rfl⟩
abbrev main_v396 : Ref sig .tc := ⟨.hbm, 514, rfl⟩
abbrev main_c_91 : Ref sig .tc := ⟨.hbm, 515, rfl⟩
abbrev main_v397 : Ref sig .tc := ⟨.hbm, 516, rfl⟩
abbrev main_v398 : Ref sig .tc := ⟨.hbm, 517, rfl⟩
abbrev main_v399 : Ref sig .tc := ⟨.hbm, 518, rfl⟩
abbrev main_v400 : Ref sig .tc := ⟨.hbm, 519, rfl⟩
abbrev main_v401 : Ref sig .tc := ⟨.hbm, 520, rfl⟩
abbrev main_v402 : Ref sig .tc := ⟨.hbm, 521, rfl⟩
abbrev main_v403 : Ref sig .tc := ⟨.hbm, 522, rfl⟩
abbrev main_v404 : Ref sig .tc := ⟨.hbm, 523, rfl⟩
abbrev main_c_92 : Ref sig .tc := ⟨.hbm, 524, rfl⟩
abbrev main_v405 : Ref sig .tc := ⟨.hbm, 525, rfl⟩
abbrev main_v406 : Ref sig .tc := ⟨.hbm, 526, rfl⟩
abbrev main_c_93 : Ref sig .tc := ⟨.hbm, 527, rfl⟩
abbrev main_v407 : Ref sig .tc := ⟨.hbm, 528, rfl⟩
abbrev main_v408 : Ref sig .tc := ⟨.hbm, 529, rfl⟩
abbrev main_v409 : Ref sig .tc := ⟨.hbm, 530, rfl⟩
abbrev main_c_94 : Ref sig .tc := ⟨.hbm, 531, rfl⟩
abbrev main_v410 : Ref sig .tc := ⟨.hbm, 532, rfl⟩
abbrev main_v411 : Ref sig .tc := ⟨.hbm, 533, rfl⟩
abbrev main_c_95 : Ref sig .tc := ⟨.hbm, 534, rfl⟩
abbrev main_v412 : Ref sig .tc := ⟨.hbm, 535, rfl⟩
abbrev main_v413 : Ref sig .tc := ⟨.hbm, 536, rfl⟩
abbrev main_v414 : Ref sig .tc := ⟨.hbm, 537, rfl⟩
abbrev main_c_96 : Ref sig .tc := ⟨.hbm, 538, rfl⟩
abbrev main_v415 : Ref sig .tc := ⟨.hbm, 539, rfl⟩
abbrev main_v416 : Ref sig .tc := ⟨.hbm, 540, rfl⟩
abbrev main_c_97 : Ref sig .tc := ⟨.hbm, 541, rfl⟩
abbrev main_v417 : Ref sig .tc := ⟨.hbm, 542, rfl⟩
abbrev main_v418 : Ref sig .tc := ⟨.hbm, 543, rfl⟩
abbrev main_v419 : Ref sig .tc := ⟨.hbm, 544, rfl⟩
abbrev main_v420 : Ref sig .tc := ⟨.hbm, 545, rfl⟩
abbrev main_v421 : Ref sig .tc := ⟨.hbm, 546, rfl⟩
abbrev main_v422 : Ref sig .tc := ⟨.hbm, 547, rfl⟩
abbrev main_v423 : Ref sig .tc := ⟨.hbm, 548, rfl⟩
abbrev main_v424 : Ref sig .tc := ⟨.hbm, 549, rfl⟩
abbrev main_c_98 : Ref sig .tc := ⟨.hbm, 550, rfl⟩
abbrev main_v425 : Ref sig .tc := ⟨.hbm, 551, rfl⟩
abbrev main_v426 : Ref sig .tc := ⟨.hbm, 552, rfl⟩
abbrev main_c_99 : Ref sig .tc := ⟨.hbm, 553, rfl⟩
abbrev main_v427 : Ref sig .tc := ⟨.hbm, 554, rfl⟩
abbrev main_v428 : Ref sig .tc := ⟨.hbm, 555, rfl⟩
abbrev main_v429 : Ref sig .tc := ⟨.hbm, 556, rfl⟩
abbrev main_c_100 : Ref sig .tc := ⟨.hbm, 557, rfl⟩
abbrev main_v430 : Ref sig .tc := ⟨.hbm, 558, rfl⟩
abbrev main_v431 : Ref sig .tc := ⟨.hbm, 559, rfl⟩
abbrev main_c_101 : Ref sig .tc := ⟨.hbm, 560, rfl⟩
abbrev main_v432 : Ref sig .tc := ⟨.hbm, 561, rfl⟩
abbrev main_v433 : Ref sig .tc := ⟨.hbm, 562, rfl⟩
abbrev main_v434 : Ref sig .tc := ⟨.hbm, 563, rfl⟩
abbrev main_c_102 : Ref sig .tc := ⟨.hbm, 564, rfl⟩
abbrev main_v435 : Ref sig .tc := ⟨.hbm, 565, rfl⟩
abbrev main_v436 : Ref sig .tc := ⟨.hbm, 566, rfl⟩
abbrev main_c_103 : Ref sig .tc := ⟨.hbm, 567, rfl⟩
abbrev main_v437 : Ref sig .tc := ⟨.hbm, 568, rfl⟩
abbrev main_v438 : Ref sig .tc := ⟨.hbm, 569, rfl⟩
abbrev main_v439 : Ref sig .tc := ⟨.hbm, 570, rfl⟩
abbrev main_v440 : Ref sig .tc := ⟨.hbm, 571, rfl⟩
abbrev main_v441 : Ref sig .tc := ⟨.hbm, 572, rfl⟩
abbrev main_v442 : Ref sig .tc := ⟨.hbm, 573, rfl⟩
abbrev main_v443 : Ref sig .tc := ⟨.hbm, 574, rfl⟩
abbrev main_v444 : Ref sig .tc := ⟨.hbm, 575, rfl⟩
abbrev main_c_104 : Ref sig .tc := ⟨.hbm, 576, rfl⟩
abbrev main_v445 : Ref sig .tc := ⟨.hbm, 577, rfl⟩
abbrev main_v446 : Ref sig .tc := ⟨.hbm, 578, rfl⟩
abbrev main_c_105 : Ref sig .tc := ⟨.hbm, 579, rfl⟩
abbrev main_v447 : Ref sig .tc := ⟨.hbm, 580, rfl⟩
abbrev main_v448 : Ref sig .tc := ⟨.hbm, 581, rfl⟩
abbrev main_v449 : Ref sig .tc := ⟨.hbm, 582, rfl⟩
abbrev main_c_106 : Ref sig .tc := ⟨.hbm, 583, rfl⟩
abbrev main_v450 : Ref sig .tc := ⟨.hbm, 584, rfl⟩
abbrev main_v451 : Ref sig .tc := ⟨.hbm, 585, rfl⟩
abbrev main_c_107 : Ref sig .tc := ⟨.hbm, 586, rfl⟩
abbrev main_v452 : Ref sig .tc := ⟨.hbm, 587, rfl⟩
abbrev main_v453 : Ref sig .tc := ⟨.hbm, 588, rfl⟩
abbrev main_v454 : Ref sig .tc := ⟨.hbm, 589, rfl⟩
abbrev main_c_108 : Ref sig .tc := ⟨.hbm, 590, rfl⟩
abbrev main_v455 : Ref sig .tc := ⟨.hbm, 591, rfl⟩
abbrev main_v456 : Ref sig .tc := ⟨.hbm, 592, rfl⟩
abbrev main_c_109 : Ref sig .tc := ⟨.hbm, 593, rfl⟩
abbrev main_v457 : Ref sig .tc := ⟨.hbm, 594, rfl⟩
abbrev main_v458 : Ref sig .tc := ⟨.hbm, 595, rfl⟩
abbrev main_v459 : Ref sig .tc := ⟨.hbm, 596, rfl⟩
abbrev main_v460 : Ref sig .tc := ⟨.hbm, 597, rfl⟩
abbrev main_v461 : Ref sig .tc := ⟨.hbm, 598, rfl⟩
abbrev main_v462 : Ref sig .tc := ⟨.hbm, 599, rfl⟩
abbrev main_v463 : Ref sig .tc := ⟨.hbm, 600, rfl⟩
abbrev main_v464 : Ref sig .tc := ⟨.hbm, 601, rfl⟩
abbrev main_v465 : Ref sig .tc := ⟨.hbm, 602, rfl⟩
abbrev main_v466 : Ref sig .tc := ⟨.hbm, 603, rfl⟩
abbrev main_v467 : Ref sig .tc := ⟨.hbm, 604, rfl⟩
abbrev main_v468 : Ref sig .tc := ⟨.hbm, 605, rfl⟩
abbrev main_v469 : Ref sig .tc := ⟨.hbm, 606, rfl⟩
abbrev main_v470 : Ref sig .tc := ⟨.hbm, 607, rfl⟩
abbrev main_v471 : Ref sig .tc := ⟨.hbm, 608, rfl⟩
abbrev main_v472 : Ref sig .tc := ⟨.hbm, 609, rfl⟩
abbrev main_v473 : Ref sig .tc := ⟨.hbm, 610, rfl⟩
abbrev main_v474 : Ref sig .tc := ⟨.hbm, 611, rfl⟩
abbrev main_v475 : Ref sig .tc := ⟨.hbm, 612, rfl⟩
abbrev main_v476 : Ref sig .tc := ⟨.hbm, 613, rfl⟩
abbrev main_v477 : Ref sig .tc := ⟨.hbm, 614, rfl⟩
abbrev main_v478 : Ref sig .tc := ⟨.hbm, 615, rfl⟩
abbrev main_v479 : Ref sig .tc := ⟨.hbm, 616, rfl⟩
abbrev main_v480 : Ref sig .tc := ⟨.hbm, 617, rfl⟩
abbrev main_v481 : Ref sig .tc := ⟨.hbm, 618, rfl⟩
abbrev main_v482 : Ref sig .tc := ⟨.hbm, 619, rfl⟩
abbrev main_v483 : Ref sig .tc := ⟨.hbm, 620, rfl⟩
abbrev main_v484 : Ref sig .tc := ⟨.hbm, 621, rfl⟩
abbrev main_v485 : Ref sig .tc := ⟨.hbm, 622, rfl⟩
abbrev main_v486 : Ref sig .tc := ⟨.hbm, 623, rfl⟩
abbrev main_v487 : Ref sig .tc := ⟨.hbm, 624, rfl⟩
abbrev main_v488 : Ref sig .tc := ⟨.hbm, 625, rfl⟩
abbrev main_v489 : Ref sig .tc := ⟨.hbm, 626, rfl⟩
abbrev main_v490 : Ref sig .tc := ⟨.hbm, 627, rfl⟩
abbrev main_v491 : Ref sig .tc := ⟨.hbm, 628, rfl⟩
abbrev main_v492 : Ref sig .tc := ⟨.hbm, 629, rfl⟩
abbrev main_v493 : Ref sig .tc := ⟨.hbm, 630, rfl⟩
abbrev main_v494 : Ref sig .tc := ⟨.hbm, 631, rfl⟩
abbrev main_v495 : Ref sig .tc := ⟨.hbm, 632, rfl⟩
abbrev main_v496 : Ref sig .tc := ⟨.hbm, 633, rfl⟩
abbrev main_v497 : Ref sig .tc := ⟨.hbm, 634, rfl⟩
abbrev main_v498 : Ref sig .tc := ⟨.hbm, 635, rfl⟩
abbrev main_v499 : Ref sig .tc := ⟨.hbm, 636, rfl⟩
abbrev main_v500 : Ref sig .tc := ⟨.hbm, 637, rfl⟩
abbrev main_v501 : Ref sig .tc := ⟨.hbm, 638, rfl⟩
abbrev main_v502 : Ref sig .tc := ⟨.hbm, 639, rfl⟩
abbrev main_v503 : Ref sig .tc := ⟨.hbm, 640, rfl⟩
abbrev main_v504 : Ref sig .tc := ⟨.hbm, 641, rfl⟩
abbrev main_v505 : Ref sig .tc := ⟨.hbm, 642, rfl⟩
abbrev main_c_110 : Ref sig .tc := ⟨.hbm, 643, rfl⟩
abbrev main_call11_v0 : Ref sig .tc := ⟨.hbm, 644, rfl⟩
abbrev main_v506 : Ref sig .tc := ⟨.hbm, 645, rfl⟩
abbrev main_c_111 : Ref sig .tc := ⟨.hbm, 646, rfl⟩
abbrev main_call12_v0 : Ref sig .tc := ⟨.hbm, 647, rfl⟩
abbrev main_v507 : Ref sig .tc := ⟨.hbm, 648, rfl⟩
abbrev main_c_112 : Ref sig .tc := ⟨.hbm, 649, rfl⟩
abbrev main_call13_v0 : Ref sig .tc := ⟨.hbm, 650, rfl⟩
abbrev main_v508 : Ref sig .tc := ⟨.hbm, 651, rfl⟩
abbrev main_c_113 : Ref sig .tc := ⟨.hbm, 652, rfl⟩
abbrev main_call14_v0 : Ref sig .tc := ⟨.hbm, 653, rfl⟩
abbrev main_v509 : Ref sig .tc := ⟨.hbm, 654, rfl⟩
abbrev main_c_114 : Ref sig .tc := ⟨.hbm, 655, rfl⟩
abbrev main_call15_v0 : Ref sig .tc := ⟨.hbm, 656, rfl⟩
abbrev main_v510 : Ref sig .tc := ⟨.hbm, 657, rfl⟩
abbrev main_c_115 : Ref sig .tc := ⟨.hbm, 658, rfl⟩
abbrev main_call16_v0 : Ref sig .tc := ⟨.hbm, 659, rfl⟩
abbrev main_v511 : Ref sig .tc := ⟨.hbm, 660, rfl⟩
abbrev main_c_116 : Ref sig .tc := ⟨.hbm, 661, rfl⟩
abbrev main_call17_v0 : Ref sig .tc := ⟨.hbm, 662, rfl⟩
abbrev main_v512 : Ref sig .tc := ⟨.hbm, 663, rfl⟩
abbrev main_c_117 : Ref sig .tc := ⟨.hbm, 664, rfl⟩
abbrev main_call18_v0 : Ref sig .tc := ⟨.hbm, 665, rfl⟩
abbrev main_v513 : Ref sig .tc := ⟨.hbm, 666, rfl⟩
abbrev main_c_118 : Ref sig .tc := ⟨.hbm, 667, rfl⟩
abbrev main_call19_v0 : Ref sig .tc := ⟨.hbm, 668, rfl⟩
abbrev main_v514 : Ref sig .tc := ⟨.hbm, 669, rfl⟩
abbrev main_v515 : Ref sig .tc := ⟨.hbm, 670, rfl⟩
abbrev main_v516 : Ref sig .tc := ⟨.hbm, 671, rfl⟩
abbrev main_v517 : Ref sig .tc := ⟨.hbm, 672, rfl⟩
abbrev main_v518 : Ref sig .tc := ⟨.hbm, 673, rfl⟩
abbrev main_v519 : Ref sig .tc := ⟨.hbm, 674, rfl⟩
abbrev main_v520 : Ref sig .tc := ⟨.hbm, 675, rfl⟩
abbrev main_cst_119 : Ref sig .tc := ⟨.hbm, 676, rfl⟩
abbrev main_cst_120 : Ref sig .tc := ⟨.hbm, 677, rfl⟩
abbrev main_call20_v0 : Ref sig .tc := ⟨.hbm, 678, rfl⟩
abbrev main_call20_v1 : Ref sig .tc := ⟨.hbm, 679, rfl⟩
abbrev main_call20_v2 : Ref sig .tc := ⟨.hbm, 680, rfl⟩
abbrev main_call20_v3 : Ref sig .tc := ⟨.hbm, 681, rfl⟩
abbrev main_call20_v4 : Ref sig .tc := ⟨.hbm, 682, rfl⟩
abbrev main_v521 : Ref sig .tc := ⟨.hbm, 683, rfl⟩
abbrev main_v522 : Ref sig .tc := ⟨.hbm, 684, rfl⟩
abbrev main_v523 : Ref sig .tc := ⟨.hbm, 685, rfl⟩
abbrev main_v524 : Ref sig .tc := ⟨.hbm, 686, rfl⟩
abbrev main_v525 : Ref sig .tc := ⟨.hbm, 687, rfl⟩
abbrev main_v526 : Ref sig .tc := ⟨.hbm, 688, rfl⟩
abbrev main_v527 : Ref sig .tc := ⟨.hbm, 689, rfl⟩
abbrev main_v528 : Ref sig .tc := ⟨.hbm, 690, rfl⟩
abbrev main_v529 : Ref sig .tc := ⟨.hbm, 691, rfl⟩
abbrev main_v530 : Ref sig .tc := ⟨.hbm, 692, rfl⟩
abbrev main_v531 : Ref sig .tc := ⟨.hbm, 693, rfl⟩
abbrev main_v532 : Ref sig .tc := ⟨.hbm, 694, rfl⟩
abbrev main_v533 : Ref sig .tc := ⟨.hbm, 695, rfl⟩
abbrev main_v534 : Ref sig .tc := ⟨.hbm, 696, rfl⟩
abbrev main_v535 : Ref sig .tc := ⟨.hbm, 697, rfl⟩
abbrev main_v536 : Ref sig .tc := ⟨.hbm, 698, rfl⟩
abbrev main_v537 : Ref sig .tc := ⟨.hbm, 699, rfl⟩
abbrev main_v538 : Ref sig .tc := ⟨.hbm, 700, rfl⟩
abbrev main_v539 : Ref sig .tc := ⟨.hbm, 701, rfl⟩
abbrev main_v540 : Ref sig .tc := ⟨.hbm, 702, rfl⟩
abbrev main_v541 : Ref sig .tc := ⟨.hbm, 703, rfl⟩
abbrev main_v542 : Ref sig .tc := ⟨.hbm, 704, rfl⟩
abbrev main_v543 : Ref sig .tc := ⟨.hbm, 705, rfl⟩
abbrev main_v544 : Ref sig .tc := ⟨.hbm, 706, rfl⟩
abbrev main_v545 : Ref sig .tc := ⟨.hbm, 707, rfl⟩
abbrev main_v546 : Ref sig .tc := ⟨.hbm, 708, rfl⟩
abbrev main_v547 : Ref sig .tc := ⟨.hbm, 709, rfl⟩
abbrev main_v548 : Ref sig .tc := ⟨.hbm, 710, rfl⟩
abbrev main_v549 : Ref sig .tc := ⟨.hbm, 711, rfl⟩
abbrev main_v550 : Ref sig .tc := ⟨.hbm, 712, rfl⟩
abbrev main_v551 : Ref sig .tc := ⟨.hbm, 713, rfl⟩
abbrev main_v552 : Ref sig .tc := ⟨.hbm, 714, rfl⟩
abbrev main_v553 : Ref sig .tc := ⟨.hbm, 715, rfl⟩
abbrev main_v554 : Ref sig .tc := ⟨.hbm, 716, rfl⟩
abbrev main_v555 : Ref sig .tc := ⟨.hbm, 717, rfl⟩
abbrev main_v556 : Ref sig .tc := ⟨.hbm, 718, rfl⟩
abbrev main_v557 : Ref sig .tc := ⟨.hbm, 719, rfl⟩
abbrev main_v558 : Ref sig .tc := ⟨.hbm, 720, rfl⟩
abbrev main_v559 : Ref sig .tc := ⟨.hbm, 721, rfl⟩
abbrev main_v560 : Ref sig .tc := ⟨.hbm, 722, rfl⟩
abbrev main_v561 : Ref sig .tc := ⟨.hbm, 723, rfl⟩
abbrev main_v562 : Ref sig .tc := ⟨.hbm, 724, rfl⟩
abbrev main_v563 : Ref sig .tc := ⟨.hbm, 725, rfl⟩
abbrev main_c_121 : Ref sig .tc := ⟨.hbm, 726, rfl⟩
abbrev main_v564 : Ref sig .tc := ⟨.hbm, 727, rfl⟩
abbrev main_v565 : Ref sig .tc := ⟨.hbm, 728, rfl⟩
abbrev main_c_122 : Ref sig .tc := ⟨.hbm, 729, rfl⟩
abbrev main_v566 : Ref sig .tc := ⟨.hbm, 730, rfl⟩
abbrev main_v567 : Ref sig .tc := ⟨.hbm, 731, rfl⟩
abbrev main_v568 : Ref sig .tc := ⟨.hbm, 732, rfl⟩
abbrev main_c_123 : Ref sig .tc := ⟨.hbm, 733, rfl⟩
abbrev main_v569 : Ref sig .tc := ⟨.hbm, 734, rfl⟩
abbrev main_v570 : Ref sig .tc := ⟨.hbm, 735, rfl⟩
abbrev main_c_124 : Ref sig .tc := ⟨.hbm, 736, rfl⟩
abbrev main_v571 : Ref sig .tc := ⟨.hbm, 737, rfl⟩
abbrev main_v572 : Ref sig .tc := ⟨.hbm, 738, rfl⟩
abbrev main_v573 : Ref sig .tc := ⟨.hbm, 739, rfl⟩
abbrev main_c_125 : Ref sig .tc := ⟨.hbm, 740, rfl⟩
abbrev main_v574 : Ref sig .tc := ⟨.hbm, 741, rfl⟩
abbrev main_v575 : Ref sig .tc := ⟨.hbm, 742, rfl⟩
abbrev main_c_126 : Ref sig .tc := ⟨.hbm, 743, rfl⟩
abbrev main_v576 : Ref sig .tc := ⟨.hbm, 744, rfl⟩
abbrev main_v577 : Ref sig .tc := ⟨.hbm, 745, rfl⟩
abbrev main_v578 : Ref sig .tc := ⟨.hbm, 746, rfl⟩
abbrev main_v579 : Ref sig .tc := ⟨.hbm, 747, rfl⟩
abbrev main_v580 : Ref sig .tc := ⟨.hbm, 748, rfl⟩
abbrev main_v581 : Ref sig .tc := ⟨.hbm, 749, rfl⟩
abbrev main_v582 : Ref sig .tc := ⟨.hbm, 750, rfl⟩
abbrev main_v583 : Ref sig .tc := ⟨.hbm, 751, rfl⟩
abbrev main_c_127 : Ref sig .tc := ⟨.hbm, 752, rfl⟩
abbrev main_v584 : Ref sig .tc := ⟨.hbm, 753, rfl⟩
abbrev main_v585 : Ref sig .tc := ⟨.hbm, 754, rfl⟩
abbrev main_c_128 : Ref sig .tc := ⟨.hbm, 755, rfl⟩
abbrev main_v586 : Ref sig .tc := ⟨.hbm, 756, rfl⟩
abbrev main_v587 : Ref sig .tc := ⟨.hbm, 757, rfl⟩
abbrev main_v588 : Ref sig .tc := ⟨.hbm, 758, rfl⟩
abbrev main_c_129 : Ref sig .tc := ⟨.hbm, 759, rfl⟩
abbrev main_v589 : Ref sig .tc := ⟨.hbm, 760, rfl⟩
abbrev main_v590 : Ref sig .tc := ⟨.hbm, 761, rfl⟩
abbrev main_c_130 : Ref sig .tc := ⟨.hbm, 762, rfl⟩
abbrev main_v591 : Ref sig .tc := ⟨.hbm, 763, rfl⟩
abbrev main_v592 : Ref sig .tc := ⟨.hbm, 764, rfl⟩
abbrev main_v593 : Ref sig .tc := ⟨.hbm, 765, rfl⟩
abbrev main_c_131 : Ref sig .tc := ⟨.hbm, 766, rfl⟩
abbrev main_v594 : Ref sig .tc := ⟨.hbm, 767, rfl⟩
abbrev main_v595 : Ref sig .tc := ⟨.hbm, 768, rfl⟩
abbrev main_c_132 : Ref sig .tc := ⟨.hbm, 769, rfl⟩
abbrev main_v596 : Ref sig .tc := ⟨.hbm, 770, rfl⟩
abbrev main_v597 : Ref sig .tc := ⟨.hbm, 771, rfl⟩
abbrev main_v598 : Ref sig .tc := ⟨.hbm, 772, rfl⟩
abbrev main_v599 : Ref sig .tc := ⟨.hbm, 773, rfl⟩
abbrev main_v600 : Ref sig .tc := ⟨.hbm, 774, rfl⟩
abbrev main_v601 : Ref sig .tc := ⟨.hbm, 775, rfl⟩
abbrev main_v602 : Ref sig .tc := ⟨.hbm, 776, rfl⟩
abbrev main_v603 : Ref sig .tc := ⟨.hbm, 777, rfl⟩
abbrev main_c_133 : Ref sig .tc := ⟨.hbm, 778, rfl⟩
abbrev main_v604 : Ref sig .tc := ⟨.hbm, 779, rfl⟩
abbrev main_v605 : Ref sig .tc := ⟨.hbm, 780, rfl⟩
abbrev main_c_134 : Ref sig .tc := ⟨.hbm, 781, rfl⟩
abbrev main_v606 : Ref sig .tc := ⟨.hbm, 782, rfl⟩
abbrev main_v607 : Ref sig .tc := ⟨.hbm, 783, rfl⟩
abbrev main_v608 : Ref sig .tc := ⟨.hbm, 784, rfl⟩
abbrev main_c_135 : Ref sig .tc := ⟨.hbm, 785, rfl⟩
abbrev main_v609 : Ref sig .tc := ⟨.hbm, 786, rfl⟩
abbrev main_v610 : Ref sig .tc := ⟨.hbm, 787, rfl⟩
abbrev main_c_136 : Ref sig .tc := ⟨.hbm, 788, rfl⟩
abbrev main_v611 : Ref sig .tc := ⟨.hbm, 789, rfl⟩
abbrev main_v612 : Ref sig .tc := ⟨.hbm, 790, rfl⟩
abbrev main_v613 : Ref sig .tc := ⟨.hbm, 791, rfl⟩
abbrev main_c_137 : Ref sig .tc := ⟨.hbm, 792, rfl⟩
abbrev main_v614 : Ref sig .tc := ⟨.hbm, 793, rfl⟩
abbrev main_v615 : Ref sig .tc := ⟨.hbm, 794, rfl⟩
abbrev main_c_138 : Ref sig .tc := ⟨.hbm, 795, rfl⟩
abbrev main_v616 : Ref sig .tc := ⟨.hbm, 796, rfl⟩
abbrev main_v617 : Ref sig .tc := ⟨.hbm, 797, rfl⟩
abbrev main_v618 : Ref sig .tc := ⟨.hbm, 798, rfl⟩
abbrev main_v619 : Ref sig .tc := ⟨.hbm, 799, rfl⟩
abbrev main_v620 : Ref sig .tc := ⟨.hbm, 800, rfl⟩
abbrev main_v621 : Ref sig .tc := ⟨.hbm, 801, rfl⟩
abbrev main_v622 : Ref sig .tc := ⟨.hbm, 802, rfl⟩
abbrev main_v623 : Ref sig .tc := ⟨.hbm, 803, rfl⟩
abbrev main_c_139 : Ref sig .tc := ⟨.hbm, 804, rfl⟩
abbrev main_v624 : Ref sig .tc := ⟨.hbm, 805, rfl⟩
abbrev main_v625 : Ref sig .tc := ⟨.hbm, 806, rfl⟩
abbrev main_c_140 : Ref sig .tc := ⟨.hbm, 807, rfl⟩
abbrev main_v626 : Ref sig .tc := ⟨.hbm, 808, rfl⟩
abbrev main_v627 : Ref sig .tc := ⟨.hbm, 809, rfl⟩
abbrev main_v628 : Ref sig .tc := ⟨.hbm, 810, rfl⟩
abbrev main_c_141 : Ref sig .tc := ⟨.hbm, 811, rfl⟩
abbrev main_v629 : Ref sig .tc := ⟨.hbm, 812, rfl⟩
abbrev main_v630 : Ref sig .tc := ⟨.hbm, 813, rfl⟩
abbrev main_c_142 : Ref sig .tc := ⟨.hbm, 814, rfl⟩
abbrev main_v631 : Ref sig .tc := ⟨.hbm, 815, rfl⟩
abbrev main_v632 : Ref sig .tc := ⟨.hbm, 816, rfl⟩
abbrev main_v633 : Ref sig .tc := ⟨.hbm, 817, rfl⟩
abbrev main_c_143 : Ref sig .tc := ⟨.hbm, 818, rfl⟩
abbrev main_v634 : Ref sig .tc := ⟨.hbm, 819, rfl⟩
abbrev main_v635 : Ref sig .tc := ⟨.hbm, 820, rfl⟩
abbrev main_c_144 : Ref sig .tc := ⟨.hbm, 821, rfl⟩
abbrev main_v636 : Ref sig .tc := ⟨.hbm, 822, rfl⟩
abbrev main_v637 : Ref sig .tc := ⟨.hbm, 823, rfl⟩
abbrev main_v638 : Ref sig .tc := ⟨.hbm, 824, rfl⟩
abbrev main_v639 : Ref sig .tc := ⟨.hbm, 825, rfl⟩
abbrev main_v640 : Ref sig .tc := ⟨.hbm, 826, rfl⟩
abbrev main_v641 : Ref sig .tc := ⟨.hbm, 827, rfl⟩
abbrev main_v642 : Ref sig .tc := ⟨.hbm, 828, rfl⟩
abbrev main_v643 : Ref sig .tc := ⟨.hbm, 829, rfl⟩
abbrev main_c_145 : Ref sig .tc := ⟨.hbm, 830, rfl⟩
abbrev main_v644 : Ref sig .tc := ⟨.hbm, 831, rfl⟩
abbrev main_v645 : Ref sig .tc := ⟨.hbm, 832, rfl⟩
abbrev main_c_146 : Ref sig .tc := ⟨.hbm, 833, rfl⟩
abbrev main_v646 : Ref sig .tc := ⟨.hbm, 834, rfl⟩
abbrev main_v647 : Ref sig .tc := ⟨.hbm, 835, rfl⟩
abbrev main_v648 : Ref sig .tc := ⟨.hbm, 836, rfl⟩
abbrev main_c_147 : Ref sig .tc := ⟨.hbm, 837, rfl⟩
abbrev main_v649 : Ref sig .tc := ⟨.hbm, 838, rfl⟩
abbrev main_v650 : Ref sig .tc := ⟨.hbm, 839, rfl⟩
abbrev main_c_148 : Ref sig .tc := ⟨.hbm, 840, rfl⟩
abbrev main_v651 : Ref sig .tc := ⟨.hbm, 841, rfl⟩
abbrev main_v652 : Ref sig .tc := ⟨.hbm, 842, rfl⟩
abbrev main_v653 : Ref sig .tc := ⟨.hbm, 843, rfl⟩
abbrev main_c_149 : Ref sig .tc := ⟨.hbm, 844, rfl⟩
abbrev main_v654 : Ref sig .tc := ⟨.hbm, 845, rfl⟩
abbrev main_v655 : Ref sig .tc := ⟨.hbm, 846, rfl⟩
abbrev main_c_150 : Ref sig .tc := ⟨.hbm, 847, rfl⟩
abbrev main_v656 : Ref sig .tc := ⟨.hbm, 848, rfl⟩
abbrev main_v657 : Ref sig .tc := ⟨.hbm, 849, rfl⟩
abbrev main_v658 : Ref sig .tc := ⟨.hbm, 850, rfl⟩
abbrev main_v659 : Ref sig .tc := ⟨.hbm, 851, rfl⟩
abbrev main_v660 : Ref sig .tc := ⟨.hbm, 852, rfl⟩
abbrev main_v661 : Ref sig .tc := ⟨.hbm, 853, rfl⟩
abbrev main_v662 : Ref sig .tc := ⟨.hbm, 854, rfl⟩
abbrev main_v663 : Ref sig .tc := ⟨.hbm, 855, rfl⟩
abbrev main_c_151 : Ref sig .tc := ⟨.hbm, 856, rfl⟩
abbrev main_v664 : Ref sig .tc := ⟨.hbm, 857, rfl⟩
abbrev main_v665 : Ref sig .tc := ⟨.hbm, 858, rfl⟩
abbrev main_c_152 : Ref sig .tc := ⟨.hbm, 859, rfl⟩
abbrev main_v666 : Ref sig .tc := ⟨.hbm, 860, rfl⟩
abbrev main_v667 : Ref sig .tc := ⟨.hbm, 861, rfl⟩
abbrev main_v668 : Ref sig .tc := ⟨.hbm, 862, rfl⟩
abbrev main_c_153 : Ref sig .tc := ⟨.hbm, 863, rfl⟩
abbrev main_v669 : Ref sig .tc := ⟨.hbm, 864, rfl⟩
abbrev main_v670 : Ref sig .tc := ⟨.hbm, 865, rfl⟩
abbrev main_c_154 : Ref sig .tc := ⟨.hbm, 866, rfl⟩
abbrev main_v671 : Ref sig .tc := ⟨.hbm, 867, rfl⟩
abbrev main_v672 : Ref sig .tc := ⟨.hbm, 868, rfl⟩
abbrev main_v673 : Ref sig .tc := ⟨.hbm, 869, rfl⟩
abbrev main_c_155 : Ref sig .tc := ⟨.hbm, 870, rfl⟩
abbrev main_v674 : Ref sig .tc := ⟨.hbm, 871, rfl⟩
abbrev main_v675 : Ref sig .tc := ⟨.hbm, 872, rfl⟩
abbrev main_c_156 : Ref sig .tc := ⟨.hbm, 873, rfl⟩
abbrev main_v676 : Ref sig .tc := ⟨.hbm, 874, rfl⟩
abbrev main_v677 : Ref sig .tc := ⟨.hbm, 875, rfl⟩
abbrev main_v678 : Ref sig .tc := ⟨.hbm, 876, rfl⟩
abbrev main_v679 : Ref sig .tc := ⟨.hbm, 877, rfl⟩
abbrev main_v680 : Ref sig .tc := ⟨.hbm, 878, rfl⟩
abbrev main_v681 : Ref sig .tc := ⟨.hbm, 879, rfl⟩
abbrev main_v682 : Ref sig .tc := ⟨.hbm, 880, rfl⟩
abbrev main_v683 : Ref sig .tc := ⟨.hbm, 881, rfl⟩
abbrev main_c_157 : Ref sig .tc := ⟨.hbm, 882, rfl⟩
abbrev main_v684 : Ref sig .tc := ⟨.hbm, 883, rfl⟩
abbrev main_v685 : Ref sig .tc := ⟨.hbm, 884, rfl⟩
abbrev main_c_158 : Ref sig .tc := ⟨.hbm, 885, rfl⟩
abbrev main_v686 : Ref sig .tc := ⟨.hbm, 886, rfl⟩
abbrev main_v687 : Ref sig .tc := ⟨.hbm, 887, rfl⟩
abbrev main_v688 : Ref sig .tc := ⟨.hbm, 888, rfl⟩
abbrev main_c_159 : Ref sig .tc := ⟨.hbm, 889, rfl⟩
abbrev main_v689 : Ref sig .tc := ⟨.hbm, 890, rfl⟩
abbrev main_v690 : Ref sig .tc := ⟨.hbm, 891, rfl⟩
abbrev main_c_160 : Ref sig .tc := ⟨.hbm, 892, rfl⟩
abbrev main_v691 : Ref sig .tc := ⟨.hbm, 893, rfl⟩
abbrev main_v692 : Ref sig .tc := ⟨.hbm, 894, rfl⟩
abbrev main_v693 : Ref sig .tc := ⟨.hbm, 895, rfl⟩
abbrev main_c_161 : Ref sig .tc := ⟨.hbm, 896, rfl⟩
abbrev main_v694 : Ref sig .tc := ⟨.hbm, 897, rfl⟩
abbrev main_v695 : Ref sig .tc := ⟨.hbm, 898, rfl⟩
abbrev main_c_162 : Ref sig .tc := ⟨.hbm, 899, rfl⟩
abbrev main_v696 : Ref sig .tc := ⟨.hbm, 900, rfl⟩
abbrev main_v697 : Ref sig .tc := ⟨.hbm, 901, rfl⟩
abbrev main_v698 : Ref sig .tc := ⟨.hbm, 902, rfl⟩
abbrev main_v699 : Ref sig .tc := ⟨.hbm, 903, rfl⟩
abbrev main_v700 : Ref sig .tc := ⟨.hbm, 904, rfl⟩
abbrev main_v701 : Ref sig .tc := ⟨.hbm, 905, rfl⟩
abbrev main_v702 : Ref sig .tc := ⟨.hbm, 906, rfl⟩
abbrev main_v703 : Ref sig .tc := ⟨.hbm, 907, rfl⟩
abbrev main_c_163 : Ref sig .tc := ⟨.hbm, 908, rfl⟩
abbrev main_v704 : Ref sig .tc := ⟨.hbm, 909, rfl⟩
abbrev main_v705 : Ref sig .tc := ⟨.hbm, 910, rfl⟩
abbrev main_c_164 : Ref sig .tc := ⟨.hbm, 911, rfl⟩
abbrev main_v706 : Ref sig .tc := ⟨.hbm, 912, rfl⟩
abbrev main_v707 : Ref sig .tc := ⟨.hbm, 913, rfl⟩
abbrev main_v708 : Ref sig .tc := ⟨.hbm, 914, rfl⟩
abbrev main_c_165 : Ref sig .tc := ⟨.hbm, 915, rfl⟩
abbrev main_v709 : Ref sig .tc := ⟨.hbm, 916, rfl⟩
abbrev main_v710 : Ref sig .tc := ⟨.hbm, 917, rfl⟩
abbrev main_c_166 : Ref sig .tc := ⟨.hbm, 918, rfl⟩
abbrev main_v711 : Ref sig .tc := ⟨.hbm, 919, rfl⟩
abbrev main_v712 : Ref sig .tc := ⟨.hbm, 920, rfl⟩
abbrev main_v713 : Ref sig .tc := ⟨.hbm, 921, rfl⟩
abbrev main_c_167 : Ref sig .tc := ⟨.hbm, 922, rfl⟩
abbrev main_v714 : Ref sig .tc := ⟨.hbm, 923, rfl⟩
abbrev main_v715 : Ref sig .tc := ⟨.hbm, 924, rfl⟩
abbrev main_c_168 : Ref sig .tc := ⟨.hbm, 925, rfl⟩
abbrev main_v716 : Ref sig .tc := ⟨.hbm, 926, rfl⟩
abbrev main_v717 : Ref sig .tc := ⟨.hbm, 927, rfl⟩
abbrev main_v718 : Ref sig .tc := ⟨.hbm, 928, rfl⟩
abbrev main_v719 : Ref sig .tc := ⟨.hbm, 929, rfl⟩
abbrev main_v720 : Ref sig .tc := ⟨.hbm, 930, rfl⟩
abbrev main_v721 : Ref sig .tc := ⟨.hbm, 931, rfl⟩
abbrev main_v722 : Ref sig .tc := ⟨.hbm, 932, rfl⟩
abbrev main_v723 : Ref sig .tc := ⟨.hbm, 933, rfl⟩
abbrev main_v724 : Ref sig .tc := ⟨.hbm, 934, rfl⟩
abbrev main_v725 : Ref sig .tc := ⟨.hbm, 935, rfl⟩
abbrev main_v726 : Ref sig .tc := ⟨.hbm, 936, rfl⟩
abbrev main_v727 : Ref sig .tc := ⟨.hbm, 937, rfl⟩
abbrev main_v728 : Ref sig .tc := ⟨.hbm, 938, rfl⟩
abbrev main_v729 : Ref sig .tc := ⟨.hbm, 939, rfl⟩
abbrev main_v730 : Ref sig .tc := ⟨.hbm, 940, rfl⟩
abbrev main_v731 : Ref sig .tc := ⟨.hbm, 941, rfl⟩
abbrev main_v732 : Ref sig .tc := ⟨.hbm, 942, rfl⟩
abbrev main_v733 : Ref sig .tc := ⟨.hbm, 943, rfl⟩
abbrev main_v734 : Ref sig .tc := ⟨.hbm, 944, rfl⟩
abbrev main_v735 : Ref sig .tc := ⟨.hbm, 945, rfl⟩
abbrev main_v736 : Ref sig .tc := ⟨.hbm, 946, rfl⟩
abbrev main_v737 : Ref sig .tc := ⟨.hbm, 947, rfl⟩
abbrev main_v738 : Ref sig .tc := ⟨.hbm, 948, rfl⟩
abbrev main_v739 : Ref sig .tc := ⟨.hbm, 949, rfl⟩
abbrev main_v740 : Ref sig .tc := ⟨.hbm, 950, rfl⟩
abbrev main_v741 : Ref sig .tc := ⟨.hbm, 951, rfl⟩
abbrev main_v742 : Ref sig .tc := ⟨.hbm, 952, rfl⟩
abbrev main_v743 : Ref sig .tc := ⟨.hbm, 953, rfl⟩
abbrev main_v744 : Ref sig .tc := ⟨.hbm, 954, rfl⟩
abbrev main_v745 : Ref sig .tc := ⟨.hbm, 955, rfl⟩
abbrev main_v746 : Ref sig .tc := ⟨.hbm, 956, rfl⟩
abbrev main_v747 : Ref sig .tc := ⟨.hbm, 957, rfl⟩
abbrev main_v748 : Ref sig .tc := ⟨.hbm, 958, rfl⟩
abbrev main_v749 : Ref sig .tc := ⟨.hbm, 959, rfl⟩
abbrev main_v750 : Ref sig .tc := ⟨.hbm, 960, rfl⟩
abbrev main_v751 : Ref sig .tc := ⟨.hbm, 961, rfl⟩
abbrev main_v752 : Ref sig .tc := ⟨.hbm, 962, rfl⟩
abbrev main_v753 : Ref sig .tc := ⟨.hbm, 963, rfl⟩
abbrev main_v754 : Ref sig .tc := ⟨.hbm, 964, rfl⟩
abbrev main_v755 : Ref sig .tc := ⟨.hbm, 965, rfl⟩
abbrev main_v756 : Ref sig .tc := ⟨.hbm, 966, rfl⟩
abbrev main_v757 : Ref sig .tc := ⟨.hbm, 967, rfl⟩
abbrev main_v758 : Ref sig .tc := ⟨.hbm, 968, rfl⟩
abbrev main_v759 : Ref sig .tc := ⟨.hbm, 969, rfl⟩
abbrev main_v760 : Ref sig .tc := ⟨.hbm, 970, rfl⟩
abbrev main_v761 : Ref sig .tc := ⟨.hbm, 971, rfl⟩
abbrev main_v762 : Ref sig .tc := ⟨.hbm, 972, rfl⟩
abbrev main_v763 : Ref sig .tc := ⟨.hbm, 973, rfl⟩
abbrev main_v764 : Ref sig .tc := ⟨.hbm, 974, rfl⟩
abbrev main_c_169 : Ref sig .tc := ⟨.hbm, 975, rfl⟩
abbrev main_call21_v0 : Ref sig .tc := ⟨.hbm, 976, rfl⟩
abbrev main_v765 : Ref sig .tc := ⟨.hbm, 977, rfl⟩
abbrev main_c_170 : Ref sig .tc := ⟨.hbm, 978, rfl⟩
abbrev main_call22_v0 : Ref sig .tc := ⟨.hbm, 979, rfl⟩
abbrev main_v766 : Ref sig .tc := ⟨.hbm, 980, rfl⟩
abbrev main_c_171 : Ref sig .tc := ⟨.hbm, 981, rfl⟩
abbrev main_call23_v0 : Ref sig .tc := ⟨.hbm, 982, rfl⟩
abbrev main_v767 : Ref sig .tc := ⟨.hbm, 983, rfl⟩
abbrev main_c_172 : Ref sig .tc := ⟨.hbm, 984, rfl⟩
abbrev main_call24_v0 : Ref sig .tc := ⟨.hbm, 985, rfl⟩
abbrev main_v768 : Ref sig .tc := ⟨.hbm, 986, rfl⟩
abbrev main_c_173 : Ref sig .tc := ⟨.hbm, 987, rfl⟩
abbrev main_call25_v0 : Ref sig .tc := ⟨.hbm, 988, rfl⟩
abbrev main_v769 : Ref sig .tc := ⟨.hbm, 989, rfl⟩
abbrev main_c_174 : Ref sig .tc := ⟨.hbm, 990, rfl⟩
abbrev main_call26_v0 : Ref sig .tc := ⟨.hbm, 991, rfl⟩
abbrev main_v770 : Ref sig .tc := ⟨.hbm, 992, rfl⟩
abbrev main_c_175 : Ref sig .tc := ⟨.hbm, 993, rfl⟩
abbrev main_call27_v0 : Ref sig .tc := ⟨.hbm, 994, rfl⟩
abbrev main_v771 : Ref sig .tc := ⟨.hbm, 995, rfl⟩
abbrev main_c_176 : Ref sig .tc := ⟨.hbm, 996, rfl⟩
abbrev main_call28_v0 : Ref sig .tc := ⟨.hbm, 997, rfl⟩
abbrev main_v772 : Ref sig .tc := ⟨.hbm, 998, rfl⟩
abbrev main_c_177 : Ref sig .tc := ⟨.hbm, 999, rfl⟩
abbrev main_call29_v0 : Ref sig .tc := ⟨.hbm, 1000, rfl⟩
abbrev main_v773 : Ref sig .tc := ⟨.hbm, 1001, rfl⟩
abbrev main_v774 : Ref sig .tc := ⟨.hbm, 1002, rfl⟩
abbrev main_v775 : Ref sig .tc := ⟨.hbm, 1003, rfl⟩
abbrev main_v776 : Ref sig .tc := ⟨.hbm, 1004, rfl⟩
abbrev main_v777 : Ref sig .tc := ⟨.hbm, 1005, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg2_1 : Ref sig .tc := ⟨.vmem, 45, rfl⟩
abbrev cc2_stg3_0 : Ref sig .tc := ⟨.vmem, 46, rfl⟩
abbrev cc2_stg3_1 : Ref sig .tc := ⟨.vmem, 47, rfl⟩
abbrev cc2_stg4_0 : Ref sig .tc := ⟨.vmem, 48, rfl⟩
abbrev cc2_stg4_1 : Ref sig .tc := ⟨.vmem, 49, rfl⟩
abbrev cc2_stg5_0 : Ref sig .tc := ⟨.vmem, 50, rfl⟩
abbrev cc2_stg5_1 : Ref sig .tc := ⟨.vmem, 51, rfl⟩
abbrev cc2_stg6_0 : Ref sig .tc := ⟨.vmem, 52, rfl⟩
abbrev cc2_stg6_1 : Ref sig .tc := ⟨.vmem, 53, rfl⟩
abbrev cc2_stg7_0 : Ref sig .tc := ⟨.vmem, 54, rfl⟩
abbrev cc2_stg7_1 : Ref sig .tc := ⟨.vmem, 55, rfl⟩
abbrev cc2_stg8_0 : Ref sig .tc := ⟨.vmem, 56, rfl⟩
abbrev cc2_stg8_1 : Ref sig .tc := ⟨.vmem, 57, rfl⟩
abbrev cc2_stg9_0 : Ref sig .tc := ⟨.vmem, 58, rfl⟩
abbrev cc2_stg9_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem3_1 : DmaSem sig := 47
abbrev cc2_sem4_0 : DmaSem sig := 48
abbrev cc2_sem4_1 : DmaSem sig := 49
abbrev cc2_sem5_0 : DmaSem sig := 50
abbrev cc2_sem5_1 : DmaSem sig := 51
abbrev cc2_sem6_0 : DmaSem sig := 52
abbrev cc2_sem6_1 : DmaSem sig := 53
abbrev cc2_sem7_0 : DmaSem sig := 54
abbrev cc2_sem7_1 : DmaSem sig := 55
abbrev cc2_sem8_0 : DmaSem sig := 56
abbrev cc2_sem8_1 : DmaSem sig := 57
abbrev cc2_sem9_0 : DmaSem sig := 58
abbrev cc2_sem9_1 : DmaSem sig := 59

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2048x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2048x8 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2048x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S3_S1x1x3_2 : S3.BroadcastsInDim S1x1x3 (![2] : Fin 1 → Fin S1x1x3.rank)
  bcast_S1x1x3_S2x100000x3_0_1_2 : S1x1x3.BroadcastsInDim S2x100000x3 (![0, 1, 2] : Fin 3 → Fin S2x100000x3.rank)
  bcast_S_S2x100000x3 : S_.BroadcastsInDim S2x100000x3 (![] : Fin 0 → Fin S2x100000x3.rank)
  slices_S2x100000x3_S2x100000x1_0_0_0 : S2x100000x3.Slices ![0, 0, 0] S2x100000x1
  shapeCasts_S2x100000x1_S2x100000 : S2x100000x1.ShapeCasts S2x100000
  slices_S2x100000x3_S2x100000x1_0_0_1 : S2x100000x3.Slices ![0, 0, 1] S2x100000x1
  slices_S2x100000x3_S2x100000x1_0_0_2 : S2x100000x3.Slices ![0, 0, 2] S2x100000x1
  bcast_S_S2x100000 : S_.BroadcastsInDim S2x100000 (![] : Fin 0 → Fin S2x100000.rank)
  bcast_S2x100000_S2x100000x1_0_1 : S2x100000.BroadcastsInDim S2x100000x1 (![0, 1] : Fin 2 → Fin S2x100000x1.rank)
  concatenates_S2x100000x1_S2x100000x1_S2x100000x1_S2x100000x3_d2 : Shape.Concatenates [S2x100000x1, S2x100000x1, S2x100000x1] S2x100000x3 2
  shapeCasts_S2x100000x32_S200000x32 : S2x100000x32.ShapeCasts S200000x32
  shapeCasts_S2x100000_S200000 : S2x100000.ShapeCasts S200000
  bcast_S200000_S200000x1_0 : S200000.BroadcastsInDim S200000x1 (![0] : Fin 1 → Fin S200000x1.rank)
  concatenates_S200000x1_S200000x1_S200000x1_S200000x1_S200000x1_S200000x1_S200000x1_S200000x1_S200000x8_d1 : Shape.Concatenates [S200000x1, S200000x1, S200000x1, S200000x1, S200000x1, S200000x1, S200000x1, S200000x1] S200000x8 1
  pads_S200000x32_S200704x32_07040_000 : S200000x32.Pads (![0, 0] : Fin 2 → Nat) ![704, 0] ![0, 0] S200704x32
  h_S_ : 0 < S_.numel
  pads_S200000x8_S200704x8_07040_000 : S200000x8.Pads (![0, 0] : Fin 2 → Nat) ![704, 0] ![0, 0] S200704x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  slices_S2048x8_o0_0_S2048x1 : S2048x8.Slices ![0, 0] S2048x1
  broadcasts_S2048x1_S2048x32 : S2048x1.Broadcasts S2048x32
  slices_S2048x8_o0_1_S2048x1 : S2048x8.Slices ![0, 1] S2048x1
  slices_S2048x8_o0_2_S2048x1 : S2048x8.Slices ![0, 2] S2048x1
  slices_S2048x8_o0_3_S2048x1 : S2048x8.Slices ![0, 3] S2048x1
  slices_S2048x8_o0_4_S2048x1 : S2048x8.Slices ![0, 4] S2048x1
  slices_S2048x8_o0_5_S2048x1 : S2048x8.Slices ![0, 5] S2048x1
  slices_S2048x8_o0_6_S2048x1 : S2048x8.Slices ![0, 6] S2048x1
  slices_S2048x8_o0_7_S2048x1 : S2048x8.Slices ![0, 7] S2048x1
  slices_S200704x32_S200000x32_0_0 : S200704x32.Slices ![0, 0] S200000x32
  shapeCasts_S200000x32_S2x100000x32 : S200000x32.ShapeCasts S2x100000x32
  shapeCasts_S2x100000x64_S200000x64 : S2x100000x64.ShapeCasts S200000x64
  pads_S200000x64_S200704x64_07040_000 : S200000x64.Pads (![0, 0] : Fin 2 → Nat) ![704, 0] ![0, 0] S200704x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  slices_S200704x64_S200000x64_0_0 : S200704x64.Slices ![0, 0] S200000x64
  shapeCasts_S200000x64_S2x100000x64 : S200000x64.ShapeCasts S2x100000x64
  shapeCasts_S2x100000x128_S200000x128 : S2x100000x128.ShapeCasts S200000x128
  pads_S200000x128_S200704x128_07040_000 : S200000x128.Pads (![0, 0] : Fin 2 → Nat) ![704, 0] ![0, 0] S200704x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  slices_S200704x128_S200000x128_0_0 : S200704x128.Slices ![0, 0] S200000x128
  shapeCasts_S200000x128_S2x100000x128 : S200000x128.ShapeCasts S2x100000x128
  concatenates_S2x100000x32_S2x100000x64_S2x100000x128_S2x100000x224_d2 : Shape.Concatenates [S2x100000x32, S2x100000x64, S2x100000x128] S2x100000x224 2
  gather_S2x64x64x64x32_S2x100000x3_S2x100000x32_2_123_0_0_123_2_111132_wf : GatherDims.WF S2x64x64x64x32 S2x100000x3 S2x100000x32 [2] [1, 2, 3] [0] [1, 2, 3] [0] 2 ![1, 1, 1, 1, 32]
  gather_S2x32x32x32x64_S2x100000x3_S2x100000x64_2_123_0_0_123_2_111164_wf : GatherDims.WF S2x32x32x32x64 S2x100000x3 S2x100000x64 [2] [1, 2, 3] [0] [1, 2, 3] [0] 2 ![1, 1, 1, 1, 64]
  gather_S2x16x16x16x128_S2x100000x3_S2x100000x128_2_123_0_0_123_2_1111128_wf : GatherDims.WF S2x16x16x16x128 S2x100000x3 S2x100000x128 [2] [1, 2, 3] [0] [1, 2, 3] [0] 2 ![1, 1, 1, 1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S200704x32.size a
  hwx0_0 : ∀ i : grid0.Coords, EltTy.bits .f32 = 32 ∨ (Rect.block (s := S200704x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S200704x32.size a
  hwx0_1 : ∀ i : grid0.Coords, EltTy.bits .f32 = 32 ∨ (Rect.block (s := S200704x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S200704x32.size a
  hwx0_2 : ∀ i : grid0.Coords, EltTy.bits .f32 = 32 ∨ (Rect.block (s := S200704x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S200704x32.size a
  hwx0_3 : ∀ i : grid0.Coords, EltTy.bits .f32 = 32 ∨ (Rect.block (s := S200704x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S200704x32.size a
  hwx0_4 : ∀ i : grid0.Coords, EltTy.bits .f32 = 32 ∨ (Rect.block (s := S200704x32) S2048x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x32.size a ≤ S200704x32.size a
  hwx0_5 : ∀ i : grid0.Coords, EltTy.bits .f32 = 32 ∨ (Rect.block (s := S200704x32) S2048x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x32.size a ≤ S200704x32.size a
  hwx0_6 : ∀ i : grid0.Coords, EltTy.bits .f32 = 32 ∨ (Rect.block (s := S200704x32) S2048x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x32.size a ≤ S200704x32.size a
  hwx0_7 : ∀ i : grid0.Coords, EltTy.bits .f32 = 32 ∨ (Rect.block (s := S200704x32) S2048x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x8.size a ≤ S200704x8.size a
  hwx0_8 : ∀ i : grid0.Coords, EltTy.bits .f32 = 32 ∨ (Rect.block (s := S200704x8) S2048x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x32.size a ≤ S200704x32.size a
  hwx0_9 : ∀ i : grid0.Coords, EltTy.bits .f32 = 32 ∨ (Rect.block (s := S200704x32) S2048x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S200704x64.size a
  hwx1_0 : ∀ i : grid1.Coords, EltTy.bits .f32 = 32 ∨ (Rect.block (s := S200704x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S200704x64.size a
  hwx1_1 : ∀ i : grid1.Coords, EltTy.bits .f32 = 32 ∨ (Rect.block (s := S200704x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S200704x64.size a
  hwx1_2 : ∀ i : grid1.Coords, EltTy.bits .f32 = 32 ∨ (Rect.block (s := S200704x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S200704x64.size a
  hwx1_3 : ∀ i : grid1.Coords, EltTy.bits .f32 = 32 ∨ (Rect.block (s := S200704x64) S2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S200704x64.size a
  hwx1_4 : ∀ i : grid1.Coords, EltTy.bits .f32 = 32 ∨ (Rect.block (s := S200704x64) S2048x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S200704x64.size a
  hwx1_5 : ∀ i : grid1.Coords, EltTy.bits .f32 = 32 ∨ (Rect.block (s := S200704x64) S2048x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S200704x64.size a
  hwx1_6 : ∀ i : grid1.Coords, EltTy.bits .f32 = 32 ∨ (Rect.block (s := S200704x64) S2048x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x64.size a ≤ S200704x64.size a
  hwx1_7 : ∀ i : grid1.Coords, EltTy.bits .f32 = 32 ∨ (Rect.block (s := S200704x64) S2048x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x8.size a ≤ S200704x8.size a
  hwx1_8 : ∀ i : grid1.Coords, EltTy.bits .f32 = 32 ∨ (Rect.block (s := S200704x8) S2048x8.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x64.size a ≤ S200704x64.size a
  hwx1_9 : ∀ i : grid1.Coords, EltTy.bits .f32 = 32 ∨ (Rect.block (s := S200704x64) S2048x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S200704x128.size a
  hwx2_0 : ∀ i : grid2.Coords, EltTy.bits .f32 = 32 ∨ (Rect.block (s := S200704x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S200704x128.size a
  hwx2_1 : ∀ i : grid2.Coords, EltTy.bits .f32 = 32 ∨ (Rect.block (s := S200704x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S200704x128.size a
  hwx2_2 : ∀ i : grid2.Coords, EltTy.bits .f32 = 32 ∨ (Rect.block (s := S200704x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S200704x128.size a
  hwx2_3 : ∀ i : grid2.Coords, EltTy.bits .f32 = 32 ∨ (Rect.block (s := S200704x128) S2048x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S200704x128.size a
  hwx2_4 : ∀ i : grid2.Coords, EltTy.bits .f32 = 32 ∨ (Rect.block (s := S200704x128) S2048x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x128.size a ≤ S200704x128.size a
  hwx2_5 : ∀ i : grid2.Coords, EltTy.bits .f32 = 32 ∨ (Rect.block (s := S200704x128) S2048x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x128.size a ≤ S200704x128.size a
  hwx2_6 : ∀ i : grid2.Coords, EltTy.bits .f32 = 32 ∨ (Rect.block (s := S200704x128) S2048x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x128.size a ≤ S200704x128.size a
  hwx2_7 : ∀ i : grid2.Coords, EltTy.bits .f32 = 32 ∨ (Rect.block (s := S200704x128) S2048x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x8.size a ≤ S200704x8.size a
  hwx2_8 : ∀ i : grid2.Coords, EltTy.bits .f32 = 32 ∨ (Rect.block (s := S200704x8) S2048x8.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x128.size a ≤ S200704x128.size a
  hwx2_9 : ∀ i : grid2.Coords, EltTy.bits .f32 = 32 ∨ (Rect.block (s := S200704x128) S2048x128.size (cc2_transform_9 i) (hinb2_9 i)).WholeWords (EltTy.packing .f32)

variable [Facts₀]

def gather_S2x64x64x64x32_S2x100000x3_S2x100000x32_2_123_0_0_123_2_111132 : GatherDims S2x64x64x64x32 S2x100000x3 S2x100000x32 where
  offsetDims := [2]
  collapsedSliceDims := [1, 2, 3]
  operandBatchingDims := [0]
  startIndicesBatchingDims := [0]
  startIndexMap := [1, 2, 3]
  indexVectorDim := 2
  sliceSizes := ![1, 1, 1, 1, 32]
  wf := gather_S2x64x64x64x32_S2x100000x3_S2x100000x32_2_123_0_0_123_2_111132_wf
def gather_S2x32x32x32x64_S2x100000x3_S2x100000x64_2_123_0_0_123_2_111164 : GatherDims S2x32x32x32x64 S2x100000x3 S2x100000x64 where
  offsetDims := [2]
  collapsedSliceDims := [1, 2, 3]
  operandBatchingDims := [0]
  startIndicesBatchingDims := [0]
  startIndexMap := [1, 2, 3]
  indexVectorDim := 2
  sliceSizes := ![1, 1, 1, 1, 64]
  wf := gather_S2x32x32x32x64_S2x100000x3_S2x100000x64_2_123_0_0_123_2_111164_wf
def gather_S2x16x16x16x128_S2x100000x3_S2x100000x128_2_123_0_0_123_2_1111128 : GatherDims S2x16x16x16x128 S2x100000x3 S2x100000x128 where
  offsetDims := [2]
  collapsedSliceDims := [1, 2, 3]
  operandBatchingDims := [0]
  startIndicesBatchingDims := [0]
  startIndexMap := [1, 2, 3]
  indexVectorDim := 2
  sliceSizes := ![1, 1, 1, 1, 128]
  wf := gather_S2x16x16x16x128_S2x100000x3_S2x100000x128_2_123_0_0_123_2_1111128_wf

abbrev win0_0 : Pipeline.Window sig grid0 :=
  Pipeline.Window.ofSpec (Memref.whole main_v247) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v248) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v249) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v250) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v251) S2048x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v252) S2048x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v253) S2048x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v254) S2048x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v255) S2048x8.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v256) S2048x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v506) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v507) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v508) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v509) S2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v510) S2048x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v511) S2048x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v512) S2048x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v513) S2048x64.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v514) S2048x8.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v515) S2048x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v765) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v766) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v767) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v768) S2048x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v769) S2048x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v770) S2048x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v771) S2048x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v772) S2048x128.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v773) S2048x8.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v774) S2048x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S2x128x128x128x16 : Shape := ⟨5, ![2, 128, 128, 128, 16]⟩
abbrev S2x64x64x64x32 : Shape := ⟨5, ![2, 64, 64, 64, 32]⟩
abbrev S2x32x32x32x64 : Shape := ⟨5, ![2, 32, 32, 32, 64]⟩
abbrev S2x16x16x16x128 : Shape := ⟨5, ![2, 16, 16, 16, 128]⟩
abbrev S2x8x8x8x256 : Shape := ⟨5, ![2, 8, 8, 8, 256]⟩
abbrev S2x100000x3 : Shape := ⟨3, ![2, 100000, 3]⟩
abbrev S3 : Shape := ⟨1, ![3]⟩
abbrev S1x1x3 : Shape := ⟨3, ![1, 1, 3]⟩
abbrev S_ : Shape := ⟨0, ![]⟩
abbrev S2x100000x1 : Shape := ⟨3, ![2, 100000, 1]⟩
abbrev S2x100000 : Shape := ⟨2, ![2, 100000]⟩
abbrev S2x100000x32 : Shape := ⟨3, ![2, 100000, 32]⟩
abbrev S2x100000x64 : Shape := ⟨3, ![2, 100000, 64]⟩
abbrev S2x100000x128 : Shape := ⟨3, ![2, 100000, 128]⟩
abbrev S2x100000x224 : Shape := ⟨3, ![2, 100000, 224]⟩

abbrev nBuf : Space → Nat
  | .hbm => 916
  | .vmem => 0
  | .smem => 0
  | _ => 0

abbrev hbmTy0_0 (i : Nat) : BufTy := match i % 128 with
  | 0 => ⟨S2x128x128x128x16, .f32⟩
  | 1 => ⟨S2x64x64x64x32, .f32⟩
  | 2 => ⟨S2x32x32x32x64, .f32⟩
  | 3 => ⟨S2x16x16x16x128, .f32⟩
  | 4 => ⟨S2x8x8x8x256, .f32⟩
  | 5 => ⟨S2x100000x3, .f32⟩
  | 6 => ⟨S3, .f32⟩
  | 7 => ⟨S3, .f32⟩
  | 8 => ⟨S3, .f32⟩
  | 9 => ⟨S1x1x3, .f32⟩
  | 10 => ⟨S2x100000x3, .f32⟩
  | 11 => ⟨S2x100000x3, .f32⟩
  | 12 => ⟨S_, .f32⟩
  | 13 => ⟨S_, .f32⟩
  | 14 => ⟨S_, .f32⟩
  | 15 => ⟨S2x100000x3, .f32⟩
  | 16 => ⟨S2x100000x3, .f32⟩
  | 17 => ⟨S_, .f32⟩
  | 18 => ⟨S2x100000x3, .f32⟩
  | 19 => ⟨S2x100000x3, .f32⟩
  | 20 => ⟨S2x100000x1, .f32⟩
  | 21 => ⟨S2x100000, .f32⟩
  | 22 => ⟨S2x100000, .f32⟩
  | 23 => ⟨S2x100000x1, .f32⟩
  | 24 => ⟨S2x100000, .f32⟩
  | 25 => ⟨S2x100000, .f32⟩
  | 26 => ⟨S2x100000x1, .f32⟩
  | 27 => ⟨S2x100000, .f32⟩
  | 28 => ⟨S2x100000, .f32⟩
  | 29 => ⟨S2x100000x1, .f32⟩
  | 30 => ⟨S2x100000, .f32⟩
  | 31 => ⟨S2x100000, .f32⟩
  | 32 => ⟨S2x100000x1, .f32⟩
  | 33 => ⟨S2x100000, .f32⟩
  | 34 => ⟨S2x100000, .f32⟩
  | 35 => ⟨S2x100000x1, .f32⟩
  | 36 => ⟨S2x100000, .f32⟩
  | 37 => ⟨S2x100000, .f32⟩
  | 38 => ⟨S2x100000, .i32⟩
  | 39 => ⟨S2x100000, .i32⟩
  | 40 => ⟨S2x100000, .i32⟩
  | 41 => ⟨S2x100000, .i32⟩
  | 42 => ⟨S2x100000, .i32⟩
  | 43 => ⟨S2x100000, .i32⟩
  | 44 => ⟨S2x100000x1, .f32⟩
  | 45 => ⟨S2x100000, .f32⟩
  | 46 => ⟨S2x100000, .f32⟩
  | 47 => ⟨S2x100000x1, .f32⟩
  | 48 => ⟨S2x100000x1, .f32⟩
  | 49 => ⟨S2x100000, .f32⟩
  | 50 => ⟨S2x100000, .f32⟩
  | 51 => ⟨S2x100000x1, .f32⟩
  | 52 => ⟨S2x100000x1, .f32⟩
  | 53 => ⟨S2x100000, .f32⟩
  | 54 => ⟨S2x100000, .f32⟩
  | 55 => ⟨S2x100000x1, .f32⟩
  | 56 => ⟨S2x100000x1, .f32⟩
  | 57 => ⟨S2x100000, .f32⟩
  | 58 => ⟨S2x100000, .f32⟩
  | 59 => ⟨S2x100000x1, .f32⟩
  | 60 => ⟨S2x100000x1, .f32⟩
  | 61 => ⟨S2x100000, .f32⟩
  | 62 => ⟨S2x100000, .f32⟩
  | 63 => ⟨S2x100000x1, .f32⟩
  | 64 => ⟨S2x100000x1, .f32⟩
  | 65 => ⟨S2x100000, .f32⟩
  | 66 => ⟨S2x100000, .f32⟩
  | 67 => ⟨S2x100000x1, .f32⟩
  | 68 => ⟨S_, .i32⟩
  | 69 => ⟨S2x100000, .i32⟩
  | 70 => ⟨S2x100000, .i1⟩
  | 71 => ⟨S_, .i32⟩
  | 72 => ⟨S2x100000, .i32⟩
  | 73 => ⟨S2x100000, .i32⟩
  | 74 => ⟨S2x100000, .i32⟩
  | 75 => ⟨S_, .i32⟩
  | 76 => ⟨S2x100000, .i32⟩
  | 77 => ⟨S2x100000, .i1⟩
  | 78 => ⟨S_, .i32⟩
  | 79 => ⟨S2x100000, .i32⟩
  | 80 => ⟨S2x100000, .i32⟩
  | 81 => ⟨S2x100000, .i32⟩
  | 82 => ⟨S_, .i32⟩
  | 83 => ⟨S2x100000, .i32⟩
  | 84 => ⟨S2x100000, .i1⟩
  | 85 => ⟨S_, .i32⟩
  | 86 => ⟨S2x100000, .i32⟩
  | 87 => ⟨S2x100000, .i32⟩
  | 88 => ⟨S2x100000, .i32⟩
  | 89 => ⟨S2x100000x1, .i32⟩
  | 90 => ⟨S2x100000x1, .i32⟩
  | 91 => ⟨S2x100000x1, .i32⟩
  | 92 => ⟨S2x100000x3, .i32⟩
  | 93 => ⟨S2x100000x32, .f32⟩
  | 94 => ⟨S_, .i32⟩
  | 95 => ⟨S2x100000, .i32⟩
  | 96 => ⟨S2x100000, .i1⟩
  | 97 => ⟨S_, .i32⟩
  | 98 => ⟨S2x100000, .i32⟩
  | 99 => ⟨S2x100000, .i32⟩
  | 100 => ⟨S2x100000, .i32⟩
  | 101 => ⟨S_, .i32⟩
  | 102 => ⟨S2x100000, .i32⟩
  | 103 => ⟨S2x100000, .i1⟩
  | 104 => ⟨S_, .i32⟩
  | 105 => ⟨S2x100000, .i32⟩
  | 106 => ⟨S2x100000, .i32⟩
  | 107 => ⟨S2x100000, .i32⟩
  | 108 => ⟨S_, .i32⟩
  | 109 => ⟨S2x100000, .i32⟩
  | 110 => ⟨S2x100000, .i1⟩
  | 111 => ⟨S_, .i32⟩
  | 112 => ⟨S2x100000, .i32⟩
  | 113 => ⟨S2x100000, .i32⟩
  | 114 => ⟨S2x100000, .i32⟩
  | 115 => ⟨S2x100000x1, .i32⟩
  | 116 => ⟨S2x100000x1, .i32⟩
  | 117 => ⟨S2x100000x1, .i32⟩
  | 118 => ⟨S2x100000x3, .i32⟩
  | 119 => ⟨S2x100000x32, .f32⟩
  | 120 => ⟨S_, .i32⟩
  | 121 => ⟨S2x100000, .i32⟩
  | 122 => ⟨S2x100000, .i1⟩
  | 123 => ⟨S_, .i32⟩
  | 124 => ⟨S2x100000, .i32⟩
  | 125 => ⟨S2x100000, .i32⟩
  | 126 => ⟨S2x100000, .i32⟩
  | 127 => ⟨S_, .i32⟩
  | _ => ⟨S2x128x128x128x16, .f32⟩

abbrev hbmTy0_1 (i : Nat) : BufTy := match i % 128 with
  | 0 => ⟨S2x100000, .i32⟩
  | 1 => ⟨S2x100000, .i1⟩
  | 2 => ⟨S_, .i32⟩
  | 3 => ⟨S2x100000, .i32⟩
  | 4 => ⟨S2x100000, .i32⟩
  | 5 => ⟨S2x100000, .i32⟩
  | 6 => ⟨S_, .i32⟩
  | 7 => ⟨S2x100000, .i32⟩
  | 8 => ⟨S2x100000, .i1⟩
  | 9 => ⟨S_, .i32⟩
  | 10 => ⟨S2x100000, .i32⟩
  | 11 => ⟨S2x100000, .i32⟩
  | 12 => ⟨S2x100000, .i32⟩
  | 13 => ⟨S2x100000x1, .i32⟩
  | 14 => ⟨S2x100000x1, .i32⟩
  | 15 => ⟨S2x100000x1, .i32⟩
  | 16 => ⟨S2x100000x3, .i32⟩
  | 17 => ⟨S2x100000x32, .f32⟩
  | 18 => ⟨S_, .i32⟩
  | 19 => ⟨S2x100000, .i32⟩
  | 20 => ⟨S2x100000, .i1⟩
  | 21 => ⟨S_, .i32⟩
  | 22 => ⟨S2x100000, .i32⟩
  | 23 => ⟨S2x100000, .i32⟩
  | 24 => ⟨S2x100000, .i32⟩
  | 25 => ⟨S_, .i32⟩
  | 26 => ⟨S2x100000, .i32⟩
  | 27 => ⟨S2x100000, .i1⟩
  | 28 => ⟨S_, .i32⟩
  | 29 => ⟨S2x100000, .i32⟩
  | 30 => ⟨S2x100000, .i32⟩
  | 31 => ⟨S2x100000, .i32⟩
  | 32 => ⟨S_, .i32⟩
  | 33 => ⟨S2x100000, .i32⟩
  | 34 => ⟨S2x100000, .i1⟩
  | 35 => ⟨S_, .i32⟩
  | 36 => ⟨S2x100000, .i32⟩
  | 37 => ⟨S2x100000, .i32⟩
  | 38 => ⟨S2x100000, .i32⟩
  | 39 => ⟨S2x100000x1, .i32⟩
  | 40 => ⟨S2x100000x1, .i32⟩
  | 41 => ⟨S2x100000x1, .i32⟩
  | 42 => ⟨S2x100000x3, .i32⟩
  | 43 => ⟨S2x100000x32, .f32⟩
  | 44 => ⟨S2x100000x32, .f32⟩
  | 45 => ⟨S2x100000x32, .f32⟩
  | 46 => ⟨S2x100000x32, .f32⟩
  | 47 => ⟨S2x100000x32, .f32⟩
  | 48 => ⟨S2x100000x32, .f32⟩
  | 49 => ⟨S2x100000x32, .f32⟩
  | 50 => ⟨S2x100000x32, .f32⟩
  | 51 => ⟨S2x100000x32, .f32⟩
  | 52 => ⟨S2x100000x32, .f32⟩
  | 53 => ⟨S2x100000x32, .f32⟩
  | 54 => ⟨S2x100000x32, .f32⟩
  | 55 => ⟨S2x100000x32, .f32⟩
  | 56 => ⟨S2x100000x32, .f32⟩
  | 57 => ⟨S2x100000x32, .f32⟩
  | 58 => ⟨S2x100000x32, .f32⟩
  | 59 => ⟨S_, .i32⟩
  | 60 => ⟨S2x100000, .i32⟩
  | 61 => ⟨S2x100000, .i1⟩
  | 62 => ⟨S_, .i32⟩
  | 63 => ⟨S2x100000, .i32⟩
  | 64 => ⟨S2x100000, .i32⟩
  | 65 => ⟨S2x100000, .i32⟩
  | 66 => ⟨S_, .i32⟩
  | 67 => ⟨S2x100000, .i32⟩
  | 68 => ⟨S2x100000, .i1⟩
  | 69 => ⟨S_, .i32⟩
  | 70 => ⟨S2x100000, .i32⟩
  | 71 => ⟨S2x100000, .i32⟩
  | 72 => ⟨S2x100000, .i32⟩
  | 73 => ⟨S_, .i32⟩
  | 74 => ⟨S2x100000, .i32⟩
  | 75 => ⟨S2x100000, .i1⟩
  | 76 => ⟨S_, .i32⟩
  | 77 => ⟨S2x100000, .i32⟩
  | 78 => ⟨S2x100000, .i32⟩
  | 79 => ⟨S2x100000, .i32⟩
  | 80 => ⟨S2x100000x1, .i32⟩
  | 81 => ⟨S2x100000x1, .i32⟩
  | 82 => ⟨S2x100000x1, .i32⟩
  | 83 => ⟨S2x100000x3, .i32⟩
  | 84 => ⟨S2x100000x32, .f32⟩
  | 85 => ⟨S_, .i32⟩
  | 86 => ⟨S2x100000, .i32⟩
  | 87 => ⟨S2x100000, .i1⟩
  | 88 => ⟨S_, .i32⟩
  | 89 => ⟨S2x100000, .i32⟩
  | 90 => ⟨S2x100000, .i32⟩
  | 91 => ⟨S2x100000, .i32⟩
  | 92 => ⟨S_, .i32⟩
  | 93 => ⟨S2x100000, .i32⟩
  | 94 => ⟨S2x100000, .i1⟩
  | 95 => ⟨S_, .i32⟩
  | 96 => ⟨S2x100000, .i32⟩
  | 97 => ⟨S2x100000, .i32⟩
  | 98 => ⟨S2x100000, .i32⟩
  | 99 => ⟨S_, .i32⟩
  | 100 => ⟨S2x100000, .i32⟩
  | 101 => ⟨S2x100000, .i1⟩
  | 102 => ⟨S_, .i32⟩
  | 103 => ⟨S2x100000, .i32⟩
  | 104 => ⟨S2x100000, .i32⟩
  | 105 => ⟨S2x100000, .i32⟩
  | 106 => ⟨S2x100000x1, .i32⟩
  | 107 => ⟨S2x100000x1, .i32⟩
  | 108 => ⟨S2x100000x1, .i32⟩
  | 109 => ⟨S2x100000x3, .i32⟩
  | 110 => ⟨S2x100000x32, .f32⟩
  | 111 => ⟨S_, .i32⟩
  | 112 => ⟨S2x100000, .i32⟩
  | 113 => ⟨S2x100000, .i1⟩
  | 114 => ⟨S_, .i32⟩
  | 115 => ⟨S2x100000, .i32⟩
  | 116 => ⟨S2x100000, .i32⟩
  | 117 => ⟨S2x100000, .i32⟩
  | 118 => ⟨S_, .i32⟩
  | 119 => ⟨S2x100000, .i32⟩
  | 120 => ⟨S2x100000, .i1⟩
  | 121 => ⟨S_, .i32⟩
  | 122 => ⟨S2x100000, .i32⟩
  | 123 => ⟨S2x100000, .i32⟩
  | 124 => ⟨S2x100000, .i32⟩
  | 125 => ⟨S_, .i32⟩
  | 126 => ⟨S2x100000, .i32⟩
  | 127 => ⟨S2x100000, .i1⟩
  | _ => ⟨S2x128x128x128x16, .f32⟩

abbrev hbmTy0_2 (i : Nat) : BufTy := match i % 128 with
  | 0 => ⟨S_, .i32⟩
  | 1 => ⟨S2x100000, .i32⟩
  | 2 => ⟨S2x100000, .i32⟩
  | 3 => ⟨S2x100000, .i32⟩
  | 4 => ⟨S2x100000x1, .i32⟩
  | 5 => ⟨S2x100000x1, .i32⟩
  | 6 => ⟨S2x100000x1, .i32⟩
  | 7 => ⟨S2x100000x3, .i32⟩
  | 8 => ⟨S2x100000x32, .f32⟩
  | 9 => ⟨S_, .i32⟩
  | 10 => ⟨S2x100000, .i32⟩
  | 11 => ⟨S2x100000, .i1⟩
  | 12 => ⟨S_, .i32⟩
  | 13 => ⟨S2x100000, .i32⟩
  | 14 => ⟨S2x100000, .i32⟩
  | 15 => ⟨S2x100000, .i32⟩
  | 16 => ⟨S_, .i32⟩
  | 17 => ⟨S2x100000, .i32⟩
  | 18 => ⟨S2x100000, .i1⟩
  | 19 => ⟨S_, .i32⟩
  | 20 => ⟨S2x100000, .i32⟩
  | 21 => ⟨S2x100000, .i32⟩
  | 22 => ⟨S2x100000, .i32⟩
  | 23 => ⟨S_, .i32⟩
  | 24 => ⟨S2x100000, .i32⟩
  | 25 => ⟨S2x100000, .i1⟩
  | 26 => ⟨S_, .i32⟩
  | 27 => ⟨S2x100000, .i32⟩
  | 28 => ⟨S2x100000, .i32⟩
  | 29 => ⟨S2x100000, .i32⟩
  | 30 => ⟨S2x100000x1, .i32⟩
  | 31 => ⟨S2x100000x1, .i32⟩
  | 32 => ⟨S2x100000x1, .i32⟩
  | 33 => ⟨S2x100000x3, .i32⟩
  | 34 => ⟨S2x100000x32, .f32⟩
  | 35 => ⟨S2x100000x32, .f32⟩
  | 36 => ⟨S2x100000x32, .f32⟩
  | 37 => ⟨S2x100000x32, .f32⟩
  | 38 => ⟨S2x100000x32, .f32⟩
  | 39 => ⟨S2x100000x32, .f32⟩
  | 40 => ⟨S2x100000x32, .f32⟩
  | 41 => ⟨S2x100000x32, .f32⟩
  | 42 => ⟨S2x100000x32, .f32⟩
  | 43 => ⟨S2x100000x32, .f32⟩
  | 44 => ⟨S2x100000x32, .f32⟩
  | 45 => ⟨S2x100000x32, .f32⟩
  | 46 => ⟨S2x100000x32, .f32⟩
  | 47 => ⟨S2x100000x32, .f32⟩
  | 48 => ⟨S2x100000x32, .f32⟩
  | 49 => ⟨S2x100000x32, .f32⟩
  | 50 => ⟨S2x100000x32, .f32⟩
  | 51 => ⟨S2x100000x32, .f32⟩
  | 52 => ⟨S2x100000x32, .f32⟩
  | 53 => ⟨S2x100000x32, .f32⟩
  | 54 => ⟨S2x100000x32, .f32⟩
  | 55 => ⟨S1x1x3, .f32⟩
  | 56 => ⟨S2x100000x3, .f32⟩
  | 57 => ⟨S2x100000x3, .f32⟩
  | 58 => ⟨S_, .f32⟩
  | 59 => ⟨S_, .f32⟩
  | 60 => ⟨S_, .f32⟩
  | 61 => ⟨S2x100000x3, .f32⟩
  | 62 => ⟨S2x100000x3, .f32⟩
  | 63 => ⟨S_, .f32⟩
  | 64 => ⟨S2x100000x3, .f32⟩
  | 65 => ⟨S2x100000x3, .f32⟩
  | 66 => ⟨S2x100000x1, .f32⟩
  | 67 => ⟨S2x100000, .f32⟩
  | 68 => ⟨S2x100000, .f32⟩
  | 69 => ⟨S2x100000x1, .f32⟩
  | 70 => ⟨S2x100000, .f32⟩
  | 71 => ⟨S2x100000, .f32⟩
  | 72 => ⟨S2x100000x1, .f32⟩
  | 73 => ⟨S2x100000, .f32⟩
  | 74 => ⟨S2x100000, .f32⟩
  | 75 => ⟨S2x100000x1, .f32⟩
  | 76 => ⟨S2x100000, .f32⟩
  | 77 => ⟨S2x100000, .f32⟩
  | 78 => ⟨S2x100000x1, .f32⟩
  | 79 => ⟨S2x100000, .f32⟩
  | 80 => ⟨S2x100000, .f32⟩
  | 81 => ⟨S2x100000x1, .f32⟩
  | 82 => ⟨S2x100000, .f32⟩
  | 83 => ⟨S2x100000, .f32⟩
  | 84 => ⟨S2x100000, .i32⟩
  | 85 => ⟨S2x100000, .i32⟩
  | 86 => ⟨S2x100000, .i32⟩
  | 87 => ⟨S2x100000, .i32⟩
  | 88 => ⟨S2x100000, .i32⟩
  | 89 => ⟨S2x100000, .i32⟩
  | 90 => ⟨S2x100000x1, .f32⟩
  | 91 => ⟨S2x100000, .f32⟩
  | 92 => ⟨S2x100000, .f32⟩
  | 93 => ⟨S2x100000x1, .f32⟩
  | 94 => ⟨S2x100000x1, .f32⟩
  | 95 => ⟨S2x100000, .f32⟩
  | 96 => ⟨S2x100000, .f32⟩
  | 97 => ⟨S2x100000x1, .f32⟩
  | 98 => ⟨S2x100000x1, .f32⟩
  | 99 => ⟨S2x100000, .f32⟩
  | 100 => ⟨S2x100000, .f32⟩
  | 101 => ⟨S2x100000x1, .f32⟩
  | 102 => ⟨S2x100000x1, .f32⟩
  | 103 => ⟨S2x100000, .f32⟩
  | 104 => ⟨S2x100000, .f32⟩
  | 105 => ⟨S2x100000x1, .f32⟩
  | 106 => ⟨S2x100000x1, .f32⟩
  | 107 => ⟨S2x100000, .f32⟩
  | 108 => ⟨S2x100000, .f32⟩
  | 109 => ⟨S2x100000x1, .f32⟩
  | 110 => ⟨S2x100000x1, .f32⟩
  | 111 => ⟨S2x100000, .f32⟩
  | 112 => ⟨S2x100000, .f32⟩
  | 113 => ⟨S2x100000x1, .f32⟩
  | 114 => ⟨S_, .i32⟩
  | 115 => ⟨S2x100000, .i32⟩
  | 116 => ⟨S2x100000, .i1⟩
  | 117 => ⟨S_, .i32⟩
  | 118 => ⟨S2x100000, .i32⟩
  | 119 => ⟨S2x100000, .i32⟩
  | 120 => ⟨S2x100000, .i32⟩
  | 121 => ⟨S_, .i32⟩
  | 122 => ⟨S2x100000, .i32⟩
  | 123 => ⟨S2x100000, .i1⟩
  | 124 => ⟨S_, .i32⟩
  | 125 => ⟨S2x100000, .i32⟩
  | 126 => ⟨S2x100000, .i32⟩
  | 127 => ⟨S2x100000, .i32⟩
  | _ => ⟨S2x128x128x128x16, .f32⟩

abbrev hbmTy0_3 (i : Nat) : BufTy := match i % 128 with
  | 0 => ⟨S_, .i32⟩
  | 1 => ⟨S2x100000, .i32⟩
  | 2 => ⟨S2x100000, .i1⟩
  | 3 => ⟨S_, .i32⟩
  | 4 => ⟨S2x100000, .i32⟩
  | 5 => ⟨S2x100000, .i32⟩
  | 6 => ⟨S2x100000, .i32⟩
  | 7 => ⟨S2x100000x1, .i32⟩
  | 8 => ⟨S2x100000x1, .i32⟩
  | 9 => ⟨S2x100000x1, .i32⟩
  | 10 => ⟨S2x100000x3, .i32⟩
  | 11 => ⟨S2x100000x64, .f32⟩
  | 12 => ⟨S_, .i32⟩
  | 13 => ⟨S2x100000, .i32⟩
  | 14 => ⟨S2x100000, .i1⟩
  | 15 => ⟨S_, .i32⟩
  | 16 => ⟨S2x100000, .i32⟩
  | 17 => ⟨S2x100000, .i32⟩
  | 18 => ⟨S2x100000, .i32⟩
  | 19 => ⟨S_, .i32⟩
  | 20 => ⟨S2x100000, .i32⟩
  | 21 => ⟨S2x100000, .i1⟩
  | 22 => ⟨S_, .i32⟩
  | 23 => ⟨S2x100000, .i32⟩
  | 24 => ⟨S2x100000, .i32⟩
  | 25 => ⟨S2x100000, .i32⟩
  | 26 => ⟨S_, .i32⟩
  | 27 => ⟨S2x100000, .i32⟩
  | 28 => ⟨S2x100000, .i1⟩
  | 29 => ⟨S_, .i32⟩
  | 30 => ⟨S2x100000, .i32⟩
  | 31 => ⟨S2x100000, .i32⟩
  | 32 => ⟨S2x100000, .i32⟩
  | 33 => ⟨S2x100000x1, .i32⟩
  | 34 => ⟨S2x100000x1, .i32⟩
  | 35 => ⟨S2x100000x1, .i32⟩
  | 36 => ⟨S2x100000x3, .i32⟩
  | 37 => ⟨S2x100000x64, .f32⟩
  | 38 => ⟨S_, .i32⟩
  | 39 => ⟨S2x100000, .i32⟩
  | 40 => ⟨S2x100000, .i1⟩
  | 41 => ⟨S_, .i32⟩
  | 42 => ⟨S2x100000, .i32⟩
  | 43 => ⟨S2x100000, .i32⟩
  | 44 => ⟨S2x100000, .i32⟩
  | 45 => ⟨S_, .i32⟩
  | 46 => ⟨S2x100000, .i32⟩
  | 47 => ⟨S2x100000, .i1⟩
  | 48 => ⟨S_, .i32⟩
  | 49 => ⟨S2x100000, .i32⟩
  | 50 => ⟨S2x100000, .i32⟩
  | 51 => ⟨S2x100000, .i32⟩
  | 52 => ⟨S_, .i32⟩
  | 53 => ⟨S2x100000, .i32⟩
  | 54 => ⟨S2x100000, .i1⟩
  | 55 => ⟨S_, .i32⟩
  | 56 => ⟨S2x100000, .i32⟩
  | 57 => ⟨S2x100000, .i32⟩
  | 58 => ⟨S2x100000, .i32⟩
  | 59 => ⟨S2x100000x1, .i32⟩
  | 60 => ⟨S2x100000x1, .i32⟩
  | 61 => ⟨S2x100000x1, .i32⟩
  | 62 => ⟨S2x100000x3, .i32⟩
  | 63 => ⟨S2x100000x64, .f32⟩
  | 64 => ⟨S_, .i32⟩
  | 65 => ⟨S2x100000, .i32⟩
  | 66 => ⟨S2x100000, .i1⟩
  | 67 => ⟨S_, .i32⟩
  | 68 => ⟨S2x100000, .i32⟩
  | 69 => ⟨S2x100000, .i32⟩
  | 70 => ⟨S2x100000, .i32⟩
  | 71 => ⟨S_, .i32⟩
  | 72 => ⟨S2x100000, .i32⟩
  | 73 => ⟨S2x100000, .i1⟩
  | 74 => ⟨S_, .i32⟩
  | 75 => ⟨S2x100000, .i32⟩
  | 76 => ⟨S2x100000, .i32⟩
  | 77 => ⟨S2x100000, .i32⟩
  | 78 => ⟨S_, .i32⟩
  | 79 => ⟨S2x100000, .i32⟩
  | 80 => ⟨S2x100000, .i1⟩
  | 81 => ⟨S_, .i32⟩
  | 82 => ⟨S2x100000, .i32⟩
  | 83 => ⟨S2x100000, .i32⟩
  | 84 => ⟨S2x100000, .i32⟩
  | 85 => ⟨S2x100000x1, .i32⟩
  | 86 => ⟨S2x100000x1, .i32⟩
  | 87 => ⟨S2x100000x1, .i32⟩
  | 88 => ⟨S2x100000x3, .i32⟩
  | 89 => ⟨S2x100000x64, .f32⟩
  | 90 => ⟨S2x100000x64, .f32⟩
  | 91 => ⟨S2x100000x64, .f32⟩
  | 92 => ⟨S2x100000x64, .f32⟩
  | 93 => ⟨S2x100000x64, .f32⟩
  | 94 => ⟨S2x100000x64, .f32⟩
  | 95 => ⟨S2x100000x64, .f32⟩
  | 96 => ⟨S2x100000x64, .f32⟩
  | 97 => ⟨S2x100000x64, .f32⟩
  | 98 => ⟨S2x100000x64, .f32⟩
  | 99 => ⟨S2x100000x64, .f32⟩
  | 100 => ⟨S2x100000x64, .f32⟩
  | 101 => ⟨S2x100000x64, .f32⟩
  | 102 => ⟨S2x100000x64, .f32⟩
  | 103 => ⟨S2x100000x64, .f32⟩
  | 104 => ⟨S2x100000x64, .f32⟩
  | 105 => ⟨S_, .i32⟩
  | 106 => ⟨S2x100000, .i32⟩
  | 107 => ⟨S2x100000, .i1⟩
  | 108 => ⟨S_, .i32⟩
  | 109 => ⟨S2x100000, .i32⟩
  | 110 => ⟨S2x100000, .i32⟩
  | 111 => ⟨S2x100000, .i32⟩
  | 112 => ⟨S_, .i32⟩
  | 113 => ⟨S2x100000, .i32⟩
  | 114 => ⟨S2x100000, .i1⟩
  | 115 => ⟨S_, .i32⟩
  | 116 => ⟨S2x100000, .i32⟩
  | 117 => ⟨S2x100000, .i32⟩
  | 118 => ⟨S2x100000, .i32⟩
  | 119 => ⟨S_, .i32⟩
  | 120 => ⟨S2x100000, .i32⟩
  | 121 => ⟨S2x100000, .i1⟩
  | 122 => ⟨S_, .i32⟩
  | 123 => ⟨S2x100000, .i32⟩
  | 124 => ⟨S2x100000, .i32⟩
  | 125 => ⟨S2x100000, .i32⟩
  | 126 => ⟨S2x100000x1, .i32⟩
  | 127 => ⟨S2x100000x1, .i32⟩
  | _ => ⟨S2x128x128x128x16, .f32⟩

abbrev hbmTy0_4 (i : Nat) : BufTy := match i % 128 with
  | 0 => ⟨S2x100000x1, .i32⟩
  | 1 => ⟨S2x100000x3, .i32⟩
  | 2 => ⟨S2x100000x64, .f32⟩
  | 3 => ⟨S_, .i32⟩
  | 4 => ⟨S2x100000, .i32⟩
  | 5 => ⟨S2x100000, .i1⟩
  | 6 => ⟨S_, .i32⟩
  | 7 => ⟨S2x100000, .i32⟩
  | 8 => ⟨S2x100000, .i32⟩
  | 9 => ⟨S2x100000, .i32⟩
  | 10 => ⟨S_, .i32⟩
  | 11 => ⟨S2x100000, .i32⟩
  | 12 => ⟨S2x100000, .i1⟩
  | 13 => ⟨S_, .i32⟩
  | 14 => ⟨S2x100000, .i32⟩
  | 15 => ⟨S2x100000, .i32⟩
  | 16 => ⟨S2x100000, .i32⟩
  | 17 => ⟨S_, .i32⟩
  | 18 => ⟨S2x100000, .i32⟩
  | 19 => ⟨S2x100000, .i1⟩
  | 20 => ⟨S_, .i32⟩
  | 21 => ⟨S2x100000, .i32⟩
  | 22 => ⟨S2x100000, .i32⟩
  | 23 => ⟨S2x100000, .i32⟩
  | 24 => ⟨S2x100000x1, .i32⟩
  | 25 => ⟨S2x100000x1, .i32⟩
  | 26 => ⟨S2x100000x1, .i32⟩
  | 27 => ⟨S2x100000x3, .i32⟩
  | 28 => ⟨S2x100000x64, .f32⟩
  | 29 => ⟨S_, .i32⟩
  | 30 => ⟨S2x100000, .i32⟩
  | 31 => ⟨S2x100000, .i1⟩
  | 32 => ⟨S_, .i32⟩
  | 33 => ⟨S2x100000, .i32⟩
  | 34 => ⟨S2x100000, .i32⟩
  | 35 => ⟨S2x100000, .i32⟩
  | 36 => ⟨S_, .i32⟩
  | 37 => ⟨S2x100000, .i32⟩
  | 38 => ⟨S2x100000, .i1⟩
  | 39 => ⟨S_, .i32⟩
  | 40 => ⟨S2x100000, .i32⟩
  | 41 => ⟨S2x100000, .i32⟩
  | 42 => ⟨S2x100000, .i32⟩
  | 43 => ⟨S_, .i32⟩
  | 44 => ⟨S2x100000, .i32⟩
  | 45 => ⟨S2x100000, .i1⟩
  | 46 => ⟨S_, .i32⟩
  | 47 => ⟨S2x100000, .i32⟩
  | 48 => ⟨S2x100000, .i32⟩
  | 49 => ⟨S2x100000, .i32⟩
  | 50 => ⟨S2x100000x1, .i32⟩
  | 51 => ⟨S2x100000x1, .i32⟩
  | 52 => ⟨S2x100000x1, .i32⟩
  | 53 => ⟨S2x100000x3, .i32⟩
  | 54 => ⟨S2x100000x64, .f32⟩
  | 55 => ⟨S_, .i32⟩
  | 56 => ⟨S2x100000, .i32⟩
  | 57 => ⟨S2x100000, .i1⟩
  | 58 => ⟨S_, .i32⟩
  | 59 => ⟨S2x100000, .i32⟩
  | 60 => ⟨S2x100000, .i32⟩
  | 61 => ⟨S2x100000, .i32⟩
  | 62 => ⟨S_, .i32⟩
  | 63 => ⟨S2x100000, .i32⟩
  | 64 => ⟨S2x100000, .i1⟩
  | 65 => ⟨S_, .i32⟩
  | 66 => ⟨S2x100000, .i32⟩
  | 67 => ⟨S2x100000, .i32⟩
  | 68 => ⟨S2x100000, .i32⟩
  | 69 => ⟨S_, .i32⟩
  | 70 => ⟨S2x100000, .i32⟩
  | 71 => ⟨S2x100000, .i1⟩
  | 72 => ⟨S_, .i32⟩
  | 73 => ⟨S2x100000, .i32⟩
  | 74 => ⟨S2x100000, .i32⟩
  | 75 => ⟨S2x100000, .i32⟩
  | 76 => ⟨S2x100000x1, .i32⟩
  | 77 => ⟨S2x100000x1, .i32⟩
  | 78 => ⟨S2x100000x1, .i32⟩
  | 79 => ⟨S2x100000x3, .i32⟩
  | 80 => ⟨S2x100000x64, .f32⟩
  | 81 => ⟨S2x100000x64, .f32⟩
  | 82 => ⟨S2x100000x64, .f32⟩
  | 83 => ⟨S2x100000x64, .f32⟩
  | 84 => ⟨S2x100000x64, .f32⟩
  | 85 => ⟨S2x100000x64, .f32⟩
  | 86 => ⟨S2x100000x64, .f32⟩
  | 87 => ⟨S2x100000x64, .f32⟩
  | 88 => ⟨S2x100000x64, .f32⟩
  | 89 => ⟨S2x100000x64, .f32⟩
  | 90 => ⟨S2x100000x64, .f32⟩
  | 91 => ⟨S2x100000x64, .f32⟩
  | 92 => ⟨S2x100000x64, .f32⟩
  | 93 => ⟨S2x100000x64, .f32⟩
  | 94 => ⟨S2x100000x64, .f32⟩
  | 95 => ⟨S2x100000x64, .f32⟩
  | 96 => ⟨S2x100000x64, .f32⟩
  | 97 => ⟨S2x100000x64, .f32⟩
  | 98 => ⟨S2x100000x64, .f32⟩
  | 99 => ⟨S2x100000x64, .f32⟩
  | 100 => ⟨S2x100000x64, .f32⟩
  | 101 => ⟨S1x1x3, .f32⟩
  | 102 => ⟨S2x100000x3, .f32⟩
  | 103 => ⟨S2x100000x3, .f32⟩
  | 104 => ⟨S_, .f32⟩
  | 105 => ⟨S_, .f32⟩
  | 106 => ⟨S_, .f32⟩
  | 107 => ⟨S2x100000x3, .f32⟩
  | 108 => ⟨S2x100000x3, .f32⟩
  | 109 => ⟨S_, .f32⟩
  | 110 => ⟨S2x100000x3, .f32⟩
  | 111 => ⟨S2x100000x3, .f32⟩
  | 112 => ⟨S2x100000x1, .f32⟩
  | 113 => ⟨S2x100000, .f32⟩
  | 114 => ⟨S2x100000, .f32⟩
  | 115 => ⟨S2x100000x1, .f32⟩
  | 116 => ⟨S2x100000, .f32⟩
  | 117 => ⟨S2x100000, .f32⟩
  | 118 => ⟨S2x100000x1, .f32⟩
  | 119 => ⟨S2x100000, .f32⟩
  | 120 => ⟨S2x100000, .f32⟩
  | 121 => ⟨S2x100000x1, .f32⟩
  | 122 => ⟨S2x100000, .f32⟩
  | 123 => ⟨S2x100000, .f32⟩
  | 124 => ⟨S2x100000x1, .f32⟩
  | 125 => ⟨S2x100000, .f32⟩
  | 126 => ⟨S2x100000, .f32⟩
  | 127 => ⟨S2x100000x1, .f32⟩
  | _ => ⟨S2x128x128x128x16, .f32⟩

abbrev hbmTy0_5 (i : Nat) : BufTy := match i % 128 with
  | 0 => ⟨S2x100000, .f32⟩
  | 1 => ⟨S2x100000, .f32⟩
  | 2 => ⟨S2x100000, .i32⟩
  | 3 => ⟨S2x100000, .i32⟩
  | 4 => ⟨S2x100000, .i32⟩
  | 5 => ⟨S2x100000, .i32⟩
  | 6 => ⟨S2x100000, .i32⟩
  | 7 => ⟨S2x100000, .i32⟩
  | 8 => ⟨S2x100000x1, .f32⟩
  | 9 => ⟨S2x100000, .f32⟩
  | 10 => ⟨S2x100000, .f32⟩
  | 11 => ⟨S2x100000x1, .f32⟩
  | 12 => ⟨S2x100000x1, .f32⟩
  | 13 => ⟨S2x100000, .f32⟩
  | 14 => ⟨S2x100000, .f32⟩
  | 15 => ⟨S2x100000x1, .f32⟩
  | 16 => ⟨S2x100000x1, .f32⟩
  | 17 => ⟨S2x100000, .f32⟩
  | 18 => ⟨S2x100000, .f32⟩
  | 19 => ⟨S2x100000x1, .f32⟩
  | 20 => ⟨S2x100000x1, .f32⟩
  | 21 => ⟨S2x100000, .f32⟩
  | 22 => ⟨S2x100000, .f32⟩
  | 23 => ⟨S2x100000x1, .f32⟩
  | 24 => ⟨S2x100000x1, .f32⟩
  | 25 => ⟨S2x100000, .f32⟩
  | 26 => ⟨S2x100000, .f32⟩
  | 27 => ⟨S2x100000x1, .f32⟩
  | 28 => ⟨S2x100000x1, .f32⟩
  | 29 => ⟨S2x100000, .f32⟩
  | 30 => ⟨S2x100000, .f32⟩
  | 31 => ⟨S2x100000x1, .f32⟩
  | 32 => ⟨S_, .i32⟩
  | 33 => ⟨S2x100000, .i32⟩
  | 34 => ⟨S2x100000, .i1⟩
  | 35 => ⟨S_, .i32⟩
  | 36 => ⟨S2x100000, .i32⟩
  | 37 => ⟨S2x100000, .i32⟩
  | 38 => ⟨S2x100000, .i32⟩
  | 39 => ⟨S_, .i32⟩
  | 40 => ⟨S2x100000, .i32⟩
  | 41 => ⟨S2x100000, .i1⟩
  | 42 => ⟨S_, .i32⟩
  | 43 => ⟨S2x100000, .i32⟩
  | 44 => ⟨S2x100000, .i32⟩
  | 45 => ⟨S2x100000, .i32⟩
  | 46 => ⟨S_, .i32⟩
  | 47 => ⟨S2x100000, .i32⟩
  | 48 => ⟨S2x100000, .i1⟩
  | 49 => ⟨S_, .i32⟩
  | 50 => ⟨S2x100000, .i32⟩
  | 51 => ⟨S2x100000, .i32⟩
  | 52 => ⟨S2x100000, .i32⟩
  | 53 => ⟨S2x100000x1, .i32⟩
  | 54 => ⟨S2x100000x1, .i32⟩
  | 55 => ⟨S2x100000x1, .i32⟩
  | 56 => ⟨S2x100000x3, .i32⟩
  | 57 => ⟨S2x100000x128, .f32⟩
  | 58 => ⟨S_, .i32⟩
  | 59 => ⟨S2x100000, .i32⟩
  | 60 => ⟨S2x100000, .i1⟩
  | 61 => ⟨S_, .i32⟩
  | 62 => ⟨S2x100000, .i32⟩
  | 63 => ⟨S2x100000, .i32⟩
  | 64 => ⟨S2x100000, .i32⟩
  | 65 => ⟨S_, .i32⟩
  | 66 => ⟨S2x100000, .i32⟩
  | 67 => ⟨S2x100000, .i1⟩
  | 68 => ⟨S_, .i32⟩
  | 69 => ⟨S2x100000, .i32⟩
  | 70 => ⟨S2x100000, .i32⟩
  | 71 => ⟨S2x100000, .i32⟩
  | 72 => ⟨S_, .i32⟩
  | 73 => ⟨S2x100000, .i32⟩
  | 74 => ⟨S2x100000, .i1⟩
  | 75 => ⟨S_, .i32⟩
  | 76 => ⟨S2x100000, .i32⟩
  | 77 => ⟨S2x100000, .i32⟩
  | 78 => ⟨S2x100000, .i32⟩
  | 79 => ⟨S2x100000x1, .i32⟩
  | 80 => ⟨S2x100000x1, .i32⟩
  | 81 => ⟨S2x100000x1, .i32⟩
  | 82 => ⟨S2x100000x3, .i32⟩
  | 83 => ⟨S2x100000x128, .f32⟩
  | 84 => ⟨S_, .i32⟩
  | 85 => ⟨S2x100000, .i32⟩
  | 86 => ⟨S2x100000, .i1⟩
  | 87 => ⟨S_, .i32⟩
  | 88 => ⟨S2x100000, .i32⟩
  | 89 => ⟨S2x100000, .i32⟩
  | 90 => ⟨S2x100000, .i32⟩
  | 91 => ⟨S_, .i32⟩
  | 92 => ⟨S2x100000, .i32⟩
  | 93 => ⟨S2x100000, .i1⟩
  | 94 => ⟨S_, .i32⟩
  | 95 => ⟨S2x100000, .i32⟩
  | 96 => ⟨S2x100000, .i32⟩
  | 97 => ⟨S2x100000, .i32⟩
  | 98 => ⟨S_, .i32⟩
  | 99 => ⟨S2x100000, .i32⟩
  | 100 => ⟨S2x100000, .i1⟩
  | 101 => ⟨S_, .i32⟩
  | 102 => ⟨S2x100000, .i32⟩
  | 103 => ⟨S2x100000, .i32⟩
  | 104 => ⟨S2x100000, .i32⟩
  | 105 => ⟨S2x100000x1, .i32⟩
  | 106 => ⟨S2x100000x1, .i32⟩
  | 107 => ⟨S2x100000x1, .i32⟩
  | 108 => ⟨S2x100000x3, .i32⟩
  | 109 => ⟨S2x100000x128, .f32⟩
  | 110 => ⟨S_, .i32⟩
  | 111 => ⟨S2x100000, .i32⟩
  | 112 => ⟨S2x100000, .i1⟩
  | 113 => ⟨S_, .i32⟩
  | 114 => ⟨S2x100000, .i32⟩
  | 115 => ⟨S2x100000, .i32⟩
  | 116 => ⟨S2x100000, .i32⟩
  | 117 => ⟨S_, .i32⟩
  | 118 => ⟨S2x100000, .i32⟩
  | 119 => ⟨S2x100000, .i1⟩
  | 120 => ⟨S_, .i32⟩
  | 121 => ⟨S2x100000, .i32⟩
  | 122 => ⟨S2x100000, .i32⟩
  | 123 => ⟨S2x100000, .i32⟩
  | 124 => ⟨S_, .i32⟩
  | 125 => ⟨S2x100000, .i32⟩
  | 126 => ⟨S2x100000, .i1⟩
  | 127 => ⟨S_, .i32⟩
  | _ => ⟨S2x128x128x128x16, .f32⟩

abbrev hbmTy0_6 (i : Nat) : BufTy := match i % 128 with
  | 0 => ⟨S2x100000, .i32⟩
  | 1 => ⟨S2x100000, .i32⟩
  | 2 => ⟨S2x100000, .i32⟩
  | 3 => ⟨S2x100000x1, .i32⟩
  | 4 => ⟨S2x100000x1, .i32⟩
  | 5 => ⟨S2x100000x1, .i32⟩
  | 6 => ⟨S2x100000x3, .i32⟩
  | 7 => ⟨S2x100000x128, .f32⟩
  | 8 => ⟨S2x100000x128, .f32⟩
  | 9 => ⟨S2x100000x128, .f32⟩
  | 10 => ⟨S2x100000x128, .f32⟩
  | 11 => ⟨S2x100000x128, .f32⟩
  | 12 => ⟨S2x100000x128, .f32⟩
  | 13 => ⟨S2x100000x128, .f32⟩
  | 14 => ⟨S2x100000x128, .f32⟩
  | 15 => ⟨S2x100000x128, .f32⟩
  | 16 => ⟨S2x100000x128, .f32⟩
  | 17 => ⟨S2x100000x128, .f32⟩
  | 18 => ⟨S2x100000x128, .f32⟩
  | 19 => ⟨S2x100000x128, .f32⟩
  | 20 => ⟨S2x100000x128, .f32⟩
  | 21 => ⟨S2x100000x128, .f32⟩
  | 22 => ⟨S2x100000x128, .f32⟩
  | 23 => ⟨S_, .i32⟩
  | 24 => ⟨S2x100000, .i32⟩
  | 25 => ⟨S2x100000, .i1⟩
  | 26 => ⟨S_, .i32⟩
  | 27 => ⟨S2x100000, .i32⟩
  | 28 => ⟨S2x100000, .i32⟩
  | 29 => ⟨S2x100000, .i32⟩
  | 30 => ⟨S_, .i32⟩
  | 31 => ⟨S2x100000, .i32⟩
  | 32 => ⟨S2x100000, .i1⟩
  | 33 => ⟨S_, .i32⟩
  | 34 => ⟨S2x100000, .i32⟩
  | 35 => ⟨S2x100000, .i32⟩
  | 36 => ⟨S2x100000, .i32⟩
  | 37 => ⟨S_, .i32⟩
  | 38 => ⟨S2x100000, .i32⟩
  | 39 => ⟨S2x100000, .i1⟩
  | 40 => ⟨S_, .i32⟩
  | 41 => ⟨S2x100000, .i32⟩
  | 42 => ⟨S2x100000, .i32⟩
  | 43 => ⟨S2x100000, .i32⟩
  | 44 => ⟨S2x100000x1, .i32⟩
  | 45 => ⟨S2x100000x1, .i32⟩
  | 46 => ⟨S2x100000x1, .i32⟩
  | 47 => ⟨S2x100000x3, .i32⟩
  | 48 => ⟨S2x100000x128, .f32⟩
  | 49 => ⟨S_, .i32⟩
  | 50 => ⟨S2x100000, .i32⟩
  | 51 => ⟨S2x100000, .i1⟩
  | 52 => ⟨S_, .i32⟩
  | 53 => ⟨S2x100000, .i32⟩
  | 54 => ⟨S2x100000, .i32⟩
  | 55 => ⟨S2x100000, .i32⟩
  | 56 => ⟨S_, .i32⟩
  | 57 => ⟨S2x100000, .i32⟩
  | 58 => ⟨S2x100000, .i1⟩
  | 59 => ⟨S_, .i32⟩
  | 60 => ⟨S2x100000, .i32⟩
  | 61 => ⟨S2x100000, .i32⟩
  | 62 => ⟨S2x100000, .i32⟩
  | 63 => ⟨S_, .i32⟩
  | 64 => ⟨S2x100000, .i32⟩
  | 65 => ⟨S2x100000, .i1⟩
  | 66 => ⟨S_, .i32⟩
  | 67 => ⟨S2x100000, .i32⟩
  | 68 => ⟨S2x100000, .i32⟩
  | 69 => ⟨S2x100000, .i32⟩
  | 70 => ⟨S2x100000x1, .i32⟩
  | 71 => ⟨S2x100000x1, .i32⟩
  | 72 => ⟨S2x100000x1, .i32⟩
  | 73 => ⟨S2x100000x3, .i32⟩
  | 74 => ⟨S2x100000x128, .f32⟩
  | 75 => ⟨S_, .i32⟩
  | 76 => ⟨S2x100000, .i32⟩
  | 77 => ⟨S2x100000, .i1⟩
  | 78 => ⟨S_, .i32⟩
  | 79 => ⟨S2x100000, .i32⟩
  | 80 => ⟨S2x100000, .i32⟩
  | 81 => ⟨S2x100000, .i32⟩
  | 82 => ⟨S_, .i32⟩
  | 83 => ⟨S2x100000, .i32⟩
  | 84 => ⟨S2x100000, .i1⟩
  | 85 => ⟨S_, .i32⟩
  | 86 => ⟨S2x100000, .i32⟩
  | 87 => ⟨S2x100000, .i32⟩
  | 88 => ⟨S2x100000, .i32⟩
  | 89 => ⟨S_, .i32⟩
  | 90 => ⟨S2x100000, .i32⟩
  | 91 => ⟨S2x100000, .i1⟩
  | 92 => ⟨S_, .i32⟩
  | 93 => ⟨S2x100000, .i32⟩
  | 94 => ⟨S2x100000, .i32⟩
  | 95 => ⟨S2x100000, .i32⟩
  | 96 => ⟨S2x100000x1, .i32⟩
  | 97 => ⟨S2x100000x1, .i32⟩
  | 98 => ⟨S2x100000x1, .i32⟩
  | 99 => ⟨S2x100000x3, .i32⟩
  | 100 => ⟨S2x100000x128, .f32⟩
  | 101 => ⟨S_, .i32⟩
  | 102 => ⟨S2x100000, .i32⟩
  | 103 => ⟨S2x100000, .i1⟩
  | 104 => ⟨S_, .i32⟩
  | 105 => ⟨S2x100000, .i32⟩
  | 106 => ⟨S2x100000, .i32⟩
  | 107 => ⟨S2x100000, .i32⟩
  | 108 => ⟨S_, .i32⟩
  | 109 => ⟨S2x100000, .i32⟩
  | 110 => ⟨S2x100000, .i1⟩
  | 111 => ⟨S_, .i32⟩
  | 112 => ⟨S2x100000, .i32⟩
  | 113 => ⟨S2x100000, .i32⟩
  | 114 => ⟨S2x100000, .i32⟩
  | 115 => ⟨S_, .i32⟩
  | 116 => ⟨S2x100000, .i32⟩
  | 117 => ⟨S2x100000, .i1⟩
  | 118 => ⟨S_, .i32⟩
  | 119 => ⟨S2x100000, .i32⟩
  | 120 => ⟨S2x100000, .i32⟩
  | 121 => ⟨S2x100000, .i32⟩
  | 122 => ⟨S2x100000x1, .i32⟩
  | 123 => ⟨S2x100000x1, .i32⟩
  | 124 => ⟨S2x100000x1, .i32⟩
  | 125 => ⟨S2x100000x3, .i32⟩
  | 126 => ⟨S2x100000x128, .f32⟩
  | 127 => ⟨S2x100000x128, .f32⟩
  | _ => ⟨S2x128x128x128x16, .f32⟩

abbrev hbmTy0_7 (i : Nat) : BufTy := match i % 128 with
  | 0 => ⟨S2x100000x128, .f32⟩
  | 1 => ⟨S2x100000x128, .f32⟩
  | 2 => ⟨S2x100000x128, .f32⟩
  | 3 => ⟨S2x100000x128, .f32⟩
  | 4 => ⟨S2x100000x128, .f32⟩
  | 5 => ⟨S2x100000x128, .f32⟩
  | 6 => ⟨S2x100000x128, .f32⟩
  | 7 => ⟨S2x100000x128, .f32⟩
  | 8 => ⟨S2x100000x128, .f32⟩
  | 9 => ⟨S2x100000x128, .f32⟩
  | 10 => ⟨S2x100000x128, .f32⟩
  | 11 => ⟨S2x100000x128, .f32⟩
  | 12 => ⟨S2x100000x128, .f32⟩
  | 13 => ⟨S2x100000x128, .f32⟩
  | 14 => ⟨S2x100000x128, .f32⟩
  | 15 => ⟨S2x100000x128, .f32⟩
  | 16 => ⟨S2x100000x128, .f32⟩
  | 17 => ⟨S2x100000x128, .f32⟩
  | 18 => ⟨S2x100000x128, .f32⟩
  | 19 => ⟨S2x100000x224, .f32⟩
  | _ => ⟨S2x128x128x128x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x128x128x128x16, .f32⟩

abbrev bufTy : (tb : Table) → Fin (tcTables nBuf tb) → BufTy
  | .hbm, ⟨i, _⟩ => hbmTy i
  | _, _ => ⟨S2x128x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c : Ref sig .tc := ⟨.hbm, 68, rfl⟩
abbrev main_v52 : Ref sig .tc := ⟨.hbm, 69, rfl⟩
abbrev main_v53 : Ref sig .tc := ⟨.hbm, 70, rfl⟩
abbrev main_c_4 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_5 : Ref sig .tc := ⟨.hbm, 75, rfl⟩
abbrev main_v57 : Ref sig .tc := ⟨.hbm, 76, rfl⟩
abbrev main_v58 : Ref sig .tc := ⟨.hbm, 77, rfl⟩
abbrev main_c_6 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_7 : Ref sig .tc := ⟨.hbm, 82, rfl⟩
abbrev main_v62 : Ref sig .tc := ⟨.hbm, 83, rfl⟩
abbrev main_v63 : Ref sig .tc := ⟨.hbm, 84, rfl⟩
abbrev main_c_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_9 : Ref sig .tc := ⟨.hbm, 94, rfl⟩
abbrev main_v72 : Ref sig .tc := ⟨.hbm, 95, rfl⟩
abbrev main_v73 : Ref sig .tc := ⟨.hbm, 96, rfl⟩
abbrev main_c_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_11 : Ref sig .tc := ⟨.hbm, 101, rfl⟩
abbrev main_v77 : Ref sig .tc := ⟨.hbm, 102, rfl⟩
abbrev main_v78 : Ref sig .tc := ⟨.hbm, 103, rfl⟩
abbrev main_c_12 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_13 : Ref sig .tc := ⟨.hbm, 108, rfl⟩
abbrev main_v82 : Ref sig .tc := ⟨.hbm, 109, rfl⟩
abbrev main_v83 : Ref sig .tc := ⟨.hbm, 110, rfl⟩
abbrev main_c_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_15 : Ref sig .tc := ⟨.hbm, 120, rfl⟩
abbrev main_v92 : Ref sig .tc := ⟨.hbm, 121, rfl⟩
abbrev main_v93 : Ref sig .tc := ⟨.hbm, 122, rfl⟩
abbrev main_c_16 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_17 : Ref sig .tc := ⟨.hbm, 127, rfl⟩
abbrev main_v97 : Ref sig .tc := ⟨.hbm, 128, rfl⟩
abbrev main_v98 : Ref sig .tc := ⟨.hbm, 129, rfl⟩
abbrev main_c_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_19 : Ref sig .tc := ⟨.hbm, 134, rfl⟩
abbrev main_v102 : Ref sig .tc := ⟨.hbm, 135, rfl⟩
abbrev main_v103 : Ref sig .tc := ⟨.hbm, 136, rfl⟩
abbrev main_c_20 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_21 : Ref sig .tc := ⟨.hbm, 146, rfl⟩
abbrev main_v112 : Ref sig .tc := ⟨.hbm, 147, rfl⟩
abbrev main_v113 : Ref sig .tc := ⟨.hbm, 148, rfl⟩
abbrev main_c_22 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_23 : Ref sig .tc := ⟨.hbm, 153, rfl⟩
abbrev main_v117 : Ref sig .tc := ⟨.hbm, 154, rfl⟩
abbrev main_v118 : Ref sig .tc := ⟨.hbm, 155, rfl⟩
abbrev main_c_24 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_25 : Ref sig .tc := ⟨.hbm, 160, rfl⟩
abbrev main_v122 : Ref sig .tc := ⟨.hbm, 161, rfl⟩
abbrev main_v123 : Ref sig .tc := ⟨.hbm, 162, rfl⟩
abbrev main_c_26 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_c_27 : Ref sig .tc := ⟨.hbm, 187, rfl⟩
abbrev main_v147 : Ref sig .tc := ⟨.hbm, 188, rfl⟩
abbrev main_v148 : Ref sig .tc := ⟨.hbm, 189, rfl⟩
abbrev main_c_28 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_c_29 : Ref sig .tc := ⟨.hbm, 194, rfl⟩
abbrev main_v152 : Ref sig .tc := ⟨.hbm, 195, rfl⟩
abbrev main_v153 : Ref sig .tc := ⟨.hbm, 196, rfl⟩
abbrev main_c_30 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_c_31 : Ref sig .tc := ⟨.hbm, 201, rfl⟩
abbrev main_v157 : Ref sig .tc := ⟨.hbm, 202, rfl⟩
abbrev main_v158 : Ref sig .tc := ⟨.hbm, 203, rfl⟩
abbrev main_c_32 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_c_33 : Ref sig .tc := ⟨.hbm, 213, rfl⟩
abbrev main_v167 : Ref sig .tc := ⟨.hbm, 214, rfl⟩
abbrev main_v168 : Ref sig .tc := ⟨.hbm, 215, rfl⟩
abbrev main_c_34 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_c_35 : Ref sig .tc := ⟨.hbm, 220, rfl⟩
abbrev main_v172 : Ref sig .tc := ⟨.hbm, 221, rfl⟩
abbrev main_v173 : Ref sig .tc := ⟨.hbm, 222, rfl⟩
abbrev main_c_36 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_c_37 : Ref sig .tc := ⟨.hbm, 227, rfl⟩
abbrev main_v177 : Ref sig .tc := ⟨.hbm, 228, rfl⟩
abbrev main_v178 : Ref sig .tc := ⟨.hbm, 229, rfl⟩
abbrev main_c_38 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_c_39 : Ref sig .tc := ⟨.hbm, 239, rfl⟩
abbrev main_v187 : Ref sig .tc := ⟨.hbm, 240, rfl⟩
abbrev main_v188 : Ref sig .tc := ⟨.hbm, 241, rfl⟩
abbrev main_c_40 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_c_41 : Ref sig .tc := ⟨.hbm, 246, rfl⟩
abbrev main_v192 : Ref sig .tc := ⟨.hbm, 247, rfl⟩
abbrev main_v193 : Ref sig .tc := ⟨.hbm, 248, rfl⟩
abbrev main_c_42 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_c_43 : Ref sig .tc := ⟨.hbm, 253, rfl⟩
abbrev main_v197 : Ref sig .tc := ⟨.hbm, 254, rfl⟩
abbrev main_v198 : Ref sig .tc := ⟨.hbm, 255, rfl⟩
abbrev main_c_44 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_c_45 : Ref sig .tc := ⟨.hbm, 265, rfl⟩
abbrev main_v207 : Ref sig .tc := ⟨.hbm, 266, rfl⟩
abbrev main_v208 : Ref sig .tc := ⟨.hbm, 267, rfl⟩
abbrev main_c_46 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_c_47 : Ref sig .tc := ⟨.hbm, 272, rfl⟩
abbrev main_v212 : Ref sig .tc := ⟨.hbm, 273, rfl⟩
abbrev main_v213 : Ref sig .tc := ⟨.hbm, 274, rfl⟩
abbrev main_c_48 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_c_49 : Ref sig .tc := ⟨.hbm, 279, rfl⟩
abbrev main_v217 : Ref sig .tc := ⟨.hbm, 280, rfl⟩
abbrev main_v218 : Ref sig .tc := ⟨.hbm, 281, rfl⟩
abbrev main_c_50 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_cst_51 : Ref sig .tc := ⟨.hbm, 314, rfl⟩
abbrev main_cst_52 : Ref sig .tc := ⟨.hbm, 315, rfl⟩
abbrev main_call1_v0 : Ref sig .tc := ⟨.hbm, 316, rfl⟩
abbrev main_call1_v1 : Ref sig .tc := ⟨.hbm, 317, rfl⟩
abbrev main_call1_v2 : Ref sig .tc := ⟨.hbm, 318, rfl⟩
abbrev main_call1_v3 : Ref sig .tc := ⟨.hbm, 319, rfl⟩
abbrev main_call1_v4 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_c_53 : Ref sig .tc := ⟨.hbm, 370, rfl⟩
abbrev main_v299 : Ref sig .tc := ⟨.hbm, 371, rfl⟩
abbrev main_v300 : Ref sig .tc := ⟨.hbm, 372, rfl⟩
abbrev main_c_54 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_c_55 : Ref sig .tc := ⟨.hbm, 377, rfl⟩
abbrev main_v304 : Ref sig .tc := ⟨.hbm, 378, rfl⟩
abbrev main_v305 : Ref sig .tc := ⟨.hbm, 379, rfl⟩
abbrev main_c_56 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_c_57 : Ref sig .tc := ⟨.hbm, 384, rfl⟩
abbrev main_v309 : Ref sig .tc := ⟨.hbm, 385, rfl⟩
abbrev main_v310 : Ref sig .tc := ⟨.hbm, 386, rfl⟩
abbrev main_c_58 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_c_59 : Ref sig .tc := ⟨.hbm, 396, rfl⟩
abbrev main_v319 : Ref sig .tc := ⟨.hbm, 397, rfl⟩
abbrev main_v320 : Ref sig .tc := ⟨.hbm, 398, rfl⟩
abbrev main_c_60 : Ref sig .tc := ⟨.hbm, 399, rfl⟩
abbrev main_v321 : Ref sig .tc := ⟨.hbm, 400, rfl⟩
abbrev main_v322 : Ref sig .tc := ⟨.hbm, 401, rfl⟩
abbrev main_v323 : Ref sig .tc := ⟨.hbm, 402, rfl⟩
abbrev main_c_61 : Ref sig .tc := ⟨.hbm, 403, rfl⟩
abbrev main_v324 : Ref sig .tc := ⟨.hbm, 404, rfl⟩
abbrev main_v325 : Ref sig .tc := ⟨.hbm, 405, rfl⟩
abbrev main_c_62 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_c_63 : Ref sig .tc := ⟨.hbm, 410, rfl⟩
abbrev main_v329 : Ref sig .tc := ⟨.hbm, 411, rfl⟩
abbrev main_v330 : Ref sig .tc := ⟨.hbm, 412, rfl⟩
abbrev main_c_64 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_v334 : Ref sig .tc := ⟨.hbm, 417, rfl⟩
abbrev main_v335 : Ref sig .tc := ⟨.hbm, 418, rfl⟩
abbrev main_v336 : Ref sig .tc := ⟨.hbm, 419, rfl⟩
abbrev main_v337 : Ref sig .tc := ⟨.hbm, 420, rfl⟩
abbrev main_v338 : Ref sig .tc := ⟨.hbm, 421, rfl⟩
abbrev main_c_65 : Ref sig .tc := ⟨.hbm, 422, rfl⟩
abbrev main_v339 : Ref sig .tc := ⟨.hbm, 423, rfl⟩
abbrev main_v340 : Ref sig .tc := ⟨.hbm, 424, rfl⟩
abbrev main_c_66 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_c_67 : Ref sig .tc := ⟨.hbm, 429, rfl⟩
abbrev main_v344 : Ref sig .tc := ⟨.hbm, 430, rfl⟩
abbrev main_v345 : Ref sig .tc := ⟨.hbm, 431, rfl⟩
abbrev main_c_68 : Ref sig .tc := ⟨.hbm, 432, rfl⟩
abbrev main_v346 : Ref sig .tc := ⟨.hbm, 433, rfl⟩
abbrev main_v347 : Ref sig .tc := ⟨.hbm, 434, rfl⟩
abbrev main_v348 : Ref sig .tc := ⟨.hbm, 435, rfl⟩
abbrev main_c_69 : Ref sig .tc := ⟨.hbm, 436, rfl⟩
abbrev main_v349 : Ref sig .tc := ⟨.hbm, 437, rfl⟩
abbrev main_v350 : Ref sig .tc := ⟨.hbm, 438, rfl⟩
abbrev main_c_70 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_c_71 : Ref sig .tc := ⟨.hbm, 448, rfl⟩
abbrev main_v359 : Ref sig .tc := ⟨.hbm, 449, rfl⟩
abbrev main_v360 : Ref sig .tc := ⟨.hbm, 450, rfl⟩
abbrev main_c_72 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_c_73 : Ref sig .tc := ⟨.hbm, 455, rfl⟩
abbrev main_v364 : Ref sig .tc := ⟨.hbm, 456, rfl⟩
abbrev main_v365 : Ref sig .tc := ⟨.hbm, 457, rfl⟩
abbrev main_c_74 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_c_75 : Ref sig .tc := ⟨.hbm, 462, rfl⟩
abbrev main_v369 : Ref sig .tc := ⟨.hbm, 463, rfl⟩
abbrev main_v370 : Ref sig .tc := ⟨.hbm, 464, rfl⟩
abbrev main_c_76 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_c_77 : Ref sig .tc := ⟨.hbm, 489, rfl⟩
abbrev main_v394 : Ref sig .tc := ⟨.hbm, 490, rfl⟩
abbrev main_v395 : Ref sig .tc := ⟨.hbm, 491, rfl⟩
abbrev main_c_78 : Ref sig .tc := ⟨.hbm, 492, rfl⟩
abbrev main_v396 : Ref sig .tc := ⟨.hbm, 493, rfl⟩
abbrev main_v397 : Ref sig .tc := ⟨.hbm, 494, rfl⟩
abbrev main_v398 : Ref sig .tc := ⟨.hbm, 495, rfl⟩
abbrev main_c_79 : Ref sig .tc := ⟨.hbm, 496, rfl⟩
abbrev main_v399 : Ref sig .tc := ⟨.hbm, 497, rfl⟩
abbrev main_v400 : Ref sig .tc := ⟨.hbm, 498, rfl⟩
abbrev main_c_80 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_c_81 : Ref sig .tc := ⟨.hbm, 503, rfl⟩
abbrev main_v404 : Ref sig .tc := ⟨.hbm, 504, rfl⟩
abbrev main_v405 : Ref sig .tc := ⟨.hbm, 505, rfl⟩
abbrev main_c_82 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩
abbrev main_v411 : Ref sig .tc := ⟨.hbm, 512, rfl⟩
abbrev main_v412 : Ref sig .tc := ⟨.hbm, 513, rfl⟩
abbrev main_v413 : Ref sig .tc := ⟨.hbm, 514, rfl⟩
abbrev main_c_83 : Ref sig .tc := ⟨.hbm, 515, rfl⟩
abbrev main_v414 : Ref sig .tc := ⟨.hbm, 516, rfl⟩
abbrev main_v415 : Ref sig .tc := ⟨.hbm, 517, rfl⟩
abbrev main_c_84 : Ref sig .tc := ⟨.hbm, 518, rfl⟩
abbrev main_v416 : Ref sig .tc := ⟨.hbm, 519, rfl⟩
abbrev main_v417 : Ref sig .tc := ⟨.hbm, 520, rfl⟩
abbrev main_v418 : Ref sig .tc := ⟨.hbm, 521, rfl⟩
abbrev main_c_85 : Ref sig .tc := ⟨.hbm, 522, rfl⟩
abbrev main_v419 : Ref sig .tc := ⟨.hbm, 523, rfl⟩
abbrev main_v420 : Ref sig .tc := ⟨.hbm, 524, rfl⟩
abbrev main_c_86 : Ref sig .tc := ⟨.hbm, 525, rfl⟩
abbrev main_v421 : Ref sig .tc := ⟨.hbm, 526, rfl⟩
abbrev main_v422 : Ref sig .tc := ⟨.hbm, 527, rfl⟩
abbrev main_v423 : Ref sig .tc := ⟨.hbm, 528, rfl⟩
abbrev main_c_87 : Ref sig .tc := ⟨.hbm, 529, rfl⟩
abbrev main_v424 : Ref sig .tc := ⟨.hbm, 530, rfl⟩
abbrev main_v425 : Ref sig .tc := ⟨.hbm, 531, rfl⟩
abbrev main_c_88 : Ref sig .tc := ⟨.hbm, 532, rfl⟩
abbrev main_v426 : Ref sig .tc := ⟨.hbm, 533, rfl⟩
abbrev main_v427 : Ref sig .tc := ⟨.hbm, 534, rfl⟩
abbrev main_v428 : Ref sig .tc := ⟨.hbm, 535, rfl⟩
abbrev main_v429 : Ref sig .tc := ⟨.hbm, 536, rfl⟩
abbrev main_v430 : Ref sig .tc := ⟨.hbm, 537, rfl⟩
abbrev main_v431 : Ref sig .tc := ⟨.hbm, 538, rfl⟩
abbrev main_v432 : Ref sig .tc := ⟨.hbm, 539, rfl⟩
abbrev main_v433 : Ref sig .tc := ⟨.hbm, 540, rfl⟩
abbrev main_c_89 : Ref sig .tc := ⟨.hbm, 541, rfl⟩
abbrev main_v434 : Ref sig .tc := ⟨.hbm, 542, rfl⟩
abbrev main_v435 : Ref sig .tc := ⟨.hbm, 543, rfl⟩
abbrev main_c_90 : Ref sig .tc := ⟨.hbm, 544, rfl⟩
abbrev main_v436 : Ref sig .tc := ⟨.hbm, 545, rfl⟩
abbrev main_v437 : Ref sig .tc := ⟨.hbm, 546, rfl⟩
abbrev main_v438 : Ref sig .tc := ⟨.hbm, 547, rfl⟩
abbrev main_c_91 : Ref sig .tc := ⟨.hbm, 548, rfl⟩
abbrev main_v439 : Ref sig .tc := ⟨.hbm, 549, rfl⟩
abbrev main_v440 : Ref sig .tc := ⟨.hbm, 550, rfl⟩
abbrev main_c_92 : Ref sig .tc := ⟨.hbm, 551, rfl⟩
abbrev main_v441 : Ref sig .tc := ⟨.hbm, 552, rfl⟩
abbrev main_v442 : Ref sig .tc := ⟨.hbm, 553, rfl⟩
abbrev main_v443 : Ref sig .tc := ⟨.hbm, 554, rfl⟩
abbrev main_c_93 : Ref sig .tc := ⟨.hbm, 555, rfl⟩
abbrev main_v444 : Ref sig .tc := ⟨.hbm, 556, rfl⟩
abbrev main_v445 : Ref sig .tc := ⟨.hbm, 557, rfl⟩
abbrev main_c_94 : Ref sig .tc := ⟨.hbm, 558, rfl⟩
abbrev main_v446 : Ref sig .tc := ⟨.hbm, 559, rfl⟩
abbrev main_v447 : Ref sig .tc := ⟨.hbm, 560, rfl⟩
abbrev main_v448 : Ref sig .tc := ⟨.hbm, 561, rfl⟩
abbrev main_v449 : Ref sig .tc := ⟨.hbm, 562, rfl⟩
abbrev main_v450 : Ref sig .tc := ⟨.hbm, 563, rfl⟩
abbrev main_v451 : Ref sig .tc := ⟨.hbm, 564, rfl⟩
abbrev main_v452 : Ref sig .tc := ⟨.hbm, 565, rfl⟩
abbrev main_v453 : Ref sig .tc := ⟨.hbm, 566, rfl⟩
abbrev main_c_95 : Ref sig .tc := ⟨.hbm, 567, rfl⟩
abbrev main_v454 : Ref sig .tc := ⟨.hbm, 568, rfl⟩
abbrev main_v455 : Ref sig .tc := ⟨.hbm, 569, rfl⟩
abbrev main_c_96 : Ref sig .tc := ⟨.hbm, 570, rfl⟩
abbrev main_v456 : Ref sig .tc := ⟨.hbm, 571, rfl⟩
abbrev main_v457 : Ref sig .tc := ⟨.hbm, 572, rfl⟩
abbrev main_v458 : Ref sig .tc := ⟨.hbm, 573, rfl⟩
abbrev main_c_97 : Ref sig .tc := ⟨.hbm, 574, rfl⟩
abbrev main_v459 : Ref sig .tc := ⟨.hbm, 575, rfl⟩
abbrev main_v460 : Ref sig .tc := ⟨.hbm, 576, rfl⟩
abbrev main_c_98 : Ref sig .tc := ⟨.hbm, 577, rfl⟩
abbrev main_v461 : Ref sig .tc := ⟨.hbm, 578, rfl⟩
abbrev main_v462 : Ref sig .tc := ⟨.hbm, 579, rfl⟩
abbrev main_v463 : Ref sig .tc := ⟨.hbm, 580, rfl⟩
abbrev main_c_99 : Ref sig .tc := ⟨.hbm, 581, rfl⟩
abbrev main_v464 : Ref sig .tc := ⟨.hbm, 582, rfl⟩
abbrev main_v465 : Ref sig .tc := ⟨.hbm, 583, rfl⟩
abbrev main_c_100 : Ref sig .tc := ⟨.hbm, 584, rfl⟩
abbrev main_v466 : Ref sig .tc := ⟨.hbm, 585, rfl⟩
abbrev main_v467 : Ref sig .tc := ⟨.hbm, 586, rfl⟩
abbrev main_v468 : Ref sig .tc := ⟨.hbm, 587, rfl⟩
abbrev main_v469 : Ref sig .tc := ⟨.hbm, 588, rfl⟩
abbrev main_v470 : Ref sig .tc := ⟨.hbm, 589, rfl⟩
abbrev main_v471 : Ref sig .tc := ⟨.hbm, 590, rfl⟩
abbrev main_v472 : Ref sig .tc := ⟨.hbm, 591, rfl⟩
abbrev main_v473 : Ref sig .tc := ⟨.hbm, 592, rfl⟩
abbrev main_v474 : Ref sig .tc := ⟨.hbm, 593, rfl⟩
abbrev main_v475 : Ref sig .tc := ⟨.hbm, 594, rfl⟩
abbrev main_v476 : Ref sig .tc := ⟨.hbm, 595, rfl⟩
abbrev main_v477 : Ref sig .tc := ⟨.hbm, 596, rfl⟩
abbrev main_v478 : Ref sig .tc := ⟨.hbm, 597, rfl⟩
abbrev main_v479 : Ref sig .tc := ⟨.hbm, 598, rfl⟩
abbrev main_v480 : Ref sig .tc := ⟨.hbm, 599, rfl⟩
abbrev main_v481 : Ref sig .tc := ⟨.hbm, 600, rfl⟩
abbrev main_v482 : Ref sig .tc := ⟨.hbm, 601, rfl⟩
abbrev main_v483 : Ref sig .tc := ⟨.hbm, 602, rfl⟩
abbrev main_v484 : Ref sig .tc := ⟨.hbm, 603, rfl⟩
abbrev main_v485 : Ref sig .tc := ⟨.hbm, 604, rfl⟩
abbrev main_v486 : Ref sig .tc := ⟨.hbm, 605, rfl⟩
abbrev main_v487 : Ref sig .tc := ⟨.hbm, 606, rfl⟩
abbrev main_v488 : Ref sig .tc := ⟨.hbm, 607, rfl⟩
abbrev main_v489 : Ref sig .tc := ⟨.hbm, 608, rfl⟩
abbrev main_v490 : Ref sig .tc := ⟨.hbm, 609, rfl⟩
abbrev main_v491 : Ref sig .tc := ⟨.hbm, 610, rfl⟩
abbrev main_v492 : Ref sig .tc := ⟨.hbm, 611, rfl⟩
abbrev main_v493 : Ref sig .tc := ⟨.hbm, 612, rfl⟩
abbrev main_v494 : Ref sig .tc := ⟨.hbm, 613, rfl⟩
abbrev main_v495 : Ref sig .tc := ⟨.hbm, 614, rfl⟩
abbrev main_v496 : Ref sig .tc := ⟨.hbm, 615, rfl⟩
abbrev main_cst_101 : Ref sig .tc := ⟨.hbm, 616, rfl⟩
abbrev main_cst_102 : Ref sig .tc := ⟨.hbm, 617, rfl⟩
abbrev main_call2_v0 : Ref sig .tc := ⟨.hbm, 618, rfl⟩
abbrev main_call2_v1 : Ref sig .tc := ⟨.hbm, 619, rfl⟩
abbrev main_call2_v2 : Ref sig .tc := ⟨.hbm, 620, rfl⟩
abbrev main_call2_v3 : Ref sig .tc := ⟨.hbm, 621, rfl⟩
abbrev main_call2_v4 : Ref sig .tc := ⟨.hbm, 622, rfl⟩
abbrev main_v497 : Ref sig .tc := ⟨.hbm, 623, rfl⟩
abbrev main_v498 : Ref sig .tc := ⟨.hbm, 624, rfl⟩
abbrev main_v499 : Ref sig .tc := ⟨.hbm, 625, rfl⟩
abbrev main_v500 : Ref sig .tc := ⟨.hbm, 626, rfl⟩
abbrev main_v501 : Ref sig .tc := ⟨.hbm, 627, rfl⟩
abbrev main_v502 : Ref sig .tc := ⟨.hbm, 628, rfl⟩
abbrev main_v503 : Ref sig .tc := ⟨.hbm, 629, rfl⟩
abbrev main_v504 : Ref sig .tc := ⟨.hbm, 630, rfl⟩
abbrev main_v505 : Ref sig .tc := ⟨.hbm, 631, rfl⟩
abbrev main_v506 : Ref sig .tc := ⟨.hbm, 632, rfl⟩
abbrev main_v507 : Ref sig .tc := ⟨.hbm, 633, rfl⟩
abbrev main_v508 : Ref sig .tc := ⟨.hbm, 634, rfl⟩
abbrev main_v509 : Ref sig .tc := ⟨.hbm, 635, rfl⟩
abbrev main_v510 : Ref sig .tc := ⟨.hbm, 636, rfl⟩
abbrev main_v511 : Ref sig .tc := ⟨.hbm, 637, rfl⟩
abbrev main_v512 : Ref sig .tc := ⟨.hbm, 638, rfl⟩
abbrev main_v513 : Ref sig .tc := ⟨.hbm, 639, rfl⟩
abbrev main_v514 : Ref sig .tc := ⟨.hbm, 640, rfl⟩
abbrev main_v515 : Ref sig .tc := ⟨.hbm, 641, rfl⟩
abbrev main_v516 : Ref sig .tc := ⟨.hbm, 642, rfl⟩
abbrev main_v517 : Ref sig .tc := ⟨.hbm, 643, rfl⟩
abbrev main_v518 : Ref sig .tc := ⟨.hbm, 644, rfl⟩
abbrev main_v519 : Ref sig .tc := ⟨.hbm, 645, rfl⟩
abbrev main_v520 : Ref sig .tc := ⟨.hbm, 646, rfl⟩
abbrev main_v521 : Ref sig .tc := ⟨.hbm, 647, rfl⟩
abbrev main_v522 : Ref sig .tc := ⟨.hbm, 648, rfl⟩
abbrev main_v523 : Ref sig .tc := ⟨.hbm, 649, rfl⟩
abbrev main_v524 : Ref sig .tc := ⟨.hbm, 650, rfl⟩
abbrev main_v525 : Ref sig .tc := ⟨.hbm, 651, rfl⟩
abbrev main_v526 : Ref sig .tc := ⟨.hbm, 652, rfl⟩
abbrev main_v527 : Ref sig .tc := ⟨.hbm, 653, rfl⟩
abbrev main_v528 : Ref sig .tc := ⟨.hbm, 654, rfl⟩
abbrev main_v529 : Ref sig .tc := ⟨.hbm, 655, rfl⟩
abbrev main_v530 : Ref sig .tc := ⟨.hbm, 656, rfl⟩
abbrev main_v531 : Ref sig .tc := ⟨.hbm, 657, rfl⟩
abbrev main_v532 : Ref sig .tc := ⟨.hbm, 658, rfl⟩
abbrev main_v533 : Ref sig .tc := ⟨.hbm, 659, rfl⟩
abbrev main_v534 : Ref sig .tc := ⟨.hbm, 660, rfl⟩
abbrev main_v535 : Ref sig .tc := ⟨.hbm, 661, rfl⟩
abbrev main_v536 : Ref sig .tc := ⟨.hbm, 662, rfl⟩
abbrev main_v537 : Ref sig .tc := ⟨.hbm, 663, rfl⟩
abbrev main_v538 : Ref sig .tc := ⟨.hbm, 664, rfl⟩
abbrev main_v539 : Ref sig .tc := ⟨.hbm, 665, rfl⟩
abbrev main_v540 : Ref sig .tc := ⟨.hbm, 666, rfl⟩
abbrev main_v541 : Ref sig .tc := ⟨.hbm, 667, rfl⟩
abbrev main_v542 : Ref sig .tc := ⟨.hbm, 668, rfl⟩
abbrev main_v543 : Ref sig .tc := ⟨.hbm, 669, rfl⟩
abbrev main_v544 : Ref sig .tc := ⟨.hbm, 670, rfl⟩
abbrev main_v545 : Ref sig .tc := ⟨.hbm, 671, rfl⟩
abbrev main_c_103 : Ref sig .tc := ⟨.hbm, 672, rfl⟩
abbrev main_v546 : Ref sig .tc := ⟨.hbm, 673, rfl⟩
abbrev main_v547 : Ref sig .tc := ⟨.hbm, 674, rfl⟩
abbrev main_c_104 : Ref sig .tc := ⟨.hbm, 675, rfl⟩
abbrev main_v548 : Ref sig .tc := ⟨.hbm, 676, rfl⟩
abbrev main_v549 : Ref sig .tc := ⟨.hbm, 677, rfl⟩
abbrev main_v550 : Ref sig .tc := ⟨.hbm, 678, rfl⟩
abbrev main_c_105 : Ref sig .tc := ⟨.hbm, 679, rfl⟩
abbrev main_v551 : Ref sig .tc := ⟨.hbm, 680, rfl⟩
abbrev main_v552 : Ref sig .tc := ⟨.hbm, 681, rfl⟩
abbrev main_c_106 : Ref sig .tc := ⟨.hbm, 682, rfl⟩
abbrev main_v553 : Ref sig .tc := ⟨.hbm, 683, rfl⟩
abbrev main_v554 : Ref sig .tc := ⟨.hbm, 684, rfl⟩
abbrev main_v555 : Ref sig .tc := ⟨.hbm, 685, rfl⟩
abbrev main_c_107 : Ref sig .tc := ⟨.hbm, 686, rfl⟩
abbrev main_v556 : Ref sig .tc := ⟨.hbm, 687, rfl⟩
abbrev main_v557 : Ref sig .tc := ⟨.hbm, 688, rfl⟩
abbrev main_c_108 : Ref sig .tc := ⟨.hbm, 689, rfl⟩
abbrev main_v558 : Ref sig .tc := ⟨.hbm, 690, rfl⟩
abbrev main_v559 : Ref sig .tc := ⟨.hbm, 691, rfl⟩
abbrev main_v560 : Ref sig .tc := ⟨.hbm, 692, rfl⟩
abbrev main_v561 : Ref sig .tc := ⟨.hbm, 693, rfl⟩
abbrev main_v562 : Ref sig .tc := ⟨.hbm, 694, rfl⟩
abbrev main_v563 : Ref sig .tc := ⟨.hbm, 695, rfl⟩
abbrev main_v564 : Ref sig .tc := ⟨.hbm, 696, rfl⟩
abbrev main_v565 : Ref sig .tc := ⟨.hbm, 697, rfl⟩
abbrev main_c_109 : Ref sig .tc := ⟨.hbm, 698, rfl⟩
abbrev main_v566 : Ref sig .tc := ⟨.hbm, 699, rfl⟩
abbrev main_v567 : Ref sig .tc := ⟨.hbm, 700, rfl⟩
abbrev main_c_110 : Ref sig .tc := ⟨.hbm, 701, rfl⟩
abbrev main_v568 : Ref sig .tc := ⟨.hbm, 702, rfl⟩
abbrev main_v569 : Ref sig .tc := ⟨.hbm, 703, rfl⟩
abbrev main_v570 : Ref sig .tc := ⟨.hbm, 704, rfl⟩
abbrev main_c_111 : Ref sig .tc := ⟨.hbm, 705, rfl⟩
abbrev main_v571 : Ref sig .tc := ⟨.hbm, 706, rfl⟩
abbrev main_v572 : Ref sig .tc := ⟨.hbm, 707, rfl⟩
abbrev main_c_112 : Ref sig .tc := ⟨.hbm, 708, rfl⟩
abbrev main_v573 : Ref sig .tc := ⟨.hbm, 709, rfl⟩
abbrev main_v574 : Ref sig .tc := ⟨.hbm, 710, rfl⟩
abbrev main_v575 : Ref sig .tc := ⟨.hbm, 711, rfl⟩
abbrev main_c_113 : Ref sig .tc := ⟨.hbm, 712, rfl⟩
abbrev main_v576 : Ref sig .tc := ⟨.hbm, 713, rfl⟩
abbrev main_v577 : Ref sig .tc := ⟨.hbm, 714, rfl⟩
abbrev main_c_114 : Ref sig .tc := ⟨.hbm, 715, rfl⟩
abbrev main_v578 : Ref sig .tc := ⟨.hbm, 716, rfl⟩
abbrev main_v579 : Ref sig .tc := ⟨.hbm, 717, rfl⟩
abbrev main_v580 : Ref sig .tc := ⟨.hbm, 718, rfl⟩
abbrev main_v581 : Ref sig .tc := ⟨.hbm, 719, rfl⟩
abbrev main_v582 : Ref sig .tc := ⟨.hbm, 720, rfl⟩
abbrev main_v583 : Ref sig .tc := ⟨.hbm, 721, rfl⟩
abbrev main_v584 : Ref sig .tc := ⟨.hbm, 722, rfl⟩
abbrev main_v585 : Ref sig .tc := ⟨.hbm, 723, rfl⟩
abbrev main_c_115 : Ref sig .tc := ⟨.hbm, 724, rfl⟩
abbrev main_v586 : Ref sig .tc := ⟨.hbm, 725, rfl⟩
abbrev main_v587 : Ref sig .tc := ⟨.hbm, 726, rfl⟩
abbrev main_c_116 : Ref sig .tc := ⟨.hbm, 727, rfl⟩
abbrev main_v588 : Ref sig .tc := ⟨.hbm, 728, rfl⟩
abbrev main_v589 : Ref sig .tc := ⟨.hbm, 729, rfl⟩
abbrev main_v590 : Ref sig .tc := ⟨.hbm, 730, rfl⟩
abbrev main_c_117 : Ref sig .tc := ⟨.hbm, 731, rfl⟩
abbrev main_v591 : Ref sig .tc := ⟨.hbm, 732, rfl⟩
abbrev main_v592 : Ref sig .tc := ⟨.hbm, 733, rfl⟩
abbrev main_c_118 : Ref sig .tc := ⟨.hbm, 734, rfl⟩
abbrev main_v593 : Ref sig .tc := ⟨.hbm, 735, rfl⟩
abbrev main_v594 : Ref sig .tc := ⟨.hbm, 736, rfl⟩
abbrev main_v595 : Ref sig .tc := ⟨.hbm, 737, rfl⟩
abbrev main_c_119 : Ref sig .tc := ⟨.hbm, 738, rfl⟩
abbrev main_v596 : Ref sig .tc := ⟨.hbm, 739, rfl⟩
abbrev main_v597 : Ref sig .tc := ⟨.hbm, 740, rfl⟩
abbrev main_c_120 : Ref sig .tc := ⟨.hbm, 741, rfl⟩
abbrev main_v598 : Ref sig .tc := ⟨.hbm, 742, rfl⟩
abbrev main_v599 : Ref sig .tc := ⟨.hbm, 743, rfl⟩
abbrev main_v600 : Ref sig .tc := ⟨.hbm, 744, rfl⟩
abbrev main_v601 : Ref sig .tc := ⟨.hbm, 745, rfl⟩
abbrev main_v602 : Ref sig .tc := ⟨.hbm, 746, rfl⟩
abbrev main_v603 : Ref sig .tc := ⟨.hbm, 747, rfl⟩
abbrev main_v604 : Ref sig .tc := ⟨.hbm, 748, rfl⟩
abbrev main_v605 : Ref sig .tc := ⟨.hbm, 749, rfl⟩
abbrev main_c_121 : Ref sig .tc := ⟨.hbm, 750, rfl⟩
abbrev main_v606 : Ref sig .tc := ⟨.hbm, 751, rfl⟩
abbrev main_v607 : Ref sig .tc := ⟨.hbm, 752, rfl⟩
abbrev main_c_122 : Ref sig .tc := ⟨.hbm, 753, rfl⟩
abbrev main_v608 : Ref sig .tc := ⟨.hbm, 754, rfl⟩
abbrev main_v609 : Ref sig .tc := ⟨.hbm, 755, rfl⟩
abbrev main_v610 : Ref sig .tc := ⟨.hbm, 756, rfl⟩
abbrev main_c_123 : Ref sig .tc := ⟨.hbm, 757, rfl⟩
abbrev main_v611 : Ref sig .tc := ⟨.hbm, 758, rfl⟩
abbrev main_v612 : Ref sig .tc := ⟨.hbm, 759, rfl⟩
abbrev main_c_124 : Ref sig .tc := ⟨.hbm, 760, rfl⟩
abbrev main_v613 : Ref sig .tc := ⟨.hbm, 761, rfl⟩
abbrev main_v614 : Ref sig .tc := ⟨.hbm, 762, rfl⟩
abbrev main_v615 : Ref sig .tc := ⟨.hbm, 763, rfl⟩
abbrev main_c_125 : Ref sig .tc := ⟨.hbm, 764, rfl⟩
abbrev main_v616 : Ref sig .tc := ⟨.hbm, 765, rfl⟩
abbrev main_v617 : Ref sig .tc := ⟨.hbm, 766, rfl⟩
abbrev main_c_126 : Ref sig .tc := ⟨.hbm, 767, rfl⟩
abbrev main_v618 : Ref sig .tc := ⟨.hbm, 768, rfl⟩
abbrev main_v619 : Ref sig .tc := ⟨.hbm, 769, rfl⟩
abbrev main_v620 : Ref sig .tc := ⟨.hbm, 770, rfl⟩
abbrev main_v621 : Ref sig .tc := ⟨.hbm, 771, rfl⟩
abbrev main_v622 : Ref sig .tc := ⟨.hbm, 772, rfl⟩
abbrev main_v623 : Ref sig .tc := ⟨.hbm, 773, rfl⟩
abbrev main_v624 : Ref sig .tc := ⟨.hbm, 774, rfl⟩
abbrev main_v625 : Ref sig .tc := ⟨.hbm, 775, rfl⟩
abbrev main_v626 : Ref sig .tc := ⟨.hbm, 776, rfl⟩
abbrev main_v627 : Ref sig .tc := ⟨.hbm, 777, rfl⟩
abbrev main_v628 : Ref sig .tc := ⟨.hbm, 778, rfl⟩
abbrev main_v629 : Ref sig .tc := ⟨.hbm, 779, rfl⟩
abbrev main_v630 : Ref sig .tc := ⟨.hbm, 780, rfl⟩
abbrev main_v631 : Ref sig .tc := ⟨.hbm, 781, rfl⟩
abbrev main_v632 : Ref sig .tc := ⟨.hbm, 782, rfl⟩
abbrev main_v633 : Ref sig .tc := ⟨.hbm, 783, rfl⟩
abbrev main_v634 : Ref sig .tc := ⟨.hbm, 784, rfl⟩
abbrev main_v635 : Ref sig .tc := ⟨.hbm, 785, rfl⟩
abbrev main_v636 : Ref sig .tc := ⟨.hbm, 786, rfl⟩
abbrev main_v637 : Ref sig .tc := ⟨.hbm, 787, rfl⟩
abbrev main_v638 : Ref sig .tc := ⟨.hbm, 788, rfl⟩
abbrev main_v639 : Ref sig .tc := ⟨.hbm, 789, rfl⟩
abbrev main_v640 : Ref sig .tc := ⟨.hbm, 790, rfl⟩
abbrev main_c_127 : Ref sig .tc := ⟨.hbm, 791, rfl⟩
abbrev main_v641 : Ref sig .tc := ⟨.hbm, 792, rfl⟩
abbrev main_v642 : Ref sig .tc := ⟨.hbm, 793, rfl⟩
abbrev main_c_128 : Ref sig .tc := ⟨.hbm, 794, rfl⟩
abbrev main_v643 : Ref sig .tc := ⟨.hbm, 795, rfl⟩
abbrev main_v644 : Ref sig .tc := ⟨.hbm, 796, rfl⟩
abbrev main_v645 : Ref sig .tc := ⟨.hbm, 797, rfl⟩
abbrev main_c_129 : Ref sig .tc := ⟨.hbm, 798, rfl⟩
abbrev main_v646 : Ref sig .tc := ⟨.hbm, 799, rfl⟩
abbrev main_v647 : Ref sig .tc := ⟨.hbm, 800, rfl⟩
abbrev main_c_130 : Ref sig .tc := ⟨.hbm, 801, rfl⟩
abbrev main_v648 : Ref sig .tc := ⟨.hbm, 802, rfl⟩
abbrev main_v649 : Ref sig .tc := ⟨.hbm, 803, rfl⟩
abbrev main_v650 : Ref sig .tc := ⟨.hbm, 804, rfl⟩
abbrev main_c_131 : Ref sig .tc := ⟨.hbm, 805, rfl⟩
abbrev main_v651 : Ref sig .tc := ⟨.hbm, 806, rfl⟩
abbrev main_v652 : Ref sig .tc := ⟨.hbm, 807, rfl⟩
abbrev main_c_132 : Ref sig .tc := ⟨.hbm, 808, rfl⟩
abbrev main_v653 : Ref sig .tc := ⟨.hbm, 809, rfl⟩
abbrev main_v654 : Ref sig .tc := ⟨.hbm, 810, rfl⟩
abbrev main_v655 : Ref sig .tc := ⟨.hbm, 811, rfl⟩
abbrev main_v656 : Ref sig .tc := ⟨.hbm, 812, rfl⟩
abbrev main_v657 : Ref sig .tc := ⟨.hbm, 813, rfl⟩
abbrev main_v658 : Ref sig .tc := ⟨.hbm, 814, rfl⟩
abbrev main_v659 : Ref sig .tc := ⟨.hbm, 815, rfl⟩
abbrev main_v660 : Ref sig .tc := ⟨.hbm, 816, rfl⟩
abbrev main_c_133 : Ref sig .tc := ⟨.hbm, 817, rfl⟩
abbrev main_v661 : Ref sig .tc := ⟨.hbm, 818, rfl⟩
abbrev main_v662 : Ref sig .tc := ⟨.hbm, 819, rfl⟩
abbrev main_c_134 : Ref sig .tc := ⟨.hbm, 820, rfl⟩
abbrev main_v663 : Ref sig .tc := ⟨.hbm, 821, rfl⟩
abbrev main_v664 : Ref sig .tc := ⟨.hbm, 822, rfl⟩
abbrev main_v665 : Ref sig .tc := ⟨.hbm, 823, rfl⟩
abbrev main_c_135 : Ref sig .tc := ⟨.hbm, 824, rfl⟩
abbrev main_v666 : Ref sig .tc := ⟨.hbm, 825, rfl⟩
abbrev main_v667 : Ref sig .tc := ⟨.hbm, 826, rfl⟩
abbrev main_c_136 : Ref sig .tc := ⟨.hbm, 827, rfl⟩
abbrev main_v668 : Ref sig .tc := ⟨.hbm, 828, rfl⟩
abbrev main_v669 : Ref sig .tc := ⟨.hbm, 829, rfl⟩
abbrev main_v670 : Ref sig .tc := ⟨.hbm, 830, rfl⟩
abbrev main_c_137 : Ref sig .tc := ⟨.hbm, 831, rfl⟩
abbrev main_v671 : Ref sig .tc := ⟨.hbm, 832, rfl⟩
abbrev main_v672 : Ref sig .tc := ⟨.hbm, 833, rfl⟩
abbrev main_c_138 : Ref sig .tc := ⟨.hbm, 834, rfl⟩
abbrev main_v673 : Ref sig .tc := ⟨.hbm, 835, rfl⟩
abbrev main_v674 : Ref sig .tc := ⟨.hbm, 836, rfl⟩
abbrev main_v675 : Ref sig .tc := ⟨.hbm, 837, rfl⟩
abbrev main_v676 : Ref sig .tc := ⟨.hbm, 838, rfl⟩
abbrev main_v677 : Ref sig .tc := ⟨.hbm, 839, rfl⟩
abbrev main_v678 : Ref sig .tc := ⟨.hbm, 840, rfl⟩
abbrev main_v679 : Ref sig .tc := ⟨.hbm, 841, rfl⟩
abbrev main_v680 : Ref sig .tc := ⟨.hbm, 842, rfl⟩
abbrev main_c_139 : Ref sig .tc := ⟨.hbm, 843, rfl⟩
abbrev main_v681 : Ref sig .tc := ⟨.hbm, 844, rfl⟩
abbrev main_v682 : Ref sig .tc := ⟨.hbm, 845, rfl⟩
abbrev main_c_140 : Ref sig .tc := ⟨.hbm, 846, rfl⟩
abbrev main_v683 : Ref sig .tc := ⟨.hbm, 847, rfl⟩
abbrev main_v684 : Ref sig .tc := ⟨.hbm, 848, rfl⟩
abbrev main_v685 : Ref sig .tc := ⟨.hbm, 849, rfl⟩
abbrev main_c_141 : Ref sig .tc := ⟨.hbm, 850, rfl⟩
abbrev main_v686 : Ref sig .tc := ⟨.hbm, 851, rfl⟩
abbrev main_v687 : Ref sig .tc := ⟨.hbm, 852, rfl⟩
abbrev main_c_142 : Ref sig .tc := ⟨.hbm, 853, rfl⟩
abbrev main_v688 : Ref sig .tc := ⟨.hbm, 854, rfl⟩
abbrev main_v689 : Ref sig .tc := ⟨.hbm, 855, rfl⟩
abbrev main_v690 : Ref sig .tc := ⟨.hbm, 856, rfl⟩
abbrev main_c_143 : Ref sig .tc := ⟨.hbm, 857, rfl⟩
abbrev main_v691 : Ref sig .tc := ⟨.hbm, 858, rfl⟩
abbrev main_v692 : Ref sig .tc := ⟨.hbm, 859, rfl⟩
abbrev main_c_144 : Ref sig .tc := ⟨.hbm, 860, rfl⟩
abbrev main_v693 : Ref sig .tc := ⟨.hbm, 861, rfl⟩
abbrev main_v694 : Ref sig .tc := ⟨.hbm, 862, rfl⟩
abbrev main_v695 : Ref sig .tc := ⟨.hbm, 863, rfl⟩
abbrev main_v696 : Ref sig .tc := ⟨.hbm, 864, rfl⟩
abbrev main_v697 : Ref sig .tc := ⟨.hbm, 865, rfl⟩
abbrev main_v698 : Ref sig .tc := ⟨.hbm, 866, rfl⟩
abbrev main_v699 : Ref sig .tc := ⟨.hbm, 867, rfl⟩
abbrev main_v700 : Ref sig .tc := ⟨.hbm, 868, rfl⟩
abbrev main_c_145 : Ref sig .tc := ⟨.hbm, 869, rfl⟩
abbrev main_v701 : Ref sig .tc := ⟨.hbm, 870, rfl⟩
abbrev main_v702 : Ref sig .tc := ⟨.hbm, 871, rfl⟩
abbrev main_c_146 : Ref sig .tc := ⟨.hbm, 872, rfl⟩
abbrev main_v703 : Ref sig .tc := ⟨.hbm, 873, rfl⟩
abbrev main_v704 : Ref sig .tc := ⟨.hbm, 874, rfl⟩
abbrev main_v705 : Ref sig .tc := ⟨.hbm, 875, rfl⟩
abbrev main_c_147 : Ref sig .tc := ⟨.hbm, 876, rfl⟩
abbrev main_v706 : Ref sig .tc := ⟨.hbm, 877, rfl⟩
abbrev main_v707 : Ref sig .tc := ⟨.hbm, 878, rfl⟩
abbrev main_c_148 : Ref sig .tc := ⟨.hbm, 879, rfl⟩
abbrev main_v708 : Ref sig .tc := ⟨.hbm, 880, rfl⟩
abbrev main_v709 : Ref sig .tc := ⟨.hbm, 881, rfl⟩
abbrev main_v710 : Ref sig .tc := ⟨.hbm, 882, rfl⟩
abbrev main_c_149 : Ref sig .tc := ⟨.hbm, 883, rfl⟩
abbrev main_v711 : Ref sig .tc := ⟨.hbm, 884, rfl⟩
abbrev main_v712 : Ref sig .tc := ⟨.hbm, 885, rfl⟩
abbrev main_c_150 : Ref sig .tc := ⟨.hbm, 886, rfl⟩
abbrev main_v713 : Ref sig .tc := ⟨.hbm, 887, rfl⟩
abbrev main_v714 : Ref sig .tc := ⟨.hbm, 888, rfl⟩
abbrev main_v715 : Ref sig .tc := ⟨.hbm, 889, rfl⟩
abbrev main_v716 : Ref sig .tc := ⟨.hbm, 890, rfl⟩
abbrev main_v717 : Ref sig .tc := ⟨.hbm, 891, rfl⟩
abbrev main_v718 : Ref sig .tc := ⟨.hbm, 892, rfl⟩
abbrev main_v719 : Ref sig .tc := ⟨.hbm, 893, rfl⟩
abbrev main_v720 : Ref sig .tc := ⟨.hbm, 894, rfl⟩
abbrev main_v721 : Ref sig .tc := ⟨.hbm, 895, rfl⟩
abbrev main_v722 : Ref sig .tc := ⟨.hbm, 896, rfl⟩
abbrev main_v723 : Ref sig .tc := ⟨.hbm, 897, rfl⟩
abbrev main_v724 : Ref sig .tc := ⟨.hbm, 898, rfl⟩
abbrev main_v725 : Ref sig .tc := ⟨.hbm, 899, rfl⟩
abbrev main_v726 : Ref sig .tc := ⟨.hbm, 900, rfl⟩
abbrev main_v727 : Ref sig .tc := ⟨.hbm, 901, rfl⟩
abbrev main_v728 : Ref sig .tc := ⟨.hbm, 902, rfl⟩
abbrev main_v729 : Ref sig .tc := ⟨.hbm, 903, rfl⟩
abbrev main_v730 : Ref sig .tc := ⟨.hbm, 904, rfl⟩
abbrev main_v731 : Ref sig .tc := ⟨.hbm, 905, rfl⟩
abbrev main_v732 : Ref sig .tc := ⟨.hbm, 906, rfl⟩
abbrev main_v733 : Ref sig .tc := ⟨.hbm, 907, rfl⟩
abbrev main_v734 : Ref sig .tc := ⟨.hbm, 908, rfl⟩
abbrev main_v735 : Ref sig .tc := ⟨.hbm, 909, rfl⟩
abbrev main_v736 : Ref sig .tc := ⟨.hbm, 910, rfl⟩
abbrev main_v737 : Ref sig .tc := ⟨.hbm, 911, rfl⟩
abbrev main_v738 : Ref sig .tc := ⟨.hbm, 912, rfl⟩
abbrev main_v739 : Ref sig .tc := ⟨.hbm, 913, rfl⟩
abbrev main_v740 : Ref sig .tc := ⟨.hbm, 914, rfl⟩
abbrev main_v741 : Ref sig .tc := ⟨.hbm, 915, rfl⟩

abbrev nD : Nat := 1
abbrev τ : Topo := Topo.v7x

variable {F : FTy → Type} [FloatOps F]

class Facts₀ : Prop where
  bcast_S3_S1x1x3_2 : S3.BroadcastsInDim S1x1x3 (![2] : Fin 1 → Fin S1x1x3.rank)
  bcast_S1x1x3_S2x100000x3_0_1_2 : S1x1x3.BroadcastsInDim S2x100000x3 (![0, 1, 2] : Fin 3 → Fin S2x100000x3.rank)
  bcast_S_S2x100000x3 : S_.BroadcastsInDim S2x100000x3 (![] : Fin 0 → Fin S2x100000x3.rank)
  slices_S2x100000x3_S2x100000x1_0_0_0 : S2x100000x3.Slices ![0, 0, 0] S2x100000x1
  shapeCasts_S2x100000x1_S2x100000 : S2x100000x1.ShapeCasts S2x100000
  slices_S2x100000x3_S2x100000x1_0_0_1 : S2x100000x3.Slices ![0, 0, 1] S2x100000x1
  slices_S2x100000x3_S2x100000x1_0_0_2 : S2x100000x3.Slices ![0, 0, 2] S2x100000x1
  bcast_S2x100000_S2x100000x1_0_1 : S2x100000.BroadcastsInDim S2x100000x1 (![0, 1] : Fin 2 → Fin S2x100000x1.rank)
  bcast_S_S2x100000 : S_.BroadcastsInDim S2x100000 (![] : Fin 0 → Fin S2x100000.rank)
  concatenates_S2x100000x1_S2x100000x1_S2x100000x1_S2x100000x3_d2 : Shape.Concatenates [S2x100000x1, S2x100000x1, S2x100000x1] S2x100000x3 2
  bcast_S2x100000x1_S2x100000x32_0_1_2 : S2x100000x1.BroadcastsInDim S2x100000x32 (![0, 1, 2] : Fin 3 → Fin S2x100000x32.rank)
  bcast_S2x100000x1_S2x100000x64_0_1_2 : S2x100000x1.BroadcastsInDim S2x100000x64 (![0, 1, 2] : Fin 3 → Fin S2x100000x64.rank)
  bcast_S2x100000x1_S2x100000x128_0_1_2 : S2x100000x1.BroadcastsInDim S2x100000x128 (![0, 1, 2] : Fin 3 → Fin S2x100000x128.rank)
  concatenates_S2x100000x32_S2x100000x64_S2x100000x128_S2x100000x224_d2 : Shape.Concatenates [S2x100000x32, S2x100000x64, S2x100000x128] S2x100000x224 2
  gather_S2x64x64x64x32_S2x100000x3_S2x100000x32_2_123_0_0_123_2_111132_wf : GatherDims.WF S2x64x64x64x32 S2x100000x3 S2x100000x32 [2] [1, 2, 3] [0] [1, 2, 3] [0] 2 ![1, 1, 1, 1, 32]
  gather_S2x32x32x32x64_S2x100000x3_S2x100000x64_2_123_0_0_123_2_111164_wf : GatherDims.WF S2x32x32x32x64 S2x100000x3 S2x100000x64 [2] [1, 2, 3] [0] [1, 2, 3] [0] 2 ![1, 1, 1, 1, 64]
  gather_S2x16x16x16x128_S2x100000x3_S2x100000x128_2_123_0_0_123_2_1111128_wf : GatherDims.WF S2x16x16x16x128 S2x100000x3 S2x100000x128 [2] [1, 2, 3] [0] [1, 2, 3] [0] 2 ![1, 1, 1, 1, 128]

variable [Facts₀]

def gather_S2x64x64x64x32_S2x100000x3_S2x100000x32_2_123_0_0_123_2_111132 : GatherDims S2x64x64x64x32 S2x100000x3 S2x100000x32 where
  offsetDims := [2]
  collapsedSliceDims := [1, 2, 3]
  operandBatchingDims := [0]
  startIndicesBatchingDims := [0]
  startIndexMap := [1, 2, 3]
  indexVectorDim := 2
  sliceSizes := ![1, 1, 1, 1, 32]
  wf := gather_S2x64x64x64x32_S2x100000x3_S2x100000x32_2_123_0_0_123_2_111132_wf
def gather_S2x32x32x32x64_S2x100000x3_S2x100000x64_2_123_0_0_123_2_111164 : GatherDims S2x32x32x32x64 S2x100000x3 S2x100000x64 where
  offsetDims := [2]
  collapsedSliceDims := [1, 2, 3]
  operandBatchingDims := [0]
  startIndicesBatchingDims := [0]
  startIndexMap := [1, 2, 3]
  indexVectorDim := 2
  sliceSizes := ![1, 1, 1, 1, 64]
  wf := gather_S2x32x32x32x64_S2x100000x3_S2x100000x64_2_123_0_0_123_2_111164_wf
def gather_S2x16x16x16x128_S2x100000x3_S2x100000x128_2_123_0_0_123_2_1111128 : GatherDims S2x16x16x16x128 S2x100000x3 S2x100000x128 where
  offsetDims := [2]
  collapsedSliceDims := [1, 2, 3]
  operandBatchingDims := [0]
  startIndicesBatchingDims := [0]
  startIndexMap := [1, 2, 3]
  indexVectorDim := 2
  sliceSizes := ![1, 1, 1, 1, 128]
  wf := gather_S2x16x16x16x128_S2x100000x3_S2x100000x128_2_123_0_0_123_2_1111128_wf

class Facts : Prop extends Facts₀ where

variable [Facts]
-- ==== Proof.K.Body0.lean ====
import proofs.«171014_j76854144795318_1_alg».proof.Proof.Gen.Kernel.Launch
import proofs.«171014_j76854144795318_1_alg».proof.Proof.Gen.Kernel.Skeleton
import proofs.«171014_j76854144795318_1_alg».proof.Proof.Gen.Kernel.Points
import Idealize.ShloMosaic.Lib.Pipeline.FrameBody
import Idealize.ShloMosaic.Lib.Ring
import Idealize.ShloMosaic.Lib.Tactic

/-! # One grid step of the weighted eight-term sum, at arbitrary entry contents

The pipelined call walks a one-axis grid. At each point it stages one block of rows of each of eight gathered
operands and the matching block of the eight-column weight table, and the body writes, row by row,
`0 + q₀·c₀ + q₁·c₁ + … + q₇·c₇` (each `cᵢ` one column of the weights, spread along the row) into the staged block of
the result. Everything here is stated at a parameter `V`, the contents of the core's buffers when the call is
entered, and for any float reading `F`: what a window's block is, what the body leaves in the result's staging
buffer as a function of the nine input blocks, and the body's triple at every point of the grid. -/

-- membership in a rectangle spanning a long axis is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- The block of window `w` at grid point `t`: the rows of the window's array, as the call finds it, that the point's
    block index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every point of the grid its current staging buffer holds the window's block of the array, whether
    the block was fetched at that point or carried over, for any proof data over these arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every point of the grid its current staging buffer holds the window's block of the array, whether
    the block was fetched at that point or carried over, for any proof data over these arrays that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: at every point of the grid its current staging buffer holds the window's block of the array, whether
    the block was fetched at that point or carried over, for any proof data over these arrays that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: at every point of the grid its current staging buffer holds the window's block of the array, whether
    the block was fetched at that point or carried over, for any proof data over these arrays that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: at every point of the grid its current staging buffer holds the window's block of the array, whether
    the block was fetched at that point or carried over, for any proof data over these arrays that leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: at every point of the grid its current staging buffer holds the window's block of the array, whether
    the block was fetched at that point or carried over, for any proof data over these arrays that leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: at every point of the grid its current staging buffer holds the window's block of the array, whether
    the block was fetched at that point or carried over, for any proof data over these arrays that leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: at every point of the grid its current staging buffer holds the window's block of the array, whether
    the block was fetched at that point or carried over, for any proof data over these arrays that leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8: at every point of the grid its current staging buffer holds the window's block of the array, whether
    the block was fetched at that point or carried over, for any proof data over these arrays that leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of a gathered operand, and of the result. -/
abbrev rq0 : Rect S2048x32 := Rect.unit (s := S2048x32) ![0, 0] S2048x32.size inb_S2048x32_S2048x32_0_0
/-- The whole block of the weights. -/
abbrev rc0 : Rect S2048x8 := Rect.unit (s := S2048x8) ![0, 0] S2048x8.size inb_S2048x8_S2048x8_0_0

/-! ## What the body leaves in the result's staging buffer -/

/-- The result block after the body, from the nine input blocks (`x0 … x7` the gathered operands in window order,
    `x8` the weights): a single store over the whole block, of the eight-term sum. The first five terms are summed
    from zero over `x0 … x4` with weight columns 0 to 4; the last three add `x5`, `x6`, `x7` with columns 5, 6, 7. -/
def out0_9 (x0 x1 x2 x3 x4 x5 x6 x7 : Vec F S2048x32 .f32) (x8 : Vec F S2048x8 .f32) : Vec F S2048x32 .f32 :=
  View.canon [⟨rq0, k0_pay1 (k0_pay2 (View.ld x8 rc0)) (k0_pay3 (View.ld x5 rq0)) (k0_pay4 (View.ld x6 rq0)) (k0_pay5 (View.ld x7 rq0))
    (k0_pay6 (View.ld x8 rc0) (View.ld x0 rq0) (View.ld x1 rq0) (View.ld x2 rq0) (View.ld x3 rq0) (View.ld x4 rq0)) (k0_pay7 (View.ld x8 rc0))⟩]

/-- The one store is the whole block, so every element of the block lies in it. -/
theorem cover0_9 (p0 : Vec F S2048x32 .f32) (y : S2048x32.Idx) :
    ∃ pc ∈ ([⟨rq0, p0⟩] : List (View.Piece (Elt F) S2048x32 .f32)), y ∈ pc.1.set :=
  View.cover_of_tiled [⟨rq0, p0⟩] S2048x32.size (by rfl) y

/-! ## The body's triple -/

set_option maxHeartbeats 1000000 in
/-- The body on whole staging buffers: with the nine inputs' buffers at contents `x0 … x8` and the result's at anything,
    it runs to a state holding the inputs' as they were and the result's at `out0_9` of them. The body reads the nine
    blocks whole, reads the result's block (the value is dropped; only the ownership is used) and stores the sum
    over the whole result block; a buffer written everywhere by one store reads back as that store. -/
theorem sound_kernel0 (c : Dev nD) (E : Set ℕ) (i : grid0.Coords) (arg1 : Memref sig .tc .vmem S2048x32 .f32) (harg1 : arg1.IsWhole) (arg2 : Memref sig .tc .vmem S2048x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x32 .f32) (harg8 : arg8.IsWhole) (arg9 : Memref sig .tc .vmem S2048x8 .f32) (harg9 : arg9.IsWhole) (arg10 : Memref sig .tc .vmem S2048x32 .f32) (harg10 : arg10.IsWhole)
    (x0 x1 x2 x3 x4 x5 x6 x7 : Vec F S2048x32 .f32) (x8 : Vec F S2048x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of the call on core `c`: the arrays as the call finds them; after the body at point `t` each input's
    staging buffer still at its block and the result's at `out0_9` of the nine input blocks; the invariant that leaves the
    scoped rest and the generator register untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is entered with at point `t`: the invariant, the core's debt, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' staging buffers hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point of the grid. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Body1.lean ====
import proofs.«171014_j76854144795318_1_alg».proof.Proof.Gen.Kernel.Launch
import proofs.«171014_j76854144795318_1_alg».proof.Proof.Gen.Kernel.Skeleton
import proofs.«171014_j76854144795318_1_alg».proof.Proof.Gen.Kernel.Points
import Idealize.ShloMosaic.Lib.Pipeline.FrameBody
import Idealize.ShloMosaic.Lib.Ring
import Idealize.ShloMosaic.Lib.Tactic

/-! # One grid step of the weighted eight-term sum, at arbitrary entry contents

The pipelined call walks a one-axis grid. At each point it stages one block of rows of each of eight gathered
operands and the matching block of the eight-column weight table, and the body writes, row by row,
`0 + q₀·c₀ + q₁·c₁ + … + q₇·c₇` (each `cᵢ` one column of the weights, spread along the row) into the staged block of
the result. Everything here is stated at a parameter `V`, the contents of the core's buffers when the call is
entered, and for any float reading `F`: what a window's block is, what the body leaves in the result's staging
buffer as a function of the nine input blocks, and the body's triple at every point of the grid. -/

-- membership in a rectangle spanning a long axis is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- The block of window `w` at grid point `t`: the rows of the window's array, as the call finds it, that the point's
    block index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every point of the grid its current staging buffer holds the window's block of the array, whether
    the block was fetched at that point or carried over, for any proof data over these arrays that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every point of the grid its current staging buffer holds the window's block of the array, whether
    the block was fetched at that point or carried over, for any proof data over these arrays that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every point of the grid its current staging buffer holds the window's block of the array, whether
    the block was fetched at that point or carried over, for any proof data over these arrays that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every point of the grid its current staging buffer holds the window's block of the array, whether
    the block was fetched at that point or carried over, for any proof data over these arrays that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: at every point of the grid its current staging buffer holds the window's block of the array, whether
    the block was fetched at that point or carried over, for any proof data over these arrays that leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: at every point of the grid its current staging buffer holds the window's block of the array, whether
    the block was fetched at that point or carried over, for any proof data over these arrays that leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: at every point of the grid its current staging buffer holds the window's block of the array, whether
    the block was fetched at that point or carried over, for any proof data over these arrays that leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: at every point of the grid its current staging buffer holds the window's block of the array, whether
    the block was fetched at that point or carried over, for any proof data over these arrays that leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8: at every point of the grid its current staging buffer holds the window's block of the array, whether
    the block was fetched at that point or carried over, for any proof data over these arrays that leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of a gathered operand, and of the result. -/
abbrev rq1 : Rect S2048x64 := Rect.unit (s := S2048x64) ![0, 0] S2048x64.size inb_S2048x64_S2048x64_0_0
/-- The whole block of the weights. -/
abbrev rc1 : Rect S2048x8 := Rect.unit (s := S2048x8) ![0, 0] S2048x8.size inb_S2048x8_S2048x8_0_0

/-! ## What the body leaves in the result's staging buffer -/

/-- The result block after the body, from the nine input blocks (`x0 … x7` the gathered operands in window order,
    `x8` the weights): a single store over the whole block, of the eight-term sum. The first five terms are summed
    from zero over `x0 … x4` with weight columns 0 to 4; the last three add `x5`, `x6`, `x7` with columns 5, 6, 7. -/
def out1_9 (x0 x1 x2 x3 x4 x5 x6 x7 : Vec F S2048x64 .f32) (x8 : Vec F S2048x8 .f32) : Vec F S2048x64 .f32 :=
  View.canon [⟨rq1, k1_pay1 (k1_pay2 (View.ld x8 rc1)) (k1_pay3 (View.ld x5 rq1)) (k1_pay4 (View.ld x6 rq1)) (k1_pay5 (View.ld x7 rq1))
    (k1_pay6 (View.ld x8 rc1) (View.ld x0 rq1) (View.ld x1 rq1) (View.ld x2 rq1) (View.ld x3 rq1) (View.ld x4 rq1)) (k1_pay7 (View.ld x8 rc1))⟩]

/-- The one store is the whole block, so every element of the block lies in it. -/
theorem cover1_9 (p0 : Vec F S2048x64 .f32) (y : S2048x64.Idx) :
    ∃ pc ∈ ([⟨rq1, p0⟩] : List (View.Piece (Elt F) S2048x64 .f32)), y ∈ pc.1.set :=
  View.cover_of_tiled [⟨rq1, p0⟩] S2048x64.size (by rfl) y

/-! ## The body's triple -/

set_option maxHeartbeats 1000000 in
/-- The body on whole staging buffers: with the nine inputs' buffers at contents `x0 … x8` and the result's at anything,
    it runs to a state holding the inputs' as they were and the result's at `out1_9` of them. The body reads the nine
    blocks whole, reads the result's block (the value is dropped; only the ownership is used) and stores the sum
    over the whole result block; a buffer written everywhere by one store reads back as that store. -/
theorem sound_kernel1 (c : Dev nD) (E : Set ℕ) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x8 .f32) (harg9 : arg9.IsWhole) (arg10 : Memref sig .tc .vmem S2048x64 .f32) (harg10 : arg10.IsWhole)
    (x0 x1 x2 x3 x4 x5 x6 x7 : Vec F S2048x64 .f32) (x8 : Vec F S2048x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of the call on core `c`: the arrays as the call finds them; after the body at point `t` each input's
    staging buffer still at its block and the result's at `out1_9` of the nine input blocks; the invariant that leaves the
    scoped rest and the generator register untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is entered with at point `t`: the invariant, the core's debt, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' staging buffers hold their blocks, so the body's triple applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point of the grid. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Body2.lean ====
import proofs.«171014_j76854144795318_1_alg».proof.Proof.Gen.Kernel.Launch
import proofs.«171014_j76854144795318_1_alg».proof.Proof.Gen.Kernel.Skeleton
import proofs.«171014_j76854144795318_1_alg».proof.Proof.Gen.Kernel.Points
import Idealize.ShloMosaic.Lib.Pipeline.FrameBody
import Idealize.ShloMosaic.Lib.Ring
import Idealize.ShloMosaic.Lib.Tactic

/-! # One grid step of the weighted eight-term sum, at arbitrary entry contents

The pipelined call walks a one-axis grid. At each point it stages one block of rows of each of eight gathered
operands and the matching block of the eight-column weight table, and the body writes, row by row,
`0 + q₀·c₀ + q₁·c₁ + … + q₇·c₇` (each `cᵢ` one column of the weights, spread along the row) into the staged block of
the result. Everything here is stated at a parameter `V`, the contents of the core's buffers when the call is
entered, and for any float reading `F`: what a window's block is, what the body leaves in the result's staging
buffer as a function of the nine input blocks, and the body's triple at every point of the grid. -/

-- membership in a rectangle spanning a long axis is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- The block of window `w` at grid point `t`: the rows of the window's array, as the call finds it, that the point's
    block index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every point of the grid its current staging buffer holds the window's block of the array, whether
    the block was fetched at that point or carried over, for any proof data over these arrays that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every point of the grid its current staging buffer holds the window's block of the array, whether
    the block was fetched at that point or carried over, for any proof data over these arrays that leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every point of the grid its current staging buffer holds the window's block of the array, whether
    the block was fetched at that point or carried over, for any proof data over these arrays that leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every point of the grid its current staging buffer holds the window's block of the array, whether
    the block was fetched at that point or carried over, for any proof data over these arrays that leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every point of the grid its current staging buffer holds the window's block of the array, whether
    the block was fetched at that point or carried over, for any proof data over these arrays that leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: at every point of the grid its current staging buffer holds the window's block of the array, whether
    the block was fetched at that point or carried over, for any proof data over these arrays that leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6: at every point of the grid its current staging buffer holds the window's block of the array, whether
    the block was fetched at that point or carried over, for any proof data over these arrays that leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7: at every point of the grid its current staging buffer holds the window's block of the array, whether
    the block was fetched at that point or carried over, for any proof data over these arrays that leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8: at every point of the grid its current staging buffer holds the window's block of the array, whether
    the block was fetched at that point or carried over, for any proof data over these arrays that leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of a gathered operand, and of the result. -/
abbrev rq2 : Rect S2048x128 := Rect.unit (s := S2048x128) ![0, 0] S2048x128.size inb_S2048x128_S2048x128_0_0
/-- The whole block of the weights. -/
abbrev rc2 : Rect S2048x8 := Rect.unit (s := S2048x8) ![0, 0] S2048x8.size inb_S2048x8_S2048x8_0_0

/-! ## What the body leaves in the result's staging buffer -/

/-- The result block after the body, from the nine input blocks (`x0 … x7` the gathered operands in window order,
    `x8` the weights): a single store over the whole block, of the eight-term sum. The first five terms are summed
    from zero over `x0 … x4` with weight columns 0 to 4; the last three add `x5`, `x6`, `x7` with columns 5, 6, 7. -/
def out2_9 (x0 x1 x2 x3 x4 x5 x6 x7 : Vec F S2048x128 .f32) (x8 : Vec F S2048x8 .f32) : Vec F S2048x128 .f32 :=
  View.canon [⟨rq2, k2_pay1 (k2_pay2 (View.ld x8 rc2)) (k2_pay3 (View.ld x5 rq2)) (k2_pay4 (View.ld x6 rq2)) (k2_pay5 (View.ld x7 rq2))
    (k2_pay6 (View.ld x8 rc2) (View.ld x0 rq2) (View.ld x1 rq2) (View.ld x2 rq2) (View.ld x3 rq2) (View.ld x4 rq2)) (k2_pay7 (View.ld x8 rc2))⟩]

/-- The one store is the whole block, so every element of the block lies in it. -/
theorem cover2_9 (p0 : Vec F S2048x128 .f32) (y : S2048x128.Idx) :
    ∃ pc ∈ ([⟨rq2, p0⟩] : List (View.Piece (Elt F) S2048x128 .f32)), y ∈ pc.1.set :=
  View.cover_of_tiled [⟨rq2, p0⟩] S2048x128.size (by rfl) y

/-! ## The body's triple -/

set_option maxHeartbeats 1000000 in
/-- The body on whole staging buffers: with the nine inputs' buffers at contents `x0 … x8` and the result's at anything,
    it runs to a state holding the inputs' as they were and the result's at `out2_9` of them. The body reads the nine
    blocks whole, reads the result's block (the value is dropped; only the ownership is used) and stores the sum
    over the whole result block; a buffer written everywhere by one store reads back as that store. -/
theorem sound_kernel2 (c : Dev nD) (E : Set ℕ) (i : grid2.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x8 .f32) (harg9 : arg9.IsWhole) (arg10 : Memref sig .tc .vmem S2048x128 .f32) (harg10 : arg10.IsWhole)
    (x0 x1 x2 x3 x4 x5 x6 x7 : Vec F S2048x128 .f32) (x8 : Vec F S2048x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of the call on core `c`: the arrays as the call finds them; after the body at point `t` each input's
    staging buffer still at its block and the result's at `out2_9` of the nine input blocks; the invariant that leaves the
    scoped rest and the generator register untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is entered with at point `t`: the invariant, the core's debt, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' staging buffers hold their blocks, so the body's triple applies; the invariant
    and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point of the grid. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Fold.lean ====
/-
  The buffer contents at the boundaries of @main's seven segments.

  @main is: the host operations of level 0, the level-0 kernel region, the host operations of level 1, the
  level-1 region, the host operations of level 2, the level-2 region, and three closing host operations.
  Each level's host operations are printed as twenty consecutive stretches; `pre0`, `pre1`, `pre2` are their
  concatenations. `W0` is core `c`'s memory at launch; a host segment rewrites the buffers its operations
  write (`StableHlo.after`); a region leaves every buffer as it found it except its windows' arrays, which
  end at what the pipeline's write-backs leave (`Dat.arrAt … N`). `W7` is what @main returns from.
-/
import proofs.«171014_j76854144795318_1_alg».proof.Proof.K.Body0
import proofs.«171014_j76854144795318_1_alg».proof.Proof.K.Body1
import proofs.«171014_j76854144795318_1_alg».proof.Proof.K.Body2
import Idealize.ShloMosaic.Lib.Pipeline.FrameSuffix

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]

/-- Level 0's host operations, in order: the twenty printed stretches before region 0 as one list. -/
abbrev pre0 : List (HloOp τ sig (Elt F)) := hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19)))))))))))))))))))
/-- Level 1's host operations (they begin by slicing and reshaping region 0's output). -/
abbrev pre1 : List (HloOp τ sig (Elt F)) := hostOps1 ++ (hostOps1_1 ++ (hostOps1_2 ++ (hostOps1_3 ++ (hostOps1_4 ++ (hostOps1_5 ++ (hostOps1_6 ++ (hostOps1_7 ++ (hostOps1_8 ++ (hostOps1_9 ++ (hostOps1_10 ++ (hostOps1_11 ++ (hostOps1_12 ++ (hostOps1_13 ++ (hostOps1_14 ++ (hostOps1_15 ++ (hostOps1_16 ++ (hostOps1_17 ++ (hostOps1_18 ++ (hostOps1_19)))))))))))))))))))
/-- Level 2's host operations (they begin by slicing and reshaping region 1's output). -/
abbrev pre2 : List (HloOp τ sig (Elt F)) := hostOps2 ++ (hostOps2_1 ++ (hostOps2_2 ++ (hostOps2_3 ++ (hostOps2_4 ++ (hostOps2_5 ++ (hostOps2_6 ++ (hostOps2_7 ++ (hostOps2_8 ++ (hostOps2_9 ++ (hostOps2_10 ++ (hostOps2_11 ++ (hostOps2_12 ++ (hostOps2_13 ++ (hostOps2_14 ++ (hostOps2_15 ++ (hostOps2_16 ++ (hostOps2_17 ++ (hostOps2_18 ++ (hostOps2_19)))))))))))))))))))

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After level 0's host operations: region 0's entry. -/
abbrev W1 : Dev nD → Valuation τ sig (Elt F) := fun c => StableHlo.after pre0 (W0 m ρ c)
/-- The same read at the TensorCore's references. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

/-- After level 1's host operations: region 1's entry. -/
abbrev W3 : Dev nD → Valuation τ sig (Elt F) := fun c => StableHlo.after pre1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

/-- After level 2's host operations: region 2's entry. -/
abbrev W5 : Dev nD → Valuation τ sig (Elt F) := fun c => StableHlo.after pre2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

/-- After the three closing host operations: what @main returns from. -/
abbrev W7 : Dev nD → Valuation τ sig (Elt F) := fun c => StableHlo.after hostOps3 (W6 m ρ c)

end Cert.Kernel.Hand

end
-- ==== Proof.K.Host.lean ====
import proofs.«171014_j76854144795318_1_alg».proof.Proof.Gen.Kernel.Launch

/-! # The host operations between the kernel regions: which buffers they touch

@main runs three pipelined calls. Before each it computes, on the host, the eight gathered operands and the
eight-column weight table of that pyramid level; each level's host operations are printed as twenty consecutive
stretches, and three closing operations follow the last call. Here: every one of these operations touches
TensorCore references only, none allocates a buffer, and each writes exactly one buffer, which is never one of
@main's six arguments. Hence a line of such operations leaves every argument as it found it. -/

-- a list of some hundreds of operations is taken apart one `::` at a time
set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- What holds of every element of two lists holds of every element of their concatenation. -/
theorem forall_app {α : Type} {p : α → Prop} {a b : List α} (ha : a.Forall p) (hb : b.Forall p) : (a ++ b).Forall p :=
  List.forall_append.mpr ⟨ha, hb⟩

/-- @main's six arguments. -/
abbrev argRefs : List (Ref sig .tc) := [main_arg0, main_arg1, main_arg2, main_arg3, main_arg4, main_arg5]

/-- The operation writes exactly one buffer: a TensorCore reference that is none of @main's arguments. -/
def NoArgWrite (op : HloOp τ sig (Elt F)) : Prop :=
  ∃ y : Ref sig .tc, op.writes = {Proc.devRef .tc y} ∧ y ∉ argRefs

/-- Such an operation does not write an argument's buffer: distinct references are distinct buffers. -/
theorem NoArgWrite.not_mem {op : HloOp τ sig (Elt F)} (h : NoArgWrite op) {r : Ref sig .tc} (hr : r ∈ argRefs) :
    Proc.devRef (τ := τ) .tc r ∉ op.writes := by
  obtain ⟨y, hw, hy⟩ := h
  rw [hw, Finset.mem_singleton]
  exact fun e => hy (Proc.devRef_injective _ e ▸ hr)

/-- A line of such operations leaves every argument's buffer as it found it. -/
theorem after_arg (ops : List (HloOp τ sig (Elt F))) (h : ops.Forall NoArgWrite) (V : Valuation τ sig (Elt F))
    {r : Ref sig .tc} (hr : r ∈ argRefs) :
    StableHlo.after ops V (Proc.devRef .tc r) = V (Proc.devRef .tc r) :=
  StableHlo.after_of_forall_not_mem ops V fun op hop => ((List.forall_iff_forall_mem.mp h) op hop).not_mem hr

/-- Every operation of a literal list writes one reference, none of them an argument: the list is taken apart,
    each operation's written buffer is read off its builder, and the reference is compared with the six arguments. -/
macro "noarg_ops" : tactic =>
  `(tactic| (simp only [List.Forall]; (repeat' apply And.intro); all_goals exact ⟨_, rfl, by decide⟩))

/-- No operation of a literal list allocates a buffer. -/
macro "fresh_ops" : tactic =>
  `(tactic| (simp only [List.Forall]; (repeat' constructor)))

/-! ## The long stretches (292 operations each: one level's index arithmetic and eight gathers) -/

set_option maxHeartbeats 40000000 in
theorem hostOps0_2_fresh : (hostOps0_2 : List (HloOp τ sig (Elt F))).Forall fun op => op.fresh = ∅ := by fresh_ops
set_option maxHeartbeats 40000000 in
theorem hostOps1_2_fresh : (hostOps1_2 : List (HloOp τ sig (Elt F))).Forall fun op => op.fresh = ∅ := by fresh_ops
set_option maxHeartbeats 40000000 in
theorem hostOps2_2_fresh : (hostOps2_2 : List (HloOp τ sig (Elt F))).Forall fun op => op.fresh = ∅ := by fresh_ops
set_option maxHeartbeats 40000000 in
theorem hostOps0_2_noarg : (hostOps0_2 : List (HloOp τ sig (Elt F))).Forall NoArgWrite := by noarg_ops
set_option maxHeartbeats 40000000 in
theorem hostOps1_2_noarg : (hostOps1_2 : List (HloOp τ sig (Elt F))).Forall NoArgWrite := by noarg_ops
set_option maxHeartbeats 40000000 in
theorem hostOps2_2_noarg : (hostOps2_2 : List (HloOp τ sig (Elt F))).Forall NoArgWrite := by noarg_ops

/-! ## Level 0 -/

/-- Level 0's host operations, in order: the twenty printed stretches before the first call as one list. -/
abbrev lvl0 : List (HloOp τ sig (Elt F)) := hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19)))))))))))))))))))

theorem lvl0_sub : (lvl0 : List (HloOp τ sig (Elt F))).Forall fun op => op.bufs ⊆ StableHlo.tcRefs τ sig :=
  forall_app hostOps0_sub (forall_app hostOps0_1_sub (forall_app hostOps0_2_sub (forall_app hostOps0_3_sub (forall_app hostOps0_4_sub
  (forall_app hostOps0_5_sub (forall_app hostOps0_6_sub (forall_app hostOps0_7_sub (forall_app hostOps0_8_sub (forall_app hostOps0_9_sub
  (forall_app hostOps0_10_sub (forall_app hostOps0_11_sub (forall_app hostOps0_12_sub (forall_app hostOps0_13_sub (forall_app hostOps0_14_sub
  (forall_app hostOps0_15_sub (forall_app hostOps0_16_sub (forall_app hostOps0_17_sub (forall_app hostOps0_18_sub hostOps0_19_sub))))))))))))))))))

theorem lvl0_fresh : (lvl0 : List (HloOp τ sig (Elt F))).Forall fun op => op.fresh = ∅ :=
  forall_app (by fresh_ops) (forall_app (by fresh_ops) (forall_app hostOps0_2_fresh (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (by fresh_ops)))))))))))))))))))

theorem lvl0_noarg : (lvl0 : List (HloOp τ sig (Elt F))).Forall NoArgWrite :=
  forall_app (by noarg_ops) (forall_app (by noarg_ops) (forall_app hostOps0_2_noarg (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (by noarg_ops)))))))))))))))))))

/-! ## Level 1 -/

/-- Level 1's host operations (they begin by slicing and reshaping the first call's output). -/
abbrev lvl1 : List (HloOp τ sig (Elt F)) := hostOps1 ++ (hostOps1_1 ++ (hostOps1_2 ++ (hostOps1_3 ++ (hostOps1_4 ++ (hostOps1_5 ++ (hostOps1_6 ++ (hostOps1_7 ++ (hostOps1_8 ++ (hostOps1_9 ++ (hostOps1_10 ++ (hostOps1_11 ++ (hostOps1_12 ++ (hostOps1_13 ++ (hostOps1_14 ++ (hostOps1_15 ++ (hostOps1_16 ++ (hostOps1_17 ++ (hostOps1_18 ++ (hostOps1_19)))))))))))))))))))

theorem lvl1_sub : (lvl1 : List (HloOp τ sig (Elt F))).Forall fun op => op.bufs ⊆ StableHlo.tcRefs τ sig :=
  forall_app hostOps1_sub (forall_app hostOps1_1_sub (forall_app hostOps1_2_sub (forall_app hostOps1_3_sub (forall_app hostOps1_4_sub
  (forall_app hostOps1_5_sub (forall_app hostOps1_6_sub (forall_app hostOps1_7_sub (forall_app hostOps1_8_sub (forall_app hostOps1_9_sub
  (forall_app hostOps1_10_sub (forall_app hostOps1_11_sub (forall_app hostOps1_12_sub (forall_app hostOps1_13_sub (forall_app hostOps1_14_sub
  (forall_app hostOps1_15_sub (forall_app hostOps1_16_sub (forall_app hostOps1_17_sub (forall_app hostOps1_18_sub hostOps1_19_sub))))))))))))))))))

theorem lvl1_fresh : (lvl1 : List (HloOp τ sig (Elt F))).Forall fun op => op.fresh = ∅ :=
  forall_app (by fresh_ops) (forall_app (by fresh_ops) (forall_app hostOps1_2_fresh (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (by fresh_ops)))))))))))))))))))

theorem lvl1_noarg : (lvl1 : List (HloOp τ sig (Elt F))).Forall NoArgWrite :=
  forall_app (by noarg_ops) (forall_app (by noarg_ops) (forall_app hostOps1_2_noarg (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (by noarg_ops)))))))))))))))))))

/-! ## Level 2 -/

/-- Level 2's host operations (they begin by slicing and reshaping the second call's output). -/
abbrev lvl2 : List (HloOp τ sig (Elt F)) := hostOps2 ++ (hostOps2_1 ++ (hostOps2_2 ++ (hostOps2_3 ++ (hostOps2_4 ++ (hostOps2_5 ++ (hostOps2_6 ++ (hostOps2_7 ++ (hostOps2_8 ++ (hostOps2_9 ++ (hostOps2_10 ++ (hostOps2_11 ++ (hostOps2_12 ++ (hostOps2_13 ++ (hostOps2_14 ++ (hostOps2_15 ++ (hostOps2_16 ++ (hostOps2_17 ++ (hostOps2_18 ++ (hostOps2_19)))))))))))))))))))

theorem lvl2_sub : (lvl2 : List (HloOp τ sig (Elt F))).Forall fun op => op.bufs ⊆ StableHlo.tcRefs τ sig :=
  forall_app hostOps2_sub (forall_app hostOps2_1_sub (forall_app hostOps2_2_sub (forall_app hostOps2_3_sub (forall_app hostOps2_4_sub
  (forall_app hostOps2_5_sub (forall_app hostOps2_6_sub (forall_app hostOps2_7_sub (forall_app hostOps2_8_sub (forall_app hostOps2_9_sub
  (forall_app hostOps2_10_sub (forall_app hostOps2_11_sub (forall_app hostOps2_12_sub (forall_app hostOps2_13_sub (forall_app hostOps2_14_sub
  (forall_app hostOps2_15_sub (forall_app hostOps2_16_sub (forall_app hostOps2_17_sub (forall_app hostOps2_18_sub hostOps2_19_sub))))))))))))))))))

theorem lvl2_fresh : (lvl2 : List (HloOp τ sig (Elt F))).Forall fun op => op.fresh = ∅ :=
  forall_app (by fresh_ops) (forall_app (by fresh_ops) (forall_app hostOps2_2_fresh (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (by fresh_ops)))))))))))))))))))

theorem lvl2_noarg : (lvl2 : List (HloOp τ sig (Elt F))).Forall NoArgWrite :=
  forall_app (by noarg_ops) (forall_app (by noarg_ops) (forall_app hostOps2_2_noarg (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (by noarg_ops)))))))))))))))))))

/-! ## The three closing operations (slice, reshape, concatenate the three levels) -/

theorem hostOps3_fresh : (hostOps3 : List (HloOp τ sig (Elt F))).Forall fun op => op.fresh = ∅ := by fresh_ops
theorem hostOps3_noarg : (hostOps3 : List (HloOp τ sig (Elt F))).Forall NoArgWrite := by noarg_ops

end Cert.Kernel.Hand

end
-- ==== Proof.K.Args.lean ====
import proofs.«171014_j76854144795318_1_alg».proof.Proof.K.Fold
import proofs.«171014_j76854144795318_1_alg».proof.Proof.K.Host

/-! # @main's arguments at every segment boundary

@main's six arguments are read (gathered from, or used as coordinates) and never written: no host operation's result
buffer is an argument, and no pipelined call has a window over one. So at each of the seven boundaries of @main an
argument's buffer holds what it held at launch: the fold of the boundary contents walks back, boundary by boundary,
to the launch memory. -/

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- No window of a call is over an argument's buffer. -/
theorem arr0_ne_arg : ∀ r ∈ argRefs, ∀ w : Fin cfg0.W, Pipeline.arrRef spec0 w ≠ r := by decide
theorem arr1_ne_arg : ∀ r ∈ argRefs, ∀ w : Fin cfg1.W, Pipeline.arrRef spec1 w ≠ r := by decide
theorem arr2_ne_arg : ∀ r ∈ argRefs, ∀ w : Fin cfg2.W, Pipeline.arrRef spec2 w ≠ r := by decide

/-- After level 0's host operations (the first call's entry) an argument holds what it held at launch. -/
theorem W1_arg (c : Dev nD) {r : Ref sig .tc} (hr : r ∈ argRefs) :
    W1 m ρ c (Proc.devRef .tc r) = m ((c.tc : Thread nD τ).loc r) :=
  after_arg pre0 lvl0_noarg (W0 m ρ c) hr
/-- At the first call's exit. -/
theorem W2_arg (c : Dev nD) {r : Ref sig .tc} (hr : r ∈ argRefs) :
    W2 m ρ c (Proc.devRef .tc r) = m ((c.tc : Thread nD τ).loc r) :=
  (W2_of_ne m ρ c r (arr0_ne_arg r hr)).trans (W1_arg m ρ c hr)
/-- After level 1's host operations (the second call's entry). -/
theorem W3_arg (c : Dev nD) {r : Ref sig .tc} (hr : r ∈ argRefs) :
    W3 m ρ c (Proc.devRef .tc r) = m ((c.tc : Thread nD τ).loc r) :=
  (after_arg pre1 lvl1_noarg (W2 m ρ c) hr).trans (W2_arg m ρ c hr)
/-- At the second call's exit. -/
theorem W4_arg (c : Dev nD) {r : Ref sig .tc} (hr : r ∈ argRefs) :
    W4 m ρ c (Proc.devRef .tc r) = m ((c.tc : Thread nD τ).loc r) :=
  (W4_of_ne m ρ c r (arr1_ne_arg r hr)).trans (W3_arg m ρ c hr)
/-- After level 2's host operations (the third call's entry). -/
theorem W5_arg (c : Dev nD) {r : Ref sig .tc} (hr : r ∈ argRefs) :
    W5 m ρ c (Proc.devRef .tc r) = m ((c.tc : Thread nD τ).loc r) :=
  (after_arg pre2 lvl2_noarg (W4 m ρ c) hr).trans (W4_arg m ρ c hr)
/-- At the third call's exit. -/
theorem W6_arg (c : Dev nD) {r : Ref sig .tc} (hr : r ∈ argRefs) :
    W6 m ρ c (Proc.devRef .tc r) = m ((c.tc : Thread nD τ).loc r) :=
  (W6_of_ne m ρ c r (arr2_ne_arg r hr)).trans (W5_arg m ρ c hr)
/-- After the three closing operations: where @main returns from. -/
theorem W7_arg (c : Dev nD) {r : Ref sig .tc} (hr : r ∈ argRefs) :
    W7 m ρ c (Proc.devRef .tc r) = m ((c.tc : Thread nD τ).loc r) :=
  (after_arg hostOps3 hostOps3_noarg (W6 m ρ c) hr).trans (W6_arg m ρ c hr)

end Cert.Kernel.Hand

end
-- ==== Proof.K.Run.lean ====
import proofs.«171014_j76854144795318_1_alg».proof.Proof.K.Fold
import proofs.«171014_j76854144795318_1_alg».proof.Proof.K.Host
import proofs.«171014_j76854144795318_1_alg».proof.Proof.K.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main

@main is seven segments in a row: the host operations of level 0, the level-0 pipelined call, the host operations of
level 1, the level-1 call, the host operations of level 2, the level-2 call, and three closing host operations. The
thread state carried from one segment to the next is "every unscoped buffer of the core at the boundary's contents,
the generator register at some state, nothing owed". A host segment rewrites the buffers its operations write; a call
takes its ten windows' arrays out of the unscoped buffers, runs the pipeline over them, and puts them back at what the
write-backs leave, every other buffer riding past it untouched. At the end the result buffer holds the last
boundary's contents, and each of @main's six arguments — which no host operation writes and no window stages — holds
what it held at launch. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A call's exit contents against its entry contents

At a call's exit each of its windows' arrays holds what the pipeline leaves (`hFK`) and every other buffer what it
held at entry (`hrestK`). -/

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm
/-- Every pipeline's proof data, each at its call's entry contents (a literal match, so that the pipeline index at a
    numeral reduces to the printed configuration). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A line of host operations as a segment over the unscoped references from the contents `W`, `R` riding along: it
    ends at those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The calls as segments

Each call is entered from every unscoped buffer at its entry contents and left at its exit contents: its arrays are
split out of the unscoped buffers and put back at what the pipeline leaves; the generator register goes into the
pipeline's invariant and comes out; nothing is owed; the kernel has no semaphore of its own. -/

set_option backward.isDefEq.respectTransparency.types false in
/-- The level-0 call: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The level-1 call: entered at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The level-2 call: entered at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per level's operations from its boundary's contents, a region per
    pipelined call, and the closing operations. -/
abbrev segs : List (Pipeline.Seg (pcfgs (F := F)) adm (pdats m ρ) () defs₀ 𝒱₀ L lv) :=
  [ .host (hseg pre0 lvl0_sub lvl0_fresh (W0 m ρ)),
    .region (reg0 m ρ),
    .host (hseg pre1 lvl1_sub lvl1_fresh (W2 m ρ)),
    .region (reg1 m ρ),
    .host (hseg pre2 lvl2_sub lvl2_fresh (W4 m ρ)),
    .region (reg2 m ρ),
    .host (hseg hostOps3 hostOps3_sub hostOps3_fresh (W6 m ρ)) ]

/-- @main IS the run of the segments: it is the chain of its printed stretches and calls, and a level's twenty
    stretches run one after the other are their concatenation run as one line — operation by operation the two
    programs are the same term. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has the result buffer at the last boundary's
    contents and the six argument arrays as launched. -/
theorem run_main : θ_run defs (onTc (τ := τ) (main (F := F))) ⟨m, fun _ => 0, ρ⟩ (fun r => ∀ c : Dev nD,
      r.2.mem ((c.tc : Thread nD τ).loc main_v777) = W7 m ρ c (Proc.devRef .tc main_v777)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v777 (by decide)),
       (h c _ (mem_uc main_arg0 (by decide))).trans (W7_arg m ρ c (by decide)),
       (h c _ (mem_uc main_arg1 (by decide))).trans (W7_arg m ρ c (by decide)),
       (h c _ (mem_uc main_arg2 (by decide))).trans (W7_arg m ρ c (by decide)),
       (h c _ (mem_uc main_arg3 (by decide))).trans (W7_arg m ρ c (by decide)),
       (h c _ (mem_uc main_arg4 (by decide))).trans (W7_arg m ρ c (by decide)),
       (h c _ (mem_uc main_arg5 (by decide))).trans (W7_arg m ρ c (by decide))⟩)

end Cert.Kernel.Hand

end
-- ==== Proof.KI.Body0.lean ====
import proofs.«171014_j76854144795318_1_alg».proof.Proof.Gen.KernelIdeal.Launch
import proofs.«171014_j76854144795318_1_alg».proof.Proof.Gen.KernelIdeal.Skeleton
import proofs.«171014_j76854144795318_1_alg».proof.Proof.Gen.KernelIdeal.Points
import Idealize.ShloMosaic.Lib.Pipeline.FrameBody
import Idealize.ShloMosaic.Lib.Ring
import Idealize.ShloMosaic.Lib.Tactic

/-! # One grid step of the weighted eight-term sum, at arbitrary entry contents

The pipelined call walks a one-axis grid. At each point it stages one block of rows of each of eight gathered
operands and the matching block of the eight-column weight table, and the body writes, row by row,
`0 + q₀·c₀ + q₁·c₁ + … + q₇·c₇` (each `cᵢ` one column of the weights, spread along the row) into the staged block of
the result. Everything here is stated at a parameter `V`, the contents of the core's buffers when the call is
entered, and for any float reading `F`: what a window's block is, what the body leaves in the result's staging
buffer as a function of the nine input blocks, and the body's triple at every point of the grid. -/

-- membership in a rectangle spanning a long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- The block of window `w` at grid point `t`: the rows of the window's array, as the call finds it, that the point's
    block index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every point of the grid its current staging buffer holds the window's block of the array, whether
    the block was fetched at that point or carried over, for any proof data over these arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every point of the grid its current staging buffer holds the window's block of the array, whether
    the block was fetched at that point or carried over, for any proof data over these arrays that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: at every point of the grid its current staging buffer holds the window's block of the array, whether
    the block was fetched at that point or carried over, for any proof data over these arrays that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: at every point of the grid its current staging buffer holds the window's block of the array, whether
    the block was fetched at that point or carried over, for any proof data over these arrays that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: at every point of the grid its current staging buffer holds the window's block of the array, whether
    the block was fetched at that point or carried over, for any proof data over these arrays that leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: at every point of the grid its current staging buffer holds the window's block of the array, whether
    the block was fetched at that point or carried over, for any proof data over these arrays that leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: at every point of the grid its current staging buffer holds the window's block of the array, whether
    the block was fetched at that point or carried over, for any proof data over these arrays that leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: at every point of the grid its current staging buffer holds the window's block of the array, whether
    the block was fetched at that point or carried over, for any proof data over these arrays that leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8: at every point of the grid its current staging buffer holds the window's block of the array, whether
    the block was fetched at that point or carried over, for any proof data over these arrays that leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of a gathered operand, and of the result. -/
abbrev rq0 : Rect S2048x32 := Rect.unit (s := S2048x32) ![0, 0] S2048x32.size inb_S2048x32_S2048x32_0_0
/-- The whole block of the weights. -/
abbrev rc0 : Rect S2048x8 := Rect.unit (s := S2048x8) ![0, 0] S2048x8.size inb_S2048x8_S2048x8_0_0

/-! ## What the body leaves in the result's staging buffer -/

/-- The result block after the body, from the nine input blocks (`x0 … x7` the gathered operands in window order,
    `x8` the weights): a single store over the whole block, of the eight-term sum. The first five terms are summed
    from zero over `x0 … x4` with weight columns 0 to 4; the last three add `x5`, `x6`, `x7` with columns 5, 6, 7. -/
def out0_9 (x0 x1 x2 x3 x4 x5 x6 x7 : Vec F S2048x32 .f32) (x8 : Vec F S2048x8 .f32) : Vec F S2048x32 .f32 :=
  View.canon [⟨rq0, k0_pay1 (k0_pay2 (View.ld x8 rc0)) (k0_pay3 (View.ld x5 rq0)) (k0_pay4 (View.ld x6 rq0)) (k0_pay5 (View.ld x7 rq0))
    (k0_pay6 (View.ld x8 rc0) (View.ld x0 rq0) (View.ld x1 rq0) (View.ld x2 rq0) (View.ld x3 rq0) (View.ld x4 rq0)) (k0_pay7 (View.ld x8 rc0))⟩]

/-- The one store is the whole block, so every element of the block lies in it. -/
theorem cover0_9 (p0 : Vec F S2048x32 .f32) (y : S2048x32.Idx) :
    ∃ pc ∈ ([⟨rq0, p0⟩] : List (View.Piece (Elt F) S2048x32 .f32)), y ∈ pc.1.set :=
  View.cover_of_tiled [⟨rq0, p0⟩] S2048x32.size (by rfl) y

/-! ## The body's triple -/

set_option maxHeartbeats 1000000 in
/-- The body on whole staging buffers: with the nine inputs' buffers at contents `x0 … x8` and the result's at anything,
    it runs to a state holding the inputs' as they were and the result's at `out0_9` of them. The body reads the nine
    blocks whole, reads the result's block (the value is dropped; only the ownership is used) and stores the sum
    over the whole result block; a buffer written everywhere by one store reads back as that store. -/
theorem sound_kernel0 (c : Dev nD) (E : Set ℕ) (i : grid0.Coords) (arg1 : Memref sig .tc .vmem S2048x32 .f32) (harg1 : arg1.IsWhole) (arg2 : Memref sig .tc .vmem S2048x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x32 .f32) (harg8 : arg8.IsWhole) (arg9 : Memref sig .tc .vmem S2048x8 .f32) (harg9 : arg9.IsWhole) (arg10 : Memref sig .tc .vmem S2048x32 .f32) (harg10 : arg10.IsWhole)
    (x0 x1 x2 x3 x4 x5 x6 x7 : Vec F S2048x32 .f32) (x8 : Vec F S2048x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of the call on core `c`: the arrays as the call finds them; after the body at point `t` each input's
    staging buffer still at its block and the result's at `out0_9` of the nine input blocks; the invariant that leaves the
    scoped rest and the generator register untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is entered with at point `t`: the invariant, the core's debt, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' staging buffers hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point of the grid. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Body1.lean ====
import proofs.«171014_j76854144795318_1_alg».proof.Proof.Gen.KernelIdeal.Launch
import proofs.«171014_j76854144795318_1_alg».proof.Proof.Gen.KernelIdeal.Skeleton
import proofs.«171014_j76854144795318_1_alg».proof.Proof.Gen.KernelIdeal.Points
import Idealize.ShloMosaic.Lib.Pipeline.FrameBody
import Idealize.ShloMosaic.Lib.Ring
import Idealize.ShloMosaic.Lib.Tactic

/-! # One grid step of the weighted eight-term sum, at arbitrary entry contents

The pipelined call walks a one-axis grid. At each point it stages one block of rows of each of eight gathered
operands and the matching block of the eight-column weight table, and the body writes, row by row,
`0 + q₀·c₀ + q₁·c₁ + … + q₇·c₇` (each `cᵢ` one column of the weights, spread along the row) into the staged block of
the result. Everything here is stated at a parameter `V`, the contents of the core's buffers when the call is
entered, and for any float reading `F`: what a window's block is, what the body leaves in the result's staging
buffer as a function of the nine input blocks, and the body's triple at every point of the grid. -/

-- membership in a rectangle spanning a long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- The block of window `w` at grid point `t`: the rows of the window's array, as the call finds it, that the point's
    block index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every point of the grid its current staging buffer holds the window's block of the array, whether
    the block was fetched at that point or carried over, for any proof data over these arrays that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every point of the grid its current staging buffer holds the window's block of the array, whether
    the block was fetched at that point or carried over, for any proof data over these arrays that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every point of the grid its current staging buffer holds the window's block of the array, whether
    the block was fetched at that point or carried over, for any proof data over these arrays that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every point of the grid its current staging buffer holds the window's block of the array, whether
    the block was fetched at that point or carried over, for any proof data over these arrays that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: at every point of the grid its current staging buffer holds the window's block of the array, whether
    the block was fetched at that point or carried over, for any proof data over these arrays that leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: at every point of the grid its current staging buffer holds the window's block of the array, whether
    the block was fetched at that point or carried over, for any proof data over these arrays that leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: at every point of the grid its current staging buffer holds the window's block of the array, whether
    the block was fetched at that point or carried over, for any proof data over these arrays that leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: at every point of the grid its current staging buffer holds the window's block of the array, whether
    the block was fetched at that point or carried over, for any proof data over these arrays that leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8: at every point of the grid its current staging buffer holds the window's block of the array, whether
    the block was fetched at that point or carried over, for any proof data over these arrays that leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of a gathered operand, and of the result. -/
abbrev rq1 : Rect S2048x64 := Rect.unit (s := S2048x64) ![0, 0] S2048x64.size inb_S2048x64_S2048x64_0_0
/-- The whole block of the weights. -/
abbrev rc1 : Rect S2048x8 := Rect.unit (s := S2048x8) ![0, 0] S2048x8.size inb_S2048x8_S2048x8_0_0

/-! ## What the body leaves in the result's staging buffer -/

/-- The result block after the body, from the nine input blocks (`x0 … x7` the gathered operands in window order,
    `x8` the weights): a single store over the whole block, of the eight-term sum. The first five terms are summed
    from zero over `x0 … x4` with weight columns 0 to 4; the last three add `x5`, `x6`, `x7` with columns 5, 6, 7. -/
def out1_9 (x0 x1 x2 x3 x4 x5 x6 x7 : Vec F S2048x64 .f32) (x8 : Vec F S2048x8 .f32) : Vec F S2048x64 .f32 :=
  View.canon [⟨rq1, k1_pay1 (k1_pay2 (View.ld x8 rc1)) (k1_pay3 (View.ld x5 rq1)) (k1_pay4 (View.ld x6 rq1)) (k1_pay5 (View.ld x7 rq1))
    (k1_pay6 (View.ld x8 rc1) (View.ld x0 rq1) (View.ld x1 rq1) (View.ld x2 rq1) (View.ld x3 rq1) (View.ld x4 rq1)) (k1_pay7 (View.ld x8 rc1))⟩]

/-- The one store is the whole block, so every element of the block lies in it. -/
theorem cover1_9 (p0 : Vec F S2048x64 .f32) (y : S2048x64.Idx) :
    ∃ pc ∈ ([⟨rq1, p0⟩] : List (View.Piece (Elt F) S2048x64 .f32)), y ∈ pc.1.set :=
  View.cover_of_tiled [⟨rq1, p0⟩] S2048x64.size (by rfl) y

/-! ## The body's triple -/

set_option maxHeartbeats 1000000 in
/-- The body on whole staging buffers: with the nine inputs' buffers at contents `x0 … x8` and the result's at anything,
    it runs to a state holding the inputs' as they were and the result's at `out1_9` of them. The body reads the nine
    blocks whole, reads the result's block (the value is dropped; only the ownership is used) and stores the sum
    over the whole result block; a buffer written everywhere by one store reads back as that store. -/
theorem sound_kernel1 (c : Dev nD) (E : Set ℕ) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x8 .f32) (harg9 : arg9.IsWhole) (arg10 : Memref sig .tc .vmem S2048x64 .f32) (harg10 : arg10.IsWhole)
    (x0 x1 x2 x3 x4 x5 x6 x7 : Vec F S2048x64 .f32) (x8 : Vec F S2048x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of the call on core `c`: the arrays as the call finds them; after the body at point `t` each input's
    staging buffer still at its block and the result's at `out1_9` of the nine input blocks; the invariant that leaves the
    scoped rest and the generator register untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is entered with at point `t`: the invariant, the core's debt, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' staging buffers hold their blocks, so the body's triple applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Body2.lean ====
import proofs.«171014_j76854144795318_1_alg».proof.Proof.Gen.KernelIdeal.Launch
import proofs.«171014_j76854144795318_1_alg».proof.Proof.Gen.KernelIdeal.Skeleton
import proofs.«171014_j76854144795318_1_alg».proof.Proof.Gen.KernelIdeal.Points
import Idealize.ShloMosaic.Lib.Pipeline.FrameBody
import Idealize.ShloMosaic.Lib.Ring
import Idealize.ShloMosaic.Lib.Tactic

/-! # One grid step of the weighted eight-term sum, at arbitrary entry contents

The pipelined call walks a one-axis grid. At each point it stages one block of rows of each of eight gathered
operands and the matching block of the eight-column weight table, and the body writes, row by row,
`0 + q₀·c₀ + q₁·c₁ + … + q₇·c₇` (each `cᵢ` one column of the weights, spread along the row) into the staged block of
the result. Everything here is stated at a parameter `V`, the contents of the core's buffers when the call is
entered, and for any float reading `F`: what a window's block is, what the body leaves in the result's staging
buffer as a function of the nine input blocks, and the body's triple at every point of the grid. -/

-- membership in a rectangle spanning a long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- The block of window `w` at grid point `t`: the rows of the window's array, as the call finds it, that the point's
    block index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every point of the grid its current staging buffer holds the window's block of the array, whether
    the block was fetched at that point or carried over, for any proof data over these arrays that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every point of the grid its current staging buffer holds the window's block of the array, whether
    the block was fetched at that point or carried over, for any proof data over these arrays that leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every point of the grid its current staging buffer holds the window's block of the array, whether
    the block was fetched at that point or carried over, for any proof data over these arrays that leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every point of the grid its current staging buffer holds the window's block of the array, whether
    the block was fetched at that point or carried over, for any proof data over these arrays that leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every point of the grid its current staging buffer holds the window's block of the array, whether
    the block was fetched at that point or carried over, for any proof data over these arrays that leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: at every point of the grid its current staging buffer holds the window's block of the array, whether
    the block was fetched at that point or carried over, for any proof data over these arrays that leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6: at every point of the grid its current staging buffer holds the window's block of the array, whether
    the block was fetched at that point or carried over, for any proof data over these arrays that leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7: at every point of the grid its current staging buffer holds the window's block of the array, whether
    the block was fetched at that point or carried over, for any proof data over these arrays that leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8: at every point of the grid its current staging buffer holds the window's block of the array, whether
    the block was fetched at that point or carried over, for any proof data over these arrays that leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of a gathered operand, and of the result. -/
abbrev rq2 : Rect S2048x128 := Rect.unit (s := S2048x128) ![0, 0] S2048x128.size inb_S2048x128_S2048x128_0_0
/-- The whole block of the weights. -/
abbrev rc2 : Rect S2048x8 := Rect.unit (s := S2048x8) ![0, 0] S2048x8.size inb_S2048x8_S2048x8_0_0

/-! ## What the body leaves in the result's staging buffer -/

/-- The result block after the body, from the nine input blocks (`x0 … x7` the gathered operands in window order,
    `x8` the weights): a single store over the whole block, of the eight-term sum. The first five terms are summed
    from zero over `x0 … x4` with weight columns 0 to 4; the last three add `x5`, `x6`, `x7` with columns 5, 6, 7. -/
def out2_9 (x0 x1 x2 x3 x4 x5 x6 x7 : Vec F S2048x128 .f32) (x8 : Vec F S2048x8 .f32) : Vec F S2048x128 .f32 :=
  View.canon [⟨rq2, k2_pay1 (k2_pay2 (View.ld x8 rc2)) (k2_pay3 (View.ld x5 rq2)) (k2_pay4 (View.ld x6 rq2)) (k2_pay5 (View.ld x7 rq2))
    (k2_pay6 (View.ld x8 rc2) (View.ld x0 rq2) (View.ld x1 rq2) (View.ld x2 rq2) (View.ld x3 rq2) (View.ld x4 rq2)) (k2_pay7 (View.ld x8 rc2))⟩]

/-- The one store is the whole block, so every element of the block lies in it. -/
theorem cover2_9 (p0 : Vec F S2048x128 .f32) (y : S2048x128.Idx) :
    ∃ pc ∈ ([⟨rq2, p0⟩] : List (View.Piece (Elt F) S2048x128 .f32)), y ∈ pc.1.set :=
  View.cover_of_tiled [⟨rq2, p0⟩] S2048x128.size (by rfl) y

/-! ## The body's triple -/

set_option maxHeartbeats 1000000 in
/-- The body on whole staging buffers: with the nine inputs' buffers at contents `x0 … x8` and the result's at anything,
    it runs to a state holding the inputs' as they were and the result's at `out2_9` of them. The body reads the nine
    blocks whole, reads the result's block (the value is dropped; only the ownership is used) and stores the sum
    over the whole result block; a buffer written everywhere by one store reads back as that store. -/
theorem sound_kernel2 (c : Dev nD) (E : Set ℕ) (i : grid2.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x8 .f32) (harg9 : arg9.IsWhole) (arg10 : Memref sig .tc .vmem S2048x128 .f32) (harg10 : arg10.IsWhole)
    (x0 x1 x2 x3 x4 x5 x6 x7 : Vec F S2048x128 .f32) (x8 : Vec F S2048x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of the call on core `c`: the arrays as the call finds them; after the body at point `t` each input's
    staging buffer still at its block and the result's at `out2_9` of the nine input blocks; the invariant that leaves the
    scoped rest and the generator register untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is entered with at point `t`: the invariant, the core's debt, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' staging buffers hold their blocks, so the body's triple applies; the invariant
    and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point of the grid. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Fold.lean ====
/-
  The buffer contents at the boundaries of @main's seven segments.

  @main is: the host operations of level 0, the level-0 kernel region, the host operations of level 1, the
  level-1 region, the host operations of level 2, the level-2 region, and three closing host operations.
  Each level's host operations are printed as twenty consecutive stretches; `pre0`, `pre1`, `pre2` are their
  concatenations. `W0` is core `c`'s memory at launch; a host segment rewrites the buffers its operations
  write (`StableHlo.after`); a region leaves every buffer as it found it except its windows' arrays, which
  end at what the pipeline's write-backs leave (`Dat.arrAt … N`). `W7` is what @main returns from.
-/
import proofs.«171014_j76854144795318_1_alg».proof.Proof.KI.Body0
import proofs.«171014_j76854144795318_1_alg».proof.Proof.KI.Body1
import proofs.«171014_j76854144795318_1_alg».proof.Proof.KI.Body2
import Idealize.ShloMosaic.Lib.Pipeline.FrameSuffix

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

/-- Level 0's host operations, in order: the twenty printed stretches before region 0 as one list. -/
abbrev pre0 : List (HloOp τ sig (Elt F)) := hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19)))))))))))))))))))
/-- Level 1's host operations (they begin by slicing and reshaping region 0's output). -/
abbrev pre1 : List (HloOp τ sig (Elt F)) := hostOps1 ++ (hostOps1_1 ++ (hostOps1_2 ++ (hostOps1_3 ++ (hostOps1_4 ++ (hostOps1_5 ++ (hostOps1_6 ++ (hostOps1_7 ++ (hostOps1_8 ++ (hostOps1_9 ++ (hostOps1_10 ++ (hostOps1_11 ++ (hostOps1_12 ++ (hostOps1_13 ++ (hostOps1_14 ++ (hostOps1_15 ++ (hostOps1_16 ++ (hostOps1_17 ++ (hostOps1_18 ++ (hostOps1_19)))))))))))))))))))
/-- Level 2's host operations (they begin by slicing and reshaping region 1's output). -/
abbrev pre2 : List (HloOp τ sig (Elt F)) := hostOps2 ++ (hostOps2_1 ++ (hostOps2_2 ++ (hostOps2_3 ++ (hostOps2_4 ++ (hostOps2_5 ++ (hostOps2_6 ++ (hostOps2_7 ++ (hostOps2_8 ++ (hostOps2_9 ++ (hostOps2_10 ++ (hostOps2_11 ++ (hostOps2_12 ++ (hostOps2_13 ++ (hostOps2_14 ++ (hostOps2_15 ++ (hostOps2_16 ++ (hostOps2_17 ++ (hostOps2_18 ++ (hostOps2_19)))))))))))))))))))

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After level 0's host operations: region 0's entry. -/
abbrev W1 : Dev nD → Valuation τ sig (Elt F) := fun c => StableHlo.after pre0 (W0 m ρ c)
/-- The same read at the TensorCore's references. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

/-- After level 1's host operations: region 1's entry. -/
abbrev W3 : Dev nD → Valuation τ sig (Elt F) := fun c => StableHlo.after pre1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

/-- After level 2's host operations: region 2's entry. -/
abbrev W5 : Dev nD → Valuation τ sig (Elt F) := fun c => StableHlo.after pre2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

/-- After the three closing host operations: what @main returns from. -/
abbrev W7 : Dev nD → Valuation τ sig (Elt F) := fun c => StableHlo.after hostOps3 (W6 m ρ c)

end Cert.KernelIdeal.Hand

end
-- ==== Proof.KI.Host.lean ====
import proofs.«171014_j76854144795318_1_alg».proof.Proof.Gen.KernelIdeal.Launch

/-! # The host operations between the kernel regions: which buffers they touch

@main runs three pipelined calls. Before each it computes, on the host, the eight gathered operands and the
eight-column weight table of that pyramid level; each level's host operations are printed as twenty consecutive
stretches, and three closing operations follow the last call. Here: every one of these operations touches
TensorCore references only, none allocates a buffer, and each writes exactly one buffer, which is never one of
@main's six arguments. Hence a line of such operations leaves every argument as it found it. -/

-- a list of some hundreds of operations is taken apart one `::` at a time
set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- What holds of every element of two lists holds of every element of their concatenation. -/
theorem forall_app {α : Type} {p : α → Prop} {a b : List α} (ha : a.Forall p) (hb : b.Forall p) : (a ++ b).Forall p :=
  List.forall_append.mpr ⟨ha, hb⟩

/-- @main's six arguments. -/
abbrev argRefs : List (Ref sig .tc) := [main_arg0, main_arg1, main_arg2, main_arg3, main_arg4, main_arg5]

/-- The operation writes exactly one buffer: a TensorCore reference that is none of @main's arguments. -/
def NoArgWrite (op : HloOp τ sig (Elt F)) : Prop :=
  ∃ y : Ref sig .tc, op.writes = {Proc.devRef .tc y} ∧ y ∉ argRefs

/-- Such an operation does not write an argument's buffer: distinct references are distinct buffers. -/
theorem NoArgWrite.not_mem {op : HloOp τ sig (Elt F)} (h : NoArgWrite op) {r : Ref sig .tc} (hr : r ∈ argRefs) :
    Proc.devRef (τ := τ) .tc r ∉ op.writes := by
  obtain ⟨y, hw, hy⟩ := h
  rw [hw, Finset.mem_singleton]
  exact fun e => hy (Proc.devRef_injective _ e ▸ hr)

/-- A line of such operations leaves every argument's buffer as it found it. -/
theorem after_arg (ops : List (HloOp τ sig (Elt F))) (h : ops.Forall NoArgWrite) (V : Valuation τ sig (Elt F))
    {r : Ref sig .tc} (hr : r ∈ argRefs) :
    StableHlo.after ops V (Proc.devRef .tc r) = V (Proc.devRef .tc r) :=
  StableHlo.after_of_forall_not_mem ops V fun op hop => ((List.forall_iff_forall_mem.mp h) op hop).not_mem hr

/-- Every operation of a literal list writes one reference, none of them an argument: the list is taken apart,
    each operation's written buffer is read off its builder, and the reference is compared with the six arguments. -/
macro "noarg_ops" : tactic =>
  `(tactic| (simp only [List.Forall]; (repeat' apply And.intro); all_goals exact ⟨_, rfl, by decide⟩))

/-- No operation of a literal list allocates a buffer. -/
macro "fresh_ops" : tactic =>
  `(tactic| (simp only [List.Forall]; (repeat' constructor)))

/-! ## The long stretches (292 operations each: one level's index arithmetic and eight gathers) -/

set_option maxHeartbeats 40000000 in
theorem hostOps0_2_fresh : (hostOps0_2 : List (HloOp τ sig (Elt F))).Forall fun op => op.fresh = ∅ := by fresh_ops
set_option maxHeartbeats 40000000 in
theorem hostOps1_2_fresh : (hostOps1_2 : List (HloOp τ sig (Elt F))).Forall fun op => op.fresh = ∅ := by fresh_ops
set_option maxHeartbeats 40000000 in
theorem hostOps2_2_fresh : (hostOps2_2 : List (HloOp τ sig (Elt F))).Forall fun op => op.fresh = ∅ := by fresh_ops
set_option maxHeartbeats 40000000 in
theorem hostOps0_2_noarg : (hostOps0_2 : List (HloOp τ sig (Elt F))).Forall NoArgWrite := by noarg_ops
set_option maxHeartbeats 40000000 in
theorem hostOps1_2_noarg : (hostOps1_2 : List (HloOp τ sig (Elt F))).Forall NoArgWrite := by noarg_ops
set_option maxHeartbeats 40000000 in
theorem hostOps2_2_noarg : (hostOps2_2 : List (HloOp τ sig (Elt F))).Forall NoArgWrite := by noarg_ops

/-! ## Level 0 -/

/-- Level 0's host operations, in order: the twenty printed stretches before the first call as one list. -/
abbrev lvl0 : List (HloOp τ sig (Elt F)) := hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19)))))))))))))))))))

theorem lvl0_sub : (lvl0 : List (HloOp τ sig (Elt F))).Forall fun op => op.bufs ⊆ StableHlo.tcRefs τ sig :=
  forall_app hostOps0_sub (forall_app hostOps0_1_sub (forall_app hostOps0_2_sub (forall_app hostOps0_3_sub (forall_app hostOps0_4_sub
  (forall_app hostOps0_5_sub (forall_app hostOps0_6_sub (forall_app hostOps0_7_sub (forall_app hostOps0_8_sub (forall_app hostOps0_9_sub
  (forall_app hostOps0_10_sub (forall_app hostOps0_11_sub (forall_app hostOps0_12_sub (forall_app hostOps0_13_sub (forall_app hostOps0_14_sub
  (forall_app hostOps0_15_sub (forall_app hostOps0_16_sub (forall_app hostOps0_17_sub (forall_app hostOps0_18_sub hostOps0_19_sub))))))))))))))))))

theorem lvl0_fresh : (lvl0 : List (HloOp τ sig (Elt F))).Forall fun op => op.fresh = ∅ :=
  forall_app (by fresh_ops) (forall_app (by fresh_ops) (forall_app hostOps0_2_fresh (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (by fresh_ops)))))))))))))))))))

theorem lvl0_noarg : (lvl0 : List (HloOp τ sig (Elt F))).Forall NoArgWrite :=
  forall_app (by noarg_ops) (forall_app (by noarg_ops) (forall_app hostOps0_2_noarg (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (by noarg_ops)))))))))))))))))))

/-! ## Level 1 -/

/-- Level 1's host operations (they begin by slicing and reshaping the first call's output). -/
abbrev lvl1 : List (HloOp τ sig (Elt F)) := hostOps1 ++ (hostOps1_1 ++ (hostOps1_2 ++ (hostOps1_3 ++ (hostOps1_4 ++ (hostOps1_5 ++ (hostOps1_6 ++ (hostOps1_7 ++ (hostOps1_8 ++ (hostOps1_9 ++ (hostOps1_10 ++ (hostOps1_11 ++ (hostOps1_12 ++ (hostOps1_13 ++ (hostOps1_14 ++ (hostOps1_15 ++ (hostOps1_16 ++ (hostOps1_17 ++ (hostOps1_18 ++ (hostOps1_19)))))))))))))))))))

theorem lvl1_sub : (lvl1 : List (HloOp τ sig (Elt F))).Forall fun op => op.bufs ⊆ StableHlo.tcRefs τ sig :=
  forall_app hostOps1_sub (forall_app hostOps1_1_sub (forall_app hostOps1_2_sub (forall_app hostOps1_3_sub (forall_app hostOps1_4_sub
  (forall_app hostOps1_5_sub (forall_app hostOps1_6_sub (forall_app hostOps1_7_sub (forall_app hostOps1_8_sub (forall_app hostOps1_9_sub
  (forall_app hostOps1_10_sub (forall_app hostOps1_11_sub (forall_app hostOps1_12_sub (forall_app hostOps1_13_sub (forall_app hostOps1_14_sub
  (forall_app hostOps1_15_sub (forall_app hostOps1_16_sub (forall_app hostOps1_17_sub (forall_app hostOps1_18_sub hostOps1_19_sub))))))))))))))))))

theorem lvl1_fresh : (lvl1 : List (HloOp τ sig (Elt F))).Forall fun op => op.fresh = ∅ :=
  forall_app (by fresh_ops) (forall_app (by fresh_ops) (forall_app hostOps1_2_fresh (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (by fresh_ops)))))))))))))))))))

theorem lvl1_noarg : (lvl1 : List (HloOp τ sig (Elt F))).Forall NoArgWrite :=
  forall_app (by noarg_ops) (forall_app (by noarg_ops) (forall_app hostOps1_2_noarg (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (by noarg_ops)))))))))))))))))))

/-! ## Level 2 -/

/-- Level 2's host operations (they begin by slicing and reshaping the second call's output). -/
abbrev lvl2 : List (HloOp τ sig (Elt F)) := hostOps2 ++ (hostOps2_1 ++ (hostOps2_2 ++ (hostOps2_3 ++ (hostOps2_4 ++ (hostOps2_5 ++ (hostOps2_6 ++ (hostOps2_7 ++ (hostOps2_8 ++ (hostOps2_9 ++ (hostOps2_10 ++ (hostOps2_11 ++ (hostOps2_12 ++ (hostOps2_13 ++ (hostOps2_14 ++ (hostOps2_15 ++ (hostOps2_16 ++ (hostOps2_17 ++ (hostOps2_18 ++ (hostOps2_19)))))))))))))))))))

theorem lvl2_sub : (lvl2 : List (HloOp τ sig (Elt F))).Forall fun op => op.bufs ⊆ StableHlo.tcRefs τ sig :=
  forall_app hostOps2_sub (forall_app hostOps2_1_sub (forall_app hostOps2_2_sub (forall_app hostOps2_3_sub (forall_app hostOps2_4_sub
  (forall_app hostOps2_5_sub (forall_app hostOps2_6_sub (forall_app hostOps2_7_sub (forall_app hostOps2_8_sub (forall_app hostOps2_9_sub
  (forall_app hostOps2_10_sub (forall_app hostOps2_11_sub (forall_app hostOps2_12_sub (forall_app hostOps2_13_sub (forall_app hostOps2_14_sub
  (forall_app hostOps2_15_sub (forall_app hostOps2_16_sub (forall_app hostOps2_17_sub (forall_app hostOps2_18_sub hostOps2_19_sub))))))))))))))))))

theorem lvl2_fresh : (lvl2 : List (HloOp τ sig (Elt F))).Forall fun op => op.fresh = ∅ :=
  forall_app (by fresh_ops) (forall_app (by fresh_ops) (forall_app hostOps2_2_fresh (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (forall_app (by fresh_ops)
  (forall_app (by fresh_ops) (forall_app (by fresh_ops) (forall_app (by fresh_ops) (forall_app (by fresh_ops) (by fresh_ops)))))))))))))))))))

theorem lvl2_noarg : (lvl2 : List (HloOp τ sig (Elt F))).Forall NoArgWrite :=
  forall_app (by noarg_ops) (forall_app (by noarg_ops) (forall_app hostOps2_2_noarg (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (forall_app (by noarg_ops)
  (forall_app (by noarg_ops) (forall_app (by noarg_ops) (forall_app (by noarg_ops) (forall_app (by noarg_ops) (by noarg_ops)))))))))))))))))))

/-! ## The three closing operations (slice, reshape, concatenate the three levels) -/

theorem hostOps3_fresh : (hostOps3 : List (HloOp τ sig (Elt F))).Forall fun op => op.fresh = ∅ := by fresh_ops
theorem hostOps3_noarg : (hostOps3 : List (HloOp τ sig (Elt F))).Forall NoArgWrite := by noarg_ops

end Cert.KernelIdeal.Hand

end
-- ==== Proof.KI.Args.lean ====
import proofs.«171014_j76854144795318_1_alg».proof.Proof.KI.Fold
import proofs.«171014_j76854144795318_1_alg».proof.Proof.KI.Host

/-! # @main's arguments at every segment boundary

@main's six arguments are read (gathered from, or used as coordinates) and never written: no host operation's result
buffer is an argument, and no pipelined call has a window over one. So at each of the seven boundaries of @main an
argument's buffer holds what it held at launch: the fold of the boundary contents walks back, boundary by boundary,
to the launch memory. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- No window of a call is over an argument's buffer. -/
theorem arr0_ne_arg : ∀ r ∈ argRefs, ∀ w : Fin cfg0.W, Pipeline.arrRef spec0 w ≠ r := by decide
theorem arr1_ne_arg : ∀ r ∈ argRefs, ∀ w : Fin cfg1.W, Pipeline.arrRef spec1 w ≠ r := by decide
theorem arr2_ne_arg : ∀ r ∈ argRefs, ∀ w : Fin cfg2.W, Pipeline.arrRef spec2 w ≠ r := by decide

/-- After level 0's host operations (the first call's entry) an argument holds what it held at launch. -/
theorem W1_arg (c : Dev nD) {r : Ref sig .tc} (hr : r ∈ argRefs) :
    W1 m ρ c (Proc.devRef .tc r) = m ((c.tc : Thread nD τ).loc r) :=
  after_arg pre0 lvl0_noarg (W0 m ρ c) hr
/-- At the first call's exit. -/
theorem W2_arg (c : Dev nD) {r : Ref sig .tc} (hr : r ∈ argRefs) :
    W2 m ρ c (Proc.devRef .tc r) = m ((c.tc : Thread nD τ).loc r) :=
  (W2_of_ne m ρ c r (arr0_ne_arg r hr)).trans (W1_arg m ρ c hr)
/-- After level 1's host operations (the second call's entry). -/
theorem W3_arg (c : Dev nD) {r : Ref sig .tc} (hr : r ∈ argRefs) :
    W3 m ρ c (Proc.devRef .tc r) = m ((c.tc : Thread nD τ).loc r) :=
  (after_arg pre1 lvl1_noarg (W2 m ρ c) hr).trans (W2_arg m ρ c hr)
/-- At the second call's exit. -/
theorem W4_arg (c : Dev nD) {r : Ref sig .tc} (hr : r ∈ argRefs) :
    W4 m ρ c (Proc.devRef .tc r) = m ((c.tc : Thread nD τ).loc r) :=
  (W4_of_ne m ρ c r (arr1_ne_arg r hr)).trans (W3_arg m ρ c hr)
/-- After level 2's host operations (the third call's entry). -/
theorem W5_arg (c : Dev nD) {r : Ref sig .tc} (hr : r ∈ argRefs) :
    W5 m ρ c (Proc.devRef .tc r) = m ((c.tc : Thread nD τ).loc r) :=
  (after_arg pre2 lvl2_noarg (W4 m ρ c) hr).trans (W4_arg m ρ c hr)
/-- At the third call's exit. -/
theorem W6_arg (c : Dev nD) {r : Ref sig .tc} (hr : r ∈ argRefs) :
    W6 m ρ c (Proc.devRef .tc r) = m ((c.tc : Thread nD τ).loc r) :=
  (W6_of_ne m ρ c r (arr2_ne_arg r hr)).trans (W5_arg m ρ c hr)
/-- After the three closing operations: where @main returns from. -/
theorem W7_arg (c : Dev nD) {r : Ref sig .tc} (hr : r ∈ argRefs) :
    W7 m ρ c (Proc.devRef .tc r) = m ((c.tc : Thread nD τ).loc r) :=
  (after_arg hostOps3 hostOps3_noarg (W6 m ρ c) hr).trans (W6_arg m ρ c hr)

end Cert.KernelIdeal.Hand

end
-- ==== Proof.KI.Run.lean ====
import proofs.«171014_j76854144795318_1_alg».proof.Proof.KI.Fold
import proofs.«171014_j76854144795318_1_alg».proof.Proof.KI.Host
import proofs.«171014_j76854144795318_1_alg».proof.Proof.KI.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main

@main is seven segments in a row: the host operations of level 0, the level-0 pipelined call, the host operations of
level 1, the level-1 call, the host operations of level 2, the level-2 call, and three closing host operations. The
thread state carried from one segment to the next is "every unscoped buffer of the core at the boundary's contents,
the generator register at some state, nothing owed". A host segment rewrites the buffers its operations write; a call
takes its ten windows' arrays out of the unscoped buffers, runs the pipeline over them, and puts them back at what the
write-backs leave, every other buffer riding past it untouched. At the end the result buffer holds the last
boundary's contents, and each of @main's six arguments — which no host operation writes and no window stages — holds
what it held at launch. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A call's exit contents against its entry contents

At a call's exit each of its windows' arrays holds what the pipeline leaves (`hFK`) and every other buffer what it
held at entry (`hrestK`). -/

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm
/-- Every pipeline's proof data, each at its call's entry contents (a literal match, so that the pipeline index at a
    numeral reduces to the printed configuration). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A line of host operations as a segment over the unscoped references from the contents `W`, `R` riding along: it
    ends at those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The calls as segments

Each call is entered from every unscoped buffer at its entry contents and left at its exit contents: its arrays are
split out of the unscoped buffers and put back at what the pipeline leaves; the generator register goes into the
pipeline's invariant and comes out; nothing is owed; the kernel has no semaphore of its own. -/

set_option backward.isDefEq.respectTransparency.types false in
/-- The level-0 call: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The level-1 call: entered at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The level-2 call: entered at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per level's operations from its boundary's contents, a region per
    pipelined call, and the closing operations. -/
abbrev segs : List (Pipeline.Seg (pcfgs (F := F)) adm (pdats m ρ) () defs₀ 𝒱₀ L lv) :=
  [ .host (hseg pre0 lvl0_sub lvl0_fresh (W0 m ρ)),
    .region (reg0 m ρ),
    .host (hseg pre1 lvl1_sub lvl1_fresh (W2 m ρ)),
    .region (reg1 m ρ),
    .host (hseg pre2 lvl2_sub lvl2_fresh (W4 m ρ)),
    .region (reg2 m ρ),
    .host (hseg hostOps3 hostOps3_sub hostOps3_fresh (W6 m ρ)) ]

/-- @main IS the run of the segments: it is the chain of its printed stretches and calls, and a level's twenty
    stretches run one after the other are their concatenation run as one line — operation by operation the two
    programs are the same term. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has the result buffer at the last boundary's
    contents and the six argument arrays as launched. -/
theorem run_main : θ_run defs (onTc (τ := τ) (main (F := F))) ⟨m, fun _ => 0, ρ⟩ (fun r => ∀ c : Dev nD,
      r.2.mem ((c.tc : Thread nD τ).loc main_v777) = W7 m ρ c (Proc.devRef .tc main_v777)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v777 (by decide)),
       (h c _ (mem_uc main_arg0 (by decide))).trans (W7_arg m ρ c (by decide)),
       (h c _ (mem_uc main_arg1 (by decide))).trans (W7_arg m ρ c (by decide)),
       (h c _ (mem_uc main_arg2 (by decide))).trans (W7_arg m ρ c (by decide)),
       (h c _ (mem_uc main_arg3 (by decide))).trans (W7_arg m ρ c (by decide)),
       (h c _ (mem_uc main_arg4 (by decide))).trans (W7_arg m ρ c (by decide)),
       (h c _ (mem_uc main_arg5 (by decide))).trans (W7_arg m ρ c (by decide))⟩)

end Cert.KernelIdeal.Hand

end
-- ==== Proof.RefP.Ops00.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 … 3 of the reference's @main, in order. -/
abbrev ops00 : List (HloOp τ sig (Elt F)) :=
  [ nullary main_cst (constant S3 .f32 0x42800000#32),
    nullary main_cst_0 (constant S3 .f32 0x42000000#32),
    nullary main_cst_1 (constant S3 .f32 0x41800000#32) ]

/-- Each touches TensorCore references only. -/
theorem ops00_sub : (ops00 : List (HloOp τ sig (Elt F))).Forall fun op => op.bufs ⊆ tcRefs τ sig :=
  ⟨nullary_bufs_sub .., nullary_bufs_sub .., nullary_bufs_sub ..⟩

set_option maxHeartbeats 4000000 in
/-- None allocates a buffer: each determines its result. -/
theorem ops00_fresh : ∀ op ∈ (ops00 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops00_noarg : (ops00 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops00_W : List (Ref sig .tc) := [main_cst, main_cst_0, main_cst_1]

set_option maxHeartbeats 4000000 in
/-- Each operation writes only its result, which is in that list. -/
theorem ops00_writes : (ops00 : List (HloOp τ sig (Elt F))).Forall fun op => op.writes ⊆ (ops00_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops01.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 4 … 65 of the reference's @main, in order. -/
abbrev ops01 : List (HloOp τ sig (Elt F)) :=
  [ unary main_cst main_v0 (broadcastInDim S1x1x3 ![2] bcast_S3_S1x1x3_2 : (⟨S3, .f32⟩ : BufTy).Contents (Elt F) → (⟨S1x1x3, .f32⟩ : BufTy).Contents (Elt F)),
    unary main_v0 main_v1 (broadcastInDim S2x100000x3 ![0, 1, 2] bcast_S1x1x3_S2x100000x3_0_1_2 : (⟨S1x1x3, .f32⟩ : BufTy).Contents (Elt F) → (⟨S2x100000x3, .f32⟩ : BufTy).Contents (Elt F)),
    binary main_arg5 main_v1 main_v2 (mulf : (⟨S2x100000x3, .f32⟩ : BufTy).Contents (Elt F) → (⟨S2x100000x3, .f32⟩ : BufTy).Contents (Elt F) → (⟨S2x100000x3, .f32⟩ : BufTy).Contents (Elt F)),
    nullary main_cst_2 (constant S_ .f32 0x3C23D70A#32),
    nullary main_cst_3 (constant S_ .f32 0x427BF5C3#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S2x100000x3, .f32⟩) main_call0_v1) (broadcastInDim S2x100000x3 ![] bcast_S_S2x100000x3),
    TRef.binary (TRef.of (T := ⟨S2x100000x3, .f32⟩) main_call0_v1) (TRef.of (T := ⟨S2x100000x3, .f32⟩) main_v2) (TRef.of (T := ⟨S2x100000x3, .f32⟩) main_call0_v2) maximumf,
    TRef.unary (TRef.of (T := ⟨S_, .f32⟩) main_cst_3) (TRef.of (T := ⟨S_, .f32⟩) main_call0_v3) id,
    TRef.unary (TRef.of (T := ⟨S_, .f32⟩) main_call0_v3) (TRef.of (T := ⟨S2x100000x3, .f32⟩) main_call0_v4) (broadcastInDim S2x100000x3 ![] bcast_S_S2x100000x3),
    TRef.binary (TRef.of (T := ⟨S2x100000x3, .f32⟩) main_call0_v4) (TRef.of (T := ⟨S2x100000x3, .f32⟩) main_call0_v2) (TRef.of (T := ⟨S2x100000x3, .f32⟩) main_v3) minimumf,
    unary main_v3 main_v4 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v4 main_v5 rfl shapeCasts_S2x100000x1_S2x100000,
    unary main_v5 main_v6 (Host.floor : (⟨S2x100000, .f32⟩ : BufTy).Contents (Elt F) → (⟨S2x100000, .f32⟩ : BufTy).Contents (Elt F)),
    unary main_v3 main_v7 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v7 main_v8 rfl shapeCasts_S2x100000x1_S2x100000,
    unary main_v8 main_v9 (Host.ceil : (⟨S2x100000, .f32⟩ : BufTy).Contents (Elt F) → (⟨S2x100000, .f32⟩ : BufTy).Contents (Elt F)),
    unary main_v3 main_v10 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v10 main_v11 rfl shapeCasts_S2x100000x1_S2x100000,
    unary main_v11 main_v12 (Host.floor : (⟨S2x100000, .f32⟩ : BufTy).Contents (Elt F) → (⟨S2x100000, .f32⟩ : BufTy).Contents (Elt F)),
    unary main_v3 main_v13 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v13 main_v14 rfl shapeCasts_S2x100000x1_S2x100000,
    unary main_v14 main_v15 (Host.ceil : (⟨S2x100000, .f32⟩ : BufTy).Contents (Elt F) → (⟨S2x100000, .f32⟩ : BufTy).Contents (Elt F)),
    unary main_v3 main_v16 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v16 main_v17 rfl shapeCasts_S2x100000x1_S2x100000,
    unary main_v17 main_v18 (Host.floor : (⟨S2x100000, .f32⟩ : BufTy).Contents (Elt F) → (⟨S2x100000, .f32⟩ : BufTy).Contents (Elt F)),
    unary main_v3 main_v19 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v19 main_v20 rfl shapeCasts_S2x100000x1_S2x100000,
    unary main_v20 main_v21 (Host.ceil : (⟨S2x100000, .f32⟩ : BufTy).Contents (Elt F) → (⟨S2x100000, .f32⟩ : BufTy).Contents (Elt F)),
    unary main_v6 main_v22 (fptosi 32 : (⟨S2x100000, .f32⟩ : BufTy).Contents (Elt F) → (⟨S2x100000, .i32⟩ : BufTy).Contents (Elt F)),
    unary main_v9 main_v23 (fptosi 32 : (⟨S2x100000, .f32⟩ : BufTy).Contents (Elt F) → (⟨S2x100000, .i32⟩ : BufTy).Contents (Elt F)),
    unary main_v12 main_v24 (fptosi 32 : (⟨S2x100000, .f32⟩ : BufTy).Contents (Elt F) → (⟨S2x100000, .i32⟩ : BufTy).Contents (Elt F)),
    unary main_v15 main_v25 (fptosi 32 : (⟨S2x100000, .f32⟩ : BufTy).Contents (Elt F) → (⟨S2x100000, .i32⟩ : BufTy).Contents (Elt F)),
    unary main_v18 main_v26 (fptosi 32 : (⟨S2x100000, .f32⟩ : BufTy).Contents (Elt F) → (⟨S2x100000, .i32⟩ : BufTy).Contents (Elt F)),
    unary main_v21 main_v27 (fptosi 32 : (⟨S2x100000, .f32⟩ : BufTy).Contents (Elt F) → (⟨S2x100000, .i32⟩ : BufTy).Contents (Elt F)),
    unary main_v3 main_v28 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v28 main_v29 rfl shapeCasts_S2x100000x1_S2x100000,
    binary main_v29 main_v6 main_v30 (subf : (⟨S2x100000, .f32⟩ : BufTy).Contents (Elt F) → (⟨S2x100000, .f32⟩ : BufTy).Contents (Elt F) → (⟨S2x100000, .f32⟩ : BufTy).Contents (Elt F)),
    unary main_v30 main_v31 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v32 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v32 main_v33 rfl shapeCasts_S2x100000x1_S2x100000,
    binary main_v9 main_v33 main_v34 (subf : (⟨S2x100000, .f32⟩ : BufTy).Contents (Elt F) → (⟨S2x100000, .f32⟩ : BufTy).Contents (Elt F) → (⟨S2x100000, .f32⟩ : BufTy).Contents (Elt F)),
    unary main_v34 main_v35 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v36 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v36 main_v37 rfl shapeCasts_S2x100000x1_S2x100000,
    binary main_v37 main_v12 main_v38 (subf : (⟨S2x100000, .f32⟩ : BufTy).Contents (Elt F) → (⟨S2x100000, .f32⟩ : BufTy).Contents (Elt F) → (⟨S2x100000, .f32⟩ : BufTy).Contents (Elt F)),
    unary main_v38 main_v39 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v40 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v40 main_v41 rfl shapeCasts_S2x100000x1_S2x100000,
    binary main_v15 main_v41 main_v42 (subf : (⟨S2x100000, .f32⟩ : BufTy).Contents (Elt F) → (⟨S2x100000, .f32⟩ : BufTy).Contents (Elt F) → (⟨S2x100000, .f32⟩ : BufTy).Contents (Elt F)),
    unary main_v42 main_v43 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v44 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v44 main_v45 rfl shapeCasts_S2x100000x1_S2x100000,
    binary main_v45 main_v18 main_v46 (subf : (⟨S2x100000, .f32⟩ : BufTy).Contents (Elt F) → (⟨S2x100000, .f32⟩ : BufTy).Contents (Elt F) → (⟨S2x100000, .f32⟩ : BufTy).Contents (Elt F)),
    unary main_v46 main_v47 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v48 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v48 main_v49 rfl shapeCasts_S2x100000x1_S2x100000,
    binary main_v21 main_v49 main_v50 (subf : (⟨S2x100000, .f32⟩ : BufTy).Contents (Elt F) → (⟨S2x100000, .f32⟩ : BufTy).Contents (Elt F) → (⟨S2x100000, .f32⟩ : BufTy).Contents (Elt F)),
    unary main_v50 main_v51 (broadcastInDim S2x100000x1 ![0, 1] bcast_S2x100000_S2x100000x1_0_1 : (⟨S2x100000, .f32⟩ : BufTy).Contents (Elt F) → (⟨S2x100000x1, .f32⟩ : BufTy).Contents (Elt F)),
    nullary main_c (constantI S_ 32 0#32),
    unary main_c main_v52 (broadcastInDim S2x100000 ![] bcast_S_S2x100000 : (⟨S_, .i32⟩ : BufTy).Contents (Elt F) → (⟨S2x100000, .i32⟩ : BufTy).Contents (Elt F)),
    binary main_v22 main_v52 main_v53 (cmpi .slt : (⟨S2x100000, .i32⟩ : BufTy).Contents (Elt F) → (⟨S2x100000, .i32⟩ : BufTy).Contents (Elt F) → (⟨S2x100000, .i1⟩ : BufTy).Contents (Elt F)) ]

/-- Each touches TensorCore references only. -/
theorem ops01_sub : (ops01 : List (HloOp τ sig (Elt F))).Forall fun op => op.bufs ⊆ tcRefs τ sig :=
  ⟨unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., unary_bufs_sub .., unary_bufs_sub .., unary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., nullary_bufs_sub .., unary_bufs_sub .., binary_bufs_sub ..⟩

set_option maxHeartbeats 4000000 in
/-- None allocates a buffer: each determines its result. -/
theorem ops01_fresh : ∀ op ∈ (ops01 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops01_noarg : (ops01 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops01_W : List (Ref sig .tc) := [main_v0, main_v1, main_v2, main_cst_2, main_cst_3, main_call0_v0, main_call0_v1, main_call0_v2, main_call0_v3, main_call0_v4, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_c, main_v52, main_v53]

set_option maxHeartbeats 4000000 in
/-- Each operation writes only its result, which is in that list. -/
theorem ops01_writes : (ops01 : List (HloOp τ sig (Elt F))).Forall fun op => op.writes ⊆ (ops01_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops02.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 66 … 125 of the reference's @main, in order. -/
abbrev ops02 : List (HloOp τ sig (Elt F)) :=
  [ nullary main_c_4 (constantI S_ 32 64#32),
    unary main_c_4 main_v54 (broadcastInDim S2x100000 ![] bcast_S_S2x100000 : (⟨S_, .i32⟩ : BufTy).Contents (Elt F) → (⟨S2x100000, .i32⟩ : BufTy).Contents (Elt F)),
    binary main_v22 main_v54 main_v55 (addi : (⟨S2x100000, .i32⟩ : BufTy).Contents (Elt F) → (⟨S2x100000, .i32⟩ : BufTy).Contents (Elt F) → (⟨S2x100000, .i32⟩ : BufTy).Contents (Elt F)),
    ternary main_v53 main_v55 main_v22 main_v56 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_5 (constantI S_ 32 0#32),
    unary main_c_5 main_v57 (broadcastInDim S2x100000 ![] bcast_S_S2x100000 : (⟨S_, .i32⟩ : BufTy).Contents (Elt F) → (⟨S2x100000, .i32⟩ : BufTy).Contents (Elt F)),
    binary main_v24 main_v57 main_v58 (cmpi .slt : (⟨S2x100000, .i32⟩ : BufTy).Contents (Elt F) → (⟨S2x100000, .i32⟩ : BufTy).Contents (Elt F) → (⟨S2x100000, .i1⟩ : BufTy).Contents (Elt F)),
    nullary main_c_6 (constantI S_ 32 64#32),
    unary main_c_6 main_v59 (broadcastInDim S2x100000 ![] bcast_S_S2x100000 : (⟨S_, .i32⟩ : BufTy).Contents (Elt F) → (⟨S2x100000, .i32⟩ : BufTy).Contents (Elt F)),
    binary main_v24 main_v59 main_v60 (addi : (⟨S2x100000, .i32⟩ : BufTy).Contents (Elt F) → (⟨S2x100000, .i32⟩ : BufTy).Contents (Elt F) → (⟨S2x100000, .i32⟩ : BufTy).Contents (Elt F)),
    ternary main_v58 main_v60 main_v24 main_v61 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_7 (constantI S_ 32 0#32),
    unary main_c_7 main_v62 (broadcastInDim S2x100000 ![] bcast_S_S2x100000 : (⟨S_, .i32⟩ : BufTy).Contents (Elt F) → (⟨S2x100000, .i32⟩ : BufTy).Contents (Elt F)),
    binary main_v26 main_v62 main_v63 (cmpi .slt : (⟨S2x100000, .i32⟩ : BufTy).Contents (Elt F) → (⟨S2x100000, .i32⟩ : BufTy).Contents (Elt F) → (⟨S2x100000, .i1⟩ : BufTy).Contents (Elt F)),
    nullary main_c_8 (constantI S_ 32 64#32),
    unary main_c_8 main_v64 (broadcastInDim S2x100000 ![] bcast_S_S2x100000 : (⟨S_, .i32⟩ : BufTy).Contents (Elt F) → (⟨S2x100000, .i32⟩ : BufTy).Contents (Elt F)),
    binary main_v26 main_v64 main_v65 (addi : (⟨S2x100000, .i32⟩ : BufTy).Contents (Elt F) → (⟨S2x100000, .i32⟩ : BufTy).Contents (Elt F) → (⟨S2x100000, .i32⟩ : BufTy).Contents (Elt F)),
    ternary main_v63 main_v65 main_v26 main_v66 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v56 main_v67 (broadcastInDim S2x100000x1 ![0, 1] bcast_S2x100000_S2x100000x1_0_1 : (⟨S2x100000, .i32⟩ : BufTy).Contents (Elt F) → (⟨S2x100000x1, .i32⟩ : BufTy).Contents (Elt F)),
    unary main_v61 main_v68 (broadcastInDim S2x100000x1 ![0, 1] bcast_S2x100000_S2x100000x1_0_1 : (⟨S2x100000, .i32⟩ : BufTy).Contents (Elt F) → (⟨S2x100000x1, .i32⟩ : BufTy).Contents (Elt F)),
    unary main_v66 main_v69 (broadcastInDim S2x100000x1 ![0, 1] bcast_S2x100000_S2x100000x1_0_1 : (⟨S2x100000, .i32⟩ : BufTy).Contents (Elt F) → (⟨S2x100000x1, .i32⟩ : BufTy).Contents (Elt F)),
    nary ![main_v67, main_v68, main_v69] main_v70 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v70 main_v71 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_9 (constantI S_ 32 0#32),
    unary main_c_9 main_v72 (broadcastInDim S2x100000 ![] bcast_S_S2x100000 : (⟨S_, .i32⟩ : BufTy).Contents (Elt F) → (⟨S2x100000, .i32⟩ : BufTy).Contents (Elt F)),
    binary main_v23 main_v72 main_v73 (cmpi .slt : (⟨S2x100000, .i32⟩ : BufTy).Contents (Elt F) → (⟨S2x100000, .i32⟩ : BufTy).Contents (Elt F) → (⟨S2x100000, .i1⟩ : BufTy).Contents (Elt F)),
    nullary main_c_10 (constantI S_ 32 64#32),
    unary main_c_10 main_v74 (broadcastInDim S2x100000 ![] bcast_S_S2x100000 : (⟨S_, .i32⟩ : BufTy).Contents (Elt F) → (⟨S2x100000, .i32⟩ : BufTy).Contents (Elt F)),
    binary main_v23 main_v74 main_v75 (addi : (⟨S2x100000, .i32⟩ : BufTy).Contents (Elt F) → (⟨S2x100000, .i32⟩ : BufTy).Contents (Elt F) → (⟨S2x100000, .i32⟩ : BufTy).Contents (Elt F)),
    ternary main_v73 main_v75 main_v23 main_v76 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_11 (constantI S_ 32 0#32),
    unary main_c_11 main_v77 (broadcastInDim S2x100000 ![] bcast_S_S2x100000 : (⟨S_, .i32⟩ : BufTy).Contents (Elt F) → (⟨S2x100000, .i32⟩ : BufTy).Contents (Elt F)),
    binary main_v24 main_v77 main_v78 (cmpi .slt : (⟨S2x100000, .i32⟩ : BufTy).Contents (Elt F) → (⟨S2x100000, .i32⟩ : BufTy).Contents (Elt F) → (⟨S2x100000, .i1⟩ : BufTy).Contents (Elt F)),
    nullary main_c_12 (constantI S_ 32 64#32),
    unary main_c_12 main_v79 (broadcastInDim S2x100000 ![] bcast_S_S2x100000 : (⟨S_, .i32⟩ : BufTy).Contents (Elt F) → (⟨S2x100000, .i32⟩ : BufTy).Contents (Elt F)),
    binary main_v24 main_v79 main_v80 (addi : (⟨S2x100000, .i32⟩ : BufTy).Contents (Elt F) → (⟨S2x100000, .i32⟩ : BufTy).Contents (Elt F) → (⟨S2x100000, .i32⟩ : BufTy).Contents (Elt F)),
    ternary main_v78 main_v80 main_v24 main_v81 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_13 (constantI S_ 32 0#32),
    unary main_c_13 main_v82 (broadcastInDim S2x100000 ![] bcast_S_S2x100000 : (⟨S_, .i32⟩ : BufTy).Contents (Elt F) → (⟨S2x100000, .i32⟩ : BufTy).Contents (Elt F)),
    binary main_v26 main_v82 main_v83 (cmpi .slt : (⟨S2x100000, .i32⟩ : BufTy).Contents (Elt F) → (⟨S2x100000, .i32⟩ : BufTy).Contents (Elt F) → (⟨S2x100000, .i1⟩ : BufTy).Contents (Elt F)),
    nullary main_c_14 (constantI S_ 32 64#32),
    unary main_c_14 main_v84 (broadcastInDim S2x100000 ![] bcast_S_S2x100000 : (⟨S_, .i32⟩ : BufTy).Contents (Elt F) → (⟨S2x100000, .i32⟩ : BufTy).Contents (Elt F)),
    binary main_v26 main_v84 main_v85 (addi : (⟨S2x100000, .i32⟩ : BufTy).Contents (Elt F) → (⟨S2x100000, .i32⟩ : BufTy).Contents (Elt F) → (⟨S2x100000, .i32⟩ : BufTy).Contents (Elt F)),
    ternary main_v83 main_v85 main_v26 main_v86 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v76 main_v87 (broadcastInDim S2x100000x1 ![0, 1] bcast_S2x100000_S2x100000x1_0_1 : (⟨S2x100000, .i32⟩ : BufTy).Contents (Elt F) → (⟨S2x100000x1, .i32⟩ : BufTy).Contents (Elt F)),
    unary main_v81 main_v88 (broadcastInDim S2x100000x1 ![0, 1] bcast_S2x100000_S2x100000x1_0_1 : (⟨S2x100000, .i32⟩ : BufTy).Contents (Elt F) → (⟨S2x100000x1, .i32⟩ : BufTy).Contents (Elt F)),
    unary main_v86 main_v89 (broadcastInDim S2x100000x1 ![0, 1] bcast_S2x100000_S2x100000x1_0_1 : (⟨S2x100000, .i32⟩ : BufTy).Contents (Elt F) → (⟨S2x100000x1, .i32⟩ : BufTy).Contents (Elt F)),
    nary ![main_v87, main_v88, main_v89] main_v90 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v90 main_v91 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_15 (constantI S_ 32 0#32),
    unary main_c_15 main_v92 (broadcastInDim S2x100000 ![] bcast_S_S2x100000 : (⟨S_, .i32⟩ : BufTy).Contents (Elt F) → (⟨S2x100000, .i32⟩ : BufTy).Contents (Elt F)),
    binary main_v22 main_v92 main_v93 (cmpi .slt : (⟨S2x100000, .i32⟩ : BufTy).Contents (Elt F) → (⟨S2x100000, .i32⟩ : BufTy).Contents (Elt F) → (⟨S2x100000, .i1⟩ : BufTy).Contents (Elt F)),
    nullary main_c_16 (constantI S_ 32 64#32),
    unary main_c_16 main_v94 (broadcastInDim S2x100000 ![] bcast_S_S2x100000 : (⟨S_, .i32⟩ : BufTy).Contents (Elt F) → (⟨S2x100000, .i32⟩ : BufTy).Contents (Elt F)),
    binary main_v22 main_v94 main_v95 (addi : (⟨S2x100000, .i32⟩ : BufTy).Contents (Elt F) → (⟨S2x100000, .i32⟩ : BufTy).Contents (Elt F) → (⟨S2x100000, .i32⟩ : BufTy).Contents (Elt F)),
    ternary main_v93 main_v95 main_v22 main_v96 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_17 (constantI S_ 32 0#32),
    unary main_c_17 main_v97 (broadcastInDim S2x100000 ![] bcast_S_S2x100000 : (⟨S_, .i32⟩ : BufTy).Contents (Elt F) → (⟨S2x100000, .i32⟩ : BufTy).Contents (Elt F)),
    binary main_v25 main_v97 main_v98 (cmpi .slt : (⟨S2x100000, .i32⟩ : BufTy).Contents (Elt F) → (⟨S2x100000, .i32⟩ : BufTy).Contents (Elt F) → (⟨S2x100000, .i1⟩ : BufTy).Contents (Elt F)),
    nullary main_c_18 (constantI S_ 32 64#32) ]

/-- Each touches TensorCore references only. -/
theorem ops02_sub : (ops02 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

set_option maxHeartbeats 4000000 in
/-- None allocates a buffer: each determines its result. -/
theorem ops02_fresh : ∀ op ∈ (ops02 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops02_noarg : (ops02 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops02_W : List (Ref sig .tc) := [main_c_4, main_v54, main_v55, main_v56, main_c_5, main_v57, main_v58, main_c_6, main_v59, main_v60, main_v61, main_c_7, main_v62, main_v63, main_c_8, main_v64, main_v65, main_v66, main_v67, main_v68, main_v69, main_v70, main_v71, main_c_9, main_v72, main_v73, main_c_10, main_v74, main_v75, main_v76, main_c_11, main_v77, main_v78, main_c_12, main_v79, main_v80, main_v81, main_c_13, main_v82, main_v83, main_c_14, main_v84, main_v85, main_v86, main_v87, main_v88, main_v89, main_v90, main_v91, main_c_15, main_v92, main_v93, main_c_16, main_v94, main_v95, main_v96, main_c_17, main_v97, main_v98, main_c_18]

set_option maxHeartbeats 4000000 in
/-- Each operation writes only its result, which is in that list. -/
theorem ops02_writes : (ops02 : List (HloOp τ sig (Elt F))).Forall fun op => op.writes ⊆ (ops02_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops03.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 126 … 185 of the reference's @main, in order. -/
abbrev ops03 : List (HloOp τ sig (Elt F)) :=
  [ unary main_c_18 main_v99 (broadcastInDim S2x100000 ![] bcast_S_S2x100000 : (⟨S_, .i32⟩ : BufTy).Contents (Elt F) → (⟨S2x100000, .i32⟩ : BufTy).Contents (Elt F)),
    binary main_v25 main_v99 main_v100 (addi : (⟨S2x100000, .i32⟩ : BufTy).Contents (Elt F) → (⟨S2x100000, .i32⟩ : BufTy).Contents (Elt F) → (⟨S2x100000, .i32⟩ : BufTy).Contents (Elt F)),
    ternary main_v98 main_v100 main_v25 main_v101 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_19 (constantI S_ 32 0#32),
    unary main_c_19 main_v102 (broadcastInDim S2x100000 ![] bcast_S_S2x100000 : (⟨S_, .i32⟩ : BufTy).Contents (Elt F) → (⟨S2x100000, .i32⟩ : BufTy).Contents (Elt F)),
    binary main_v26 main_v102 main_v103 (cmpi .slt : (⟨S2x100000, .i32⟩ : BufTy).Contents (Elt F) → (⟨S2x100000, .i32⟩ : BufTy).Contents (Elt F) → (⟨S2x100000, .i1⟩ : BufTy).Contents (Elt F)),
    nullary main_c_20 (constantI S_ 32 64#32),
    unary main_c_20 main_v104 (broadcastInDim S2x100000 ![] bcast_S_S2x100000 : (⟨S_, .i32⟩ : BufTy).Contents (Elt F) → (⟨S2x100000, .i32⟩ : BufTy).Contents (Elt F)),
    binary main_v26 main_v104 main_v105 (addi : (⟨S2x100000, .i32⟩ : BufTy).Contents (Elt F) → (⟨S2x100000, .i32⟩ : BufTy).Contents (Elt F) → (⟨S2x100000, .i32⟩ : BufTy).Contents (Elt F)),
    ternary main_v103 main_v105 main_v26 main_v106 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v96 main_v107 (broadcastInDim S2x100000x1 ![0, 1] bcast_S2x100000_S2x100000x1_0_1 : (⟨S2x100000, .i32⟩ : BufTy).Contents (Elt F) → (⟨S2x100000x1, .i32⟩ : BufTy).Contents (Elt F)),
    unary main_v101 main_v108 (broadcastInDim S2x100000x1 ![0, 1] bcast_S2x100000_S2x100000x1_0_1 : (⟨S2x100000, .i32⟩ : BufTy).Contents (Elt F) → (⟨S2x100000x1, .i32⟩ : BufTy).Contents (Elt F)),
    unary main_v106 main_v109 (broadcastInDim S2x100000x1 ![0, 1] bcast_S2x100000_S2x100000x1_0_1 : (⟨S2x100000, .i32⟩ : BufTy).Contents (Elt F) → (⟨S2x100000x1, .i32⟩ : BufTy).Contents (Elt F)),
    nary ![main_v107, main_v108, main_v109] main_v110 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v110 main_v111 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_21 (constantI S_ 32 0#32),
    unary main_c_21 main_v112 (broadcastInDim S2x100000 ![] bcast_S_S2x100000 : (⟨S_, .i32⟩ : BufTy).Contents (Elt F) → (⟨S2x100000, .i32⟩ : BufTy).Contents (Elt F)),
    binary main_v23 main_v112 main_v113 (cmpi .slt : (⟨S2x100000, .i32⟩ : BufTy).Contents (Elt F) → (⟨S2x100000, .i32⟩ : BufTy).Contents (Elt F) → (⟨S2x100000, .i1⟩ : BufTy).Contents (Elt F)),
    nullary main_c_22 (constantI S_ 32 64#32),
    unary main_c_22 main_v114 (broadcastInDim S2x100000 ![] bcast_S_S2x100000 : (⟨S_, .i32⟩ : BufTy).Contents (Elt F) → (⟨S2x100000, .i32⟩ : BufTy).Contents (Elt F)),
    binary main_v23 main_v114 main_v115 (addi : (⟨S2x100000, .i32⟩ : BufTy).Contents (Elt F) → (⟨S2x100000, .i32⟩ : BufTy).Contents (Elt F) → (⟨S2x100000, .i32⟩ : BufTy).Contents (Elt F)),
    ternary main_v113 main_v115 main_v23 main_v116 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_23 (constantI S_ 32 0#32),
    unary main_c_23 main_v117 (broadcastInDim S2x100000 ![] bcast_S_S2x100000 : (⟨S_, .i32⟩ : BufTy).Contents (Elt F) → (⟨S2x100000, .i32⟩ : BufTy).Contents (Elt F)),
    binary main_v25 main_v117 main_v118 (cmpi .slt : (⟨S2x100000, .i32⟩ : BufTy).Contents (Elt F) → (⟨S2x100000, .i32⟩ : BufTy).Contents (Elt F) → (⟨S2x100000, .i1⟩ : BufTy).Contents (Elt F)),
    nullary main_c_24 (constantI S_ 32 64#32),
    unary main_c_24 main_v119 (broadcastInDim S2x100000 ![] bcast_S_S2x100000 : (⟨S_, .i32⟩ : BufTy).Contents (Elt F) → (⟨S2x100000, .i32⟩ : BufTy).Contents (Elt F)),
    binary main_v25 main_v119 main_v120 (addi : (⟨S2x100000, .i32⟩ : BufTy).Contents (Elt F) → (⟨S2x100000, .i32⟩ : BufTy).Contents (Elt F) → (⟨S2x100000, .i32⟩ : BufTy).Contents (Elt F)),
    ternary main_v118 main_v120 main_v25 main_v121 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_25 (constantI S_ 32 0#32),
    unary main_c_25 main_v122 (broadcastInDim S2x100000 ![] bcast_S_S2x100000 : (⟨S_, .i32⟩ : BufTy).Contents (Elt F) → (⟨S2x100000, .i32⟩ : BufTy).Contents (Elt F)),
    binary main_v26 main_v122 main_v123 (cmpi .slt : (⟨S2x100000, .i32⟩ : BufTy).Contents (Elt F) → (⟨S2x100000, .i32⟩ : BufTy).Contents (Elt F) → (⟨S2x100000, .i1⟩ : BufTy).Contents (Elt F)),
    nullary main_c_26 (constantI S_ 32 64#32),
    unary main_c_26 main_v124 (broadcastInDim S2x100000 ![] bcast_S_S2x100000 : (⟨S_, .i32⟩ : BufTy).Contents (Elt F) → (⟨S2x100000, .i32⟩ : BufTy).Contents (Elt F)),
    binary main_v26 main_v124 main_v125 (addi : (⟨S2x100000, .i32⟩ : BufTy).Contents (Elt F) → (⟨S2x100000, .i32⟩ : BufTy).Contents (Elt F) → (⟨S2x100000, .i32⟩ : BufTy).Contents (Elt F)),
    ternary main_v123 main_v125 main_v26 main_v126 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v116 main_v127 (broadcastInDim S2x100000x1 ![0, 1] bcast_S2x100000_S2x100000x1_0_1 : (⟨S2x100000, .i32⟩ : BufTy).Contents (Elt F) → (⟨S2x100000x1, .i32⟩ : BufTy).Contents (Elt F)),
    unary main_v121 main_v128 (broadcastInDim S2x100000x1 ![0, 1] bcast_S2x100000_S2x100000x1_0_1 : (⟨S2x100000, .i32⟩ : BufTy).Contents (Elt F) → (⟨S2x100000x1, .i32⟩ : BufTy).Contents (Elt F)),
    unary main_v126 main_v129 (broadcastInDim S2x100000x1 ![0, 1] bcast_S2x100000_S2x100000x1_0_1 : (⟨S2x100000, .i32⟩ : BufTy).Contents (Elt F) → (⟨S2x100000x1, .i32⟩ : BufTy).Contents (Elt F)),
    nary ![main_v127, main_v128, main_v129] main_v130 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v130 main_v131 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    unary main_v31 main_v132 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v131 main_v132 main_v133 (mulf : (⟨S2x100000x32, .f32⟩ : BufTy).Contents (Elt F) → (⟨S2x100000x32, .f32⟩ : BufTy).Contents (Elt F) → (⟨S2x100000x32, .f32⟩ : BufTy).Contents (Elt F)),
    unary main_v35 main_v134 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v111 main_v134 main_v135 (mulf : (⟨S2x100000x32, .f32⟩ : BufTy).Contents (Elt F) → (⟨S2x100000x32, .f32⟩ : BufTy).Contents (Elt F) → (⟨S2x100000x32, .f32⟩ : BufTy).Contents (Elt F)),
    binary main_v133 main_v135 main_v136 (addf : (⟨S2x100000x32, .f32⟩ : BufTy).Contents (Elt F) → (⟨S2x100000x32, .f32⟩ : BufTy).Contents (Elt F) → (⟨S2x100000x32, .f32⟩ : BufTy).Contents (Elt F)),
    unary main_v39 main_v137 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v136 main_v137 main_v138 (mulf : (⟨S2x100000x32, .f32⟩ : BufTy).Contents (Elt F) → (⟨S2x100000x32, .f32⟩ : BufTy).Contents (Elt F) → (⟨S2x100000x32, .f32⟩ : BufTy).Contents (Elt F)),
    unary main_v31 main_v139 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v91 main_v139 main_v140 (mulf : (⟨S2x100000x32, .f32⟩ : BufTy).Contents (Elt F) → (⟨S2x100000x32, .f32⟩ : BufTy).Contents (Elt F) → (⟨S2x100000x32, .f32⟩ : BufTy).Contents (Elt F)),
    unary main_v35 main_v141 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v71 main_v141 main_v142 (mulf : (⟨S2x100000x32, .f32⟩ : BufTy).Contents (Elt F) → (⟨S2x100000x32, .f32⟩ : BufTy).Contents (Elt F) → (⟨S2x100000x32, .f32⟩ : BufTy).Contents (Elt F)),
    binary main_v140 main_v142 main_v143 (addf : (⟨S2x100000x32, .f32⟩ : BufTy).Contents (Elt F) → (⟨S2x100000x32, .f32⟩ : BufTy).Contents (Elt F) → (⟨S2x100000x32, .f32⟩ : BufTy).Contents (Elt F)),
    unary main_v43 main_v144 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v143 main_v144 main_v145 (mulf : (⟨S2x100000x32, .f32⟩ : BufTy).Contents (Elt F) → (⟨S2x100000x32, .f32⟩ : BufTy).Contents (Elt F) → (⟨S2x100000x32, .f32⟩ : BufTy).Contents (Elt F)),
    binary main_v138 main_v145 main_v146 (addf : (⟨S2x100000x32, .f32⟩ : BufTy).Contents (Elt F) → (⟨S2x100000x32, .f32⟩ : BufTy).Contents (Elt F) → (⟨S2x100000x32, .f32⟩ : BufTy).Contents (Elt F)),
    nullary main_c_27 (constantI S_ 32 0#32),
    unary main_c_27 main_v147 (broadcastInDim S2x100000 ![] bcast_S_S2x100000 : (⟨S_, .i32⟩ : BufTy).Contents (Elt F) → (⟨S2x100000, .i32⟩ : BufTy).Contents (Elt F)),
    binary main_v22 main_v147 main_v148 (cmpi .slt : (⟨S2x100000, .i32⟩ : BufTy).Contents (Elt F) → (⟨S2x100000, .i32⟩ : BufTy).Contents (Elt F) → (⟨S2x100000, .i1⟩ : BufTy).Contents (Elt F)),
    nullary main_c_28 (constantI S_ 32 64#32) ]

/-- Each touches TensorCore references only. -/
theorem ops03_sub : (ops03 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., nullary_bufs_sub ..⟩

set_option maxHeartbeats 4000000 in
/-- None allocates a buffer: each determines its result. -/
theorem ops03_fresh : ∀ op ∈ (ops03 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops03_noarg : (ops03 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops03_W : List (Ref sig .tc) := [main_v99, main_v100, main_v101, main_c_19, main_v102, main_v103, main_c_20, main_v104, main_v105, main_v106, main_v107, main_v108, main_v109, main_v110, main_v111, main_c_21, main_v112, main_v113, main_c_22, main_v114, main_v115, main_v116, main_c_23, main_v117, main_v118, main_c_24, main_v119, main_v120, main_v121, main_c_25, main_v122, main_v123, main_c_26, main_v124, main_v125, main_v126, main_v127, main_v128, main_v129, main_v130, main_v131, main_v132, main_v133, main_v134, main_v135, main_v136, main_v137, main_v138, main_v139, main_v140, main_v141, main_v142, main_v143, main_v144, main_v145, main_v146, main_c_27, main_v147, main_v148, main_c_28]

set_option maxHeartbeats 4000000 in
/-- Each operation writes only its result, which is in that list. -/
theorem ops03_writes : (ops03 : List (HloOp τ sig (Elt F))).Forall fun op => op.writes ⊆ (ops03_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops04.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 186 … 245 of the reference's @main, in order. -/
abbrev ops04 : List (HloOp τ sig (Elt F)) :=
  [ unary main_c_28 main_v149 (broadcastInDim S2x100000 ![] bcast_S_S2x100000 : (⟨S_, .i32⟩ : BufTy).Contents (Elt F) → (⟨S2x100000, .i32⟩ : BufTy).Contents (Elt F)),
    binary main_v22 main_v149 main_v150 (addi : (⟨S2x100000, .i32⟩ : BufTy).Contents (Elt F) → (⟨S2x100000, .i32⟩ : BufTy).Contents (Elt F) → (⟨S2x100000, .i32⟩ : BufTy).Contents (Elt F)),
    ternary main_v148 main_v150 main_v22 main_v151 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_29 (constantI S_ 32 0#32),
    unary main_c_29 main_v152 (broadcastInDim S2x100000 ![] bcast_S_S2x100000 : (⟨S_, .i32⟩ : BufTy).Contents (Elt F) → (⟨S2x100000, .i32⟩ : BufTy).Contents (Elt F)),
    binary main_v24 main_v152 main_v153 (cmpi .slt : (⟨S2x100000, .i32⟩ : BufTy).Contents (Elt F) → (⟨S2x100000, .i32⟩ : BufTy).Contents (Elt F) → (⟨S2x100000, .i1⟩ : BufTy).Contents (Elt F)),
    nullary main_c_30 (constantI S_ 32 64#32),
    unary main_c_30 main_v154 (broadcastInDim S2x100000 ![] bcast_S_S2x100000 : (⟨S_, .i32⟩ : BufTy).Contents (Elt F) → (⟨S2x100000, .i32⟩ : BufTy).Contents (Elt F)),
    binary main_v24 main_v154 main_v155 (addi : (⟨S2x100000, .i32⟩ : BufTy).Contents (Elt F) → (⟨S2x100000, .i32⟩ : BufTy).Contents (Elt F) → (⟨S2x100000, .i32⟩ : BufTy).Contents (Elt F)),
    ternary main_v153 main_v155 main_v24 main_v156 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_31 (constantI S_ 32 0#32),
    unary main_c_31 main_v157 (broadcastInDim S2x100000 ![] bcast_S_S2x100000 : (⟨S_, .i32⟩ : BufTy).Contents (Elt F) → (⟨S2x100000, .i32⟩ : BufTy).Contents (Elt F)),
    binary main_v27 main_v157 main_v158 (cmpi .slt : (⟨S2x100000, .i32⟩ : BufTy).Contents (Elt F) → (⟨S2x100000, .i32⟩ : BufTy).Contents (Elt F) → (⟨S2x100000, .i1⟩ : BufTy).Contents (Elt F)),
    nullary main_c_32 (constantI S_ 32 64#32),
    unary main_c_32 main_v159 (broadcastInDim S2x100000 ![] bcast_S_S2x100000 : (⟨S_, .i32⟩ : BufTy).Contents (Elt F) → (⟨S2x100000, .i32⟩ : BufTy).Contents (Elt F)),
    binary main_v27 main_v159 main_v160 (addi : (⟨S2x100000, .i32⟩ : BufTy).Contents (Elt F) → (⟨S2x100000, .i32⟩ : BufTy).Contents (Elt F) → (⟨S2x100000, .i32⟩ : BufTy).Contents (Elt F)),
    ternary main_v158 main_v160 main_v27 main_v161 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v151 main_v162 (broadcastInDim S2x100000x1 ![0, 1] bcast_S2x100000_S2x100000x1_0_1 : (⟨S2x100000, .i32⟩ : BufTy).Contents (Elt F) → (⟨S2x100000x1, .i32⟩ : BufTy).Contents (Elt F)),
    unary main_v156 main_v163 (broadcastInDim S2x100000x1 ![0, 1] bcast_S2x100000_S2x100000x1_0_1 : (⟨S2x100000, .i32⟩ : BufTy).Contents (Elt F) → (⟨S2x100000x1, .i32⟩ : BufTy).Contents (Elt F)),
    unary main_v161 main_v164 (broadcastInDim S2x100000x1 ![0, 1] bcast_S2x100000_S2x100000x1_0_1 : (⟨S2x100000, .i32⟩ : BufTy).Contents (Elt F) → (⟨S2x100000x1, .i32⟩ : BufTy).Contents (Elt F)),
    nary ![main_v162, main_v163, main_v164] main_v165 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v165 main_v166 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_33 (constantI S_ 32 0#32),
    unary main_c_33 main_v167 (broadcastInDim S2x100000 ![] bcast_S_S2x100000 : (⟨S_, .i32⟩ : BufTy).Contents (Elt F) → (⟨S2x100000, .i32⟩ : BufTy).Contents (Elt F)),
    binary main_v23 main_v167 main_v168 (cmpi .slt : (⟨S2x100000, .i32⟩ : BufTy).Contents (Elt F) → (⟨S2x100000, .i32⟩ : BufTy).Contents (Elt F) → (⟨S2x100000, .i1⟩ : BufTy).Contents (Elt F)),
    nullary main_c_34 (constantI S_ 32 64#32),
    unary main_c_34 main_v169 (broadcastInDim S2x100000 ![] bcast_S_S2x100000 : (⟨S_, .i32⟩ : BufTy).Contents (Elt F) → (⟨S2x100000, .i32⟩ : BufTy).Contents (Elt F)),
    binary main_v23 main_v169 main_v170 (addi : (⟨S2x100000, .i32⟩ : BufTy).Contents (Elt F) → (⟨S2x100000, .i32⟩ : BufTy).Contents (Elt F) → (⟨S2x100000, .i32⟩ : BufTy).Contents (Elt F)),
    ternary main_v168 main_v170 main_v23 main_v171 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_35 (constantI S_ 32 0#32),
    unary main_c_35 main_v172 (broadcastInDim S2x100000 ![] bcast_S_S2x100000 : (⟨S_, .i32⟩ : BufTy).Contents (Elt F) → (⟨S2x100000, .i32⟩ : BufTy).Contents (Elt F)),
    binary main_v24 main_v172 main_v173 (cmpi .slt : (⟨S2x100000, .i32⟩ : BufTy).Contents (Elt F) → (⟨S2x100000, .i32⟩ : BufTy).Contents (Elt F) → (⟨S2x100000, .i1⟩ : BufTy).Contents (Elt F)),
    nullary main_c_36 (constantI S_ 32 64#32),
    unary main_c_36 main_v174 (broadcastInDim S2x100000 ![] bcast_S_S2x100000 : (⟨S_, .i32⟩ : BufTy).Contents (Elt F) → (⟨S2x100000, .i32⟩ : BufTy).Contents (Elt F)),
    binary main_v24 main_v174 main_v175 (addi : (⟨S2x100000, .i32⟩ : BufTy).Contents (Elt F) → (⟨S2x100000, .i32⟩ : BufTy).Contents (Elt F) → (⟨S2x100000, .i32⟩ : BufTy).Contents (Elt F)),
    ternary main_v173 main_v175 main_v24 main_v176 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_37 (constantI S_ 32 0#32),
    unary main_c_37 main_v177 (broadcastInDim S2x100000 ![] bcast_S_S2x100000 : (⟨S_, .i32⟩ : BufTy).Contents (Elt F) → (⟨S2x100000, .i32⟩ : BufTy).Contents (Elt F)),
    binary main_v27 main_v177 main_v178 (cmpi .slt : (⟨S2x100000, .i32⟩ : BufTy).Contents (Elt F) → (⟨S2x100000, .i32⟩ : BufTy).Contents (Elt F) → (⟨S2x100000, .i1⟩ : BufTy).Contents (Elt F)),
    nullary main_c_38 (constantI S_ 32 64#32),
    unary main_c_38 main_v179 (broadcastInDim S2x100000 ![] bcast_S_S2x100000 : (⟨S_, .i32⟩ : BufTy).Contents (Elt F) → (⟨S2x100000, .i32⟩ : BufTy).Contents (Elt F)),
    binary main_v27 main_v179 main_v180 (addi : (⟨S2x100000, .i32⟩ : BufTy).Contents (Elt F) → (⟨S2x100000, .i32⟩ : BufTy).Contents (Elt F) → (⟨S2x100000, .i32⟩ : BufTy).Contents (Elt F)),
    ternary main_v178 main_v180 main_v27 main_v181 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v171 main_v182 (broadcastInDim S2x100000x1 ![0, 1] bcast_S2x100000_S2x100000x1_0_1 : (⟨S2x100000, .i32⟩ : BufTy).Contents (Elt F) → (⟨S2x100000x1, .i32⟩ : BufTy).Contents (Elt F)),
    unary main_v176 main_v183 (broadcastInDim S2x100000x1 ![0, 1] bcast_S2x100000_S2x100000x1_0_1 : (⟨S2x100000, .i32⟩ : BufTy).Contents (Elt F) → (⟨S2x100000x1, .i32⟩ : BufTy).Contents (Elt F)),
    unary main_v181 main_v184 (broadcastInDim S2x100000x1 ![0, 1] bcast_S2x100000_S2x100000x1_0_1 : (⟨S2x100000, .i32⟩ : BufTy).Contents (Elt F) → (⟨S2x100000x1, .i32⟩ : BufTy).Contents (Elt F)),
    nary ![main_v182, main_v183, main_v184] main_v185 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v185 main_v186 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_39 (constantI S_ 32 0#32),
    unary main_c_39 main_v187 (broadcastInDim S2x100000 ![] bcast_S_S2x100000 : (⟨S_, .i32⟩ : BufTy).Contents (Elt F) → (⟨S2x100000, .i32⟩ : BufTy).Contents (Elt F)),
    binary main_v22 main_v187 main_v188 (cmpi .slt : (⟨S2x100000, .i32⟩ : BufTy).Contents (Elt F) → (⟨S2x100000, .i32⟩ : BufTy).Contents (Elt F) → (⟨S2x100000, .i1⟩ : BufTy).Contents (Elt F)),
    nullary main_c_40 (constantI S_ 32 64#32),
    unary main_c_40 main_v189 (broadcastInDim S2x100000 ![] bcast_S_S2x100000 : (⟨S_, .i32⟩ : BufTy).Contents (Elt F) → (⟨S2x100000, .i32⟩ : BufTy).Contents (Elt F)),
    binary main_v22 main_v189 main_v190 (addi : (⟨S2x100000, .i32⟩ : BufTy).Contents (Elt F) → (⟨S2x100000, .i32⟩ : BufTy).Contents (Elt F) → (⟨S2x100000, .i32⟩ : BufTy).Contents (Elt F)),
    ternary main_v188 main_v190 main_v22 main_v191 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_41 (constantI S_ 32 0#32),
    unary main_c_41 main_v192 (broadcastInDim S2x100000 ![] bcast_S_S2x100000 : (⟨S_, .i32⟩ : BufTy).Contents (Elt F) → (⟨S2x100000, .i32⟩ : BufTy).Contents (Elt F)),
    binary main_v25 main_v192 main_v193 (cmpi .slt : (⟨S2x100000, .i32⟩ : BufTy).Contents (Elt F) → (⟨S2x100000, .i32⟩ : BufTy).Contents (Elt F) → (⟨S2x100000, .i1⟩ : BufTy).Contents (Elt F)),
    nullary main_c_42 (constantI S_ 32 64#32),
    unary main_c_42 main_v194 (broadcastInDim S2x100000 ![] bcast_S_S2x100000 : (⟨S_, .i32⟩ : BufTy).Contents (Elt F) → (⟨S2x100000, .i32⟩ : BufTy).Contents (Elt F)) ]

/-- Each touches TensorCore references only. -/
theorem ops04_sub : (ops04 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

set_option maxHeartbeats 4000000 in
/-- None allocates a buffer: each determines its result. -/
theorem ops04_fresh : ∀ op ∈ (ops04 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops04_noarg : (ops04 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops04_W : List (Ref sig .tc) := [main_v149, main_v150, main_v151, main_c_29, main_v152, main_v153, main_c_30, main_v154, main_v155, main_v156, main_c_31, main_v157, main_v158, main_c_32, main_v159, main_v160, main_v161, main_v162, main_v163, main_v164, main_v165, main_v166, main_c_33, main_v167, main_v168, main_c_34, main_v169, main_v170, main_v171, main_c_35, main_v172, main_v173, main_c_36, main_v174, main_v175, main_v176, main_c_37, main_v177, main_v178, main_c_38, main_v179, main_v180, main_v181, main_v182, main_v183, main_v184, main_v185, main_v186, main_c_39, main_v187, main_v188, main_c_40, main_v189, main_v190, main_v191, main_c_41, main_v192, main_v193, main_c_42, main_v194]

set_option maxHeartbeats 4000000 in
/-- Each operation writes only its result, which is in that list. -/
theorem ops04_writes : (ops04 : List (HloOp τ sig (Elt F))).Forall fun op => op.writes ⊆ (ops04_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops05.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 246 … 305 of the reference's @main, in order. -/
abbrev ops05 : List (HloOp τ sig (Elt F)) :=
  [ binary main_v25 main_v194 main_v195 (addi : (⟨S2x100000, .i32⟩ : BufTy).Contents (Elt F) → (⟨S2x100000, .i32⟩ : BufTy).Contents (Elt F) → (⟨S2x100000, .i32⟩ : BufTy).Contents (Elt F)),
    ternary main_v193 main_v195 main_v25 main_v196 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_43 (constantI S_ 32 0#32),
    unary main_c_43 main_v197 (broadcastInDim S2x100000 ![] bcast_S_S2x100000 : (⟨S_, .i32⟩ : BufTy).Contents (Elt F) → (⟨S2x100000, .i32⟩ : BufTy).Contents (Elt F)),
    binary main_v27 main_v197 main_v198 (cmpi .slt : (⟨S2x100000, .i32⟩ : BufTy).Contents (Elt F) → (⟨S2x100000, .i32⟩ : BufTy).Contents (Elt F) → (⟨S2x100000, .i1⟩ : BufTy).Contents (Elt F)),
    nullary main_c_44 (constantI S_ 32 64#32),
    unary main_c_44 main_v199 (broadcastInDim S2x100000 ![] bcast_S_S2x100000 : (⟨S_, .i32⟩ : BufTy).Contents (Elt F) → (⟨S2x100000, .i32⟩ : BufTy).Contents (Elt F)),
    binary main_v27 main_v199 main_v200 (addi : (⟨S2x100000, .i32⟩ : BufTy).Contents (Elt F) → (⟨S2x100000, .i32⟩ : BufTy).Contents (Elt F) → (⟨S2x100000, .i32⟩ : BufTy).Contents (Elt F)),
    ternary main_v198 main_v200 main_v27 main_v201 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v191 main_v202 (broadcastInDim S2x100000x1 ![0, 1] bcast_S2x100000_S2x100000x1_0_1 : (⟨S2x100000, .i32⟩ : BufTy).Contents (Elt F) → (⟨S2x100000x1, .i32⟩ : BufTy).Contents (Elt F)),
    unary main_v196 main_v203 (broadcastInDim S2x100000x1 ![0, 1] bcast_S2x100000_S2x100000x1_0_1 : (⟨S2x100000, .i32⟩ : BufTy).Contents (Elt F) → (⟨S2x100000x1, .i32⟩ : BufTy).Contents (Elt F)),
    unary main_v201 main_v204 (broadcastInDim S2x100000x1 ![0, 1] bcast_S2x100000_S2x100000x1_0_1 : (⟨S2x100000, .i32⟩ : BufTy).Contents (Elt F) → (⟨S2x100000x1, .i32⟩ : BufTy).Contents (Elt F)),
    nary ![main_v202, main_v203, main_v204] main_v205 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v205 main_v206 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_45 (constantI S_ 32 0#32),
    unary main_c_45 main_v207 (broadcastInDim S2x100000 ![] bcast_S_S2x100000 : (⟨S_, .i32⟩ : BufTy).Contents (Elt F) → (⟨S2x100000, .i32⟩ : BufTy).Contents (Elt F)),
    binary main_v23 main_v207 main_v208 (cmpi .slt : (⟨S2x100000, .i32⟩ : BufTy).Contents (Elt F) → (⟨S2x100000, .i32⟩ : BufTy).Contents (Elt F) → (⟨S2x100000, .i1⟩ : BufTy).Contents (Elt F)),
    nullary main_c_46 (constantI S_ 32 64#32),
    unary main_c_46 main_v209 (broadcastInDim S2x100000 ![] bcast_S_S2x100000 : (⟨S_, .i32⟩ : BufTy).Contents (Elt F) → (⟨S2x100000, .i32⟩ : BufTy).Contents (Elt F)),
    binary main_v23 main_v209 main_v210 (addi : (⟨S2x100000, .i32⟩ : BufTy).Contents (Elt F) → (⟨S2x100000, .i32⟩ : BufTy).Contents (Elt F) → (⟨S2x100000, .i32⟩ : BufTy).Contents (Elt F)),
    ternary main_v208 main_v210 main_v23 main_v211 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_47 (constantI S_ 32 0#32),
    unary main_c_47 main_v212 (broadcastInDim S2x100000 ![] bcast_S_S2x100000 : (⟨S_, .i32⟩ : BufTy).Contents (Elt F) → (⟨S2x100000, .i32⟩ : BufTy).Contents (Elt F)),
    binary main_v25 main_v212 main_v213 (cmpi .slt : (⟨S2x100000, .i32⟩ : BufTy).Contents (Elt F) → (⟨S2x100000, .i32⟩ : BufTy).Contents (Elt F) → (⟨S2x100000, .i1⟩ : BufTy).Contents (Elt F)),
    nullary main_c_48 (constantI S_ 32 64#32),
    unary main_c_48 main_v214 (broadcastInDim S2x100000 ![] bcast_S_S2x100000 : (⟨S_, .i32⟩ : BufTy).Contents (Elt F) → (⟨S2x100000, .i32⟩ : BufTy).Contents (Elt F)),
    binary main_v25 main_v214 main_v215 (addi : (⟨S2x100000, .i32⟩ : BufTy).Contents (Elt F) → (⟨S2x100000, .i32⟩ : BufTy).Contents (Elt F) → (⟨S2x100000, .i32⟩ : BufTy).Contents (Elt F)),
    ternary main_v213 main_v215 main_v25 main_v216 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_49 (constantI S_ 32 0#32),
    unary main_c_49 main_v217 (broadcastInDim S2x100000 ![] bcast_S_S2x100000 : (⟨S_, .i32⟩ : BufTy).Contents (Elt F) → (⟨S2x100000, .i32⟩ : BufTy).Contents (Elt F)),
    binary main_v27 main_v217 main_v218 (cmpi .slt : (⟨S2x100000, .i32⟩ : BufTy).Contents (Elt F) → (⟨S2x100000, .i32⟩ : BufTy).Contents (Elt F) → (⟨S2x100000, .i1⟩ : BufTy).Contents (Elt F)),
    nullary main_c_50 (constantI S_ 32 64#32),
    unary main_c_50 main_v219 (broadcastInDim S2x100000 ![] bcast_S_S2x100000 : (⟨S_, .i32⟩ : BufTy).Contents (Elt F) → (⟨S2x100000, .i32⟩ : BufTy).Contents (Elt F)),
    binary main_v27 main_v219 main_v220 (addi : (⟨S2x100000, .i32⟩ : BufTy).Contents (Elt F) → (⟨S2x100000, .i32⟩ : BufTy).Contents (Elt F) → (⟨S2x100000, .i32⟩ : BufTy).Contents (Elt F)),
    ternary main_v218 main_v220 main_v27 main_v221 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v211 main_v222 (broadcastInDim S2x100000x1 ![0, 1] bcast_S2x100000_S2x100000x1_0_1 : (⟨S2x100000, .i32⟩ : BufTy).Contents (Elt F) → (⟨S2x100000x1, .i32⟩ : BufTy).Contents (Elt F)),
    unary main_v216 main_v223 (broadcastInDim S2x100000x1 ![0, 1] bcast_S2x100000_S2x100000x1_0_1 : (⟨S2x100000, .i32⟩ : BufTy).Contents (Elt F) → (⟨S2x100000x1, .i32⟩ : BufTy).Contents (Elt F)),
    unary main_v221 main_v224 (broadcastInDim S2x100000x1 ![0, 1] bcast_S2x100000_S2x100000x1_0_1 : (⟨S2x100000, .i32⟩ : BufTy).Contents (Elt F) → (⟨S2x100000x1, .i32⟩ : BufTy).Contents (Elt F)),
    nary ![main_v222, main_v223, main_v224] main_v225 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v225 main_v226 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    unary main_v31 main_v227 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v226 main_v227 main_v228 (mulf : (⟨S2x100000x32, .f32⟩ : BufTy).Contents (Elt F) → (⟨S2x100000x32, .f32⟩ : BufTy).Contents (Elt F) → (⟨S2x100000x32, .f32⟩ : BufTy).Contents (Elt F)),
    unary main_v35 main_v229 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v206 main_v229 main_v230 (mulf : (⟨S2x100000x32, .f32⟩ : BufTy).Contents (Elt F) → (⟨S2x100000x32, .f32⟩ : BufTy).Contents (Elt F) → (⟨S2x100000x32, .f32⟩ : BufTy).Contents (Elt F)),
    binary main_v228 main_v230 main_v231 (addf : (⟨S2x100000x32, .f32⟩ : BufTy).Contents (Elt F) → (⟨S2x100000x32, .f32⟩ : BufTy).Contents (Elt F) → (⟨S2x100000x32, .f32⟩ : BufTy).Contents (Elt F)),
    unary main_v39 main_v232 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v231 main_v232 main_v233 (mulf : (⟨S2x100000x32, .f32⟩ : BufTy).Contents (Elt F) → (⟨S2x100000x32, .f32⟩ : BufTy).Contents (Elt F) → (⟨S2x100000x32, .f32⟩ : BufTy).Contents (Elt F)),
    unary main_v31 main_v234 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v186 main_v234 main_v235 (mulf : (⟨S2x100000x32, .f32⟩ : BufTy).Contents (Elt F) → (⟨S2x100000x32, .f32⟩ : BufTy).Contents (Elt F) → (⟨S2x100000x32, .f32⟩ : BufTy).Contents (Elt F)),
    unary main_v35 main_v236 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v166 main_v236 main_v237 (mulf : (⟨S2x100000x32, .f32⟩ : BufTy).Contents (Elt F) → (⟨S2x100000x32, .f32⟩ : BufTy).Contents (Elt F) → (⟨S2x100000x32, .f32⟩ : BufTy).Contents (Elt F)),
    binary main_v235 main_v237 main_v238 (addf : (⟨S2x100000x32, .f32⟩ : BufTy).Contents (Elt F) → (⟨S2x100000x32, .f32⟩ : BufTy).Contents (Elt F) → (⟨S2x100000x32, .f32⟩ : BufTy).Contents (Elt F)),
    unary main_v43 main_v239 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v238 main_v239 main_v240 (mulf : (⟨S2x100000x32, .f32⟩ : BufTy).Contents (Elt F) → (⟨S2x100000x32, .f32⟩ : BufTy).Contents (Elt F) → (⟨S2x100000x32, .f32⟩ : BufTy).Contents (Elt F)),
    binary main_v233 main_v240 main_v241 (addf : (⟨S2x100000x32, .f32⟩ : BufTy).Contents (Elt F) → (⟨S2x100000x32, .f32⟩ : BufTy).Contents (Elt F) → (⟨S2x100000x32, .f32⟩ : BufTy).Contents (Elt F)),
    unary main_v47 main_v242 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v241 main_v242 main_v243 (mulf : (⟨S2x100000x32, .f32⟩ : BufTy).Contents (Elt F) → (⟨S2x100000x32, .f32⟩ : BufTy).Contents (Elt F) → (⟨S2x100000x32, .f32⟩ : BufTy).Contents (Elt F)),
    unary main_v51 main_v244 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v146 main_v244 main_v245 (mulf : (⟨S2x100000x32, .f32⟩ : BufTy).Contents (Elt F) → (⟨S2x100000x32, .f32⟩ : BufTy).Contents (Elt F) → (⟨S2x100000x32, .f32⟩ : BufTy).Contents (Elt F)),
    binary main_v243 main_v245 main_v246 (addf : (⟨S2x100000x32, .f32⟩ : BufTy).Contents (Elt F) → (⟨S2x100000x32, .f32⟩ : BufTy).Contents (Elt F) → (⟨S2x100000x32, .f32⟩ : BufTy).Contents (Elt F)) ]

/-- Each touches TensorCore references only. -/
theorem ops05_sub : (ops05 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., unary_bufs_sub .., binary_bufs_sub .., binary_bufs_sub ..⟩

set_option maxHeartbeats 4000000 in
/-- None allocates a buffer: each determines its result. -/
theorem ops05_fresh : ∀ op ∈ (ops05 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops05_noarg : (ops05 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops05_W : List (Ref sig .tc) := [main_v195, main_v196, main_c_43, main_v197, main_v198, main_c_44, main_v199, main_v200, main_v201, main_v202, main_v203, main_v204, main_v205, main_v206, main_c_45, main_v207, main_v208, main_c_46, main_v209, main_v210, main_v211, main_c_47, main_v212, main_v213, main_c_48, main_v214, main_v215, main_v216, main_c_49, main_v217, main_v218, main_c_50, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246]

set_option maxHeartbeats 4000000 in
/-- Each operation writes only its result, which is in that list. -/
theorem ops05_writes : (ops05 : List (HloOp τ sig (Elt F))).Forall fun op => op.writes ⊆ (ops05_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops06.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 306 … 370 of the reference's @main, in order. -/
abbrev ops06 : List (HloOp τ sig (Elt F)) :=
  [ unary main_cst_0 main_v247 (broadcastInDim S1x1x3 ![2] bcast_S3_S1x1x3_2 : (⟨S3, .f32⟩ : BufTy).Contents (Elt F) → (⟨S1x1x3, .f32⟩ : BufTy).Contents (Elt F)),
    unary main_v247 main_v248 (broadcastInDim S2x100000x3 ![0, 1, 2] bcast_S1x1x3_S2x100000x3_0_1_2 : (⟨S1x1x3, .f32⟩ : BufTy).Contents (Elt F) → (⟨S2x100000x3, .f32⟩ : BufTy).Contents (Elt F)),
    binary main_arg5 main_v248 main_v249 (mulf : (⟨S2x100000x3, .f32⟩ : BufTy).Contents (Elt F) → (⟨S2x100000x3, .f32⟩ : BufTy).Contents (Elt F) → (⟨S2x100000x3, .f32⟩ : BufTy).Contents (Elt F)),
    nullary main_cst_51 (constant S_ .f32 0x3C23D70A#32),
    nullary main_cst_52 (constant S_ .f32 0x41F7EB85#32),
    TRef.unary (TRef.of (T := ⟨S_, .f32⟩) main_cst_51) (TRef.of (T := ⟨S_, .f32⟩) main_call1_v0) id,
    TRef.unary (TRef.of (T := ⟨S_, .f32⟩) main_call1_v0) (TRef.of (T := ⟨S2x100000x3, .f32⟩) main_call1_v1) (broadcastInDim S2x100000x3 ![] bcast_S_S2x100000x3),
    TRef.binary (TRef.of (T := ⟨S2x100000x3, .f32⟩) main_call1_v1) (TRef.of (T := ⟨S2x100000x3, .f32⟩) main_v249) (TRef.of (T := ⟨S2x100000x3, .f32⟩) main_call1_v2) maximumf,
    TRef.unary (TRef.of (T := ⟨S_, .f32⟩) main_cst_52) (TRef.of (T := ⟨S_, .f32⟩) main_call1_v3) id,
    TRef.unary (TRef.of (T := ⟨S_, .f32⟩) main_call1_v3) (TRef.of (T := ⟨S2x100000x3, .f32⟩) main_call1_v4) (broadcastInDim S2x100000x3 ![] bcast_S_S2x100000x3),
    TRef.binary (TRef.of (T := ⟨S2x100000x3, .f32⟩) main_call1_v4) (TRef.of (T := ⟨S2x100000x3, .f32⟩) main_call1_v2) (TRef.of (T := ⟨S2x100000x3, .f32⟩) main_v250) minimumf,
    unary main_v250 main_v251 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v251 main_v252 rfl shapeCasts_S2x100000x1_S2x100000,
    unary main_v252 main_v253 (Host.floor : (⟨S2x100000, .f32⟩ : BufTy).Contents (Elt F) → (⟨S2x100000, .f32⟩ : BufTy).Contents (Elt F)),
    unary main_v250 main_v254 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v254 main_v255 rfl shapeCasts_S2x100000x1_S2x100000,
    unary main_v255 main_v256 (Host.ceil : (⟨S2x100000, .f32⟩ : BufTy).Contents (Elt F) → (⟨S2x100000, .f32⟩ : BufTy).Contents (Elt F)),
    unary main_v250 main_v257 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v257 main_v258 rfl shapeCasts_S2x100000x1_S2x100000,
    unary main_v258 main_v259 (Host.floor : (⟨S2x100000, .f32⟩ : BufTy).Contents (Elt F) → (⟨S2x100000, .f32⟩ : BufTy).Contents (Elt F)),
    unary main_v250 main_v260 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v260 main_v261 rfl shapeCasts_S2x100000x1_S2x100000,
    unary main_v261 main_v262 (Host.ceil : (⟨S2x100000, .f32⟩ : BufTy).Contents (Elt F) → (⟨S2x100000, .f32⟩ : BufTy).Contents (Elt F)),
    unary main_v250 main_v263 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v263 main_v264 rfl shapeCasts_S2x100000x1_S2x100000,
    unary main_v264 main_v265 (Host.floor : (⟨S2x100000, .f32⟩ : BufTy).Contents (Elt F) → (⟨S2x100000, .f32⟩ : BufTy).Contents (Elt F)),
    unary main_v250 main_v266 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v266 main_v267 rfl shapeCasts_S2x100000x1_S2x100000,
    unary main_v267 main_v268 (Host.ceil : (⟨S2x100000, .f32⟩ : BufTy).Contents (Elt F) → (⟨S2x100000, .f32⟩ : BufTy).Contents (Elt F)),
    unary main_v253 main_v269 (fptosi 32 : (⟨S2x100000, .f32⟩ : BufTy).Contents (Elt F) → (⟨S2x100000, .i32⟩ : BufTy).Contents (Elt F)),
    unary main_v256 main_v270 (fptosi 32 : (⟨S2x100000, .f32⟩ : BufTy).Contents (Elt F) → (⟨S2x100000, .i32⟩ : BufTy).Contents (Elt F)),
    unary main_v259 main_v271 (fptosi 32 : (⟨S2x100000, .f32⟩ : BufTy).Contents (Elt F) → (⟨S2x100000, .i32⟩ : BufTy).Contents (Elt F)),
    unary main_v262 main_v272 (fptosi 32 : (⟨S2x100000, .f32⟩ : BufTy).Contents (Elt F) → (⟨S2x100000, .i32⟩ : BufTy).Contents (Elt F)),
    unary main_v265 main_v273 (fptosi 32 : (⟨S2x100000, .f32⟩ : BufTy).Contents (Elt F) → (⟨S2x100000, .i32⟩ : BufTy).Contents (Elt F)),
    unary main_v268 main_v274 (fptosi 32 : (⟨S2x100000, .f32⟩ : BufTy).Contents (Elt F) → (⟨S2x100000, .i32⟩ : BufTy).Contents (Elt F)),
    unary main_v250 main_v275 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v275 main_v276 rfl shapeCasts_S2x100000x1_S2x100000,
    binary main_v276 main_v253 main_v277 (subf : (⟨S2x100000, .f32⟩ : BufTy).Contents (Elt F) → (⟨S2x100000, .f32⟩ : BufTy).Contents (Elt F) → (⟨S2x100000, .f32⟩ : BufTy).Contents (Elt F)),
    unary main_v277 main_v278 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v279 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v279 main_v280 rfl shapeCasts_S2x100000x1_S2x100000,
    binary main_v256 main_v280 main_v281 (subf : (⟨S2x100000, .f32⟩ : BufTy).Contents (Elt F) → (⟨S2x100000, .f32⟩ : BufTy).Contents (Elt F) → (⟨S2x100000, .f32⟩ : BufTy).Contents (Elt F)),
    unary main_v281 main_v282 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v283 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v283 main_v284 rfl shapeCasts_S2x100000x1_S2x100000,
    binary main_v284 main_v259 main_v285 (subf : (⟨S2x100000, .f32⟩ : BufTy).Contents (Elt F) → (⟨S2x100000, .f32⟩ : BufTy).Contents (Elt F) → (⟨S2x100000, .f32⟩ : BufTy).Contents (Elt F)),
    unary main_v285 main_v286 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v287 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v287 main_v288 rfl shapeCasts_S2x100000x1_S2x100000,
    binary main_v262 main_v288 main_v289 (subf : (⟨S2x100000, .f32⟩ : BufTy).Contents (Elt F) → (⟨S2x100000, .f32⟩ : BufTy).Contents (Elt F) → (⟨S2x100000, .f32⟩ : BufTy).Contents (Elt F)),
    unary main_v289 main_v290 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v291 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v291 main_v292 rfl shapeCasts_S2x100000x1_S2x100000,
    binary main_v292 main_v265 main_v293 (subf : (⟨S2x100000, .f32⟩ : BufTy).Contents (Elt F) → (⟨S2x100000, .f32⟩ : BufTy).Contents (Elt F) → (⟨S2x100000, .f32⟩ : BufTy).Contents (Elt F)),
    unary main_v293 main_v294 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v295 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v295 main_v296 rfl shapeCasts_S2x100000x1_S2x100000,
    binary main_v268 main_v296 main_v297 (subf : (⟨S2x100000, .f32⟩ : BufTy).Contents (Elt F) → (⟨S2x100000, .f32⟩ : BufTy).Contents (Elt F) → (⟨S2x100000, .f32⟩ : BufTy).Contents (Elt F)),
    unary main_v297 main_v298 (broadcastInDim S2x100000x1 ![0, 1] bcast_S2x100000_S2x100000x1_0_1 : (⟨S2x100000, .f32⟩ : BufTy).Contents (Elt F) → (⟨S2x100000x1, .f32⟩ : BufTy).Contents (Elt F)),
    nullary main_c_53 (constantI S_ 32 0#32),
    unary main_c_53 main_v299 (broadcastInDim S2x100000 ![] bcast_S_S2x100000 : (⟨S_, .i32⟩ : BufTy).Contents (Elt F) → (⟨S2x100000, .i32⟩ : BufTy).Contents (Elt F)),
    binary main_v269 main_v299 main_v300 (cmpi .slt : (⟨S2x100000, .i32⟩ : BufTy).Contents (Elt F) → (⟨S2x100000, .i32⟩ : BufTy).Contents (Elt F) → (⟨S2x100000, .i1⟩ : BufTy).Contents (Elt F)),
    nullary main_c_54 (constantI S_ 32 32#32),
    unary main_c_54 main_v301 (broadcastInDim S2x100000 ![] bcast_S_S2x100000 : (⟨S_, .i32⟩ : BufTy).Contents (Elt F) → (⟨S2x100000, .i32⟩ : BufTy).Contents (Elt F)),
    binary main_v269 main_v301 main_v302 (addi : (⟨S2x100000, .i32⟩ : BufTy).Contents (Elt F) → (⟨S2x100000, .i32⟩ : BufTy).Contents (Elt F) → (⟨S2x100000, .i32⟩ : BufTy).Contents (Elt F)) ]

/-- Each touches TensorCore references only. -/
theorem ops06_sub : (ops06 : List (HloOp τ sig (Elt F))).Forall fun op => op.bufs ⊆ tcRefs τ sig :=
  ⟨unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., unary_bufs_sub .., unary_bufs_sub .., unary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub ..⟩

set_option maxHeartbeats 4000000 in
/-- None allocates a buffer: each determines its result. -/
theorem ops06_fresh : ∀ op ∈ (ops06 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops06_noarg : (ops06 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops06_W : List (Ref sig .tc) := [main_v247, main_v248, main_v249, main_cst_51, main_cst_52, main_call1_v0, main_call1_v1, main_call1_v2, main_call1_v3, main_call1_v4, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_c_53, main_v299, main_v300, main_c_54, main_v301, main_v302]

set_option maxHeartbeats 4000000 in
/-- Each operation writes only its result, which is in that list. -/
theorem ops06_writes : (ops06 : List (HloOp τ sig (Elt F))).Forall fun op => op.writes ⊆ (ops06_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops07.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 371 … 430 of the reference's @main, in order. -/
abbrev ops07 : List (HloOp τ sig (Elt F)) :=
  [ ternary main_v300 main_v302 main_v269 main_v303 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_55 (constantI S_ 32 0#32),
    unary main_c_55 main_v304 (broadcastInDim S2x100000 ![] bcast_S_S2x100000 : (⟨S_, .i32⟩ : BufTy).Contents (Elt F) → (⟨S2x100000, .i32⟩ : BufTy).Contents (Elt F)),
    binary main_v271 main_v304 main_v305 (cmpi .slt : (⟨S2x100000, .i32⟩ : BufTy).Contents (Elt F) → (⟨S2x100000, .i32⟩ : BufTy).Contents (Elt F) → (⟨S2x100000, .i1⟩ : BufTy).Contents (Elt F)),
    nullary main_c_56 (constantI S_ 32 32#32),
    unary main_c_56 main_v306 (broadcastInDim S2x100000 ![] bcast_S_S2x100000 : (⟨S_, .i32⟩ : BufTy).Contents (Elt F) → (⟨S2x100000, .i32⟩ : BufTy).Contents (Elt F)),
    binary main_v271 main_v306 main_v307 (addi : (⟨S2x100000, .i32⟩ : BufTy).Contents (Elt F) → (⟨S2x100000, .i32⟩ : BufTy).Contents (Elt F) → (⟨S2x100000, .i32⟩ : BufTy).Contents (Elt F)),
    ternary main_v305 main_v307 main_v271 main_v308 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_57 (constantI S_ 32 0#32),
    unary main_c_57 main_v309 (broadcastInDim S2x100000 ![] bcast_S_S2x100000 : (⟨S_, .i32⟩ : BufTy).Contents (Elt F) → (⟨S2x100000, .i32⟩ : BufTy).Contents (Elt F)),
    binary main_v273 main_v309 main_v310 (cmpi .slt : (⟨S2x100000, .i32⟩ : BufTy).Contents (Elt F) → (⟨S2x100000, .i32⟩ : BufTy).Contents (Elt F) → (⟨S2x100000, .i1⟩ : BufTy).Contents (Elt F)),
    nullary main_c_58 (constantI S_ 32 32#32),
    unary main_c_58 main_v311 (broadcastInDim S2x100000 ![] bcast_S_S2x100000 : (⟨S_, .i32⟩ : BufTy).Contents (Elt F) → (⟨S2x100000, .i32⟩ : BufTy).Contents (Elt F)),
    binary main_v273 main_v311 main_v312 (addi : (⟨S2x100000, .i32⟩ : BufTy).Contents (Elt F) → (⟨S2x100000, .i32⟩ : BufTy).Contents (Elt F) → (⟨S2x100000, .i32⟩ : BufTy).Contents (Elt F)),
    ternary main_v310 main_v312 main_v273 main_v313 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v303 main_v314 (broadcastInDim S2x100000x1 ![0, 1] bcast_S2x100000_S2x100000x1_0_1 : (⟨S2x100000, .i32⟩ : BufTy).Contents (Elt F) → (⟨S2x100000x1, .i32⟩ : BufTy).Contents (Elt F)),
    unary main_v308 main_v315 (broadcastInDim S2x100000x1 ![0, 1] bcast_S2x100000_S2x100000x1_0_1 : (⟨S2x100000, .i32⟩ : BufTy).Contents (Elt F) → (⟨S2x100000x1, .i32⟩ : BufTy).Contents (Elt F)),
    unary main_v313 main_v316 (broadcastInDim S2x100000x1 ![0, 1] bcast_S2x100000_S2x100000x1_0_1 : (⟨S2x100000, .i32⟩ : BufTy).Contents (Elt F) → (⟨S2x100000x1, .i32⟩ : BufTy).Contents (Elt F)),
    nary ![main_v314, main_v315, main_v316] main_v317 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v317 main_v318 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_59 (constantI S_ 32 0#32),
    unary main_c_59 main_v319 (broadcastInDim S2x100000 ![] bcast_S_S2x100000 : (⟨S_, .i32⟩ : BufTy).Contents (Elt F) → (⟨S2x100000, .i32⟩ : BufTy).Contents (Elt F)),
    binary main_v270 main_v319 main_v320 (cmpi .slt : (⟨S2x100000, .i32⟩ : BufTy).Contents (Elt F) → (⟨S2x100000, .i32⟩ : BufTy).Contents (Elt F) → (⟨S2x100000, .i1⟩ : BufTy).Contents (Elt F)),
    nullary main_c_60 (constantI S_ 32 32#32),
    unary main_c_60 main_v321 (broadcastInDim S2x100000 ![] bcast_S_S2x100000 : (⟨S_, .i32⟩ : BufTy).Contents (Elt F) → (⟨S2x100000, .i32⟩ : BufTy).Contents (Elt F)),
    binary main_v270 main_v321 main_v322 (addi : (⟨S2x100000, .i32⟩ : BufTy).Contents (Elt F) → (⟨S2x100000, .i32⟩ : BufTy).Contents (Elt F) → (⟨S2x100000, .i32⟩ : BufTy).Contents (Elt F)),
    ternary main_v320 main_v322 main_v270 main_v323 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_61 (constantI S_ 32 0#32),
    unary main_c_61 main_v324 (broadcastInDim S2x100000 ![] bcast_S_S2x100000 : (⟨S_, .i32⟩ : BufTy).Contents (Elt F) → (⟨S2x100000, .i32⟩ : BufTy).Contents (Elt F)),
    binary main_v271 main_v324 main_v325 (cmpi .slt : (⟨S2x100000, .i32⟩ : BufTy).Contents (Elt F) → (⟨S2x100000, .i32⟩ : BufTy).Contents (Elt F) → (⟨S2x100000, .i1⟩ : BufTy).Contents (Elt F)),
    nullary main_c_62 (constantI S_ 32 32#32),
    unary main_c_62 main_v326 (broadcastInDim S2x100000 ![] bcast_S_S2x100000 : (⟨S_, .i32⟩ : BufTy).Contents (Elt F) → (⟨S2x100000, .i32⟩ : BufTy).Contents (Elt F)),
    binary main_v271 main_v326 main_v327 (addi : (⟨S2x100000, .i32⟩ : BufTy).Contents (Elt F) → (⟨S2x100000, .i32⟩ : BufTy).Contents (Elt F) → (⟨S2x100000, .i32⟩ : BufTy).Contents (Elt F)),
    ternary main_v325 main_v327 main_v271 main_v328 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_63 (constantI S_ 32 0#32),
    unary main_c_63 main_v329 (broadcastInDim S2x100000 ![] bcast_S_S2x100000 : (⟨S_, .i32⟩ : BufTy).Contents (Elt F) → (⟨S2x100000, .i32⟩ : BufTy).Contents (Elt F)),
    binary main_v273 main_v329 main_v330 (cmpi .slt : (⟨S2x100000, .i32⟩ : BufTy).Contents (Elt F) → (⟨S2x100000, .i32⟩ : BufTy).Contents (Elt F) → (⟨S2x100000, .i1⟩ : BufTy).Contents (Elt F)),
    nullary main_c_64 (constantI S_ 32 32#32),
    unary main_c_64 main_v331 (broadcastInDim S2x100000 ![] bcast_S_S2x100000 : (⟨S_, .i32⟩ : BufTy).Contents (Elt F) → (⟨S2x100000, .i32⟩ : BufTy).Contents (Elt F)),
    binary main_v273 main_v331 main_v332 (addi : (⟨S2x100000, .i32⟩ : BufTy).Contents (Elt F) → (⟨S2x100000, .i32⟩ : BufTy).Contents (Elt F) → (⟨S2x100000, .i32⟩ : BufTy).Contents (Elt F)),
    ternary main_v330 main_v332 main_v273 main_v333 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v323 main_v334 (broadcastInDim S2x100000x1 ![0, 1] bcast_S2x100000_S2x100000x1_0_1 : (⟨S2x100000, .i32⟩ : BufTy).Contents (Elt F) → (⟨S2x100000x1, .i32⟩ : BufTy).Contents (Elt F)),
    unary main_v328 main_v335 (broadcastInDim S2x100000x1 ![0, 1] bcast_S2x100000_S2x100000x1_0_1 : (⟨S2x100000, .i32⟩ : BufTy).Contents (Elt F) → (⟨S2x100000x1, .i32⟩ : BufTy).Contents (Elt F)),
    unary main_v333 main_v336 (broadcastInDim S2x100000x1 ![0, 1] bcast_S2x100000_S2x100000x1_0_1 : (⟨S2x100000, .i32⟩ : BufTy).Contents (Elt F) → (⟨S2x100000x1, .i32⟩ : BufTy).Contents (Elt F)),
    nary ![main_v334, main_v335, main_v336] main_v337 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v337 main_v338 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_65 (constantI S_ 32 0#32),
    unary main_c_65 main_v339 (broadcastInDim S2x100000 ![] bcast_S_S2x100000 : (⟨S_, .i32⟩ : BufTy).Contents (Elt F) → (⟨S2x100000, .i32⟩ : BufTy).Contents (Elt F)),
    binary main_v269 main_v339 main_v340 (cmpi .slt : (⟨S2x100000, .i32⟩ : BufTy).Contents (Elt F) → (⟨S2x100000, .i32⟩ : BufTy).Contents (Elt F) → (⟨S2x100000, .i1⟩ : BufTy).Contents (Elt F)),
    nullary main_c_66 (constantI S_ 32 32#32),
    unary main_c_66 main_v341 (broadcastInDim S2x100000 ![] bcast_S_S2x100000 : (⟨S_, .i32⟩ : BufTy).Contents (Elt F) → (⟨S2x100000, .i32⟩ : BufTy).Contents (Elt F)),
    binary main_v269 main_v341 main_v342 (addi : (⟨S2x100000, .i32⟩ : BufTy).Contents (Elt F) → (⟨S2x100000, .i32⟩ : BufTy).Contents (Elt F) → (⟨S2x100000, .i32⟩ : BufTy).Contents (Elt F)),
    ternary main_v340 main_v342 main_v269 main_v343 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_67 (constantI S_ 32 0#32),
    unary main_c_67 main_v344 (broadcastInDim S2x100000 ![] bcast_S_S2x100000 : (⟨S_, .i32⟩ : BufTy).Contents (Elt F) → (⟨S2x100000, .i32⟩ : BufTy).Contents (Elt F)),
    binary main_v272 main_v344 main_v345 (cmpi .slt : (⟨S2x100000, .i32⟩ : BufTy).Contents (Elt F) → (⟨S2x100000, .i32⟩ : BufTy).Contents (Elt F) → (⟨S2x100000, .i1⟩ : BufTy).Contents (Elt F)),
    nullary main_c_68 (constantI S_ 32 32#32),
    unary main_c_68 main_v346 (broadcastInDim S2x100000 ![] bcast_S_S2x100000 : (⟨S_, .i32⟩ : BufTy).Contents (Elt F) → (⟨S2x100000, .i32⟩ : BufTy).Contents (Elt F)),
    binary main_v272 main_v346 main_v347 (addi : (⟨S2x100000, .i32⟩ : BufTy).Contents (Elt F) → (⟨S2x100000, .i32⟩ : BufTy).Contents (Elt F) → (⟨S2x100000, .i32⟩ : BufTy).Contents (Elt F)),
    ternary main_v345 main_v347 main_v272 main_v348 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)) ]

/-- Each touches TensorCore references only. -/
theorem ops07_sub : (ops07 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

set_option maxHeartbeats 4000000 in
/-- None allocates a buffer: each determines its result. -/
theorem ops07_fresh : ∀ op ∈ (ops07 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops07_noarg : (ops07 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops07_W : List (Ref sig .tc) := [main_v303, main_c_55, main_v304, main_v305, main_c_56, main_v306, main_v307, main_v308, main_c_57, main_v309, main_v310, main_c_58, main_v311, main_v312, main_v313, main_v314, main_v315, main_v316, main_v317, main_v318, main_c_59, main_v319, main_v320, main_c_60, main_v321, main_v322, main_v323, main_c_61, main_v324, main_v325, main_c_62, main_v326, main_v327, main_v328, main_c_63, main_v329, main_v330, main_c_64, main_v331, main_v332, main_v333, main_v334, main_v335, main_v336, main_v337, main_v338, main_c_65, main_v339, main_v340, main_c_66, main_v341, main_v342, main_v343, main_c_67, main_v344, main_v345, main_c_68, main_v346, main_v347, main_v348]

set_option maxHeartbeats 4000000 in
/-- Each operation writes only its result, which is in that list. -/
theorem ops07_writes : (ops07 : List (HloOp τ sig (Elt F))).Forall fun op => op.writes ⊆ (ops07_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops08.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 431 … 490 of the reference's @main, in order. -/
abbrev ops08 : List (HloOp τ sig (Elt F)) :=
  [ nullary main_c_69 (constantI S_ 32 0#32),
    unary main_c_69 main_v349 (broadcastInDim S2x100000 ![] bcast_S_S2x100000 : (⟨S_, .i32⟩ : BufTy).Contents (Elt F) → (⟨S2x100000, .i32⟩ : BufTy).Contents (Elt F)),
    binary main_v273 main_v349 main_v350 (cmpi .slt : (⟨S2x100000, .i32⟩ : BufTy).Contents (Elt F) → (⟨S2x100000, .i32⟩ : BufTy).Contents (Elt F) → (⟨S2x100000, .i1⟩ : BufTy).Contents (Elt F)),
    nullary main_c_70 (constantI S_ 32 32#32),
    unary main_c_70 main_v351 (broadcastInDim S2x100000 ![] bcast_S_S2x100000 : (⟨S_, .i32⟩ : BufTy).Contents (Elt F) → (⟨S2x100000, .i32⟩ : BufTy).Contents (Elt F)),
    binary main_v273 main_v351 main_v352 (addi : (⟨S2x100000, .i32⟩ : BufTy).Contents (Elt F) → (⟨S2x100000, .i32⟩ : BufTy).Contents (Elt F) → (⟨S2x100000, .i32⟩ : BufTy).Contents (Elt F)),
    ternary main_v350 main_v352 main_v273 main_v353 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v343 main_v354 (broadcastInDim S2x100000x1 ![0, 1] bcast_S2x100000_S2x100000x1_0_1 : (⟨S2x100000, .i32⟩ : BufTy).Contents (Elt F) → (⟨S2x100000x1, .i32⟩ : BufTy).Contents (Elt F)),
    unary main_v348 main_v355 (broadcastInDim S2x100000x1 ![0, 1] bcast_S2x100000_S2x100000x1_0_1 : (⟨S2x100000, .i32⟩ : BufTy).Contents (Elt F) → (⟨S2x100000x1, .i32⟩ : BufTy).Contents (Elt F)),
    unary main_v353 main_v356 (broadcastInDim S2x100000x1 ![0, 1] bcast_S2x100000_S2x100000x1_0_1 : (⟨S2x100000, .i32⟩ : BufTy).Contents (Elt F) → (⟨S2x100000x1, .i32⟩ : BufTy).Contents (Elt F)),
    nary ![main_v354, main_v355, main_v356] main_v357 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v357 main_v358 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_71 (constantI S_ 32 0#32),
    unary main_c_71 main_v359 (broadcastInDim S2x100000 ![] bcast_S_S2x100000 : (⟨S_, .i32⟩ : BufTy).Contents (Elt F) → (⟨S2x100000, .i32⟩ : BufTy).Contents (Elt F)),
    binary main_v270 main_v359 main_v360 (cmpi .slt : (⟨S2x100000, .i32⟩ : BufTy).Contents (Elt F) → (⟨S2x100000, .i32⟩ : BufTy).Contents (Elt F) → (⟨S2x100000, .i1⟩ : BufTy).Contents (Elt F)),
    nullary main_c_72 (constantI S_ 32 32#32),
    unary main_c_72 main_v361 (broadcastInDim S2x100000 ![] bcast_S_S2x100000 : (⟨S_, .i32⟩ : BufTy).Contents (Elt F) → (⟨S2x100000, .i32⟩ : BufTy).Contents (Elt F)),
    binary main_v270 main_v361 main_v362 (addi : (⟨S2x100000, .i32⟩ : BufTy).Contents (Elt F) → (⟨S2x100000, .i32⟩ : BufTy).Contents (Elt F) → (⟨S2x100000, .i32⟩ : BufTy).Contents (Elt F)),
    ternary main_v360 main_v362 main_v270 main_v363 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_73 (constantI S_ 32 0#32),
    unary main_c_73 main_v364 (broadcastInDim S2x100000 ![] bcast_S_S2x100000 : (⟨S_, .i32⟩ : BufTy).Contents (Elt F) → (⟨S2x100000, .i32⟩ : BufTy).Contents (Elt F)),
    binary main_v272 main_v364 main_v365 (cmpi .slt : (⟨S2x100000, .i32⟩ : BufTy).Contents (Elt F) → (⟨S2x100000, .i32⟩ : BufTy).Contents (Elt F) → (⟨S2x100000, .i1⟩ : BufTy).Contents (Elt F)),
    nullary main_c_74 (constantI S_ 32 32#32),
    unary main_c_74 main_v366 (broadcastInDim S2x100000 ![] bcast_S_S2x100000 : (⟨S_, .i32⟩ : BufTy).Contents (Elt F) → (⟨S2x100000, .i32⟩ : BufTy).Contents (Elt F)),
    binary main_v272 main_v366 main_v367 (addi : (⟨S2x100000, .i32⟩ : BufTy).Contents (Elt F) → (⟨S2x100000, .i32⟩ : BufTy).Contents (Elt F) → (⟨S2x100000, .i32⟩ : BufTy).Contents (Elt F)),
    ternary main_v365 main_v367 main_v272 main_v368 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_75 (constantI S_ 32 0#32),
    unary main_c_75 main_v369 (broadcastInDim S2x100000 ![] bcast_S_S2x100000 : (⟨S_, .i32⟩ : BufTy).Contents (Elt F) → (⟨S2x100000, .i32⟩ : BufTy).Contents (Elt F)),
    binary main_v273 main_v369 main_v370 (cmpi .slt : (⟨S2x100000, .i32⟩ : BufTy).Contents (Elt F) → (⟨S2x100000, .i32⟩ : BufTy).Contents (Elt F) → (⟨S2x100000, .i1⟩ : BufTy).Contents (Elt F)),
    nullary main_c_76 (constantI S_ 32 32#32),
    unary main_c_76 main_v371 (broadcastInDim S2x100000 ![] bcast_S_S2x100000 : (⟨S_, .i32⟩ : BufTy).Contents (Elt F) → (⟨S2x100000, .i32⟩ : BufTy).Contents (Elt F)),
    binary main_v273 main_v371 main_v372 (addi : (⟨S2x100000, .i32⟩ : BufTy).Contents (Elt F) → (⟨S2x100000, .i32⟩ : BufTy).Contents (Elt F) → (⟨S2x100000, .i32⟩ : BufTy).Contents (Elt F)),
    ternary main_v370 main_v372 main_v273 main_v373 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v363 main_v374 (broadcastInDim S2x100000x1 ![0, 1] bcast_S2x100000_S2x100000x1_0_1 : (⟨S2x100000, .i32⟩ : BufTy).Contents (Elt F) → (⟨S2x100000x1, .i32⟩ : BufTy).Contents (Elt F)),
    unary main_v368 main_v375 (broadcastInDim S2x100000x1 ![0, 1] bcast_S2x100000_S2x100000x1_0_1 : (⟨S2x100000, .i32⟩ : BufTy).Contents (Elt F) → (⟨S2x100000x1, .i32⟩ : BufTy).Contents (Elt F)),
    unary main_v373 main_v376 (broadcastInDim S2x100000x1 ![0, 1] bcast_S2x100000_S2x100000x1_0_1 : (⟨S2x100000, .i32⟩ : BufTy).Contents (Elt F) → (⟨S2x100000x1, .i32⟩ : BufTy).Contents (Elt F)),
    nary ![main_v374, main_v375, main_v376] main_v377 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v377 main_v378 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    unary main_v278 main_v379 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v378 main_v379 main_v380 (mulf : (⟨S2x100000x64, .f32⟩ : BufTy).Contents (Elt F) → (⟨S2x100000x64, .f32⟩ : BufTy).Contents (Elt F) → (⟨S2x100000x64, .f32⟩ : BufTy).Contents (Elt F)),
    unary main_v282 main_v381 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v358 main_v381 main_v382 (mulf : (⟨S2x100000x64, .f32⟩ : BufTy).Contents (Elt F) → (⟨S2x100000x64, .f32⟩ : BufTy).Contents (Elt F) → (⟨S2x100000x64, .f32⟩ : BufTy).Contents (Elt F)),
    binary main_v380 main_v382 main_v383 (addf : (⟨S2x100000x64, .f32⟩ : BufTy).Contents (Elt F) → (⟨S2x100000x64, .f32⟩ : BufTy).Contents (Elt F) → (⟨S2x100000x64, .f32⟩ : BufTy).Contents (Elt F)),
    unary main_v286 main_v384 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v383 main_v384 main_v385 (mulf : (⟨S2x100000x64, .f32⟩ : BufTy).Contents (Elt F) → (⟨S2x100000x64, .f32⟩ : BufTy).Contents (Elt F) → (⟨S2x100000x64, .f32⟩ : BufTy).Contents (Elt F)),
    unary main_v278 main_v386 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v338 main_v386 main_v387 (mulf : (⟨S2x100000x64, .f32⟩ : BufTy).Contents (Elt F) → (⟨S2x100000x64, .f32⟩ : BufTy).Contents (Elt F) → (⟨S2x100000x64, .f32⟩ : BufTy).Contents (Elt F)),
    unary main_v282 main_v388 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v318 main_v388 main_v389 (mulf : (⟨S2x100000x64, .f32⟩ : BufTy).Contents (Elt F) → (⟨S2x100000x64, .f32⟩ : BufTy).Contents (Elt F) → (⟨S2x100000x64, .f32⟩ : BufTy).Contents (Elt F)),
    binary main_v387 main_v389 main_v390 (addf : (⟨S2x100000x64, .f32⟩ : BufTy).Contents (Elt F) → (⟨S2x100000x64, .f32⟩ : BufTy).Contents (Elt F) → (⟨S2x100000x64, .f32⟩ : BufTy).Contents (Elt F)),
    unary main_v290 main_v391 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v390 main_v391 main_v392 (mulf : (⟨S2x100000x64, .f32⟩ : BufTy).Contents (Elt F) → (⟨S2x100000x64, .f32⟩ : BufTy).Contents (Elt F) → (⟨S2x100000x64, .f32⟩ : BufTy).Contents (Elt F)),
    binary main_v385 main_v392 main_v393 (addf : (⟨S2x100000x64, .f32⟩ : BufTy).Contents (Elt F) → (⟨S2x100000x64, .f32⟩ : BufTy).Contents (Elt F) → (⟨S2x100000x64, .f32⟩ : BufTy).Contents (Elt F)),
    nullary main_c_77 (constantI S_ 32 0#32),
    unary main_c_77 main_v394 (broadcastInDim S2x100000 ![] bcast_S_S2x100000 : (⟨S_, .i32⟩ : BufTy).Contents (Elt F) → (⟨S2x100000, .i32⟩ : BufTy).Contents (Elt F)),
    binary main_v269 main_v394 main_v395 (cmpi .slt : (⟨S2x100000, .i32⟩ : BufTy).Contents (Elt F) → (⟨S2x100000, .i32⟩ : BufTy).Contents (Elt F) → (⟨S2x100000, .i1⟩ : BufTy).Contents (Elt F)),
    nullary main_c_78 (constantI S_ 32 32#32),
    unary main_c_78 main_v396 (broadcastInDim S2x100000 ![] bcast_S_S2x100000 : (⟨S_, .i32⟩ : BufTy).Contents (Elt F) → (⟨S2x100000, .i32⟩ : BufTy).Contents (Elt F)),
    binary main_v269 main_v396 main_v397 (addi : (⟨S2x100000, .i32⟩ : BufTy).Contents (Elt F) → (⟨S2x100000, .i32⟩ : BufTy).Contents (Elt F) → (⟨S2x100000, .i32⟩ : BufTy).Contents (Elt F)),
    ternary main_v395 main_v397 main_v269 main_v398 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)) ]

/-- Each touches TensorCore references only. -/
theorem ops08_sub : (ops08 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

set_option maxHeartbeats 4000000 in
/-- None allocates a buffer: each determines its result. -/
theorem ops08_fresh : ∀ op ∈ (ops08 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops08_noarg : (ops08 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops08_W : List (Ref sig .tc) := [main_c_69, main_v349, main_v350, main_c_70, main_v351, main_v352, main_v353, main_v354, main_v355, main_v356, main_v357, main_v358, main_c_71, main_v359, main_v360, main_c_72, main_v361, main_v362, main_v363, main_c_73, main_v364, main_v365, main_c_74, main_v366, main_v367, main_v368, main_c_75, main_v369, main_v370, main_c_76, main_v371, main_v372, main_v373, main_v374, main_v375, main_v376, main_v377, main_v378, main_v379, main_v380, main_v381, main_v382, main_v383, main_v384, main_v385, main_v386, main_v387, main_v388, main_v389, main_v390, main_v391, main_v392, main_v393, main_c_77, main_v394, main_v395, main_c_78, main_v396, main_v397, main_v398]

set_option maxHeartbeats 4000000 in
/-- Each operation writes only its result, which is in that list. -/
theorem ops08_writes : (ops08 : List (HloOp τ sig (Elt F))).Forall fun op => op.writes ⊆ (ops08_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops09.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 491 … 550 of the reference's @main, in order. -/
abbrev ops09 : List (HloOp τ sig (Elt F)) :=
  [ nullary main_c_79 (constantI S_ 32 0#32),
    unary main_c_79 main_v399 (broadcastInDim S2x100000 ![] bcast_S_S2x100000 : (⟨S_, .i32⟩ : BufTy).Contents (Elt F) → (⟨S2x100000, .i32⟩ : BufTy).Contents (Elt F)),
    binary main_v271 main_v399 main_v400 (cmpi .slt : (⟨S2x100000, .i32⟩ : BufTy).Contents (Elt F) → (⟨S2x100000, .i32⟩ : BufTy).Contents (Elt F) → (⟨S2x100000, .i1⟩ : BufTy).Contents (Elt F)),
    nullary main_c_80 (constantI S_ 32 32#32),
    unary main_c_80 main_v401 (broadcastInDim S2x100000 ![] bcast_S_S2x100000 : (⟨S_, .i32⟩ : BufTy).Contents (Elt F) → (⟨S2x100000, .i32⟩ : BufTy).Contents (Elt F)),
    binary main_v271 main_v401 main_v402 (addi : (⟨S2x100000, .i32⟩ : BufTy).Contents (Elt F) → (⟨S2x100000, .i32⟩ : BufTy).Contents (Elt F) → (⟨S2x100000, .i32⟩ : BufTy).Contents (Elt F)),
    ternary main_v400 main_v402 main_v271 main_v403 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_81 (constantI S_ 32 0#32),
    unary main_c_81 main_v404 (broadcastInDim S2x100000 ![] bcast_S_S2x100000 : (⟨S_, .i32⟩ : BufTy).Contents (Elt F) → (⟨S2x100000, .i32⟩ : BufTy).Contents (Elt F)),
    binary main_v274 main_v404 main_v405 (cmpi .slt : (⟨S2x100000, .i32⟩ : BufTy).Contents (Elt F) → (⟨S2x100000, .i32⟩ : BufTy).Contents (Elt F) → (⟨S2x100000, .i1⟩ : BufTy).Contents (Elt F)),
    nullary main_c_82 (constantI S_ 32 32#32),
    unary main_c_82 main_v406 (broadcastInDim S2x100000 ![] bcast_S_S2x100000 : (⟨S_, .i32⟩ : BufTy).Contents (Elt F) → (⟨S2x100000, .i32⟩ : BufTy).Contents (Elt F)),
    binary main_v274 main_v406 main_v407 (addi : (⟨S2x100000, .i32⟩ : BufTy).Contents (Elt F) → (⟨S2x100000, .i32⟩ : BufTy).Contents (Elt F) → (⟨S2x100000, .i32⟩ : BufTy).Contents (Elt F)),
    ternary main_v405 main_v407 main_v274 main_v408 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v398 main_v409 (broadcastInDim S2x100000x1 ![0, 1] bcast_S2x100000_S2x100000x1_0_1 : (⟨S2x100000, .i32⟩ : BufTy).Contents (Elt F) → (⟨S2x100000x1, .i32⟩ : BufTy).Contents (Elt F)),
    unary main_v403 main_v410 (broadcastInDim S2x100000x1 ![0, 1] bcast_S2x100000_S2x100000x1_0_1 : (⟨S2x100000, .i32⟩ : BufTy).Contents (Elt F) → (⟨S2x100000x1, .i32⟩ : BufTy).Contents (Elt F)),
    unary main_v408 main_v411 (broadcastInDim S2x100000x1 ![0, 1] bcast_S2x100000_S2x100000x1_0_1 : (⟨S2x100000, .i32⟩ : BufTy).Contents (Elt F) → (⟨S2x100000x1, .i32⟩ : BufTy).Contents (Elt F)),
    nary ![main_v409, main_v410, main_v411] main_v412 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v412 main_v413 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_83 (constantI S_ 32 0#32),
    unary main_c_83 main_v414 (broadcastInDim S2x100000 ![] bcast_S_S2x100000 : (⟨S_, .i32⟩ : BufTy).Contents (Elt F) → (⟨S2x100000, .i32⟩ : BufTy).Contents (Elt F)),
    binary main_v270 main_v414 main_v415 (cmpi .slt : (⟨S2x100000, .i32⟩ : BufTy).Contents (Elt F) → (⟨S2x100000, .i32⟩ : BufTy).Contents (Elt F) → (⟨S2x100000, .i1⟩ : BufTy).Contents (Elt F)),
    nullary main_c_84 (constantI S_ 32 32#32),
    unary main_c_84 main_v416 (broadcastInDim S2x100000 ![] bcast_S_S2x100000 : (⟨S_, .i32⟩ : BufTy).Contents (Elt F) → (⟨S2x100000, .i32⟩ : BufTy).Contents (Elt F)),
    binary main_v270 main_v416 main_v417 (addi : (⟨S2x100000, .i32⟩ : BufTy).Contents (Elt F) → (⟨S2x100000, .i32⟩ : BufTy).Contents (Elt F) → (⟨S2x100000, .i32⟩ : BufTy).Contents (Elt F)),
    ternary main_v415 main_v417 main_v270 main_v418 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_85 (constantI S_ 32 0#32),
    unary main_c_85 main_v419 (broadcastInDim S2x100000 ![] bcast_S_S2x100000 : (⟨S_, .i32⟩ : BufTy).Contents (Elt F) → (⟨S2x100000, .i32⟩ : BufTy).Contents (Elt F)),
    binary main_v271 main_v419 main_v420 (cmpi .slt : (⟨S2x100000, .i32⟩ : BufTy).Contents (Elt F) → (⟨S2x100000, .i32⟩ : BufTy).Contents (Elt F) → (⟨S2x100000, .i1⟩ : BufTy).Contents (Elt F)),
    nullary main_c_86 (constantI S_ 32 32#32),
    unary main_c_86 main_v421 (broadcastInDim S2x100000 ![] bcast_S_S2x100000 : (⟨S_, .i32⟩ : BufTy).Contents (Elt F) → (⟨S2x100000, .i32⟩ : BufTy).Contents (Elt F)),
    binary main_v271 main_v421 main_v422 (addi : (⟨S2x100000, .i32⟩ : BufTy).Contents (Elt F) → (⟨S2x100000, .i32⟩ : BufTy).Contents (Elt F) → (⟨S2x100000, .i32⟩ : BufTy).Contents (Elt F)),
    ternary main_v420 main_v422 main_v271 main_v423 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_87 (constantI S_ 32 0#32),
    unary main_c_87 main_v424 (broadcastInDim S2x100000 ![] bcast_S_S2x100000 : (⟨S_, .i32⟩ : BufTy).Contents (Elt F) → (⟨S2x100000, .i32⟩ : BufTy).Contents (Elt F)),
    binary main_v274 main_v424 main_v425 (cmpi .slt : (⟨S2x100000, .i32⟩ : BufTy).Contents (Elt F) → (⟨S2x100000, .i32⟩ : BufTy).Contents (Elt F) → (⟨S2x100000, .i1⟩ : BufTy).Contents (Elt F)),
    nullary main_c_88 (constantI S_ 32 32#32),
    unary main_c_88 main_v426 (broadcastInDim S2x100000 ![] bcast_S_S2x100000 : (⟨S_, .i32⟩ : BufTy).Contents (Elt F) → (⟨S2x100000, .i32⟩ : BufTy).Contents (Elt F)),
    binary main_v274 main_v426 main_v427 (addi : (⟨S2x100000, .i32⟩ : BufTy).Contents (Elt F) → (⟨S2x100000, .i32⟩ : BufTy).Contents (Elt F) → (⟨S2x100000, .i32⟩ : BufTy).Contents (Elt F)),
    ternary main_v425 main_v427 main_v274 main_v428 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v418 main_v429 (broadcastInDim S2x100000x1 ![0, 1] bcast_S2x100000_S2x100000x1_0_1 : (⟨S2x100000, .i32⟩ : BufTy).Contents (Elt F) → (⟨S2x100000x1, .i32⟩ : BufTy).Contents (Elt F)),
    unary main_v423 main_v430 (broadcastInDim S2x100000x1 ![0, 1] bcast_S2x100000_S2x100000x1_0_1 : (⟨S2x100000, .i32⟩ : BufTy).Contents (Elt F) → (⟨S2x100000x1, .i32⟩ : BufTy).Contents (Elt F)),
    unary main_v428 main_v431 (broadcastInDim S2x100000x1 ![0, 1] bcast_S2x100000_S2x100000x1_0_1 : (⟨S2x100000, .i32⟩ : BufTy).Contents (Elt F) → (⟨S2x100000x1, .i32⟩ : BufTy).Contents (Elt F)),
    nary ![main_v429, main_v430, main_v431] main_v432 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v432 main_v433 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_89 (constantI S_ 32 0#32),
    unary main_c_89 main_v434 (broadcastInDim S2x100000 ![] bcast_S_S2x100000 : (⟨S_, .i32⟩ : BufTy).Contents (Elt F) → (⟨S2x100000, .i32⟩ : BufTy).Contents (Elt F)),
    binary main_v269 main_v434 main_v435 (cmpi .slt : (⟨S2x100000, .i32⟩ : BufTy).Contents (Elt F) → (⟨S2x100000, .i32⟩ : BufTy).Contents (Elt F) → (⟨S2x100000, .i1⟩ : BufTy).Contents (Elt F)),
    nullary main_c_90 (constantI S_ 32 32#32),
    unary main_c_90 main_v436 (broadcastInDim S2x100000 ![] bcast_S_S2x100000 : (⟨S_, .i32⟩ : BufTy).Contents (Elt F) → (⟨S2x100000, .i32⟩ : BufTy).Contents (Elt F)),
    binary main_v269 main_v436 main_v437 (addi : (⟨S2x100000, .i32⟩ : BufTy).Contents (Elt F) → (⟨S2x100000, .i32⟩ : BufTy).Contents (Elt F) → (⟨S2x100000, .i32⟩ : BufTy).Contents (Elt F)),
    ternary main_v435 main_v437 main_v269 main_v438 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_91 (constantI S_ 32 0#32),
    unary main_c_91 main_v439 (broadcastInDim S2x100000 ![] bcast_S_S2x100000 : (⟨S_, .i32⟩ : BufTy).Contents (Elt F) → (⟨S2x100000, .i32⟩ : BufTy).Contents (Elt F)),
    binary main_v272 main_v439 main_v440 (cmpi .slt : (⟨S2x100000, .i32⟩ : BufTy).Contents (Elt F) → (⟨S2x100000, .i32⟩ : BufTy).Contents (Elt F) → (⟨S2x100000, .i1⟩ : BufTy).Contents (Elt F)),
    nullary main_c_92 (constantI S_ 32 32#32),
    unary main_c_92 main_v441 (broadcastInDim S2x100000 ![] bcast_S_S2x100000 : (⟨S_, .i32⟩ : BufTy).Contents (Elt F) → (⟨S2x100000, .i32⟩ : BufTy).Contents (Elt F)),
    binary main_v272 main_v441 main_v442 (addi : (⟨S2x100000, .i32⟩ : BufTy).Contents (Elt F) → (⟨S2x100000, .i32⟩ : BufTy).Contents (Elt F) → (⟨S2x100000, .i32⟩ : BufTy).Contents (Elt F)),
    ternary main_v440 main_v442 main_v272 main_v443 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_93 (constantI S_ 32 0#32) ]

/-- Each touches TensorCore references only. -/
theorem ops09_sub : (ops09 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub ..⟩

set_option maxHeartbeats 4000000 in
/-- None allocates a buffer: each determines its result. -/
theorem ops09_fresh : ∀ op ∈ (ops09 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops09_noarg : (ops09 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops09_W : List (Ref sig .tc) := [main_c_79, main_v399, main_v400, main_c_80, main_v401, main_v402, main_v403, main_c_81, main_v404, main_v405, main_c_82, main_v406, main_v407, main_v408, main_v409, main_v410, main_v411, main_v412, main_v413, main_c_83, main_v414, main_v415, main_c_84, main_v416, main_v417, main_v418, main_c_85, main_v419, main_v420, main_c_86, main_v421, main_v422, main_v423, main_c_87, main_v424, main_v425, main_c_88, main_v426, main_v427, main_v428, main_v429, main_v430, main_v431, main_v432, main_v433, main_c_89, main_v434, main_v435, main_c_90, main_v436, main_v437, main_v438, main_c_91, main_v439, main_v440, main_c_92, main_v441, main_v442, main_v443, main_c_93]

set_option maxHeartbeats 4000000 in
/-- Each operation writes only its result, which is in that list. -/
theorem ops09_writes : (ops09 : List (HloOp τ sig (Elt F))).Forall fun op => op.writes ⊆ (ops09_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops10.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 551 … 607 of the reference's @main, in order. -/
abbrev ops10 : List (HloOp τ sig (Elt F)) :=
  [ unary main_c_93 main_v444 (broadcastInDim S2x100000 ![] bcast_S_S2x100000 : (⟨S_, .i32⟩ : BufTy).Contents (Elt F) → (⟨S2x100000, .i32⟩ : BufTy).Contents (Elt F)),
    binary main_v274 main_v444 main_v445 (cmpi .slt : (⟨S2x100000, .i32⟩ : BufTy).Contents (Elt F) → (⟨S2x100000, .i32⟩ : BufTy).Contents (Elt F) → (⟨S2x100000, .i1⟩ : BufTy).Contents (Elt F)),
    nullary main_c_94 (constantI S_ 32 32#32),
    unary main_c_94 main_v446 (broadcastInDim S2x100000 ![] bcast_S_S2x100000 : (⟨S_, .i32⟩ : BufTy).Contents (Elt F) → (⟨S2x100000, .i32⟩ : BufTy).Contents (Elt F)),
    binary main_v274 main_v446 main_v447 (addi : (⟨S2x100000, .i32⟩ : BufTy).Contents (Elt F) → (⟨S2x100000, .i32⟩ : BufTy).Contents (Elt F) → (⟨S2x100000, .i32⟩ : BufTy).Contents (Elt F)),
    ternary main_v445 main_v447 main_v274 main_v448 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v438 main_v449 (broadcastInDim S2x100000x1 ![0, 1] bcast_S2x100000_S2x100000x1_0_1 : (⟨S2x100000, .i32⟩ : BufTy).Contents (Elt F) → (⟨S2x100000x1, .i32⟩ : BufTy).Contents (Elt F)),
    unary main_v443 main_v450 (broadcastInDim S2x100000x1 ![0, 1] bcast_S2x100000_S2x100000x1_0_1 : (⟨S2x100000, .i32⟩ : BufTy).Contents (Elt F) → (⟨S2x100000x1, .i32⟩ : BufTy).Contents (Elt F)),
    unary main_v448 main_v451 (broadcastInDim S2x100000x1 ![0, 1] bcast_S2x100000_S2x100000x1_0_1 : (⟨S2x100000, .i32⟩ : BufTy).Contents (Elt F) → (⟨S2x100000x1, .i32⟩ : BufTy).Contents (Elt F)),
    nary ![main_v449, main_v450, main_v451] main_v452 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v452 main_v453 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_95 (constantI S_ 32 0#32),
    unary main_c_95 main_v454 (broadcastInDim S2x100000 ![] bcast_S_S2x100000 : (⟨S_, .i32⟩ : BufTy).Contents (Elt F) → (⟨S2x100000, .i32⟩ : BufTy).Contents (Elt F)),
    binary main_v270 main_v454 main_v455 (cmpi .slt : (⟨S2x100000, .i32⟩ : BufTy).Contents (Elt F) → (⟨S2x100000, .i32⟩ : BufTy).Contents (Elt F) → (⟨S2x100000, .i1⟩ : BufTy).Contents (Elt F)),
    nullary main_c_96 (constantI S_ 32 32#32),
    unary main_c_96 main_v456 (broadcastInDim S2x100000 ![] bcast_S_S2x100000 : (⟨S_, .i32⟩ : BufTy).Contents (Elt F) → (⟨S2x100000, .i32⟩ : BufTy).Contents (Elt F)),
    binary main_v270 main_v456 main_v457 (addi : (⟨S2x100000, .i32⟩ : BufTy).Contents (Elt F) → (⟨S2x100000, .i32⟩ : BufTy).Contents (Elt F) → (⟨S2x100000, .i32⟩ : BufTy).Contents (Elt F)),
    ternary main_v455 main_v457 main_v270 main_v458 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_97 (constantI S_ 32 0#32),
    unary main_c_97 main_v459 (broadcastInDim S2x100000 ![] bcast_S_S2x100000 : (⟨S_, .i32⟩ : BufTy).Contents (Elt F) → (⟨S2x100000, .i32⟩ : BufTy).Contents (Elt F)),
    binary main_v272 main_v459 main_v460 (cmpi .slt : (⟨S2x100000, .i32⟩ : BufTy).Contents (Elt F) → (⟨S2x100000, .i32⟩ : BufTy).Contents (Elt F) → (⟨S2x100000, .i1⟩ : BufTy).Contents (Elt F)),
    nullary main_c_98 (constantI S_ 32 32#32),
    unary main_c_98 main_v461 (broadcastInDim S2x100000 ![] bcast_S_S2x100000 : (⟨S_, .i32⟩ : BufTy).Contents (Elt F) → (⟨S2x100000, .i32⟩ : BufTy).Contents (Elt F)),
    binary main_v272 main_v461 main_v462 (addi : (⟨S2x100000, .i32⟩ : BufTy).Contents (Elt F) → (⟨S2x100000, .i32⟩ : BufTy).Contents (Elt F) → (⟨S2x100000, .i32⟩ : BufTy).Contents (Elt F)),
    ternary main_v460 main_v462 main_v272 main_v463 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_99 (constantI S_ 32 0#32),
    unary main_c_99 main_v464 (broadcastInDim S2x100000 ![] bcast_S_S2x100000 : (⟨S_, .i32⟩ : BufTy).Contents (Elt F) → (⟨S2x100000, .i32⟩ : BufTy).Contents (Elt F)),
    binary main_v274 main_v464 main_v465 (cmpi .slt : (⟨S2x100000, .i32⟩ : BufTy).Contents (Elt F) → (⟨S2x100000, .i32⟩ : BufTy).Contents (Elt F) → (⟨S2x100000, .i1⟩ : BufTy).Contents (Elt F)),
    nullary main_c_100 (constantI S_ 32 32#32),
    unary main_c_100 main_v466 (broadcastInDim S2x100000 ![] bcast_S_S2x100000 : (⟨S_, .i32⟩ : BufTy).Contents (Elt F) → (⟨S2x100000, .i32⟩ : BufTy).Contents (Elt F)),
    binary main_v274 main_v466 main_v467 (addi : (⟨S2x100000, .i32⟩ : BufTy).Contents (Elt F) → (⟨S2x100000, .i32⟩ : BufTy).Contents (Elt F) → (⟨S2x100000, .i32⟩ : BufTy).Contents (Elt F)),
    ternary main_v465 main_v467 main_v274 main_v468 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v458 main_v469 (broadcastInDim S2x100000x1 ![0, 1] bcast_S2x100000_S2x100000x1_0_1 : (⟨S2x100000, .i32⟩ : BufTy).Contents (Elt F) → (⟨S2x100000x1, .i32⟩ : BufTy).Contents (Elt F)),
    unary main_v463 main_v470 (broadcastInDim S2x100000x1 ![0, 1] bcast_S2x100000_S2x100000x1_0_1 : (⟨S2x100000, .i32⟩ : BufTy).Contents (Elt F) → (⟨S2x100000x1, .i32⟩ : BufTy).Contents (Elt F)),
    unary main_v468 main_v471 (broadcastInDim S2x100000x1 ![0, 1] bcast_S2x100000_S2x100000x1_0_1 : (⟨S2x100000, .i32⟩ : BufTy).Contents (Elt F) → (⟨S2x100000x1, .i32⟩ : BufTy).Contents (Elt F)),
    nary ![main_v469, main_v470, main_v471] main_v472 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v472 main_v473 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    unary main_v278 main_v474 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v473 main_v474 main_v475 (mulf : (⟨S2x100000x64, .f32⟩ : BufTy).Contents (Elt F) → (⟨S2x100000x64, .f32⟩ : BufTy).Contents (Elt F) → (⟨S2x100000x64, .f32⟩ : BufTy).Contents (Elt F)),
    unary main_v282 main_v476 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v453 main_v476 main_v477 (mulf : (⟨S2x100000x64, .f32⟩ : BufTy).Contents (Elt F) → (⟨S2x100000x64, .f32⟩ : BufTy).Contents (Elt F) → (⟨S2x100000x64, .f32⟩ : BufTy).Contents (Elt F)),
    binary main_v475 main_v477 main_v478 (addf : (⟨S2x100000x64, .f32⟩ : BufTy).Contents (Elt F) → (⟨S2x100000x64, .f32⟩ : BufTy).Contents (Elt F) → (⟨S2x100000x64, .f32⟩ : BufTy).Contents (Elt F)),
    unary main_v286 main_v479 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v478 main_v479 main_v480 (mulf : (⟨S2x100000x64, .f32⟩ : BufTy).Contents (Elt F) → (⟨S2x100000x64, .f32⟩ : BufTy).Contents (Elt F) → (⟨S2x100000x64, .f32⟩ : BufTy).Contents (Elt F)),
    unary main_v278 main_v481 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v433 main_v481 main_v482 (mulf : (⟨S2x100000x64, .f32⟩ : BufTy).Contents (Elt F) → (⟨S2x100000x64, .f32⟩ : BufTy).Contents (Elt F) → (⟨S2x100000x64, .f32⟩ : BufTy).Contents (Elt F)),
    unary main_v282 main_v483 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v413 main_v483 main_v484 (mulf : (⟨S2x100000x64, .f32⟩ : BufTy).Contents (Elt F) → (⟨S2x100000x64, .f32⟩ : BufTy).Contents (Elt F) → (⟨S2x100000x64, .f32⟩ : BufTy).Contents (Elt F)),
    binary main_v482 main_v484 main_v485 (addf : (⟨S2x100000x64, .f32⟩ : BufTy).Contents (Elt F) → (⟨S2x100000x64, .f32⟩ : BufTy).Contents (Elt F) → (⟨S2x100000x64, .f32⟩ : BufTy).Contents (Elt F)),
    unary main_v290 main_v486 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v485 main_v486 main_v487 (mulf : (⟨S2x100000x64, .f32⟩ : BufTy).Contents (Elt F) → (⟨S2x100000x64, .f32⟩ : BufTy).Contents (Elt F) → (⟨S2x100000x64, .f32⟩ : BufTy).Contents (Elt F)),
    binary main_v480 main_v487 main_v488 (addf : (⟨S2x100000x64, .f32⟩ : BufTy).Contents (Elt F) → (⟨S2x100000x64, .f32⟩ : BufTy).Contents (Elt F) → (⟨S2x100000x64, .f32⟩ : BufTy).Contents (Elt F)),
    unary main_v294 main_v489 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v488 main_v489 main_v490 (mulf : (⟨S2x100000x64, .f32⟩ : BufTy).Contents (Elt F) → (⟨S2x100000x64, .f32⟩ : BufTy).Contents (Elt F) → (⟨S2x100000x64, .f32⟩ : BufTy).Contents (Elt F)),
    unary main_v298 main_v491 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v393 main_v491 main_v492 (mulf : (⟨S2x100000x64, .f32⟩ : BufTy).Contents (Elt F) → (⟨S2x100000x64, .f32⟩ : BufTy).Contents (Elt F) → (⟨S2x100000x64, .f32⟩ : BufTy).Contents (Elt F)),
    binary main_v490 main_v492 main_v493 (addf : (⟨S2x100000x64, .f32⟩ : BufTy).Contents (Elt F) → (⟨S2x100000x64, .f32⟩ : BufTy).Contents (Elt F) → (⟨S2x100000x64, .f32⟩ : BufTy).Contents (Elt F)) ]

/-- Each touches TensorCore references only. -/
theorem ops10_sub : (ops10 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., unary_bufs_sub .., binary_bufs_sub .., binary_bufs_sub ..⟩

set_option maxHeartbeats 4000000 in
/-- None allocates a buffer: each determines its result. -/
theorem ops10_fresh : ∀ op ∈ (ops10 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops10_noarg : (ops10 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops10_W : List (Ref sig .tc) := [main_v444, main_v445, main_c_94, main_v446, main_v447, main_v448, main_v449, main_v450, main_v451, main_v452, main_v453, main_c_95, main_v454, main_v455, main_c_96, main_v456, main_v457, main_v458, main_c_97, main_v459, main_v460, main_c_98, main_v461, main_v462, main_v463, main_c_99, main_v464, main_v465, main_c_100, main_v466, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493]

set_option maxHeartbeats 4000000 in
/-- Each operation writes only its result, which is in that list. -/
theorem ops10_writes : (ops10 : List (HloOp τ sig (Elt F))).Forall fun op => op.writes ⊆ (ops10_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops11.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 608 … 610 of the reference's @main, in order. -/
abbrev ops11 : List (HloOp τ sig (Elt F)) :=
  [ unary main_cst_1 main_v494 (broadcastInDim S1x1x3 ![2] bcast_S3_S1x1x3_2 : (⟨S3, .f32⟩ : BufTy).Contents (Elt F) → (⟨S1x1x3, .f32⟩ : BufTy).Contents (Elt F)),
    unary main_v494 main_v495 (broadcastInDim S2x100000x3 ![0, 1, 2] bcast_S1x1x3_S2x100000x3_0_1_2 : (⟨S1x1x3, .f32⟩ : BufTy).Contents (Elt F) → (⟨S2x100000x3, .f32⟩ : BufTy).Contents (Elt F)),
    binary main_arg5 main_v495 main_v496 (mulf : (⟨S2x100000x3, .f32⟩ : BufTy).Contents (Elt F) → (⟨S2x100000x3, .f32⟩ : BufTy).Contents (Elt F) → (⟨S2x100000x3, .f32⟩ : BufTy).Contents (Elt F)) ]

/-- Each touches TensorCore references only. -/
theorem ops11_sub : (ops11 : List (HloOp τ sig (Elt F))).Forall fun op => op.bufs ⊆ tcRefs τ sig :=
  ⟨unary_bufs_sub .., unary_bufs_sub .., binary_bufs_sub ..⟩

set_option maxHeartbeats 4000000 in
/-- None allocates a buffer: each determines its result. -/
theorem ops11_fresh : ∀ op ∈ (ops11 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops11_noarg : (ops11 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops11_W : List (Ref sig .tc) := [main_v494, main_v495, main_v496]

set_option maxHeartbeats 4000000 in
/-- Each operation writes only its result, which is in that list. -/
theorem ops11_writes : (ops11 : List (HloOp τ sig (Elt F))).Forall fun op => op.writes ⊆ (ops11_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops12.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 611 … 675 of the reference's @main, in order. -/
abbrev ops12 : List (HloOp τ sig (Elt F)) :=
  [ nullary main_cst_101 (constant S_ .f32 0x3C23D70A#32),
    nullary main_cst_102 (constant S_ .f32 0x416FD70A#32),
    TRef.unary (TRef.of (T := ⟨S_, .f32⟩) main_cst_101) (TRef.of (T := ⟨S_, .f32⟩) main_call2_v0) id,
    TRef.unary (TRef.of (T := ⟨S_, .f32⟩) main_call2_v0) (TRef.of (T := ⟨S2x100000x3, .f32⟩) main_call2_v1) (broadcastInDim S2x100000x3 ![] bcast_S_S2x100000x3),
    TRef.binary (TRef.of (T := ⟨S2x100000x3, .f32⟩) main_call2_v1) (TRef.of (T := ⟨S2x100000x3, .f32⟩) main_v496) (TRef.of (T := ⟨S2x100000x3, .f32⟩) main_call2_v2) maximumf,
    TRef.unary (TRef.of (T := ⟨S_, .f32⟩) main_cst_102) (TRef.of (T := ⟨S_, .f32⟩) main_call2_v3) id,
    TRef.unary (TRef.of (T := ⟨S_, .f32⟩) main_call2_v3) (TRef.of (T := ⟨S2x100000x3, .f32⟩) main_call2_v4) (broadcastInDim S2x100000x3 ![] bcast_S_S2x100000x3),
    TRef.binary (TRef.of (T := ⟨S2x100000x3, .f32⟩) main_call2_v4) (TRef.of (T := ⟨S2x100000x3, .f32⟩) main_call2_v2) (TRef.of (T := ⟨S2x100000x3, .f32⟩) main_v497) minimumf,
    unary main_v497 main_v498 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v498 main_v499 rfl shapeCasts_S2x100000x1_S2x100000,
    unary main_v499 main_v500 (Host.floor : (⟨S2x100000, .f32⟩ : BufTy).Contents (Elt F) → (⟨S2x100000, .f32⟩ : BufTy).Contents (Elt F)),
    unary main_v497 main_v501 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v501 main_v502 rfl shapeCasts_S2x100000x1_S2x100000,
    unary main_v502 main_v503 (Host.ceil : (⟨S2x100000, .f32⟩ : BufTy).Contents (Elt F) → (⟨S2x100000, .f32⟩ : BufTy).Contents (Elt F)),
    unary main_v497 main_v504 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v504 main_v505 rfl shapeCasts_S2x100000x1_S2x100000,
    unary main_v505 main_v506 (Host.floor : (⟨S2x100000, .f32⟩ : BufTy).Contents (Elt F) → (⟨S2x100000, .f32⟩ : BufTy).Contents (Elt F)),
    unary main_v497 main_v507 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v507 main_v508 rfl shapeCasts_S2x100000x1_S2x100000,
    unary main_v508 main_v509 (Host.ceil : (⟨S2x100000, .f32⟩ : BufTy).Contents (Elt F) → (⟨S2x100000, .f32⟩ : BufTy).Contents (Elt F)),
    unary main_v497 main_v510 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v510 main_v511 rfl shapeCasts_S2x100000x1_S2x100000,
    unary main_v511 main_v512 (Host.floor : (⟨S2x100000, .f32⟩ : BufTy).Contents (Elt F) → (⟨S2x100000, .f32⟩ : BufTy).Contents (Elt F)),
    unary main_v497 main_v513 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v513 main_v514 rfl shapeCasts_S2x100000x1_S2x100000,
    unary main_v514 main_v515 (Host.ceil : (⟨S2x100000, .f32⟩ : BufTy).Contents (Elt F) → (⟨S2x100000, .f32⟩ : BufTy).Contents (Elt F)),
    unary main_v500 main_v516 (fptosi 32 : (⟨S2x100000, .f32⟩ : BufTy).Contents (Elt F) → (⟨S2x100000, .i32⟩ : BufTy).Contents (Elt F)),
    unary main_v503 main_v517 (fptosi 32 : (⟨S2x100000, .f32⟩ : BufTy).Contents (Elt F) → (⟨S2x100000, .i32⟩ : BufTy).Contents (Elt F)),
    unary main_v506 main_v518 (fptosi 32 : (⟨S2x100000, .f32⟩ : BufTy).Contents (Elt F) → (⟨S2x100000, .i32⟩ : BufTy).Contents (Elt F)),
    unary main_v509 main_v519 (fptosi 32 : (⟨S2x100000, .f32⟩ : BufTy).Contents (Elt F) → (⟨S2x100000, .i32⟩ : BufTy).Contents (Elt F)),
    unary main_v512 main_v520 (fptosi 32 : (⟨S2x100000, .f32⟩ : BufTy).Contents (Elt F) → (⟨S2x100000, .i32⟩ : BufTy).Contents (Elt F)),
    unary main_v515 main_v521 (fptosi 32 : (⟨S2x100000, .f32⟩ : BufTy).Contents (Elt F) → (⟨S2x100000, .i32⟩ : BufTy).Contents (Elt F)),
    unary main_v497 main_v522 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v522 main_v523 rfl shapeCasts_S2x100000x1_S2x100000,
    binary main_v523 main_v500 main_v524 (subf : (⟨S2x100000, .f32⟩ : BufTy).Contents (Elt F) → (⟨S2x100000, .f32⟩ : BufTy).Contents (Elt F) → (⟨S2x100000, .f32⟩ : BufTy).Contents (Elt F)),
    unary main_v524 main_v525 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v526 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v526 main_v527 rfl shapeCasts_S2x100000x1_S2x100000,
    binary main_v503 main_v527 main_v528 (subf : (⟨S2x100000, .f32⟩ : BufTy).Contents (Elt F) → (⟨S2x100000, .f32⟩ : BufTy).Contents (Elt F) → (⟨S2x100000, .f32⟩ : BufTy).Contents (Elt F)),
    unary main_v528 main_v529 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v530 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v530 main_v531 rfl shapeCasts_S2x100000x1_S2x100000,
    binary main_v531 main_v506 main_v532 (subf : (⟨S2x100000, .f32⟩ : BufTy).Contents (Elt F) → (⟨S2x100000, .f32⟩ : BufTy).Contents (Elt F) → (⟨S2x100000, .f32⟩ : BufTy).Contents (Elt F)),
    unary main_v532 main_v533 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v534 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v534 main_v535 rfl shapeCasts_S2x100000x1_S2x100000,
    binary main_v509 main_v535 main_v536 (subf : (⟨S2x100000, .f32⟩ : BufTy).Contents (Elt F) → (⟨S2x100000, .f32⟩ : BufTy).Contents (Elt F) → (⟨S2x100000, .f32⟩ : BufTy).Contents (Elt F)),
    unary main_v536 main_v537 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v538 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v538 main_v539 rfl shapeCasts_S2x100000x1_S2x100000,
    binary main_v539 main_v512 main_v540 (subf : (⟨S2x100000, .f32⟩ : BufTy).Contents (Elt F) → (⟨S2x100000, .f32⟩ : BufTy).Contents (Elt F) → (⟨S2x100000, .f32⟩ : BufTy).Contents (Elt F)),
    unary main_v540 main_v541 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v542 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v542 main_v543 rfl shapeCasts_S2x100000x1_S2x100000,
    binary main_v515 main_v543 main_v544 (subf : (⟨S2x100000, .f32⟩ : BufTy).Contents (Elt F) → (⟨S2x100000, .f32⟩ : BufTy).Contents (Elt F) → (⟨S2x100000, .f32⟩ : BufTy).Contents (Elt F)),
    unary main_v544 main_v545 (broadcastInDim S2x100000x1 ![0, 1] bcast_S2x100000_S2x100000x1_0_1 : (⟨S2x100000, .f32⟩ : BufTy).Contents (Elt F) → (⟨S2x100000x1, .f32⟩ : BufTy).Contents (Elt F)),
    nullary main_c_103 (constantI S_ 32 0#32),
    unary main_c_103 main_v546 (broadcastInDim S2x100000 ![] bcast_S_S2x100000 : (⟨S_, .i32⟩ : BufTy).Contents (Elt F) → (⟨S2x100000, .i32⟩ : BufTy).Contents (Elt F)),
    binary main_v516 main_v546 main_v547 (cmpi .slt : (⟨S2x100000, .i32⟩ : BufTy).Contents (Elt F) → (⟨S2x100000, .i32⟩ : BufTy).Contents (Elt F) → (⟨S2x100000, .i1⟩ : BufTy).Contents (Elt F)),
    nullary main_c_104 (constantI S_ 32 16#32),
    unary main_c_104 main_v548 (broadcastInDim S2x100000 ![] bcast_S_S2x100000 : (⟨S_, .i32⟩ : BufTy).Contents (Elt F) → (⟨S2x100000, .i32⟩ : BufTy).Contents (Elt F)),
    binary main_v516 main_v548 main_v549 (addi : (⟨S2x100000, .i32⟩ : BufTy).Contents (Elt F) → (⟨S2x100000, .i32⟩ : BufTy).Contents (Elt F) → (⟨S2x100000, .i32⟩ : BufTy).Contents (Elt F)),
    ternary main_v547 main_v549 main_v516 main_v550 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_105 (constantI S_ 32 0#32),
    unary main_c_105 main_v551 (broadcastInDim S2x100000 ![] bcast_S_S2x100000 : (⟨S_, .i32⟩ : BufTy).Contents (Elt F) → (⟨S2x100000, .i32⟩ : BufTy).Contents (Elt F)) ]

/-- Each touches TensorCore references only. -/
theorem ops12_sub : (ops12 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., unary_bufs_sub .., unary_bufs_sub .., unary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub ..⟩

set_option maxHeartbeats 4000000 in
/-- None allocates a buffer: each determines its result. -/
theorem ops12_fresh : ∀ op ∈ (ops12 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops12_noarg : (ops12 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops12_W : List (Ref sig .tc) := [main_cst_101, main_cst_102, main_call2_v0, main_call2_v1, main_call2_v2, main_call2_v3, main_call2_v4, main_v497, main_v498, main_v499, main_v500, main_v501, main_v502, main_v503, main_v504, main_v505, main_v506, main_v507, main_v508, main_v509, main_v510, main_v511, main_v512, main_v513, main_v514, main_v515, main_v516, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_c_103, main_v546, main_v547, main_c_104, main_v548, main_v549, main_v550, main_c_105, main_v551]

set_option maxHeartbeats 4000000 in
/-- Each operation writes only its result, which is in that list. -/
theorem ops12_writes : (ops12 : List (HloOp τ sig (Elt F))).Forall fun op => op.writes ⊆ (ops12_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops13.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 676 … 735 of the reference's @main, in order. -/
abbrev ops13 : List (HloOp τ sig (Elt F)) :=
  [ binary main_v518 main_v551 main_v552 (cmpi .slt : (⟨S2x100000, .i32⟩ : BufTy).Contents (Elt F) → (⟨S2x100000, .i32⟩ : BufTy).Contents (Elt F) → (⟨S2x100000, .i1⟩ : BufTy).Contents (Elt F)),
    nullary main_c_106 (constantI S_ 32 16#32),
    unary main_c_106 main_v553 (broadcastInDim S2x100000 ![] bcast_S_S2x100000 : (⟨S_, .i32⟩ : BufTy).Contents (Elt F) → (⟨S2x100000, .i32⟩ : BufTy).Contents (Elt F)),
    binary main_v518 main_v553 main_v554 (addi : (⟨S2x100000, .i32⟩ : BufTy).Contents (Elt F) → (⟨S2x100000, .i32⟩ : BufTy).Contents (Elt F) → (⟨S2x100000, .i32⟩ : BufTy).Contents (Elt F)),
    ternary main_v552 main_v554 main_v518 main_v555 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_107 (constantI S_ 32 0#32),
    unary main_c_107 main_v556 (broadcastInDim S2x100000 ![] bcast_S_S2x100000 : (⟨S_, .i32⟩ : BufTy).Contents (Elt F) → (⟨S2x100000, .i32⟩ : BufTy).Contents (Elt F)),
    binary main_v520 main_v556 main_v557 (cmpi .slt : (⟨S2x100000, .i32⟩ : BufTy).Contents (Elt F) → (⟨S2x100000, .i32⟩ : BufTy).Contents (Elt F) → (⟨S2x100000, .i1⟩ : BufTy).Contents (Elt F)),
    nullary main_c_108 (constantI S_ 32 16#32),
    unary main_c_108 main_v558 (broadcastInDim S2x100000 ![] bcast_S_S2x100000 : (⟨S_, .i32⟩ : BufTy).Contents (Elt F) → (⟨S2x100000, .i32⟩ : BufTy).Contents (Elt F)),
    binary main_v520 main_v558 main_v559 (addi : (⟨S2x100000, .i32⟩ : BufTy).Contents (Elt F) → (⟨S2x100000, .i32⟩ : BufTy).Contents (Elt F) → (⟨S2x100000, .i32⟩ : BufTy).Contents (Elt F)),
    ternary main_v557 main_v559 main_v520 main_v560 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v550 main_v561 (broadcastInDim S2x100000x1 ![0, 1] bcast_S2x100000_S2x100000x1_0_1 : (⟨S2x100000, .i32⟩ : BufTy).Contents (Elt F) → (⟨S2x100000x1, .i32⟩ : BufTy).Contents (Elt F)),
    unary main_v555 main_v562 (broadcastInDim S2x100000x1 ![0, 1] bcast_S2x100000_S2x100000x1_0_1 : (⟨S2x100000, .i32⟩ : BufTy).Contents (Elt F) → (⟨S2x100000x1, .i32⟩ : BufTy).Contents (Elt F)),
    unary main_v560 main_v563 (broadcastInDim S2x100000x1 ![0, 1] bcast_S2x100000_S2x100000x1_0_1 : (⟨S2x100000, .i32⟩ : BufTy).Contents (Elt F) → (⟨S2x100000x1, .i32⟩ : BufTy).Contents (Elt F)),
    nary ![main_v561, main_v562, main_v563] main_v564 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v564 main_v565 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_109 (constantI S_ 32 0#32),
    unary main_c_109 main_v566 (broadcastInDim S2x100000 ![] bcast_S_S2x100000 : (⟨S_, .i32⟩ : BufTy).Contents (Elt F) → (⟨S2x100000, .i32⟩ : BufTy).Contents (Elt F)),
    binary main_v517 main_v566 main_v567 (cmpi .slt : (⟨S2x100000, .i32⟩ : BufTy).Contents (Elt F) → (⟨S2x100000, .i32⟩ : BufTy).Contents (Elt F) → (⟨S2x100000, .i1⟩ : BufTy).Contents (Elt F)),
    nullary main_c_110 (constantI S_ 32 16#32),
    unary main_c_110 main_v568 (broadcastInDim S2x100000 ![] bcast_S_S2x100000 : (⟨S_, .i32⟩ : BufTy).Contents (Elt F) → (⟨S2x100000, .i32⟩ : BufTy).Contents (Elt F)),
    binary main_v517 main_v568 main_v569 (addi : (⟨S2x100000, .i32⟩ : BufTy).Contents (Elt F) → (⟨S2x100000, .i32⟩ : BufTy).Contents (Elt F) → (⟨S2x100000, .i32⟩ : BufTy).Contents (Elt F)),
    ternary main_v567 main_v569 main_v517 main_v570 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_111 (constantI S_ 32 0#32),
    unary main_c_111 main_v571 (broadcastInDim S2x100000 ![] bcast_S_S2x100000 : (⟨S_, .i32⟩ : BufTy).Contents (Elt F) → (⟨S2x100000, .i32⟩ : BufTy).Contents (Elt F)),
    binary main_v518 main_v571 main_v572 (cmpi .slt : (⟨S2x100000, .i32⟩ : BufTy).Contents (Elt F) → (⟨S2x100000, .i32⟩ : BufTy).Contents (Elt F) → (⟨S2x100000, .i1⟩ : BufTy).Contents (Elt F)),
    nullary main_c_112 (constantI S_ 32 16#32),
    unary main_c_112 main_v573 (broadcastInDim S2x100000 ![] bcast_S_S2x100000 : (⟨S_, .i32⟩ : BufTy).Contents (Elt F) → (⟨S2x100000, .i32⟩ : BufTy).Contents (Elt F)),
    binary main_v518 main_v573 main_v574 (addi : (⟨S2x100000, .i32⟩ : BufTy).Contents (Elt F) → (⟨S2x100000, .i32⟩ : BufTy).Contents (Elt F) → (⟨S2x100000, .i32⟩ : BufTy).Contents (Elt F)),
    ternary main_v572 main_v574 main_v518 main_v575 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_113 (constantI S_ 32 0#32),
    unary main_c_113 main_v576 (broadcastInDim S2x100000 ![] bcast_S_S2x100000 : (⟨S_, .i32⟩ : BufTy).Contents (Elt F) → (⟨S2x100000, .i32⟩ : BufTy).Contents (Elt F)),
    binary main_v520 main_v576 main_v577 (cmpi .slt : (⟨S2x100000, .i32⟩ : BufTy).Contents (Elt F) → (⟨S2x100000, .i32⟩ : BufTy).Contents (Elt F) → (⟨S2x100000, .i1⟩ : BufTy).Contents (Elt F)),
    nullary main_c_114 (constantI S_ 32 16#32),
    unary main_c_114 main_v578 (broadcastInDim S2x100000 ![] bcast_S_S2x100000 : (⟨S_, .i32⟩ : BufTy).Contents (Elt F) → (⟨S2x100000, .i32⟩ : BufTy).Contents (Elt F)),
    binary main_v520 main_v578 main_v579 (addi : (⟨S2x100000, .i32⟩ : BufTy).Contents (Elt F) → (⟨S2x100000, .i32⟩ : BufTy).Contents (Elt F) → (⟨S2x100000, .i32⟩ : BufTy).Contents (Elt F)),
    ternary main_v577 main_v579 main_v520 main_v580 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v570 main_v581 (broadcastInDim S2x100000x1 ![0, 1] bcast_S2x100000_S2x100000x1_0_1 : (⟨S2x100000, .i32⟩ : BufTy).Contents (Elt F) → (⟨S2x100000x1, .i32⟩ : BufTy).Contents (Elt F)),
    unary main_v575 main_v582 (broadcastInDim S2x100000x1 ![0, 1] bcast_S2x100000_S2x100000x1_0_1 : (⟨S2x100000, .i32⟩ : BufTy).Contents (Elt F) → (⟨S2x100000x1, .i32⟩ : BufTy).Contents (Elt F)),
    unary main_v580 main_v583 (broadcastInDim S2x100000x1 ![0, 1] bcast_S2x100000_S2x100000x1_0_1 : (⟨S2x100000, .i32⟩ : BufTy).Contents (Elt F) → (⟨S2x100000x1, .i32⟩ : BufTy).Contents (Elt F)),
    nary ![main_v581, main_v582, main_v583] main_v584 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v584 main_v585 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_115 (constantI S_ 32 0#32),
    unary main_c_115 main_v586 (broadcastInDim S2x100000 ![] bcast_S_S2x100000 : (⟨S_, .i32⟩ : BufTy).Contents (Elt F) → (⟨S2x100000, .i32⟩ : BufTy).Contents (Elt F)),
    binary main_v516 main_v586 main_v587 (cmpi .slt : (⟨S2x100000, .i32⟩ : BufTy).Contents (Elt F) → (⟨S2x100000, .i32⟩ : BufTy).Contents (Elt F) → (⟨S2x100000, .i1⟩ : BufTy).Contents (Elt F)),
    nullary main_c_116 (constantI S_ 32 16#32),
    unary main_c_116 main_v588 (broadcastInDim S2x100000 ![] bcast_S_S2x100000 : (⟨S_, .i32⟩ : BufTy).Contents (Elt F) → (⟨S2x100000, .i32⟩ : BufTy).Contents (Elt F)),
    binary main_v516 main_v588 main_v589 (addi : (⟨S2x100000, .i32⟩ : BufTy).Contents (Elt F) → (⟨S2x100000, .i32⟩ : BufTy).Contents (Elt F) → (⟨S2x100000, .i32⟩ : BufTy).Contents (Elt F)),
    ternary main_v587 main_v589 main_v516 main_v590 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_117 (constantI S_ 32 0#32),
    unary main_c_117 main_v591 (broadcastInDim S2x100000 ![] bcast_S_S2x100000 : (⟨S_, .i32⟩ : BufTy).Contents (Elt F) → (⟨S2x100000, .i32⟩ : BufTy).Contents (Elt F)),
    binary main_v519 main_v591 main_v592 (cmpi .slt : (⟨S2x100000, .i32⟩ : BufTy).Contents (Elt F) → (⟨S2x100000, .i32⟩ : BufTy).Contents (Elt F) → (⟨S2x100000, .i1⟩ : BufTy).Contents (Elt F)),
    nullary main_c_118 (constantI S_ 32 16#32),
    unary main_c_118 main_v593 (broadcastInDim S2x100000 ![] bcast_S_S2x100000 : (⟨S_, .i32⟩ : BufTy).Contents (Elt F) → (⟨S2x100000, .i32⟩ : BufTy).Contents (Elt F)),
    binary main_v519 main_v593 main_v594 (addi : (⟨S2x100000, .i32⟩ : BufTy).Contents (Elt F) → (⟨S2x100000, .i32⟩ : BufTy).Contents (Elt F) → (⟨S2x100000, .i32⟩ : BufTy).Contents (Elt F)),
    ternary main_v592 main_v594 main_v519 main_v595 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_119 (constantI S_ 32 0#32),
    unary main_c_119 main_v596 (broadcastInDim S2x100000 ![] bcast_S_S2x100000 : (⟨S_, .i32⟩ : BufTy).Contents (Elt F) → (⟨S2x100000, .i32⟩ : BufTy).Contents (Elt F)),
    binary main_v520 main_v596 main_v597 (cmpi .slt : (⟨S2x100000, .i32⟩ : BufTy).Contents (Elt F) → (⟨S2x100000, .i32⟩ : BufTy).Contents (Elt F) → (⟨S2x100000, .i1⟩ : BufTy).Contents (Elt F)) ]

/-- Each touches TensorCore references only. -/
theorem ops13_sub : (ops13 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

set_option maxHeartbeats 4000000 in
/-- None allocates a buffer: each determines its result. -/
theorem ops13_fresh : ∀ op ∈ (ops13 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops13_noarg : (ops13 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops13_W : List (Ref sig .tc) := [main_v552, main_c_106, main_v553, main_v554, main_v555, main_c_107, main_v556, main_v557, main_c_108, main_v558, main_v559, main_v560, main_v561, main_v562, main_v563, main_v564, main_v565, main_c_109, main_v566, main_v567, main_c_110, main_v568, main_v569, main_v570, main_c_111, main_v571, main_v572, main_c_112, main_v573, main_v574, main_v575, main_c_113, main_v576, main_v577, main_c_114, main_v578, main_v579, main_v580, main_v581, main_v582, main_v583, main_v584, main_v585, main_c_115, main_v586, main_v587, main_c_116, main_v588, main_v589, main_v590, main_c_117, main_v591, main_v592, main_c_118, main_v593, main_v594, main_v595, main_c_119, main_v596, main_v597]

set_option maxHeartbeats 4000000 in
/-- Each operation writes only its result, which is in that list. -/
theorem ops13_writes : (ops13 : List (HloOp τ sig (Elt F))).Forall fun op => op.writes ⊆ (ops13_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops14.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 736 … 795 of the reference's @main, in order. -/
abbrev ops14 : List (HloOp τ sig (Elt F)) :=
  [ nullary main_c_120 (constantI S_ 32 16#32),
    unary main_c_120 main_v598 (broadcastInDim S2x100000 ![] bcast_S_S2x100000 : (⟨S_, .i32⟩ : BufTy).Contents (Elt F) → (⟨S2x100000, .i32⟩ : BufTy).Contents (Elt F)),
    binary main_v520 main_v598 main_v599 (addi : (⟨S2x100000, .i32⟩ : BufTy).Contents (Elt F) → (⟨S2x100000, .i32⟩ : BufTy).Contents (Elt F) → (⟨S2x100000, .i32⟩ : BufTy).Contents (Elt F)),
    ternary main_v597 main_v599 main_v520 main_v600 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v590 main_v601 (broadcastInDim S2x100000x1 ![0, 1] bcast_S2x100000_S2x100000x1_0_1 : (⟨S2x100000, .i32⟩ : BufTy).Contents (Elt F) → (⟨S2x100000x1, .i32⟩ : BufTy).Contents (Elt F)),
    unary main_v595 main_v602 (broadcastInDim S2x100000x1 ![0, 1] bcast_S2x100000_S2x100000x1_0_1 : (⟨S2x100000, .i32⟩ : BufTy).Contents (Elt F) → (⟨S2x100000x1, .i32⟩ : BufTy).Contents (Elt F)),
    unary main_v600 main_v603 (broadcastInDim S2x100000x1 ![0, 1] bcast_S2x100000_S2x100000x1_0_1 : (⟨S2x100000, .i32⟩ : BufTy).Contents (Elt F) → (⟨S2x100000x1, .i32⟩ : BufTy).Contents (Elt F)),
    nary ![main_v601, main_v602, main_v603] main_v604 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v604 main_v605 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_121 (constantI S_ 32 0#32),
    unary main_c_121 main_v606 (broadcastInDim S2x100000 ![] bcast_S_S2x100000 : (⟨S_, .i32⟩ : BufTy).Contents (Elt F) → (⟨S2x100000, .i32⟩ : BufTy).Contents (Elt F)),
    binary main_v517 main_v606 main_v607 (cmpi .slt : (⟨S2x100000, .i32⟩ : BufTy).Contents (Elt F) → (⟨S2x100000, .i32⟩ : BufTy).Contents (Elt F) → (⟨S2x100000, .i1⟩ : BufTy).Contents (Elt F)),
    nullary main_c_122 (constantI S_ 32 16#32),
    unary main_c_122 main_v608 (broadcastInDim S2x100000 ![] bcast_S_S2x100000 : (⟨S_, .i32⟩ : BufTy).Contents (Elt F) → (⟨S2x100000, .i32⟩ : BufTy).Contents (Elt F)),
    binary main_v517 main_v608 main_v609 (addi : (⟨S2x100000, .i32⟩ : BufTy).Contents (Elt F) → (⟨S2x100000, .i32⟩ : BufTy).Contents (Elt F) → (⟨S2x100000, .i32⟩ : BufTy).Contents (Elt F)),
    ternary main_v607 main_v609 main_v517 main_v610 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_123 (constantI S_ 32 0#32),
    unary main_c_123 main_v611 (broadcastInDim S2x100000 ![] bcast_S_S2x100000 : (⟨S_, .i32⟩ : BufTy).Contents (Elt F) → (⟨S2x100000, .i32⟩ : BufTy).Contents (Elt F)),
    binary main_v519 main_v611 main_v612 (cmpi .slt : (⟨S2x100000, .i32⟩ : BufTy).Contents (Elt F) → (⟨S2x100000, .i32⟩ : BufTy).Contents (Elt F) → (⟨S2x100000, .i1⟩ : BufTy).Contents (Elt F)),
    nullary main_c_124 (constantI S_ 32 16#32),
    unary main_c_124 main_v613 (broadcastInDim S2x100000 ![] bcast_S_S2x100000 : (⟨S_, .i32⟩ : BufTy).Contents (Elt F) → (⟨S2x100000, .i32⟩ : BufTy).Contents (Elt F)),
    binary main_v519 main_v613 main_v614 (addi : (⟨S2x100000, .i32⟩ : BufTy).Contents (Elt F) → (⟨S2x100000, .i32⟩ : BufTy).Contents (Elt F) → (⟨S2x100000, .i32⟩ : BufTy).Contents (Elt F)),
    ternary main_v612 main_v614 main_v519 main_v615 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_125 (constantI S_ 32 0#32),
    unary main_c_125 main_v616 (broadcastInDim S2x100000 ![] bcast_S_S2x100000 : (⟨S_, .i32⟩ : BufTy).Contents (Elt F) → (⟨S2x100000, .i32⟩ : BufTy).Contents (Elt F)),
    binary main_v520 main_v616 main_v617 (cmpi .slt : (⟨S2x100000, .i32⟩ : BufTy).Contents (Elt F) → (⟨S2x100000, .i32⟩ : BufTy).Contents (Elt F) → (⟨S2x100000, .i1⟩ : BufTy).Contents (Elt F)),
    nullary main_c_126 (constantI S_ 32 16#32),
    unary main_c_126 main_v618 (broadcastInDim S2x100000 ![] bcast_S_S2x100000 : (⟨S_, .i32⟩ : BufTy).Contents (Elt F) → (⟨S2x100000, .i32⟩ : BufTy).Contents (Elt F)),
    binary main_v520 main_v618 main_v619 (addi : (⟨S2x100000, .i32⟩ : BufTy).Contents (Elt F) → (⟨S2x100000, .i32⟩ : BufTy).Contents (Elt F) → (⟨S2x100000, .i32⟩ : BufTy).Contents (Elt F)),
    ternary main_v617 main_v619 main_v520 main_v620 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v610 main_v621 (broadcastInDim S2x100000x1 ![0, 1] bcast_S2x100000_S2x100000x1_0_1 : (⟨S2x100000, .i32⟩ : BufTy).Contents (Elt F) → (⟨S2x100000x1, .i32⟩ : BufTy).Contents (Elt F)),
    unary main_v615 main_v622 (broadcastInDim S2x100000x1 ![0, 1] bcast_S2x100000_S2x100000x1_0_1 : (⟨S2x100000, .i32⟩ : BufTy).Contents (Elt F) → (⟨S2x100000x1, .i32⟩ : BufTy).Contents (Elt F)),
    unary main_v620 main_v623 (broadcastInDim S2x100000x1 ![0, 1] bcast_S2x100000_S2x100000x1_0_1 : (⟨S2x100000, .i32⟩ : BufTy).Contents (Elt F) → (⟨S2x100000x1, .i32⟩ : BufTy).Contents (Elt F)),
    nary ![main_v621, main_v622, main_v623] main_v624 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v624 main_v625 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    unary main_v525 main_v626 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v625 main_v626 main_v627 (mulf : (⟨S2x100000x128, .f32⟩ : BufTy).Contents (Elt F) → (⟨S2x100000x128, .f32⟩ : BufTy).Contents (Elt F) → (⟨S2x100000x128, .f32⟩ : BufTy).Contents (Elt F)),
    unary main_v529 main_v628 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v605 main_v628 main_v629 (mulf : (⟨S2x100000x128, .f32⟩ : BufTy).Contents (Elt F) → (⟨S2x100000x128, .f32⟩ : BufTy).Contents (Elt F) → (⟨S2x100000x128, .f32⟩ : BufTy).Contents (Elt F)),
    binary main_v627 main_v629 main_v630 (addf : (⟨S2x100000x128, .f32⟩ : BufTy).Contents (Elt F) → (⟨S2x100000x128, .f32⟩ : BufTy).Contents (Elt F) → (⟨S2x100000x128, .f32⟩ : BufTy).Contents (Elt F)),
    unary main_v533 main_v631 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v630 main_v631 main_v632 (mulf : (⟨S2x100000x128, .f32⟩ : BufTy).Contents (Elt F) → (⟨S2x100000x128, .f32⟩ : BufTy).Contents (Elt F) → (⟨S2x100000x128, .f32⟩ : BufTy).Contents (Elt F)),
    unary main_v525 main_v633 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v585 main_v633 main_v634 (mulf : (⟨S2x100000x128, .f32⟩ : BufTy).Contents (Elt F) → (⟨S2x100000x128, .f32⟩ : BufTy).Contents (Elt F) → (⟨S2x100000x128, .f32⟩ : BufTy).Contents (Elt F)),
    unary main_v529 main_v635 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v565 main_v635 main_v636 (mulf : (⟨S2x100000x128, .f32⟩ : BufTy).Contents (Elt F) → (⟨S2x100000x128, .f32⟩ : BufTy).Contents (Elt F) → (⟨S2x100000x128, .f32⟩ : BufTy).Contents (Elt F)),
    binary main_v634 main_v636 main_v637 (addf : (⟨S2x100000x128, .f32⟩ : BufTy).Contents (Elt F) → (⟨S2x100000x128, .f32⟩ : BufTy).Contents (Elt F) → (⟨S2x100000x128, .f32⟩ : BufTy).Contents (Elt F)),
    unary main_v537 main_v638 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v637 main_v638 main_v639 (mulf : (⟨S2x100000x128, .f32⟩ : BufTy).Contents (Elt F) → (⟨S2x100000x128, .f32⟩ : BufTy).Contents (Elt F) → (⟨S2x100000x128, .f32⟩ : BufTy).Contents (Elt F)),
    binary main_v632 main_v639 main_v640 (addf : (⟨S2x100000x128, .f32⟩ : BufTy).Contents (Elt F) → (⟨S2x100000x128, .f32⟩ : BufTy).Contents (Elt F) → (⟨S2x100000x128, .f32⟩ : BufTy).Contents (Elt F)),
    nullary main_c_127 (constantI S_ 32 0#32),
    unary main_c_127 main_v641 (broadcastInDim S2x100000 ![] bcast_S_S2x100000 : (⟨S_, .i32⟩ : BufTy).Contents (Elt F) → (⟨S2x100000, .i32⟩ : BufTy).Contents (Elt F)),
    binary main_v516 main_v641 main_v642 (cmpi .slt : (⟨S2x100000, .i32⟩ : BufTy).Contents (Elt F) → (⟨S2x100000, .i32⟩ : BufTy).Contents (Elt F) → (⟨S2x100000, .i1⟩ : BufTy).Contents (Elt F)),
    nullary main_c_128 (constantI S_ 32 16#32),
    unary main_c_128 main_v643 (broadcastInDim S2x100000 ![] bcast_S_S2x100000 : (⟨S_, .i32⟩ : BufTy).Contents (Elt F) → (⟨S2x100000, .i32⟩ : BufTy).Contents (Elt F)),
    binary main_v516 main_v643 main_v644 (addi : (⟨S2x100000, .i32⟩ : BufTy).Contents (Elt F) → (⟨S2x100000, .i32⟩ : BufTy).Contents (Elt F) → (⟨S2x100000, .i32⟩ : BufTy).Contents (Elt F)),
    ternary main_v642 main_v644 main_v516 main_v645 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_129 (constantI S_ 32 0#32),
    unary main_c_129 main_v646 (broadcastInDim S2x100000 ![] bcast_S_S2x100000 : (⟨S_, .i32⟩ : BufTy).Contents (Elt F) → (⟨S2x100000, .i32⟩ : BufTy).Contents (Elt F)),
    binary main_v518 main_v646 main_v647 (cmpi .slt : (⟨S2x100000, .i32⟩ : BufTy).Contents (Elt F) → (⟨S2x100000, .i32⟩ : BufTy).Contents (Elt F) → (⟨S2x100000, .i1⟩ : BufTy).Contents (Elt F)) ]

/-- Each touches TensorCore references only. -/
theorem ops14_sub : (ops14 : List (HloOp τ sig (Elt F))).Forall fun op => op.bufs ⊆ tcRefs τ sig :=
  ⟨nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

set_option maxHeartbeats 4000000 in
/-- None allocates a buffer: each determines its result. -/
theorem ops14_fresh : ∀ op ∈ (ops14 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops14_noarg : (ops14 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops14_W : List (Ref sig .tc) := [main_c_120, main_v598, main_v599, main_v600, main_v601, main_v602, main_v603, main_v604, main_v605, main_c_121, main_v606, main_v607, main_c_122, main_v608, main_v609, main_v610, main_c_123, main_v611, main_v612, main_c_124, main_v613, main_v614, main_v615, main_c_125, main_v616, main_v617, main_c_126, main_v618, main_v619, main_v620, main_v621, main_v622, main_v623, main_v624, main_v625, main_v626, main_v627, main_v628, main_v629, main_v630, main_v631, main_v632, main_v633, main_v634, main_v635, main_v636, main_v637, main_v638, main_v639, main_v640, main_c_127, main_v641, main_v642, main_c_128, main_v643, main_v644, main_v645, main_c_129, main_v646, main_v647]

set_option maxHeartbeats 4000000 in
/-- Each operation writes only its result, which is in that list. -/
theorem ops14_writes : (ops14 : List (HloOp τ sig (Elt F))).Forall fun op => op.writes ⊆ (ops14_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops15.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 796 … 855 of the reference's @main, in order. -/
abbrev ops15 : List (HloOp τ sig (Elt F)) :=
  [ nullary main_c_130 (constantI S_ 32 16#32),
    unary main_c_130 main_v648 (broadcastInDim S2x100000 ![] bcast_S_S2x100000 : (⟨S_, .i32⟩ : BufTy).Contents (Elt F) → (⟨S2x100000, .i32⟩ : BufTy).Contents (Elt F)),
    binary main_v518 main_v648 main_v649 (addi : (⟨S2x100000, .i32⟩ : BufTy).Contents (Elt F) → (⟨S2x100000, .i32⟩ : BufTy).Contents (Elt F) → (⟨S2x100000, .i32⟩ : BufTy).Contents (Elt F)),
    ternary main_v647 main_v649 main_v518 main_v650 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_131 (constantI S_ 32 0#32),
    unary main_c_131 main_v651 (broadcastInDim S2x100000 ![] bcast_S_S2x100000 : (⟨S_, .i32⟩ : BufTy).Contents (Elt F) → (⟨S2x100000, .i32⟩ : BufTy).Contents (Elt F)),
    binary main_v521 main_v651 main_v652 (cmpi .slt : (⟨S2x100000, .i32⟩ : BufTy).Contents (Elt F) → (⟨S2x100000, .i32⟩ : BufTy).Contents (Elt F) → (⟨S2x100000, .i1⟩ : BufTy).Contents (Elt F)),
    nullary main_c_132 (constantI S_ 32 16#32),
    unary main_c_132 main_v653 (broadcastInDim S2x100000 ![] bcast_S_S2x100000 : (⟨S_, .i32⟩ : BufTy).Contents (Elt F) → (⟨S2x100000, .i32⟩ : BufTy).Contents (Elt F)),
    binary main_v521 main_v653 main_v654 (addi : (⟨S2x100000, .i32⟩ : BufTy).Contents (Elt F) → (⟨S2x100000, .i32⟩ : BufTy).Contents (Elt F) → (⟨S2x100000, .i32⟩ : BufTy).Contents (Elt F)),
    ternary main_v652 main_v654 main_v521 main_v655 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v645 main_v656 (broadcastInDim S2x100000x1 ![0, 1] bcast_S2x100000_S2x100000x1_0_1 : (⟨S2x100000, .i32⟩ : BufTy).Contents (Elt F) → (⟨S2x100000x1, .i32⟩ : BufTy).Contents (Elt F)),
    unary main_v650 main_v657 (broadcastInDim S2x100000x1 ![0, 1] bcast_S2x100000_S2x100000x1_0_1 : (⟨S2x100000, .i32⟩ : BufTy).Contents (Elt F) → (⟨S2x100000x1, .i32⟩ : BufTy).Contents (Elt F)),
    unary main_v655 main_v658 (broadcastInDim S2x100000x1 ![0, 1] bcast_S2x100000_S2x100000x1_0_1 : (⟨S2x100000, .i32⟩ : BufTy).Contents (Elt F) → (⟨S2x100000x1, .i32⟩ : BufTy).Contents (Elt F)),
    nary ![main_v656, main_v657, main_v658] main_v659 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v659 main_v660 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_133 (constantI S_ 32 0#32),
    unary main_c_133 main_v661 (broadcastInDim S2x100000 ![] bcast_S_S2x100000 : (⟨S_, .i32⟩ : BufTy).Contents (Elt F) → (⟨S2x100000, .i32⟩ : BufTy).Contents (Elt F)),
    binary main_v517 main_v661 main_v662 (cmpi .slt : (⟨S2x100000, .i32⟩ : BufTy).Contents (Elt F) → (⟨S2x100000, .i32⟩ : BufTy).Contents (Elt F) → (⟨S2x100000, .i1⟩ : BufTy).Contents (Elt F)),
    nullary main_c_134 (constantI S_ 32 16#32),
    unary main_c_134 main_v663 (broadcastInDim S2x100000 ![] bcast_S_S2x100000 : (⟨S_, .i32⟩ : BufTy).Contents (Elt F) → (⟨S2x100000, .i32⟩ : BufTy).Contents (Elt F)),
    binary main_v517 main_v663 main_v664 (addi : (⟨S2x100000, .i32⟩ : BufTy).Contents (Elt F) → (⟨S2x100000, .i32⟩ : BufTy).Contents (Elt F) → (⟨S2x100000, .i32⟩ : BufTy).Contents (Elt F)),
    ternary main_v662 main_v664 main_v517 main_v665 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_135 (constantI S_ 32 0#32),
    unary main_c_135 main_v666 (broadcastInDim S2x100000 ![] bcast_S_S2x100000 : (⟨S_, .i32⟩ : BufTy).Contents (Elt F) → (⟨S2x100000, .i32⟩ : BufTy).Contents (Elt F)),
    binary main_v518 main_v666 main_v667 (cmpi .slt : (⟨S2x100000, .i32⟩ : BufTy).Contents (Elt F) → (⟨S2x100000, .i32⟩ : BufTy).Contents (Elt F) → (⟨S2x100000, .i1⟩ : BufTy).Contents (Elt F)),
    nullary main_c_136 (constantI S_ 32 16#32),
    unary main_c_136 main_v668 (broadcastInDim S2x100000 ![] bcast_S_S2x100000 : (⟨S_, .i32⟩ : BufTy).Contents (Elt F) → (⟨S2x100000, .i32⟩ : BufTy).Contents (Elt F)),
    binary main_v518 main_v668 main_v669 (addi : (⟨S2x100000, .i32⟩ : BufTy).Contents (Elt F) → (⟨S2x100000, .i32⟩ : BufTy).Contents (Elt F) → (⟨S2x100000, .i32⟩ : BufTy).Contents (Elt F)),
    ternary main_v667 main_v669 main_v518 main_v670 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_137 (constantI S_ 32 0#32),
    unary main_c_137 main_v671 (broadcastInDim S2x100000 ![] bcast_S_S2x100000 : (⟨S_, .i32⟩ : BufTy).Contents (Elt F) → (⟨S2x100000, .i32⟩ : BufTy).Contents (Elt F)),
    binary main_v521 main_v671 main_v672 (cmpi .slt : (⟨S2x100000, .i32⟩ : BufTy).Contents (Elt F) → (⟨S2x100000, .i32⟩ : BufTy).Contents (Elt F) → (⟨S2x100000, .i1⟩ : BufTy).Contents (Elt F)),
    nullary main_c_138 (constantI S_ 32 16#32),
    unary main_c_138 main_v673 (broadcastInDim S2x100000 ![] bcast_S_S2x100000 : (⟨S_, .i32⟩ : BufTy).Contents (Elt F) → (⟨S2x100000, .i32⟩ : BufTy).Contents (Elt F)),
    binary main_v521 main_v673 main_v674 (addi : (⟨S2x100000, .i32⟩ : BufTy).Contents (Elt F) → (⟨S2x100000, .i32⟩ : BufTy).Contents (Elt F) → (⟨S2x100000, .i32⟩ : BufTy).Contents (Elt F)),
    ternary main_v672 main_v674 main_v521 main_v675 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v665 main_v676 (broadcastInDim S2x100000x1 ![0, 1] bcast_S2x100000_S2x100000x1_0_1 : (⟨S2x100000, .i32⟩ : BufTy).Contents (Elt F) → (⟨S2x100000x1, .i32⟩ : BufTy).Contents (Elt F)),
    unary main_v670 main_v677 (broadcastInDim S2x100000x1 ![0, 1] bcast_S2x100000_S2x100000x1_0_1 : (⟨S2x100000, .i32⟩ : BufTy).Contents (Elt F) → (⟨S2x100000x1, .i32⟩ : BufTy).Contents (Elt F)),
    unary main_v675 main_v678 (broadcastInDim S2x100000x1 ![0, 1] bcast_S2x100000_S2x100000x1_0_1 : (⟨S2x100000, .i32⟩ : BufTy).Contents (Elt F) → (⟨S2x100000x1, .i32⟩ : BufTy).Contents (Elt F)),
    nary ![main_v676, main_v677, main_v678] main_v679 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v679 main_v680 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_139 (constantI S_ 32 0#32),
    unary main_c_139 main_v681 (broadcastInDim S2x100000 ![] bcast_S_S2x100000 : (⟨S_, .i32⟩ : BufTy).Contents (Elt F) → (⟨S2x100000, .i32⟩ : BufTy).Contents (Elt F)),
    binary main_v516 main_v681 main_v682 (cmpi .slt : (⟨S2x100000, .i32⟩ : BufTy).Contents (Elt F) → (⟨S2x100000, .i32⟩ : BufTy).Contents (Elt F) → (⟨S2x100000, .i1⟩ : BufTy).Contents (Elt F)),
    nullary main_c_140 (constantI S_ 32 16#32),
    unary main_c_140 main_v683 (broadcastInDim S2x100000 ![] bcast_S_S2x100000 : (⟨S_, .i32⟩ : BufTy).Contents (Elt F) → (⟨S2x100000, .i32⟩ : BufTy).Contents (Elt F)),
    binary main_v516 main_v683 main_v684 (addi : (⟨S2x100000, .i32⟩ : BufTy).Contents (Elt F) → (⟨S2x100000, .i32⟩ : BufTy).Contents (Elt F) → (⟨S2x100000, .i32⟩ : BufTy).Contents (Elt F)),
    ternary main_v682 main_v684 main_v516 main_v685 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_141 (constantI S_ 32 0#32),
    unary main_c_141 main_v686 (broadcastInDim S2x100000 ![] bcast_S_S2x100000 : (⟨S_, .i32⟩ : BufTy).Contents (Elt F) → (⟨S2x100000, .i32⟩ : BufTy).Contents (Elt F)),
    binary main_v519 main_v686 main_v687 (cmpi .slt : (⟨S2x100000, .i32⟩ : BufTy).Contents (Elt F) → (⟨S2x100000, .i32⟩ : BufTy).Contents (Elt F) → (⟨S2x100000, .i1⟩ : BufTy).Contents (Elt F)),
    nullary main_c_142 (constantI S_ 32 16#32),
    unary main_c_142 main_v688 (broadcastInDim S2x100000 ![] bcast_S_S2x100000 : (⟨S_, .i32⟩ : BufTy).Contents (Elt F) → (⟨S2x100000, .i32⟩ : BufTy).Contents (Elt F)),
    binary main_v519 main_v688 main_v689 (addi : (⟨S2x100000, .i32⟩ : BufTy).Contents (Elt F) → (⟨S2x100000, .i32⟩ : BufTy).Contents (Elt F) → (⟨S2x100000, .i32⟩ : BufTy).Contents (Elt F)),
    ternary main_v687 main_v689 main_v519 main_v690 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_143 (constantI S_ 32 0#32),
    unary main_c_143 main_v691 (broadcastInDim S2x100000 ![] bcast_S_S2x100000 : (⟨S_, .i32⟩ : BufTy).Contents (Elt F) → (⟨S2x100000, .i32⟩ : BufTy).Contents (Elt F)),
    binary main_v521 main_v691 main_v692 (cmpi .slt : (⟨S2x100000, .i32⟩ : BufTy).Contents (Elt F) → (⟨S2x100000, .i32⟩ : BufTy).Contents (Elt F) → (⟨S2x100000, .i1⟩ : BufTy).Contents (Elt F)),
    nullary main_c_144 (constantI S_ 32 16#32) ]

/-- Each touches TensorCore references only. -/
theorem ops15_sub : (ops15 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

set_option maxHeartbeats 4000000 in
/-- None allocates a buffer: each determines its result. -/
theorem ops15_fresh : ∀ op ∈ (ops15 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops15_noarg : (ops15 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops15_W : List (Ref sig .tc) := [main_c_130, main_v648, main_v649, main_v650, main_c_131, main_v651, main_v652, main_c_132, main_v653, main_v654, main_v655, main_v656, main_v657, main_v658, main_v659, main_v660, main_c_133, main_v661, main_v662, main_c_134, main_v663, main_v664, main_v665, main_c_135, main_v666, main_v667, main_c_136, main_v668, main_v669, main_v670, main_c_137, main_v671, main_v672, main_c_138, main_v673, main_v674, main_v675, main_v676, main_v677, main_v678, main_v679, main_v680, main_c_139, main_v681, main_v682, main_c_140, main_v683, main_v684, main_v685, main_c_141, main_v686, main_v687, main_c_142, main_v688, main_v689, main_v690, main_c_143, main_v691, main_v692, main_c_144]

set_option maxHeartbeats 4000000 in
/-- Each operation writes only its result, which is in that list. -/
theorem ops15_writes : (ops15 : List (HloOp τ sig (Elt F))).Forall fun op => op.writes ⊆ (ops15_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops16.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 856 … 909 of the reference's @main, in order. -/
abbrev ops16 : List (HloOp τ sig (Elt F)) :=
  [ unary main_c_144 main_v693 (broadcastInDim S2x100000 ![] bcast_S_S2x100000 : (⟨S_, .i32⟩ : BufTy).Contents (Elt F) → (⟨S2x100000, .i32⟩ : BufTy).Contents (Elt F)),
    binary main_v521 main_v693 main_v694 (addi : (⟨S2x100000, .i32⟩ : BufTy).Contents (Elt F) → (⟨S2x100000, .i32⟩ : BufTy).Contents (Elt F) → (⟨S2x100000, .i32⟩ : BufTy).Contents (Elt F)),
    ternary main_v692 main_v694 main_v521 main_v695 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v685 main_v696 (broadcastInDim S2x100000x1 ![0, 1] bcast_S2x100000_S2x100000x1_0_1 : (⟨S2x100000, .i32⟩ : BufTy).Contents (Elt F) → (⟨S2x100000x1, .i32⟩ : BufTy).Contents (Elt F)),
    unary main_v690 main_v697 (broadcastInDim S2x100000x1 ![0, 1] bcast_S2x100000_S2x100000x1_0_1 : (⟨S2x100000, .i32⟩ : BufTy).Contents (Elt F) → (⟨S2x100000x1, .i32⟩ : BufTy).Contents (Elt F)),
    unary main_v695 main_v698 (broadcastInDim S2x100000x1 ![0, 1] bcast_S2x100000_S2x100000x1_0_1 : (⟨S2x100000, .i32⟩ : BufTy).Contents (Elt F) → (⟨S2x100000x1, .i32⟩ : BufTy).Contents (Elt F)),
    nary ![main_v696, main_v697, main_v698] main_v699 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v699 main_v700 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_145 (constantI S_ 32 0#32),
    unary main_c_145 main_v701 (broadcastInDim S2x100000 ![] bcast_S_S2x100000 : (⟨S_, .i32⟩ : BufTy).Contents (Elt F) → (⟨S2x100000, .i32⟩ : BufTy).Contents (Elt F)),
    binary main_v517 main_v701 main_v702 (cmpi .slt : (⟨S2x100000, .i32⟩ : BufTy).Contents (Elt F) → (⟨S2x100000, .i32⟩ : BufTy).Contents (Elt F) → (⟨S2x100000, .i1⟩ : BufTy).Contents (Elt F)),
    nullary main_c_146 (constantI S_ 32 16#32),
    unary main_c_146 main_v703 (broadcastInDim S2x100000 ![] bcast_S_S2x100000 : (⟨S_, .i32⟩ : BufTy).Contents (Elt F) → (⟨S2x100000, .i32⟩ : BufTy).Contents (Elt F)),
    binary main_v517 main_v703 main_v704 (addi : (⟨S2x100000, .i32⟩ : BufTy).Contents (Elt F) → (⟨S2x100000, .i32⟩ : BufTy).Contents (Elt F) → (⟨S2x100000, .i32⟩ : BufTy).Contents (Elt F)),
    ternary main_v702 main_v704 main_v517 main_v705 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_147 (constantI S_ 32 0#32),
    unary main_c_147 main_v706 (broadcastInDim S2x100000 ![] bcast_S_S2x100000 : (⟨S_, .i32⟩ : BufTy).Contents (Elt F) → (⟨S2x100000, .i32⟩ : BufTy).Contents (Elt F)),
    binary main_v519 main_v706 main_v707 (cmpi .slt : (⟨S2x100000, .i32⟩ : BufTy).Contents (Elt F) → (⟨S2x100000, .i32⟩ : BufTy).Contents (Elt F) → (⟨S2x100000, .i1⟩ : BufTy).Contents (Elt F)),
    nullary main_c_148 (constantI S_ 32 16#32),
    unary main_c_148 main_v708 (broadcastInDim S2x100000 ![] bcast_S_S2x100000 : (⟨S_, .i32⟩ : BufTy).Contents (Elt F) → (⟨S2x100000, .i32⟩ : BufTy).Contents (Elt F)),
    binary main_v519 main_v708 main_v709 (addi : (⟨S2x100000, .i32⟩ : BufTy).Contents (Elt F) → (⟨S2x100000, .i32⟩ : BufTy).Contents (Elt F) → (⟨S2x100000, .i32⟩ : BufTy).Contents (Elt F)),
    ternary main_v707 main_v709 main_v519 main_v710 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_149 (constantI S_ 32 0#32),
    unary main_c_149 main_v711 (broadcastInDim S2x100000 ![] bcast_S_S2x100000 : (⟨S_, .i32⟩ : BufTy).Contents (Elt F) → (⟨S2x100000, .i32⟩ : BufTy).Contents (Elt F)),
    binary main_v521 main_v711 main_v712 (cmpi .slt : (⟨S2x100000, .i32⟩ : BufTy).Contents (Elt F) → (⟨S2x100000, .i32⟩ : BufTy).Contents (Elt F) → (⟨S2x100000, .i1⟩ : BufTy).Contents (Elt F)),
    nullary main_c_150 (constantI S_ 32 16#32),
    unary main_c_150 main_v713 (broadcastInDim S2x100000 ![] bcast_S_S2x100000 : (⟨S_, .i32⟩ : BufTy).Contents (Elt F) → (⟨S2x100000, .i32⟩ : BufTy).Contents (Elt F)),
    binary main_v521 main_v713 main_v714 (addi : (⟨S2x100000, .i32⟩ : BufTy).Contents (Elt F) → (⟨S2x100000, .i32⟩ : BufTy).Contents (Elt F) → (⟨S2x100000, .i32⟩ : BufTy).Contents (Elt F)),
    ternary main_v712 main_v714 main_v521 main_v715 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v705 main_v716 (broadcastInDim S2x100000x1 ![0, 1] bcast_S2x100000_S2x100000x1_0_1 : (⟨S2x100000, .i32⟩ : BufTy).Contents (Elt F) → (⟨S2x100000x1, .i32⟩ : BufTy).Contents (Elt F)),
    unary main_v710 main_v717 (broadcastInDim S2x100000x1 ![0, 1] bcast_S2x100000_S2x100000x1_0_1 : (⟨S2x100000, .i32⟩ : BufTy).Contents (Elt F) → (⟨S2x100000x1, .i32⟩ : BufTy).Contents (Elt F)),
    unary main_v715 main_v718 (broadcastInDim S2x100000x1 ![0, 1] bcast_S2x100000_S2x100000x1_0_1 : (⟨S2x100000, .i32⟩ : BufTy).Contents (Elt F) → (⟨S2x100000x1, .i32⟩ : BufTy).Contents (Elt F)),
    nary ![main_v716, main_v717, main_v718] main_v719 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v719 main_v720 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    unary main_v525 main_v721 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v720 main_v721 main_v722 (mulf : (⟨S2x100000x128, .f32⟩ : BufTy).Contents (Elt F) → (⟨S2x100000x128, .f32⟩ : BufTy).Contents (Elt F) → (⟨S2x100000x128, .f32⟩ : BufTy).Contents (Elt F)),
    unary main_v529 main_v723 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v700 main_v723 main_v724 (mulf : (⟨S2x100000x128, .f32⟩ : BufTy).Contents (Elt F) → (⟨S2x100000x128, .f32⟩ : BufTy).Contents (Elt F) → (⟨S2x100000x128, .f32⟩ : BufTy).Contents (Elt F)),
    binary main_v722 main_v724 main_v725 (addf : (⟨S2x100000x128, .f32⟩ : BufTy).Contents (Elt F) → (⟨S2x100000x128, .f32⟩ : BufTy).Contents (Elt F) → (⟨S2x100000x128, .f32⟩ : BufTy).Contents (Elt F)),
    unary main_v533 main_v726 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v725 main_v726 main_v727 (mulf : (⟨S2x100000x128, .f32⟩ : BufTy).Contents (Elt F) → (⟨S2x100000x128, .f32⟩ : BufTy).Contents (Elt F) → (⟨S2x100000x128, .f32⟩ : BufTy).Contents (Elt F)),
    unary main_v525 main_v728 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v680 main_v728 main_v729 (mulf : (⟨S2x100000x128, .f32⟩ : BufTy).Contents (Elt F) → (⟨S2x100000x128, .f32⟩ : BufTy).Contents (Elt F) → (⟨S2x100000x128, .f32⟩ : BufTy).Contents (Elt F)),
    unary main_v529 main_v730 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v660 main_v730 main_v731 (mulf : (⟨S2x100000x128, .f32⟩ : BufTy).Contents (Elt F) → (⟨S2x100000x128, .f32⟩ : BufTy).Contents (Elt F) → (⟨S2x100000x128, .f32⟩ : BufTy).Contents (Elt F)),
    binary main_v729 main_v731 main_v732 (addf : (⟨S2x100000x128, .f32⟩ : BufTy).Contents (Elt F) → (⟨S2x100000x128, .f32⟩ : BufTy).Contents (Elt F) → (⟨S2x100000x128, .f32⟩ : BufTy).Contents (Elt F)),
    unary main_v537 main_v733 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v732 main_v733 main_v734 (mulf : (⟨S2x100000x128, .f32⟩ : BufTy).Contents (Elt F) → (⟨S2x100000x128, .f32⟩ : BufTy).Contents (Elt F) → (⟨S2x100000x128, .f32⟩ : BufTy).Contents (Elt F)),
    binary main_v727 main_v734 main_v735 (addf : (⟨S2x100000x128, .f32⟩ : BufTy).Contents (Elt F) → (⟨S2x100000x128, .f32⟩ : BufTy).Contents (Elt F) → (⟨S2x100000x128, .f32⟩ : BufTy).Contents (Elt F)),
    unary main_v541 main_v736 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v735 main_v736 main_v737 (mulf : (⟨S2x100000x128, .f32⟩ : BufTy).Contents (Elt F) → (⟨S2x100000x128, .f32⟩ : BufTy).Contents (Elt F) → (⟨S2x100000x128, .f32⟩ : BufTy).Contents (Elt F)),
    unary main_v545 main_v738 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v640 main_v738 main_v739 (mulf : (⟨S2x100000x128, .f32⟩ : BufTy).Contents (Elt F) → (⟨S2x100000x128, .f32⟩ : BufTy).Contents (Elt F) → (⟨S2x100000x128, .f32⟩ : BufTy).Contents (Elt F)),
    binary main_v737 main_v739 main_v740 (addf : (⟨S2x100000x128, .f32⟩ : BufTy).Contents (Elt F) → (⟨S2x100000x128, .f32⟩ : BufTy).Contents (Elt F) → (⟨S2x100000x128, .f32⟩ : BufTy).Contents (Elt F)) ]

/-- Each touches TensorCore references only. -/
theorem ops16_sub : (ops16 : List (HloOp τ sig (Elt F))).Forall fun op => op.bufs ⊆ tcRefs τ sig :=
  ⟨unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., unary_bufs_sub .., binary_bufs_sub .., binary_bufs_sub ..⟩

set_option maxHeartbeats 4000000 in
/-- None allocates a buffer: each determines its result. -/
theorem ops16_fresh : ∀ op ∈ (ops16 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops16_noarg : (ops16 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops16_W : List (Ref sig .tc) := [main_v693, main_v694, main_v695, main_v696, main_v697, main_v698, main_v699, main_v700, main_c_145, main_v701, main_v702, main_c_146, main_v703, main_v704, main_v705, main_c_147, main_v706, main_v707, main_c_148, main_v708, main_v709, main_v710, main_c_149, main_v711, main_v712, main_c_150, main_v713, main_v714, main_v715, main_v716, main_v717, main_v718, main_v719, main_v720, main_v721, main_v722, main_v723, main_v724, main_v725, main_v726, main_v727, main_v728, main_v729, main_v730, main_v731, main_v732, main_v733, main_v734, main_v735, main_v736, main_v737, main_v738, main_v739, main_v740]

set_option maxHeartbeats 4000000 in
/-- Each operation writes only its result, which is in that list. -/
theorem ops16_writes : (ops16 : List (HloOp τ sig (Elt F))).Forall fun op => op.writes ⊆ (ops16_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops17.lean ====
import proofs.«171014_j76854144795318_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 910 … 910 of the reference's @main, in order. -/
abbrev ops17 : List (HloOp τ sig (Elt F)) :=
  [ nary ![main_v246, main_v493, main_v740] main_v741 (fun u => concatenate S2x100000x224 2 [⟨S2x100000x32, u 0⟩, ⟨S2x100000x64, u 1⟩, ⟨S2x100000x128, u 2⟩] concatenates_S2x100000x32_S2x100000x64_S2x100000x128_S2x100000x224_d2) ]

/-- Each touches TensorCore references only. -/
theorem ops17_sub : (ops17 : List (HloOp τ sig (Elt F))).Forall fun op => op.bufs ⊆ tcRefs τ sig :=
  nary_bufs_sub ..

set_option maxHeartbeats 4000000 in
/-- None allocates a buffer: each determines its result. -/
theorem ops17_fresh : ∀ op ∈ (ops17 : List (HloOp τ sig (Elt F))), op.fresh = ∅ := by
  intro _ h; (repeat (cases h with | head => rfl | tail _ h => ?_)); exact nomatch h

set_option maxHeartbeats 4000000 in
/-- Each writes exactly one buffer, and that buffer is none of @main's six arguments. -/
theorem ops17_noarg : (ops17 : List (HloOp τ sig (Elt F))).Forall fun op =>
    ∃ y : Ref sig .tc, op.writes = {Proc.devRef .tc y} ∧ y ∉ [main_arg0, main_arg1, main_arg2, main_arg3, main_arg4, main_arg5] := by
  repeat' apply And.intro
  all_goals exact Exists.intro _ ⟨rfl, by decide⟩

/-- The references these operations write, in order. -/
abbrev ops17_W : List (Ref sig .tc) := [main_v741]

set_option maxHeartbeats 4000000 in
/-- Each operation writes only its result, which is in that list. -/
theorem ops17_writes : (ops17 : List (HloOp τ sig (Elt F))).Forall fun op => op.writes ⊆ (ops17_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.RefP.Ops.lean ====
/-
  The reference program's @main as one list of host operations, and its run.

  @main computes, for each of three pyramid levels, a trilinear interpolation of that level's feature grid at the
  query points, and lays the three results side by side along the channel axis. Its host operations are: three scale
  constants; level 0's operations; level 1's; level 2's; the closing concatenation. `ops` is that list, the
  concatenation of eighteen stretches of consecutive operations, none crossing from one level into the next.

  * Every operation touches TensorCore references only, none allocates a buffer, and each writes exactly one buffer,
    never one of @main's six arguments.
  * @main is printed as fifteen consecutive stretches of statements; each is the straight line (`seq`) of one or two of
    the eighteen stretches of operations, so @main is `seq ops`.
  * Hence (`run_all`) every weakly fair execution of @main terminates with every buffer at the fold of `ops` over the
    launch contents, and (`ops_arg`) that fold leaves each argument's buffer as it found it.
-/
import proofs.«171014_j76854144795318_1_alg».proof.Proof.RefP.Ops00
import proofs.«171014_j76854144795318_1_alg».proof.Proof.RefP.Ops01
import proofs.«171014_j76854144795318_1_alg».proof.Proof.RefP.Ops02
import proofs.«171014_j76854144795318_1_alg».proof.Proof.RefP.Ops03
import proofs.«171014_j76854144795318_1_alg».proof.Proof.RefP.Ops04
import proofs.«171014_j76854144795318_1_alg».proof.Proof.RefP.Ops05
import proofs.«171014_j76854144795318_1_alg».proof.Proof.RefP.Ops06
import proofs.«171014_j76854144795318_1_alg».proof.Proof.RefP.Ops07
import proofs.«171014_j76854144795318_1_alg».proof.Proof.RefP.Ops08
import proofs.«171014_j76854144795318_1_alg».proof.Proof.RefP.Ops09
import proofs.«171014_j76854144795318_1_alg».proof.Proof.RefP.Ops10
import proofs.«171014_j76854144795318_1_alg».proof.Proof.RefP.Ops11
import proofs.«171014_j76854144795318_1_alg».proof.Proof.RefP.Ops12
import proofs.«171014_j76854144795318_1_alg».proof.Proof.RefP.Ops13
import proofs.«171014_j76854144795318_1_alg».proof.Proof.RefP.Ops14
import proofs.«171014_j76854144795318_1_alg».proof.Proof.RefP.Ops15
import proofs.«171014_j76854144795318_1_alg».proof.Proof.RefP.Ops16
import proofs.«171014_j76854144795318_1_alg».proof.Proof.RefP.Ops17
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The list -/

/-- The three scale constants @main starts with (one per level: 64, 32, 16). -/
abbrev opsTop : List (HloOp τ sig (Elt F)) := ops00
/-- Level 0's operations, in order. -/
abbrev opsL0 : List (HloOp τ sig (Elt F)) := ops01 ++ (ops02 ++ (ops03 ++ (ops04 ++ (ops05))))
/-- Level 1's operations, in order. -/
abbrev opsL1 : List (HloOp τ sig (Elt F)) := ops06 ++ (ops07 ++ (ops08 ++ (ops09 ++ (ops10))))
/-- Level 2's operations, in order. -/
abbrev opsL2 : List (HloOp τ sig (Elt F)) := ops11 ++ (ops12 ++ (ops13 ++ (ops14 ++ (ops15 ++ (ops16)))))
/-- The closing concatenation of the three levels' results along the channel axis. -/
abbrev opsEnd : List (HloOp τ sig (Elt F)) := ops17
/-- @main's operations, in order. -/
abbrev ops : List (HloOp τ sig (Elt F)) := opsTop ++ (opsL0 ++ (opsL1 ++ (opsL2 ++ opsEnd)))

/-- @main's six arguments. -/
abbrev argRefs : List (Ref sig .tc) := [main_arg0, main_arg1, main_arg2, main_arg3, main_arg4, main_arg5]

/-! ## What holds of every operation -/

/-- What holds of every element of two lists holds of every element of their concatenation. -/
theorem forall_app {α : Type} {p : α → Prop} {a b : List α} (ha : a.Forall p) (hb : b.Forall p) : (a ++ b).Forall p :=
  List.forall_append.mpr ⟨ha, hb⟩

/-- The same for "every member of the list". -/
theorem forall_mem_app {α : Type} {p : α → Prop} {a b : List α} (ha : ∀ x ∈ a, p x) (hb : ∀ x ∈ b, p x) :
    ∀ x ∈ a ++ b, p x :=
  List.forall_mem_append.mpr ⟨ha, hb⟩

/-- The operation writes exactly one buffer: a TensorCore reference that is none of @main's arguments. -/
abbrev NoArgWrite (op : HloOp τ sig (Elt F)) : Prop :=
  ∃ y : Ref sig .tc, op.writes = {Proc.devRef .tc y} ∧ y ∉ argRefs

/-- Such an operation does not write an argument's buffer: distinct references are distinct buffers. -/
theorem NoArgWrite.not_mem {op : HloOp τ sig (Elt F)} (h : NoArgWrite op) {r : Ref sig .tc} (hr : r ∈ argRefs) :
    Proc.devRef (τ := τ) .tc r ∉ op.writes := by
  obtain ⟨y, hw, hy⟩ := h
  rw [hw, Finset.mem_singleton]
  exact fun e => hy (Proc.devRef_injective _ e ▸ hr)

/-- Every operation touches TensorCore references only. -/
theorem ops_sub : (ops : List (HloOp τ sig (Elt F))).Forall fun op => op.bufs ⊆ tcRefs τ sig :=
  forall_app ops00_sub (forall_app (forall_app ops01_sub (forall_app ops02_sub (forall_app ops03_sub (forall_app ops04_sub (ops05_sub))))) (forall_app (forall_app ops06_sub (forall_app ops07_sub (forall_app ops08_sub (forall_app ops09_sub (ops10_sub))))) (forall_app (forall_app ops11_sub (forall_app ops12_sub (forall_app ops13_sub (forall_app ops14_sub (forall_app ops15_sub (ops16_sub)))))) ops17_sub)))

/-- No operation allocates a buffer. -/
theorem ops_fresh : ∀ op ∈ (ops : List (HloOp τ sig (Elt F))), op.fresh = ∅ :=
  forall_mem_app ops00_fresh (forall_mem_app (forall_mem_app ops01_fresh (forall_mem_app ops02_fresh (forall_mem_app ops03_fresh (forall_mem_app ops04_fresh (ops05_fresh))))) (forall_mem_app (forall_mem_app ops06_fresh (forall_mem_app ops07_fresh (forall_mem_app ops08_fresh (forall_mem_app ops09_fresh (ops10_fresh))))) (forall_mem_app (forall_mem_app ops11_fresh (forall_mem_app ops12_fresh (forall_mem_app ops13_fresh (forall_mem_app ops14_fresh (forall_mem_app ops15_fresh (ops16_fresh)))))) ops17_fresh)))

/-- No operation writes an argument. -/
theorem ops_noarg : (ops : List (HloOp τ sig (Elt F))).Forall NoArgWrite :=
  forall_app ops00_noarg (forall_app (forall_app ops01_noarg (forall_app ops02_noarg (forall_app ops03_noarg (forall_app ops04_noarg (ops05_noarg))))) (forall_app (forall_app ops06_noarg (forall_app ops07_noarg (forall_app ops08_noarg (forall_app ops09_noarg (ops10_noarg))))) (forall_app (forall_app ops11_noarg (forall_app ops12_noarg (forall_app ops13_noarg (forall_app ops14_noarg (forall_app ops15_noarg (ops16_noarg)))))) ops17_noarg)))

/-- no operation writes an argument -/
theorem ops_arg (V : Valuation τ sig (Elt F)) {r : Ref sig .tc} (hr : r ∈ argRefs) :
    after ops V (Proc.devRef .tc r) = V (Proc.devRef .tc r) :=
  after_of_forall_not_mem ops V fun op hop => ((List.forall_iff_forall_mem.mp ops_noarg) op hop).not_mem hr

/-! ## @main is the straight line of its operations

Each printed stretch of @main's statements is, by unfolding, the straight line of its operations (a called function's
body standing in its call's place); @main runs the stretches in order. -/

set_option maxRecDepth 8192 in
set_option maxHeartbeats 4000000 in
theorem main_part0_eq (c : Dev nD) : main_part0 (F := F) c = seq (ops00 ++ ops01) := rfl
set_option maxRecDepth 8192 in
set_option maxHeartbeats 4000000 in
theorem main_part1_eq (c : Dev nD) : main_part1 (F := F) c = seq ops02 := rfl
set_option maxRecDepth 8192 in
set_option maxHeartbeats 4000000 in
theorem main_part2_eq (c : Dev nD) : main_part2 (F := F) c = seq ops03 := rfl
set_option maxRecDepth 8192 in
set_option maxHeartbeats 4000000 in
theorem main_part3_eq (c : Dev nD) : main_part3 (F := F) c = seq ops04 := rfl
set_option maxRecDepth 8192 in
set_option maxHeartbeats 4000000 in
theorem main_part4_eq (c : Dev nD) : main_part4 (F := F) c = seq ops05 := rfl
set_option maxRecDepth 8192 in
set_option maxHeartbeats 4000000 in
theorem main_part5_eq (c : Dev nD) : main_part5 (F := F) c = seq ops06 := rfl
set_option maxRecDepth 8192 in
set_option maxHeartbeats 4000000 in
theorem main_part6_eq (c : Dev nD) : main_part6 (F := F) c = seq ops07 := rfl
set_option maxRecDepth 8192 in
set_option maxHeartbeats 4000000 in
theorem main_part7_eq (c : Dev nD) : main_part7 (F := F) c = seq ops08 := rfl
set_option maxRecDepth 8192 in
set_option maxHeartbeats 4000000 in
theorem main_part8_eq (c : Dev nD) : main_part8 (F := F) c = seq ops09 := rfl
set_option maxRecDepth 8192 in
set_option maxHeartbeats 4000000 in
theorem main_part9_eq (c : Dev nD) : main_part9 (F := F) c = seq (ops10 ++ ops11) := rfl
set_option maxRecDepth 8192 in
set_option maxHeartbeats 4000000 in
theorem main_part10_eq (c : Dev nD) : main_part10 (F := F) c = seq ops12 := rfl
set_option maxRecDepth 8192 in
set_option maxHeartbeats 4000000 in
theorem main_part11_eq (c : Dev nD) : main_part11 (F := F) c = seq ops13 := rfl
set_option maxRecDepth 8192 in
set_option maxHeartbeats 4000000 in
theorem main_part12_eq (c : Dev nD) : main_part12 (F := F) c = seq ops14 := rfl
set_option maxRecDepth 8192 in
set_option maxHeartbeats 4000000 in
theorem main_part13_eq (c : Dev nD) : main_part13 (F := F) c = seq ops15 := rfl
set_option maxRecDepth 8192 in
set_option maxHeartbeats 4000000 in
theorem main_part14_eq (c : Dev nD) : main_part14 (F := F) c = seq (ops16 ++ ops17) := rfl

/-- The operations regrouped by @main's printed stretches: the same list. -/
theorem ops_by_stretch : (ops : List (HloOp τ sig (Elt F))) = (ops00 ++ ops01) ++ (ops02 ++ (ops03 ++ (ops04 ++ (ops05 ++ (ops06 ++ (ops07 ++ (ops08 ++ (ops09 ++ ((ops10 ++ ops11) ++ (ops12 ++ (ops13 ++ (ops14 ++ (ops15 ++ ((ops16 ++ ops17))))))))))))))) := by
  simp only [ops, opsTop, opsL0, opsL1, opsL2, opsEnd, List.append_assoc]

set_option maxHeartbeats 4000000 in
theorem main_eq (c : Dev nD) : main (F := F) c = seq ops := by
  rw [ops_by_stretch,
    seq_append, ← main_part0_eq c,
    seq_append, ← main_part1_eq c,
    seq_append, ← main_part2_eq c,
    seq_append, ← main_part3_eq c,
    seq_append, ← main_part4_eq c,
    seq_append, ← main_part5_eq c,
    seq_append, ← main_part6_eq c,
    seq_append, ← main_part7_eq c,
    seq_append, ← main_part8_eq c,
    seq_append, ← main_part9_eq c,
    seq_append, ← main_part10_eq c,
    seq_append, ← main_part11_eq c,
    seq_append, ← main_part12_eq c,
    seq_append, ← main_part13_eq c,
    ← main_part14_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- every weakly fair execution of the reference's @main terminates, faults nowhere, and ends with every buffer at the fold of its operations over the launch contents -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.RefP.Link0.lean ====
/-
  Level 0 of the reference program: what its operations leave in the level's result buffer.

  Level 0's operations run in order from some contents of the buffers. They read three buffers the level does not
  write — the scale constant (64 on each of the three axes), the level's feature grid (argument 1) and the query
  points (argument 5) — and every other operand of an operation is the result of an earlier operation of the level,
  each result being written once. So the contents of the level's result buffer after the last operation is the
  composition of the operations' functions along the data flow, applied to those three buffers: that composition,
  with the scale constant at its value, is the stage `val_main_v246` of the feature grid and the query points.
  Both sides are closed terms over the contents the level starts from, and unfolding the fold — at each operation,
  whether the buffer read is the one it writes — turns the left side into the right: the equation holds by computation.
-/
import proofs.«171014_j76854144795318_1_alg».proof.Proof.RefP.Ops
import proofs.«171014_j76854144795318_1_alg».proof.Proof.RefP.Read
import Idealize.ShloMosaic.Lib.Pipeline.Regions
import Idealize.ShloMosaic.PureOps.Ideal

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- Level 0's operations, run from contents whose scale constant is set to its stage: by computation, the level's
    result buffer holds the level's stage of the feature grid and the query points. -/
theorem level0_at (W : Valuation τ sig (Elt Ideal)) :
    after opsL0 (Function.update W (Proc.devRef .tc main_cst) (Cert.ReferenceIdeal.Read.val_main_cst (F := Ideal)))
        (Proc.devRef .tc main_v246)
      = Cert.ReferenceIdeal.Read.val_main_v246 (F := Ideal) (W (Proc.devRef .tc main_arg1)) (W (Proc.devRef .tc main_arg5)) := by
  chain_rfl

/-- Level 0's operations, run from any contents `W` whose scale constant is 64 on each axis, leave in the level's
    result buffer the level's stage of `W`'s feature grid and query points. -/
theorem level0_stage (W : Valuation τ sig (Elt Ideal))
    (hc : W (Proc.devRef .tc main_cst) = Cert.ReferenceIdeal.Read.val_main_cst (F := Ideal)) :
    after opsL0 W (Proc.devRef .tc main_v246)
      = Cert.ReferenceIdeal.Read.val_main_v246 (F := Ideal) (W (Proc.devRef .tc main_arg1)) (W (Proc.devRef .tc main_arg5)) := by
  -- setting the scale constant's buffer to the value it already holds changes nothing
  have e : Function.update W (Proc.devRef .tc main_cst) (Cert.ReferenceIdeal.Read.val_main_cst (F := Ideal)) = W := by
    rw [← hc]; exact Function.update_eq_self _ W
  rw [← level0_at W, e]

end Cert.ReferenceIdeal.Hand

end
-- ==== Proof.RefP.Link1.lean ====
/-
  Level 1 of the reference program: what its operations leave in the level's result buffer.

  Level 1's operations run in order from some contents of the buffers. They read three buffers the level does not
  write — the scale constant (32 on each of the three axes), the level's feature grid (argument 2) and the query
  points (argument 5) — and every other operand of an operation is the result of an earlier operation of the level,
  each result being written once. So the contents of the level's result buffer after the last operation is the
  composition of the operations' functions along the data flow, applied to those three buffers: that composition,
  with the scale constant at its value, is the stage `val_main_v493` of the feature grid and the query points.
  Both sides are closed terms over the contents the level starts from, and unfolding the fold — at each operation,
  whether the buffer read is the one it writes — turns the left side into the right: the equation holds by computation.
-/
import proofs.«171014_j76854144795318_1_alg».proof.Proof.RefP.Ops
import proofs.«171014_j76854144795318_1_alg».proof.Proof.RefP.Read
import Idealize.ShloMosaic.Lib.Pipeline.Regions
import Idealize.ShloMosaic.PureOps.Ideal

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- Level 1's operations, run from contents whose scale constant is set to its stage: by computation, the level's
    result buffer holds the level's stage of the feature grid and the query points. -/
theorem level1_at (W : Valuation τ sig (Elt Ideal)) :
    after opsL1 (Function.update W (Proc.devRef .tc main_cst_0) (Cert.ReferenceIdeal.Read.val_main_cst_0 (F := Ideal)))
        (Proc.devRef .tc main_v493)
      = Cert.ReferenceIdeal.Read.val_main_v493 (F := Ideal) (W (Proc.devRef .tc main_arg2)) (W (Proc.devRef .tc main_arg5)) := by
  chain_rfl

/-- Level 1's operations, run from any contents `W` whose scale constant is 32 on each axis, leave in the level's
    result buffer the level's stage of `W`'s feature grid and query points. -/
theorem level1_stage (W : Valuation τ sig (Elt Ideal))
    (hc : W (Proc.devRef .tc main_cst_0) = Cert.ReferenceIdeal.Read.val_main_cst_0 (F := Ideal)) :
    after opsL1 W (Proc.devRef .tc main_v493)
      = Cert.ReferenceIdeal.Read.val_main_v493 (F := Ideal) (W (Proc.devRef .tc main_arg2)) (W (Proc.devRef .tc main_arg5)) := by
  -- setting the scale constant's buffer to the value it already holds changes nothing
  have e : Function.update W (Proc.devRef .tc main_cst_0) (Cert.ReferenceIdeal.Read.val_main_cst_0 (F := Ideal)) = W := by
    rw [← hc]; exact Function.update_eq_self _ W
  rw [← level1_at W, e]

end Cert.ReferenceIdeal.Hand

end
-- ==== Proof.RefP.Link2.lean ====
/-
  Level 2 of the reference program: what its operations leave in the level's result buffer.

  Level 2's operations run in order from some contents of the buffers. They read three buffers the level does not
  write — the scale constant (16 on each of the three axes), the level's feature grid (argument 3) and the query
  points (argument 5) — and every other operand of an operation is the result of an earlier operation of the level,
  each result being written once. So the contents of the level's result buffer after the last operation is the
  composition of the operations' functions along the data flow, applied to those three buffers: that composition,
  with the scale constant at its value, is the stage `val_main_v740` of the feature grid and the query points.
  Both sides are closed terms over the contents the level starts from, and unfolding the fold — at each operation,
  whether the buffer read is the one it writes — turns the left side into the right: the equation holds by computation.
-/
import proofs.«171014_j76854144795318_1_alg».proof.Proof.RefP.Ops
import proofs.«171014_j76854144795318_1_alg».proof.Proof.RefP.Read
import Idealize.ShloMosaic.Lib.Pipeline.Regions
import Idealize.ShloMosaic.PureOps.Ideal

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- Level 2's operations, run from contents whose scale constant is set to its stage: by computation, the level's
    result buffer holds the level's stage of the feature grid and the query points. -/
theorem level2_at (W : Valuation τ sig (Elt Ideal)) :
    after opsL2 (Function.update W (Proc.devRef .tc main_cst_1) (Cert.ReferenceIdeal.Read.val_main_cst_1 (F := Ideal)))
        (Proc.devRef .tc main_v740)
      = Cert.ReferenceIdeal.Read.val_main_v740 (F := Ideal) (W (Proc.devRef .tc main_arg3)) (W (Proc.devRef .tc main_arg5)) := by
  chain_rfl

/-- Level 2's operations, run from any contents `W` whose scale constant is 16 on each axis, leave in the level's
    result buffer the level's stage of `W`'s feature grid and query points. -/
theorem level2_stage (W : Valuation τ sig (Elt Ideal))
    (hc : W (Proc.devRef .tc main_cst_1) = Cert.ReferenceIdeal.Read.val_main_cst_1 (F := Ideal)) :
    after opsL2 W (Proc.devRef .tc main_v740)
      = Cert.ReferenceIdeal.Read.val_main_v740 (F := Ideal) (W (Proc.devRef .tc main_arg3)) (W (Proc.devRef .tc main_arg5)) := by
  -- setting the scale constant's buffer to the value it already holds changes nothing
  have e : Function.update W (Proc.devRef .tc main_cst_1) (Cert.ReferenceIdeal.Read.val_main_cst_1 (F := Ideal)) = W := by
    rw [← hc]; exact Function.update_eq_self _ W
  rw [← level2_at W, e]

end Cert.ReferenceIdeal.Hand

end
-- ==== Proof.RefP.Link.lean ====
/-
  The reference program's run: the buffers it ends at, as the composed stages of the launch arguments.

  @main's operations are the three scale constants, then level 0's operations, level 1's, level 2's, and the closing
  concatenation, so the fold of all of them is the fold of each stretch in turn. A level's operations run from
  contents in which the level's scale constant still holds the value the opening operations gave it and the level's
  feature grid and the query points still hold what was launched: no earlier stretch writes a later level's scale
  constant, and no operation writes an argument. The level's result is therefore its stage of the launched arguments
  (`level0_stage`, `level1_stage`, `level2_stage`), and no later stretch writes it, so it is still there at the end
  (`link0`, `link1`, `link2`). The closing concatenation reads the three results and writes the result buffer: the
  stage `val_main_v741` of the launched arguments (`link`). With the run of the operations (`run_all`) and the
  arguments left as launched (`ops_arg`) this is the reference's run (`ref_run`).
-/
import proofs.«171014_j76854144795318_1_alg».proof.Proof.RefP.Ops
import proofs.«171014_j76854144795318_1_alg».proof.Proof.RefP.Read
import proofs.«171014_j76854144795318_1_alg».proof.Proof.RefP.Link0
import proofs.«171014_j76854144795318_1_alg».proof.Proof.RefP.Link1
import proofs.«171014_j76854144795318_1_alg».proof.Proof.RefP.Link2
import Idealize.ShloMosaic.Lib.Pipeline.Frame

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The fold, stretch by stretch -/

/-- The contents before the closing concatenation: the three constants, then the three levels, from `V`. -/
abbrev beforeEnd (V : Valuation τ sig (Elt Ideal)) : Valuation τ sig (Elt Ideal) :=
  after opsL2 (after opsL1 (after opsL0 (after opsTop V)))

/-- The fold of all the operations is the closing concatenation's after the levels'. -/
theorem after_ops (V : Valuation τ sig (Elt Ideal)) : after ops V = after opsEnd (beforeEnd V) := by
  show after (opsTop ++ (opsL0 ++ (opsL1 ++ (opsL2 ++ opsEnd)))) V = _
  rw [StableHlo.after_append, StableHlo.after_append, StableHlo.after_append, StableHlo.after_append]

/-! ## The arguments are written by no stretch -/

/-- A stretch none of whose operations writes an argument leaves every argument's buffer as it found it. -/
theorem keep_arg {l : List (HloOp τ sig (Elt Ideal))} (hl : l.Forall NoArgWrite) (X : Valuation τ sig (Elt Ideal))
    {r : Ref sig .tc} (hr : r ∈ argRefs) : after l X (Proc.devRef .tc r) = X (Proc.devRef .tc r) :=
  after_of_forall_not_mem l X fun op hop => ((List.forall_iff_forall_mem.mp hl) op hop).not_mem hr

theorem opsL0_noarg : (opsL0 : List (HloOp τ sig (Elt Ideal))).Forall NoArgWrite :=
  forall_app ops01_noarg (forall_app ops02_noarg (forall_app ops03_noarg (forall_app ops04_noarg ops05_noarg)))
theorem opsL1_noarg : (opsL1 : List (HloOp τ sig (Elt Ideal))).Forall NoArgWrite :=
  forall_app ops06_noarg (forall_app ops07_noarg (forall_app ops08_noarg (forall_app ops09_noarg ops10_noarg)))

/-- An argument's buffer when level 0 starts … -/
theorem arg_at0 (V : Valuation τ sig (Elt Ideal)) {r : Ref sig .tc} (hr : r ∈ argRefs) :
    after opsTop V (Proc.devRef .tc r) = V (Proc.devRef .tc r) :=
  keep_arg ops00_noarg V hr
/-- … when level 1 starts … -/
theorem arg_at1 (V : Valuation τ sig (Elt Ideal)) {r : Ref sig .tc} (hr : r ∈ argRefs) :
    after opsL0 (after opsTop V) (Proc.devRef .tc r) = V (Proc.devRef .tc r) :=
  (keep_arg opsL0_noarg _ hr).trans (arg_at0 V hr)
/-- … and when level 2 starts is what was launched. -/
theorem arg_at2 (V : Valuation τ sig (Elt Ideal)) {r : Ref sig .tc} (hr : r ∈ argRefs) :
    after opsL1 (after opsL0 (after opsTop V)) (Proc.devRef .tc r) = V (Proc.devRef .tc r) :=
  (keep_arg opsL1_noarg _ hr).trans (arg_at1 V hr)

/-! ## A stretch writes only its operations' results

Each stretch of operations comes with the list of the references its operations write; a buffer whose reference is in
none of a level's lists is left by the level as it was found. -/

/-- Level 0's operations leave alone every buffer that none of them writes. -/
theorem keepL0 (X : Valuation τ sig (Elt Ideal)) {r : Ref sig .tc}
    (h1 : r ∉ ops01_W) (h2 : r ∉ ops02_W) (h3 : r ∉ ops03_W) (h4 : r ∉ ops04_W) (h5 : r ∉ ops05_W) :
    after opsL0 X (Proc.devRef .tc r) = X (Proc.devRef .tc r) := by
  show after (ops01 ++ (ops02 ++ (ops03 ++ (ops04 ++ ops05)))) X _ = _
  rw [StableHlo.after_append, StableHlo.after_append, StableHlo.after_append, StableHlo.after_append,
    after_of_writes_sub ops05 _ ops05_writes h5, after_of_writes_sub ops04 _ ops04_writes h4,
    after_of_writes_sub ops03 _ ops03_writes h3, after_of_writes_sub ops02 _ ops02_writes h2,
    after_of_writes_sub ops01 _ ops01_writes h1]

/-- Level 1's operations leave alone every buffer that none of them writes. -/
theorem keepL1 (X : Valuation τ sig (Elt Ideal)) {r : Ref sig .tc}
    (h1 : r ∉ ops06_W) (h2 : r ∉ ops07_W) (h3 : r ∉ ops08_W) (h4 : r ∉ ops09_W) (h5 : r ∉ ops10_W) :
    after opsL1 X (Proc.devRef .tc r) = X (Proc.devRef .tc r) := by
  show after (ops06 ++ (ops07 ++ (ops08 ++ (ops09 ++ ops10)))) X _ = _
  rw [StableHlo.after_append, StableHlo.after_append, StableHlo.after_append, StableHlo.after_append,
    after_of_writes_sub ops10 _ ops10_writes h5, after_of_writes_sub ops09 _ ops09_writes h4,
    after_of_writes_sub ops08 _ ops08_writes h3, after_of_writes_sub ops07 _ ops07_writes h2,
    after_of_writes_sub ops06 _ ops06_writes h1]

/-- Level 2's operations leave alone every buffer that none of them writes. -/
theorem keepL2 (X : Valuation τ sig (Elt Ideal)) {r : Ref sig .tc}
    (h1 : r ∉ ops11_W) (h2 : r ∉ ops12_W) (h3 : r ∉ ops13_W) (h4 : r ∉ ops14_W) (h5 : r ∉ ops15_W) (h6 : r ∉ ops16_W) :
    after opsL2 X (Proc.devRef .tc r) = X (Proc.devRef .tc r) := by
  show after (ops11 ++ (ops12 ++ (ops13 ++ (ops14 ++ (ops15 ++ ops16))))) X _ = _
  rw [StableHlo.after_append, StableHlo.after_append, StableHlo.after_append, StableHlo.after_append, StableHlo.after_append,
    after_of_writes_sub ops16 _ ops16_writes h6, after_of_writes_sub ops15 _ ops15_writes h5,
    after_of_writes_sub ops14 _ ops14_writes h4, after_of_writes_sub ops13 _ ops13_writes h3,
    after_of_writes_sub ops12 _ ops12_writes h2, after_of_writes_sub ops11 _ ops11_writes h1]

/-- The closing concatenation leaves alone every buffer but the result. -/
theorem keepEnd (X : Valuation τ sig (Elt Ideal)) {r : Ref sig .tc} (h : r ∉ ops17_W) :
    after opsEnd X (Proc.devRef .tc r) = X (Proc.devRef .tc r) :=
  after_of_writes_sub ops17 _ ops17_writes h

/-! ## The scale constants

The opening operations give each level's scale constant its value; the levels before a level do not write it. -/

theorem top_cst (V : Valuation τ sig (Elt Ideal)) :
    after opsTop V (Proc.devRef .tc main_cst) = Cert.ReferenceIdeal.Read.val_main_cst (F := Ideal) := by
  after_results_simp <;> rfl
theorem top_cst_0 (V : Valuation τ sig (Elt Ideal)) :
    after opsTop V (Proc.devRef .tc main_cst_0) = Cert.ReferenceIdeal.Read.val_main_cst_0 (F := Ideal) := by
  after_results_simp <;> rfl
theorem top_cst_1 (V : Valuation τ sig (Elt Ideal)) :
    after opsTop V (Proc.devRef .tc main_cst_1) = Cert.ReferenceIdeal.Read.val_main_cst_1 (F := Ideal) := by
  after_results_simp <;> rfl

theorem keepL0_cst_0 (X : Valuation τ sig (Elt Ideal)) :
    after opsL0 X (Proc.devRef .tc main_cst_0) = X (Proc.devRef .tc main_cst_0) := keepL0 X (by decide) (by decide) (by decide) (by decide) (by decide)
theorem keepL0_cst_1 (X : Valuation τ sig (Elt Ideal)) :
    after opsL0 X (Proc.devRef .tc main_cst_1) = X (Proc.devRef .tc main_cst_1) := keepL0 X (by decide) (by decide) (by decide) (by decide) (by decide)
theorem keepL1_cst_1 (X : Valuation τ sig (Elt Ideal)) :
    after opsL1 X (Proc.devRef .tc main_cst_1) = X (Proc.devRef .tc main_cst_1) := keepL1 X (by decide) (by decide) (by decide) (by decide) (by decide)

/-! ## A level's result is written by no later stretch -/

theorem keepL1_v246 (X : Valuation τ sig (Elt Ideal)) :
    after opsL1 X (Proc.devRef .tc main_v246) = X (Proc.devRef .tc main_v246) := keepL1 X (by decide) (by decide) (by decide) (by decide) (by decide)
theorem keepL2_v246 (X : Valuation τ sig (Elt Ideal)) :
    after opsL2 X (Proc.devRef .tc main_v246) = X (Proc.devRef .tc main_v246) := keepL2 X (by decide) (by decide) (by decide) (by decide) (by decide) (by decide)
theorem keepL2_v493 (X : Valuation τ sig (Elt Ideal)) :
    after opsL2 X (Proc.devRef .tc main_v493) = X (Proc.devRef .tc main_v493) := keepL2 X (by decide) (by decide) (by decide) (by decide) (by decide) (by decide)
theorem keepEnd_v246 (X : Valuation τ sig (Elt Ideal)) :
    after opsEnd X (Proc.devRef .tc main_v246) = X (Proc.devRef .tc main_v246) := keepEnd X (by decide)
theorem keepEnd_v493 (X : Valuation τ sig (Elt Ideal)) :
    after opsEnd X (Proc.devRef .tc main_v493) = X (Proc.devRef .tc main_v493) := keepEnd X (by decide)
theorem keepEnd_v740 (X : Valuation τ sig (Elt Ideal)) :
    after opsEnd X (Proc.devRef .tc main_v740) = X (Proc.devRef .tc main_v740) := keepEnd X (by decide)

/-! ## The three levels' results before the closing concatenation -/

theorem before0 (V : Valuation τ sig (Elt Ideal)) :
    beforeEnd V (Proc.devRef .tc main_v246)
      = Cert.ReferenceIdeal.Read.val_main_v246 (F := Ideal) (V (Proc.devRef .tc main_arg1)) (V (Proc.devRef .tc main_arg5)) := by
  rw [beforeEnd, keepL2_v246, keepL1_v246, level0_stage _ (top_cst V),
    arg_at0 V (r := main_arg1) (by decide), arg_at0 V (r := main_arg5) (by decide)]

theorem before1 (V : Valuation τ sig (Elt Ideal)) :
    beforeEnd V (Proc.devRef .tc main_v493)
      = Cert.ReferenceIdeal.Read.val_main_v493 (F := Ideal) (V (Proc.devRef .tc main_arg2)) (V (Proc.devRef .tc main_arg5)) := by
  rw [beforeEnd, keepL2_v493, level1_stage _ ((keepL0_cst_0 _).trans (top_cst_0 V)),
    arg_at1 V (r := main_arg2) (by decide), arg_at1 V (r := main_arg5) (by decide)]

theorem before2 (V : Valuation τ sig (Elt Ideal)) :
    beforeEnd V (Proc.devRef .tc main_v740)
      = Cert.ReferenceIdeal.Read.val_main_v740 (F := Ideal) (V (Proc.devRef .tc main_arg3)) (V (Proc.devRef .tc main_arg5)) := by
  rw [beforeEnd, level2_stage _ ((keepL1_cst_1 _).trans ((keepL0_cst_1 _).trans (top_cst_1 V))),
    arg_at2 V (r := main_arg3) (by decide), arg_at2 V (r := main_arg5) (by decide)]

/-! ## The links -/

theorem link0 (V : Valuation τ sig (Elt Ideal)) : after ops V (Proc.devRef .tc main_v246) = Cert.ReferenceIdeal.Read.val_main_v246 (F := Ideal) (V (Proc.devRef .tc main_arg1)) (V (Proc.devRef .tc main_arg5)) := by
  rw [after_ops, keepEnd_v246, before0]

theorem link1 (V : Valuation τ sig (Elt Ideal)) : after ops V (Proc.devRef .tc main_v493) = Cert.ReferenceIdeal.Read.val_main_v493 (F := Ideal) (V (Proc.devRef .tc main_arg2)) (V (Proc.devRef .tc main_arg5)) := by
  rw [after_ops, keepEnd_v493, before1]

theorem link2 (V : Valuation τ sig (Elt Ideal)) : after ops V (Proc.devRef .tc main_v740) = Cert.ReferenceIdeal.Read.val_main_v740 (F := Ideal) (V (Proc.devRef .tc main_arg3)) (V (Proc.devRef .tc main_arg5)) := by
  rw [after_ops, keepEnd_v740, before2]

/-- The closing concatenation writes the result buffer from the three levels' results as it finds them. -/
theorem end_v741 (X : Valuation τ sig (Elt Ideal)) :
    after opsEnd X (Proc.devRef .tc main_v741)
      = concatenate S2x100000x224 2
          [⟨S2x100000x32, X (Proc.devRef .tc main_v246)⟩, ⟨S2x100000x64, X (Proc.devRef .tc main_v493)⟩,
            ⟨S2x100000x128, X (Proc.devRef .tc main_v740)⟩]
          concatenates_S2x100000x32_S2x100000x64_S2x100000x128_S2x100000x224_d2 := by
  simp only [opsEnd, ops17, after_cons, after_nil]
  rw [nary_result]
  rfl

theorem link (V : Valuation τ sig (Elt Ideal)) : after ops V (Proc.devRef .tc main_v741) = Cert.ReferenceIdeal.Read.val_main_v741 (F := Ideal) (V (Proc.devRef .tc main_arg1)) (V (Proc.devRef .tc main_arg2)) (V (Proc.devRef .tc main_arg3)) (V (Proc.devRef .tc main_arg5)) := by
  rw [after_ops, end_v741, before0, before1, before2]
  rfl

/-! ## The run -/

/-- the reference's run: the result buffer ends at the composed stages of the launch arguments, the arguments as launched -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v741) = Cert.ReferenceIdeal.Read.val_main_v741 (F := Ideal) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v741).trans (link _),
      (h c main_arg0).trans (ops_arg _ (by decide)),
      (h c main_arg1).trans (ops_arg _ (by decide)),
      (h c main_arg2).trans (ops_arg _ (by decide)),
      (h c main_arg3).trans (ops_arg _ (by decide)),
      (h c main_arg4).trans (ops_arg _ (by decide)),
      (h c main_arg5).trans (ops_arg _ (by decide))⟩)
    (run_all m ρ)

end Cert.ReferenceIdeal.Hand

end
-- ==== Proof.Val.Spec.lean ====
/-
  The arithmetic both programs compute for ONE output element of one pyramid level, on the extended reals.

  Around a query point the feature cube has eight corners; write their values at one channel
  `q22z2 q12z2 q21z2 q11z2` (the plane z = ceil) and `q22z1 q12z1 q21z1 q11z1` (the plane z = floor), and the
  six fractional weights `wx wx2 wy wy2 wz wz2` (distance to the floor and to the ceil along each axis).
  The kernel multiplies each corner by the product of its three weights and adds the eight terms from left
  to right (`comb8`); the reference interpolates along x, then y, then z (`trilerp`). Over the reals the two
  are one polynomial; on the extended reals distributivity needs every value to be a real number, which is
  what `trilerp_eq_comb8` assumes.
-/
import Idealize.ShloMosaic.PureOps.Ideal
import Idealize.ShloMosaic.Lib.ValueIdx
import Mathlib.Data.EReal.Basic
import Mathlib.Tactic.Ring

noncomputable section

namespace Cert.Spec

/-- Eight values times eight weights, added from left to right. -/
def comb8 (q w : Fin 8 → EReal) : EReal :=
  q 0 * w 0 + q 1 * w 1 + q 2 * w 2 + q 3 * w 3 + q 4 * w 4 + q 5 * w 5 + q 6 * w 6 + q 7 * w 7

/-- Interpolation along x, then y, inside each z plane, then along z. -/
def trilerp (q22z2 q12z2 q21z2 q11z2 q22z1 q12z1 q21z1 q11z1 wx wx2 wy wy2 wz wz2 : EReal) : EReal :=
  ((q22z2 * wx + q12z2 * wx2) * wy + (q21z2 * wx + q11z2 * wx2) * wy2) * wz
    + ((q22z1 * wx + q12z1 * wx2) * wy + (q21z1 * wx + q11z1 * wx2) * wy2) * wz2

/-- The weight of each corner: the product of its three fractional weights, in the order the kernel forms it. -/
def cornerWeights (wx wx2 wy wy2 wz wz2 : EReal) : Fin 8 → EReal :=
  ![wz * wx * wy, wz * wx2 * wy, wz * wx * wy2, wz * wx2 * wy2, wz2 * wx * wy, wz2 * wx2 * wy, wz2 * wx * wy2, wz2 * wx2 * wy2]

/-- On real numbers the two arrangements are the same polynomial. -/
theorem trilerp_eq_comb8 (q22z2 q12z2 q21z2 q11z2 q22z1 q12z1 q21z1 q11z1 wx wx2 wy wy2 wz wz2 : ℝ) :
    trilerp (q22z2 : EReal) q12z2 q21z2 q11z2 q22z1 q12z1 q21z1 q11z1 wx wx2 wy wy2 wz wz2
      = comb8 ![(q22z2 : EReal), q12z2, q21z2, q11z2, q22z1, q12z1, q21z1, q11z1] (cornerWeights wx wx2 wy wy2 wz wz2) := by
  simp only [trilerp, comb8, cornerWeights, Matrix.cons_val_zero, Matrix.cons_val_one, Matrix.cons_val]
  simp only [← EReal.coe_mul, ← EReal.coe_add]
  congr 1
  ring

end Cert.Spec

end
-- ==== Proof.Val.Finite.lean ====
/-
  Finiteness. At the ideal instance a float is an extended real, and the law
  `x * (a + b) = x * a + x * b` fails at the infinities; the facts here say that every value entering the
  final arithmetic is a real number: the feature arrays (by the stated precondition), a coordinate clipped
  between two real bounds together with its floor and its ceiling, and the literals the clips and scales spell.
-/
import proofs.«171014_j76854144795318_1_alg».proof.Pre_finite_inputs
import Idealize.ShloMosaic.PureOps.Ideal
import Idealize.ShloMosaic.Lib.ValueIdx
import Idealize.ShloMosaic.Lib.ReduceAll
import Mathlib.Data.EReal.Basic
import Mathlib.Data.EReal.Operations

noncomputable section

namespace Cert.Finite

open Idealize.ShloMosaic

/-- An extended real that is a real number. -/
def IsReal (x : EReal) : Prop := ∃ r : ℝ, x = (r : EReal)

/-- The product of two reals is a real. -/
theorem IsReal.mul {x y : EReal} : IsReal x → IsReal y → IsReal (x * y) := by
  rintro ⟨a, rfl⟩ ⟨b, rfl⟩; exact ⟨a * b, (EReal.coe_mul a b).symm⟩

/-- The sum of two reals is a real. -/
theorem IsReal.add {x y : EReal} : IsReal x → IsReal y → IsReal (x + y) := by
  rintro ⟨a, rfl⟩ ⟨b, rfl⟩; exact ⟨a + b, (EReal.coe_add a b).symm⟩

/-- The difference of two reals is a real. -/
theorem IsReal.sub {x y : EReal} : IsReal x → IsReal y → IsReal (x - y) := by
  rintro ⟨a, rfl⟩ ⟨b, rfl⟩; exact ⟨a - b, (EReal.coe_sub a b).symm⟩

/-! ### The fractional weights -/

/-- A coordinate clipped between two real bounds is real, whatever it was: the clipped value lies between
    `min hi lo` and `hi`, so it is neither infinity. -/
theorem clip_real (lo hi : ℝ) (x : EReal) : IsReal (min (hi : EReal) (max (lo : EReal) x)) := by
  refine ⟨(min (hi : EReal) (max (lo : EReal) x)).toReal, (EReal.coe_toReal ?_ ?_).symm⟩
  · exact ne_of_lt (lt_of_le_of_lt (min_le_left _ _) (EReal.coe_lt_top hi))
  · refine ne_of_gt (lt_of_lt_of_le (EReal.bot_lt_coe (min hi lo)) ?_)
    exact le_min (EReal.coe_le_coe_iff.2 (min_le_left _ _))
      (le_trans (EReal.coe_le_coe_iff.2 (min_le_right _ _)) (le_max_left _ _))

/-- The floor of a real is a real. -/
theorem floor_real {a : EReal} : IsReal a → IsReal (Ideal.liftRound Int.floor a) := by
  rintro ⟨r, rfl⟩; exact ⟨((Int.floor r : ℤ) : ℝ), rfl⟩

/-- The ceiling of a real is a real. -/
theorem ceil_real {a : EReal} : IsReal a → IsReal (Ideal.liftRound Int.ceil a) := by
  rintro ⟨r, rfl⟩; exact ⟨((Int.ceil r : ℤ) : ℝ), rfl⟩

/-! ### The literals -/

/-- A pattern whose exponent field is not all ones denotes a real number (a zero, a subnormal or a normal). -/
private theorem ieee_real (e m : Nat) {w : Nat} (b : BitVec w)
    (h : (b.extractLsb' m e).toNat ≠ 2 ^ e - 1) : IsReal (Ideal.ieee e m b) := by
  unfold Ideal.ieee
  simp only []
  rw [if_neg h]
  split_ifs <;> exact ⟨_, rfl⟩

/-- The same at binary32: eight exponent bits above twenty-three fraction bits. -/
private theorem f32_real (b : BitVec 32) (h : (b.extractLsb' 23 8).toNat ≠ 2 ^ 8 - 1) :
    IsReal (Ideal.ofBits .f32 b) := ieee_real 8 23 b h

/-- `0.01`, the lower bound of every level's clip. -/
theorem lit_real_3C23D70A : IsReal (Ideal.ofBits .f32 0x3C23D70A#32) := f32_real _ (by decide)
/-- `62.99`, the upper bound of the first level's clip. -/
theorem lit_real_427BF5C3 : IsReal (Ideal.ofBits .f32 0x427BF5C3#32) := f32_real _ (by decide)
/-- `30.99`, the upper bound of the second level's clip. -/
theorem lit_real_41F7EB85 : IsReal (Ideal.ofBits .f32 0x41F7EB85#32) := f32_real _ (by decide)
/-- `14.99`, the upper bound of the third level's clip. -/
theorem lit_real_416FD70A : IsReal (Ideal.ofBits .f32 0x416FD70A#32) := f32_real _ (by decide)
/-- `64`, the first level's scale. -/
theorem lit_real_42800000 : IsReal (Ideal.ofBits .f32 0x42800000#32) := f32_real _ (by decide)
/-- `32`, the second level's scale. -/
theorem lit_real_42000000 : IsReal (Ideal.ofBits .f32 0x42000000#32) := f32_real _ (by decide)
/-- `16`, the third level's scale. -/
theorem lit_real_41800000 : IsReal (Ideal.ofBits .f32 0x41800000#32) := f32_real _ (by decide)

/-! ### The precondition -/

/-- The pattern with an all-ones exponent and a zero fraction denotes `+∞`. -/
private theorem ofBits_inf : Ideal.ofBits .f32 0x7F800000#32 = ⊤ := by
  simp [Ideal.ofBits, Ideal.ieee]

/-- `|x| < +∞` holds of no infinity: `|±∞| = max (±∞) (∓∞) = +∞`. So an `x` of which it holds is real. -/
private theorem real_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- If the predicate `finite_inputs` is all ones on six argument arrays, the feature arrays of levels
    1, 2, 3 hold real numbers everywhere: the predicate is the conjunction of six "for every index,
    `|x| < +∞`", and a conjunction that is one has every conjunct one. -/
theorem features_real [Cert.Pre_finite_inputs.Facts]
    (a0 : FVec Ideal Cert.Pre_finite_inputs.S2x128x128x128x16 .f32) (a1 : FVec Ideal Cert.Pre_finite_inputs.S2x64x64x64x32 .f32) (a2 : FVec Ideal Cert.Pre_finite_inputs.S2x32x32x32x64 .f32)
    (a3 : FVec Ideal Cert.Pre_finite_inputs.S2x16x16x16x128 .f32) (a4 : FVec Ideal Cert.Pre_finite_inputs.S2x8x8x8x256 .f32) (a5 : FVec Ideal Cert.Pre_finite_inputs.S2x100000x3 .f32)
    (h : Cert.Pre_finite_inputs.fn (F := Ideal) a0 a1 a2 a3 a4 a5 = (fun _ => 1#1)) :
    (∀ i, IsReal (a1 i)) ∧ (∀ i, IsReal (a2 i)) ∧ (∀ i, IsReal (a3 i)) := by
  -- the result shape has rank zero, hence exactly one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the six conjuncts, peeled from the outermost (the sixth array) inwards
  obtain ⟨h4, _⟩ := IntOp.andi_eq_one.1 h0
  obtain ⟨h3, _⟩ := IntOp.andi_eq_one.1 h4
  obtain ⟨h2, e3⟩ := IntOp.andi_eq_one.1 h3
  obtain ⟨h1, e2⟩ := IntOp.andi_eq_one.1 h2
  obtain ⟨_, e1⟩ := IntOp.andi_eq_one.1 h1
  exact ⟨fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i)⟩

end Cert.Finite

end
-- ==== Proof.Val.RefGen.lean ====
/-
  The stages of the reference program, one operation at a time: for each operation the value it writes as a function
  of the argument arrays it depends on, and that value read at an index. They come from the module imported here;
  every module that reasons about what the reference computes imports this one.
-/
import proofs.«171014_j76854144795318_1_alg».proof.Proof.RefP.Read
-- ==== Proof.Val.LeafReal.lean ====
/-
  The leaves of the reference's arithmetic are real numbers, pyramid level 0. The reference interpolates
  between eight corner values with six fractional weights. Each corner array gathers elements of the level's
  feature array, so it is real wherever the feature array is. Each weight is a clipped coordinate minus its
  floor, or its ceiling minus the clipped coordinate; the clip's two bounds are real literals, so the clipped
  coordinate is real whatever the coordinate was, and so are its floor, its ceiling and the two differences.
-/
import proofs.«171014_j76854144795318_1_alg».proof.Proof.Val.Finite
import proofs.«171014_j76854144795318_1_alg».proof.Proof.Val.RefGen

noncomputable section

namespace Cert.Finite

open Idealize.ShloMosaic Cert.ReferenceIdeal Cert.ReferenceIdeal.Read

/-! ### The clipped coordinates -/

/-- A coordinate clipped between two bounds that are real numbers is a real number. -/
private theorem clip_lit {a b : EReal} (ha : IsReal a) (hb : IsReal b) (x : EReal) : IsReal (min b (max a x)) := by
  obtain ⟨lo, rfl⟩ := ha
  obtain ⟨hi, rfl⟩ := hb
  exact clip_real lo hi x

/-- The scaled coordinates, clipped between the two literals, are real at every index, whatever the
    coordinates were. -/
theorem clip_real_v3 (x5 : (⟨S2x100000x3, .f32⟩ : BufTy).Contents (Elt Ideal)) (j : S2x100000x3.Idx) :
    IsReal (val_main_v3 (F := Ideal) x5 j) := by
  rw [val_main_v3_apply, val_main_call0_v4_apply, val_main_call0_v3_apply, val_main_cst_3_apply,
    val_main_call0_v2_apply, val_main_call0_v1_apply, val_main_call0_v0_apply, val_main_cst_2_apply]
  exact clip_lit lit_real_3C23D70A lit_real_427BF5C3 _

/-! ### One axis of the clipped coordinates, its floor and its ceiling

Each of these arrays reads one column of the clipped coordinates (a slice, then a reshape), so each of its
elements is an element of the clipped array. -/

theorem coord_real_v5 (x5 : (⟨S2x100000x3, .f32⟩ : BufTy).Contents (Elt Ideal)) (i : S2x100000.Idx) :
    IsReal (val_main_v5 (F := Ideal) x5 i) := by
  rw [val_main_v5_apply, val_main_v4_apply]; exact clip_real_v3 x5 _

theorem coord_real_v8 (x5 : (⟨S2x100000x3, .f32⟩ : BufTy).Contents (Elt Ideal)) (i : S2x100000.Idx) :
    IsReal (val_main_v8 (F := Ideal) x5 i) := by
  rw [val_main_v8_apply, val_main_v7_apply]; exact clip_real_v3 x5 _

theorem coord_real_v11 (x5 : (⟨S2x100000x3, .f32⟩ : BufTy).Contents (Elt Ideal)) (i : S2x100000.Idx) :
    IsReal (val_main_v11 (F := Ideal) x5 i) := by
  rw [val_main_v11_apply, val_main_v10_apply]; exact clip_real_v3 x5 _

theorem coord_real_v14 (x5 : (⟨S2x100000x3, .f32⟩ : BufTy).Contents (Elt Ideal)) (i : S2x100000.Idx) :
    IsReal (val_main_v14 (F := Ideal) x5 i) := by
  rw [val_main_v14_apply, val_main_v13_apply]; exact clip_real_v3 x5 _

theorem coord_real_v17 (x5 : (⟨S2x100000x3, .f32⟩ : BufTy).Contents (Elt Ideal)) (i : S2x100000.Idx) :
    IsReal (val_main_v17 (F := Ideal) x5 i) := by
  rw [val_main_v17_apply, val_main_v16_apply]; exact clip_real_v3 x5 _

theorem coord_real_v20 (x5 : (⟨S2x100000x3, .f32⟩ : BufTy).Contents (Elt Ideal)) (i : S2x100000.Idx) :
    IsReal (val_main_v20 (F := Ideal) x5 i) := by
  rw [val_main_v20_apply, val_main_v19_apply]; exact clip_real_v3 x5 _

theorem coord_real_v29 (x5 : (⟨S2x100000x3, .f32⟩ : BufTy).Contents (Elt Ideal)) (i : S2x100000.Idx) :
    IsReal (val_main_v29 (F := Ideal) x5 i) := by
  rw [val_main_v29_apply, val_main_v28_apply]; exact clip_real_v3 x5 _

theorem coord_real_v33 (x5 : (⟨S2x100000x3, .f32⟩ : BufTy).Contents (Elt Ideal)) (i : S2x100000.Idx) :
    IsReal (val_main_v33 (F := Ideal) x5 i) := by
  rw [val_main_v33_apply, val_main_v32_apply]; exact clip_real_v3 x5 _

theorem coord_real_v37 (x5 : (⟨S2x100000x3, .f32⟩ : BufTy).Contents (Elt Ideal)) (i : S2x100000.Idx) :
    IsReal (val_main_v37 (F := Ideal) x5 i) := by
  rw [val_main_v37_apply, val_main_v36_apply]; exact clip_real_v3 x5 _

theorem coord_real_v41 (x5 : (⟨S2x100000x3, .f32⟩ : BufTy).Contents (Elt Ideal)) (i : S2x100000.Idx) :
    IsReal (val_main_v41 (F := Ideal) x5 i) := by
  rw [val_main_v41_apply, val_main_v40_apply]; exact clip_real_v3 x5 _

theorem coord_real_v45 (x5 : (⟨S2x100000x3, .f32⟩ : BufTy).Contents (Elt Ideal)) (i : S2x100000.Idx) :
    IsReal (val_main_v45 (F := Ideal) x5 i) := by
  rw [val_main_v45_apply, val_main_v44_apply]; exact clip_real_v3 x5 _

theorem coord_real_v49 (x5 : (⟨S2x100000x3, .f32⟩ : BufTy).Contents (Elt Ideal)) (i : S2x100000.Idx) :
    IsReal (val_main_v49 (F := Ideal) x5 i) := by
  rw [val_main_v49_apply, val_main_v48_apply]; exact clip_real_v3 x5 _

theorem floor_real_v6 (x5 : (⟨S2x100000x3, .f32⟩ : BufTy).Contents (Elt Ideal)) (i : S2x100000.Idx) :
    IsReal (val_main_v6 (F := Ideal) x5 i) := by
  rw [val_main_v6_apply]; exact floor_real (coord_real_v5 x5 i)

theorem floor_real_v12 (x5 : (⟨S2x100000x3, .f32⟩ : BufTy).Contents (Elt Ideal)) (i : S2x100000.Idx) :
    IsReal (val_main_v12 (F := Ideal) x5 i) := by
  rw [val_main_v12_apply]; exact floor_real (coord_real_v11 x5 i)

theorem floor_real_v18 (x5 : (⟨S2x100000x3, .f32⟩ : BufTy).Contents (Elt Ideal)) (i : S2x100000.Idx) :
    IsReal (val_main_v18 (F := Ideal) x5 i) := by
  rw [val_main_v18_apply]; exact floor_real (coord_real_v17 x5 i)

theorem ceil_real_v9 (x5 : (⟨S2x100000x3, .f32⟩ : BufTy).Contents (Elt Ideal)) (i : S2x100000.Idx) :
    IsReal (val_main_v9 (F := Ideal) x5 i) := by
  rw [val_main_v9_apply]; exact ceil_real (coord_real_v8 x5 i)

theorem ceil_real_v15 (x5 : (⟨S2x100000x3, .f32⟩ : BufTy).Contents (Elt Ideal)) (i : S2x100000.Idx) :
    IsReal (val_main_v15 (F := Ideal) x5 i) := by
  rw [val_main_v15_apply]; exact ceil_real (coord_real_v14 x5 i)

theorem ceil_real_v21 (x5 : (⟨S2x100000x3, .f32⟩ : BufTy).Contents (Elt Ideal)) (i : S2x100000.Idx) :
    IsReal (val_main_v21 (F := Ideal) x5 i) := by
  rw [val_main_v21_apply]; exact ceil_real (coord_real_v20 x5 i)

/-! ### The six fractional weights

Along each axis: the coordinate minus its floor, and its ceiling minus the coordinate. -/

theorem weight_real_v30 (x5 : (⟨S2x100000x3, .f32⟩ : BufTy).Contents (Elt Ideal)) (i : S2x100000.Idx) :
    IsReal (val_main_v30 (F := Ideal) x5 i) := by
  rw [val_main_v30_apply]; exact IsReal.sub (coord_real_v29 x5 i) (floor_real_v6 x5 i)

theorem weight_real_v34 (x5 : (⟨S2x100000x3, .f32⟩ : BufTy).Contents (Elt Ideal)) (i : S2x100000.Idx) :
    IsReal (val_main_v34 (F := Ideal) x5 i) := by
  rw [val_main_v34_apply]; exact IsReal.sub (ceil_real_v9 x5 i) (coord_real_v33 x5 i)

theorem weight_real_v38 (x5 : (⟨S2x100000x3, .f32⟩ : BufTy).Contents (Elt Ideal)) (i : S2x100000.Idx) :
    IsReal (val_main_v38 (F := Ideal) x5 i) := by
  rw [val_main_v38_apply]; exact IsReal.sub (coord_real_v37 x5 i) (floor_real_v12 x5 i)

theorem weight_real_v42 (x5 : (⟨S2x100000x3, .f32⟩ : BufTy).Contents (Elt Ideal)) (i : S2x100000.Idx) :
    IsReal (val_main_v42 (F := Ideal) x5 i) := by
  rw [val_main_v42_apply]; exact IsReal.sub (ceil_real_v15 x5 i) (coord_real_v41 x5 i)

theorem weight_real_v46 (x5 : (⟨S2x100000x3, .f32⟩ : BufTy).Contents (Elt Ideal)) (i : S2x100000.Idx) :
    IsReal (val_main_v46 (F := Ideal) x5 i) := by
  rw [val_main_v46_apply]; exact IsReal.sub (coord_real_v45 x5 i) (floor_real_v18 x5 i)

theorem weight_real_v50 (x5 : (⟨S2x100000x3, .f32⟩ : BufTy).Contents (Elt Ideal)) (i : S2x100000.Idx) :
    IsReal (val_main_v50 (F := Ideal) x5 i) := by
  rw [val_main_v50_apply]; exact IsReal.sub (ceil_real_v21 x5 i) (coord_real_v49 x5 i)

/-! ### The eight corners

Each corner array gathers elements of the feature array: every one of its elements is an element of the
feature array, at an index the coordinates decide. -/

theorem corner_real_v226 (x : (⟨S2x64x64x64x32, .f32⟩ : BufTy).Contents (Elt Ideal)) (x5 : (⟨S2x100000x3, .f32⟩ : BufTy).Contents (Elt Ideal))
    (hx : ∀ i, IsReal (x i)) (i : S2x100000x32.Idx) : IsReal (val_main_v226 (F := Ideal) x x5 i) := by
  unfold val_main_v226; exact hx _

theorem corner_real_v206 (x : (⟨S2x64x64x64x32, .f32⟩ : BufTy).Contents (Elt Ideal)) (x5 : (⟨S2x100000x3, .f32⟩ : BufTy).Contents (Elt Ideal))
    (hx : ∀ i, IsReal (x i)) (i : S2x100000x32.Idx) : IsReal (val_main_v206 (F := Ideal) x x5 i) := by
  unfold val_main_v206; exact hx _

theorem corner_real_v186 (x : (⟨S2x64x64x64x32, .f32⟩ : BufTy).Contents (Elt Ideal)) (x5 : (⟨S2x100000x3, .f32⟩ : BufTy).Contents (Elt Ideal))
    (hx : ∀ i, IsReal (x i)) (i : S2x100000x32.Idx) : IsReal (val_main_v186 (F := Ideal) x x5 i) := by
  unfold val_main_v186; exact hx _

theorem corner_real_v166 (x : (⟨S2x64x64x64x32, .f32⟩ : BufTy).Contents (Elt Ideal)) (x5 : (⟨S2x100000x3, .f32⟩ : BufTy).Contents (Elt Ideal))
    (hx : ∀ i, IsReal (x i)) (i : S2x100000x32.Idx) : IsReal (val_main_v166 (F := Ideal) x x5 i) := by
  unfold val_main_v166; exact hx _

theorem corner_real_v131 (x : (⟨S2x64x64x64x32, .f32⟩ : BufTy).Contents (Elt Ideal)) (x5 : (⟨S2x100000x3, .f32⟩ : BufTy).Contents (Elt Ideal))
    (hx : ∀ i, IsReal (x i)) (i : S2x100000x32.Idx) : IsReal (val_main_v131 (F := Ideal) x x5 i) := by
  unfold val_main_v131; exact hx _

theorem corner_real_v111 (x : (⟨S2x64x64x64x32, .f32⟩ : BufTy).Contents (Elt Ideal)) (x5 : (⟨S2x100000x3, .f32⟩ : BufTy).Contents (Elt Ideal))
    (hx : ∀ i, IsReal (x i)) (i : S2x100000x32.Idx) : IsReal (val_main_v111 (F := Ideal) x x5 i) := by
  unfold val_main_v111; exact hx _

theorem corner_real_v91 (x : (⟨S2x64x64x64x32, .f32⟩ : BufTy).Contents (Elt Ideal)) (x5 : (⟨S2x100000x3, .f32⟩ : BufTy).Contents (Elt Ideal))
    (hx : ∀ i, IsReal (x i)) (i : S2x100000x32.Idx) : IsReal (val_main_v91 (F := Ideal) x x5 i) := by
  unfold val_main_v91; exact hx _

theorem corner_real_v71 (x : (⟨S2x64x64x64x32, .f32⟩ : BufTy).Contents (Elt Ideal)) (x5 : (⟨S2x100000x3, .f32⟩ : BufTy).Contents (Elt Ideal))
    (hx : ∀ i, IsReal (x i)) (i : S2x100000x32.Idx) : IsReal (val_main_v71 (F := Ideal) x x5 i) := by
  unfold val_main_v71; exact hx _

end Cert.Finite

end
-- ==== Proof.Val.LeafReal1.lean ====
/-
  The leaves of the reference's arithmetic are real numbers, pyramid level 1. The reference interpolates
  between eight corner values with six fractional weights. Each corner array gathers elements of the level's
  feature array, so it is real wherever the feature array is. Each weight is a clipped coordinate minus its
  floor, or its ceiling minus the clipped coordinate; the clip's two bounds are real literals, so the clipped
  coordinate is real whatever the coordinate was, and so are its floor, its ceiling and the two differences.
-/
import proofs.«171014_j76854144795318_1_alg».proof.Proof.Val.Finite
import proofs.«171014_j76854144795318_1_alg».proof.Proof.Val.RefGen

noncomputable section

namespace Cert.Finite

open Idealize.ShloMosaic Cert.ReferenceIdeal Cert.ReferenceIdeal.Read

/-! ### The clipped coordinates -/

/-- A coordinate clipped between two bounds that are real numbers is a real number. -/
private theorem clip_lit {a b : EReal} (ha : IsReal a) (hb : IsReal b) (x : EReal) : IsReal (min b (max a x)) := by
  obtain ⟨lo, rfl⟩ := ha
  obtain ⟨hi, rfl⟩ := hb
  exact clip_real lo hi x

/-- The scaled coordinates, clipped between the two literals, are real at every index, whatever the
    coordinates were. -/
theorem clip_real_v250 (x5 : (⟨S2x100000x3, .f32⟩ : BufTy).Contents (Elt Ideal)) (j : S2x100000x3.Idx) :
    IsReal (val_main_v250 (F := Ideal) x5 j) := by
  rw [val_main_v250_apply, val_main_call1_v4_apply, val_main_call1_v3_apply, val_main_cst_52_apply,
    val_main_call1_v2_apply, val_main_call1_v1_apply, val_main_call1_v0_apply, val_main_cst_51_apply]
  exact clip_lit lit_real_3C23D70A lit_real_41F7EB85 _

/-! ### One axis of the clipped coordinates, its floor and its ceiling

Each of these arrays reads one column of the clipped coordinates (a slice, then a reshape), so each of its
elements is an element of the clipped array. -/

theorem coord_real_v252 (x5 : (⟨S2x100000x3, .f32⟩ : BufTy).Contents (Elt Ideal)) (i : S2x100000.Idx) :
    IsReal (val_main_v252 (F := Ideal) x5 i) := by
  rw [val_main_v252_apply, val_main_v251_apply]; exact clip_real_v250 x5 _

theorem coord_real_v255 (x5 : (⟨S2x100000x3, .f32⟩ : BufTy).Contents (Elt Ideal)) (i : S2x100000.Idx) :
    IsReal (val_main_v255 (F := Ideal) x5 i) := by
  rw [val_main_v255_apply, val_main_v254_apply]; exact clip_real_v250 x5 _

theorem coord_real_v258 (x5 : (⟨S2x100000x3, .f32⟩ : BufTy).Contents (Elt Ideal)) (i : S2x100000.Idx) :
    IsReal (val_main_v258 (F := Ideal) x5 i) := by
  rw [val_main_v258_apply, val_main_v257_apply]; exact clip_real_v250 x5 _

theorem coord_real_v261 (x5 : (⟨S2x100000x3, .f32⟩ : BufTy).Contents (Elt Ideal)) (i : S2x100000.Idx) :
    IsReal (val_main_v261 (F := Ideal) x5 i) := by
  rw [val_main_v261_apply, val_main_v260_apply]; exact clip_real_v250 x5 _

theorem coord_real_v264 (x5 : (⟨S2x100000x3, .f32⟩ : BufTy).Contents (Elt Ideal)) (i : S2x100000.Idx) :
    IsReal (val_main_v264 (F := Ideal) x5 i) := by
  rw [val_main_v264_apply, val_main_v263_apply]; exact clip_real_v250 x5 _

theorem coord_real_v267 (x5 : (⟨S2x100000x3, .f32⟩ : BufTy).Contents (Elt Ideal)) (i : S2x100000.Idx) :
    IsReal (val_main_v267 (F := Ideal) x5 i) := by
  rw [val_main_v267_apply, val_main_v266_apply]; exact clip_real_v250 x5 _

theorem coord_real_v276 (x5 : (⟨S2x100000x3, .f32⟩ : BufTy).Contents (Elt Ideal)) (i : S2x100000.Idx) :
    IsReal (val_main_v276 (F := Ideal) x5 i) := by
  rw [val_main_v276_apply, val_main_v275_apply]; exact clip_real_v250 x5 _

theorem coord_real_v280 (x5 : (⟨S2x100000x3, .f32⟩ : BufTy).Contents (Elt Ideal)) (i : S2x100000.Idx) :
    IsReal (val_main_v280 (F := Ideal) x5 i) := by
  rw [val_main_v280_apply, val_main_v279_apply]; exact clip_real_v250 x5 _

theorem coord_real_v284 (x5 : (⟨S2x100000x3, .f32⟩ : BufTy).Contents (Elt Ideal)) (i : S2x100000.Idx) :
    IsReal (val_main_v284 (F := Ideal) x5 i) := by
  rw [val_main_v284_apply, val_main_v283_apply]; exact clip_real_v250 x5 _

theorem coord_real_v288 (x5 : (⟨S2x100000x3, .f32⟩ : BufTy).Contents (Elt Ideal)) (i : S2x100000.Idx) :
    IsReal (val_main_v288 (F := Ideal) x5 i) := by
  rw [val_main_v288_apply, val_main_v287_apply]; exact clip_real_v250 x5 _

theorem coord_real_v292 (x5 : (⟨S2x100000x3, .f32⟩ : BufTy).Contents (Elt Ideal)) (i : S2x100000.Idx) :
    IsReal (val_main_v292 (F := Ideal) x5 i) := by
  rw [val_main_v292_apply, val_main_v291_apply]; exact clip_real_v250 x5 _

theorem coord_real_v296 (x5 : (⟨S2x100000x3, .f32⟩ : BufTy).Contents (Elt Ideal)) (i : S2x100000.Idx) :
    IsReal (val_main_v296 (F := Ideal) x5 i) := by
  rw [val_main_v296_apply, val_main_v295_apply]; exact clip_real_v250 x5 _

theorem floor_real_v253 (x5 : (⟨S2x100000x3, .f32⟩ : BufTy).Contents (Elt Ideal)) (i : S2x100000.Idx) :
    IsReal (val_main_v253 (F := Ideal) x5 i) := by
  rw [val_main_v253_apply]; exact floor_real (coord_real_v252 x5 i)

theorem floor_real_v259 (x5 : (⟨S2x100000x3, .f32⟩ : BufTy).Contents (Elt Ideal)) (i : S2x100000.Idx) :
    IsReal (val_main_v259 (F := Ideal) x5 i) := by
  rw [val_main_v259_apply]; exact floor_real (coord_real_v258 x5 i)

theorem floor_real_v265 (x5 : (⟨S2x100000x3, .f32⟩ : BufTy).Contents (Elt Ideal)) (i : S2x100000.Idx) :
    IsReal (val_main_v265 (F := Ideal) x5 i) := by
  rw [val_main_v265_apply]; exact floor_real (coord_real_v264 x5 i)

theorem ceil_real_v256 (x5 : (⟨S2x100000x3, .f32⟩ : BufTy).Contents (Elt Ideal)) (i : S2x100000.Idx) :
    IsReal (val_main_v256 (F := Ideal) x5 i) := by
  rw [val_main_v256_apply]; exact ceil_real (coord_real_v255 x5 i)

theorem ceil_real_v262 (x5 : (⟨S2x100000x3, .f32⟩ : BufTy).Contents (Elt Ideal)) (i : S2x100000.Idx) :
    IsReal (val_main_v262 (F := Ideal) x5 i) := by
  rw [val_main_v262_apply]; exact ceil_real (coord_real_v261 x5 i)

theorem ceil_real_v268 (x5 : (⟨S2x100000x3, .f32⟩ : BufTy).Contents (Elt Ideal)) (i : S2x100000.Idx) :
    IsReal (val_main_v268 (F := Ideal) x5 i) := by
  rw [val_main_v268_apply]; exact ceil_real (coord_real_v267 x5 i)

/-! ### The six fractional weights

Along each axis: the coordinate minus its floor, and its ceiling minus the coordinate. -/

theorem weight_real_v277 (x5 : (⟨S2x100000x3, .f32⟩ : BufTy).Contents (Elt Ideal)) (i : S2x100000.Idx) :
    IsReal (val_main_v277 (F := Ideal) x5 i) := by
  rw [val_main_v277_apply]; exact IsReal.sub (coord_real_v276 x5 i) (floor_real_v253 x5 i)

theorem weight_real_v281 (x5 : (⟨S2x100000x3, .f32⟩ : BufTy).Contents (Elt Ideal)) (i : S2x100000.Idx) :
    IsReal (val_main_v281 (F := Ideal) x5 i) := by
  rw [val_main_v281_apply]; exact IsReal.sub (ceil_real_v256 x5 i) (coord_real_v280 x5 i)

theorem weight_real_v285 (x5 : (⟨S2x100000x3, .f32⟩ : BufTy).Contents (Elt Ideal)) (i : S2x100000.Idx) :
    IsReal (val_main_v285 (F := Ideal) x5 i) := by
  rw [val_main_v285_apply]; exact IsReal.sub (coord_real_v284 x5 i) (floor_real_v259 x5 i)

theorem weight_real_v289 (x5 : (⟨S2x100000x3, .f32⟩ : BufTy).Contents (Elt Ideal)) (i : S2x100000.Idx) :
    IsReal (val_main_v289 (F := Ideal) x5 i) := by
  rw [val_main_v289_apply]; exact IsReal.sub (ceil_real_v262 x5 i) (coord_real_v288 x5 i)

theorem weight_real_v293 (x5 : (⟨S2x100000x3, .f32⟩ : BufTy).Contents (Elt Ideal)) (i : S2x100000.Idx) :
    IsReal (val_main_v293 (F := Ideal) x5 i) := by
  rw [val_main_v293_apply]; exact IsReal.sub (coord_real_v292 x5 i) (floor_real_v265 x5 i)

theorem weight_real_v297 (x5 : (⟨S2x100000x3, .f32⟩ : BufTy).Contents (Elt Ideal)) (i : S2x100000.Idx) :
    IsReal (val_main_v297 (F := Ideal) x5 i) := by
  rw [val_main_v297_apply]; exact IsReal.sub (ceil_real_v268 x5 i) (coord_real_v296 x5 i)

/-! ### The eight corners

Each corner array gathers elements of the feature array: every one of its elements is an element of the
feature array, at an index the coordinates decide. -/

theorem corner_real_v473 (x : (⟨S2x32x32x32x64, .f32⟩ : BufTy).Contents (Elt Ideal)) (x5 : (⟨S2x100000x3, .f32⟩ : BufTy).Contents (Elt Ideal))
    (hx : ∀ i, IsReal (x i)) (i : S2x100000x64.Idx) : IsReal (val_main_v473 (F := Ideal) x x5 i) := by
  unfold val_main_v473; exact hx _

theorem corner_real_v453 (x : (⟨S2x32x32x32x64, .f32⟩ : BufTy).Contents (Elt Ideal)) (x5 : (⟨S2x100000x3, .f32⟩ : BufTy).Contents (Elt Ideal))
    (hx : ∀ i, IsReal (x i)) (i : S2x100000x64.Idx) : IsReal (val_main_v453 (F := Ideal) x x5 i) := by
  unfold val_main_v453; exact hx _

theorem corner_real_v433 (x : (⟨S2x32x32x32x64, .f32⟩ : BufTy).Contents (Elt Ideal)) (x5 : (⟨S2x100000x3, .f32⟩ : BufTy).Contents (Elt Ideal))
    (hx : ∀ i, IsReal (x i)) (i : S2x100000x64.Idx) : IsReal (val_main_v433 (F := Ideal) x x5 i) := by
  unfold val_main_v433; exact hx _

theorem corner_real_v413 (x : (⟨S2x32x32x32x64, .f32⟩ : BufTy).Contents (Elt Ideal)) (x5 : (⟨S2x100000x3, .f32⟩ : BufTy).Contents (Elt Ideal))
    (hx : ∀ i, IsReal (x i)) (i : S2x100000x64.Idx) : IsReal (val_main_v413 (F := Ideal) x x5 i) := by
  unfold val_main_v413; exact hx _

theorem corner_real_v378 (x : (⟨S2x32x32x32x64, .f32⟩ : BufTy).Contents (Elt Ideal)) (x5 : (⟨S2x100000x3, .f32⟩ : BufTy).Contents (Elt Ideal))
    (hx : ∀ i, IsReal (x i)) (i : S2x100000x64.Idx) : IsReal (val_main_v378 (F := Ideal) x x5 i) := by
  unfold val_main_v378; exact hx _

theorem corner_real_v358 (x : (⟨S2x32x32x32x64, .f32⟩ : BufTy).Contents (Elt Ideal)) (x5 : (⟨S2x100000x3, .f32⟩ : BufTy).Contents (Elt Ideal))
    (hx : ∀ i, IsReal (x i)) (i : S2x100000x64.Idx) : IsReal (val_main_v358 (F := Ideal) x x5 i) := by
  unfold val_main_v358; exact hx _

theorem corner_real_v338 (x : (⟨S2x32x32x32x64, .f32⟩ : BufTy).Contents (Elt Ideal)) (x5 : (⟨S2x100000x3, .f32⟩ : BufTy).Contents (Elt Ideal))
    (hx : ∀ i, IsReal (x i)) (i : S2x100000x64.Idx) : IsReal (val_main_v338 (F := Ideal) x x5 i) := by
  unfold val_main_v338; exact hx _

theorem corner_real_v318 (x : (⟨S2x32x32x32x64, .f32⟩ : BufTy).Contents (Elt Ideal)) (x5 : (⟨S2x100000x3, .f32⟩ : BufTy).Contents (Elt Ideal))
    (hx : ∀ i, IsReal (x i)) (i : S2x100000x64.Idx) : IsReal (val_main_v318 (F := Ideal) x x5 i) := by
  unfold val_main_v318; exact hx _

end Cert.Finite

end
-- ==== Proof.Val.LeafReal2.lean ====
/-
  The leaves of the reference's arithmetic are real numbers, pyramid level 2. The reference interpolates
  between eight corner values with six fractional weights. Each corner array gathers elements of the level's
  feature array, so it is real wherever the feature array is. Each weight is a clipped coordinate minus its
  floor, or its ceiling minus the clipped coordinate; the clip's two bounds are real literals, so the clipped
  coordinate is real whatever the coordinate was, and so are its floor, its ceiling and the two differences.
-/
import proofs.«171014_j76854144795318_1_alg».proof.Proof.Val.Finite
import proofs.«171014_j76854144795318_1_alg».proof.Proof.Val.RefGen

noncomputable section

namespace Cert.Finite

open Idealize.ShloMosaic Cert.ReferenceIdeal Cert.ReferenceIdeal.Read

/-! ### The clipped coordinates -/

/-- A coordinate clipped between two bounds that are real numbers is a real number. -/
private theorem clip_lit {a b : EReal} (ha : IsReal a) (hb : IsReal b) (x : EReal) : IsReal (min b (max a x)) := by
  obtain ⟨lo, rfl⟩ := ha
  obtain ⟨hi, rfl⟩ := hb
  exact clip_real lo hi x

/-- The scaled coordinates, clipped between the two literals, are real at every index, whatever the
    coordinates were. -/
theorem clip_real_v497 (x5 : (⟨S2x100000x3, .f32⟩ : BufTy).Contents (Elt Ideal)) (j : S2x100000x3.Idx) :
    IsReal (val_main_v497 (F := Ideal) x5 j) := by
  rw [val_main_v497_apply, val_main_call2_v4_apply, val_main_call2_v3_apply, val_main_cst_102_apply,
    val_main_call2_v2_apply, val_main_call2_v1_apply, val_main_call2_v0_apply, val_main_cst_101_apply]
  exact clip_lit lit_real_3C23D70A lit_real_416FD70A _

/-! ### One axis of the clipped coordinates, its floor and its ceiling

Each of these arrays reads one column of the clipped coordinates (a slice, then a reshape), so each of its
elements is an element of the clipped array. -/

theorem coord_real_v499 (x5 : (⟨S2x100000x3, .f32⟩ : BufTy).Contents (Elt Ideal)) (i : S2x100000.Idx) :
    IsReal (val_main_v499 (F := Ideal) x5 i) := by
  rw [val_main_v499_apply, val_main_v498_apply]; exact clip_real_v497 x5 _

theorem coord_real_v502 (x5 : (⟨S2x100000x3, .f32⟩ : BufTy).Contents (Elt Ideal)) (i : S2x100000.Idx) :
    IsReal (val_main_v502 (F := Ideal) x5 i) := by
  rw [val_main_v502_apply, val_main_v501_apply]; exact clip_real_v497 x5 _

theorem coord_real_v505 (x5 : (⟨S2x100000x3, .f32⟩ : BufTy).Contents (Elt Ideal)) (i : S2x100000.Idx) :
    IsReal (val_main_v505 (F := Ideal) x5 i) := by
  rw [val_main_v505_apply, val_main_v504_apply]; exact clip_real_v497 x5 _

theorem coord_real_v508 (x5 : (⟨S2x100000x3, .f32⟩ : BufTy).Contents (Elt Ideal)) (i : S2x100000.Idx) :
    IsReal (val_main_v508 (F := Ideal) x5 i) := by
  rw [val_main_v508_apply, val_main_v507_apply]; exact clip_real_v497 x5 _

theorem coord_real_v511 (x5 : (⟨S2x100000x3, .f32⟩ : BufTy).Contents (Elt Ideal)) (i : S2x100000.Idx) :
    IsReal (val_main_v511 (F := Ideal) x5 i) := by
  rw [val_main_v511_apply, val_main_v510_apply]; exact clip_real_v497 x5 _

theorem coord_real_v514 (x5 : (⟨S2x100000x3, .f32⟩ : BufTy).Contents (Elt Ideal)) (i : S2x100000.Idx) :
    IsReal (val_main_v514 (F := Ideal) x5 i) := by
  rw [val_main_v514_apply, val_main_v513_apply]; exact clip_real_v497 x5 _

theorem coord_real_v523 (x5 : (⟨S2x100000x3, .f32⟩ : BufTy).Contents (Elt Ideal)) (i : S2x100000.Idx) :
    IsReal (val_main_v523 (F := Ideal) x5 i) := by
  rw [val_main_v523_apply, val_main_v522_apply]; exact clip_real_v497 x5 _

theorem coord_real_v527 (x5 : (⟨S2x100000x3, .f32⟩ : BufTy).Contents (Elt Ideal)) (i : S2x100000.Idx) :
    IsReal (val_main_v527 (F := Ideal) x5 i) := by
  rw [val_main_v527_apply, val_main_v526_apply]; exact clip_real_v497 x5 _

theorem coord_real_v531 (x5 : (⟨S2x100000x3, .f32⟩ : BufTy).Contents (Elt Ideal)) (i : S2x100000.Idx) :
    IsReal (val_main_v531 (F := Ideal) x5 i) := by
  rw [val_main_v531_apply, val_main_v530_apply]; exact clip_real_v497 x5 _

theorem coord_real_v535 (x5 : (⟨S2x100000x3, .f32⟩ : BufTy).Contents (Elt Ideal)) (i : S2x100000.Idx) :
    IsReal (val_main_v535 (F := Ideal) x5 i) := by
  rw [val_main_v535_apply, val_main_v534_apply]; exact clip_real_v497 x5 _

theorem coord_real_v539 (x5 : (⟨S2x100000x3, .f32⟩ : BufTy).Contents (Elt Ideal)) (i : S2x100000.Idx) :
    IsReal (val_main_v539 (F := Ideal) x5 i) := by
  rw [val_main_v539_apply, val_main_v538_apply]; exact clip_real_v497 x5 _

theorem coord_real_v543 (x5 : (⟨S2x100000x3, .f32⟩ : BufTy).Contents (Elt Ideal)) (i : S2x100000.Idx) :
    IsReal (val_main_v543 (F := Ideal) x5 i) := by
  rw [val_main_v543_apply, val_main_v542_apply]; exact clip_real_v497 x5 _

theorem floor_real_v500 (x5 : (⟨S2x100000x3, .f32⟩ : BufTy).Contents (Elt Ideal)) (i : S2x100000.Idx) :
    IsReal (val_main_v500 (F := Ideal) x5 i) := by
  rw [val_main_v500_apply]; exact floor_real (coord_real_v499 x5 i)

theorem floor_real_v506 (x5 : (⟨S2x100000x3, .f32⟩ : BufTy).Contents (Elt Ideal)) (i : S2x100000.Idx) :
    IsReal (val_main_v506 (F := Ideal) x5 i) := by
  rw [val_main_v506_apply]; exact floor_real (coord_real_v505 x5 i)

theorem floor_real_v512 (x5 : (⟨S2x100000x3, .f32⟩ : BufTy).Contents (Elt Ideal)) (i : S2x100000.Idx) :
    IsReal (val_main_v512 (F := Ideal) x5 i) := by
  rw [val_main_v512_apply]; exact floor_real (coord_real_v511 x5 i)

theorem ceil_real_v503 (x5 : (⟨S2x100000x3, .f32⟩ : BufTy).Contents (Elt Ideal)) (i : S2x100000.Idx) :
    IsReal (val_main_v503 (F := Ideal) x5 i) := by
  rw [val_main_v503_apply]; exact ceil_real (coord_real_v502 x5 i)

theorem ceil_real_v509 (x5 : (⟨S2x100000x3, .f32⟩ : BufTy).Contents (Elt Ideal)) (i : S2x100000.Idx) :
    IsReal (val_main_v509 (F := Ideal) x5 i) := by
  rw [val_main_v509_apply]; exact ceil_real (coord_real_v508 x5 i)

theorem ceil_real_v515 (x5 : (⟨S2x100000x3, .f32⟩ : BufTy).Contents (Elt Ideal)) (i : S2x100000.Idx) :
    IsReal (val_main_v515 (F := Ideal) x5 i) := by
  rw [val_main_v515_apply]; exact ceil_real (coord_real_v514 x5 i)

/-! ### The six fractional weights

Along each axis: the coordinate minus its floor, and its ceiling minus the coordinate. -/

theorem weight_real_v524 (x5 : (⟨S2x100000x3, .f32⟩ : BufTy).Contents (Elt Ideal)) (i : S2x100000.Idx) :
    IsReal (val_main_v524 (F := Ideal) x5 i) := by
  rw [val_main_v524_apply]; exact IsReal.sub (coord_real_v523 x5 i) (floor_real_v500 x5 i)

theorem weight_real_v528 (x5 : (⟨S2x100000x3, .f32⟩ : BufTy).Contents (Elt Ideal)) (i : S2x100000.Idx) :
    IsReal (val_main_v528 (F := Ideal) x5 i) := by
  rw [val_main_v528_apply]; exact IsReal.sub (ceil_real_v503 x5 i) (coord_real_v527 x5 i)

theorem weight_real_v532 (x5 : (⟨S2x100000x3, .f32⟩ : BufTy).Contents (Elt Ideal)) (i : S2x100000.Idx) :
    IsReal (val_main_v532 (F := Ideal) x5 i) := by
  rw [val_main_v532_apply]; exact IsReal.sub (coord_real_v531 x5 i) (floor_real_v506 x5 i)

theorem weight_real_v536 (x5 : (⟨S2x100000x3, .f32⟩ : BufTy).Contents (Elt Ideal)) (i : S2x100000.Idx) :
    IsReal (val_main_v536 (F := Ideal) x5 i) := by
  rw [val_main_v536_apply]; exact IsReal.sub (ceil_real_v509 x5 i) (coord_real_v535 x5 i)

theorem weight_real_v540 (x5 : (⟨S2x100000x3, .f32⟩ : BufTy).Contents (Elt Ideal)) (i : S2x100000.Idx) :
    IsReal (val_main_v540 (F := Ideal) x5 i) := by
  rw [val_main_v540_apply]; exact IsReal.sub (coord_real_v539 x5 i) (floor_real_v512 x5 i)

theorem weight_real_v544 (x5 : (⟨S2x100000x3, .f32⟩ : BufTy).Contents (Elt Ideal)) (i : S2x100000.Idx) :
    IsReal (val_main_v544 (F := Ideal) x5 i) := by
  rw [val_main_v544_apply]; exact IsReal.sub (ceil_real_v515 x5 i) (coord_real_v543 x5 i)

/-! ### The eight corners

Each corner array gathers elements of the feature array: every one of its elements is an element of the
feature array, at an index the coordinates decide. -/

theorem corner_real_v720 (x : (⟨S2x16x16x16x128, .f32⟩ : BufTy).Contents (Elt Ideal)) (x5 : (⟨S2x100000x3, .f32⟩ : BufTy).Contents (Elt Ideal))
    (hx : ∀ i, IsReal (x i)) (i : S2x100000x128.Idx) : IsReal (val_main_v720 (F := Ideal) x x5 i) := by
  unfold val_main_v720; exact hx _

theorem corner_real_v700 (x : (⟨S2x16x16x16x128, .f32⟩ : BufTy).Contents (Elt Ideal)) (x5 : (⟨S2x100000x3, .f32⟩ : BufTy).Contents (Elt Ideal))
    (hx : ∀ i, IsReal (x i)) (i : S2x100000x128.Idx) : IsReal (val_main_v700 (F := Ideal) x x5 i) := by
  unfold val_main_v700; exact hx _

theorem corner_real_v680 (x : (⟨S2x16x16x16x128, .f32⟩ : BufTy).Contents (Elt Ideal)) (x5 : (⟨S2x100000x3, .f32⟩ : BufTy).Contents (Elt Ideal))
    (hx : ∀ i, IsReal (x i)) (i : S2x100000x128.Idx) : IsReal (val_main_v680 (F := Ideal) x x5 i) := by
  unfold val_main_v680; exact hx _

theorem corner_real_v660 (x : (⟨S2x16x16x16x128, .f32⟩ : BufTy).Contents (Elt Ideal)) (x5 : (⟨S2x100000x3, .f32⟩ : BufTy).Contents (Elt Ideal))
    (hx : ∀ i, IsReal (x i)) (i : S2x100000x128.Idx) : IsReal (val_main_v660 (F := Ideal) x x5 i) := by
  unfold val_main_v660; exact hx _

theorem corner_real_v625 (x : (⟨S2x16x16x16x128, .f32⟩ : BufTy).Contents (Elt Ideal)) (x5 : (⟨S2x100000x3, .f32⟩ : BufTy).Contents (Elt Ideal))
    (hx : ∀ i, IsReal (x i)) (i : S2x100000x128.Idx) : IsReal (val_main_v625 (F := Ideal) x x5 i) := by
  unfold val_main_v625; exact hx _

theorem corner_real_v605 (x : (⟨S2x16x16x16x128, .f32⟩ : BufTy).Contents (Elt Ideal)) (x5 : (⟨S2x100000x3, .f32⟩ : BufTy).Contents (Elt Ideal))
    (hx : ∀ i, IsReal (x i)) (i : S2x100000x128.Idx) : IsReal (val_main_v605 (F := Ideal) x x5 i) := by
  unfold val_main_v605; exact hx _

theorem corner_real_v585 (x : (⟨S2x16x16x16x128, .f32⟩ : BufTy).Contents (Elt Ideal)) (x5 : (⟨S2x100000x3, .f32⟩ : BufTy).Contents (Elt Ideal))
    (hx : ∀ i, IsReal (x i)) (i : S2x100000x128.Idx) : IsReal (val_main_v585 (F := Ideal) x x5 i) := by
  unfold val_main_v585; exact hx _

theorem corner_real_v565 (x : (⟨S2x16x16x16x128, .f32⟩ : BufTy).Contents (Elt Ideal)) (x5 : (⟨S2x100000x3, .f32⟩ : BufTy).Contents (Elt Ideal))
    (hx : ∀ i, IsReal (x i)) (i : S2x100000x128.Idx) : IsReal (val_main_v565 (F := Ideal) x x5 i) := by
  unfold val_main_v565; exact hx _

end Cert.Finite

end
-- ==== Proof.Val.Concat3.lean ====
/-
  Three arrays of shapes (2, 100000, 32), (2, 100000, 64) and (2, 100000, 128) laid side by side along the last
  axis, read at one index of the (2, 100000, 224) result.

  Along the last axis the pieces span the channels 0 … 31, 32 … 95 and 96 … 223. So channel `j` of the result is
  channel `j` of the first piece when `j < 32`, channel `j - 32` of the second when `32 ≤ j < 96`, and channel
  `j - 96` of the third otherwise; the two leading coordinates are carried over unchanged. The statement holds for
  any element type and for any evidence of the concatenation's side condition.
-/
import Idealize.ShloMosaic.Lib.ValueIdx
import Idealize.ShloMosaic.Lib.Pipeline.Value

noncomputable section

namespace Cert.Spec

open Idealize.ShloMosaic Idealize.ShloMosaic.ValueIdx

/-- The leading coordinates of a rank-3 index built from coordinates are off the last axis, where a piece's index
    agrees with the result's. -/
private theorem off_axis {k K : Nat} (b : Fin 2) (n : Fin 100000) (i : Fin k) (j : Fin K)
    (a : Fin 3) (ha : a ≠ 2) : ((ix3 b n i) a).val = ((ix3 b n j) a).val := by
  match a with
  | ⟨0, _⟩ => rfl
  | ⟨1, _⟩ => rfl
  | ⟨2, _⟩ => exact absurd rfl ha

/-- The concatenation of three pieces of 32, 64 and 128 channels read at `(b, n, j)`: the piece whose span holds `j`,
    at `j` less the channels before that piece. -/
theorem concat3_apply {α : Type}
    (h : Shape.Concatenates [(⟨3, ![2, 100000, 32]⟩ : Shape), ⟨3, ![2, 100000, 64]⟩, ⟨3, ![2, 100000, 128]⟩]
      ⟨3, ![2, 100000, 224]⟩ 2)
    (x : (⟨3, ![2, 100000, 32]⟩ : Shape).Idx → α) (y : (⟨3, ![2, 100000, 64]⟩ : Shape).Idx → α)
    (z : (⟨3, ![2, 100000, 128]⟩ : Shape).Idx → α) (b : Fin 2) (n : Fin 100000) (j : Fin 224) :
    concatenate ⟨3, ![2, 100000, 224]⟩ 2
        [⟨⟨3, ![2, 100000, 32]⟩, x⟩, ⟨⟨3, ![2, 100000, 64]⟩, y⟩, ⟨⟨3, ![2, 100000, 128]⟩, z⟩] h (ix3 b n j)
      = if h0 : j.val < 32 then x (ix3 b n ⟨j.val, h0⟩)
        else if h1 : j.val < 96 then y (ix3 b n ⟨j.val - 32, by omega⟩)
        else z (ix3 b n ⟨j.val - 96, by omega⟩) := by
  by_cases h0 : j.val < 32
  · rw [dif_pos h0]
    refine concatenate_apply_piece (t := ⟨3, ![2, 100000, 224]⟩) (2 : Fin 3)
      [⟨⟨3, ![2, 100000, 32]⟩, x⟩, ⟨⟨3, ![2, 100000, 64]⟩, y⟩, ⟨⟨3, ![2, 100000, 128]⟩, z⟩] h _ 0 (by simp)
      ⟨3, ![2, 100000, 32]⟩ x rfl rfl 0 (by simp) _ (fun a ha => off_axis b n _ j a ha) ?_
    simp
  · rw [dif_neg h0]
    by_cases h1 : j.val < 96
    · rw [dif_pos h1]
      refine concatenate_apply_piece (t := ⟨3, ![2, 100000, 224]⟩) (2 : Fin 3)
        [⟨⟨3, ![2, 100000, 32]⟩, x⟩, ⟨⟨3, ![2, 100000, 64]⟩, y⟩, ⟨⟨3, ![2, 100000, 128]⟩, z⟩] h _ 1 (by simp)
        ⟨3, ![2, 100000, 64]⟩ y rfl rfl 32 (by simp) _ (fun a ha => off_axis b n _ j a ha) ?_
      show 32 + (j.val - 32) = j.val
      omega
    · rw [dif_neg h1]
      refine concatenate_apply_piece (t := ⟨3, ![2, 100000, 224]⟩) (2 : Fin 3)
        [⟨⟨3, ![2, 100000, 32]⟩, x⟩, ⟨⟨3, ![2, 100000, 64]⟩, y⟩, ⟨⟨3, ![2, 100000, 128]⟩, z⟩] h _ 2 (by simp)
        ⟨3, ![2, 100000, 128]⟩ z rfl rfl 96 (by simp) _ (fun a ha => off_axis b n _ j a ha) ?_
      show 96 + (j.val - 96) = j.val
      omega

end Cert.Spec

end
-- ==== Proof.Val.RefRead.lean ====
/-
  What the reference program computes, read at one index of its result, on the extended reals.

  For each of the three pyramid levels the reference gathers, around every query point, the eight corners of the
  cell of the feature grid that holds the point, and forms the six fractional weights of the point inside the cell
  (its distance to the floor and to the ceil along x, y and z). It then interpolates: along x on each of the four
  edges parallel to x, along y inside each of the two planes z = floor and z = ceil, and along z between the planes.
  A weight is an array over (batch, point); the program repeats it along the channel axis before each product, so at
  the index `(b, n, ch)` every repeated weight reads the weight at `(b, n)`. Reading the level's sums and products
  at `(b, n, ch)` through these repetitions gives `Cert.Spec.trilerp` of the eight corners at `(b, n, ch)` and the
  six weights at `(b, n)`: `ref_level0`, `ref_level1`, `ref_level2` for the levels of 32, 64 and 128 channels.
  The gathered corners and the weights themselves are left as they stand: they are the leaves of the formula.

  The result lays the three levels side by side along the channel axis: channels 0 … 31 are level 0, channels
  32 … 95 are level 1, channels 96 … 223 are level 2 (`ref_result`).
-/
import proofs.«171014_j76854144795318_1_alg».proof.Proof.Val.RefGen
import proofs.«171014_j76854144795318_1_alg».proof.Proof.Val.Spec
import proofs.«171014_j76854144795318_1_alg».proof.Proof.Val.Concat3
import Idealize.ShloMosaic.Lib.ValueIdx
import Idealize.ShloMosaic.Lib.ValueLayout
import Idealize.ShloMosaic.Lib.Pipeline.Value

noncomputable section

namespace Cert.RefRead

open Cert.ReferenceIdeal Cert.ReferenceIdeal.Read Idealize.ShloMosaic Idealize.ShloMosaic.ValueIdx

/-! ## Level 0 (channels of extent 32)

A weight is an array over (batch, point). The program gives it a third axis of extent one and repeats it along the
channels; read at `(b, n, ch)`, the repetition reads the extent-one axis at 0 and the first two coordinates
unchanged, so it reads the weight at `(b, n)`. One such equation for each repetition the level performs. -/

private theorem bc_v132 (b : Fin 2) (n : Fin 100000) (ch : Fin 32) :
    idx_main_v31 (idx_main_v132 (ix3 b n ch)) = ix2 b n := by
  funext a; match a with | ⟨0, _⟩ => rfl | ⟨1, _⟩ => rfl
private theorem bc_v134 (b : Fin 2) (n : Fin 100000) (ch : Fin 32) :
    idx_main_v35 (idx_main_v134 (ix3 b n ch)) = ix2 b n := by
  funext a; match a with | ⟨0, _⟩ => rfl | ⟨1, _⟩ => rfl
private theorem bc_v137 (b : Fin 2) (n : Fin 100000) (ch : Fin 32) :
    idx_main_v39 (idx_main_v137 (ix3 b n ch)) = ix2 b n := by
  funext a; match a with | ⟨0, _⟩ => rfl | ⟨1, _⟩ => rfl
private theorem bc_v139 (b : Fin 2) (n : Fin 100000) (ch : Fin 32) :
    idx_main_v31 (idx_main_v139 (ix3 b n ch)) = ix2 b n := by
  funext a; match a with | ⟨0, _⟩ => rfl | ⟨1, _⟩ => rfl
private theorem bc_v141 (b : Fin 2) (n : Fin 100000) (ch : Fin 32) :
    idx_main_v35 (idx_main_v141 (ix3 b n ch)) = ix2 b n := by
  funext a; match a with | ⟨0, _⟩ => rfl | ⟨1, _⟩ => rfl
private theorem bc_v144 (b : Fin 2) (n : Fin 100000) (ch : Fin 32) :
    idx_main_v43 (idx_main_v144 (ix3 b n ch)) = ix2 b n := by
  funext a; match a with | ⟨0, _⟩ => rfl | ⟨1, _⟩ => rfl
private theorem bc_v227 (b : Fin 2) (n : Fin 100000) (ch : Fin 32) :
    idx_main_v31 (idx_main_v227 (ix3 b n ch)) = ix2 b n := by
  funext a; match a with | ⟨0, _⟩ => rfl | ⟨1, _⟩ => rfl
private theorem bc_v229 (b : Fin 2) (n : Fin 100000) (ch : Fin 32) :
    idx_main_v35 (idx_main_v229 (ix3 b n ch)) = ix2 b n := by
  funext a; match a with | ⟨0, _⟩ => rfl | ⟨1, _⟩ => rfl
private theorem bc_v232 (b : Fin 2) (n : Fin 100000) (ch : Fin 32) :
    idx_main_v39 (idx_main_v232 (ix3 b n ch)) = ix2 b n := by
  funext a; match a with | ⟨0, _⟩ => rfl | ⟨1, _⟩ => rfl
private theorem bc_v234 (b : Fin 2) (n : Fin 100000) (ch : Fin 32) :
    idx_main_v31 (idx_main_v234 (ix3 b n ch)) = ix2 b n := by
  funext a; match a with | ⟨0, _⟩ => rfl | ⟨1, _⟩ => rfl
private theorem bc_v236 (b : Fin 2) (n : Fin 100000) (ch : Fin 32) :
    idx_main_v35 (idx_main_v236 (ix3 b n ch)) = ix2 b n := by
  funext a; match a with | ⟨0, _⟩ => rfl | ⟨1, _⟩ => rfl
private theorem bc_v239 (b : Fin 2) (n : Fin 100000) (ch : Fin 32) :
    idx_main_v43 (idx_main_v239 (ix3 b n ch)) = ix2 b n := by
  funext a; match a with | ⟨0, _⟩ => rfl | ⟨1, _⟩ => rfl
private theorem bc_v242 (b : Fin 2) (n : Fin 100000) (ch : Fin 32) :
    idx_main_v47 (idx_main_v242 (ix3 b n ch)) = ix2 b n := by
  funext a; match a with | ⟨0, _⟩ => rfl | ⟨1, _⟩ => rfl
private theorem bc_v244 (b : Fin 2) (n : Fin 100000) (ch : Fin 32) :
    idx_main_v51 (idx_main_v244 (ix3 b n ch)) = ix2 b n := by
  funext a; match a with | ⟨0, _⟩ => rfl | ⟨1, _⟩ => rfl

/-- level 0 of the reference at (b, n, ch): interpolation along x, then y, then z of the eight gathered corners -/
theorem ref_level0 (x1 : (⟨S2x64x64x64x32, .f32⟩ : BufTy).Contents (Elt Ideal)) (x5 : (⟨S2x100000x3, .f32⟩ : BufTy).Contents (Elt Ideal)) (b : Fin 2) (n : Fin 100000) (ch : Fin 32) :
    val_main_v246 (F := Ideal) x1 x5 (ix3 b n ch)
      = Cert.Spec.trilerp (val_main_v226 (F := Ideal) x1 x5 (ix3 b n ch)) (val_main_v206 (F := Ideal) x1 x5 (ix3 b n ch)) (val_main_v186 (F := Ideal) x1 x5 (ix3 b n ch)) (val_main_v166 (F := Ideal) x1 x5 (ix3 b n ch))
          (val_main_v131 (F := Ideal) x1 x5 (ix3 b n ch)) (val_main_v111 (F := Ideal) x1 x5 (ix3 b n ch)) (val_main_v91 (F := Ideal) x1 x5 (ix3 b n ch)) (val_main_v71 (F := Ideal) x1 x5 (ix3 b n ch))
          (val_main_v30 (F := Ideal) x5 (ix2 b n)) (val_main_v34 (F := Ideal) x5 (ix2 b n)) (val_main_v38 (F := Ideal) x5 (ix2 b n)) (val_main_v42 (F := Ideal) x5 (ix2 b n)) (val_main_v46 (F := Ideal) x5 (ix2 b n)) (val_main_v50 (F := Ideal) x5 (ix2 b n)) := by
  -- every sum and product reads elementwise and every repeated weight reads the weight at (b, n) …
  simp only [
    val_main_v246_apply, val_main_v243_apply, val_main_v245_apply, val_main_v241_apply, val_main_v146_apply,
    val_main_v233_apply, val_main_v240_apply, val_main_v138_apply, val_main_v145_apply, val_main_v231_apply,
    val_main_v238_apply, val_main_v136_apply, val_main_v143_apply, val_main_v228_apply, val_main_v230_apply,
    val_main_v235_apply, val_main_v237_apply, val_main_v133_apply, val_main_v135_apply, val_main_v140_apply,
    val_main_v142_apply, val_main_v227_apply, val_main_v229_apply, val_main_v232_apply, val_main_v234_apply,
    val_main_v236_apply, val_main_v239_apply, val_main_v242_apply, val_main_v244_apply, val_main_v132_apply,
    val_main_v134_apply, val_main_v137_apply, val_main_v139_apply, val_main_v141_apply, val_main_v144_apply,
    val_main_v31_apply, val_main_v35_apply, val_main_v39_apply, val_main_v43_apply, val_main_v47_apply,
    val_main_v51_apply, bc_v132, bc_v134, bc_v137, bc_v139, bc_v141, bc_v144, bc_v227, bc_v229, bc_v232,
    bc_v234, bc_v236, bc_v239, bc_v242, bc_v244, Ideal.addf_def, Ideal.mulf_def]
  -- … which leaves the interpolation formula itself
  rfl

/-! ## Level 1 (channels of extent 64)

The reading of level 0, for the level whose grid has 64 channels: operation N of level 0 is operation N + 247 here. -/

private theorem bc_v379 (b : Fin 2) (n : Fin 100000) (ch : Fin 64) :
    idx_main_v278 (idx_main_v379 (ix3 b n ch)) = ix2 b n := by
  funext a; match a with | ⟨0, _⟩ => rfl | ⟨1, _⟩ => rfl
private theorem bc_v381 (b : Fin 2) (n : Fin 100000) (ch : Fin 64) :
    idx_main_v282 (idx_main_v381 (ix3 b n ch)) = ix2 b n := by
  funext a; match a with | ⟨0, _⟩ => rfl | ⟨1, _⟩ => rfl
private theorem bc_v384 (b : Fin 2) (n : Fin 100000) (ch : Fin 64) :
    idx_main_v286 (idx_main_v384 (ix3 b n ch)) = ix2 b n := by
  funext a; match a with | ⟨0, _⟩ => rfl | ⟨1, _⟩ => rfl
private theorem bc_v386 (b : Fin 2) (n : Fin 100000) (ch : Fin 64) :
    idx_main_v278 (idx_main_v386 (ix3 b n ch)) = ix2 b n := by
  funext a; match a with | ⟨0, _⟩ => rfl | ⟨1, _⟩ => rfl
private theorem bc_v388 (b : Fin 2) (n : Fin 100000) (ch : Fin 64) :
    idx_main_v282 (idx_main_v388 (ix3 b n ch)) = ix2 b n := by
  funext a; match a with | ⟨0, _⟩ => rfl | ⟨1, _⟩ => rfl
private theorem bc_v391 (b : Fin 2) (n : Fin 100000) (ch : Fin 64) :
    idx_main_v290 (idx_main_v391 (ix3 b n ch)) = ix2 b n := by
  funext a; match a with | ⟨0, _⟩ => rfl | ⟨1, _⟩ => rfl
private theorem bc_v474 (b : Fin 2) (n : Fin 100000) (ch : Fin 64) :
    idx_main_v278 (idx_main_v474 (ix3 b n ch)) = ix2 b n := by
  funext a; match a with | ⟨0, _⟩ => rfl | ⟨1, _⟩ => rfl
private theorem bc_v476 (b : Fin 2) (n : Fin 100000) (ch : Fin 64) :
    idx_main_v282 (idx_main_v476 (ix3 b n ch)) = ix2 b n := by
  funext a; match a with | ⟨0, _⟩ => rfl | ⟨1, _⟩ => rfl
private theorem bc_v479 (b : Fin 2) (n : Fin 100000) (ch : Fin 64) :
    idx_main_v286 (idx_main_v479 (ix3 b n ch)) = ix2 b n := by
  funext a; match a with | ⟨0, _⟩ => rfl | ⟨1, _⟩ => rfl
private theorem bc_v481 (b : Fin 2) (n : Fin 100000) (ch : Fin 64) :
    idx_main_v278 (idx_main_v481 (ix3 b n ch)) = ix2 b n := by
  funext a; match a with | ⟨0, _⟩ => rfl | ⟨1, _⟩ => rfl
private theorem bc_v483 (b : Fin 2) (n : Fin 100000) (ch : Fin 64) :
    idx_main_v282 (idx_main_v483 (ix3 b n ch)) = ix2 b n := by
  funext a; match a with | ⟨0, _⟩ => rfl | ⟨1, _⟩ => rfl
private theorem bc_v486 (b : Fin 2) (n : Fin 100000) (ch : Fin 64) :
    idx_main_v290 (idx_main_v486 (ix3 b n ch)) = ix2 b n := by
  funext a; match a with | ⟨0, _⟩ => rfl | ⟨1, _⟩ => rfl
private theorem bc_v489 (b : Fin 2) (n : Fin 100000) (ch : Fin 64) :
    idx_main_v294 (idx_main_v489 (ix3 b n ch)) = ix2 b n := by
  funext a; match a with | ⟨0, _⟩ => rfl | ⟨1, _⟩ => rfl
private theorem bc_v491 (b : Fin 2) (n : Fin 100000) (ch : Fin 64) :
    idx_main_v298 (idx_main_v491 (ix3 b n ch)) = ix2 b n := by
  funext a; match a with | ⟨0, _⟩ => rfl | ⟨1, _⟩ => rfl

/-- level 1 of the reference at (b, n, ch): interpolation along x, then y, then z of the eight gathered corners -/
theorem ref_level1 (x2 : (⟨S2x32x32x32x64, .f32⟩ : BufTy).Contents (Elt Ideal)) (x5 : (⟨S2x100000x3, .f32⟩ : BufTy).Contents (Elt Ideal)) (b : Fin 2) (n : Fin 100000) (ch : Fin 64) :
    val_main_v493 (F := Ideal) x2 x5 (ix3 b n ch)
      = Cert.Spec.trilerp (val_main_v473 (F := Ideal) x2 x5 (ix3 b n ch)) (val_main_v453 (F := Ideal) x2 x5 (ix3 b n ch)) (val_main_v433 (F := Ideal) x2 x5 (ix3 b n ch)) (val_main_v413 (F := Ideal) x2 x5 (ix3 b n ch))
          (val_main_v378 (F := Ideal) x2 x5 (ix3 b n ch)) (val_main_v358 (F := Ideal) x2 x5 (ix3 b n ch)) (val_main_v338 (F := Ideal) x2 x5 (ix3 b n ch)) (val_main_v318 (F := Ideal) x2 x5 (ix3 b n ch))
          (val_main_v277 (F := Ideal) x5 (ix2 b n)) (val_main_v281 (F := Ideal) x5 (ix2 b n)) (val_main_v285 (F := Ideal) x5 (ix2 b n)) (val_main_v289 (F := Ideal) x5 (ix2 b n)) (val_main_v293 (F := Ideal) x5 (ix2 b n)) (val_main_v297 (F := Ideal) x5 (ix2 b n)) := by
  -- every sum and product reads elementwise and every repeated weight reads the weight at (b, n) …
  simp only [
    val_main_v493_apply, val_main_v490_apply, val_main_v492_apply, val_main_v488_apply, val_main_v393_apply,
    val_main_v480_apply, val_main_v487_apply, val_main_v385_apply, val_main_v392_apply, val_main_v478_apply,
    val_main_v485_apply, val_main_v383_apply, val_main_v390_apply, val_main_v475_apply, val_main_v477_apply,
    val_main_v482_apply, val_main_v484_apply, val_main_v380_apply, val_main_v382_apply, val_main_v387_apply,
    val_main_v389_apply, val_main_v474_apply, val_main_v476_apply, val_main_v479_apply, val_main_v481_apply,
    val_main_v483_apply, val_main_v486_apply, val_main_v489_apply, val_main_v491_apply, val_main_v379_apply,
    val_main_v381_apply, val_main_v384_apply, val_main_v386_apply, val_main_v388_apply, val_main_v391_apply,
    val_main_v278_apply, val_main_v282_apply, val_main_v286_apply, val_main_v290_apply, val_main_v294_apply,
    val_main_v298_apply, bc_v379, bc_v381, bc_v384, bc_v386, bc_v388, bc_v391, bc_v474, bc_v476, bc_v479,
    bc_v481, bc_v483, bc_v486, bc_v489, bc_v491, Ideal.addf_def, Ideal.mulf_def]
  -- … which leaves the interpolation formula itself
  rfl

/-! ## Level 2 (channels of extent 128)

The reading of level 0, for the level whose grid has 128 channels: operation N of level 0 is operation N + 494 here. -/

private theorem bc_v626 (b : Fin 2) (n : Fin 100000) (ch : Fin 128) :
    idx_main_v525 (idx_main_v626 (ix3 b n ch)) = ix2 b n := by
  funext a; match a with | ⟨0, _⟩ => rfl | ⟨1, _⟩ => rfl
private theorem bc_v628 (b : Fin 2) (n : Fin 100000) (ch : Fin 128) :
    idx_main_v529 (idx_main_v628 (ix3 b n ch)) = ix2 b n := by
  funext a; match a with | ⟨0, _⟩ => rfl | ⟨1, _⟩ => rfl
private theorem bc_v631 (b : Fin 2) (n : Fin 100000) (ch : Fin 128) :
    idx_main_v533 (idx_main_v631 (ix3 b n ch)) = ix2 b n := by
  funext a; match a with | ⟨0, _⟩ => rfl | ⟨1, _⟩ => rfl
private theorem bc_v633 (b : Fin 2) (n : Fin 100000) (ch : Fin 128) :
    idx_main_v525 (idx_main_v633 (ix3 b n ch)) = ix2 b n := by
  funext a; match a with | ⟨0, _⟩ => rfl | ⟨1, _⟩ => rfl
private theorem bc_v635 (b : Fin 2) (n : Fin 100000) (ch : Fin 128) :
    idx_main_v529 (idx_main_v635 (ix3 b n ch)) = ix2 b n := by
  funext a; match a with | ⟨0, _⟩ => rfl | ⟨1, _⟩ => rfl
private theorem bc_v638 (b : Fin 2) (n : Fin 100000) (ch : Fin 128) :
    idx_main_v537 (idx_main_v638 (ix3 b n ch)) = ix2 b n := by
  funext a; match a with | ⟨0, _⟩ => rfl | ⟨1, _⟩ => rfl
private theorem bc_v721 (b : Fin 2) (n : Fin 100000) (ch : Fin 128) :
    idx_main_v525 (idx_main_v721 (ix3 b n ch)) = ix2 b n := by
  funext a; match a with | ⟨0, _⟩ => rfl | ⟨1, _⟩ => rfl
private theorem bc_v723 (b : Fin 2) (n : Fin 100000) (ch : Fin 128) :
    idx_main_v529 (idx_main_v723 (ix3 b n ch)) = ix2 b n := by
  funext a; match a with | ⟨0, _⟩ => rfl | ⟨1, _⟩ => rfl
private theorem bc_v726 (b : Fin 2) (n : Fin 100000) (ch : Fin 128) :
    idx_main_v533 (idx_main_v726 (ix3 b n ch)) = ix2 b n := by
  funext a; match a with | ⟨0, _⟩ => rfl | ⟨1, _⟩ => rfl
private theorem bc_v728 (b : Fin 2) (n : Fin 100000) (ch : Fin 128) :
    idx_main_v525 (idx_main_v728 (ix3 b n ch)) = ix2 b n := by
  funext a; match a with | ⟨0, _⟩ => rfl | ⟨1, _⟩ => rfl
private theorem bc_v730 (b : Fin 2) (n : Fin 100000) (ch : Fin 128) :
    idx_main_v529 (idx_main_v730 (ix3 b n ch)) = ix2 b n := by
  funext a; match a with | ⟨0, _⟩ => rfl | ⟨1, _⟩ => rfl
private theorem bc_v733 (b : Fin 2) (n : Fin 100000) (ch : Fin 128) :
    idx_main_v537 (idx_main_v733 (ix3 b n ch)) = ix2 b n := by
  funext a; match a with | ⟨0, _⟩ => rfl | ⟨1, _⟩ => rfl
private theorem bc_v736 (b : Fin 2) (n : Fin 100000) (ch : Fin 128) :
    idx_main_v541 (idx_main_v736 (ix3 b n ch)) = ix2 b n := by
  funext a; match a with | ⟨0, _⟩ => rfl | ⟨1, _⟩ => rfl
private theorem bc_v738 (b : Fin 2) (n : Fin 100000) (ch : Fin 128) :
    idx_main_v545 (idx_main_v738 (ix3 b n ch)) = ix2 b n := by
  funext a; match a with | ⟨0, _⟩ => rfl | ⟨1, _⟩ => rfl

/-- level 2 of the reference at (b, n, ch): interpolation along x, then y, then z of the eight gathered corners -/
theorem ref_level2 (x3 : (⟨S2x16x16x16x128, .f32⟩ : BufTy).Contents (Elt Ideal)) (x5 : (⟨S2x100000x3, .f32⟩ : BufTy).Contents (Elt Ideal)) (b : Fin 2) (n : Fin 100000) (ch : Fin 128) :
    val_main_v740 (F := Ideal) x3 x5 (ix3 b n ch)
      = Cert.Spec.trilerp (val_main_v720 (F := Ideal) x3 x5 (ix3 b n ch)) (val_main_v700 (F := Ideal) x3 x5 (ix3 b n ch)) (val_main_v680 (F := Ideal) x3 x5 (ix3 b n ch)) (val_main_v660 (F := Ideal) x3 x5 (ix3 b n ch))
          (val_main_v625 (F := Ideal) x3 x5 (ix3 b n ch)) (val_main_v605 (F := Ideal) x3 x5 (ix3 b n ch)) (val_main_v585 (F := Ideal) x3 x5 (ix3 b n ch)) (val_main_v565 (F := Ideal) x3 x5 (ix3 b n ch))
          (val_main_v524 (F := Ideal) x5 (ix2 b n)) (val_main_v528 (F := Ideal) x5 (ix2 b n)) (val_main_v532 (F := Ideal) x5 (ix2 b n)) (val_main_v536 (F := Ideal) x5 (ix2 b n)) (val_main_v540 (F := Ideal) x5 (ix2 b n)) (val_main_v544 (F := Ideal) x5 (ix2 b n)) := by
  -- every sum and product reads elementwise and every repeated weight reads the weight at (b, n) …
  simp only [
    val_main_v740_apply, val_main_v737_apply, val_main_v739_apply, val_main_v735_apply, val_main_v640_apply,
    val_main_v727_apply, val_main_v734_apply, val_main_v632_apply, val_main_v639_apply, val_main_v725_apply,
    val_main_v732_apply, val_main_v630_apply, val_main_v637_apply, val_main_v722_apply, val_main_v724_apply,
    val_main_v729_apply, val_main_v731_apply, val_main_v627_apply, val_main_v629_apply, val_main_v634_apply,
    val_main_v636_apply, val_main_v721_apply, val_main_v723_apply, val_main_v726_apply, val_main_v728_apply,
    val_main_v730_apply, val_main_v733_apply, val_main_v736_apply, val_main_v738_apply, val_main_v626_apply,
    val_main_v628_apply, val_main_v631_apply, val_main_v633_apply, val_main_v635_apply, val_main_v638_apply,
    val_main_v525_apply, val_main_v529_apply, val_main_v533_apply, val_main_v537_apply, val_main_v541_apply,
    val_main_v545_apply, bc_v626, bc_v628, bc_v631, bc_v633, bc_v635, bc_v638, bc_v721, bc_v723, bc_v726,
    bc_v728, bc_v730, bc_v733, bc_v736, bc_v738, Ideal.addf_def, Ideal.mulf_def]
  -- … which leaves the interpolation formula itself
  rfl

/-! ## The result: the three levels side by side along the channel axis -/

/-- the reference's result: the three levels side by side along the channel axis -/
theorem ref_result (x1 : (⟨S2x64x64x64x32, .f32⟩ : BufTy).Contents (Elt Ideal)) (x2 : (⟨S2x32x32x32x64, .f32⟩ : BufTy).Contents (Elt Ideal)) (x3 : (⟨S2x16x16x16x128, .f32⟩ : BufTy).Contents (Elt Ideal)) (x5 : (⟨S2x100000x3, .f32⟩ : BufTy).Contents (Elt Ideal)) (b : Fin 2) (n : Fin 100000) (j : Fin 224) :
    val_main_v741 (F := Ideal) x1 x2 x3 x5 (ix3 b n j)
      = if h0 : j.val < 32 then val_main_v246 (F := Ideal) x1 x5 (ix3 b n ⟨j.val, h0⟩)
        else if h1 : j.val < 96 then val_main_v493 (F := Ideal) x2 x5 (ix3 b n ⟨j.val - 32, by omega⟩)
        else val_main_v740 (F := Ideal) x3 x5 (ix3 b n ⟨j.val - 96, by omega⟩) := by
  unfold val_main_v741
  exact Cert.Spec.concat3_apply _ _ _ _ b n j

end Cert.RefRead

end
-- ==== Proof.Val.Region0.lean ====
import proofs.«171014_j76854144795318_1_alg».proof.Proof.KI.Body0
import proofs.«171014_j76854144795318_1_alg».proof.Proof.Val.Spec
import Idealize.ShloMosaic.Lib.Pipeline.Value
import Idealize.ShloMosaic.Lib.ValueIdx
import Idealize.ShloMosaic.PureOps.Ideal.Laws

/-! # Pyramid level 0: the output array, element by element

The pipelined call of level 0 walks 98 grid points. Point `t` stages rows `2048·t … 2048·t + 2047` (all 32
channels) of each of the eight gathered arrays, the same rows (all 8 columns) of the weight table, and writes back the
same rows of the result. On the extended reals every operation is exact, so the block the body leaves is, at row `p`
and channel `q` of the block, `0 + x₀[p,q]·c[p,0] + … + x₇[p,q]·c[p,7]`, and `0 + y = y`. The 98 blocks tile the
200704 rows, so after the last point the whole result is one function of the nine arrays as the call found them:
at row `r` and channel `ch`, the eight gathered values at `(r, ch)` times the eight weights of row `r`, added
from left to right. -/

noncomputable section

namespace Cert.KernelIdeal.Hand

open Cert.KernelIdeal Cert.KernelIdeal.Gen Idealize.ShloMosaic.ValueIdx
open Idealize.ShloMosaic Idealize.ShloMosaic.TcCoe
open Idealize.ShloMosaic.Pipeline (Dat)

/-! ## One block: what the body computes at a row and a channel -/

/-- The zero offsets of a whole-block load or store, as the constant-zero function. -/
theorem zero_off0 : (![0, 0] : Fin 2 → Nat) = fun _ => 0 :=
  funext fun a => match a with | ⟨0, _⟩ => rfl | ⟨1, _⟩ => rfl

/-- One column of the weight block, spread along the channels: at row `p` and any channel it is the weight `(p, k)`. -/
theorem wcol0_apply (x : FVec Ideal S2048x8 .f32) (off : Fin S2048x8.rank → Nat) (hs : S2048x8.Slices off S2048x1)
    (hb : S2048x1.Broadcasts S2048x32) (k : Fin 8) (h0 : off 0 = 0) (h1 : off 1 = k.val) (p : Fin 2048) (q : Fin 32) :
    broadcastTo S2048x32 (extractStridedSlice S2048x1 off x hs) hb (ix2 p q) = x (ix2 p k) := by
  refine (broadcastTo_apply _ hb (ix2 p q) (ix2 p (0 : Fin 1)) ?_).trans ?_
  · intro a
    match a with
    | ⟨0, _⟩ => rfl
    | ⟨1, _⟩ => rfl
  · refine extractStridedSlice_apply off x hs (ix2 p (0 : Fin 1)) (ix2 p k) ?_
    intro a
    match a with
    | ⟨0, _⟩ => show p.val = off 0 + p.val; rw [h0]; omega
    | ⟨1, _⟩ => show k.val = off 1 + 0; rw [h1]; rfl

/-- The value the body stores, at row `p` and channel `q` of the block: the eight operand blocks there times the
    eight weights of row `p`, added from left to right (the leading zero is absorbed: `0 + y = y`). -/
theorem pay0_apply (x0 x1 x2 x3 x4 x5 x6 x7 : Vec Ideal S2048x32 .f32) (x8 : Vec Ideal S2048x8 .f32) (p : Fin 2048) (q : Fin 32) :
    k0_pay1 (k0_pay2 x8) (k0_pay3 x5) (k0_pay4 x6) (k0_pay5 x7) (k0_pay6 x8 x0 x1 x2 x3 x4) (k0_pay7 x8) (ix2 p q)
      = Cert.Spec.comb8 ![x0 (ix2 p q), x1 (ix2 p q), x2 (ix2 p q), x3 (ix2 p q), x4 (ix2 p q), x5 (ix2 p q), x6 (ix2 p q), x7 (ix2 p q)]
          (fun k => x8 (ix2 p k)) := by
  unfold k0_pay1 k0_pay6 k0_pay7 k0_pay3 k0_pay4 k0_pay5 k0_pay2
  simp only [shapeCast_self, mulf_apply, addf_apply, broadcast_apply]
  rw [wcol0_apply x8 ![0, 0] _ _ 0 rfl rfl p q, wcol0_apply x8 ![0, 1] _ _ 1 rfl rfl p q, wcol0_apply x8 ![0, 2] _ _ 2 rfl rfl p q,
    wcol0_apply x8 ![0, 3] _ _ 3 rfl rfl p q, wcol0_apply x8 ![0, 4] _ _ 4 rfl rfl p q, wcol0_apply x8 ![0, 5] _ _ 5 rfl rfl p q,
    wcol0_apply x8 ![0, 6] _ _ 6 rfl rfl p q, wcol0_apply x8 ![0, 7] _ _ 7 rfl rfl p q]
  have hz : (FloatOps.ofBits FTy.f32 0x00000000#32 : Ideal .f32) = 0 := Ideal.ofBits_zero_f32
  rw [hz, zero_add]
  rfl

/-- What the body leaves in the result's staging buffer, read at row `p` and channel `q`: the one store covers the
    whole block, and each load reads a whole block. -/
theorem out0_9_apply (x0 x1 x2 x3 x4 x5 x6 x7 : Vec Ideal S2048x32 .f32) (x8 : Vec Ideal S2048x8 .f32) (p : Fin 2048) (q : Fin 32) :
    out0_9 x0 x1 x2 x3 x4 x5 x6 x7 x8 (ix2 p q)
      = Cert.Spec.comb8 ![x0 (ix2 p q), x1 (ix2 p q), x2 (ix2 p q), x3 (ix2 p q), x4 (ix2 p q), x5 (ix2 p q), x6 (ix2 p q), x7 (ix2 p q)]
          (fun k => x8 (ix2 p k)) := by
  unfold out0_9
  rw [View.canon_unit_zero zero_off0]
  simp only [View.ld_unit_zero (S := S2048x32) zero_off0, View.ld_unit_zero (S := S2048x8) zero_off0]
  exact pay0_apply x0 x1 x2 x3 x4 x5 x6 x7 x8 p q

/-! ## The whole array -/

/-- The result as one function of the nine arrays: at index `i`, the eight gathered arrays at `i` times the eight
    weights of `i`'s row, added from left to right. -/
def combArr0 (a0 a1 a2 a3 a4 a5 a6 a7 : Vec Ideal S200704x32 .f32) (a8 : Vec Ideal S200704x8 .f32) : Vec Ideal S200704x32 .f32 :=
  fun i => Cert.Spec.comb8 ![a0 i, a1 i, a2 i, a3 i, a4 i, a5 i, a6 i, a7 i] (fun k => a8 (ix2 (i 0) k))

/-- Every window's index map sends grid point `t` to block `(t, 0)`: block `t` of rows, the one block of columns. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Operand 0's block at point t lies over the same rows and channels of its array as the output's block. -/
theorem emb0_0 (t : Fin cfg0.N) (j : S2048x32.Idx) :
    (((cfg0.win 0).blk t).view.emb j : S200704x32.Idx) = ((cfg0.win 9).blk t).view.emb j := by
  have e := idx_facts0 t
  funext a; apply Fin.ext
  match a with
  | ⟨0, _⟩ => show win0_0.index t (0 : Fin 2) * 2048 + 1 * (j 0).val = win0_9.index t (0 : Fin 2) * 2048 + 1 * (j 0).val; omega
  | ⟨1, _⟩ => show win0_0.index t (1 : Fin 2) * 32 + 1 * (j 1).val = win0_9.index t (1 : Fin 2) * 32 + 1 * (j 1).val; omega

/-- Operand 1's block at point t lies over the same rows and channels of its array as the output's block. -/
theorem emb0_1 (t : Fin cfg0.N) (j : S2048x32.Idx) :
    (((cfg0.win 1).blk t).view.emb j : S200704x32.Idx) = ((cfg0.win 9).blk t).view.emb j := by
  have e := idx_facts0 t
  funext a; apply Fin.ext
  match a with
  | ⟨0, _⟩ => show win0_1.index t (0 : Fin 2) * 2048 + 1 * (j 0).val = win0_9.index t (0 : Fin 2) * 2048 + 1 * (j 0).val; omega
  | ⟨1, _⟩ => show win0_1.index t (1 : Fin 2) * 32 + 1 * (j 1).val = win0_9.index t (1 : Fin 2) * 32 + 1 * (j 1).val; omega

/-- Operand 2's block at point t lies over the same rows and channels of its array as the output's block. -/
theorem emb0_2 (t : Fin cfg0.N) (j : S2048x32.Idx) :
    (((cfg0.win 2).blk t).view.emb j : S200704x32.Idx) = ((cfg0.win 9).blk t).view.emb j := by
  have e := idx_facts0 t
  funext a; apply Fin.ext
  match a with
  | ⟨0, _⟩ => show win0_2.index t (0 : Fin 2) * 2048 + 1 * (j 0).val = win0_9.index t (0 : Fin 2) * 2048 + 1 * (j 0).val; omega
  | ⟨1, _⟩ => show win0_2.index t (1 : Fin 2) * 32 + 1 * (j 1).val = win0_9.index t (1 : Fin 2) * 32 + 1 * (j 1).val; omega

/-- Operand 3's block at point t lies over the same rows and channels of its array as the output's block. -/
theorem emb0_3 (t : Fin cfg0.N) (j : S2048x32.Idx) :
    (((cfg0.win 3).blk t).view.emb j : S200704x32.Idx) = ((cfg0.win 9).blk t).view.emb j := by
  have e := idx_facts0 t
  funext a; apply Fin.ext
  match a with
  | ⟨0, _⟩ => show win0_3.index t (0 : Fin 2) * 2048 + 1 * (j 0).val = win0_9.index t (0 : Fin 2) * 2048 + 1 * (j 0).val; omega
  | ⟨1, _⟩ => show win0_3.index t (1 : Fin 2) * 32 + 1 * (j 1).val = win0_9.index t (1 : Fin 2) * 32 + 1 * (j 1).val; omega

/-- Operand 4's block at point t lies over the same rows and channels of its array as the output's block. -/
theorem emb0_4 (t : Fin cfg0.N) (j : S2048x32.Idx) :
    (((cfg0.win 4).blk t).view.emb j : S200704x32.Idx) = ((cfg0.win 9).blk t).view.emb j := by
  have e := idx_facts0 t
  funext a; apply Fin.ext
  match a with
  | ⟨0, _⟩ => show win0_4.index t (0 : Fin 2) * 2048 + 1 * (j 0).val = win0_9.index t (0 : Fin 2) * 2048 + 1 * (j 0).val; omega
  | ⟨1, _⟩ => show win0_4.index t (1 : Fin 2) * 32 + 1 * (j 1).val = win0_9.index t (1 : Fin 2) * 32 + 1 * (j 1).val; omega

/-- Operand 5's block at point t lies over the same rows and channels of its array as the output's block. -/
theorem emb0_5 (t : Fin cfg0.N) (j : S2048x32.Idx) :
    (((cfg0.win 5).blk t).view.emb j : S200704x32.Idx) = ((cfg0.win 9).blk t).view.emb j := by
  have e := idx_facts0 t
  funext a; apply Fin.ext
  match a with
  | ⟨0, _⟩ => show win0_5.index t (0 : Fin 2) * 2048 + 1 * (j 0).val = win0_9.index t (0 : Fin 2) * 2048 + 1 * (j 0).val; omega
  | ⟨1, _⟩ => show win0_5.index t (1 : Fin 2) * 32 + 1 * (j 1).val = win0_9.index t (1 : Fin 2) * 32 + 1 * (j 1).val; omega

/-- Operand 6's block at point t lies over the same rows and channels of its array as the output's block. -/
theorem emb0_6 (t : Fin cfg0.N) (j : S2048x32.Idx) :
    (((cfg0.win 6).blk t).view.emb j : S200704x32.Idx) = ((cfg0.win 9).blk t).view.emb j := by
  have e := idx_facts0 t
  funext a; apply Fin.ext
  match a with
  | ⟨0, _⟩ => show win0_6.index t (0 : Fin 2) * 2048 + 1 * (j 0).val = win0_9.index t (0 : Fin 2) * 2048 + 1 * (j 0).val; omega
  | ⟨1, _⟩ => show win0_6.index t (1 : Fin 2) * 32 + 1 * (j 1).val = win0_9.index t (1 : Fin 2) * 32 + 1 * (j 1).val; omega

/-- Operand 7's block at point t lies over the same rows and channels of its array as the output's block. -/
theorem emb0_7 (t : Fin cfg0.N) (j : S2048x32.Idx) :
    (((cfg0.win 7).blk t).view.emb j : S200704x32.Idx) = ((cfg0.win 9).blk t).view.emb j := by
  have e := idx_facts0 t
  funext a; apply Fin.ext
  match a with
  | ⟨0, _⟩ => show win0_7.index t (0 : Fin 2) * 2048 + 1 * (j 0).val = win0_9.index t (0 : Fin 2) * 2048 + 1 * (j 0).val; omega
  | ⟨1, _⟩ => show win0_7.index t (1 : Fin 2) * 32 + 1 * (j 1).val = win0_9.index t (1 : Fin 2) * 32 + 1 * (j 1).val; omega

/-- The weights' block at point t lies over the same rows of its array as the output's block. -/
theorem emb0_8 (t : Fin cfg0.N) (p : Fin 2048) (q : Fin 32) (k : Fin 8) :
    (((cfg0.win 8).blk t).view.emb (ix2 p k) : S200704x8.Idx)
      = ix2 ((((cfg0.win 9).blk t).view.emb (ix2 p q) : S200704x32.Idx) 0) k := by
  have e := idx_facts0 t
  funext a; apply Fin.ext
  match a with
  | ⟨0, _⟩ => show win0_8.index t (0 : Fin 2) * 2048 + 1 * p.val = win0_9.index t (0 : Fin 2) * 2048 + 1 * p.val; omega
  | ⟨1, _⟩ => show win0_8.index t (1 : Fin 2) * 8 + 1 * k.val = k.val; omega

/-- An index of the output array lies in point `t`'s block iff each coordinate lies in the block's range on its axis. -/
theorem mem_blk0 (t : Fin cfg0.N) (i : S200704x32.Idx) :
    i ∈ ((cfg0.win 9).blk t).view.set ↔ ∀ a : Fin 2, win0_9.index t a * S2048x32.size a ≤ (i a).val ∧ (i a).val < win0_9.index t a * S2048x32.size a + S2048x32.size a := by
  show i ∈ ((View.whole main_v256).slice (win0_9.rect t)).set ↔ _
  rw [View.set_slice_whole, Rect.mem_set_unit]
  exact Iff.rfl

/-- Row `r` of the output lies in the block of point `r / 2048`: the 98 blocks of 2048 rows tile the 200704 rows. -/
theorem cover0 (i : S200704x32.Idx) : ∃ t : Fin cfg0.N, (cfg0.win 9).flush t = true ∧ i ∈ ((cfg0.win 9).blk t).view.set := by
  have hi0 : (i 0).val < 200704 := (i 0).isLt
  have hi1 : (i 1).val < 32 := (i 1).isLt
  have hlt : (i 0).val / 2048 < cfg0.N := by show (i 0).val / 2048 < 98; omega
  obtain ⟨t, ht⟩ : ∃ t : Fin cfg0.N, t.val = (i 0).val / 2048 := ⟨⟨_, hlt⟩, rfl⟩
  refine ⟨t, flush0_9 t, ?_⟩
  rw [mem_blk0]
  have e := idx_facts0 t
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 32 ≤ (i 1).val ∧ (i 1).val < win0_9.index t (1 : Fin 2) * 32 + 32; omega

section
-- the core's buffer contents when the call is entered
variable (V : (c : Dev nD) → (b : Ref sig .tc) → Buf (Elt Ideal) ((c : Thread nD τ).loc b))

/-- What point `t` writes back is block `t` of `combArr0` of the nine arrays as the call found them: each staged block
    is its array read over the rows the output's block covers. -/
theorem flushed0_eq (c : Dev nD) (t : Fin cfg0.N) :
    (dat0 (F := Ideal) V c).flushed 9 t
      = ((cfg0.win 9).blk t).view.read (Elt Ideal) (combArr0 (V c main_v247) (V c main_v248) (V c main_v249) (V c main_v250) (V c main_v251) (V c main_v252) (V c main_v253) (V c main_v254) (V c main_v255)) := by
  show (cfg0.win 9).cut (grid0.coords t) ((dat0 (F := Ideal) V c).after 9 t) = _
  rw [after0_9]
  funext j
  obtain ⟨p, q, rfl⟩ : ∃ (p : Fin 2048) (q : Fin 32), j = ix2 p q := ⟨j 0, j 1, eq_ix2 j⟩
  show out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q) = _
  refine (out0_9_apply (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  have h0 : iblk0 V c 0 t (ix2 p q) = V c main_v247 (((cfg0.win 9).blk t).view.emb (ix2 p q)) := by
    show V c main_v247 (((cfg0.win 0).blk t).view.emb (ix2 p q)) = _
    rw [emb0_0 t]
  have h1 : iblk0 V c 1 t (ix2 p q) = V c main_v248 (((cfg0.win 9).blk t).view.emb (ix2 p q)) := by
    show V c main_v248 (((cfg0.win 1).blk t).view.emb (ix2 p q)) = _
    rw [emb0_1 t]
  have h2 : iblk0 V c 2 t (ix2 p q) = V c main_v249 (((cfg0.win 9).blk t).view.emb (ix2 p q)) := by
    show V c main_v249 (((cfg0.win 2).blk t).view.emb (ix2 p q)) = _
    rw [emb0_2 t]
  have h3 : iblk0 V c 3 t (ix2 p q) = V c main_v250 (((cfg0.win 9).blk t).view.emb (ix2 p q)) := by
    show V c main_v250 (((cfg0.win 3).blk t).view.emb (ix2 p q)) = _
    rw [emb0_3 t]
  have h4 : iblk0 V c 4 t (ix2 p q) = V c main_v251 (((cfg0.win 9).blk t).view.emb (ix2 p q)) := by
    show V c main_v251 (((cfg0.win 4).blk t).view.emb (ix2 p q)) = _
    rw [emb0_4 t]
  have h5 : iblk0 V c 5 t (ix2 p q) = V c main_v252 (((cfg0.win 9).blk t).view.emb (ix2 p q)) := by
    show V c main_v252 (((cfg0.win 5).blk t).view.emb (ix2 p q)) = _
    rw [emb0_5 t]
  have h6 : iblk0 V c 6 t (ix2 p q) = V c main_v253 (((cfg0.win 9).blk t).view.emb (ix2 p q)) := by
    show V c main_v253 (((cfg0.win 6).blk t).view.emb (ix2 p q)) = _
    rw [emb0_6 t]
  have h7 : iblk0 V c 7 t (ix2 p q) = V c main_v254 (((cfg0.win 9).blk t).view.emb (ix2 p q)) := by
    show V c main_v254 (((cfg0.win 7).blk t).view.emb (ix2 p q)) = _
    rw [emb0_7 t]
  have h8 : ∀ k : Fin 8, iblk0 V c 8 t (ix2 p k)
      = V c main_v255 (ix2 ((((cfg0.win 9).blk t).view.emb (ix2 p q) : S200704x32.Idx) 0) k) := fun k => by
    show V c main_v255 (((cfg0.win 8).blk t).view.emb (ix2 p k)) = _
    exact congrArg (V c main_v255) (emb0_8 t p q k)
  rw [h0, h1, h2, h3, h4, h5, h6, h7]
  simp only [h8]
  rfl

/-- The output array after the last point is `combArr0` of the nine arrays as the call found them. -/
theorem arr0_eq (c : Dev nD) :
    (dat0 (F := Ideal) V c).arrAt 9 cfg0.N = combArr0 (V c main_v247) (V c main_v248) (V c main_v249) (V c main_v250) (V c main_v251) (V c main_v252) (V c main_v253) (V c main_v254) (V c main_v255) :=
  (dat0 (F := Ideal) V c).arrAt_eq_of_cover 9 (combArr0 (V c main_v247) (V c main_v248) (V c main_v249) (V c main_v250) (V c main_v251) (V c main_v252) (V c main_v253) (V c main_v254) (V c main_v255))
    (fun t _ => flushed0_eq V c t) cover0

end

/-- Region 0's output array after the pipeline's last point, at row r and channel ch: the eight gathered arrays at (r, ch) times the eight weights of row r, added left to right.
    (V is the buffer contents at the region's entry; windows 0..7 stage main_v247 … main_v254, window 8 main_v255, window 9 = the output main_v256.) -/
theorem final0 (V : (c : Dev nD) → (b : Ref sig .tc) → Buf (Elt Ideal) ((c : Thread nD τ).loc b)) (c : Dev nD) (r : Fin 200704) (ch : Fin 32) :
    ((dat0 (F := Ideal) V c).arrAt 9 cfg0.N : Vec Ideal S200704x32 .f32) (ix2 r ch)
      = Cert.Spec.comb8
          ![(V c main_v247 : Vec Ideal S200704x32 .f32) (ix2 r ch), (V c main_v248 : Vec Ideal S200704x32 .f32) (ix2 r ch), (V c main_v249 : Vec Ideal S200704x32 .f32) (ix2 r ch), (V c main_v250 : Vec Ideal S200704x32 .f32) (ix2 r ch),
            (V c main_v251 : Vec Ideal S200704x32 .f32) (ix2 r ch), (V c main_v252 : Vec Ideal S200704x32 .f32) (ix2 r ch), (V c main_v253 : Vec Ideal S200704x32 .f32) (ix2 r ch), (V c main_v254 : Vec Ideal S200704x32 .f32) (ix2 r ch)]
          (fun k => (V c main_v255 : Vec Ideal S200704x8 .f32) (ix2 r k)) :=
  congrFun (arr0_eq V c) (ix2 r ch)

end Cert.KernelIdeal.Hand

end
-- ==== Proof.Val.KHostTail0.lean ====
/-
  Level 0 of the feature pyramid: what the host operations between the last gather and the pipelined call do.

  The host has gathered, for each of the 2 × 100000 query points, the eight corners of the cell around it
  (eight arrays `[2, 100000, 32]`) and the six fractional weights (six arrays `[2, 100000]`). It then forms the
  eight corner weights as products of three of the six, and lays everything out for the call: each gathered
  array is flattened to `[200000, 32]` (row `b · 100000 + n` is point `(b, n)`: row-major order) and padded
  with 704 rows at the end; the eight corner weights are flattened, stood up as columns, laid side by side as
  `[200000, 8]` and padded likewise. Read at a point `(b, n)`, the padding rows are never met: padded operand
  `k` is gathered array `k` there, and column `k` of the padded table is the `k`-th product of weights.
-/
import proofs.«171014_j76854144795318_1_alg».proof.Proof.Gen.KernelIdeal.Launch
import proofs.«171014_j76854144795318_1_alg».proof.Proof.Val.Spec
import Idealize.ShloMosaic.Lib.ValueIdx
import Idealize.ShloMosaic.Lib.ValueLayout
import Idealize.ShloMosaic.Lib.Pipeline.Value
import Idealize.ShloMosaic.Lib.Pipeline.Regions
import Idealize.ShloMosaic.Lib.StableHlo.Run
import Idealize.ShloMosaic.Lib.KernelVsHost

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

/-! ## The layout operations read at a point -/

/-- Row `b · 100000 + n` of a flattened array is point `(b, n)` of the batched one (row-major order). -/
abbrev lv0_flatRow (b : Fin 2) (n : Fin 100000) : Fin 200000 := ⟨b.val * 100000 + n.val, by omega⟩
/-- The same row of the array padded to 200704 rows. -/
abbrev lv0_padRow (b : Fin 2) (n : Fin 100000) : Fin 200704 := ⟨b.val * 100000 + n.val, by omega⟩

/-- A gathered array flattened: row `b · 100000 + n` is point `(b, n)`. -/
theorem lv0_flat_apply (x : Vec Ideal S2x100000x32 .f32) (h : S2x100000x32.ShapeCasts S200000x32)
    (b : Fin 2) (n : Fin 100000) (ch : Fin 32) :
    shapeCast S200000x32 x h (ix2 (lv0_flatRow b n) ch) = x (ix3 b n ch) := by
  refine shapeCast_apply x h _ _ ?_
  rw [Shape.rowMajor_val_three, Shape.rowMajor_val_two]
  rfl

/-- Rows appended at the end do not move the rows before them. -/
theorem lv0_pad_apply (y : Vec Ideal S200000x32 .f32) (v : Vec Ideal S_ .f32)
    (h : S200000x32.Pads (![0, 0] : Fin 2 → Nat) ![704, 0] ![0, 0] S200704x32) (hu : 0 < S_.numel)
    (b : Fin 2) (n : Fin 100000) (ch : Fin 32) :
    pad S200704x32 ![0, 0] ![704, 0] ![0, 0] y v h hu (ix2 (lv0_padRow b n) ch) = y (ix2 (lv0_flatRow b n) ch) := by
  refine pad_apply_of_inside _ _ _ y v h hu _ _ fun a => ?_
  match a with
  | ⟨0, _⟩ => show b.val * 100000 + n.val = 0 + (b.val * 100000 + n.val) * (0 + 1); omega
  | ⟨1, _⟩ => show ch.val = 0 + ch.val * (0 + 1); omega

/-- The flattened result unflattened: point `(b, n)` is row `b · 100000 + n`. -/
theorem lv0_unflat_apply (y : Vec Ideal S200000x32 .f32) (h : S200000x32.ShapeCasts S2x100000x32)
    (b : Fin 2) (n : Fin 100000) (ch : Fin 32) :
    shapeCast S2x100000x32 y h (ix3 b n ch) = y (ix2 (lv0_flatRow b n) ch) := by
  refine shapeCast_apply y h _ _ ?_
  rw [Shape.rowMajor_val_three, Shape.rowMajor_val_two]
  rfl

/-- Dropping the rows from 200000 on keeps the rows before them. -/
theorem lv0_slice_apply (z : Vec Ideal S200704x32 .f32) (h : S200704x32.Slices ![0, 0] S200000x32)
    (b : Fin 2) (n : Fin 100000) (ch : Fin 32) :
    extractStridedSlice S200000x32 ![0, 0] z h (ix2 (lv0_flatRow b n) ch) = z (ix2 (lv0_padRow b n) ch) := by
  refine extractStridedSlice_apply _ z h _ _ fun a => ?_
  match a with
  | ⟨0, _⟩ => show b.val * 100000 + n.val = 0 + (b.val * 100000 + n.val); omega
  | ⟨1, _⟩ => show ch.val = 0 + ch.val; omega

/-- Eight one-column tables laid side by side: column `k` of the result is the `k`-th table's only column. -/
theorem lv0_cols8_apply (u0 u1 u2 u3 u4 u5 u6 u7 : Vec Ideal S200000x1 .f32)
    (hc : Shape.Concatenates [S200000x1, S200000x1, S200000x1, S200000x1, S200000x1, S200000x1, S200000x1, S200000x1] S200000x8 1)
    (r : Fin 200000) (k : Fin 8) :
    concatenate S200000x8 1 [⟨S200000x1, u0⟩, ⟨S200000x1, u1⟩, ⟨S200000x1, u2⟩, ⟨S200000x1, u3⟩, ⟨S200000x1, u4⟩, ⟨S200000x1, u5⟩, ⟨S200000x1, u6⟩, ⟨S200000x1, u7⟩] hc (ix2 r k)
      = ![u0 (ix2 r 0), u1 (ix2 r 0), u2 (ix2 r 0), u3 (ix2 r 0), u4 (ix2 r 0), u5 (ix2 r 0), u6 (ix2 r 0), u7 (ix2 r 0)] k := by
  have hi : ∀ (kk : Fin 8) (b : Fin S200000x1.rank), b.cast (rfl : S200000x1.rank = S200000x8.rank) ≠ (1 : Fin S200000x8.rank) →
      ((ix2 r (0 : Fin 1) : S200000x1.Idx) b).val = ((ix2 r kk : S200000x8.Idx) (b.cast rfl)).val := fun kk b hb => by
    match b with
    | ⟨0, _⟩ => rfl
    | ⟨1, _⟩ => exact absurd rfl hb
  let xs : List ((s : Shape) × (s.Idx → Elt Ideal .f32)) := [⟨S200000x1, u0⟩, ⟨S200000x1, u1⟩, ⟨S200000x1, u2⟩, ⟨S200000x1, u3⟩, ⟨S200000x1, u4⟩, ⟨S200000x1, u5⟩, ⟨S200000x1, u6⟩, ⟨S200000x1, u7⟩]
  match k with
  | ⟨0, _⟩ => exact concatenate_apply_piece (1 : Fin S200000x8.rank) xs hc (ix2 r _) 0 (show 0 < 8 by omega) S200000x1 u0 rfl rfl 0 rfl (ix2 r 0) (hi _) rfl
  | ⟨1, _⟩ => exact concatenate_apply_piece (1 : Fin S200000x8.rank) xs hc (ix2 r _) 1 (show 1 < 8 by omega) S200000x1 u1 rfl rfl 1 rfl (ix2 r 0) (hi _) rfl
  | ⟨2, _⟩ => exact concatenate_apply_piece (1 : Fin S200000x8.rank) xs hc (ix2 r _) 2 (show 2 < 8 by omega) S200000x1 u2 rfl rfl 2 rfl (ix2 r 0) (hi _) rfl
  | ⟨3, _⟩ => exact concatenate_apply_piece (1 : Fin S200000x8.rank) xs hc (ix2 r _) 3 (show 3 < 8 by omega) S200000x1 u3 rfl rfl 3 rfl (ix2 r 0) (hi _) rfl
  | ⟨4, _⟩ => exact concatenate_apply_piece (1 : Fin S200000x8.rank) xs hc (ix2 r _) 4 (show 4 < 8 by omega) S200000x1 u4 rfl rfl 4 rfl (ix2 r 0) (hi _) rfl
  | ⟨5, _⟩ => exact concatenate_apply_piece (1 : Fin S200000x8.rank) xs hc (ix2 r _) 5 (show 5 < 8 by omega) S200000x1 u5 rfl rfl 5 rfl (ix2 r 0) (hi _) rfl
  | ⟨6, _⟩ => exact concatenate_apply_piece (1 : Fin S200000x8.rank) xs hc (ix2 r _) 6 (show 6 < 8 by omega) S200000x1 u6 rfl rfl 6 rfl (ix2 r 0) (hi _) rfl
  | ⟨7, _⟩ => exact concatenate_apply_piece (1 : Fin S200000x8.rank) xs hc (ix2 r _) 7 (show 7 < 8 by omega) S200000x1 u7 rfl rfl 7 rfl (ix2 r 0) (hi _) rfl

/-- A per-point weight, flattened and stood up as a one-column table, read at a row. -/
theorem lv0_col_apply (w : Vec Ideal S2x100000 .f32) (hs : S2x100000.ShapeCasts S200000)
    (hb : S200000.BroadcastsInDim S200000x1 (![0] : Fin 1 → Fin S200000x1.rank)) (b : Fin 2) (n : Fin 100000) :
    broadcastInDim S200000x1 ![0] hb (shapeCast S200000 w hs) (ix2 (lv0_flatRow b n) 0) = w (ix2 b n) := by
  refine (broadcastInDim_apply _ hb _ _ (ix1 (lv0_flatRow b n)) fun a => ?_).trans ?_
  · match a with
    | ⟨0, _⟩ => rfl
  · refine shapeCast_apply w hs _ _ ?_
    rw [Shape.rowMajor_val_two, Shape.rowMajor_val_one]
    rfl

/-- Rows appended at the end of the weight table do not move the rows before them. -/
theorem lv0_pad8_apply (y : Vec Ideal S200000x8 .f32) (v : Vec Ideal S_ .f32)
    (h : S200000x8.Pads (![0, 0] : Fin 2 → Nat) ![704, 0] ![0, 0] S200704x8) (hu : 0 < S_.numel)
    (b : Fin 2) (n : Fin 100000) (k : Fin 8) :
    pad S200704x8 ![0, 0] ![704, 0] ![0, 0] y v h hu (ix2 (lv0_padRow b n) k) = y (ix2 (lv0_flatRow b n) k) := by
  refine pad_apply_of_inside _ _ _ y v h hu _ _ fun a => ?_
  match a with
  | ⟨0, _⟩ => show b.val * 100000 + n.val = 0 + (b.val * 100000 + n.val) * (0 + 1); omega
  | ⟨1, _⟩ => show k.val = 0 + k.val * (0 + 1); omega

/-- The padded eight-column weight table at row `(b, n)`, column `k`: the `k`-th per-point weight at `(b, n)`. -/
theorem lv0_wtab_apply (w0 w1 w2 w3 w4 w5 w6 w7 : Vec Ideal S2x100000 .f32) (v : Vec Ideal S_ .f32)
    (hs : S2x100000.ShapeCasts S200000) (hb : S200000.BroadcastsInDim S200000x1 (![0] : Fin 1 → Fin S200000x1.rank))
    (hc : Shape.Concatenates [S200000x1, S200000x1, S200000x1, S200000x1, S200000x1, S200000x1, S200000x1, S200000x1] S200000x8 1)
    (hp : S200000x8.Pads (![0, 0] : Fin 2 → Nat) ![704, 0] ![0, 0] S200704x8) (hu : 0 < S_.numel)
    (b : Fin 2) (n : Fin 100000) (k : Fin 8) :
    pad S200704x8 ![0, 0] ![704, 0] ![0, 0]
        (concatenate S200000x8 1 [⟨S200000x1, broadcastInDim S200000x1 ![0] hb (shapeCast S200000 w0 hs)⟩, ⟨S200000x1, broadcastInDim S200000x1 ![0] hb (shapeCast S200000 w1 hs)⟩,
          ⟨S200000x1, broadcastInDim S200000x1 ![0] hb (shapeCast S200000 w2 hs)⟩, ⟨S200000x1, broadcastInDim S200000x1 ![0] hb (shapeCast S200000 w3 hs)⟩,
          ⟨S200000x1, broadcastInDim S200000x1 ![0] hb (shapeCast S200000 w4 hs)⟩, ⟨S200000x1, broadcastInDim S200000x1 ![0] hb (shapeCast S200000 w5 hs)⟩,
          ⟨S200000x1, broadcastInDim S200000x1 ![0] hb (shapeCast S200000 w6 hs)⟩, ⟨S200000x1, broadcastInDim S200000x1 ![0] hb (shapeCast S200000 w7 hs)⟩] hc)
        v hp hu (ix2 (lv0_padRow b n) k)
      = ![w0 (ix2 b n), w1 (ix2 b n), w2 (ix2 b n), w3 (ix2 b n), w4 (ix2 b n), w5 (ix2 b n), w6 (ix2 b n), w7 (ix2 b n)] k := by
  rw [lv0_pad8_apply, lv0_cols8_apply, lv0_col_apply, lv0_col_apply, lv0_col_apply, lv0_col_apply, lv0_col_apply, lv0_col_apply, lv0_col_apply, lv0_col_apply]

/-! ## The level's host operations cut in two: up to the last gather, and from the first product of weights on -/

theorem lv0_list_split {α : Type} (a b l R : List α) (k : Nat) :
    a ++ (b ++ (l ++ R)) = (a ++ (b ++ l.take k)) ++ (l.drop k ++ R) := by
  rw [List.append_assoc, List.append_assoc, ← List.append_assoc (l.take k), List.take_append_drop]

/-- The operations that compute the gathered arrays and the six fractional weights. -/
abbrev lv0_head : List (HloOp τ sig (Elt Ideal)) := hostOps0 ++ (hostOps0_1 ++ List.take 250 hostOps0_2)
/-- The products of weights and the layout operations. -/
abbrev lv0_tail : List (HloOp τ sig (Elt Ideal)) := List.drop 250 hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19)))))))))))))))))

/-! ## What the second part leaves in each buffer, by computation

From any contents `X`, the second part's operations are run one after the other; a buffer's final contents are the
last operation that writes it applied to its operands' contents at that moment. Each equation below is that
computation carried out. -/

theorem lv0_q0_eq (X : Valuation τ sig (Elt Ideal)) :
    (StableHlo.after lv0_tail X (Proc.devRef .tc main_v247) : Vec Ideal S200704x32 .f32)
      = pad S200704x32 ![0, 0] ![704, 0] ![0, 0] (shapeCast S200000x32 (X (Proc.devRef .tc main_v65) : Vec Ideal S2x100000x32 .f32) shapeCasts_S2x100000x32_S200000x32)
          (sitofp (F := Ideal) .f32 (constantI S_ 32 0#32)) pads_S200000x32_S200704x32_07040_000 h_S_ := by
  chain_rfl
theorem lv0_q1_eq (X : Valuation τ sig (Elt Ideal)) :
    (StableHlo.after lv0_tail X (Proc.devRef .tc main_v248) : Vec Ideal S200704x32 .f32)
      = pad S200704x32 ![0, 0] ![704, 0] ![0, 0] (shapeCast S200000x32 (X (Proc.devRef .tc main_v85) : Vec Ideal S2x100000x32 .f32) shapeCasts_S2x100000x32_S200000x32)
          (sitofp (F := Ideal) .f32 (constantI S_ 32 0#32)) pads_S200000x32_S200704x32_07040_000 h_S_ := by
  chain_rfl
theorem lv0_q2_eq (X : Valuation τ sig (Elt Ideal)) :
    (StableHlo.after lv0_tail X (Proc.devRef .tc main_v249) : Vec Ideal S200704x32 .f32)
      = pad S200704x32 ![0, 0] ![704, 0] ![0, 0] (shapeCast S200000x32 (X (Proc.devRef .tc main_v105) : Vec Ideal S2x100000x32 .f32) shapeCasts_S2x100000x32_S200000x32)
          (sitofp (F := Ideal) .f32 (constantI S_ 32 0#32)) pads_S200000x32_S200704x32_07040_000 h_S_ := by
  chain_rfl
theorem lv0_q3_eq (X : Valuation τ sig (Elt Ideal)) :
    (StableHlo.after lv0_tail X (Proc.devRef .tc main_v250) : Vec Ideal S200704x32 .f32)
      = pad S200704x32 ![0, 0] ![704, 0] ![0, 0] (shapeCast S200000x32 (X (Proc.devRef .tc main_v125) : Vec Ideal S2x100000x32 .f32) shapeCasts_S2x100000x32_S200000x32)
          (sitofp (F := Ideal) .f32 (constantI S_ 32 0#32)) pads_S200000x32_S200704x32_07040_000 h_S_ := by
  chain_rfl
theorem lv0_q4_eq (X : Valuation τ sig (Elt Ideal)) :
    (StableHlo.after lv0_tail X (Proc.devRef .tc main_v251) : Vec Ideal S200704x32 .f32)
      = pad S200704x32 ![0, 0] ![704, 0] ![0, 0] (shapeCast S200000x32 (X (Proc.devRef .tc main_v145) : Vec Ideal S2x100000x32 .f32) shapeCasts_S2x100000x32_S200000x32)
          (sitofp (F := Ideal) .f32 (constantI S_ 32 0#32)) pads_S200000x32_S200704x32_07040_000 h_S_ := by
  chain_rfl
theorem lv0_q5_eq (X : Valuation τ sig (Elt Ideal)) :
    (StableHlo.after lv0_tail X (Proc.devRef .tc main_v252) : Vec Ideal S200704x32 .f32)
      = pad S200704x32 ![0, 0] ![704, 0] ![0, 0] (shapeCast S200000x32 (X (Proc.devRef .tc main_v165) : Vec Ideal S2x100000x32 .f32) shapeCasts_S2x100000x32_S200000x32)
          (sitofp (F := Ideal) .f32 (constantI S_ 32 0#32)) pads_S200000x32_S200704x32_07040_000 h_S_ := by
  chain_rfl
theorem lv0_q6_eq (X : Valuation τ sig (Elt Ideal)) :
    (StableHlo.after lv0_tail X (Proc.devRef .tc main_v253) : Vec Ideal S200704x32 .f32)
      = pad S200704x32 ![0, 0] ![704, 0] ![0, 0] (shapeCast S200000x32 (X (Proc.devRef .tc main_v185) : Vec Ideal S2x100000x32 .f32) shapeCasts_S2x100000x32_S200000x32)
          (sitofp (F := Ideal) .f32 (constantI S_ 32 0#32)) pads_S200000x32_S200704x32_07040_000 h_S_ := by
  chain_rfl
theorem lv0_q7_eq (X : Valuation τ sig (Elt Ideal)) :
    (StableHlo.after lv0_tail X (Proc.devRef .tc main_v254) : Vec Ideal S200704x32 .f32)
      = pad S200704x32 ![0, 0] ![704, 0] ![0, 0] (shapeCast S200000x32 (X (Proc.devRef .tc main_v205) : Vec Ideal S2x100000x32 .f32) shapeCasts_S2x100000x32_S200000x32)
          (sitofp (F := Ideal) .f32 (constantI S_ 32 0#32)) pads_S200000x32_S200704x32_07040_000 h_S_ := by
  chain_rfl

/-- The padded weight table: the eight products of three fractional weights, flattened, stood up as columns, laid side by
    side, padded. -/
theorem lv0_wt_eq (X : Valuation τ sig (Elt Ideal)) :
    (StableHlo.after lv0_tail X (Proc.devRef .tc main_v255) : Vec Ideal S200704x8 .f32)
      = pad S200704x8 ![0, 0] ![704, 0] ![0, 0]
          (concatenate S200000x8 1 [⟨S200000x1, broadcastInDim S200000x1 ![0] bcast_S200000_S200000x1_0 (shapeCast S200000 (mulf (mulf (X (Proc.devRef .tc main_v42) : Vec Ideal S2x100000 .f32) (X (Proc.devRef .tc main_v30) : Vec Ideal S2x100000 .f32)) (X (Proc.devRef .tc main_v36) : Vec Ideal S2x100000 .f32)) shapeCasts_S2x100000_S200000)⟩,
            ⟨S200000x1, broadcastInDim S200000x1 ![0] bcast_S200000_S200000x1_0 (shapeCast S200000 (mulf (mulf (X (Proc.devRef .tc main_v42) : Vec Ideal S2x100000 .f32) (X (Proc.devRef .tc main_v33) : Vec Ideal S2x100000 .f32)) (X (Proc.devRef .tc main_v36) : Vec Ideal S2x100000 .f32)) shapeCasts_S2x100000_S200000)⟩,
            ⟨S200000x1, broadcastInDim S200000x1 ![0] bcast_S200000_S200000x1_0 (shapeCast S200000 (mulf (mulf (X (Proc.devRef .tc main_v42) : Vec Ideal S2x100000 .f32) (X (Proc.devRef .tc main_v30) : Vec Ideal S2x100000 .f32)) (X (Proc.devRef .tc main_v39) : Vec Ideal S2x100000 .f32)) shapeCasts_S2x100000_S200000)⟩,
            ⟨S200000x1, broadcastInDim S200000x1 ![0] bcast_S200000_S200000x1_0 (shapeCast S200000 (mulf (mulf (X (Proc.devRef .tc main_v42) : Vec Ideal S2x100000 .f32) (X (Proc.devRef .tc main_v33) : Vec Ideal S2x100000 .f32)) (X (Proc.devRef .tc main_v39) : Vec Ideal S2x100000 .f32)) shapeCasts_S2x100000_S200000)⟩,
            ⟨S200000x1, broadcastInDim S200000x1 ![0] bcast_S200000_S200000x1_0 (shapeCast S200000 (mulf (mulf (X (Proc.devRef .tc main_v45) : Vec Ideal S2x100000 .f32) (X (Proc.devRef .tc main_v30) : Vec Ideal S2x100000 .f32)) (X (Proc.devRef .tc main_v36) : Vec Ideal S2x100000 .f32)) shapeCasts_S2x100000_S200000)⟩,
            ⟨S200000x1, broadcastInDim S200000x1 ![0] bcast_S200000_S200000x1_0 (shapeCast S200000 (mulf (mulf (X (Proc.devRef .tc main_v45) : Vec Ideal S2x100000 .f32) (X (Proc.devRef .tc main_v33) : Vec Ideal S2x100000 .f32)) (X (Proc.devRef .tc main_v36) : Vec Ideal S2x100000 .f32)) shapeCasts_S2x100000_S200000)⟩,
            ⟨S200000x1, broadcastInDim S200000x1 ![0] bcast_S200000_S200000x1_0 (shapeCast S200000 (mulf (mulf (X (Proc.devRef .tc main_v45) : Vec Ideal S2x100000 .f32) (X (Proc.devRef .tc main_v30) : Vec Ideal S2x100000 .f32)) (X (Proc.devRef .tc main_v39) : Vec Ideal S2x100000 .f32)) shapeCasts_S2x100000_S200000)⟩,
            ⟨S200000x1, broadcastInDim S200000x1 ![0] bcast_S200000_S200000x1_0 (shapeCast S200000 (mulf (mulf (X (Proc.devRef .tc main_v45) : Vec Ideal S2x100000 .f32) (X (Proc.devRef .tc main_v33) : Vec Ideal S2x100000 .f32)) (X (Proc.devRef .tc main_v39) : Vec Ideal S2x100000 .f32)) shapeCasts_S2x100000_S200000)⟩]
            concatenates_S200000x1_S200000x1_S200000x1_S200000x1_S200000x1_S200000x1_S200000x1_S200000x1_S200000x8_d1)
          (sitofp (F := Ideal) .f32 (constantI S_ 32 0#32)) pads_S200000x8_S200704x8_07040_000 h_S_ := by
  chain_rfl

theorem lv0_keep65 (X : Valuation τ sig (Elt Ideal)) :
    StableHlo.after lv0_tail X (Proc.devRef .tc main_v65) = X (Proc.devRef .tc main_v65) := by
  chain_rfl
theorem lv0_keep85 (X : Valuation τ sig (Elt Ideal)) :
    StableHlo.after lv0_tail X (Proc.devRef .tc main_v85) = X (Proc.devRef .tc main_v85) := by
  chain_rfl
theorem lv0_keep105 (X : Valuation τ sig (Elt Ideal)) :
    StableHlo.after lv0_tail X (Proc.devRef .tc main_v105) = X (Proc.devRef .tc main_v105) := by
  chain_rfl
theorem lv0_keep125 (X : Valuation τ sig (Elt Ideal)) :
    StableHlo.after lv0_tail X (Proc.devRef .tc main_v125) = X (Proc.devRef .tc main_v125) := by
  chain_rfl
theorem lv0_keep145 (X : Valuation τ sig (Elt Ideal)) :
    StableHlo.after lv0_tail X (Proc.devRef .tc main_v145) = X (Proc.devRef .tc main_v145) := by
  chain_rfl
theorem lv0_keep165 (X : Valuation τ sig (Elt Ideal)) :
    StableHlo.after lv0_tail X (Proc.devRef .tc main_v165) = X (Proc.devRef .tc main_v165) := by
  chain_rfl
theorem lv0_keep185 (X : Valuation τ sig (Elt Ideal)) :
    StableHlo.after lv0_tail X (Proc.devRef .tc main_v185) = X (Proc.devRef .tc main_v185) := by
  chain_rfl
theorem lv0_keep205 (X : Valuation τ sig (Elt Ideal)) :
    StableHlo.after lv0_tail X (Proc.devRef .tc main_v205) = X (Proc.devRef .tc main_v205) := by
  chain_rfl
theorem lv0_keep30 (X : Valuation τ sig (Elt Ideal)) :
    StableHlo.after lv0_tail X (Proc.devRef .tc main_v30) = X (Proc.devRef .tc main_v30) := by
  chain_rfl
theorem lv0_keep33 (X : Valuation τ sig (Elt Ideal)) :
    StableHlo.after lv0_tail X (Proc.devRef .tc main_v33) = X (Proc.devRef .tc main_v33) := by
  chain_rfl
theorem lv0_keep36 (X : Valuation τ sig (Elt Ideal)) :
    StableHlo.after lv0_tail X (Proc.devRef .tc main_v36) = X (Proc.devRef .tc main_v36) := by
  chain_rfl
theorem lv0_keep39 (X : Valuation τ sig (Elt Ideal)) :
    StableHlo.after lv0_tail X (Proc.devRef .tc main_v39) = X (Proc.devRef .tc main_v39) := by
  chain_rfl
theorem lv0_keep42 (X : Valuation τ sig (Elt Ideal)) :
    StableHlo.after lv0_tail X (Proc.devRef .tc main_v42) = X (Proc.devRef .tc main_v42) := by
  chain_rfl
theorem lv0_keep45 (X : Valuation τ sig (Elt Ideal)) :
    StableHlo.after lv0_tail X (Proc.devRef .tc main_v45) = X (Proc.devRef .tc main_v45) := by
  chain_rfl

/-- What the second part does to the buffers, from any contents `X`: each padded operand and the padded weight table read at
    a point, and the gathered arrays and fractional weights left as they were. -/
structure Lv0Tail (X Y : Valuation τ sig (Elt Ideal)) : Prop where
  /-- padded operand 0, row `(b, n)`: gathered array 0 at `(b, n)` -/
  q0 : ∀ (b : Fin 2) (n : Fin 100000) (ch : Fin 32),
    (Y (Proc.devRef .tc main_v247) : Vec Ideal S200704x32 .f32) (ix2 (lv0_padRow b n) ch)
      = (X (Proc.devRef .tc main_v65) : Vec Ideal S2x100000x32 .f32) (ix3 b n ch)
  /-- padded operand 1, row `(b, n)`: gathered array 1 at `(b, n)` -/
  q1 : ∀ (b : Fin 2) (n : Fin 100000) (ch : Fin 32),
    (Y (Proc.devRef .tc main_v248) : Vec Ideal S200704x32 .f32) (ix2 (lv0_padRow b n) ch)
      = (X (Proc.devRef .tc main_v85) : Vec Ideal S2x100000x32 .f32) (ix3 b n ch)
  /-- padded operand 2, row `(b, n)`: gathered array 2 at `(b, n)` -/
  q2 : ∀ (b : Fin 2) (n : Fin 100000) (ch : Fin 32),
    (Y (Proc.devRef .tc main_v249) : Vec Ideal S200704x32 .f32) (ix2 (lv0_padRow b n) ch)
      = (X (Proc.devRef .tc main_v105) : Vec Ideal S2x100000x32 .f32) (ix3 b n ch)
  /-- padded operand 3, row `(b, n)`: gathered array 3 at `(b, n)` -/
  q3 : ∀ (b : Fin 2) (n : Fin 100000) (ch : Fin 32),
    (Y (Proc.devRef .tc main_v250) : Vec Ideal S200704x32 .f32) (ix2 (lv0_padRow b n) ch)
      = (X (Proc.devRef .tc main_v125) : Vec Ideal S2x100000x32 .f32) (ix3 b n ch)
  /-- padded operand 4, row `(b, n)`: gathered array 4 at `(b, n)` -/
  q4 : ∀ (b : Fin 2) (n : Fin 100000) (ch : Fin 32),
    (Y (Proc.devRef .tc main_v251) : Vec Ideal S200704x32 .f32) (ix2 (lv0_padRow b n) ch)
      = (X (Proc.devRef .tc main_v145) : Vec Ideal S2x100000x32 .f32) (ix3 b n ch)
  /-- padded operand 5, row `(b, n)`: gathered array 5 at `(b, n)` -/
  q5 : ∀ (b : Fin 2) (n : Fin 100000) (ch : Fin 32),
    (Y (Proc.devRef .tc main_v252) : Vec Ideal S200704x32 .f32) (ix2 (lv0_padRow b n) ch)
      = (X (Proc.devRef .tc main_v165) : Vec Ideal S2x100000x32 .f32) (ix3 b n ch)
  /-- padded operand 6, row `(b, n)`: gathered array 6 at `(b, n)` -/
  q6 : ∀ (b : Fin 2) (n : Fin 100000) (ch : Fin 32),
    (Y (Proc.devRef .tc main_v253) : Vec Ideal S200704x32 .f32) (ix2 (lv0_padRow b n) ch)
      = (X (Proc.devRef .tc main_v185) : Vec Ideal S2x100000x32 .f32) (ix3 b n ch)
  /-- padded operand 7, row `(b, n)`: gathered array 7 at `(b, n)` -/
  q7 : ∀ (b : Fin 2) (n : Fin 100000) (ch : Fin 32),
    (Y (Proc.devRef .tc main_v254) : Vec Ideal S200704x32 .f32) (ix2 (lv0_padRow b n) ch)
      = (X (Proc.devRef .tc main_v205) : Vec Ideal S2x100000x32 .f32) (ix3 b n ch)
  /-- the padded weight table, row `(b, n)`, column `k`: the `k`-th product of three fractional weights at `(b, n)` -/
  wt : ∀ (b : Fin 2) (n : Fin 100000) (k : Fin 8),
    (Y (Proc.devRef .tc main_v255) : Vec Ideal S200704x8 .f32) (ix2 (lv0_padRow b n) k)
      = Cert.Spec.cornerWeights ((X (Proc.devRef .tc main_v30) : Vec Ideal S2x100000 .f32) (ix2 b n)) ((X (Proc.devRef .tc main_v33) : Vec Ideal S2x100000 .f32) (ix2 b n)) ((X (Proc.devRef .tc main_v36) : Vec Ideal S2x100000 .f32) (ix2 b n))
          ((X (Proc.devRef .tc main_v39) : Vec Ideal S2x100000 .f32) (ix2 b n)) ((X (Proc.devRef .tc main_v42) : Vec Ideal S2x100000 .f32) (ix2 b n)) ((X (Proc.devRef .tc main_v45) : Vec Ideal S2x100000 .f32) (ix2 b n)) k
  k65 : Y (Proc.devRef .tc main_v65) = X (Proc.devRef .tc main_v65)
  k85 : Y (Proc.devRef .tc main_v85) = X (Proc.devRef .tc main_v85)
  k105 : Y (Proc.devRef .tc main_v105) = X (Proc.devRef .tc main_v105)
  k125 : Y (Proc.devRef .tc main_v125) = X (Proc.devRef .tc main_v125)
  k145 : Y (Proc.devRef .tc main_v145) = X (Proc.devRef .tc main_v145)
  k165 : Y (Proc.devRef .tc main_v165) = X (Proc.devRef .tc main_v165)
  k185 : Y (Proc.devRef .tc main_v185) = X (Proc.devRef .tc main_v185)
  k205 : Y (Proc.devRef .tc main_v205) = X (Proc.devRef .tc main_v205)
  k30 : Y (Proc.devRef .tc main_v30) = X (Proc.devRef .tc main_v30)
  k33 : Y (Proc.devRef .tc main_v33) = X (Proc.devRef .tc main_v33)
  k36 : Y (Proc.devRef .tc main_v36) = X (Proc.devRef .tc main_v36)
  k39 : Y (Proc.devRef .tc main_v39) = X (Proc.devRef .tc main_v39)
  k42 : Y (Proc.devRef .tc main_v42) = X (Proc.devRef .tc main_v42)
  k45 : Y (Proc.devRef .tc main_v45) = X (Proc.devRef .tc main_v45)

theorem lv0_tail_facts (X : Valuation τ sig (Elt Ideal)) : Lv0Tail X (StableHlo.after lv0_tail X) where
  q0 := fun b n ch => (congrFun (lv0_q0_eq X) _).trans ((lv0_pad_apply _ _ _ _ b n ch).trans (lv0_flat_apply _ _ b n ch))
  q1 := fun b n ch => (congrFun (lv0_q1_eq X) _).trans ((lv0_pad_apply _ _ _ _ b n ch).trans (lv0_flat_apply _ _ b n ch))
  q2 := fun b n ch => (congrFun (lv0_q2_eq X) _).trans ((lv0_pad_apply _ _ _ _ b n ch).trans (lv0_flat_apply _ _ b n ch))
  q3 := fun b n ch => (congrFun (lv0_q3_eq X) _).trans ((lv0_pad_apply _ _ _ _ b n ch).trans (lv0_flat_apply _ _ b n ch))
  q4 := fun b n ch => (congrFun (lv0_q4_eq X) _).trans ((lv0_pad_apply _ _ _ _ b n ch).trans (lv0_flat_apply _ _ b n ch))
  q5 := fun b n ch => (congrFun (lv0_q5_eq X) _).trans ((lv0_pad_apply _ _ _ _ b n ch).trans (lv0_flat_apply _ _ b n ch))
  q6 := fun b n ch => (congrFun (lv0_q6_eq X) _).trans ((lv0_pad_apply _ _ _ _ b n ch).trans (lv0_flat_apply _ _ b n ch))
  q7 := fun b n ch => (congrFun (lv0_q7_eq X) _).trans ((lv0_pad_apply _ _ _ _ b n ch).trans (lv0_flat_apply _ _ b n ch))
  wt := fun b n k => (congrFun (lv0_wt_eq X) _).trans ((lv0_wtab_apply _ _ _ _ _ _ _ _ _ _ _ _ _ _ b n k).trans rfl)
  k65 := lv0_keep65 X
  k85 := lv0_keep85 X
  k105 := lv0_keep105 X
  k125 := lv0_keep125 X
  k145 := lv0_keep145 X
  k165 := lv0_keep165 X
  k185 := lv0_keep185 X
  k205 := lv0_keep205 X
  k30 := lv0_keep30 X
  k33 := lv0_keep33 X
  k36 := lv0_keep36 X
  k39 := lv0_keep39 X
  k42 := lv0_keep42 X
  k45 := lv0_keep45 X

end Cert.KernelIdeal.Hand

end
-- ==== Proof.Val.KHostOut0.lean ====
/-
  Level 0 of the feature pyramid: the host operations after the pipelined call begin by dropping the 704
  padding rows of the call's output array and unflattening its 200000 rows to `[2, 100000, 32]`; no later
  operation of that stretch writes the unflattened array, which is level 0's part of the result.
-/
import proofs.«171014_j76854144795318_1_alg».proof.Proof.KI.Fold
import Idealize.ShloMosaic.Lib.ValueIdx
import Idealize.ShloMosaic.Lib.StableHlo.Run
import Idealize.ShloMosaic.Lib.Pipeline.Regions

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

variable (m : (ℓ : Loc nD τ sig) → Buf (Elt Ideal) ℓ) (ρ : Dev nD → PrngReg)

/-- Level 0's part of the result is the call's output array, its padding rows dropped, unflattened. -/
theorem lv0_out_eq (c : Dev nD) :
    W3 m ρ c (Proc.devRef .tc main_v258)
      = shapeCast S2x100000x32 (extractStridedSlice S200000x32 ![0, 0] (W2 m ρ c (Proc.devRef .tc main_v256) : Vec Ideal S200704x32 .f32)
          slices_S200704x32_S200000x32_0_0) shapeCasts_S200000x32_S2x100000x32 := by
  chain_rfl

end Cert.KernelIdeal.Hand

end
-- ==== Proof.Val.KHost0.lean ====
/-
  Level 0 of the feature pyramid, outside its pipelined call.

  Before the call the host gathers, for each of the 2 × 100000 query points, the eight corners of the cell
  around it (eight arrays `[2, 100000, 32]`) and the six fractional weights (six arrays `[2, 100000]`), forms
  the eight corner weights as products of three of the six, and lays everything out for the call: each
  gathered array is flattened to `[200000, 32]` (row `b · 100000 + n` is point `(b, n)`: row-major order) and
  padded with 704 rows at the end; the eight corner weights are flattened, stood up as columns, laid side by
  side as `[200000, 8]` and padded likewise. The call writes, row by row, the eight operands times the eight
  columns, added from left to right. After the call the host drops the padding rows and unflattens:
  that array is level 0's part of the result. Read at a point `(b, n)` and a channel, the padding rows are
  never met, and the result is the eight gathered corners against the eight products of weights.
-/
import proofs.«171014_j76854144795318_1_alg».proof.Proof.KI.Fold
import proofs.«171014_j76854144795318_1_alg».proof.Proof.Val.Region0
import proofs.«171014_j76854144795318_1_alg».proof.Proof.Val.Spec
import proofs.«171014_j76854144795318_1_alg».proof.Proof.Val.KHostTail0
import proofs.«171014_j76854144795318_1_alg».proof.Proof.Val.KHostOut0
import Idealize.ShloMosaic.Lib.ValueIdx
import Idealize.ShloMosaic.Lib.Pipeline.Frame

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

/-! ## The level's host operations cut in two -/

theorem lv0_split : (pre0 : List (HloOp τ sig (Elt Ideal))) = lv0_head ++ lv0_tail :=
  lv0_list_split _ _ _ _ 250

variable (m : (ℓ : Loc nD τ sig) → Buf (Elt Ideal) ℓ) (ρ : Dev nD → PrngReg)

theorem lv0_W1_eq (c : Dev nD) : W1 m ρ c = StableHlo.after lv0_tail (StableHlo.after lv0_head (W0 m ρ c)) := by
  show StableHlo.after pre0 (W0 m ρ c) = _
  rw [← StableHlo.after_append]
  exact congrArg (fun l => StableHlo.after l (W0 m ρ c)) lv0_split

theorem lv0_tail_W1 (c : Dev nD) : Lv0Tail (StableHlo.after lv0_head (W0 m ρ c)) (W1 m ρ c) := by
  rw [lv0_W1_eq]; exact lv0_tail_facts _

/-! ## After the call: the padding rows dropped, the rows unflattened -/

/-- Level 0's part of the result at `(b, n, ch)` is the call's output array at row `b · 100000 + n`. -/
theorem lv0_out_apply (c : Dev nD) (b : Fin 2) (n : Fin 100000) (ch : Fin 32) :
    (W3 m ρ c (Proc.devRef .tc main_v258) : Vec Ideal S2x100000x32 .f32) (ix3 b n ch)
      = (W2 m ρ c (Proc.devRef .tc main_v256) : Vec Ideal S200704x32 .f32) (ix2 (lv0_padRow b n) ch) :=
  (congrFun (lv0_out_eq m ρ c) _).trans ((lv0_unflat_apply _ (by decide) b n ch).trans (lv0_slice_apply _ (by decide) b n ch))

/-! ## The level's slice of the result -/

/-- level 0's eight gathered corner arrays and six fractional-weight arrays, as the level's host operations leave them at region 0's entry
    (corner order: the kernel's — ceil/ceil/ceil, floor/ceil/ceil, ceil/floor/ceil, floor/floor/ceil, then the same four in the floor plane of z) -/
abbrev kq0_0 (c : Dev nD) : Vec Ideal S2x100000x32 .f32 := W1 m ρ c (Proc.devRef .tc main_v65)
abbrev kq0_1 (c : Dev nD) : Vec Ideal S2x100000x32 .f32 := W1 m ρ c (Proc.devRef .tc main_v85)
abbrev kq0_2 (c : Dev nD) : Vec Ideal S2x100000x32 .f32 := W1 m ρ c (Proc.devRef .tc main_v105)
abbrev kq0_3 (c : Dev nD) : Vec Ideal S2x100000x32 .f32 := W1 m ρ c (Proc.devRef .tc main_v125)
abbrev kq0_4 (c : Dev nD) : Vec Ideal S2x100000x32 .f32 := W1 m ρ c (Proc.devRef .tc main_v145)
abbrev kq0_5 (c : Dev nD) : Vec Ideal S2x100000x32 .f32 := W1 m ρ c (Proc.devRef .tc main_v165)
abbrev kq0_6 (c : Dev nD) : Vec Ideal S2x100000x32 .f32 := W1 m ρ c (Proc.devRef .tc main_v185)
abbrev kq0_7 (c : Dev nD) : Vec Ideal S2x100000x32 .f32 := W1 m ρ c (Proc.devRef .tc main_v205)
/-- x − ⌊x⌋ -/
abbrev kwx0 (c : Dev nD) : Vec Ideal S2x100000 .f32 := W1 m ρ c (Proc.devRef .tc main_v30)
/-- ⌈x⌉ − x -/
abbrev kwx20 (c : Dev nD) : Vec Ideal S2x100000 .f32 := W1 m ρ c (Proc.devRef .tc main_v33)
/-- y − ⌊y⌋ -/
abbrev kwy0 (c : Dev nD) : Vec Ideal S2x100000 .f32 := W1 m ρ c (Proc.devRef .tc main_v36)
/-- ⌈y⌉ − y -/
abbrev kwy20 (c : Dev nD) : Vec Ideal S2x100000 .f32 := W1 m ρ c (Proc.devRef .tc main_v39)
/-- z − ⌊z⌋ -/
abbrev kwz0 (c : Dev nD) : Vec Ideal S2x100000 .f32 := W1 m ρ c (Proc.devRef .tc main_v42)
/-- ⌈z⌉ − z -/
abbrev kwz20 (c : Dev nD) : Vec Ideal S2x100000 .f32 := W1 m ρ c (Proc.devRef .tc main_v45)

/-- level 0's slice of the result, (b, n, ch): the eight corners at (b, n, ch) against the eight products of three weights at (b, n) -/
theorem level0_out (c : Dev nD) (b : Fin 2) (n : Fin 100000) (ch : Fin 32) :
    (W3 m ρ c (Proc.devRef .tc main_v258) : Vec Ideal S2x100000x32 .f32) (ix3 b n ch)
      = Cert.Spec.comb8 ![kq0_0 m ρ c (ix3 b n ch), kq0_1 m ρ c (ix3 b n ch), kq0_2 m ρ c (ix3 b n ch), kq0_3 m ρ c (ix3 b n ch),
                          kq0_4 m ρ c (ix3 b n ch), kq0_5 m ρ c (ix3 b n ch), kq0_6 m ρ c (ix3 b n ch), kq0_7 m ρ c (ix3 b n ch)]
          (Cert.Spec.cornerWeights (kwx0 m ρ c (ix2 b n)) (kwx20 m ρ c (ix2 b n)) (kwy0 m ρ c (ix2 b n)) (kwy20 m ρ c (ix2 b n)) (kwz0 m ρ c (ix2 b n)) (kwz20 m ρ c (ix2 b n))) := by
  have T := lv0_tail_W1 m ρ c
  have hq0 : (V1 m ρ c main_v247 : Vec Ideal S200704x32 .f32) (ix2 (lv0_padRow b n) ch) = kq0_0 m ρ c (ix3 b n ch) :=
    (T.q0 b n ch).trans (congrFun T.k65 _).symm
  have hq1 : (V1 m ρ c main_v248 : Vec Ideal S200704x32 .f32) (ix2 (lv0_padRow b n) ch) = kq0_1 m ρ c (ix3 b n ch) :=
    (T.q1 b n ch).trans (congrFun T.k85 _).symm
  have hq2 : (V1 m ρ c main_v249 : Vec Ideal S200704x32 .f32) (ix2 (lv0_padRow b n) ch) = kq0_2 m ρ c (ix3 b n ch) :=
    (T.q2 b n ch).trans (congrFun T.k105 _).symm
  have hq3 : (V1 m ρ c main_v250 : Vec Ideal S200704x32 .f32) (ix2 (lv0_padRow b n) ch) = kq0_3 m ρ c (ix3 b n ch) :=
    (T.q3 b n ch).trans (congrFun T.k125 _).symm
  have hq4 : (V1 m ρ c main_v251 : Vec Ideal S200704x32 .f32) (ix2 (lv0_padRow b n) ch) = kq0_4 m ρ c (ix3 b n ch) :=
    (T.q4 b n ch).trans (congrFun T.k145 _).symm
  have hq5 : (V1 m ρ c main_v252 : Vec Ideal S200704x32 .f32) (ix2 (lv0_padRow b n) ch) = kq0_5 m ρ c (ix3 b n ch) :=
    (T.q5 b n ch).trans (congrFun T.k165 _).symm
  have hq6 : (V1 m ρ c main_v253 : Vec Ideal S200704x32 .f32) (ix2 (lv0_padRow b n) ch) = kq0_6 m ρ c (ix3 b n ch) :=
    (T.q6 b n ch).trans (congrFun T.k185 _).symm
  have hq7 : (V1 m ρ c main_v254 : Vec Ideal S200704x32 .f32) (ix2 (lv0_padRow b n) ch) = kq0_7 m ρ c (ix3 b n ch) :=
    (T.q7 b n ch).trans (congrFun T.k205 _).symm
  have hw : (fun k => (V1 m ρ c main_v255 : Vec Ideal S200704x8 .f32) (ix2 (lv0_padRow b n) k))
      = Cert.Spec.cornerWeights (kwx0 m ρ c (ix2 b n)) (kwx20 m ρ c (ix2 b n)) (kwy0 m ρ c (ix2 b n)) (kwy20 m ρ c (ix2 b n)) (kwz0 m ρ c (ix2 b n)) (kwz20 m ρ c (ix2 b n)) := by
    funext k
    refine (T.wt b n k).trans ?_
    rw [← T.k30, ← T.k33, ← T.k36, ← T.k39, ← T.k42, ← T.k45]
  have harr : (W2 m ρ c (Proc.devRef .tc main_v256) : Vec Ideal S200704x32 .f32)
      = ((dat0 (F := Ideal) (V1 m ρ) c).arrAt 9 cfg0.N : Vec Ideal S200704x32 .f32) := W2_arr m ρ c 9
  rw [lv0_out_apply, harr, final0 (V1 m ρ) c (lv0_padRow b n) ch, hq0, hq1, hq2, hq3, hq4, hq5, hq6, hq7, hw]

end Cert.KernelIdeal.Hand

end
-- ==== Proof.Val.Region1.lean ====
import proofs.«171014_j76854144795318_1_alg».proof.Proof.KI.Body1
import proofs.«171014_j76854144795318_1_alg».proof.Proof.Val.Spec
import Idealize.ShloMosaic.Lib.Pipeline.Value
import Idealize.ShloMosaic.Lib.ValueIdx
import Idealize.ShloMosaic.PureOps.Ideal.Laws

/-! # Pyramid level 1: the output array, element by element

The pipelined call of level 1 walks 98 grid points. Point `t` stages rows `2048·t … 2048·t + 2047` (all 64
channels) of each of the eight gathered arrays, the same rows (all 8 columns) of the weight table, and writes back the
same rows of the result. On the extended reals every operation is exact, so the block the body leaves is, at row `p`
and channel `q` of the block, `0 + x₀[p,q]·c[p,0] + … + x₇[p,q]·c[p,7]`, and `0 + y = y`. The 98 blocks tile the
200704 rows, so after the last point the whole result is one function of the nine arrays as the call found them:
at row `r` and channel `ch`, the eight gathered values at `(r, ch)` times the eight weights of row `r`, added
from left to right. -/

noncomputable section

namespace Cert.KernelIdeal.Hand

open Cert.KernelIdeal Cert.KernelIdeal.Gen Idealize.ShloMosaic.ValueIdx
open Idealize.ShloMosaic Idealize.ShloMosaic.TcCoe
open Idealize.ShloMosaic.Pipeline (Dat)

/-! ## One block: what the body computes at a row and a channel -/

/-- The zero offsets of a whole-block load or store, as the constant-zero function. -/
theorem zero_off1 : (![0, 0] : Fin 2 → Nat) = fun _ => 0 :=
  funext fun a => match a with | ⟨0, _⟩ => rfl | ⟨1, _⟩ => rfl

/-- One column of the weight block, spread along the channels: at row `p` and any channel it is the weight `(p, k)`. -/
theorem wcol1_apply (x : FVec Ideal S2048x8 .f32) (off : Fin S2048x8.rank → Nat) (hs : S2048x8.Slices off S2048x1)
    (hb : S2048x1.Broadcasts S2048x64) (k : Fin 8) (h0 : off 0 = 0) (h1 : off 1 = k.val) (p : Fin 2048) (q : Fin 64) :
    broadcastTo S2048x64 (extractStridedSlice S2048x1 off x hs) hb (ix2 p q) = x (ix2 p k) := by
  refine (broadcastTo_apply _ hb (ix2 p q) (ix2 p (0 : Fin 1)) ?_).trans ?_
  · intro a
    match a with
    | ⟨0, _⟩ => rfl
    | ⟨1, _⟩ => rfl
  · refine extractStridedSlice_apply off x hs (ix2 p (0 : Fin 1)) (ix2 p k) ?_
    intro a
    match a with
    | ⟨0, _⟩ => show p.val = off 0 + p.val; rw [h0]; omega
    | ⟨1, _⟩ => show k.val = off 1 + 0; rw [h1]; rfl

/-- The value the body stores, at row `p` and channel `q` of the block: the eight operand blocks there times the
    eight weights of row `p`, added from left to right (the leading zero is absorbed: `0 + y = y`). -/
theorem pay1_apply (x0 x1 x2 x3 x4 x5 x6 x7 : Vec Ideal S2048x64 .f32) (x8 : Vec Ideal S2048x8 .f32) (p : Fin 2048) (q : Fin 64) :
    k1_pay1 (k1_pay2 x8) (k1_pay3 x5) (k1_pay4 x6) (k1_pay5 x7) (k1_pay6 x8 x0 x1 x2 x3 x4) (k1_pay7 x8) (ix2 p q)
      = Cert.Spec.comb8 ![x0 (ix2 p q), x1 (ix2 p q), x2 (ix2 p q), x3 (ix2 p q), x4 (ix2 p q), x5 (ix2 p q), x6 (ix2 p q), x7 (ix2 p q)]
          (fun k => x8 (ix2 p k)) := by
  unfold k1_pay1 k1_pay6 k1_pay7 k1_pay3 k1_pay4 k1_pay5 k1_pay2
  simp only [shapeCast_self, mulf_apply, addf_apply, broadcast_apply]
  rw [wcol1_apply x8 ![0, 0] _ _ 0 rfl rfl p q, wcol1_apply x8 ![0, 1] _ _ 1 rfl rfl p q, wcol1_apply x8 ![0, 2] _ _ 2 rfl rfl p q,
    wcol1_apply x8 ![0, 3] _ _ 3 rfl rfl p q, wcol1_apply x8 ![0, 4] _ _ 4 rfl rfl p q, wcol1_apply x8 ![0, 5] _ _ 5 rfl rfl p q,
    wcol1_apply x8 ![0, 6] _ _ 6 rfl rfl p q, wcol1_apply x8 ![0, 7] _ _ 7 rfl rfl p q]
  have hz : (FloatOps.ofBits FTy.f32 0x00000000#32 : Ideal .f32) = 0 := Ideal.ofBits_zero_f32
  rw [hz, zero_add]
  rfl

/-- What the body leaves in the result's staging buffer, read at row `p` and channel `q`: the one store covers the
    whole block, and each load reads a whole block. -/
theorem out1_9_apply (x0 x1 x2 x3 x4 x5 x6 x7 : Vec Ideal S2048x64 .f32) (x8 : Vec Ideal S2048x8 .f32) (p : Fin 2048) (q : Fin 64) :
    out1_9 x0 x1 x2 x3 x4 x5 x6 x7 x8 (ix2 p q)
      = Cert.Spec.comb8 ![x0 (ix2 p q), x1 (ix2 p q), x2 (ix2 p q), x3 (ix2 p q), x4 (ix2 p q), x5 (ix2 p q), x6 (ix2 p q), x7 (ix2 p q)]
          (fun k => x8 (ix2 p k)) := by
  unfold out1_9
  rw [View.canon_unit_zero zero_off1]
  simp only [View.ld_unit_zero (S := S2048x64) zero_off1, View.ld_unit_zero (S := S2048x8) zero_off1]
  exact pay1_apply x0 x1 x2 x3 x4 x5 x6 x7 x8 p q

/-! ## The whole array -/

/-- The result as one function of the nine arrays: at index `i`, the eight gathered arrays at `i` times the eight
    weights of `i`'s row, added from left to right. -/
def combArr1 (a0 a1 a2 a3 a4 a5 a6 a7 : Vec Ideal S200704x64 .f32) (a8 : Vec Ideal S200704x8 .f32) : Vec Ideal S200704x64 .f32 :=
  fun i => Cert.Spec.comb8 ![a0 i, a1 i, a2 i, a3 i, a4 i, a5 i, a6 i, a7 i] (fun k => a8 (ix2 (i 0) k))

/-- Every window's index map sends grid point `t` to block `(t, 0)`: block `t` of rows, the one block of columns. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Operand 0's block at point t lies over the same rows and channels of its array as the output's block. -/
theorem emb1_0 (t : Fin cfg1.N) (j : S2048x64.Idx) :
    (((cfg1.win 0).blk t).view.emb j : S200704x64.Idx) = ((cfg1.win 9).blk t).view.emb j := by
  have e := idx_facts1 t
  funext a; apply Fin.ext
  match a with
  | ⟨0, _⟩ => show win1_0.index t (0 : Fin 2) * 2048 + 1 * (j 0).val = win1_9.index t (0 : Fin 2) * 2048 + 1 * (j 0).val; omega
  | ⟨1, _⟩ => show win1_0.index t (1 : Fin 2) * 64 + 1 * (j 1).val = win1_9.index t (1 : Fin 2) * 64 + 1 * (j 1).val; omega

/-- Operand 1's block at point t lies over the same rows and channels of its array as the output's block. -/
theorem emb1_1 (t : Fin cfg1.N) (j : S2048x64.Idx) :
    (((cfg1.win 1).blk t).view.emb j : S200704x64.Idx) = ((cfg1.win 9).blk t).view.emb j := by
  have e := idx_facts1 t
  funext a; apply Fin.ext
  match a with
  | ⟨0, _⟩ => show win1_1.index t (0 : Fin 2) * 2048 + 1 * (j 0).val = win1_9.index t (0 : Fin 2) * 2048 + 1 * (j 0).val; omega
  | ⟨1, _⟩ => show win1_1.index t (1 : Fin 2) * 64 + 1 * (j 1).val = win1_9.index t (1 : Fin 2) * 64 + 1 * (j 1).val; omega

/-- Operand 2's block at point t lies over the same rows and channels of its array as the output's block. -/
theorem emb1_2 (t : Fin cfg1.N) (j : S2048x64.Idx) :
    (((cfg1.win 2).blk t).view.emb j : S200704x64.Idx) = ((cfg1.win 9).blk t).view.emb j := by
  have e := idx_facts1 t
  funext a; apply Fin.ext
  match a with
  | ⟨0, _⟩ => show win1_2.index t (0 : Fin 2) * 2048 + 1 * (j 0).val = win1_9.index t (0 : Fin 2) * 2048 + 1 * (j 0).val; omega
  | ⟨1, _⟩ => show win1_2.index t (1 : Fin 2) * 64 + 1 * (j 1).val = win1_9.index t (1 : Fin 2) * 64 + 1 * (j 1).val; omega

/-- Operand 3's block at point t lies over the same rows and channels of its array as the output's block. -/
theorem emb1_3 (t : Fin cfg1.N) (j : S2048x64.Idx) :
    (((cfg1.win 3).blk t).view.emb j : S200704x64.Idx) = ((cfg1.win 9).blk t).view.emb j := by
  have e := idx_facts1 t
  funext a; apply Fin.ext
  match a with
  | ⟨0, _⟩ => show win1_3.index t (0 : Fin 2) * 2048 + 1 * (j 0).val = win1_9.index t (0 : Fin 2) * 2048 + 1 * (j 0).val; omega
  | ⟨1, _⟩ => show win1_3.index t (1 : Fin 2) * 64 + 1 * (j 1).val = win1_9.index t (1 : Fin 2) * 64 + 1 * (j 1).val; omega

/-- Operand 4's block at point t lies over the same rows and channels of its array as the output's block. -/
theorem emb1_4 (t : Fin cfg1.N) (j : S2048x64.Idx) :
    (((cfg1.win 4).blk t).view.emb j : S200704x64.Idx) = ((cfg1.win 9).blk t).view.emb j := by
  have e := idx_facts1 t
  funext a; apply Fin.ext
  match a with
  | ⟨0, _⟩ => show win1_4.index t (0 : Fin 2) * 2048 + 1 * (j 0).val = win1_9.index t (0 : Fin 2) * 2048 + 1 * (j 0).val; omega
  | ⟨1, _⟩ => show win1_4.index t (1 : Fin 2) * 64 + 1 * (j 1).val = win1_9.index t (1 : Fin 2) * 64 + 1 * (j 1).val; omega

/-- Operand 5's block at point t lies over the same rows and channels of its array as the output's block. -/
theorem emb1_5 (t : Fin cfg1.N) (j : S2048x64.Idx) :
    (((cfg1.win 5).blk t).view.emb j : S200704x64.Idx) = ((cfg1.win 9).blk t).view.emb j := by
  have e := idx_facts1 t
  funext a; apply Fin.ext
  match a with
  | ⟨0, _⟩ => show win1_5.index t (0 : Fin 2) * 2048 + 1 * (j 0).val = win1_9.index t (0 : Fin 2) * 2048 + 1 * (j 0).val; omega
  | ⟨1, _⟩ => show win1_5.index t (1 : Fin 2) * 64 + 1 * (j 1).val = win1_9.index t (1 : Fin 2) * 64 + 1 * (j 1).val; omega

/-- Operand 6's block at point t lies over the same rows and channels of its array as the output's block. -/
theorem emb1_6 (t : Fin cfg1.N) (j : S2048x64.Idx) :
    (((cfg1.win 6).blk t).view.emb j : S200704x64.Idx) = ((cfg1.win 9).blk t).view.emb j := by
  have e := idx_facts1 t
  funext a; apply Fin.ext
  match a with
  | ⟨0, _⟩ => show win1_6.index t (0 : Fin 2) * 2048 + 1 * (j 0).val = win1_9.index t (0 : Fin 2) * 2048 + 1 * (j 0).val; omega
  | ⟨1, _⟩ => show win1_6.index t (1 : Fin 2) * 64 + 1 * (j 1).val = win1_9.index t (1 : Fin 2) * 64 + 1 * (j 1).val; omega

/-- Operand 7's block at point t lies over the same rows and channels of its array as the output's block. -/
theorem emb1_7 (t : Fin cfg1.N) (j : S2048x64.Idx) :
    (((cfg1.win 7).blk t).view.emb j : S200704x64.Idx) = ((cfg1.win 9).blk t).view.emb j := by
  have e := idx_facts1 t
  funext a; apply Fin.ext
  match a with
  | ⟨0, _⟩ => show win1_7.index t (0 : Fin 2) * 2048 + 1 * (j 0).val = win1_9.index t (0 : Fin 2) * 2048 + 1 * (j 0).val; omega
  | ⟨1, _⟩ => show win1_7.index t (1 : Fin 2) * 64 + 1 * (j 1).val = win1_9.index t (1 : Fin 2) * 64 + 1 * (j 1).val; omega

/-- The weights' block at point t lies over the same rows of its array as the output's block. -/
theorem emb1_8 (t : Fin cfg1.N) (p : Fin 2048) (q : Fin 64) (k : Fin 8) :
    (((cfg1.win 8).blk t).view.emb (ix2 p k) : S200704x8.Idx)
      = ix2 ((((cfg1.win 9).blk t).view.emb (ix2 p q) : S200704x64.Idx) 0) k := by
  have e := idx_facts1 t
  funext a; apply Fin.ext
  match a with
  | ⟨0, _⟩ => show win1_8.index t (0 : Fin 2) * 2048 + 1 * p.val = win1_9.index t (0 : Fin 2) * 2048 + 1 * p.val; omega
  | ⟨1, _⟩ => show win1_8.index t (1 : Fin 2) * 8 + 1 * k.val = k.val; omega

/-- An index of the output array lies in point `t`'s block iff each coordinate lies in the block's range on its axis. -/
theorem mem_blk1 (t : Fin cfg1.N) (i : S200704x64.Idx) :
    i ∈ ((cfg1.win 9).blk t).view.set ↔ ∀ a : Fin 2, win1_9.index t a * S2048x64.size a ≤ (i a).val ∧ (i a).val < win1_9.index t a * S2048x64.size a + S2048x64.size a := by
  show i ∈ ((View.whole main_v515).slice (win1_9.rect t)).set ↔ _
  rw [View.set_slice_whole, Rect.mem_set_unit]
  exact Iff.rfl

/-- Row `r` of the output lies in the block of point `r / 2048`: the 98 blocks of 2048 rows tile the 200704 rows. -/
theorem cover1 (i : S200704x64.Idx) : ∃ t : Fin cfg1.N, (cfg1.win 9).flush t = true ∧ i ∈ ((cfg1.win 9).blk t).view.set := by
  have hi0 : (i 0).val < 200704 := (i 0).isLt
  have hi1 : (i 1).val < 64 := (i 1).isLt
  have hlt : (i 0).val / 2048 < cfg1.N := by show (i 0).val / 2048 < 98; omega
  obtain ⟨t, ht⟩ : ∃ t : Fin cfg1.N, t.val = (i 0).val / 2048 := ⟨⟨_, hlt⟩, rfl⟩
  refine ⟨t, flush1_9 t, ?_⟩
  rw [mem_blk1]
  have e := idx_facts1 t
  intro a
  match a with
  | ⟨0, _⟩ => show win1_9.index t (0 : Fin 2) * 2048 ≤ (i 0).val ∧ (i 0).val < win1_9.index t (0 : Fin 2) * 2048 + 2048; omega
  | ⟨1, _⟩ => show win1_9.index t (1 : Fin 2) * 64 ≤ (i 1).val ∧ (i 1).val < win1_9.index t (1 : Fin 2) * 64 + 64; omega

section
-- the core's buffer contents when the call is entered
variable (V : (c : Dev nD) → (b : Ref sig .tc) → Buf (Elt Ideal) ((c : Thread nD τ).loc b))

/-- What point `t` writes back is block `t` of `combArr1` of the nine arrays as the call found them: each staged block
    is its array read over the rows the output's block covers. -/
theorem flushed1_eq (c : Dev nD) (t : Fin cfg1.N) :
    (dat1 (F := Ideal) V c).flushed 9 t
      = ((cfg1.win 9).blk t).view.read (Elt Ideal) (combArr1 (V c main_v506) (V c main_v507) (V c main_v508) (V c main_v509) (V c main_v510) (V c main_v511) (V c main_v512) (V c main_v513) (V c main_v514)) := by
  show (cfg1.win 9).cut (grid1.coords t) ((dat1 (F := Ideal) V c).after 9 t) = _
  rw [after1_9]
  funext j
  obtain ⟨p, q, rfl⟩ : ∃ (p : Fin 2048) (q : Fin 64), j = ix2 p q := ⟨j 0, j 1, eq_ix2 j⟩
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q) = _
  refine (out1_9_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  have h0 : iblk1 V c 0 t (ix2 p q) = V c main_v506 (((cfg1.win 9).blk t).view.emb (ix2 p q)) := by
    show V c main_v506 (((cfg1.win 0).blk t).view.emb (ix2 p q)) = _
    rw [emb1_0 t]
  have h1 : iblk1 V c 1 t (ix2 p q) = V c main_v507 (((cfg1.win 9).blk t).view.emb (ix2 p q)) := by
    show V c main_v507 (((cfg1.win 1).blk t).view.emb (ix2 p q)) = _
    rw [emb1_1 t]
  have h2 : iblk1 V c 2 t (ix2 p q) = V c main_v508 (((cfg1.win 9).blk t).view.emb (ix2 p q)) := by
    show V c main_v508 (((cfg1.win 2).blk t).view.emb (ix2 p q)) = _
    rw [emb1_2 t]
  have h3 : iblk1 V c 3 t (ix2 p q) = V c main_v509 (((cfg1.win 9).blk t).view.emb (ix2 p q)) := by
    show V c main_v509 (((cfg1.win 3).blk t).view.emb (ix2 p q)) = _
    rw [emb1_3 t]
  have h4 : iblk1 V c 4 t (ix2 p q) = V c main_v510 (((cfg1.win 9).blk t).view.emb (ix2 p q)) := by
    show V c main_v510 (((cfg1.win 4).blk t).view.emb (ix2 p q)) = _
    rw [emb1_4 t]
  have h5 : iblk1 V c 5 t (ix2 p q) = V c main_v511 (((cfg1.win 9).blk t).view.emb (ix2 p q)) := by
    show V c main_v511 (((cfg1.win 5).blk t).view.emb (ix2 p q)) = _
    rw [emb1_5 t]
  have h6 : iblk1 V c 6 t (ix2 p q) = V c main_v512 (((cfg1.win 9).blk t).view.emb (ix2 p q)) := by
    show V c main_v512 (((cfg1.win 6).blk t).view.emb (ix2 p q)) = _
    rw [emb1_6 t]
  have h7 : iblk1 V c 7 t (ix2 p q) = V c main_v513 (((cfg1.win 9).blk t).view.emb (ix2 p q)) := by
    show V c main_v513 (((cfg1.win 7).blk t).view.emb (ix2 p q)) = _
    rw [emb1_7 t]
  have h8 : ∀ k : Fin 8, iblk1 V c 8 t (ix2 p k)
      = V c main_v514 (ix2 ((((cfg1.win 9).blk t).view.emb (ix2 p q) : S200704x64.Idx) 0) k) := fun k => by
    show V c main_v514 (((cfg1.win 8).blk t).view.emb (ix2 p k)) = _
    exact congrArg (V c main_v514) (emb1_8 t p q k)
  rw [h0, h1, h2, h3, h4, h5, h6, h7]
  simp only [h8]
  rfl

/-- The output array after the last point is `combArr1` of the nine arrays as the call found them. -/
theorem arr1_eq (c : Dev nD) :
    (dat1 (F := Ideal) V c).arrAt 9 cfg1.N = combArr1 (V c main_v506) (V c main_v507) (V c main_v508) (V c main_v509) (V c main_v510) (V c main_v511) (V c main_v512) (V c main_v513) (V c main_v514) :=
  (dat1 (F := Ideal) V c).arrAt_eq_of_cover 9 (combArr1 (V c main_v506) (V c main_v507) (V c main_v508) (V c main_v509) (V c main_v510) (V c main_v511) (V c main_v512) (V c main_v513) (V c main_v514))
    (fun t _ => flushed1_eq V c t) cover1

end

/-- Region 1's output array after the pipeline's last point, at row r and channel ch: the eight gathered arrays at (r, ch) times the eight weights of row r, added left to right.
    (V is the buffer contents at the region's entry; windows 0..7 stage main_v506 … main_v513, window 8 main_v514, window 9 = the output main_v515.) -/
theorem final1 (V : (c : Dev nD) → (b : Ref sig .tc) → Buf (Elt Ideal) ((c : Thread nD τ).loc b)) (c : Dev nD) (r : Fin 200704) (ch : Fin 64) :
    ((dat1 (F := Ideal) V c).arrAt 9 cfg1.N : Vec Ideal S200704x64 .f32) (ix2 r ch)
      = Cert.Spec.comb8
          ![(V c main_v506 : Vec Ideal S200704x64 .f32) (ix2 r ch), (V c main_v507 : Vec Ideal S200704x64 .f32) (ix2 r ch), (V c main_v508 : Vec Ideal S200704x64 .f32) (ix2 r ch), (V c main_v509 : Vec Ideal S200704x64 .f32) (ix2 r ch),
            (V c main_v510 : Vec Ideal S200704x64 .f32) (ix2 r ch), (V c main_v511 : Vec Ideal S200704x64 .f32) (ix2 r ch), (V c main_v512 : Vec Ideal S200704x64 .f32) (ix2 r ch), (V c main_v513 : Vec Ideal S200704x64 .f32) (ix2 r ch)]
          (fun k => (V c main_v514 : Vec Ideal S200704x8 .f32) (ix2 r k)) :=
  congrFun (arr1_eq V c) (ix2 r ch)

end Cert.KernelIdeal.Hand

end
-- ==== Proof.Val.KHostTail1.lean ====
/-
  Level 1 of the feature pyramid: what the host operations between the last gather and the pipelined call do.

  The host has gathered, for each of the 2 × 100000 query points, the eight corners of the cell around it
  (eight arrays `[2, 100000, 64]`) and the six fractional weights (six arrays `[2, 100000]`). It then forms the
  eight corner weights as products of three of the six, and lays everything out for the call: each gathered
  array is flattened to `[200000, 64]` (row `b · 100000 + n` is point `(b, n)`: row-major order) and padded
  with 704 rows at the end; the eight corner weights are flattened, stood up as columns, laid side by side as
  `[200000, 8]` and padded likewise. Read at a point `(b, n)`, the padding rows are never met: padded operand
  `k` is gathered array `k` there, and column `k` of the padded table is the `k`-th product of weights.
-/
import proofs.«171014_j76854144795318_1_alg».proof.Proof.Gen.KernelIdeal.Launch
import proofs.«171014_j76854144795318_1_alg».proof.Proof.Val.Spec
import Idealize.ShloMosaic.Lib.ValueIdx
import Idealize.ShloMosaic.Lib.ValueLayout
import Idealize.ShloMosaic.Lib.Pipeline.Value
import Idealize.ShloMosaic.Lib.Pipeline.Regions
import Idealize.ShloMosaic.Lib.StableHlo.Run
import Idealize.ShloMosaic.Lib.KernelVsHost

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

/-! ## The layout operations read at a point -/

/-- Row `b · 100000 + n` of a flattened array is point `(b, n)` of the batched one (row-major order). -/
abbrev lv1_flatRow (b : Fin 2) (n : Fin 100000) : Fin 200000 := ⟨b.val * 100000 + n.val, by omega⟩
/-- The same row of the array padded to 200704 rows. -/
abbrev lv1_padRow (b : Fin 2) (n : Fin 100000) : Fin 200704 := ⟨b.val * 100000 + n.val, by omega⟩

/-- A gathered array flattened: row `b · 100000 + n` is point `(b, n)`. -/
theorem lv1_flat_apply (x : Vec Ideal S2x100000x64 .f32) (h : S2x100000x64.ShapeCasts S200000x64)
    (b : Fin 2) (n : Fin 100000) (ch : Fin 64) :
    shapeCast S200000x64 x h (ix2 (lv1_flatRow b n) ch) = x (ix3 b n ch) := by
  refine shapeCast_apply x h _ _ ?_
  rw [Shape.rowMajor_val_three, Shape.rowMajor_val_two]
  rfl

/-- Rows appended at the end do not move the rows before them. -/
theorem lv1_pad_apply (y : Vec Ideal S200000x64 .f32) (v : Vec Ideal S_ .f32)
    (h : S200000x64.Pads (![0, 0] : Fin 2 → Nat) ![704, 0] ![0, 0] S200704x64) (hu : 0 < S_.numel)
    (b : Fin 2) (n : Fin 100000) (ch : Fin 64) :
    pad S200704x64 ![0, 0] ![704, 0] ![0, 0] y v h hu (ix2 (lv1_padRow b n) ch) = y (ix2 (lv1_flatRow b n) ch) := by
  refine pad_apply_of_inside _ _ _ y v h hu _ _ fun a => ?_
  match a with
  | ⟨0, _⟩ => show b.val * 100000 + n.val = 0 + (b.val * 100000 + n.val) * (0 + 1); omega
  | ⟨1, _⟩ => show ch.val = 0 + ch.val * (0 + 1); omega

/-- The flattened result unflattened: point `(b, n)` is row `b · 100000 + n`. -/
theorem lv1_unflat_apply (y : Vec Ideal S200000x64 .f32) (h : S200000x64.ShapeCasts S2x100000x64)
    (b : Fin 2) (n : Fin 100000) (ch : Fin 64) :
    shapeCast S2x100000x64 y h (ix3 b n ch) = y (ix2 (lv1_flatRow b n) ch) := by
  refine shapeCast_apply y h _ _ ?_
  rw [Shape.rowMajor_val_three, Shape.rowMajor_val_two]
  rfl

/-- Dropping the rows from 200000 on keeps the rows before them. -/
theorem lv1_slice_apply (z : Vec Ideal S200704x64 .f32) (h : S200704x64.Slices ![0, 0] S200000x64)
    (b : Fin 2) (n : Fin 100000) (ch : Fin 64) :
    extractStridedSlice S200000x64 ![0, 0] z h (ix2 (lv1_flatRow b n) ch) = z (ix2 (lv1_padRow b n) ch) := by
  refine extractStridedSlice_apply _ z h _ _ fun a => ?_
  match a with
  | ⟨0, _⟩ => show b.val * 100000 + n.val = 0 + (b.val * 100000 + n.val); omega
  | ⟨1, _⟩ => show ch.val = 0 + ch.val; omega

/-- Eight one-column tables laid side by side: column `k` of the result is the `k`-th table's only column. -/
theorem lv1_cols8_apply (u0 u1 u2 u3 u4 u5 u6 u7 : Vec Ideal S200000x1 .f32)
    (hc : Shape.Concatenates [S200000x1, S200000x1, S200000x1, S200000x1, S200000x1, S200000x1, S200000x1, S200000x1] S200000x8 1)
    (r : Fin 200000) (k : Fin 8) :
    concatenate S200000x8 1 [⟨S200000x1, u0⟩, ⟨S200000x1, u1⟩, ⟨S200000x1, u2⟩, ⟨S200000x1, u3⟩, ⟨S200000x1, u4⟩, ⟨S200000x1, u5⟩, ⟨S200000x1, u6⟩, ⟨S200000x1, u7⟩] hc (ix2 r k)
      = ![u0 (ix2 r 0), u1 (ix2 r 0), u2 (ix2 r 0), u3 (ix2 r 0), u4 (ix2 r 0), u5 (ix2 r 0), u6 (ix2 r 0), u7 (ix2 r 0)] k := by
  have hi : ∀ (kk : Fin 8) (b : Fin S200000x1.rank), b.cast (rfl : S200000x1.rank = S200000x8.rank) ≠ (1 : Fin S200000x8.rank) →
      ((ix2 r (0 : Fin 1) : S200000x1.Idx) b).val = ((ix2 r kk : S200000x8.Idx) (b.cast rfl)).val := fun kk b hb => by
    match b with
    | ⟨0, _⟩ => rfl
    | ⟨1, _⟩ => exact absurd rfl hb
  let xs : List ((s : Shape) × (s.Idx → Elt Ideal .f32)) := [⟨S200000x1, u0⟩, ⟨S200000x1, u1⟩, ⟨S200000x1, u2⟩, ⟨S200000x1, u3⟩, ⟨S200000x1, u4⟩, ⟨S200000x1, u5⟩, ⟨S200000x1, u6⟩, ⟨S200000x1, u7⟩]
  match k with
  | ⟨0, _⟩ => exact concatenate_apply_piece (1 : Fin S200000x8.rank) xs hc (ix2 r _) 0 (show 0 < 8 by omega) S200000x1 u0 rfl rfl 0 rfl (ix2 r 0) (hi _) rfl
  | ⟨1, _⟩ => exact concatenate_apply_piece (1 : Fin S200000x8.rank) xs hc (ix2 r _) 1 (show 1 < 8 by omega) S200000x1 u1 rfl rfl 1 rfl (ix2 r 0) (hi _) rfl
  | ⟨2, _⟩ => exact concatenate_apply_piece (1 : Fin S200000x8.rank) xs hc (ix2 r _) 2 (show 2 < 8 by omega) S200000x1 u2 rfl rfl 2 rfl (ix2 r 0) (hi _) rfl
  | ⟨3, _⟩ => exact concatenate_apply_piece (1 : Fin S200000x8.rank) xs hc (ix2 r _) 3 (show 3 < 8 by omega) S200000x1 u3 rfl rfl 3 rfl (ix2 r 0) (hi _) rfl
  | ⟨4, _⟩ => exact concatenate_apply_piece (1 : Fin S200000x8.rank) xs hc (ix2 r _) 4 (show 4 < 8 by omega) S200000x1 u4 rfl rfl 4 rfl (ix2 r 0) (hi _) rfl
  | ⟨5, _⟩ => exact concatenate_apply_piece (1 : Fin S200000x8.rank) xs hc (ix2 r _) 5 (show 5 < 8 by omega) S200000x1 u5 rfl rfl 5 rfl (ix2 r 0) (hi _) rfl
  | ⟨6, _⟩ => exact concatenate_apply_piece (1 : Fin S200000x8.rank) xs hc (ix2 r _) 6 (show 6 < 8 by omega) S200000x1 u6 rfl rfl 6 rfl (ix2 r 0) (hi _) rfl
  | ⟨7, _⟩ => exact concatenate_apply_piece (1 : Fin S200000x8.rank) xs hc (ix2 r _) 7 (show 7 < 8 by omega) S200000x1 u7 rfl rfl 7 rfl (ix2 r 0) (hi _) rfl

/-- A per-point weight, flattened and stood up as a one-column table, read at a row. -/
theorem lv1_col_apply (w : Vec Ideal S2x100000 .f32) (hs : S2x100000.ShapeCasts S200000)
    (hb : S200000.BroadcastsInDim S200000x1 (![0] : Fin 1 → Fin S200000x1.rank)) (b : Fin 2) (n : Fin 100000) :
    broadcastInDim S200000x1 ![0] hb (shapeCast S200000 w hs) (ix2 (lv1_flatRow b n) 0) = w (ix2 b n) := by
  refine (broadcastInDim_apply _ hb _ _ (ix1 (lv1_flatRow b n)) fun a => ?_).trans ?_
  · match a with
    | ⟨0, _⟩ => rfl
  · refine shapeCast_apply w hs _ _ ?_
    rw [Shape.rowMajor_val_two, Shape.rowMajor_val_one]
    rfl

/-- Rows appended at the end of the weight table do not move the rows before them. -/
theorem lv1_pad8_apply (y : Vec Ideal S200000x8 .f32) (v : Vec Ideal S_ .f32)
    (h : S200000x8.Pads (![0, 0] : Fin 2 → Nat) ![704, 0] ![0, 0] S200704x8) (hu : 0 < S_.numel)
    (b : Fin 2) (n : Fin 100000) (k : Fin 8) :
    pad S200704x8 ![0, 0] ![704, 0] ![0, 0] y v h hu (ix2 (lv1_padRow b n) k) = y (ix2 (lv1_flatRow b n) k) := by
  refine pad_apply_of_inside _ _ _ y v h hu _ _ fun a => ?_
  match a with
  | ⟨0, _⟩ => show b.val * 100000 + n.val = 0 + (b.val * 100000 + n.val) * (0 + 1); omega
  | ⟨1, _⟩ => show k.val = 0 + k.val * (0 + 1); omega

/-- The padded eight-column weight table at row `(b, n)`, column `k`: the `k`-th per-point weight at `(b, n)`. -/
theorem lv1_wtab_apply (w0 w1 w2 w3 w4 w5 w6 w7 : Vec Ideal S2x100000 .f32) (v : Vec Ideal S_ .f32)
    (hs : S2x100000.ShapeCasts S200000) (hb : S200000.BroadcastsInDim S200000x1 (![0] : Fin 1 → Fin S200000x1.rank))
    (hc : Shape.Concatenates [S200000x1, S200000x1, S200000x1, S200000x1, S200000x1, S200000x1, S200000x1, S200000x1] S200000x8 1)
    (hp : S200000x8.Pads (![0, 0] : Fin 2 → Nat) ![704, 0] ![0, 0] S200704x8) (hu : 0 < S_.numel)
    (b : Fin 2) (n : Fin 100000) (k : Fin 8) :
    pad S200704x8 ![0, 0] ![704, 0] ![0, 0]
        (concatenate S200000x8 1 [⟨S200000x1, broadcastInDim S200000x1 ![0] hb (shapeCast S200000 w0 hs)⟩, ⟨S200000x1, broadcastInDim S200000x1 ![0] hb (shapeCast S200000 w1 hs)⟩,
          ⟨S200000x1, broadcastInDim S200000x1 ![0] hb (shapeCast S200000 w2 hs)⟩, ⟨S200000x1, broadcastInDim S200000x1 ![0] hb (shapeCast S200000 w3 hs)⟩,
          ⟨S200000x1, broadcastInDim S200000x1 ![0] hb (shapeCast S200000 w4 hs)⟩, ⟨S200000x1, broadcastInDim S200000x1 ![0] hb (shapeCast S200000 w5 hs)⟩,
          ⟨S200000x1, broadcastInDim S200000x1 ![0] hb (shapeCast S200000 w6 hs)⟩, ⟨S200000x1, broadcastInDim S200000x1 ![0] hb (shapeCast S200000 w7 hs)⟩] hc)
        v hp hu (ix2 (lv1_padRow b n) k)
      = ![w0 (ix2 b n), w1 (ix2 b n), w2 (ix2 b n), w3 (ix2 b n), w4 (ix2 b n), w5 (ix2 b n), w6 (ix2 b n), w7 (ix2 b n)] k := by
  rw [lv1_pad8_apply, lv1_cols8_apply, lv1_col_apply, lv1_col_apply, lv1_col_apply, lv1_col_apply, lv1_col_apply, lv1_col_apply, lv1_col_apply, lv1_col_apply]

/-! ## The level's host operations cut in two: up to the last gather, and from the first product of weights on -/

theorem lv1_list_split {α : Type} (a b l R : List α) (k : Nat) :
    a ++ (b ++ (l ++ R)) = (a ++ (b ++ l.take k)) ++ (l.drop k ++ R) := by
  rw [List.append_assoc, List.append_assoc, ← List.append_assoc (l.take k), List.take_append_drop]

/-- The operations that compute the gathered arrays and the six fractional weights. -/
abbrev lv1_head : List (HloOp τ sig (Elt Ideal)) := hostOps1 ++ (hostOps1_1 ++ List.take 250 hostOps1_2)
/-- The products of weights and the layout operations. -/
abbrev lv1_tail : List (HloOp τ sig (Elt Ideal)) := List.drop 250 hostOps1_2 ++ (hostOps1_3 ++ (hostOps1_4 ++ (hostOps1_5 ++ (hostOps1_6 ++ (hostOps1_7 ++ (hostOps1_8 ++ (hostOps1_9 ++ (hostOps1_10 ++ (hostOps1_11 ++ (hostOps1_12 ++ (hostOps1_13 ++ (hostOps1_14 ++ (hostOps1_15 ++ (hostOps1_16 ++ (hostOps1_17 ++ (hostOps1_18 ++ (hostOps1_19)))))))))))))))))

/-! ## What the second part leaves in each buffer, by computation

From any contents `X`, the second part's operations are run one after the other; a buffer's final contents are the
last operation that writes it applied to its operands' contents at that moment. Each equation below is that
computation carried out. -/

theorem lv1_q0_eq (X : Valuation τ sig (Elt Ideal)) :
    (StableHlo.after lv1_tail X (Proc.devRef .tc main_v506) : Vec Ideal S200704x64 .f32)
      = pad S200704x64 ![0, 0] ![704, 0] ![0, 0] (shapeCast S200000x64 (X (Proc.devRef .tc main_v324) : Vec Ideal S2x100000x64 .f32) shapeCasts_S2x100000x64_S200000x64)
          (sitofp (F := Ideal) .f32 (constantI S_ 32 0#32)) pads_S200000x64_S200704x64_07040_000 h_S_ := by
  chain_rfl
theorem lv1_q1_eq (X : Valuation τ sig (Elt Ideal)) :
    (StableHlo.after lv1_tail X (Proc.devRef .tc main_v507) : Vec Ideal S200704x64 .f32)
      = pad S200704x64 ![0, 0] ![704, 0] ![0, 0] (shapeCast S200000x64 (X (Proc.devRef .tc main_v344) : Vec Ideal S2x100000x64 .f32) shapeCasts_S2x100000x64_S200000x64)
          (sitofp (F := Ideal) .f32 (constantI S_ 32 0#32)) pads_S200000x64_S200704x64_07040_000 h_S_ := by
  chain_rfl
theorem lv1_q2_eq (X : Valuation τ sig (Elt Ideal)) :
    (StableHlo.after lv1_tail X (Proc.devRef .tc main_v508) : Vec Ideal S200704x64 .f32)
      = pad S200704x64 ![0, 0] ![704, 0] ![0, 0] (shapeCast S200000x64 (X (Proc.devRef .tc main_v364) : Vec Ideal S2x100000x64 .f32) shapeCasts_S2x100000x64_S200000x64)
          (sitofp (F := Ideal) .f32 (constantI S_ 32 0#32)) pads_S200000x64_S200704x64_07040_000 h_S_ := by
  chain_rfl
theorem lv1_q3_eq (X : Valuation τ sig (Elt Ideal)) :
    (StableHlo.after lv1_tail X (Proc.devRef .tc main_v509) : Vec Ideal S200704x64 .f32)
      = pad S200704x64 ![0, 0] ![704, 0] ![0, 0] (shapeCast S200000x64 (X (Proc.devRef .tc main_v384) : Vec Ideal S2x100000x64 .f32) shapeCasts_S2x100000x64_S200000x64)
          (sitofp (F := Ideal) .f32 (constantI S_ 32 0#32)) pads_S200000x64_S200704x64_07040_000 h_S_ := by
  chain_rfl
theorem lv1_q4_eq (X : Valuation τ sig (Elt Ideal)) :
    (StableHlo.after lv1_tail X (Proc.devRef .tc main_v510) : Vec Ideal S200704x64 .f32)
      = pad S200704x64 ![0, 0] ![704, 0] ![0, 0] (shapeCast S200000x64 (X (Proc.devRef .tc main_v404) : Vec Ideal S2x100000x64 .f32) shapeCasts_S2x100000x64_S200000x64)
          (sitofp (F := Ideal) .f32 (constantI S_ 32 0#32)) pads_S200000x64_S200704x64_07040_000 h_S_ := by
  chain_rfl
theorem lv1_q5_eq (X : Valuation τ sig (Elt Ideal)) :
    (StableHlo.after lv1_tail X (Proc.devRef .tc main_v511) : Vec Ideal S200704x64 .f32)
      = pad S200704x64 ![0, 0] ![704, 0] ![0, 0] (shapeCast S200000x64 (X (Proc.devRef .tc main_v424) : Vec Ideal S2x100000x64 .f32) shapeCasts_S2x100000x64_S200000x64)
          (sitofp (F := Ideal) .f32 (constantI S_ 32 0#32)) pads_S200000x64_S200704x64_07040_000 h_S_ := by
  chain_rfl
theorem lv1_q6_eq (X : Valuation τ sig (Elt Ideal)) :
    (StableHlo.after lv1_tail X (Proc.devRef .tc main_v512) : Vec Ideal S200704x64 .f32)
      = pad S200704x64 ![0, 0] ![704, 0] ![0, 0] (shapeCast S200000x64 (X (Proc.devRef .tc main_v444) : Vec Ideal S2x100000x64 .f32) shapeCasts_S2x100000x64_S200000x64)
          (sitofp (F := Ideal) .f32 (constantI S_ 32 0#32)) pads_S200000x64_S200704x64_07040_000 h_S_ := by
  chain_rfl
theorem lv1_q7_eq (X : Valuation τ sig (Elt Ideal)) :
    (StableHlo.after lv1_tail X (Proc.devRef .tc main_v513) : Vec Ideal S200704x64 .f32)
      = pad S200704x64 ![0, 0] ![704, 0] ![0, 0] (shapeCast S200000x64 (X (Proc.devRef .tc main_v464) : Vec Ideal S2x100000x64 .f32) shapeCasts_S2x100000x64_S200000x64)
          (sitofp (F := Ideal) .f32 (constantI S_ 32 0#32)) pads_S200000x64_S200704x64_07040_000 h_S_ := by
  chain_rfl

/-- The padded weight table: the eight products of three fractional weights, flattened, stood up as columns, laid side by
    side, padded. -/
theorem lv1_wt_eq (X : Valuation τ sig (Elt Ideal)) :
    (StableHlo.after lv1_tail X (Proc.devRef .tc main_v514) : Vec Ideal S200704x8 .f32)
      = pad S200704x8 ![0, 0] ![704, 0] ![0, 0]
          (concatenate S200000x8 1 [⟨S200000x1, broadcastInDim S200000x1 ![0] bcast_S200000_S200000x1_0 (shapeCast S200000 (mulf (mulf (X (Proc.devRef .tc main_v301) : Vec Ideal S2x100000 .f32) (X (Proc.devRef .tc main_v289) : Vec Ideal S2x100000 .f32)) (X (Proc.devRef .tc main_v295) : Vec Ideal S2x100000 .f32)) shapeCasts_S2x100000_S200000)⟩,
            ⟨S200000x1, broadcastInDim S200000x1 ![0] bcast_S200000_S200000x1_0 (shapeCast S200000 (mulf (mulf (X (Proc.devRef .tc main_v301) : Vec Ideal S2x100000 .f32) (X (Proc.devRef .tc main_v292) : Vec Ideal S2x100000 .f32)) (X (Proc.devRef .tc main_v295) : Vec Ideal S2x100000 .f32)) shapeCasts_S2x100000_S200000)⟩,
            ⟨S200000x1, broadcastInDim S200000x1 ![0] bcast_S200000_S200000x1_0 (shapeCast S200000 (mulf (mulf (X (Proc.devRef .tc main_v301) : Vec Ideal S2x100000 .f32) (X (Proc.devRef .tc main_v289) : Vec Ideal S2x100000 .f32)) (X (Proc.devRef .tc main_v298) : Vec Ideal S2x100000 .f32)) shapeCasts_S2x100000_S200000)⟩,
            ⟨S200000x1, broadcastInDim S200000x1 ![0] bcast_S200000_S200000x1_0 (shapeCast S200000 (mulf (mulf (X (Proc.devRef .tc main_v301) : Vec Ideal S2x100000 .f32) (X (Proc.devRef .tc main_v292) : Vec Ideal S2x100000 .f32)) (X (Proc.devRef .tc main_v298) : Vec Ideal S2x100000 .f32)) shapeCasts_S2x100000_S200000)⟩,
            ⟨S200000x1, broadcastInDim S200000x1 ![0] bcast_S200000_S200000x1_0 (shapeCast S200000 (mulf (mulf (X (Proc.devRef .tc main_v304) : Vec Ideal S2x100000 .f32) (X (Proc.devRef .tc main_v289) : Vec Ideal S2x100000 .f32)) (X (Proc.devRef .tc main_v295) : Vec Ideal S2x100000 .f32)) shapeCasts_S2x100000_S200000)⟩,
            ⟨S200000x1, broadcastInDim S200000x1 ![0] bcast_S200000_S200000x1_0 (shapeCast S200000 (mulf (mulf (X (Proc.devRef .tc main_v304) : Vec Ideal S2x100000 .f32) (X (Proc.devRef .tc main_v292) : Vec Ideal S2x100000 .f32)) (X (Proc.devRef .tc main_v295) : Vec Ideal S2x100000 .f32)) shapeCasts_S2x100000_S200000)⟩,
            ⟨S200000x1, broadcastInDim S200000x1 ![0] bcast_S200000_S200000x1_0 (shapeCast S200000 (mulf (mulf (X (Proc.devRef .tc main_v304) : Vec Ideal S2x100000 .f32) (X (Proc.devRef .tc main_v289) : Vec Ideal S2x100000 .f32)) (X (Proc.devRef .tc main_v298) : Vec Ideal S2x100000 .f32)) shapeCasts_S2x100000_S200000)⟩,
            ⟨S200000x1, broadcastInDim S200000x1 ![0] bcast_S200000_S200000x1_0 (shapeCast S200000 (mulf (mulf (X (Proc.devRef .tc main_v304) : Vec Ideal S2x100000 .f32) (X (Proc.devRef .tc main_v292) : Vec Ideal S2x100000 .f32)) (X (Proc.devRef .tc main_v298) : Vec Ideal S2x100000 .f32)) shapeCasts_S2x100000_S200000)⟩]
            concatenates_S200000x1_S200000x1_S200000x1_S200000x1_S200000x1_S200000x1_S200000x1_S200000x1_S200000x8_d1)
          (sitofp (F := Ideal) .f32 (constantI S_ 32 0#32)) pads_S200000x8_S200704x8_07040_000 h_S_ := by
  chain_rfl

theorem lv1_keep65 (X : Valuation τ sig (Elt Ideal)) :
    StableHlo.after lv1_tail X (Proc.devRef .tc main_v324) = X (Proc.devRef .tc main_v324) := by
  chain_rfl
theorem lv1_keep85 (X : Valuation τ sig (Elt Ideal)) :
    StableHlo.after lv1_tail X (Proc.devRef .tc main_v344) = X (Proc.devRef .tc main_v344) := by
  chain_rfl
theorem lv1_keep105 (X : Valuation τ sig (Elt Ideal)) :
    StableHlo.after lv1_tail X (Proc.devRef .tc main_v364) = X (Proc.devRef .tc main_v364) := by
  chain_rfl
theorem lv1_keep125 (X : Valuation τ sig (Elt Ideal)) :
    StableHlo.after lv1_tail X (Proc.devRef .tc main_v384) = X (Proc.devRef .tc main_v384) := by
  chain_rfl
theorem lv1_keep145 (X : Valuation τ sig (Elt Ideal)) :
    StableHlo.after lv1_tail X (Proc.devRef .tc main_v404) = X (Proc.devRef .tc main_v404) := by
  chain_rfl
theorem lv1_keep165 (X : Valuation τ sig (Elt Ideal)) :
    StableHlo.after lv1_tail X (Proc.devRef .tc main_v424) = X (Proc.devRef .tc main_v424) := by
  chain_rfl
theorem lv1_keep185 (X : Valuation τ sig (Elt Ideal)) :
    StableHlo.after lv1_tail X (Proc.devRef .tc main_v444) = X (Proc.devRef .tc main_v444) := by
  chain_rfl
theorem lv1_keep205 (X : Valuation τ sig (Elt Ideal)) :
    StableHlo.after lv1_tail X (Proc.devRef .tc main_v464) = X (Proc.devRef .tc main_v464) := by
  chain_rfl
theorem lv1_keep30 (X : Valuation τ sig (Elt Ideal)) :
    StableHlo.after lv1_tail X (Proc.devRef .tc main_v289) = X (Proc.devRef .tc main_v289) := by
  chain_rfl
theorem lv1_keep33 (X : Valuation τ sig (Elt Ideal)) :
    StableHlo.after lv1_tail X (Proc.devRef .tc main_v292) = X (Proc.devRef .tc main_v292) := by
  chain_rfl
theorem lv1_keep36 (X : Valuation τ sig (Elt Ideal)) :
    StableHlo.after lv1_tail X (Proc.devRef .tc main_v295) = X (Proc.devRef .tc main_v295) := by
  chain_rfl
theorem lv1_keep39 (X : Valuation τ sig (Elt Ideal)) :
    StableHlo.after lv1_tail X (Proc.devRef .tc main_v298) = X (Proc.devRef .tc main_v298) := by
  chain_rfl
theorem lv1_keep42 (X : Valuation τ sig (Elt Ideal)) :
    StableHlo.after lv1_tail X (Proc.devRef .tc main_v301) = X (Proc.devRef .tc main_v301) := by
  chain_rfl
theorem lv1_keep45 (X : Valuation τ sig (Elt Ideal)) :
    StableHlo.after lv1_tail X (Proc.devRef .tc main_v304) = X (Proc.devRef .tc main_v304) := by
  chain_rfl

/-- What the second part does to the buffers, from any contents `X`: each padded operand and the padded weight table read at
    a point, and the gathered arrays and fractional weights left as they were. -/
structure Lv1Tail (X Y : Valuation τ sig (Elt Ideal)) : Prop where
  /-- padded operand 0, row `(b, n)`: gathered array 0 at `(b, n)` -/
  q0 : ∀ (b : Fin 2) (n : Fin 100000) (ch : Fin 64),
    (Y (Proc.devRef .tc main_v506) : Vec Ideal S200704x64 .f32) (ix2 (lv1_padRow b n) ch)
      = (X (Proc.devRef .tc main_v324) : Vec Ideal S2x100000x64 .f32) (ix3 b n ch)
  /-- padded operand 1, row `(b, n)`: gathered array 1 at `(b, n)` -/
  q1 : ∀ (b : Fin 2) (n : Fin 100000) (ch : Fin 64),
    (Y (Proc.devRef .tc main_v507) : Vec Ideal S200704x64 .f32) (ix2 (lv1_padRow b n) ch)
      = (X (Proc.devRef .tc main_v344) : Vec Ideal S2x100000x64 .f32) (ix3 b n ch)
  /-- padded operand 2, row `(b, n)`: gathered array 2 at `(b, n)` -/
  q2 : ∀ (b : Fin 2) (n : Fin 100000) (ch : Fin 64),
    (Y (Proc.devRef .tc main_v508) : Vec Ideal S200704x64 .f32) (ix2 (lv1_padRow b n) ch)
      = (X (Proc.devRef .tc main_v364) : Vec Ideal S2x100000x64 .f32) (ix3 b n ch)
  /-- padded operand 3, row `(b, n)`: gathered array 3 at `(b, n)` -/
  q3 : ∀ (b : Fin 2) (n : Fin 100000) (ch : Fin 64),
    (Y (Proc.devRef .tc main_v509) : Vec Ideal S200704x64 .f32) (ix2 (lv1_padRow b n) ch)
      = (X (Proc.devRef .tc main_v384) : Vec Ideal S2x100000x64 .f32) (ix3 b n ch)
  /-- padded operand 4, row `(b, n)`: gathered array 4 at `(b, n)` -/
  q4 : ∀ (b : Fin 2) (n : Fin 100000) (ch : Fin 64),
    (Y (Proc.devRef .tc main_v510) : Vec Ideal S200704x64 .f32) (ix2 (lv1_padRow b n) ch)
      = (X (Proc.devRef .tc main_v404) : Vec Ideal S2x100000x64 .f32) (ix3 b n ch)
  /-- padded operand 5, row `(b, n)`: gathered array 5 at `(b, n)` -/
  q5 : ∀ (b : Fin 2) (n : Fin 100000) (ch : Fin 64),
    (Y (Proc.devRef .tc main_v511) : Vec Ideal S200704x64 .f32) (ix2 (lv1_padRow b n) ch)
      = (X (Proc.devRef .tc main_v424) : Vec Ideal S2x100000x64 .f32) (ix3 b n ch)
  /-- padded operand 6, row `(b, n)`: gathered array 6 at `(b, n)` -/
  q6 : ∀ (b : Fin 2) (n : Fin 100000) (ch : Fin 64),
    (Y (Proc.devRef .tc main_v512) : Vec Ideal S200704x64 .f32) (ix2 (lv1_padRow b n) ch)
      = (X (Proc.devRef .tc main_v444) : Vec Ideal S2x100000x64 .f32) (ix3 b n ch)
  /-- padded operand 7, row `(b, n)`: gathered array 7 at `(b, n)` -/
  q7 : ∀ (b : Fin 2) (n : Fin 100000) (ch : Fin 64),
    (Y (Proc.devRef .tc main_v513) : Vec Ideal S200704x64 .f32) (ix2 (lv1_padRow b n) ch)
      = (X (Proc.devRef .tc main_v464) : Vec Ideal S2x100000x64 .f32) (ix3 b n ch)
  /-- the padded weight table, row `(b, n)`, column `k`: the `k`-th product of three fractional weights at `(b, n)` -/
  wt : ∀ (b : Fin 2) (n : Fin 100000) (k : Fin 8),
    (Y (Proc.devRef .tc main_v514) : Vec Ideal S200704x8 .f32) (ix2 (lv1_padRow b n) k)
      = Cert.Spec.cornerWeights ((X (Proc.devRef .tc main_v289) : Vec Ideal S2x100000 .f32) (ix2 b n)) ((X (Proc.devRef .tc main_v292) : Vec Ideal S2x100000 .f32) (ix2 b n)) ((X (Proc.devRef .tc main_v295) : Vec Ideal S2x100000 .f32) (ix2 b n))
          ((X (Proc.devRef .tc main_v298) : Vec Ideal S2x100000 .f32) (ix2 b n)) ((X (Proc.devRef .tc main_v301) : Vec Ideal S2x100000 .f32) (ix2 b n)) ((X (Proc.devRef .tc main_v304) : Vec Ideal S2x100000 .f32) (ix2 b n)) k
  k65 : Y (Proc.devRef .tc main_v324) = X (Proc.devRef .tc main_v324)
  k85 : Y (Proc.devRef .tc main_v344) = X (Proc.devRef .tc main_v344)
  k105 : Y (Proc.devRef .tc main_v364) = X (Proc.devRef .tc main_v364)
  k125 : Y (Proc.devRef .tc main_v384) = X (Proc.devRef .tc main_v384)
  k145 : Y (Proc.devRef .tc main_v404) = X (Proc.devRef .tc main_v404)
  k165 : Y (Proc.devRef .tc main_v424) = X (Proc.devRef .tc main_v424)
  k185 : Y (Proc.devRef .tc main_v444) = X (Proc.devRef .tc main_v444)
  k205 : Y (Proc.devRef .tc main_v464) = X (Proc.devRef .tc main_v464)
  k30 : Y (Proc.devRef .tc main_v289) = X (Proc.devRef .tc main_v289)
  k33 : Y (Proc.devRef .tc main_v292) = X (Proc.devRef .tc main_v292)
  k36 : Y (Proc.devRef .tc main_v295) = X (Proc.devRef .tc main_v295)
  k39 : Y (Proc.devRef .tc main_v298) = X (Proc.devRef .tc main_v298)
  k42 : Y (Proc.devRef .tc main_v301) = X (Proc.devRef .tc main_v301)
  k45 : Y (Proc.devRef .tc main_v304) = X (Proc.devRef .tc main_v304)

theorem lv1_tail_facts (X : Valuation τ sig (Elt Ideal)) : Lv1Tail X (StableHlo.after lv1_tail X) where
  q0 := fun b n ch => (congrFun (lv1_q0_eq X) _).trans ((lv1_pad_apply _ _ _ _ b n ch).trans (lv1_flat_apply _ _ b n ch))
  q1 := fun b n ch => (congrFun (lv1_q1_eq X) _).trans ((lv1_pad_apply _ _ _ _ b n ch).trans (lv1_flat_apply _ _ b n ch))
  q2 := fun b n ch => (congrFun (lv1_q2_eq X) _).trans ((lv1_pad_apply _ _ _ _ b n ch).trans (lv1_flat_apply _ _ b n ch))
  q3 := fun b n ch => (congrFun (lv1_q3_eq X) _).trans ((lv1_pad_apply _ _ _ _ b n ch).trans (lv1_flat_apply _ _ b n ch))
  q4 := fun b n ch => (congrFun (lv1_q4_eq X) _).trans ((lv1_pad_apply _ _ _ _ b n ch).trans (lv1_flat_apply _ _ b n ch))
  q5 := fun b n ch => (congrFun (lv1_q5_eq X) _).trans ((lv1_pad_apply _ _ _ _ b n ch).trans (lv1_flat_apply _ _ b n ch))
  q6 := fun b n ch => (congrFun (lv1_q6_eq X) _).trans ((lv1_pad_apply _ _ _ _ b n ch).trans (lv1_flat_apply _ _ b n ch))
  q7 := fun b n ch => (congrFun (lv1_q7_eq X) _).trans ((lv1_pad_apply _ _ _ _ b n ch).trans (lv1_flat_apply _ _ b n ch))
  wt := fun b n k => (congrFun (lv1_wt_eq X) _).trans ((lv1_wtab_apply _ _ _ _ _ _ _ _ _ _ _ _ _ _ b n k).trans rfl)
  k65 := lv1_keep65 X
  k85 := lv1_keep85 X
  k105 := lv1_keep105 X
  k125 := lv1_keep125 X
  k145 := lv1_keep145 X
  k165 := lv1_keep165 X
  k185 := lv1_keep185 X
  k205 := lv1_keep205 X
  k30 := lv1_keep30 X
  k33 := lv1_keep33 X
  k36 := lv1_keep36 X
  k39 := lv1_keep39 X
  k42 := lv1_keep42 X
  k45 := lv1_keep45 X

end Cert.KernelIdeal.Hand

end
-- ==== Proof.Val.KHostOut1.lean ====
/-
  Level 1 of the feature pyramid: the host operations after the pipelined call begin by dropping the 704
  padding rows of the call's output array and unflattening its 200000 rows to `[2, 100000, 64]`; no later
  operation of that stretch writes the unflattened array, which is level 1's part of the result.
-/
import proofs.«171014_j76854144795318_1_alg».proof.Proof.KI.Fold
import Idealize.ShloMosaic.Lib.ValueIdx
import Idealize.ShloMosaic.Lib.StableHlo.Run
import Idealize.ShloMosaic.Lib.Pipeline.Regions

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

variable (m : (ℓ : Loc nD τ sig) → Buf (Elt Ideal) ℓ) (ρ : Dev nD → PrngReg)

/-- Level 1's part of the result is the call's output array, its padding rows dropped, unflattened. -/
theorem lv1_out_eq (c : Dev nD) :
    W5 m ρ c (Proc.devRef .tc main_v517)
      = shapeCast S2x100000x64 (extractStridedSlice S200000x64 ![0, 0] (W4 m ρ c (Proc.devRef .tc main_v515) : Vec Ideal S200704x64 .f32)
          slices_S200704x64_S200000x64_0_0) shapeCasts_S200000x64_S2x100000x64 := by
  chain_rfl

end Cert.KernelIdeal.Hand

end
-- ==== Proof.Val.KHost1.lean ====
/-
  Level 1 of the feature pyramid, outside its pipelined call.

  Before the call the host gathers, for each of the 2 × 100000 query points, the eight corners of the cell
  around it (eight arrays `[2, 100000, 64]`) and the six fractional weights (six arrays `[2, 100000]`), forms
  the eight corner weights as products of three of the six, and lays everything out for the call: each
  gathered array is flattened to `[200000, 64]` (row `b · 100000 + n` is point `(b, n)`: row-major order) and
  padded with 704 rows at the end; the eight corner weights are flattened, stood up as columns, laid side by
  side as `[200000, 8]` and padded likewise. The call writes, row by row, the eight operands times the eight
  columns, added from left to right. After the call the host drops the padding rows and unflattens:
  that array is level 1's part of the result. Read at a point `(b, n)` and a channel, the padding rows are
  never met, and the result is the eight gathered corners against the eight products of weights.
-/
import proofs.«171014_j76854144795318_1_alg».proof.Proof.KI.Fold
import proofs.«171014_j76854144795318_1_alg».proof.Proof.Val.Region1
import proofs.«171014_j76854144795318_1_alg».proof.Proof.Val.Spec
import proofs.«171014_j76854144795318_1_alg».proof.Proof.Val.KHostTail1
import proofs.«171014_j76854144795318_1_alg».proof.Proof.Val.KHostOut1
import Idealize.ShloMosaic.Lib.ValueIdx
import Idealize.ShloMosaic.Lib.Pipeline.Frame

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

/-! ## The level's host operations cut in two -/

theorem lv1_split : (pre1 : List (HloOp τ sig (Elt Ideal))) = lv1_head ++ lv1_tail :=
  lv1_list_split _ _ _ _ 250

variable (m : (ℓ : Loc nD τ sig) → Buf (Elt Ideal) ℓ) (ρ : Dev nD → PrngReg)

theorem lv1_W1_eq (c : Dev nD) : W3 m ρ c = StableHlo.after lv1_tail (StableHlo.after lv1_head (W2 m ρ c)) := by
  show StableHlo.after pre1 (W2 m ρ c) = _
  rw [← StableHlo.after_append]
  exact congrArg (fun l => StableHlo.after l (W2 m ρ c)) lv1_split

theorem lv1_tail_W1 (c : Dev nD) : Lv1Tail (StableHlo.after lv1_head (W2 m ρ c)) (W3 m ρ c) := by
  rw [lv1_W1_eq]; exact lv1_tail_facts _

/-! ## After the call: the padding rows dropped, the rows unflattened -/

/-- Level 1's part of the result at `(b, n, ch)` is the call's output array at row `b · 100000 + n`. -/
theorem lv1_out_apply (c : Dev nD) (b : Fin 2) (n : Fin 100000) (ch : Fin 64) :
    (W5 m ρ c (Proc.devRef .tc main_v517) : Vec Ideal S2x100000x64 .f32) (ix3 b n ch)
      = (W4 m ρ c (Proc.devRef .tc main_v515) : Vec Ideal S200704x64 .f32) (ix2 (lv1_padRow b n) ch) :=
  (congrFun (lv1_out_eq m ρ c) _).trans ((lv1_unflat_apply _ (by decide) b n ch).trans (lv1_slice_apply _ (by decide) b n ch))

/-! ## The level's slice of the result -/

/-- level 1's eight gathered corner arrays and six fractional-weight arrays, as the level's host operations leave them at region 1's entry
    (corner order: the kernel's — ceil/ceil/ceil, floor/ceil/ceil, ceil/floor/ceil, floor/floor/ceil, then the same four in the floor plane of z) -/
abbrev kq1_0 (c : Dev nD) : Vec Ideal S2x100000x64 .f32 := W3 m ρ c (Proc.devRef .tc main_v324)
abbrev kq1_1 (c : Dev nD) : Vec Ideal S2x100000x64 .f32 := W3 m ρ c (Proc.devRef .tc main_v344)
abbrev kq1_2 (c : Dev nD) : Vec Ideal S2x100000x64 .f32 := W3 m ρ c (Proc.devRef .tc main_v364)
abbrev kq1_3 (c : Dev nD) : Vec Ideal S2x100000x64 .f32 := W3 m ρ c (Proc.devRef .tc main_v384)
abbrev kq1_4 (c : Dev nD) : Vec Ideal S2x100000x64 .f32 := W3 m ρ c (Proc.devRef .tc main_v404)
abbrev kq1_5 (c : Dev nD) : Vec Ideal S2x100000x64 .f32 := W3 m ρ c (Proc.devRef .tc main_v424)
abbrev kq1_6 (c : Dev nD) : Vec Ideal S2x100000x64 .f32 := W3 m ρ c (Proc.devRef .tc main_v444)
abbrev kq1_7 (c : Dev nD) : Vec Ideal S2x100000x64 .f32 := W3 m ρ c (Proc.devRef .tc main_v464)
/-- x − ⌊x⌋ -/
abbrev kwx1 (c : Dev nD) : Vec Ideal S2x100000 .f32 := W3 m ρ c (Proc.devRef .tc main_v289)
/-- ⌈x⌉ − x -/
abbrev kwx21 (c : Dev nD) : Vec Ideal S2x100000 .f32 := W3 m ρ c (Proc.devRef .tc main_v292)
/-- y − ⌊y⌋ -/
abbrev kwy1 (c : Dev nD) : Vec Ideal S2x100000 .f32 := W3 m ρ c (Proc.devRef .tc main_v295)
/-- ⌈y⌉ − y -/
abbrev kwy21 (c : Dev nD) : Vec Ideal S2x100000 .f32 := W3 m ρ c (Proc.devRef .tc main_v298)
/-- z − ⌊z⌋ -/
abbrev kwz1 (c : Dev nD) : Vec Ideal S2x100000 .f32 := W3 m ρ c (Proc.devRef .tc main_v301)
/-- ⌈z⌉ − z -/
abbrev kwz21 (c : Dev nD) : Vec Ideal S2x100000 .f32 := W3 m ρ c (Proc.devRef .tc main_v304)

/-- level 1's slice of the result, (b, n, ch): the eight corners at (b, n, ch) against the eight products of three weights at (b, n) -/
theorem level1_out (c : Dev nD) (b : Fin 2) (n : Fin 100000) (ch : Fin 64) :
    (W5 m ρ c (Proc.devRef .tc main_v517) : Vec Ideal S2x100000x64 .f32) (ix3 b n ch)
      = Cert.Spec.comb8 ![kq1_0 m ρ c (ix3 b n ch), kq1_1 m ρ c (ix3 b n ch), kq1_2 m ρ c (ix3 b n ch), kq1_3 m ρ c (ix3 b n ch),
                          kq1_4 m ρ c (ix3 b n ch), kq1_5 m ρ c (ix3 b n ch), kq1_6 m ρ c (ix3 b n ch), kq1_7 m ρ c (ix3 b n ch)]
          (Cert.Spec.cornerWeights (kwx1 m ρ c (ix2 b n)) (kwx21 m ρ c (ix2 b n)) (kwy1 m ρ c (ix2 b n)) (kwy21 m ρ c (ix2 b n)) (kwz1 m ρ c (ix2 b n)) (kwz21 m ρ c (ix2 b n))) := by
  have T := lv1_tail_W1 m ρ c
  have hq0 : (V3 m ρ c main_v506 : Vec Ideal S200704x64 .f32) (ix2 (lv1_padRow b n) ch) = kq1_0 m ρ c (ix3 b n ch) :=
    (T.q0 b n ch).trans (congrFun T.k65 _).symm
  have hq1 : (V3 m ρ c main_v507 : Vec Ideal S200704x64 .f32) (ix2 (lv1_padRow b n) ch) = kq1_1 m ρ c (ix3 b n ch) :=
    (T.q1 b n ch).trans (congrFun T.k85 _).symm
  have hq2 : (V3 m ρ c main_v508 : Vec Ideal S200704x64 .f32) (ix2 (lv1_padRow b n) ch) = kq1_2 m ρ c (ix3 b n ch) :=
    (T.q2 b n ch).trans (congrFun T.k105 _).symm
  have hq3 : (V3 m ρ c main_v509 : Vec Ideal S200704x64 .f32) (ix2 (lv1_padRow b n) ch) = kq1_3 m ρ c (ix3 b n ch) :=
    (T.q3 b n ch).trans (congrFun T.k125 _).symm
  have hq4 : (V3 m ρ c main_v510 : Vec Ideal S200704x64 .f32) (ix2 (lv1_padRow b n) ch) = kq1_4 m ρ c (ix3 b n ch) :=
    (T.q4 b n ch).trans (congrFun T.k145 _).symm
  have hq5 : (V3 m ρ c main_v511 : Vec Ideal S200704x64 .f32) (ix2 (lv1_padRow b n) ch) = kq1_5 m ρ c (ix3 b n ch) :=
    (T.q5 b n ch).trans (congrFun T.k165 _).symm
  have hq6 : (V3 m ρ c main_v512 : Vec Ideal S200704x64 .f32) (ix2 (lv1_padRow b n) ch) = kq1_6 m ρ c (ix3 b n ch) :=
    (T.q6 b n ch).trans (congrFun T.k185 _).symm
  have hq7 : (V3 m ρ c main_v513 : Vec Ideal S200704x64 .f32) (ix2 (lv1_padRow b n) ch) = kq1_7 m ρ c (ix3 b n ch) :=
    (T.q7 b n ch).trans (congrFun T.k205 _).symm
  have hw : (fun k => (V3 m ρ c main_v514 : Vec Ideal S200704x8 .f32) (ix2 (lv1_padRow b n) k))
      = Cert.Spec.cornerWeights (kwx1 m ρ c (ix2 b n)) (kwx21 m ρ c (ix2 b n)) (kwy1 m ρ c (ix2 b n)) (kwy21 m ρ c (ix2 b n)) (kwz1 m ρ c (ix2 b n)) (kwz21 m ρ c (ix2 b n)) := by
    funext k
    refine (T.wt b n k).trans ?_
    rw [← T.k30, ← T.k33, ← T.k36, ← T.k39, ← T.k42, ← T.k45]
  have harr : (W4 m ρ c (Proc.devRef .tc main_v515) : Vec Ideal S200704x64 .f32)
      = ((dat1 (F := Ideal) (V3 m ρ) c).arrAt 9 cfg1.N : Vec Ideal S200704x64 .f32) := W4_arr m ρ c 9
  rw [lv1_out_apply, harr, final1 (V3 m ρ) c (lv1_padRow b n) ch, hq0, hq1, hq2, hq3, hq4, hq5, hq6, hq7, hw]

end Cert.KernelIdeal.Hand

end
-- ==== Proof.Val.Region2.lean ====
import proofs.«171014_j76854144795318_1_alg».proof.Proof.KI.Body2
import proofs.«171014_j76854144795318_1_alg».proof.Proof.Val.Spec
import Idealize.ShloMosaic.Lib.Pipeline.Value
import Idealize.ShloMosaic.Lib.ValueIdx
import Idealize.ShloMosaic.PureOps.Ideal.Laws

/-! # Pyramid level 2: the output array, element by element

The pipelined call of level 2 walks 98 grid points. Point `t` stages rows `2048·t … 2048·t + 2047` (all 128
channels) of each of the eight gathered arrays, the same rows (all 8 columns) of the weight table, and writes back the
same rows of the result. On the extended reals every operation is exact, so the block the body leaves is, at row `p`
and channel `q` of the block, `0 + x₀[p,q]·c[p,0] + … + x₇[p,q]·c[p,7]`, and `0 + y = y`. The 98 blocks tile the
200704 rows, so after the last point the whole result is one function of the nine arrays as the call found them:
at row `r` and channel `ch`, the eight gathered values at `(r, ch)` times the eight weights of row `r`, added
from left to right. -/

noncomputable section

namespace Cert.KernelIdeal.Hand

open Cert.KernelIdeal Cert.KernelIdeal.Gen Idealize.ShloMosaic.ValueIdx
open Idealize.ShloMosaic Idealize.ShloMosaic.TcCoe
open Idealize.ShloMosaic.Pipeline (Dat)

/-! ## One block: what the body computes at a row and a channel -/

/-- The zero offsets of a whole-block load or store, as the constant-zero function. -/
theorem zero_off2 : (![0, 0] : Fin 2 → Nat) = fun _ => 0 :=
  funext fun a => match a with | ⟨0, _⟩ => rfl | ⟨1, _⟩ => rfl

/-- One column of the weight block, spread along the channels: at row `p` and any channel it is the weight `(p, k)`. -/
theorem wcol2_apply (x : FVec Ideal S2048x8 .f32) (off : Fin S2048x8.rank → Nat) (hs : S2048x8.Slices off S2048x1)
    (hb : S2048x1.Broadcasts S2048x128) (k : Fin 8) (h0 : off 0 = 0) (h1 : off 1 = k.val) (p : Fin 2048) (q : Fin 128) :
    broadcastTo S2048x128 (extractStridedSlice S2048x1 off x hs) hb (ix2 p q) = x (ix2 p k) := by
  refine (broadcastTo_apply _ hb (ix2 p q) (ix2 p (0 : Fin 1)) ?_).trans ?_
  · intro a
    match a with
    | ⟨0, _⟩ => rfl
    | ⟨1, _⟩ => rfl
  · refine extractStridedSlice_apply off x hs (ix2 p (0 : Fin 1)) (ix2 p k) ?_
    intro a
    match a with
    | ⟨0, _⟩ => show p.val = off 0 + p.val; rw [h0]; omega
    | ⟨1, _⟩ => show k.val = off 1 + 0; rw [h1]; rfl

/-- The value the body stores, at row `p` and channel `q` of the block: the eight operand blocks there times the
    eight weights of row `p`, added from left to right (the leading zero is absorbed: `0 + y = y`). -/
theorem pay2_apply (x0 x1 x2 x3 x4 x5 x6 x7 : Vec Ideal S2048x128 .f32) (x8 : Vec Ideal S2048x8 .f32) (p : Fin 2048) (q : Fin 128) :
    k2_pay1 (k2_pay2 x8) (k2_pay3 x5) (k2_pay4 x6) (k2_pay5 x7) (k2_pay6 x8 x0 x1 x2 x3 x4) (k2_pay7 x8) (ix2 p q)
      = Cert.Spec.comb8 ![x0 (ix2 p q), x1 (ix2 p q), x2 (ix2 p q), x3 (ix2 p q), x4 (ix2 p q), x5 (ix2 p q), x6 (ix2 p q), x7 (ix2 p q)]
          (fun k => x8 (ix2 p k)) := by
  unfold k2_pay1 k2_pay6 k2_pay7 k2_pay3 k2_pay4 k2_pay5 k2_pay2
  simp only [shapeCast_self, mulf_apply, addf_apply, broadcast_apply]
  rw [wcol2_apply x8 ![0, 0] _ _ 0 rfl rfl p q, wcol2_apply x8 ![0, 1] _ _ 1 rfl rfl p q, wcol2_apply x8 ![0, 2] _ _ 2 rfl rfl p q,
    wcol2_apply x8 ![0, 3] _ _ 3 rfl rfl p q, wcol2_apply x8 ![0, 4] _ _ 4 rfl rfl p q, wcol2_apply x8 ![0, 5] _ _ 5 rfl rfl p q,
    wcol2_apply x8 ![0, 6] _ _ 6 rfl rfl p q, wcol2_apply x8 ![0, 7] _ _ 7 rfl rfl p q]
  have hz : (FloatOps.ofBits FTy.f32 0x00000000#32 : Ideal .f32) = 0 := Ideal.ofBits_zero_f32
  rw [hz, zero_add]
  rfl

/-- What the body leaves in the result's staging buffer, read at row `p` and channel `q`: the one store covers the
    whole block, and each load reads a whole block. -/
theorem out2_9_apply (x0 x1 x2 x3 x4 x5 x6 x7 : Vec Ideal S2048x128 .f32) (x8 : Vec Ideal S2048x8 .f32) (p : Fin 2048) (q : Fin 128) :
    out2_9 x0 x1 x2 x3 x4 x5 x6 x7 x8 (ix2 p q)
      = Cert.Spec.comb8 ![x0 (ix2 p q), x1 (ix2 p q), x2 (ix2 p q), x3 (ix2 p q), x4 (ix2 p q), x5 (ix2 p q), x6 (ix2 p q), x7 (ix2 p q)]
          (fun k => x8 (ix2 p k)) := by
  unfold out2_9
  rw [View.canon_unit_zero zero_off2]
  simp only [View.ld_unit_zero (S := S2048x128) zero_off2, View.ld_unit_zero (S := S2048x8) zero_off2]
  exact pay2_apply x0 x1 x2 x3 x4 x5 x6 x7 x8 p q

/-! ## The whole array -/

/-- The result as one function of the nine arrays: at index `i`, the eight gathered arrays at `i` times the eight
    weights of `i`'s row, added from left to right. -/
def combArr2 (a0 a1 a2 a3 a4 a5 a6 a7 : Vec Ideal S200704x128 .f32) (a8 : Vec Ideal S200704x8 .f32) : Vec Ideal S200704x128 .f32 :=
  fun i => Cert.Spec.comb8 ![a0 i, a1 i, a2 i, a3 i, a4 i, a5 i, a6 i, a7 i] (fun k => a8 (ix2 (i 0) k))

/-- Every window's index map sends grid point `t` to block `(t, 0)`: block `t` of rows, the one block of columns. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-- Operand 0's block at point t lies over the same rows and channels of its array as the output's block. -/
theorem emb2_0 (t : Fin cfg2.N) (j : S2048x128.Idx) :
    (((cfg2.win 0).blk t).view.emb j : S200704x128.Idx) = ((cfg2.win 9).blk t).view.emb j := by
  have e := idx_facts2 t
  funext a; apply Fin.ext
  match a with
  | ⟨0, _⟩ => show win2_0.index t (0 : Fin 2) * 2048 + 1 * (j 0).val = win2_9.index t (0 : Fin 2) * 2048 + 1 * (j 0).val; omega
  | ⟨1, _⟩ => show win2_0.index t (1 : Fin 2) * 128 + 1 * (j 1).val = win2_9.index t (1 : Fin 2) * 128 + 1 * (j 1).val; omega

/-- Operand 1's block at point t lies over the same rows and channels of its array as the output's block. -/
theorem emb2_1 (t : Fin cfg2.N) (j : S2048x128.Idx) :
    (((cfg2.win 1).blk t).view.emb j : S200704x128.Idx) = ((cfg2.win 9).blk t).view.emb j := by
  have e := idx_facts2 t
  funext a; apply Fin.ext
  match a with
  | ⟨0, _⟩ => show win2_1.index t (0 : Fin 2) * 2048 + 1 * (j 0).val = win2_9.index t (0 : Fin 2) * 2048 + 1 * (j 0).val; omega
  | ⟨1, _⟩ => show win2_1.index t (1 : Fin 2) * 128 + 1 * (j 1).val = win2_9.index t (1 : Fin 2) * 128 + 1 * (j 1).val; omega

/-- Operand 2's block at point t lies over the same rows and channels of its array as the output's block. -/
theorem emb2_2 (t : Fin cfg2.N) (j : S2048x128.Idx) :
    (((cfg2.win 2).blk t).view.emb j : S200704x128.Idx) = ((cfg2.win 9).blk t).view.emb j := by
  have e := idx_facts2 t
  funext a; apply Fin.ext
  match a with
  | ⟨0, _⟩ => show win2_2.index t (0 : Fin 2) * 2048 + 1 * (j 0).val = win2_9.index t (0 : Fin 2) * 2048 + 1 * (j 0).val; omega
  | ⟨1, _⟩ => show win2_2.index t (1 : Fin 2) * 128 + 1 * (j 1).val = win2_9.index t (1 : Fin 2) * 128 + 1 * (j 1).val; omega

/-- Operand 3's block at point t lies over the same rows and channels of its array as the output's block. -/
theorem emb2_3 (t : Fin cfg2.N) (j : S2048x128.Idx) :
    (((cfg2.win 3).blk t).view.emb j : S200704x128.Idx) = ((cfg2.win 9).blk t).view.emb j := by
  have e := idx_facts2 t
  funext a; apply Fin.ext
  match a with
  | ⟨0, _⟩ => show win2_3.index t (0 : Fin 2) * 2048 + 1 * (j 0).val = win2_9.index t (0 : Fin 2) * 2048 + 1 * (j 0).val; omega
  | ⟨1, _⟩ => show win2_3.index t (1 : Fin 2) * 128 + 1 * (j 1).val = win2_9.index t (1 : Fin 2) * 128 + 1 * (j 1).val; omega

/-- Operand 4's block at point t lies over the same rows and channels of its array as the output's block. -/
theorem emb2_4 (t : Fin cfg2.N) (j : S2048x128.Idx) :
    (((cfg2.win 4).blk t).view.emb j : S200704x128.Idx) = ((cfg2.win 9).blk t).view.emb j := by
  have e := idx_facts2 t
  funext a; apply Fin.ext
  match a with
  | ⟨0, _⟩ => show win2_4.index t (0 : Fin 2) * 2048 + 1 * (j 0).val = win2_9.index t (0 : Fin 2) * 2048 + 1 * (j 0).val; omega
  | ⟨1, _⟩ => show win2_4.index t (1 : Fin 2) * 128 + 1 * (j 1).val = win2_9.index t (1 : Fin 2) * 128 + 1 * (j 1).val; omega

/-- Operand 5's block at point t lies over the same rows and channels of its array as the output's block. -/
theorem emb2_5 (t : Fin cfg2.N) (j : S2048x128.Idx) :
    (((cfg2.win 5).blk t).view.emb j : S200704x128.Idx) = ((cfg2.win 9).blk t).view.emb j := by
  have e := idx_facts2 t
  funext a; apply Fin.ext
  match a with
  | ⟨0, _⟩ => show win2_5.index t (0 : Fin 2) * 2048 + 1 * (j 0).val = win2_9.index t (0 : Fin 2) * 2048 + 1 * (j 0).val; omega
  | ⟨1, _⟩ => show win2_5.index t (1 : Fin 2) * 128 + 1 * (j 1).val = win2_9.index t (1 : Fin 2) * 128 + 1 * (j 1).val; omega

/-- Operand 6's block at point t lies over the same rows and channels of its array as the output's block. -/
theorem emb2_6 (t : Fin cfg2.N) (j : S2048x128.Idx) :
    (((cfg2.win 6).blk t).view.emb j : S200704x128.Idx) = ((cfg2.win 9).blk t).view.emb j := by
  have e := idx_facts2 t
  funext a; apply Fin.ext
  match a with
  | ⟨0, _⟩ => show win2_6.index t (0 : Fin 2) * 2048 + 1 * (j 0).val = win2_9.index t (0 : Fin 2) * 2048 + 1 * (j 0).val; omega
  | ⟨1, _⟩ => show win2_6.index t (1 : Fin 2) * 128 + 1 * (j 1).val = win2_9.index t (1 : Fin 2) * 128 + 1 * (j 1).val; omega

/-- Operand 7's block at point t lies over the same rows and channels of its array as the output's block. -/
theorem emb2_7 (t : Fin cfg2.N) (j : S2048x128.Idx) :
    (((cfg2.win 7).blk t).view.emb j : S200704x128.Idx) = ((cfg2.win 9).blk t).view.emb j := by
  have e := idx_facts2 t
  funext a; apply Fin.ext
  match a with
  | ⟨0, _⟩ => show win2_7.index t (0 : Fin 2) * 2048 + 1 * (j 0).val = win2_9.index t (0 : Fin 2) * 2048 + 1 * (j 0).val; omega
  | ⟨1, _⟩ => show win2_7.index t (1 : Fin 2) * 128 + 1 * (j 1).val = win2_9.index t (1 : Fin 2) * 128 + 1 * (j 1).val; omega

/-- The weights' block at point t lies over the same rows of its array as the output's block. -/
theorem emb2_8 (t : Fin cfg2.N) (p : Fin 2048) (q : Fin 128) (k : Fin 8) :
    (((cfg2.win 8).blk t).view.emb (ix2 p k) : S200704x8.Idx)
      = ix2 ((((cfg2.win 9).blk t).view.emb (ix2 p q) : S200704x128.Idx) 0) k := by
  have e := idx_facts2 t
  funext a; apply Fin.ext
  match a with
  | ⟨0, _⟩ => show win2_8.index t (0 : Fin 2) * 2048 + 1 * p.val = win2_9.index t (0 : Fin 2) * 2048 + 1 * p.val; omega
  | ⟨1, _⟩ => show win2_8.index t (1 : Fin 2) * 8 + 1 * k.val = k.val; omega

/-- An index of the output array lies in point `t`'s block iff each coordinate lies in the block's range on its axis. -/
theorem mem_blk2 (t : Fin cfg2.N) (i : S200704x128.Idx) :
    i ∈ ((cfg2.win 9).blk t).view.set ↔ ∀ a : Fin 2, win2_9.index t a * S2048x128.size a ≤ (i a).val ∧ (i a).val < win2_9.index t a * S2048x128.size a + S2048x128.size a := by
  show i ∈ ((View.whole main_v774).slice (win2_9.rect t)).set ↔ _
  rw [View.set_slice_whole, Rect.mem_set_unit]
  exact Iff.rfl

/-- Row `r` of the output lies in the block of point `r / 2048`: the 98 blocks of 2048 rows tile the 200704 rows. -/
theorem cover2 (i : S200704x128.Idx) : ∃ t : Fin cfg2.N, (cfg2.win 9).flush t = true ∧ i ∈ ((cfg2.win 9).blk t).view.set := by
  have hi0 : (i 0).val < 200704 := (i 0).isLt
  have hi1 : (i 1).val < 128 := (i 1).isLt
  have hlt : (i 0).val / 2048 < cfg2.N := by show (i 0).val / 2048 < 98; omega
  obtain ⟨t, ht⟩ : ∃ t : Fin cfg2.N, t.val = (i 0).val / 2048 := ⟨⟨_, hlt⟩, rfl⟩
  refine ⟨t, flush2_9 t, ?_⟩
  rw [mem_blk2]
  have e := idx_facts2 t
  intro a
  match a with
  | ⟨0, _⟩ => show win2_9.index t (0 : Fin 2) * 2048 ≤ (i 0).val ∧ (i 0).val < win2_9.index t (0 : Fin 2) * 2048 + 2048; omega
  | ⟨1, _⟩ => show win2_9.index t (1 : Fin 2) * 128 ≤ (i 1).val ∧ (i 1).val < win2_9.index t (1 : Fin 2) * 128 + 128; omega

section
-- the core's buffer contents when the call is entered
variable (V : (c : Dev nD) → (b : Ref sig .tc) → Buf (Elt Ideal) ((c : Thread nD τ).loc b))

/-- What point `t` writes back is block `t` of `combArr2` of the nine arrays as the call found them: each staged block
    is its array read over the rows the output's block covers. -/
theorem flushed2_eq (c : Dev nD) (t : Fin cfg2.N) :
    (dat2 (F := Ideal) V c).flushed 9 t
      = ((cfg2.win 9).blk t).view.read (Elt Ideal) (combArr2 (V c main_v765) (V c main_v766) (V c main_v767) (V c main_v768) (V c main_v769) (V c main_v770) (V c main_v771) (V c main_v772) (V c main_v773)) := by
  show (cfg2.win 9).cut (grid2.coords t) ((dat2 (F := Ideal) V c).after 9 t) = _
  rw [after2_9]
  funext j
  obtain ⟨p, q, rfl⟩ : ∃ (p : Fin 2048) (q : Fin 128), j = ix2 p q := ⟨j 0, j 1, eq_ix2 j⟩
  show out2_9 (iblk2 V c 0 t) (iblk2 V c 1 t) (iblk2 V c 2 t) (iblk2 V c 3 t) (iblk2 V c 4 t) (iblk2 V c 5 t) (iblk2 V c 6 t) (iblk2 V c 7 t) (iblk2 V c 8 t) (ix2 p q) = _
  refine (out2_9_apply (iblk2 V c 0 t) (iblk2 V c 1 t) (iblk2 V c 2 t) (iblk2 V c 3 t) (iblk2 V c 4 t) (iblk2 V c 5 t) (iblk2 V c 6 t) (iblk2 V c 7 t) (iblk2 V c 8 t) p q).trans ?_
  have h0 : iblk2 V c 0 t (ix2 p q) = V c main_v765 (((cfg2.win 9).blk t).view.emb (ix2 p q)) := by
    show V c main_v765 (((cfg2.win 0).blk t).view.emb (ix2 p q)) = _
    rw [emb2_0 t]
  have h1 : iblk2 V c 1 t (ix2 p q) = V c main_v766 (((cfg2.win 9).blk t).view.emb (ix2 p q)) := by
    show V c main_v766 (((cfg2.win 1).blk t).view.emb (ix2 p q)) = _
    rw [emb2_1 t]
  have h2 : iblk2 V c 2 t (ix2 p q) = V c main_v767 (((cfg2.win 9).blk t).view.emb (ix2 p q)) := by
    show V c main_v767 (((cfg2.win 2).blk t).view.emb (ix2 p q)) = _
    rw [emb2_2 t]
  have h3 : iblk2 V c 3 t (ix2 p q) = V c main_v768 (((cfg2.win 9).blk t).view.emb (ix2 p q)) := by
    show V c main_v768 (((cfg2.win 3).blk t).view.emb (ix2 p q)) = _
    rw [emb2_3 t]
  have h4 : iblk2 V c 4 t (ix2 p q) = V c main_v769 (((cfg2.win 9).blk t).view.emb (ix2 p q)) := by
    show V c main_v769 (((cfg2.win 4).blk t).view.emb (ix2 p q)) = _
    rw [emb2_4 t]
  have h5 : iblk2 V c 5 t (ix2 p q) = V c main_v770 (((cfg2.win 9).blk t).view.emb (ix2 p q)) := by
    show V c main_v770 (((cfg2.win 5).blk t).view.emb (ix2 p q)) = _
    rw [emb2_5 t]
  have h6 : iblk2 V c 6 t (ix2 p q) = V c main_v771 (((cfg2.win 9).blk t).view.emb (ix2 p q)) := by
    show V c main_v771 (((cfg2.win 6).blk t).view.emb (ix2 p q)) = _
    rw [emb2_6 t]
  have h7 : iblk2 V c 7 t (ix2 p q) = V c main_v772 (((cfg2.win 9).blk t).view.emb (ix2 p q)) := by
    show V c main_v772 (((cfg2.win 7).blk t).view.emb (ix2 p q)) = _
    rw [emb2_7 t]
  have h8 : ∀ k : Fin 8, iblk2 V c 8 t (ix2 p k)
      = V c main_v773 (ix2 ((((cfg2.win 9).blk t).view.emb (ix2 p q) : S200704x128.Idx) 0) k) := fun k => by
    show V c main_v773 (((cfg2.win 8).blk t).view.emb (ix2 p k)) = _
    exact congrArg (V c main_v773) (emb2_8 t p q k)
  rw [h0, h1, h2, h3, h4, h5, h6, h7]
  simp only [h8]
  rfl

/-- The output array after the last point is `combArr2` of the nine arrays as the call found them. -/
theorem arr2_eq (c : Dev nD) :
    (dat2 (F := Ideal) V c).arrAt 9 cfg2.N = combArr2 (V c main_v765) (V c main_v766) (V c main_v767) (V c main_v768) (V c main_v769) (V c main_v770) (V c main_v771) (V c main_v772) (V c main_v773) :=
  (dat2 (F := Ideal) V c).arrAt_eq_of_cover 9 (combArr2 (V c main_v765) (V c main_v766) (V c main_v767) (V c main_v768) (V c main_v769) (V c main_v770) (V c main_v771) (V c main_v772) (V c main_v773))
    (fun t _ => flushed2_eq V c t) cover2

end

/-- Region 2's output array after the pipeline's last point, at row r and channel ch: the eight gathered arrays at (r, ch) times the eight weights of row r, added left to right.
    (V is the buffer contents at the region's entry; windows 0..7 stage main_v765 … main_v772, window 8 main_v773, window 9 = the output main_v774.) -/
theorem final2 (V : (c : Dev nD) → (b : Ref sig .tc) → Buf (Elt Ideal) ((c : Thread nD τ).loc b)) (c : Dev nD) (r : Fin 200704) (ch : Fin 128) :
    ((dat2 (F := Ideal) V c).arrAt 9 cfg2.N : Vec Ideal S200704x128 .f32) (ix2 r ch)
      = Cert.Spec.comb8
          ![(V c main_v765 : Vec Ideal S200704x128 .f32) (ix2 r ch), (V c main_v766 : Vec Ideal S200704x128 .f32) (ix2 r ch), (V c main_v767 : Vec Ideal S200704x128 .f32) (ix2 r ch), (V c main_v768 : Vec Ideal S200704x128 .f32) (ix2 r ch),
            (V c main_v769 : Vec Ideal S200704x128 .f32) (ix2 r ch), (V c main_v770 : Vec Ideal S200704x128 .f32) (ix2 r ch), (V c main_v771 : Vec Ideal S200704x128 .f32) (ix2 r ch), (V c main_v772 : Vec Ideal S200704x128 .f32) (ix2 r ch)]
          (fun k => (V c main_v773 : Vec Ideal S200704x8 .f32) (ix2 r k)) :=
  congrFun (arr2_eq V c) (ix2 r ch)

end Cert.KernelIdeal.Hand

end
-- ==== Proof.Val.KHostTail2.lean ====
/-
  Level 2 of the feature pyramid: what the host operations between the last gather and the pipelined call do.

  The host has gathered, for each of the 2 × 100000 query points, the eight corners of the cell around it
  (eight arrays `[2, 100000, 128]`) and the six fractional weights (six arrays `[2, 100000]`). It then forms the
  eight corner weights as products of three of the six, and lays everything out for the call: each gathered
  array is flattened to `[200000, 128]` (row `b · 100000 + n` is point `(b, n)`: row-major order) and padded
  with 704 rows at the end; the eight corner weights are flattened, stood up as columns, laid side by side as
  `[200000, 8]` and padded likewise. Read at a point `(b, n)`, the padding rows are never met: padded operand
  `k` is gathered array `k` there, and column `k` of the padded table is the `k`-th product of weights.
-/
import proofs.«171014_j76854144795318_1_alg».proof.Proof.Gen.KernelIdeal.Launch
import proofs.«171014_j76854144795318_1_alg».proof.Proof.Val.Spec
import Idealize.ShloMosaic.Lib.ValueIdx
import Idealize.ShloMosaic.Lib.ValueLayout
import Idealize.ShloMosaic.Lib.Pipeline.Value
import Idealize.ShloMosaic.Lib.Pipeline.Regions
import Idealize.ShloMosaic.Lib.StableHlo.Run
import Idealize.ShloMosaic.Lib.KernelVsHost

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

/-! ## The layout operations read at a point -/

/-- Row `b · 100000 + n` of a flattened array is point `(b, n)` of the batched one (row-major order). -/
abbrev lv2_flatRow (b : Fin 2) (n : Fin 100000) : Fin 200000 := ⟨b.val * 100000 + n.val, by omega⟩
/-- The same row of the array padded to 200704 rows. -/
abbrev lv2_padRow (b : Fin 2) (n : Fin 100000) : Fin 200704 := ⟨b.val * 100000 + n.val, by omega⟩

/-- A gathered array flattened: row `b · 100000 + n` is point `(b, n)`. -/
theorem lv2_flat_apply (x : Vec Ideal S2x100000x128 .f32) (h : S2x100000x128.ShapeCasts S200000x128)
    (b : Fin 2) (n : Fin 100000) (ch : Fin 128) :
    shapeCast S200000x128 x h (ix2 (lv2_flatRow b n) ch) = x (ix3 b n ch) := by
  refine shapeCast_apply x h _ _ ?_
  rw [Shape.rowMajor_val_three, Shape.rowMajor_val_two]
  rfl

/-- Rows appended at the end do not move the rows before them. -/
theorem lv2_pad_apply (y : Vec Ideal S200000x128 .f32) (v : Vec Ideal S_ .f32)
    (h : S200000x128.Pads (![0, 0] : Fin 2 → Nat) ![704, 0] ![0, 0] S200704x128) (hu : 0 < S_.numel)
    (b : Fin 2) (n : Fin 100000) (ch : Fin 128) :
    pad S200704x128 ![0, 0] ![704, 0] ![0, 0] y v h hu (ix2 (lv2_padRow b n) ch) = y (ix2 (lv2_flatRow b n) ch) := by
  refine pad_apply_of_inside _ _ _ y v h hu _ _ fun a => ?_
  match a with
  | ⟨0, _⟩ => show b.val * 100000 + n.val = 0 + (b.val * 100000 + n.val) * (0 + 1); omega
  | ⟨1, _⟩ => show ch.val = 0 + ch.val * (0 + 1); omega

/-- The flattened result unflattened: point `(b, n)` is row `b · 100000 + n`. -/
theorem lv2_unflat_apply (y : Vec Ideal S200000x128 .f32) (h : S200000x128.ShapeCasts S2x100000x128)
    (b : Fin 2) (n : Fin 100000) (ch : Fin 128) :
    shapeCast S2x100000x128 y h (ix3 b n ch) = y (ix2 (lv2_flatRow b n) ch) := by
  refine shapeCast_apply y h _ _ ?_
  rw [Shape.rowMajor_val_three, Shape.rowMajor_val_two]
  rfl

/-- Dropping the rows from 200000 on keeps the rows before them. -/
theorem lv2_slice_apply (z : Vec Ideal S200704x128 .f32) (h : S200704x128.Slices ![0, 0] S200000x128)
    (b : Fin 2) (n : Fin 100000) (ch : Fin 128) :
    extractStridedSlice S200000x128 ![0, 0] z h (ix2 (lv2_flatRow b n) ch) = z (ix2 (lv2_padRow b n) ch) := by
  refine extractStridedSlice_apply _ z h _ _ fun a => ?_
  match a with
  | ⟨0, _⟩ => show b.val * 100000 + n.val = 0 + (b.val * 100000 + n.val); omega
  | ⟨1, _⟩ => show ch.val = 0 + ch.val; omega

/-- Eight one-column tables laid side by side: column `k` of the result is the `k`-th table's only column. -/
theorem lv2_cols8_apply (u0 u1 u2 u3 u4 u5 u6 u7 : Vec Ideal S200000x1 .f32)
    (hc : Shape.Concatenates [S200000x1, S200000x1, S200000x1, S200000x1, S200000x1, S200000x1, S200000x1, S200000x1] S200000x8 1)
    (r : Fin 200000) (k : Fin 8) :
    concatenate S200000x8 1 [⟨S200000x1, u0⟩, ⟨S200000x1, u1⟩, ⟨S200000x1, u2⟩, ⟨S200000x1, u3⟩, ⟨S200000x1, u4⟩, ⟨S200000x1, u5⟩, ⟨S200000x1, u6⟩, ⟨S200000x1, u7⟩] hc (ix2 r k)
      = ![u0 (ix2 r 0), u1 (ix2 r 0), u2 (ix2 r 0), u3 (ix2 r 0), u4 (ix2 r 0), u5 (ix2 r 0), u6 (ix2 r 0), u7 (ix2 r 0)] k := by
  have hi : ∀ (kk : Fin 8) (b : Fin S200000x1.rank), b.cast (rfl : S200000x1.rank = S200000x8.rank) ≠ (1 : Fin S200000x8.rank) →
      ((ix2 r (0 : Fin 1) : S200000x1.Idx) b).val = ((ix2 r kk : S200000x8.Idx) (b.cast rfl)).val := fun kk b hb => by
    match b with
    | ⟨0, _⟩ => rfl
    | ⟨1, _⟩ => exact absurd rfl hb
  let xs : List ((s : Shape) × (s.Idx → Elt Ideal .f32)) := [⟨S200000x1, u0⟩, ⟨S200000x1, u1⟩, ⟨S200000x1, u2⟩, ⟨S200000x1, u3⟩, ⟨S200000x1, u4⟩, ⟨S200000x1, u5⟩, ⟨S200000x1, u6⟩, ⟨S200000x1, u7⟩]
  match k with
  | ⟨0, _⟩ => exact concatenate_apply_piece (1 : Fin S200000x8.rank) xs hc (ix2 r _) 0 (show 0 < 8 by omega) S200000x1 u0 rfl rfl 0 rfl (ix2 r 0) (hi _) rfl
  | ⟨1, _⟩ => exact concatenate_apply_piece (1 : Fin S200000x8.rank) xs hc (ix2 r _) 1 (show 1 < 8 by omega) S200000x1 u1 rfl rfl 1 rfl (ix2 r 0) (hi _) rfl
  | ⟨2, _⟩ => exact concatenate_apply_piece (1 : Fin S200000x8.rank) xs hc (ix2 r _) 2 (show 2 < 8 by omega) S200000x1 u2 rfl rfl 2 rfl (ix2 r 0) (hi _) rfl
  | ⟨3, _⟩ => exact concatenate_apply_piece (1 : Fin S200000x8.rank) xs hc (ix2 r _) 3 (show 3 < 8 by omega) S200000x1 u3 rfl rfl 3 rfl (ix2 r 0) (hi _) rfl
  | ⟨4, _⟩ => exact concatenate_apply_piece (1 : Fin S200000x8.rank) xs hc (ix2 r _) 4 (show 4 < 8 by omega) S200000x1 u4 rfl rfl 4 rfl (ix2 r 0) (hi _) rfl
  | ⟨5, _⟩ => exact concatenate_apply_piece (1 : Fin S200000x8.rank) xs hc (ix2 r _) 5 (show 5 < 8 by omega) S200000x1 u5 rfl rfl 5 rfl (ix2 r 0) (hi _) rfl
  | ⟨6, _⟩ => exact concatenate_apply_piece (1 : Fin S200000x8.rank) xs hc (ix2 r _) 6 (show 6 < 8 by omega) S200000x1 u6 rfl rfl 6 rfl (ix2 r 0) (hi _) rfl
  | ⟨7, _⟩ => exact concatenate_apply_piece (1 : Fin S200000x8.rank) xs hc (ix2 r _) 7 (show 7 < 8 by omega) S200000x1 u7 rfl rfl 7 rfl (ix2 r 0) (hi _) rfl

/-- A per-point weight, flattened and stood up as a one-column table, read at a row. -/
theorem lv2_col_apply (w : Vec Ideal S2x100000 .f32) (hs : S2x100000.ShapeCasts S200000)
    (hb : S200000.BroadcastsInDim S200000x1 (![0] : Fin 1 → Fin S200000x1.rank)) (b : Fin 2) (n : Fin 100000) :
    broadcastInDim S200000x1 ![0] hb (shapeCast S200000 w hs) (ix2 (lv2_flatRow b n) 0) = w (ix2 b n) := by
  refine (broadcastInDim_apply _ hb _ _ (ix1 (lv2_flatRow b n)) fun a => ?_).trans ?_
  · match a with
    | ⟨0, _⟩ => rfl
  · refine shapeCast_apply w hs _ _ ?_
    rw [Shape.rowMajor_val_two, Shape.rowMajor_val_one]
    rfl

/-- Rows appended at the end of the weight table do not move the rows before them. -/
theorem lv2_pad8_apply (y : Vec Ideal S200000x8 .f32) (v : Vec Ideal S_ .f32)
    (h : S200000x8.Pads (![0, 0] : Fin 2 → Nat) ![704, 0] ![0, 0] S200704x8) (hu : 0 < S_.numel)
    (b : Fin 2) (n : Fin 100000) (k : Fin 8) :
    pad S200704x8 ![0, 0] ![704, 0] ![0, 0] y v h hu (ix2 (lv2_padRow b n) k) = y (ix2 (lv2_flatRow b n) k) := by
  refine pad_apply_of_inside _ _ _ y v h hu _ _ fun a => ?_
  match a with
  | ⟨0, _⟩ => show b.val * 100000 + n.val = 0 + (b.val * 100000 + n.val) * (0 + 1); omega
  | ⟨1, _⟩ => show k.val = 0 + k.val * (0 + 1); omega

/-- The padded eight-column weight table at row `(b, n)`, column `k`: the `k`-th per-point weight at `(b, n)`. -/
theorem lv2_wtab_apply (w0 w1 w2 w3 w4 w5 w6 w7 : Vec Ideal S2x100000 .f32) (v : Vec Ideal S_ .f32)
    (hs : S2x100000.ShapeCasts S200000) (hb : S200000.BroadcastsInDim S200000x1 (![0] : Fin 1 → Fin S200000x1.rank))
    (hc : Shape.Concatenates [S200000x1, S200000x1, S200000x1, S200000x1, S200000x1, S200000x1, S200000x1, S200000x1] S200000x8 1)
    (hp : S200000x8.Pads (![0, 0] : Fin 2 → Nat) ![704, 0] ![0, 0] S200704x8) (hu : 0 < S_.numel)
    (b : Fin 2) (n : Fin 100000) (k : Fin 8) :
    pad S200704x8 ![0, 0] ![704, 0] ![0, 0]
        (concatenate S200000x8 1 [⟨S200000x1, broadcastInDim S200000x1 ![0] hb (shapeCast S200000 w0 hs)⟩, ⟨S200000x1, broadcastInDim S200000x1 ![0] hb (shapeCast S200000 w1 hs)⟩,
          ⟨S200000x1, broadcastInDim S200000x1 ![0] hb (shapeCast S200000 w2 hs)⟩, ⟨S200000x1, broadcastInDim S200000x1 ![0] hb (shapeCast S200000 w3 hs)⟩,
          ⟨S200000x1, broadcastInDim S200000x1 ![0] hb (shapeCast S200000 w4 hs)⟩, ⟨S200000x1, broadcastInDim S200000x1 ![0] hb (shapeCast S200000 w5 hs)⟩,
          ⟨S200000x1, broadcastInDim S200000x1 ![0] hb (shapeCast S200000 w6 hs)⟩, ⟨S200000x1, broadcastInDim S200000x1 ![0] hb (shapeCast S200000 w7 hs)⟩] hc)
        v hp hu (ix2 (lv2_padRow b n) k)
      = ![w0 (ix2 b n), w1 (ix2 b n), w2 (ix2 b n), w3 (ix2 b n), w4 (ix2 b n), w5 (ix2 b n), w6 (ix2 b n), w7 (ix2 b n)] k := by
  rw [lv2_pad8_apply, lv2_cols8_apply, lv2_col_apply, lv2_col_apply, lv2_col_apply, lv2_col_apply, lv2_col_apply, lv2_col_apply, lv2_col_apply, lv2_col_apply]

/-! ## The level's host operations cut in two: up to the last gather, and from the first product of weights on -/

theorem lv2_list_split {α : Type} (a b l R : List α) (k : Nat) :
    a ++ (b ++ (l ++ R)) = (a ++ (b ++ l.take k)) ++ (l.drop k ++ R) := by
  rw [List.append_assoc, List.append_assoc, ← List.append_assoc (l.take k), List.take_append_drop]

/-- The operations that compute the gathered arrays and the six fractional weights. -/
abbrev lv2_head : List (HloOp τ sig (Elt Ideal)) := hostOps2 ++ (hostOps2_1 ++ List.take 250 hostOps2_2)
/-- The products of weights and the layout operations. -/
abbrev lv2_tail : List (HloOp τ sig (Elt Ideal)) := List.drop 250 hostOps2_2 ++ (hostOps2_3 ++ (hostOps2_4 ++ (hostOps2_5 ++ (hostOps2_6 ++ (hostOps2_7 ++ (hostOps2_8 ++ (hostOps2_9 ++ (hostOps2_10 ++ (hostOps2_11 ++ (hostOps2_12 ++ (hostOps2_13 ++ (hostOps2_14 ++ (hostOps2_15 ++ (hostOps2_16 ++ (hostOps2_17 ++ (hostOps2_18 ++ (hostOps2_19)))))))))))))))))

/-! ## What the second part leaves in each buffer, by computation

From any contents `X`, the second part's operations are run one after the other; a buffer's final contents are the
last operation that writes it applied to its operands' contents at that moment. Each equation below is that
computation carried out. -/

theorem lv2_q0_eq (X : Valuation τ sig (Elt Ideal)) :
    (StableHlo.after lv2_tail X (Proc.devRef .tc main_v765) : Vec Ideal S200704x128 .f32)
      = pad S200704x128 ![0, 0] ![704, 0] ![0, 0] (shapeCast S200000x128 (X (Proc.devRef .tc main_v583) : Vec Ideal S2x100000x128 .f32) shapeCasts_S2x100000x128_S200000x128)
          (sitofp (F := Ideal) .f32 (constantI S_ 32 0#32)) pads_S200000x128_S200704x128_07040_000 h_S_ := by
  chain_rfl
theorem lv2_q1_eq (X : Valuation τ sig (Elt Ideal)) :
    (StableHlo.after lv2_tail X (Proc.devRef .tc main_v766) : Vec Ideal S200704x128 .f32)
      = pad S200704x128 ![0, 0] ![704, 0] ![0, 0] (shapeCast S200000x128 (X (Proc.devRef .tc main_v603) : Vec Ideal S2x100000x128 .f32) shapeCasts_S2x100000x128_S200000x128)
          (sitofp (F := Ideal) .f32 (constantI S_ 32 0#32)) pads_S200000x128_S200704x128_07040_000 h_S_ := by
  chain_rfl
theorem lv2_q2_eq (X : Valuation τ sig (Elt Ideal)) :
    (StableHlo.after lv2_tail X (Proc.devRef .tc main_v767) : Vec Ideal S200704x128 .f32)
      = pad S200704x128 ![0, 0] ![704, 0] ![0, 0] (shapeCast S200000x128 (X (Proc.devRef .tc main_v623) : Vec Ideal S2x100000x128 .f32) shapeCasts_S2x100000x128_S200000x128)
          (sitofp (F := Ideal) .f32 (constantI S_ 32 0#32)) pads_S200000x128_S200704x128_07040_000 h_S_ := by
  chain_rfl
theorem lv2_q3_eq (X : Valuation τ sig (Elt Ideal)) :
    (StableHlo.after lv2_tail X (Proc.devRef .tc main_v768) : Vec Ideal S200704x128 .f32)
      = pad S200704x128 ![0, 0] ![704, 0] ![0, 0] (shapeCast S200000x128 (X (Proc.devRef .tc main_v643) : Vec Ideal S2x100000x128 .f32) shapeCasts_S2x100000x128_S200000x128)
          (sitofp (F := Ideal) .f32 (constantI S_ 32 0#32)) pads_S200000x128_S200704x128_07040_000 h_S_ := by
  chain_rfl
theorem lv2_q4_eq (X : Valuation τ sig (Elt Ideal)) :
    (StableHlo.after lv2_tail X (Proc.devRef .tc main_v769) : Vec Ideal S200704x128 .f32)
      = pad S200704x128 ![0, 0] ![704, 0] ![0, 0] (shapeCast S200000x128 (X (Proc.devRef .tc main_v663) : Vec Ideal S2x100000x128 .f32) shapeCasts_S2x100000x128_S200000x128)
          (sitofp (F := Ideal) .f32 (constantI S_ 32 0#32)) pads_S200000x128_S200704x128_07040_000 h_S_ := by
  chain_rfl
theorem lv2_q5_eq (X : Valuation τ sig (Elt Ideal)) :
    (StableHlo.after lv2_tail X (Proc.devRef .tc main_v770) : Vec Ideal S200704x128 .f32)
      = pad S200704x128 ![0, 0] ![704, 0] ![0, 0] (shapeCast S200000x128 (X (Proc.devRef .tc main_v683) : Vec Ideal S2x100000x128 .f32) shapeCasts_S2x100000x128_S200000x128)
          (sitofp (F := Ideal) .f32 (constantI S_ 32 0#32)) pads_S200000x128_S200704x128_07040_000 h_S_ := by
  chain_rfl
theorem lv2_q6_eq (X : Valuation τ sig (Elt Ideal)) :
    (StableHlo.after lv2_tail X (Proc.devRef .tc main_v771) : Vec Ideal S200704x128 .f32)
      = pad S200704x128 ![0, 0] ![704, 0] ![0, 0] (shapeCast S200000x128 (X (Proc.devRef .tc main_v703) : Vec Ideal S2x100000x128 .f32) shapeCasts_S2x100000x128_S200000x128)
          (sitofp (F := Ideal) .f32 (constantI S_ 32 0#32)) pads_S200000x128_S200704x128_07040_000 h_S_ := by
  chain_rfl
theorem lv2_q7_eq (X : Valuation τ sig (Elt Ideal)) :
    (StableHlo.after lv2_tail X (Proc.devRef .tc main_v772) : Vec Ideal S200704x128 .f32)
      = pad S200704x128 ![0, 0] ![704, 0] ![0, 0] (shapeCast S200000x128 (X (Proc.devRef .tc main_v723) : Vec Ideal S2x100000x128 .f32) shapeCasts_S2x100000x128_S200000x128)
          (sitofp (F := Ideal) .f32 (constantI S_ 32 0#32)) pads_S200000x128_S200704x128_07040_000 h_S_ := by
  chain_rfl

/-- The padded weight table: the eight products of three fractional weights, flattened, stood up as columns, laid side by
    side, padded. -/
theorem lv2_wt_eq (X : Valuation τ sig (Elt Ideal)) :
    (StableHlo.after lv2_tail X (Proc.devRef .tc main_v773) : Vec Ideal S200704x8 .f32)
      = pad S200704x8 ![0, 0] ![704, 0] ![0, 0]
          (concatenate S200000x8 1 [⟨S200000x1, broadcastInDim S200000x1 ![0] bcast_S200000_S200000x1_0 (shapeCast S200000 (mulf (mulf (X (Proc.devRef .tc main_v560) : Vec Ideal S2x100000 .f32) (X (Proc.devRef .tc main_v548) : Vec Ideal S2x100000 .f32)) (X (Proc.devRef .tc main_v554) : Vec Ideal S2x100000 .f32)) shapeCasts_S2x100000_S200000)⟩,
            ⟨S200000x1, broadcastInDim S200000x1 ![0] bcast_S200000_S200000x1_0 (shapeCast S200000 (mulf (mulf (X (Proc.devRef .tc main_v560) : Vec Ideal S2x100000 .f32) (X (Proc.devRef .tc main_v551) : Vec Ideal S2x100000 .f32)) (X (Proc.devRef .tc main_v554) : Vec Ideal S2x100000 .f32)) shapeCasts_S2x100000_S200000)⟩,
            ⟨S200000x1, broadcastInDim S200000x1 ![0] bcast_S200000_S200000x1_0 (shapeCast S200000 (mulf (mulf (X (Proc.devRef .tc main_v560) : Vec Ideal S2x100000 .f32) (X (Proc.devRef .tc main_v548) : Vec Ideal S2x100000 .f32)) (X (Proc.devRef .tc main_v557) : Vec Ideal S2x100000 .f32)) shapeCasts_S2x100000_S200000)⟩,
            ⟨S200000x1, broadcastInDim S200000x1 ![0] bcast_S200000_S200000x1_0 (shapeCast S200000 (mulf (mulf (X (Proc.devRef .tc main_v560) : Vec Ideal S2x100000 .f32) (X (Proc.devRef .tc main_v551) : Vec Ideal S2x100000 .f32)) (X (Proc.devRef .tc main_v557) : Vec Ideal S2x100000 .f32)) shapeCasts_S2x100000_S200000)⟩,
            ⟨S200000x1, broadcastInDim S200000x1 ![0] bcast_S200000_S200000x1_0 (shapeCast S200000 (mulf (mulf (X (Proc.devRef .tc main_v563) : Vec Ideal S2x100000 .f32) (X (Proc.devRef .tc main_v548) : Vec Ideal S2x100000 .f32)) (X (Proc.devRef .tc main_v554) : Vec Ideal S2x100000 .f32)) shapeCasts_S2x100000_S200000)⟩,
            ⟨S200000x1, broadcastInDim S200000x1 ![0] bcast_S200000_S200000x1_0 (shapeCast S200000 (mulf (mulf (X (Proc.devRef .tc main_v563) : Vec Ideal S2x100000 .f32) (X (Proc.devRef .tc main_v551) : Vec Ideal S2x100000 .f32)) (X (Proc.devRef .tc main_v554) : Vec Ideal S2x100000 .f32)) shapeCasts_S2x100000_S200000)⟩,
            ⟨S200000x1, broadcastInDim S200000x1 ![0] bcast_S200000_S200000x1_0 (shapeCast S200000 (mulf (mulf (X (Proc.devRef .tc main_v563) : Vec Ideal S2x100000 .f32) (X (Proc.devRef .tc main_v548) : Vec Ideal S2x100000 .f32)) (X (Proc.devRef .tc main_v557) : Vec Ideal S2x100000 .f32)) shapeCasts_S2x100000_S200000)⟩,
            ⟨S200000x1, broadcastInDim S200000x1 ![0] bcast_S200000_S200000x1_0 (shapeCast S200000 (mulf (mulf (X (Proc.devRef .tc main_v563) : Vec Ideal S2x100000 .f32) (X (Proc.devRef .tc main_v551) : Vec Ideal S2x100000 .f32)) (X (Proc.devRef .tc main_v557) : Vec Ideal S2x100000 .f32)) shapeCasts_S2x100000_S200000)⟩]
            concatenates_S200000x1_S200000x1_S200000x1_S200000x1_S200000x1_S200000x1_S200000x1_S200000x1_S200000x8_d1)
          (sitofp (F := Ideal) .f32 (constantI S_ 32 0#32)) pads_S200000x8_S200704x8_07040_000 h_S_ := by
  chain_rfl

theorem lv2_keep65 (X : Valuation τ sig (Elt Ideal)) :
    StableHlo.after lv2_tail X (Proc.devRef .tc main_v583) = X (Proc.devRef .tc main_v583) := by
  chain_rfl
theorem lv2_keep85 (X : Valuation τ sig (Elt Ideal)) :
    StableHlo.after lv2_tail X (Proc.devRef .tc main_v603) = X (Proc.devRef .tc main_v603) := by
  chain_rfl
theorem lv2_keep105 (X : Valuation τ sig (Elt Ideal)) :
    StableHlo.after lv2_tail X (Proc.devRef .tc main_v623) = X (Proc.devRef .tc main_v623) := by
  chain_rfl
theorem lv2_keep125 (X : Valuation τ sig (Elt Ideal)) :
    StableHlo.after lv2_tail X (Proc.devRef .tc main_v643) = X (Proc.devRef .tc main_v643) := by
  chain_rfl
theorem lv2_keep145 (X : Valuation τ sig (Elt Ideal)) :
    StableHlo.after lv2_tail X (Proc.devRef .tc main_v663) = X (Proc.devRef .tc main_v663) := by
  chain_rfl
theorem lv2_keep165 (X : Valuation τ sig (Elt Ideal)) :
    StableHlo.after lv2_tail X (Proc.devRef .tc main_v683) = X (Proc.devRef .tc main_v683) := by
  chain_rfl
theorem lv2_keep185 (X : Valuation τ sig (Elt Ideal)) :
    StableHlo.after lv2_tail X (Proc.devRef .tc main_v703) = X (Proc.devRef .tc main_v703) := by
  chain_rfl
theorem lv2_keep205 (X : Valuation τ sig (Elt Ideal)) :
    StableHlo.after lv2_tail X (Proc.devRef .tc main_v723) = X (Proc.devRef .tc main_v723) := by
  chain_rfl
theorem lv2_keep30 (X : Valuation τ sig (Elt Ideal)) :
    StableHlo.after lv2_tail X (Proc.devRef .tc main_v548) = X (Proc.devRef .tc main_v548) := by
  chain_rfl
theorem lv2_keep33 (X : Valuation τ sig (Elt Ideal)) :
    StableHlo.after lv2_tail X (Proc.devRef .tc main_v551) = X (Proc.devRef .tc main_v551) := by
  chain_rfl
theorem lv2_keep36 (X : Valuation τ sig (Elt Ideal)) :
    StableHlo.after lv2_tail X (Proc.devRef .tc main_v554) = X (Proc.devRef .tc main_v554) := by
  chain_rfl
theorem lv2_keep39 (X : Valuation τ sig (Elt Ideal)) :
    StableHlo.after lv2_tail X (Proc.devRef .tc main_v557) = X (Proc.devRef .tc main_v557) := by
  chain_rfl
theorem lv2_keep42 (X : Valuation τ sig (Elt Ideal)) :
    StableHlo.after lv2_tail X (Proc.devRef .tc main_v560) = X (Proc.devRef .tc main_v560) := by
  chain_rfl
theorem lv2_keep45 (X : Valuation τ sig (Elt Ideal)) :
    StableHlo.after lv2_tail X (Proc.devRef .tc main_v563) = X (Proc.devRef .tc main_v563) := by
  chain_rfl

/-- What the second part does to the buffers, from any contents `X`: each padded operand and the padded weight table read at
    a point, and the gathered arrays and fractional weights left as they were. -/
structure Lv2Tail (X Y : Valuation τ sig (Elt Ideal)) : Prop where
  /-- padded operand 0, row `(b, n)`: gathered array 0 at `(b, n)` -/
  q0 : ∀ (b : Fin 2) (n : Fin 100000) (ch : Fin 128),
    (Y (Proc.devRef .tc main_v765) : Vec Ideal S200704x128 .f32) (ix2 (lv2_padRow b n) ch)
      = (X (Proc.devRef .tc main_v583) : Vec Ideal S2x100000x128 .f32) (ix3 b n ch)
  /-- padded operand 1, row `(b, n)`: gathered array 1 at `(b, n)` -/
  q1 : ∀ (b : Fin 2) (n : Fin 100000) (ch : Fin 128),
    (Y (Proc.devRef .tc main_v766) : Vec Ideal S200704x128 .f32) (ix2 (lv2_padRow b n) ch)
      = (X (Proc.devRef .tc main_v603) : Vec Ideal S2x100000x128 .f32) (ix3 b n ch)
  /-- padded operand 2, row `(b, n)`: gathered array 2 at `(b, n)` -/
  q2 : ∀ (b : Fin 2) (n : Fin 100000) (ch : Fin 128),
    (Y (Proc.devRef .tc main_v767) : Vec Ideal S200704x128 .f32) (ix2 (lv2_padRow b n) ch)
      = (X (Proc.devRef .tc main_v623) : Vec Ideal S2x100000x128 .f32) (ix3 b n ch)
  /-- padded operand 3, row `(b, n)`: gathered array 3 at `(b, n)` -/
  q3 : ∀ (b : Fin 2) (n : Fin 100000) (ch : Fin 128),
    (Y (Proc.devRef .tc main_v768) : Vec Ideal S200704x128 .f32) (ix2 (lv2_padRow b n) ch)
      = (X (Proc.devRef .tc main_v643) : Vec Ideal S2x100000x128 .f32) (ix3 b n ch)
  /-- padded operand 4, row `(b, n)`: gathered array 4 at `(b, n)` -/
  q4 : ∀ (b : Fin 2) (n : Fin 100000) (ch : Fin 128),
    (Y (Proc.devRef .tc main_v769) : Vec Ideal S200704x128 .f32) (ix2 (lv2_padRow b n) ch)
      = (X (Proc.devRef .tc main_v663) : Vec Ideal S2x100000x128 .f32) (ix3 b n ch)
  /-- padded operand 5, row `(b, n)`: gathered array 5 at `(b, n)` -/
  q5 : ∀ (b : Fin 2) (n : Fin 100000) (ch : Fin 128),
    (Y (Proc.devRef .tc main_v770) : Vec Ideal S200704x128 .f32) (ix2 (lv2_padRow b n) ch)
      = (X (Proc.devRef .tc main_v683) : Vec Ideal S2x100000x128 .f32) (ix3 b n ch)
  /-- padded operand 6, row `(b, n)`: gathered array 6 at `(b, n)` -/
  q6 : ∀ (b : Fin 2) (n : Fin 100000) (ch : Fin 128),
    (Y (Proc.devRef .tc main_v771) : Vec Ideal S200704x128 .f32) (ix2 (lv2_padRow b n) ch)
      = (X (Proc.devRef .tc main_v703) : Vec Ideal S2x100000x128 .f32) (ix3 b n ch)
  /-- padded operand 7, row `(b, n)`: gathered array 7 at `(b, n)` -/
  q7 : ∀ (b : Fin 2) (n : Fin 100000) (ch : Fin 128),
    (Y (Proc.devRef .tc main_v772) : Vec Ideal S200704x128 .f32) (ix2 (lv2_padRow b n) ch)
      = (X (Proc.devRef .tc main_v723) : Vec Ideal S2x100000x128 .f32) (ix3 b n ch)
  /-- the padded weight table, row `(b, n)`, column `k`: the `k`-th product of three fractional weights at `(b, n)` -/
  wt : ∀ (b : Fin 2) (n : Fin 100000) (k : Fin 8),
    (Y (Proc.devRef .tc main_v773) : Vec Ideal S200704x8 .f32) (ix2 (lv2_padRow b n) k)
      = Cert.Spec.cornerWeights ((X (Proc.devRef .tc main_v548) : Vec Ideal S2x100000 .f32) (ix2 b n)) ((X (Proc.devRef .tc main_v551) : Vec Ideal S2x100000 .f32) (ix2 b n)) ((X (Proc.devRef .tc main_v554) : Vec Ideal S2x100000 .f32) (ix2 b n))
          ((X (Proc.devRef .tc main_v557) : Vec Ideal S2x100000 .f32) (ix2 b n)) ((X (Proc.devRef .tc main_v560) : Vec Ideal S2x100000 .f32) (ix2 b n)) ((X (Proc.devRef .tc main_v563) : Vec Ideal S2x100000 .f32) (ix2 b n)) k
  k65 : Y (Proc.devRef .tc main_v583) = X (Proc.devRef .tc main_v583)
  k85 : Y (Proc.devRef .tc main_v603) = X (Proc.devRef .tc main_v603)
  k105 : Y (Proc.devRef .tc main_v623) = X (Proc.devRef .tc main_v623)
  k125 : Y (Proc.devRef .tc main_v643) = X (Proc.devRef .tc main_v643)
  k145 : Y (Proc.devRef .tc main_v663) = X (Proc.devRef .tc main_v663)
  k165 : Y (Proc.devRef .tc main_v683) = X (Proc.devRef .tc main_v683)
  k185 : Y (Proc.devRef .tc main_v703) = X (Proc.devRef .tc main_v703)
  k205 : Y (Proc.devRef .tc main_v723) = X (Proc.devRef .tc main_v723)
  k30 : Y (Proc.devRef .tc main_v548) = X (Proc.devRef .tc main_v548)
  k33 : Y (Proc.devRef .tc main_v551) = X (Proc.devRef .tc main_v551)
  k36 : Y (Proc.devRef .tc main_v554) = X (Proc.devRef .tc main_v554)
  k39 : Y (Proc.devRef .tc main_v557) = X (Proc.devRef .tc main_v557)
  k42 : Y (Proc.devRef .tc main_v560) = X (Proc.devRef .tc main_v560)
  k45 : Y (Proc.devRef .tc main_v563) = X (Proc.devRef .tc main_v563)

theorem lv2_tail_facts (X : Valuation τ sig (Elt Ideal)) : Lv2Tail X (StableHlo.after lv2_tail X) where
  q0 := fun b n ch => (congrFun (lv2_q0_eq X) _).trans ((lv2_pad_apply _ _ _ _ b n ch).trans (lv2_flat_apply _ _ b n ch))
  q1 := fun b n ch => (congrFun (lv2_q1_eq X) _).trans ((lv2_pad_apply _ _ _ _ b n ch).trans (lv2_flat_apply _ _ b n ch))
  q2 := fun b n ch => (congrFun (lv2_q2_eq X) _).trans ((lv2_pad_apply _ _ _ _ b n ch).trans (lv2_flat_apply _ _ b n ch))
  q3 := fun b n ch => (congrFun (lv2_q3_eq X) _).trans ((lv2_pad_apply _ _ _ _ b n ch).trans (lv2_flat_apply _ _ b n ch))
  q4 := fun b n ch => (congrFun (lv2_q4_eq X) _).trans ((lv2_pad_apply _ _ _ _ b n ch).trans (lv2_flat_apply _ _ b n ch))
  q5 := fun b n ch => (congrFun (lv2_q5_eq X) _).trans ((lv2_pad_apply _ _ _ _ b n ch).trans (lv2_flat_apply _ _ b n ch))
  q6 := fun b n ch => (congrFun (lv2_q6_eq X) _).trans ((lv2_pad_apply _ _ _ _ b n ch).trans (lv2_flat_apply _ _ b n ch))
  q7 := fun b n ch => (congrFun (lv2_q7_eq X) _).trans ((lv2_pad_apply _ _ _ _ b n ch).trans (lv2_flat_apply _ _ b n ch))
  wt := fun b n k => (congrFun (lv2_wt_eq X) _).trans ((lv2_wtab_apply _ _ _ _ _ _ _ _ _ _ _ _ _ _ b n k).trans rfl)
  k65 := lv2_keep65 X
  k85 := lv2_keep85 X
  k105 := lv2_keep105 X
  k125 := lv2_keep125 X
  k145 := lv2_keep145 X
  k165 := lv2_keep165 X
  k185 := lv2_keep185 X
  k205 := lv2_keep205 X
  k30 := lv2_keep30 X
  k33 := lv2_keep33 X
  k36 := lv2_keep36 X
  k39 := lv2_keep39 X
  k42 := lv2_keep42 X
  k45 := lv2_keep45 X

end Cert.KernelIdeal.Hand

end
-- ==== Proof.Val.KHostOut2.lean ====
/-
  Level 2 of the feature pyramid: the host operations after the pipelined call begin by dropping the 704
  padding rows of the call's output array and unflattening its 200000 rows to `[2, 100000, 128]`; no later
  operation of that stretch writes the unflattened array, which is level 2's part of the result.
-/
import proofs.«171014_j76854144795318_1_alg».proof.Proof.KI.Fold
import Idealize.ShloMosaic.Lib.ValueIdx
import Idealize.ShloMosaic.Lib.StableHlo.Run
import Idealize.ShloMosaic.Lib.Pipeline.Regions

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

variable (m : (ℓ : Loc nD τ sig) → Buf (Elt Ideal) ℓ) (ρ : Dev nD → PrngReg)

/-- Level 2's part of the result is the call's output array, its padding rows dropped, unflattened. -/
theorem lv2_out_eq (c : Dev nD) :
    W7 m ρ c (Proc.devRef .tc main_v776)
      = shapeCast S2x100000x128 (extractStridedSlice S200000x128 ![0, 0] (W6 m ρ c (Proc.devRef .tc main_v774) : Vec Ideal S200704x128 .f32)
          slices_S200704x128_S200000x128_0_0) shapeCasts_S200000x128_S2x100000x128 := by
  chain_rfl

end Cert.KernelIdeal.Hand

end
-- ==== Proof.Val.KHost2.lean ====
/-
  Level 2 of the feature pyramid, outside its pipelined call.

  Before the call the host gathers, for each of the 2 × 100000 query points, the eight corners of the cell
  around it (eight arrays `[2, 100000, 128]`) and the six fractional weights (six arrays `[2, 100000]`), forms
  the eight corner weights as products of three of the six, and lays everything out for the call: each
  gathered array is flattened to `[200000, 128]` (row `b · 100000 + n` is point `(b, n)`: row-major order) and
  padded with 704 rows at the end; the eight corner weights are flattened, stood up as columns, laid side by
  side as `[200000, 8]` and padded likewise. The call writes, row by row, the eight operands times the eight
  columns, added from left to right. After the call the host drops the padding rows and unflattens:
  that array is level 2's part of the result. Read at a point `(b, n)` and a channel, the padding rows are
  never met, and the result is the eight gathered corners against the eight products of weights.
-/
import proofs.«171014_j76854144795318_1_alg».proof.Proof.KI.Fold
import proofs.«171014_j76854144795318_1_alg».proof.Proof.Val.Region2
import proofs.«171014_j76854144795318_1_alg».proof.Proof.Val.Spec
import proofs.«171014_j76854144795318_1_alg».proof.Proof.Val.KHostTail2
import proofs.«171014_j76854144795318_1_alg».proof.Proof.Val.KHostOut2
import Idealize.ShloMosaic.Lib.ValueIdx
import Idealize.ShloMosaic.Lib.Pipeline.Frame

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

/-! ## The level's host operations cut in two -/

theorem lv2_split : (pre2 : List (HloOp τ sig (Elt Ideal))) = lv2_head ++ lv2_tail :=
  lv2_list_split _ _ _ _ 250

variable (m : (ℓ : Loc nD τ sig) → Buf (Elt Ideal) ℓ) (ρ : Dev nD → PrngReg)

theorem lv2_W1_eq (c : Dev nD) : W5 m ρ c = StableHlo.after lv2_tail (StableHlo.after lv2_head (W4 m ρ c)) := by
  show StableHlo.after pre2 (W4 m ρ c) = _
  rw [← StableHlo.after_append]
  exact congrArg (fun l => StableHlo.after l (W4 m ρ c)) lv2_split

theorem lv2_tail_W1 (c : Dev nD) : Lv2Tail (StableHlo.after lv2_head (W4 m ρ c)) (W5 m ρ c) := by
  rw [lv2_W1_eq]; exact lv2_tail_facts _

/-! ## After the call: the padding rows dropped, the rows unflattened -/

/-- Level 2's part of the result at `(b, n, ch)` is the call's output array at row `b · 100000 + n`. -/
theorem lv2_out_apply (c : Dev nD) (b : Fin 2) (n : Fin 100000) (ch : Fin 128) :
    (W7 m ρ c (Proc.devRef .tc main_v776) : Vec Ideal S2x100000x128 .f32) (ix3 b n ch)
      = (W6 m ρ c (Proc.devRef .tc main_v774) : Vec Ideal S200704x128 .f32) (ix2 (lv2_padRow b n) ch) :=
  (congrFun (lv2_out_eq m ρ c) _).trans ((lv2_unflat_apply _ (by decide) b n ch).trans (lv2_slice_apply _ (by decide) b n ch))

/-! ## The level's slice of the result -/

/-- level 2's eight gathered corner arrays and six fractional-weight arrays, as the level's host operations leave them at region 2's entry
    (corner order: the kernel's — ceil/ceil/ceil, floor/ceil/ceil, ceil/floor/ceil, floor/floor/ceil, then the same four in the floor plane of z) -/
abbrev kq2_0 (c : Dev nD) : Vec Ideal S2x100000x128 .f32 := W5 m ρ c (Proc.devRef .tc main_v583)
abbrev kq2_1 (c : Dev nD) : Vec Ideal S2x100000x128 .f32 := W5 m ρ c (Proc.devRef .tc main_v603)
abbrev kq2_2 (c : Dev nD) : Vec Ideal S2x100000x128 .f32 := W5 m ρ c (Proc.devRef .tc main_v623)
abbrev kq2_3 (c : Dev nD) : Vec Ideal S2x100000x128 .f32 := W5 m ρ c (Proc.devRef .tc main_v643)
abbrev kq2_4 (c : Dev nD) : Vec Ideal S2x100000x128 .f32 := W5 m ρ c (Proc.devRef .tc main_v663)
abbrev kq2_5 (c : Dev nD) : Vec Ideal S2x100000x128 .f32 := W5 m ρ c (Proc.devRef .tc main_v683)
abbrev kq2_6 (c : Dev nD) : Vec Ideal S2x100000x128 .f32 := W5 m ρ c (Proc.devRef .tc main_v703)
abbrev kq2_7 (c : Dev nD) : Vec Ideal S2x100000x128 .f32 := W5 m ρ c (Proc.devRef .tc main_v723)
/-- x − ⌊x⌋ -/
abbrev kwx2 (c : Dev nD) : Vec Ideal S2x100000 .f32 := W5 m ρ c (Proc.devRef .tc main_v548)
/-- ⌈x⌉ − x -/
abbrev kwx22 (c : Dev nD) : Vec Ideal S2x100000 .f32 := W5 m ρ c (Proc.devRef .tc main_v551)
/-- y − ⌊y⌋ -/
abbrev kwy2 (c : Dev nD) : Vec Ideal S2x100000 .f32 := W5 m ρ c (Proc.devRef .tc main_v554)
/-- ⌈y⌉ − y -/
abbrev kwy22 (c : Dev nD) : Vec Ideal S2x100000 .f32 := W5 m ρ c (Proc.devRef .tc main_v557)
/-- z − ⌊z⌋ -/
abbrev kwz2 (c : Dev nD) : Vec Ideal S2x100000 .f32 := W5 m ρ c (Proc.devRef .tc main_v560)
/-- ⌈z⌉ − z -/
abbrev kwz22 (c : Dev nD) : Vec Ideal S2x100000 .f32 := W5 m ρ c (Proc.devRef .tc main_v563)

/-- level 2's slice of the result, (b, n, ch): the eight corners at (b, n, ch) against the eight products of three weights at (b, n) -/
theorem level2_out (c : Dev nD) (b : Fin 2) (n : Fin 100000) (ch : Fin 128) :
    (W7 m ρ c (Proc.devRef .tc main_v776) : Vec Ideal S2x100000x128 .f32) (ix3 b n ch)
      = Cert.Spec.comb8 ![kq2_0 m ρ c (ix3 b n ch), kq2_1 m ρ c (ix3 b n ch), kq2_2 m ρ c (ix3 b n ch), kq2_3 m ρ c (ix3 b n ch),
                          kq2_4 m ρ c (ix3 b n ch), kq2_5 m ρ c (ix3 b n ch), kq2_6 m ρ c (ix3 b n ch), kq2_7 m ρ c (ix3 b n ch)]
          (Cert.Spec.cornerWeights (kwx2 m ρ c (ix2 b n)) (kwx22 m ρ c (ix2 b n)) (kwy2 m ρ c (ix2 b n)) (kwy22 m ρ c (ix2 b n)) (kwz2 m ρ c (ix2 b n)) (kwz22 m ρ c (ix2 b n))) := by
  have T := lv2_tail_W1 m ρ c
  have hq0 : (V5 m ρ c main_v765 : Vec Ideal S200704x128 .f32) (ix2 (lv2_padRow b n) ch) = kq2_0 m ρ c (ix3 b n ch) :=
    (T.q0 b n ch).trans (congrFun T.k65 _).symm
  have hq1 : (V5 m ρ c main_v766 : Vec Ideal S200704x128 .f32) (ix2 (lv2_padRow b n) ch) = kq2_1 m ρ c (ix3 b n ch) :=
    (T.q1 b n ch).trans (congrFun T.k85 _).symm
  have hq2 : (V5 m ρ c main_v767 : Vec Ideal S200704x128 .f32) (ix2 (lv2_padRow b n) ch) = kq2_2 m ρ c (ix3 b n ch) :=
    (T.q2 b n ch).trans (congrFun T.k105 _).symm
  have hq3 : (V5 m ρ c main_v768 : Vec Ideal S200704x128 .f32) (ix2 (lv2_padRow b n) ch) = kq2_3 m ρ c (ix3 b n ch) :=
    (T.q3 b n ch).trans (congrFun T.k125 _).symm
  have hq4 : (V5 m ρ c main_v769 : Vec Ideal S200704x128 .f32) (ix2 (lv2_padRow b n) ch) = kq2_4 m ρ c (ix3 b n ch) :=
    (T.q4 b n ch).trans (congrFun T.k145 _).symm
  have hq5 : (V5 m ρ c main_v770 : Vec Ideal S200704x128 .f32) (ix2 (lv2_padRow b n) ch) = kq2_5 m ρ c (ix3 b n ch) :=
    (T.q5 b n ch).trans (congrFun T.k165 _).symm
  have hq6 : (V5 m ρ c main_v771 : Vec Ideal S200704x128 .f32) (ix2 (lv2_padRow b n) ch) = kq2_6 m ρ c (ix3 b n ch) :=
    (T.q6 b n ch).trans (congrFun T.k185 _).symm
  have hq7 : (V5 m ρ c main_v772 : Vec Ideal S200704x128 .f32) (ix2 (lv2_padRow b n) ch) = kq2_7 m ρ c (ix3 b n ch) :=
    (T.q7 b n ch).trans (congrFun T.k205 _).symm
  have hw : (fun k => (V5 m ρ c main_v773 : Vec Ideal S200704x8 .f32) (ix2 (lv2_padRow b n) k))
      = Cert.Spec.cornerWeights (kwx2 m ρ c (ix2 b n)) (kwx22 m ρ c (ix2 b n)) (kwy2 m ρ c (ix2 b n)) (kwy22 m ρ c (ix2 b n)) (kwz2 m ρ c (ix2 b n)) (kwz22 m ρ c (ix2 b n)) := by
    funext k
    refine (T.wt b n k).trans ?_
    rw [← T.k30, ← T.k33, ← T.k36, ← T.k39, ← T.k42, ← T.k45]
  have harr : (W6 m ρ c (Proc.devRef .tc main_v774) : Vec Ideal S200704x128 .f32)
      = ((dat2 (F := Ideal) (V5 m ρ) c).arrAt 9 cfg2.N : Vec Ideal S200704x128 .f32) := W6_arr m ρ c 9
  rw [lv2_out_apply, harr, final2 (V5 m ρ) c (lv2_padRow b n) ch, hq0, hq1, hq2, hq3, hq4, hq5, hq6, hq7, hw]

end Cert.KernelIdeal.Hand

end
-- ==== Proof.Val.KTail.lean ====
/-
  The kernel program's result buffer read at one index, and the survival of the first two levels' results.

  The program ends by laying the three levels' results side by side along the channel axis: level 0's 32 channels,
  then level 1's 64, then level 2's 128. Level 0's result is formed by the first two host operations after region 0
  and level 1's by the first two after region 1; nothing later writes either buffer — not the host operations of the
  following levels, not a window array of a following region, not the closing operations — so each still holds at the
  end what it held when it was formed. Channel `j` of the result is therefore channel `j` of level 0's result as it
  stood at region 1's entry (`j < 32`), channel `j - 32` of level 1's as it stood at region 2's entry
  (`32 ≤ j < 96`), or channel `j - 96` of level 2's result (`96 ≤ j`).
-/
import proofs.«171014_j76854144795318_1_alg».proof.Proof.KI.Fold
import proofs.«171014_j76854144795318_1_alg».proof.Proof.Val.Concat3
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe
open Idealize.SL Idealize.SL.Sem
open Cert.KernelIdeal Cert.KernelIdeal.Gen Idealize.ShloMosaic.ValueIdx

/-! ## An operation writes its result buffer only

Each host operation writes exactly one buffer, its result. A buffer whose reference differs from the result's is
therefore not among the buffers the operation writes. -/

section NotWritten

variable {Val : EltTy → Type} {r x a b c y : Ref sig .tc}

private theorem nw_nullary (v : y.ty.Contents Val) (hy) (h : r ≠ y) :
    Proc.devRef (τ := τ) .tc r ∉ (StableHlo.nullary (τ := τ) y v hy).writes := by
  rw [StableHlo.nullary_writes, Finset.mem_singleton]; exact StableHlo.devRef_ne_of_ne h
private theorem nw_unary (f : x.ty.Contents Val → y.ty.Contents Val) (hx hy) (h : r ≠ y) :
    Proc.devRef (τ := τ) .tc r ∉ (StableHlo.unary (τ := τ) x y f hx hy).writes := by
  rw [StableHlo.unary_writes, Finset.mem_singleton]; exact StableHlo.devRef_ne_of_ne h
private theorem nw_binary (f : a.ty.Contents Val → b.ty.Contents Val → y.ty.Contents Val) (ha hb hy) (h : r ≠ y) :
    Proc.devRef (τ := τ) .tc r ∉ (StableHlo.binary (τ := τ) a b y f ha hb hy).writes := by
  rw [StableHlo.binary_writes, Finset.mem_singleton]; exact StableHlo.devRef_ne_of_ne h
private theorem nw_ternary (f : c.ty.Contents Val → a.ty.Contents Val → b.ty.Contents Val → y.ty.Contents Val)
    (hc ha hb hy) (h : r ≠ y) :
    Proc.devRef (τ := τ) .tc r ∉ (StableHlo.ternary (τ := τ) c a b y f hc ha hb hy).writes := by
  rw [StableHlo.ternary_writes, Finset.mem_singleton]; exact StableHlo.devRef_ne_of_ne h
private theorem nw_reshape (he hn hx hy) (h : r ≠ y) :
    Proc.devRef (τ := τ) .tc r ∉ (StableHlo.reshape (τ := τ) (Val := Val) x y he hn hx hy).writes := by
  rw [StableHlo.reshape_writes, Finset.mem_singleton]; exact StableHlo.devRef_ne_of_ne h
private theorem nw_nary {n : Nat} (xs : Fin n → Ref sig .tc)
    (f : ((k : Fin n) → (xs k).ty.Contents Val) → y.ty.Contents Val) (hxs hy) (h : r ≠ y) :
    Proc.devRef (τ := τ) .tc r ∉ (StableHlo.nary (τ := τ) xs y f hxs hy).writes := by
  rw [StableHlo.nary_writes, Finset.mem_singleton]; exact StableHlo.devRef_ne_of_ne h

end NotWritten

/-- "No operation of this literal list writes the buffer": one conjunct per operation, each closed by the fact above
    for the operation's kind and the inequality of the two references. -/
local macro "no_write" : tactic =>
  `(tactic| (repeat' apply And.intro
             all_goals first
               | exact nw_unary _ _ _ (by decide)
               | exact nw_binary _ _ _ _ (by decide)
               | exact nw_nullary _ _ (by decide)
               | exact nw_reshape _ _ _ _ (by decide)
               | exact nw_ternary _ _ _ _ _ (by decide)
               | exact nw_nary _ _ _ _ (by decide)))

/-! ## The closing operations

The three closing operations form level 2's result (a slice, then a reshape) and the concatenation. -/

/-- The closing operations write neither level 0's result … -/
private theorem closing_v258 (X : Valuation τ sig (Elt Ideal)) :
    StableHlo.after hostOps3 X (Proc.devRef .tc main_v258) = X (Proc.devRef .tc main_v258) :=
  StableHlo.after_of_forall_not_mem (b := Proc.devRef .tc main_v258) hostOps3 X
    (List.forall_iff_forall_mem.mp (by no_write))

/-- … nor level 1's. -/
private theorem closing_v517 (X : Valuation τ sig (Elt Ideal)) :
    StableHlo.after hostOps3 X (Proc.devRef .tc main_v517) = X (Proc.devRef .tc main_v517) :=
  StableHlo.after_of_forall_not_mem (b := Proc.devRef .tc main_v517) hostOps3 X
    (List.forall_iff_forall_mem.mp (by no_write))

/-- The result buffer after the closing operations: the concatenation of level 0's and level 1's results as they
    stood before them and of level 2's result as the closing operations form it. -/
private theorem closing_v777 (X : Valuation τ sig (Elt Ideal)) :
    (StableHlo.after hostOps3 X (Proc.devRef .tc main_v777) : Vec Ideal S2x100000x224 .f32)
      = concatenate S2x100000x224 2
          [⟨S2x100000x32, X (Proc.devRef .tc main_v258)⟩, ⟨S2x100000x64, X (Proc.devRef .tc main_v517)⟩,
            ⟨S2x100000x128, StableHlo.after hostOps3 X (Proc.devRef .tc main_v776)⟩]
          concatenates_S2x100000x32_S2x100000x64_S2x100000x128_S2x100000x224_d2 := by
  simp only [hostOps3, StableHlo.after_cons, StableHlo.after_nil]
  -- `Y`: the buffers after the slice and the reshape; these two leave level 0's and level 1's results alone
  generalize hY : (StableHlo.reshape main_v775 main_v776 _ _ _ _).result _ = Y
  have e1 : Y (Proc.devRef .tc main_v258) = X (Proc.devRef .tc main_v258) := by
    rw [← hY, StableHlo.reshape_result_ne, StableHlo.unary_result_ne] <;> decide
  have e2 : Y (Proc.devRef .tc main_v517) = X (Proc.devRef .tc main_v517) := by
    rw [← hY, StableHlo.reshape_result_ne, StableHlo.unary_result_ne] <;> decide
  -- the concatenation writes the result buffer and leaves level 2's
  rw [StableHlo.nary_result, StableHlo.nary_result_ne]
  · show concatenate S2x100000x224 2
        [⟨S2x100000x32, Y (Proc.devRef .tc main_v258)⟩, ⟨S2x100000x64, Y (Proc.devRef .tc main_v517)⟩,
          ⟨S2x100000x128, Y (Proc.devRef .tc main_v776)⟩] _ = _
    rw [e1, e2]
  · decide

/-- The result buffer after the closing operations, read at `(b, n, j)`. -/
private theorem closing_v777_apply (X : Valuation τ sig (Elt Ideal)) (b : Fin 2) (n : Fin 100000) (j : Fin 224) :
    (StableHlo.after hostOps3 X (Proc.devRef .tc main_v777) : Vec Ideal S2x100000x224 .f32) (ix3 b n j)
      = if h0 : j.val < 32 then (X (Proc.devRef .tc main_v258) : Vec Ideal S2x100000x32 .f32) (ix3 b n ⟨j.val, h0⟩)
        else if h1 : j.val < 96 then
          (X (Proc.devRef .tc main_v517) : Vec Ideal S2x100000x64 .f32) (ix3 b n ⟨j.val - 32, by omega⟩)
        else (StableHlo.after hostOps3 X (Proc.devRef .tc main_v776) : Vec Ideal S2x100000x128 .f32)
          (ix3 b n ⟨j.val - 96, by omega⟩) := by
  rw [closing_v777 X]
  exact Cert.Spec.concat3_apply _ _ _ _ b n j

/-! ## Level 2's host operations do not write level 0's result

Level 2's host operations are twenty consecutive stretches; none of their operations has level 0's result as its
result buffer. -/

private theorem nw2_0 : (hostOps2 : List (HloOp τ sig (Elt Ideal))).Forall fun op => Proc.devRef .tc main_v258 ∉ op.writes := by
  no_write
private theorem nw2_1 : (hostOps2_1 : List (HloOp τ sig (Elt Ideal))).Forall fun op => Proc.devRef .tc main_v258 ∉ op.writes := by
  no_write
set_option maxHeartbeats 4000000 in
private theorem nw2_2 : (hostOps2_2 : List (HloOp τ sig (Elt Ideal))).Forall fun op => Proc.devRef .tc main_v258 ∉ op.writes := by
  no_write
private theorem nw2_3 : (hostOps2_3 : List (HloOp τ sig (Elt Ideal))).Forall fun op => Proc.devRef .tc main_v258 ∉ op.writes := by
  no_write
private theorem nw2_4 : (hostOps2_4 : List (HloOp τ sig (Elt Ideal))).Forall fun op => Proc.devRef .tc main_v258 ∉ op.writes := by
  no_write
private theorem nw2_5 : (hostOps2_5 : List (HloOp τ sig (Elt Ideal))).Forall fun op => Proc.devRef .tc main_v258 ∉ op.writes := by
  no_write
private theorem nw2_6 : (hostOps2_6 : List (HloOp τ sig (Elt Ideal))).Forall fun op => Proc.devRef .tc main_v258 ∉ op.writes := by
  no_write
private theorem nw2_7 : (hostOps2_7 : List (HloOp τ sig (Elt Ideal))).Forall fun op => Proc.devRef .tc main_v258 ∉ op.writes := by
  no_write
private theorem nw2_8 : (hostOps2_8 : List (HloOp τ sig (Elt Ideal))).Forall fun op => Proc.devRef .tc main_v258 ∉ op.writes := by
  no_write
private theorem nw2_9 : (hostOps2_9 : List (HloOp τ sig (Elt Ideal))).Forall fun op => Proc.devRef .tc main_v258 ∉ op.writes := by
  no_write
private theorem nw2_10 : (hostOps2_10 : List (HloOp τ sig (Elt Ideal))).Forall fun op => Proc.devRef .tc main_v258 ∉ op.writes := by
  no_write
private theorem nw2_11 : (hostOps2_11 : List (HloOp τ sig (Elt Ideal))).Forall fun op => Proc.devRef .tc main_v258 ∉ op.writes := by
  no_write
private theorem nw2_12 : (hostOps2_12 : List (HloOp τ sig (Elt Ideal))).Forall fun op => Proc.devRef .tc main_v258 ∉ op.writes := by
  no_write
private theorem nw2_13 : (hostOps2_13 : List (HloOp τ sig (Elt Ideal))).Forall fun op => Proc.devRef .tc main_v258 ∉ op.writes := by
  no_write
private theorem nw2_14 : (hostOps2_14 : List (HloOp τ sig (Elt Ideal))).Forall fun op => Proc.devRef .tc main_v258 ∉ op.writes := by
  no_write
private theorem nw2_15 : (hostOps2_15 : List (HloOp τ sig (Elt Ideal))).Forall fun op => Proc.devRef .tc main_v258 ∉ op.writes := by
  no_write
private theorem nw2_16 : (hostOps2_16 : List (HloOp τ sig (Elt Ideal))).Forall fun op => Proc.devRef .tc main_v258 ∉ op.writes := by
  no_write
private theorem nw2_17 : (hostOps2_17 : List (HloOp τ sig (Elt Ideal))).Forall fun op => Proc.devRef .tc main_v258 ∉ op.writes := by
  no_write
private theorem nw2_18 : (hostOps2_18 : List (HloOp τ sig (Elt Ideal))).Forall fun op => Proc.devRef .tc main_v258 ∉ op.writes := by
  no_write
private theorem nw2_19 : (hostOps2_19 : List (HloOp τ sig (Elt Ideal))).Forall fun op => Proc.devRef .tc main_v258 ∉ op.writes := by
  no_write

/-- Level 0's result is the same before and after level 2's host operations. -/
private theorem pre2_v258 (V : Valuation τ sig (Elt Ideal)) :
    StableHlo.after pre2 V (Proc.devRef .tc main_v258) = V (Proc.devRef .tc main_v258) :=
  have fm := fun {l : List (HloOp τ sig (Elt Ideal))}
      (h : l.Forall fun op => Proc.devRef .tc main_v258 ∉ op.writes) => List.forall_iff_forall_mem.mp h
  StableHlo.after_of_forall_not_mem (b := Proc.devRef .tc main_v258) pre2 V
    (List.forall_mem_append.mpr ⟨fm nw2_0,
      List.forall_mem_append.mpr ⟨fm nw2_1,
      List.forall_mem_append.mpr ⟨fm nw2_2,
      List.forall_mem_append.mpr ⟨fm nw2_3,
      List.forall_mem_append.mpr ⟨fm nw2_4,
      List.forall_mem_append.mpr ⟨fm nw2_5,
      List.forall_mem_append.mpr ⟨fm nw2_6,
      List.forall_mem_append.mpr ⟨fm nw2_7,
      List.forall_mem_append.mpr ⟨fm nw2_8,
      List.forall_mem_append.mpr ⟨fm nw2_9,
      List.forall_mem_append.mpr ⟨fm nw2_10,
      List.forall_mem_append.mpr ⟨fm nw2_11,
      List.forall_mem_append.mpr ⟨fm nw2_12,
      List.forall_mem_append.mpr ⟨fm nw2_13,
      List.forall_mem_append.mpr ⟨fm nw2_14,
      List.forall_mem_append.mpr ⟨fm nw2_15,
      List.forall_mem_append.mpr ⟨fm nw2_16,
      List.forall_mem_append.mpr ⟨fm nw2_17,
      List.forall_mem_append.mpr ⟨fm nw2_18,
      fm nw2_19⟩⟩⟩⟩⟩⟩⟩⟩⟩⟩⟩⟩⟩⟩⟩⟩⟩⟩⟩)

/-! ## The two survivals and the result at an index -/

variable (m : (ℓ : Loc nD τ sig) → Buf (Elt Ideal) ℓ) (ρ : Dev nD → PrngReg)

/-- Level 0's result at region 2's exit is what it was at region 1's entry: region 2's window arrays, level 2's host
    operations and region 1's window arrays all leave it. -/
private theorem w6_v258 (c : Dev nD) :
    W6 m ρ c (Proc.devRef .tc main_v258) = W3 m ρ c (Proc.devRef .tc main_v258) :=
  calc W6 m ρ c (Proc.devRef .tc main_v258)
    _ = W5 m ρ c (Proc.devRef .tc main_v258) := W6_of_ne m ρ c main_v258 (by decide)
    _ = W4 m ρ c (Proc.devRef .tc main_v258) := pre2_v258 (W4 m ρ c)
    _ = W3 m ρ c (Proc.devRef .tc main_v258) := W4_of_ne m ρ c main_v258 (by decide)

/-- Level 1's result at region 2's exit is what it was at region 2's entry: region 2's window arrays leave it. -/
private theorem w6_v517 (c : Dev nD) :
    W6 m ρ c (Proc.devRef .tc main_v517) = W5 m ρ c (Proc.devRef .tc main_v517) :=
  W6_of_ne m ρ c main_v517 (by decide)

/-- Level 0's result at the end is what it was at region 1's entry: the closing operations leave it too. -/
theorem keep_v258 (c : Dev nD) :
    W7 m ρ c (Proc.devRef .tc main_v258) = W3 m ρ c (Proc.devRef .tc main_v258) :=
  (closing_v258 (W6 m ρ c)).trans (w6_v258 m ρ c)

/-- Level 1's result at the end is what it was at region 2's entry: the closing operations leave it too. -/
theorem keep_v517 (c : Dev nD) :
    W7 m ρ c (Proc.devRef .tc main_v517) = W5 m ρ c (Proc.devRef .tc main_v517) :=
  (closing_v517 (W6 m ρ c)).trans (w6_v517 m ρ c)

/-- channel j of the result is channel j of level 0 (j < 32), channel j - 32 of level 1 (32 ≤ j < 96) or channel j - 96 of level 2 -/
theorem kernel_result (c : Dev nD) (b : Fin 2) (n : Fin 100000) (j : Fin 224) :
    (W7 m ρ c (Proc.devRef .tc main_v777) : Vec Ideal S2x100000x224 .f32) (ix3 b n j)
      = if h0 : j.val < 32 then (W3 m ρ c (Proc.devRef .tc main_v258) : Vec Ideal S2x100000x32 .f32) (ix3 b n ⟨j.val, h0⟩)
        else if h1 : j.val < 96 then (W5 m ρ c (Proc.devRef .tc main_v517) : Vec Ideal S2x100000x64 .f32) (ix3 b n ⟨j.val - 32, by omega⟩)
        else (W7 m ρ c (Proc.devRef .tc main_v776) : Vec Ideal S2x100000x128 .f32) (ix3 b n ⟨j.val - 96, by omega⟩) := by
  refine (closing_v777_apply (W6 m ρ c) b n j).trans ?_
  by_cases h0 : j.val < 32
  · rw [dif_pos h0, dif_pos h0, w6_v258 m ρ c]
  · rw [dif_neg h0, dif_neg h0]
    by_cases h1 : j.val < 96
    · rw [dif_pos h1, dif_pos h1, w6_v517 m ρ c]
    · rw [dif_neg h1, dif_neg h1]

end Cert.KernelIdeal.Hand

end
-- ==== Proof.Val.LeafLines.lean ====
/-
  What a pyramid level's line of host operations finds, in the contents it starts from, where it reads a buffer it
  has not written itself.

  Each level's host operations are printed as twenty consecutive stretches; `pre0`, `pre1`, `pre2` are their
  concatenations. A level's line reads, besides what it computes itself, two of @main's arguments (the level's
  feature array and the sample coordinates) and the level's grid size, a constant of three equal entries. The three
  grid-size constants are written once, by the first three operations of level 0's line. Level 0's line therefore
  finds its own; levels 1 and 2 find theirs in the contents their line starts from, which no operation after level 0's
  first three writes and no pipelined call has a window over: the buffer still holds the constant. That a line leaves
  a buffer at a given value, or as it found it, is read off the line by computation: at each operation, whether the
  buffer is the one it writes.
-/
import proofs.«171014_j76854144795318_1_alg».proof.Proof.KI.Fold
import proofs.«171014_j76854144795318_1_alg».proof.Proof.KI.Host
import proofs.«171014_j76854144795318_1_alg».proof.Proof.KI.Args
import Idealize.ShloMosaic.Lib.Pipeline.Regions

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-- At launch an argument's buffer holds the launch contents. -/
theorem W0_arg (c : Dev nD) {r : Ref sig .tc} (hr : r ∈ argRefs) :
    W0 m ρ c (Proc.devRef .tc r) = m ((c.tc : Thread nD τ).loc r) := rfl

/-! ## The grid sizes of levels 1 and 2 at their lines' entries -/

set_option maxHeartbeats 4000000 in
/-- Level 0's line leaves level 1's grid size, 32 on each axis, in its buffer: its second operation writes it and no
    later one does. -/
theorem W1_scale1 (c : Dev nD) :
    W1 m ρ c (Proc.devRef .tc main_cst_0) = (constant S3 .f32 0x42000000#32 : (⟨S3, .f32⟩ : BufTy).Contents (Elt F)) := by
  show StableHlo.after pre0 (W0 m ρ c) (Proc.devRef .tc main_cst_0) = _
  generalize W0 m ρ c = V
  chain_rfl

set_option maxHeartbeats 4000000 in
/-- And level 2's, 16 on each axis: its third operation writes it. -/
theorem W1_scale2 (c : Dev nD) :
    W1 m ρ c (Proc.devRef .tc main_cst_1) = (constant S3 .f32 0x41800000#32 : (⟨S3, .f32⟩ : BufTy).Contents (Elt F)) := by
  show StableHlo.after pre0 (W0 m ρ c) (Proc.devRef .tc main_cst_1) = _
  generalize W0 m ρ c = V
  chain_rfl

/-- The first call has no window over either constant's buffer: at its exit both hold what they held at its entry. -/
theorem entry1_scale (c : Dev nD) :
    W2 m ρ c (Proc.devRef .tc main_cst_0) = (constant S3 .f32 0x42000000#32 : (⟨S3, .f32⟩ : BufTy).Contents (Elt F)) :=
  (W2_of_ne m ρ c main_cst_0 (by decide)).trans (W1_scale1 m ρ c)
theorem W2_scale2 (c : Dev nD) :
    W2 m ρ c (Proc.devRef .tc main_cst_1) = (constant S3 .f32 0x41800000#32 : (⟨S3, .f32⟩ : BufTy).Contents (Elt F)) :=
  (W2_of_ne m ρ c main_cst_1 (by decide)).trans (W1_scale2 m ρ c)

set_option maxHeartbeats 4000000 in
/-- No operation of level 1's line writes level 2's grid size. -/
theorem W3_scale2 (c : Dev nD) :
    W3 m ρ c (Proc.devRef .tc main_cst_1) = (constant S3 .f32 0x41800000#32 : (⟨S3, .f32⟩ : BufTy).Contents (Elt F)) := by
  refine Eq.trans ?_ (W2_scale2 m ρ c)
  show StableHlo.after pre1 (W2 m ρ c) (Proc.devRef .tc main_cst_1) = W2 m ρ c (Proc.devRef .tc main_cst_1)
  generalize W2 m ρ c = V
  chain_rfl

/-- Nor has the second call a window over it. -/
theorem entry2_scale (c : Dev nD) :
    W4 m ρ c (Proc.devRef .tc main_cst_1) = (constant S3 .f32 0x41800000#32 : (⟨S3, .f32⟩ : BufTy).Contents (Elt F)) :=
  (W4_of_ne m ρ c main_cst_1 (by decide)).trans (W3_scale2 m ρ c)

/-! ## Setting the grid size's buffer to what it already holds changes nothing -/

/-- At level 1's entry. -/
theorem entry1_update (c : Dev nD) :
    Function.update (W2 m ρ c) (Proc.devRef .tc main_cst_0) (constant S3 .f32 0x42000000#32 : (⟨S3, .f32⟩ : BufTy).Contents (Elt F)) = W2 m ρ c := by
  rw [← entry1_scale m ρ c]; exact Function.update_eq_self _ _
/-- At level 2's entry. -/
theorem entry2_update (c : Dev nD) :
    Function.update (W4 m ρ c) (Proc.devRef .tc main_cst_1) (constant S3 .f32 0x41800000#32 : (⟨S3, .f32⟩ : BufTy).Contents (Elt F)) = W4 m ρ c := by
  rw [← entry2_scale m ρ c]; exact Function.update_eq_self _ _

end Cert.KernelIdeal.Hand

end
-- ==== Proof.Val.Leaves0.lean ====
/-
  The leaves agree, pyramid level 0.

  Before the level's pipelined call the program computes, by host operations, eight gathered corner arrays and six
  fractional-weight arrays from two of @main's arguments: the level's feature array and the sample coordinates. The
  coordinates are scaled by the level's grid size and clipped; each axis is sliced out, and its floor and its ceiling
  are taken, converted to integers, and a negative index is wrapped by adding the grid size; one index triple per
  corner — a floor or a ceiling on each of the three axes — is joined along a new last axis and the feature array is
  gathered at it. A weight is a clipped coordinate minus its floor, or its ceiling minus the clipped coordinate.

  The reference function computes the same fourteen arrays by the same operations in the same order of composition;
  only the order in which the eight corners are taken differs (the program starts from the all-ceiling corner and ends
  at the all-floor one, the reference runs through the floor plane of the last axis first). So each array the
  program's host operations leave in its buffer is, as a function of the two arguments, the reference's value of the
  matching stage: reading the buffer back through the line of operations — at each operation, whether the buffer read
  is the one it writes — gives a tree of array operations over the two arguments, and the reference's stage unfolds to
  the same tree. Both sides are terms over the contents the line starts from, and the equation holds by computation.
-/
import proofs.«171014_j76854144795318_1_alg».proof.Proof.Val.RefGen
import proofs.«171014_j76854144795318_1_alg».proof.Proof.Val.LeafLines
import Idealize.ShloMosaic.Lib.Pipeline.Regions
import Idealize.ShloMosaic.PureOps.Ideal

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-! ## The eight corners

Corner `k` of the program against the reference's stage with the same floor-or-ceiling choice on each axis: first from
any contents the line may start from, then from the launch contents, where the two arguments' buffers hold the
arguments. -/

/-- The corner (ceil x, ceil y, ceil z). -/
theorem leaf0_q0_at (V : Valuation τ sig (Elt Ideal)) :
    StableHlo.after pre0 V (Proc.devRef .tc main_v65)
      = Cert.ReferenceIdeal.Read.val_main_v226 (F := Ideal) (V (Proc.devRef .tc main_arg1)) (V (Proc.devRef .tc main_arg5)) := by
  chain_rfl
theorem leaf0_q0 (c : Dev nD) :
    W1 m ρ c (Proc.devRef .tc main_v65) = Cert.ReferenceIdeal.Read.val_main_v226 (F := Ideal) (m ((c.tc : Thread nD τ).loc main_arg1)) (m ((c.tc : Thread nD τ).loc main_arg5)) := by
  rw [← W0_arg m ρ c (r := main_arg1) (by decide), ← W0_arg m ρ c (r := main_arg5) (by decide)]
  exact leaf0_q0_at (W0 m ρ c)

/-- The corner (floor x, ceil y, ceil z). -/
theorem leaf0_q1_at (V : Valuation τ sig (Elt Ideal)) :
    StableHlo.after pre0 V (Proc.devRef .tc main_v85)
      = Cert.ReferenceIdeal.Read.val_main_v206 (F := Ideal) (V (Proc.devRef .tc main_arg1)) (V (Proc.devRef .tc main_arg5)) := by
  chain_rfl
theorem leaf0_q1 (c : Dev nD) :
    W1 m ρ c (Proc.devRef .tc main_v85) = Cert.ReferenceIdeal.Read.val_main_v206 (F := Ideal) (m ((c.tc : Thread nD τ).loc main_arg1)) (m ((c.tc : Thread nD τ).loc main_arg5)) := by
  rw [← W0_arg m ρ c (r := main_arg1) (by decide), ← W0_arg m ρ c (r := main_arg5) (by decide)]
  exact leaf0_q1_at (W0 m ρ c)

/-- The corner (ceil x, floor y, ceil z). -/
theorem leaf0_q2_at (V : Valuation τ sig (Elt Ideal)) :
    StableHlo.after pre0 V (Proc.devRef .tc main_v105)
      = Cert.ReferenceIdeal.Read.val_main_v186 (F := Ideal) (V (Proc.devRef .tc main_arg1)) (V (Proc.devRef .tc main_arg5)) := by
  chain_rfl
theorem leaf0_q2 (c : Dev nD) :
    W1 m ρ c (Proc.devRef .tc main_v105) = Cert.ReferenceIdeal.Read.val_main_v186 (F := Ideal) (m ((c.tc : Thread nD τ).loc main_arg1)) (m ((c.tc : Thread nD τ).loc main_arg5)) := by
  rw [← W0_arg m ρ c (r := main_arg1) (by decide), ← W0_arg m ρ c (r := main_arg5) (by decide)]
  exact leaf0_q2_at (W0 m ρ c)

/-- The corner (floor x, floor y, ceil z). -/
theorem leaf0_q3_at (V : Valuation τ sig (Elt Ideal)) :
    StableHlo.after pre0 V (Proc.devRef .tc main_v125)
      = Cert.ReferenceIdeal.Read.val_main_v166 (F := Ideal) (V (Proc.devRef .tc main_arg1)) (V (Proc.devRef .tc main_arg5)) := by
  chain_rfl
theorem leaf0_q3 (c : Dev nD) :
    W1 m ρ c (Proc.devRef .tc main_v125) = Cert.ReferenceIdeal.Read.val_main_v166 (F := Ideal) (m ((c.tc : Thread nD τ).loc main_arg1)) (m ((c.tc : Thread nD τ).loc main_arg5)) := by
  rw [← W0_arg m ρ c (r := main_arg1) (by decide), ← W0_arg m ρ c (r := main_arg5) (by decide)]
  exact leaf0_q3_at (W0 m ρ c)

/-- The corner (ceil x, ceil y, floor z). -/
theorem leaf0_q4_at (V : Valuation τ sig (Elt Ideal)) :
    StableHlo.after pre0 V (Proc.devRef .tc main_v145)
      = Cert.ReferenceIdeal.Read.val_main_v131 (F := Ideal) (V (Proc.devRef .tc main_arg1)) (V (Proc.devRef .tc main_arg5)) := by
  chain_rfl
theorem leaf0_q4 (c : Dev nD) :
    W1 m ρ c (Proc.devRef .tc main_v145) = Cert.ReferenceIdeal.Read.val_main_v131 (F := Ideal) (m ((c.tc : Thread nD τ).loc main_arg1)) (m ((c.tc : Thread nD τ).loc main_arg5)) := by
  rw [← W0_arg m ρ c (r := main_arg1) (by decide), ← W0_arg m ρ c (r := main_arg5) (by decide)]
  exact leaf0_q4_at (W0 m ρ c)

/-- The corner (floor x, ceil y, floor z). -/
theorem leaf0_q5_at (V : Valuation τ sig (Elt Ideal)) :
    StableHlo.after pre0 V (Proc.devRef .tc main_v165)
      = Cert.ReferenceIdeal.Read.val_main_v111 (F := Ideal) (V (Proc.devRef .tc main_arg1)) (V (Proc.devRef .tc main_arg5)) := by
  chain_rfl
theorem leaf0_q5 (c : Dev nD) :
    W1 m ρ c (Proc.devRef .tc main_v165) = Cert.ReferenceIdeal.Read.val_main_v111 (F := Ideal) (m ((c.tc : Thread nD τ).loc main_arg1)) (m ((c.tc : Thread nD τ).loc main_arg5)) := by
  rw [← W0_arg m ρ c (r := main_arg1) (by decide), ← W0_arg m ρ c (r := main_arg5) (by decide)]
  exact leaf0_q5_at (W0 m ρ c)

/-- The corner (ceil x, floor y, floor z). -/
theorem leaf0_q6_at (V : Valuation τ sig (Elt Ideal)) :
    StableHlo.after pre0 V (Proc.devRef .tc main_v185)
      = Cert.ReferenceIdeal.Read.val_main_v91 (F := Ideal) (V (Proc.devRef .tc main_arg1)) (V (Proc.devRef .tc main_arg5)) := by
  chain_rfl
theorem leaf0_q6 (c : Dev nD) :
    W1 m ρ c (Proc.devRef .tc main_v185) = Cert.ReferenceIdeal.Read.val_main_v91 (F := Ideal) (m ((c.tc : Thread nD τ).loc main_arg1)) (m ((c.tc : Thread nD τ).loc main_arg5)) := by
  rw [← W0_arg m ρ c (r := main_arg1) (by decide), ← W0_arg m ρ c (r := main_arg5) (by decide)]
  exact leaf0_q6_at (W0 m ρ c)

/-- The corner (floor x, floor y, floor z). -/
theorem leaf0_q7_at (V : Valuation τ sig (Elt Ideal)) :
    StableHlo.after pre0 V (Proc.devRef .tc main_v205)
      = Cert.ReferenceIdeal.Read.val_main_v71 (F := Ideal) (V (Proc.devRef .tc main_arg1)) (V (Proc.devRef .tc main_arg5)) := by
  chain_rfl
theorem leaf0_q7 (c : Dev nD) :
    W1 m ρ c (Proc.devRef .tc main_v205) = Cert.ReferenceIdeal.Read.val_main_v71 (F := Ideal) (m ((c.tc : Thread nD τ).loc main_arg1)) (m ((c.tc : Thread nD τ).loc main_arg5)) := by
  rw [← W0_arg m ρ c (r := main_arg1) (by decide), ← W0_arg m ρ c (r := main_arg5) (by decide)]
  exact leaf0_q7_at (W0 m ρ c)

/-! ## The six weights -/

/-- The weight x − floor x. -/
theorem leaf0_wx_at (V : Valuation τ sig (Elt Ideal)) :
    StableHlo.after pre0 V (Proc.devRef .tc main_v30)
      = Cert.ReferenceIdeal.Read.val_main_v30 (F := Ideal) (V (Proc.devRef .tc main_arg5)) := by
  chain_rfl
theorem leaf0_wx (c : Dev nD) :
    W1 m ρ c (Proc.devRef .tc main_v30) = Cert.ReferenceIdeal.Read.val_main_v30 (F := Ideal) (m ((c.tc : Thread nD τ).loc main_arg5)) := by
  rw [← W0_arg m ρ c (r := main_arg5) (by decide)]
  exact leaf0_wx_at (W0 m ρ c)

/-- The weight ceil x − x. -/
theorem leaf0_wx2_at (V : Valuation τ sig (Elt Ideal)) :
    StableHlo.after pre0 V (Proc.devRef .tc main_v33)
      = Cert.ReferenceIdeal.Read.val_main_v34 (F := Ideal) (V (Proc.devRef .tc main_arg5)) := by
  chain_rfl
theorem leaf0_wx2 (c : Dev nD) :
    W1 m ρ c (Proc.devRef .tc main_v33) = Cert.ReferenceIdeal.Read.val_main_v34 (F := Ideal) (m ((c.tc : Thread nD τ).loc main_arg5)) := by
  rw [← W0_arg m ρ c (r := main_arg5) (by decide)]
  exact leaf0_wx2_at (W0 m ρ c)

/-- The weight y − floor y. -/
theorem leaf0_wy_at (V : Valuation τ sig (Elt Ideal)) :
    StableHlo.after pre0 V (Proc.devRef .tc main_v36)
      = Cert.ReferenceIdeal.Read.val_main_v38 (F := Ideal) (V (Proc.devRef .tc main_arg5)) := by
  chain_rfl
theorem leaf0_wy (c : Dev nD) :
    W1 m ρ c (Proc.devRef .tc main_v36) = Cert.ReferenceIdeal.Read.val_main_v38 (F := Ideal) (m ((c.tc : Thread nD τ).loc main_arg5)) := by
  rw [← W0_arg m ρ c (r := main_arg5) (by decide)]
  exact leaf0_wy_at (W0 m ρ c)

/-- The weight ceil y − y. -/
theorem leaf0_wy2_at (V : Valuation τ sig (Elt Ideal)) :
    StableHlo.after pre0 V (Proc.devRef .tc main_v39)
      = Cert.ReferenceIdeal.Read.val_main_v42 (F := Ideal) (V (Proc.devRef .tc main_arg5)) := by
  chain_rfl
theorem leaf0_wy2 (c : Dev nD) :
    W1 m ρ c (Proc.devRef .tc main_v39) = Cert.ReferenceIdeal.Read.val_main_v42 (F := Ideal) (m ((c.tc : Thread nD τ).loc main_arg5)) := by
  rw [← W0_arg m ρ c (r := main_arg5) (by decide)]
  exact leaf0_wy2_at (W0 m ρ c)

/-- The weight z − floor z. -/
theorem leaf0_wz_at (V : Valuation τ sig (Elt Ideal)) :
    StableHlo.after pre0 V (Proc.devRef .tc main_v42)
      = Cert.ReferenceIdeal.Read.val_main_v46 (F := Ideal) (V (Proc.devRef .tc main_arg5)) := by
  chain_rfl
theorem leaf0_wz (c : Dev nD) :
    W1 m ρ c (Proc.devRef .tc main_v42) = Cert.ReferenceIdeal.Read.val_main_v46 (F := Ideal) (m ((c.tc : Thread nD τ).loc main_arg5)) := by
  rw [← W0_arg m ρ c (r := main_arg5) (by decide)]
  exact leaf0_wz_at (W0 m ρ c)

/-- The weight ceil z − z. -/
theorem leaf0_wz2_at (V : Valuation τ sig (Elt Ideal)) :
    StableHlo.after pre0 V (Proc.devRef .tc main_v45)
      = Cert.ReferenceIdeal.Read.val_main_v50 (F := Ideal) (V (Proc.devRef .tc main_arg5)) := by
  chain_rfl
theorem leaf0_wz2 (c : Dev nD) :
    W1 m ρ c (Proc.devRef .tc main_v45) = Cert.ReferenceIdeal.Read.val_main_v50 (F := Ideal) (m ((c.tc : Thread nD τ).loc main_arg5)) := by
  rw [← W0_arg m ρ c (r := main_arg5) (by decide)]
  exact leaf0_wz2_at (W0 m ρ c)

end Cert.KernelIdeal.Hand

end
-- ==== Proof.Val.Leaves1.lean ====
/-
  The leaves agree, pyramid level 1.

  Before the level's pipelined call the program computes, by host operations, eight gathered corner arrays and six
  fractional-weight arrays from two of @main's arguments: the level's feature array and the sample coordinates. The
  coordinates are scaled by the level's grid size and clipped; each axis is sliced out, and its floor and its ceiling
  are taken, converted to integers, and a negative index is wrapped by adding the grid size; one index triple per
  corner — a floor or a ceiling on each of the three axes — is joined along a new last axis and the feature array is
  gathered at it. A weight is a clipped coordinate minus its floor, or its ceiling minus the clipped coordinate.

  The reference function computes the same fourteen arrays by the same operations in the same order of composition;
  only the order in which the eight corners are taken differs (the program starts from the all-ceiling corner and ends
  at the all-floor one, the reference runs through the floor plane of the last axis first). So each array the
  program's host operations leave in its buffer is, as a function of the two arguments, the reference's value of the
  matching stage: reading the buffer back through the line of operations — at each operation, whether the buffer read
  is the one it writes — gives a tree of array operations over the two arguments, and the reference's stage unfolds to
  the same tree. Both sides are terms over the contents the line starts from, and the equation holds by computation.
  The grid size the coordinates are scaled by was written before level 0's operations; the line reads it from the
  contents it starts from, where it still stands: the computation is run from contents with that buffer set to the
  constant, which is the contents themselves.
-/
import proofs.«171014_j76854144795318_1_alg».proof.Proof.Val.RefGen
import proofs.«171014_j76854144795318_1_alg».proof.Proof.Val.LeafLines
import Idealize.ShloMosaic.Lib.Pipeline.Regions
import Idealize.ShloMosaic.PureOps.Ideal

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-! ## The eight corners

Corner `k` of the program against the reference's stage with the same floor-or-ceiling choice on each axis: first from
any contents the line may start from, then from the launch contents, where the two arguments' buffers hold the
arguments. -/

/-- The corner (ceil x, ceil y, ceil z). -/
theorem leaf1_q0_at (V : Valuation τ sig (Elt Ideal)) :
    StableHlo.after pre1 (Function.update V (Proc.devRef .tc main_cst_0) (constant (F := Ideal) S3 .f32 0x42000000#32)) (Proc.devRef .tc main_v324)
      = Cert.ReferenceIdeal.Read.val_main_v473 (F := Ideal) (V (Proc.devRef .tc main_arg2)) (V (Proc.devRef .tc main_arg5)) := by
  chain_rfl
theorem leaf1_q0 (c : Dev nD) :
    W3 m ρ c (Proc.devRef .tc main_v324) = Cert.ReferenceIdeal.Read.val_main_v473 (F := Ideal) (m ((c.tc : Thread nD τ).loc main_arg2)) (m ((c.tc : Thread nD τ).loc main_arg5)) := by
  rw [← W2_arg m ρ c (r := main_arg2) (by decide), ← W2_arg m ρ c (r := main_arg5) (by decide)]
  have h := leaf1_q0_at (W2 m ρ c)
  rw [entry1_update m ρ c] at h
  exact h

/-- The corner (floor x, ceil y, ceil z). -/
theorem leaf1_q1_at (V : Valuation τ sig (Elt Ideal)) :
    StableHlo.after pre1 (Function.update V (Proc.devRef .tc main_cst_0) (constant (F := Ideal) S3 .f32 0x42000000#32)) (Proc.devRef .tc main_v344)
      = Cert.ReferenceIdeal.Read.val_main_v453 (F := Ideal) (V (Proc.devRef .tc main_arg2)) (V (Proc.devRef .tc main_arg5)) := by
  chain_rfl
theorem leaf1_q1 (c : Dev nD) :
    W3 m ρ c (Proc.devRef .tc main_v344) = Cert.ReferenceIdeal.Read.val_main_v453 (F := Ideal) (m ((c.tc : Thread nD τ).loc main_arg2)) (m ((c.tc : Thread nD τ).loc main_arg5)) := by
  rw [← W2_arg m ρ c (r := main_arg2) (by decide), ← W2_arg m ρ c (r := main_arg5) (by decide)]
  have h := leaf1_q1_at (W2 m ρ c)
  rw [entry1_update m ρ c] at h
  exact h

/-- The corner (ceil x, floor y, ceil z). -/
theorem leaf1_q2_at (V : Valuation τ sig (Elt Ideal)) :
    StableHlo.after pre1 (Function.update V (Proc.devRef .tc main_cst_0) (constant (F := Ideal) S3 .f32 0x42000000#32)) (Proc.devRef .tc main_v364)
      = Cert.ReferenceIdeal.Read.val_main_v433 (F := Ideal) (V (Proc.devRef .tc main_arg2)) (V (Proc.devRef .tc main_arg5)) := by
  chain_rfl
theorem leaf1_q2 (c : Dev nD) :
    W3 m ρ c (Proc.devRef .tc main_v364) = Cert.ReferenceIdeal.Read.val_main_v433 (F := Ideal) (m ((c.tc : Thread nD τ).loc main_arg2)) (m ((c.tc : Thread nD τ).loc main_arg5)) := by
  rw [← W2_arg m ρ c (r := main_arg2) (by decide), ← W2_arg m ρ c (r := main_arg5) (by decide)]
  have h := leaf1_q2_at (W2 m ρ c)
  rw [entry1_update m ρ c] at h
  exact h

/-- The corner (floor x, floor y, ceil z). -/
theorem leaf1_q3_at (V : Valuation τ sig (Elt Ideal)) :
    StableHlo.after pre1 (Function.update V (Proc.devRef .tc main_cst_0) (constant (F := Ideal) S3 .f32 0x42000000#32)) (Proc.devRef .tc main_v384)
      = Cert.ReferenceIdeal.Read.val_main_v413 (F := Ideal) (V (Proc.devRef .tc main_arg2)) (V (Proc.devRef .tc main_arg5)) := by
  chain_rfl
theorem leaf1_q3 (c : Dev nD) :
    W3 m ρ c (Proc.devRef .tc main_v384) = Cert.ReferenceIdeal.Read.val_main_v413 (F := Ideal) (m ((c.tc : Thread nD τ).loc main_arg2)) (m ((c.tc : Thread nD τ).loc main_arg5)) := by
  rw [← W2_arg m ρ c (r := main_arg2) (by decide), ← W2_arg m ρ c (r := main_arg5) (by decide)]
  have h := leaf1_q3_at (W2 m ρ c)
  rw [entry1_update m ρ c] at h
  exact h

/-- The corner (ceil x, ceil y, floor z). -/
theorem leaf1_q4_at (V : Valuation τ sig (Elt Ideal)) :
    StableHlo.after pre1 (Function.update V (Proc.devRef .tc main_cst_0) (constant (F := Ideal) S3 .f32 0x42000000#32)) (Proc.devRef .tc main_v404)
      = Cert.ReferenceIdeal.Read.val_main_v378 (F := Ideal) (V (Proc.devRef .tc main_arg2)) (V (Proc.devRef .tc main_arg5)) := by
  chain_rfl
theorem leaf1_q4 (c : Dev nD) :
    W3 m ρ c (Proc.devRef .tc main_v404) = Cert.ReferenceIdeal.Read.val_main_v378 (F := Ideal) (m ((c.tc : Thread nD τ).loc main_arg2)) (m ((c.tc : Thread nD τ).loc main_arg5)) := by
  rw [← W2_arg m ρ c (r := main_arg2) (by decide), ← W2_arg m ρ c (r := main_arg5) (by decide)]
  have h := leaf1_q4_at (W2 m ρ c)
  rw [entry1_update m ρ c] at h
  exact h

/-- The corner (floor x, ceil y, floor z). -/
theorem leaf1_q5_at (V : Valuation τ sig (Elt Ideal)) :
    StableHlo.after pre1 (Function.update V (Proc.devRef .tc main_cst_0) (constant (F := Ideal) S3 .f32 0x42000000#32)) (Proc.devRef .tc main_v424)
      = Cert.ReferenceIdeal.Read.val_main_v358 (F := Ideal) (V (Proc.devRef .tc main_arg2)) (V (Proc.devRef .tc main_arg5)) := by
  chain_rfl
theorem leaf1_q5 (c : Dev nD) :
    W3 m ρ c (Proc.devRef .tc main_v424) = Cert.ReferenceIdeal.Read.val_main_v358 (F := Ideal) (m ((c.tc : Thread nD τ).loc main_arg2)) (m ((c.tc : Thread nD τ).loc main_arg5)) := by
  rw [← W2_arg m ρ c (r := main_arg2) (by decide), ← W2_arg m ρ c (r := main_arg5) (by decide)]
  have h := leaf1_q5_at (W2 m ρ c)
  rw [entry1_update m ρ c] at h
  exact h

/-- The corner (ceil x, floor y, floor z). -/
theorem leaf1_q6_at (V : Valuation τ sig (Elt Ideal)) :
    StableHlo.after pre1 (Function.update V (Proc.devRef .tc main_cst_0) (constant (F := Ideal) S3 .f32 0x42000000#32)) (Proc.devRef .tc main_v444)
      = Cert.ReferenceIdeal.Read.val_main_v338 (F := Ideal) (V (Proc.devRef .tc main_arg2)) (V (Proc.devRef .tc main_arg5)) := by
  chain_rfl
theorem leaf1_q6 (c : Dev nD) :
    W3 m ρ c (Proc.devRef .tc main_v444) = Cert.ReferenceIdeal.Read.val_main_v338 (F := Ideal) (m ((c.tc : Thread nD τ).loc main_arg2)) (m ((c.tc : Thread nD τ).loc main_arg5)) := by
  rw [← W2_arg m ρ c (r := main_arg2) (by decide), ← W2_arg m ρ c (r := main_arg5) (by decide)]
  have h := leaf1_q6_at (W2 m ρ c)
  rw [entry1_update m ρ c] at h
  exact h

/-- The corner (floor x, floor y, floor z). -/
theorem leaf1_q7_at (V : Valuation τ sig (Elt Ideal)) :
    StableHlo.after pre1 (Function.update V (Proc.devRef .tc main_cst_0) (constant (F := Ideal) S3 .f32 0x42000000#32)) (Proc.devRef .tc main_v464)
      = Cert.ReferenceIdeal.Read.val_main_v318 (F := Ideal) (V (Proc.devRef .tc main_arg2)) (V (Proc.devRef .tc main_arg5)) := by
  chain_rfl
theorem leaf1_q7 (c : Dev nD) :
    W3 m ρ c (Proc.devRef .tc main_v464) = Cert.ReferenceIdeal.Read.val_main_v318 (F := Ideal) (m ((c.tc : Thread nD τ).loc main_arg2)) (m ((c.tc : Thread nD τ).loc main_arg5)) := by
  rw [← W2_arg m ρ c (r := main_arg2) (by decide), ← W2_arg m ρ c (r := main_arg5) (by decide)]
  have h := leaf1_q7_at (W2 m ρ c)
  rw [entry1_update m ρ c] at h
  exact h

/-! ## The six weights -/

/-- The weight x − floor x. -/
theorem leaf1_wx_at (V : Valuation τ sig (Elt Ideal)) :
    StableHlo.after pre1 (Function.update V (Proc.devRef .tc main_cst_0) (constant (F := Ideal) S3 .f32 0x42000000#32)) (Proc.devRef .tc main_v289)
      = Cert.ReferenceIdeal.Read.val_main_v277 (F := Ideal) (V (Proc.devRef .tc main_arg5)) := by
  chain_rfl
theorem leaf1_wx (c : Dev nD) :
    W3 m ρ c (Proc.devRef .tc main_v289) = Cert.ReferenceIdeal.Read.val_main_v277 (F := Ideal) (m ((c.tc : Thread nD τ).loc main_arg5)) := by
  rw [← W2_arg m ρ c (r := main_arg5) (by decide)]
  have h := leaf1_wx_at (W2 m ρ c)
  rw [entry1_update m ρ c] at h
  exact h

/-- The weight ceil x − x. -/
theorem leaf1_wx2_at (V : Valuation τ sig (Elt Ideal)) :
    StableHlo.after pre1 (Function.update V (Proc.devRef .tc main_cst_0) (constant (F := Ideal) S3 .f32 0x42000000#32)) (Proc.devRef .tc main_v292)
      = Cert.ReferenceIdeal.Read.val_main_v281 (F := Ideal) (V (Proc.devRef .tc main_arg5)) := by
  chain_rfl
theorem leaf1_wx2 (c : Dev nD) :
    W3 m ρ c (Proc.devRef .tc main_v292) = Cert.ReferenceIdeal.Read.val_main_v281 (F := Ideal) (m ((c.tc : Thread nD τ).loc main_arg5)) := by
  rw [← W2_arg m ρ c (r := main_arg5) (by decide)]
  have h := leaf1_wx2_at (W2 m ρ c)
  rw [entry1_update m ρ c] at h
  exact h

/-- The weight y − floor y. -/
theorem leaf1_wy_at (V : Valuation τ sig (Elt Ideal)) :
    StableHlo.after pre1 (Function.update V (Proc.devRef .tc main_cst_0) (constant (F := Ideal) S3 .f32 0x42000000#32)) (Proc.devRef .tc main_v295)
      = Cert.ReferenceIdeal.Read.val_main_v285 (F := Ideal) (V (Proc.devRef .tc main_arg5)) := by
  chain_rfl
theorem leaf1_wy (c : Dev nD) :
    W3 m ρ c (Proc.devRef .tc main_v295) = Cert.ReferenceIdeal.Read.val_main_v285 (F := Ideal) (m ((c.tc : Thread nD τ).loc main_arg5)) := by
  rw [← W2_arg m ρ c (r := main_arg5) (by decide)]
  have h := leaf1_wy_at (W2 m ρ c)
  rw [entry1_update m ρ c] at h
  exact h

/-- The weight ceil y − y. -/
theorem leaf1_wy2_at (V : Valuation τ sig (Elt Ideal)) :
    StableHlo.after pre1 (Function.update V (Proc.devRef .tc main_cst_0) (constant (F := Ideal) S3 .f32 0x42000000#32)) (Proc.devRef .tc main_v298)
      = Cert.ReferenceIdeal.Read.val_main_v289 (F := Ideal) (V (Proc.devRef .tc main_arg5)) := by
  chain_rfl
theorem leaf1_wy2 (c : Dev nD) :
    W3 m ρ c (Proc.devRef .tc main_v298) = Cert.ReferenceIdeal.Read.val_main_v289 (F := Ideal) (m ((c.tc : Thread nD τ).loc main_arg5)) := by
  rw [← W2_arg m ρ c (r := main_arg5) (by decide)]
  have h := leaf1_wy2_at (W2 m ρ c)
  rw [entry1_update m ρ c] at h
  exact h

/-- The weight z − floor z. -/
theorem leaf1_wz_at (V : Valuation τ sig (Elt Ideal)) :
    StableHlo.after pre1 (Function.update V (Proc.devRef .tc main_cst_0) (constant (F := Ideal) S3 .f32 0x42000000#32)) (Proc.devRef .tc main_v301)
      = Cert.ReferenceIdeal.Read.val_main_v293 (F := Ideal) (V (Proc.devRef .tc main_arg5)) := by
  chain_rfl
theorem leaf1_wz (c : Dev nD) :
    W3 m ρ c (Proc.devRef .tc main_v301) = Cert.ReferenceIdeal.Read.val_main_v293 (F := Ideal) (m ((c.tc : Thread nD τ).loc main_arg5)) := by
  rw [← W2_arg m ρ c (r := main_arg5) (by decide)]
  have h := leaf1_wz_at (W2 m ρ c)
  rw [entry1_update m ρ c] at h
  exact h

/-- The weight ceil z − z. -/
theorem leaf1_wz2_at (V : Valuation τ sig (Elt Ideal)) :
    StableHlo.after pre1 (Function.update V (Proc.devRef .tc main_cst_0) (constant (F := Ideal) S3 .f32 0x42000000#32)) (Proc.devRef .tc main_v304)
      = Cert.ReferenceIdeal.Read.val_main_v297 (F := Ideal) (V (Proc.devRef .tc main_arg5)) := by
  chain_rfl
theorem leaf1_wz2 (c : Dev nD) :
    W3 m ρ c (Proc.devRef .tc main_v304) = Cert.ReferenceIdeal.Read.val_main_v297 (F := Ideal) (m ((c.tc : Thread nD τ).loc main_arg5)) := by
  rw [← W2_arg m ρ c (r := main_arg5) (by decide)]
  have h := leaf1_wz2_at (W2 m ρ c)
  rw [entry1_update m ρ c] at h
  exact h

end Cert.KernelIdeal.Hand

end
-- ==== Proof.Val.Leaves2.lean ====
/-
  The leaves agree, pyramid level 2.

  Before the level's pipelined call the program computes, by host operations, eight gathered corner arrays and six
  fractional-weight arrays from two of @main's arguments: the level's feature array and the sample coordinates. The
  coordinates are scaled by the level's grid size and clipped; each axis is sliced out, and its floor and its ceiling
  are taken, converted to integers, and a negative index is wrapped by adding the grid size; one index triple per
  corner — a floor or a ceiling on each of the three axes — is joined along a new last axis and the feature array is
  gathered at it. A weight is a clipped coordinate minus its floor, or its ceiling minus the clipped coordinate.

  The reference function computes the same fourteen arrays by the same operations in the same order of composition;
  only the order in which the eight corners are taken differs (the program starts from the all-ceiling corner and ends
  at the all-floor one, the reference runs through the floor plane of the last axis first). So each array the
  program's host operations leave in its buffer is, as a function of the two arguments, the reference's value of the
  matching stage: reading the buffer back through the line of operations — at each operation, whether the buffer read
  is the one it writes — gives a tree of array operations over the two arguments, and the reference's stage unfolds to
  the same tree. Both sides are terms over the contents the line starts from, and the equation holds by computation.
  The grid size the coordinates are scaled by was written before level 0's operations; the line reads it from the
  contents it starts from, where it still stands: the computation is run from contents with that buffer set to the
  constant, which is the contents themselves.
-/
import proofs.«171014_j76854144795318_1_alg».proof.Proof.Val.RefGen
import proofs.«171014_j76854144795318_1_alg».proof.Proof.Val.LeafLines
import Idealize.ShloMosaic.Lib.Pipeline.Regions
import Idealize.ShloMosaic.PureOps.Ideal

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-! ## The eight corners

Corner `k` of the program against the reference's stage with the same floor-or-ceiling choice on each axis: first from
any contents the line may start from, then from the launch contents, where the two arguments' buffers hold the
arguments. -/

/-- The corner (ceil x, ceil y, ceil z). -/
theorem leaf2_q0_at (V : Valuation τ sig (Elt Ideal)) :
    StableHlo.after pre2 (Function.update V (Proc.devRef .tc main_cst_1) (constant (F := Ideal) S3 .f32 0x41800000#32)) (Proc.devRef .tc main_v583)
      = Cert.ReferenceIdeal.Read.val_main_v720 (F := Ideal) (V (Proc.devRef .tc main_arg3)) (V (Proc.devRef .tc main_arg5)) := by
  chain_rfl
theorem leaf2_q0 (c : Dev nD) :
    W5 m ρ c (Proc.devRef .tc main_v583) = Cert.ReferenceIdeal.Read.val_main_v720 (F := Ideal) (m ((c.tc : Thread nD τ).loc main_arg3)) (m ((c.tc : Thread nD τ).loc main_arg5)) := by
  rw [← W4_arg m ρ c (r := main_arg3) (by decide), ← W4_arg m ρ c (r := main_arg5) (by decide)]
  have h := leaf2_q0_at (W4 m ρ c)
  rw [entry2_update m ρ c] at h
  exact h

/-- The corner (floor x, ceil y, ceil z). -/
theorem leaf2_q1_at (V : Valuation τ sig (Elt Ideal)) :
    StableHlo.after pre2 (Function.update V (Proc.devRef .tc main_cst_1) (constant (F := Ideal) S3 .f32 0x41800000#32)) (Proc.devRef .tc main_v603)
      = Cert.ReferenceIdeal.Read.val_main_v700 (F := Ideal) (V (Proc.devRef .tc main_arg3)) (V (Proc.devRef .tc main_arg5)) := by
  chain_rfl
theorem leaf2_q1 (c : Dev nD) :
    W5 m ρ c (Proc.devRef .tc main_v603) = Cert.ReferenceIdeal.Read.val_main_v700 (F := Ideal) (m ((c.tc : Thread nD τ).loc main_arg3)) (m ((c.tc : Thread nD τ).loc main_arg5)) := by
  rw [← W4_arg m ρ c (r := main_arg3) (by decide), ← W4_arg m ρ c (r := main_arg5) (by decide)]
  have h := leaf2_q1_at (W4 m ρ c)
  rw [entry2_update m ρ c] at h
  exact h

/-- The corner (ceil x, floor y, ceil z). -/
theorem leaf2_q2_at (V : Valuation τ sig (Elt Ideal)) :
    StableHlo.after pre2 (Function.update V (Proc.devRef .tc main_cst_1) (constant (F := Ideal) S3 .f32 0x41800000#32)) (Proc.devRef .tc main_v623)
      = Cert.ReferenceIdeal.Read.val_main_v680 (F := Ideal) (V (Proc.devRef .tc main_arg3)) (V (Proc.devRef .tc main_arg5)) := by
  chain_rfl
theorem leaf2_q2 (c : Dev nD) :
    W5 m ρ c (Proc.devRef .tc main_v623) = Cert.ReferenceIdeal.Read.val_main_v680 (F := Ideal) (m ((c.tc : Thread nD τ).loc main_arg3)) (m ((c.tc : Thread nD τ).loc main_arg5)) := by
  rw [← W4_arg m ρ c (r := main_arg3) (by decide), ← W4_arg m ρ c (r := main_arg5) (by decide)]
  have h := leaf2_q2_at (W4 m ρ c)
  rw [entry2_update m ρ c] at h
  exact h

/-- The corner (floor x, floor y, ceil z). -/
theorem leaf2_q3_at (V : Valuation τ sig (Elt Ideal)) :
    StableHlo.after pre2 (Function.update V (Proc.devRef .tc main_cst_1) (constant (F := Ideal) S3 .f32 0x41800000#32)) (Proc.devRef .tc main_v643)
      = Cert.ReferenceIdeal.Read.val_main_v660 (F := Ideal) (V (Proc.devRef .tc main_arg3)) (V (Proc.devRef .tc main_arg5)) := by
  chain_rfl
theorem leaf2_q3 (c : Dev nD) :
    W5 m ρ c (Proc.devRef .tc main_v643) = Cert.ReferenceIdeal.Read.val_main_v660 (F := Ideal) (m ((c.tc : Thread nD τ).loc main_arg3)) (m ((c.tc : Thread nD τ).loc main_arg5)) := by
  rw [← W4_arg m ρ c (r := main_arg3) (by decide), ← W4_arg m ρ c (r := main_arg5) (by decide)]
  have h := leaf2_q3_at (W4 m ρ c)
  rw [entry2_update m ρ c] at h
  exact h

/-- The corner (ceil x, ceil y, floor z). -/
theorem leaf2_q4_at (V : Valuation τ sig (Elt Ideal)) :
    StableHlo.after pre2 (Function.update V (Proc.devRef .tc main_cst_1) (constant (F := Ideal) S3 .f32 0x41800000#32)) (Proc.devRef .tc main_v663)
      = Cert.ReferenceIdeal.Read.val_main_v625 (F := Ideal) (V (Proc.devRef .tc main_arg3)) (V (Proc.devRef .tc main_arg5)) := by
  chain_rfl
theorem leaf2_q4 (c : Dev nD) :
    W5 m ρ c (Proc.devRef .tc main_v663) = Cert.ReferenceIdeal.Read.val_main_v625 (F := Ideal) (m ((c.tc : Thread nD τ).loc main_arg3)) (m ((c.tc : Thread nD τ).loc main_arg5)) := by
  rw [← W4_arg m ρ c (r := main_arg3) (by decide), ← W4_arg m ρ c (r := main_arg5) (by decide)]
  have h := leaf2_q4_at (W4 m ρ c)
  rw [entry2_update m ρ c] at h
  exact h

/-- The corner (floor x, ceil y, floor z). -/
theorem leaf2_q5_at (V : Valuation τ sig (Elt Ideal)) :
    StableHlo.after pre2 (Function.update V (Proc.devRef .tc main_cst_1) (constant (F := Ideal) S3 .f32 0x41800000#32)) (Proc.devRef .tc main_v683)
      = Cert.ReferenceIdeal.Read.val_main_v605 (F := Ideal) (V (Proc.devRef .tc main_arg3)) (V (Proc.devRef .tc main_arg5)) := by
  chain_rfl
theorem leaf2_q5 (c : Dev nD) :
    W5 m ρ c (Proc.devRef .tc main_v683) = Cert.ReferenceIdeal.Read.val_main_v605 (F := Ideal) (m ((c.tc : Thread nD τ).loc main_arg3)) (m ((c.tc : Thread nD τ).loc main_arg5)) := by
  rw [← W4_arg m ρ c (r := main_arg3) (by decide), ← W4_arg m ρ c (r := main_arg5) (by decide)]
  have h := leaf2_q5_at (W4 m ρ c)
  rw [entry2_update m ρ c] at h
  exact h

/-- The corner (ceil x, floor y, floor z). -/
theorem leaf2_q6_at (V : Valuation τ sig (Elt Ideal)) :
    StableHlo.after pre2 (Function.update V (Proc.devRef .tc main_cst_1) (constant (F := Ideal) S3 .f32 0x41800000#32)) (Proc.devRef .tc main_v703)
      = Cert.ReferenceIdeal.Read.val_main_v585 (F := Ideal) (V (Proc.devRef .tc main_arg3)) (V (Proc.devRef .tc main_arg5)) := by
  chain_rfl
theorem leaf2_q6 (c : Dev nD) :
    W5 m ρ c (Proc.devRef .tc main_v703) = Cert.ReferenceIdeal.Read.val_main_v585 (F := Ideal) (m ((c.tc : Thread nD τ).loc main_arg3)) (m ((c.tc : Thread nD τ).loc main_arg5)) := by
  rw [← W4_arg m ρ c (r := main_arg3) (by decide), ← W4_arg m ρ c (r := main_arg5) (by decide)]
  have h := leaf2_q6_at (W4 m ρ c)
  rw [entry2_update m ρ c] at h
  exact h

/-- The corner (floor x, floor y, floor z). -/
theorem leaf2_q7_at (V : Valuation τ sig (Elt Ideal)) :
    StableHlo.after pre2 (Function.update V (Proc.devRef .tc main_cst_1) (constant (F := Ideal) S3 .f32 0x41800000#32)) (Proc.devRef .tc main_v723)
      = Cert.ReferenceIdeal.Read.val_main_v565 (F := Ideal) (V (Proc.devRef .tc main_arg3)) (V (Proc.devRef .tc main_arg5)) := by
  chain_rfl
theorem leaf2_q7 (c : Dev nD) :
    W5 m ρ c (Proc.devRef .tc main_v723) = Cert.ReferenceIdeal.Read.val_main_v565 (F := Ideal) (m ((c.tc : Thread nD τ).loc main_arg3)) (m ((c.tc : Thread nD τ).loc main_arg5)) := by
  rw [← W4_arg m ρ c (r := main_arg3) (by decide), ← W4_arg m ρ c (r := main_arg5) (by decide)]
  have h := leaf2_q7_at (W4 m ρ c)
  rw [entry2_update m ρ c] at h
  exact h

/-! ## The six weights -/

/-- The weight x − floor x. -/
theorem leaf2_wx_at (V : Valuation τ sig (Elt Ideal)) :
    StableHlo.after pre2 (Function.update V (Proc.devRef .tc main_cst_1) (constant (F := Ideal) S3 .f32 0x41800000#32)) (Proc.devRef .tc main_v548)
      = Cert.ReferenceIdeal.Read.val_main_v524 (F := Ideal) (V (Proc.devRef .tc main_arg5)) := by
  chain_rfl
theorem leaf2_wx (c : Dev nD) :
    W5 m ρ c (Proc.devRef .tc main_v548) = Cert.ReferenceIdeal.Read.val_main_v524 (F := Ideal) (m ((c.tc : Thread nD τ).loc main_arg5)) := by
  rw [← W4_arg m ρ c (r := main_arg5) (by decide)]
  have h := leaf2_wx_at (W4 m ρ c)
  rw [entry2_update m ρ c] at h
  exact h

/-- The weight ceil x − x. -/
theorem leaf2_wx2_at (V : Valuation τ sig (Elt Ideal)) :
    StableHlo.after pre2 (Function.update V (Proc.devRef .tc main_cst_1) (constant (F := Ideal) S3 .f32 0x41800000#32)) (Proc.devRef .tc main_v551)
      = Cert.ReferenceIdeal.Read.val_main_v528 (F := Ideal) (V (Proc.devRef .tc main_arg5)) := by
  chain_rfl
theorem leaf2_wx2 (c : Dev nD) :
    W5 m ρ c (Proc.devRef .tc main_v551) = Cert.ReferenceIdeal.Read.val_main_v528 (F := Ideal) (m ((c.tc : Thread nD τ).loc main_arg5)) := by
  rw [← W4_arg m ρ c (r := main_arg5) (by decide)]
  have h := leaf2_wx2_at (W4 m ρ c)
  rw [entry2_update m ρ c] at h
  exact h

/-- The weight y − floor y. -/
theorem leaf2_wy_at (V : Valuation τ sig (Elt Ideal)) :
    StableHlo.after pre2 (Function.update V (Proc.devRef .tc main_cst_1) (constant (F := Ideal) S3 .f32 0x41800000#32)) (Proc.devRef .tc main_v554)
      = Cert.ReferenceIdeal.Read.val_main_v532 (F := Ideal) (V (Proc.devRef .tc main_arg5)) := by
  chain_rfl
theorem leaf2_wy (c : Dev nD) :
    W5 m ρ c (Proc.devRef .tc main_v554) = Cert.ReferenceIdeal.Read.val_main_v532 (F := Ideal) (m ((c.tc : Thread nD τ).loc main_arg5)) := by
  rw [← W4_arg m ρ c (r := main_arg5) (by decide)]
  have h := leaf2_wy_at (W4 m ρ c)
  rw [entry2_update m ρ c] at h
  exact h

/-- The weight ceil y − y. -/
theorem leaf2_wy2_at (V : Valuation τ sig (Elt Ideal)) :
    StableHlo.after pre2 (Function.update V (Proc.devRef .tc main_cst_1) (constant (F := Ideal) S3 .f32 0x41800000#32)) (Proc.devRef .tc main_v557)
      = Cert.ReferenceIdeal.Read.val_main_v536 (F := Ideal) (V (Proc.devRef .tc main_arg5)) := by
  chain_rfl
theorem leaf2_wy2 (c : Dev nD) :
    W5 m ρ c (Proc.devRef .tc main_v557) = Cert.ReferenceIdeal.Read.val_main_v536 (F := Ideal) (m ((c.tc : Thread nD τ).loc main_arg5)) := by
  rw [← W4_arg m ρ c (r := main_arg5) (by decide)]
  have h := leaf2_wy2_at (W4 m ρ c)
  rw [entry2_update m ρ c] at h
  exact h

/-- The weight z − floor z. -/
theorem leaf2_wz_at (V : Valuation τ sig (Elt Ideal)) :
    StableHlo.after pre2 (Function.update V (Proc.devRef .tc main_cst_1) (constant (F := Ideal) S3 .f32 0x41800000#32)) (Proc.devRef .tc main_v560)
      = Cert.ReferenceIdeal.Read.val_main_v540 (F := Ideal) (V (Proc.devRef .tc main_arg5)) := by
  chain_rfl
theorem leaf2_wz (c : Dev nD) :
    W5 m ρ c (Proc.devRef .tc main_v560) = Cert.ReferenceIdeal.Read.val_main_v540 (F := Ideal) (m ((c.tc : Thread nD τ).loc main_arg5)) := by
  rw [← W4_arg m ρ c (r := main_arg5) (by decide)]
  have h := leaf2_wz_at (W4 m ρ c)
  rw [entry2_update m ρ c] at h
  exact h

/-- The weight ceil z − z. -/
theorem leaf2_wz2_at (V : Valuation τ sig (Elt Ideal)) :
    StableHlo.after pre2 (Function.update V (Proc.devRef .tc main_cst_1) (constant (F := Ideal) S3 .f32 0x41800000#32)) (Proc.devRef .tc main_v563)
      = Cert.ReferenceIdeal.Read.val_main_v544 (F := Ideal) (V (Proc.devRef .tc main_arg5)) := by
  chain_rfl
theorem leaf2_wz2 (c : Dev nD) :
    W5 m ρ c (Proc.devRef .tc main_v563) = Cert.ReferenceIdeal.Read.val_main_v544 (F := Ideal) (m ((c.tc : Thread nD τ).loc main_arg5)) := by
  rw [← W4_arg m ρ c (r := main_arg5) (by decide)]
  have h := leaf2_wz2_at (W4 m ρ c)
  rw [entry2_update m ρ c] at h
  exact h

end Cert.KernelIdeal.Hand

end
-- ==== Proof.Val.Assembly.lean ====
/-
  The two idealized programs end with the same result array.

  Channel j of the result belongs to level 0, 1 or 2 (32, 64 and 128 channels). In each level the kernel program's
  value at (b, n, ch) is the weighted sum of eight gathered corners, the reference's the interpolation along x, y, z
  of the same corners with the same six weights; the corners are entries of a feature array, real by the
  precondition, and the weights are differences of a clipped coordinate and its floor or ceiling, real whatever
  the coordinate was; on real numbers the two arrangements are one polynomial.
-/
import proofs.«171014_j76854144795318_1_alg».proof.Defs
import proofs.«171014_j76854144795318_1_alg».proof.Proof.Gen.Pre_finite_inputs
import proofs.«171014_j76854144795318_1_alg».proof.Proof.KI.Fold
import proofs.«171014_j76854144795318_1_alg».proof.Proof.Val.Spec
import proofs.«171014_j76854144795318_1_alg».proof.Proof.Val.Finite
import proofs.«171014_j76854144795318_1_alg».proof.Proof.Val.LeafReal
import proofs.«171014_j76854144795318_1_alg».proof.Proof.Val.LeafReal1
import proofs.«171014_j76854144795318_1_alg».proof.Proof.Val.LeafReal2
import proofs.«171014_j76854144795318_1_alg».proof.Proof.Val.RefRead
import proofs.«171014_j76854144795318_1_alg».proof.Proof.Val.KHost0
import proofs.«171014_j76854144795318_1_alg».proof.Proof.Val.KHost1
import proofs.«171014_j76854144795318_1_alg».proof.Proof.Val.KHost2
import proofs.«171014_j76854144795318_1_alg».proof.Proof.Val.KTail
import proofs.«171014_j76854144795318_1_alg».proof.Proof.Val.Leaves0
import proofs.«171014_j76854144795318_1_alg».proof.Proof.Val.Leaves1
import proofs.«171014_j76854144795318_1_alg».proof.Proof.Val.Leaves2

noncomputable section

namespace Cert.Value

open Idealize.ShloMosaic Idealize.ShloMosaic.TcCoe Idealize.SL.Sem Idealize.ShloMosaic.ValueIdx
open Cert.KernelIdeal Cert.KernelIdeal.Gen Cert.KernelIdeal.Hand Cert.Finite

variable (m : (ℓ : Loc nD τ sig) → Buf (Elt Ideal) ℓ) (ρ : Dev nD → PrngReg)

/-- Level 0: the kernel program's part of the result, at (b, n, ch), is the reference's. Both are read down to the same
    eight corners and six weights; those are real numbers, and on real numbers the two arrangements agree. -/
theorem level_eq0 (c : Dev nD) (hreal : ∀ i, IsReal ((m ((c.tc : Thread nD τ).loc main_arg1) : Vec Ideal S2x64x64x64x32 .f32) i))
    (b : Fin 2) (n : Fin 100000) (ch : Fin 32) :
    (W3 m ρ c (Proc.devRef .tc main_v258) : Vec Ideal S2x100000x32 .f32) (ix3 b n ch)
      = Cert.ReferenceIdeal.Read.val_main_v246 (F := Ideal) (m ((c.tc : Thread nD τ).loc main_arg1)) (m ((c.tc : Thread nD τ).loc main_arg5)) (ix3 b n ch) := by
  rw [level0_out, Cert.RefRead.ref_level0]
  rw [show kq0_0 m ρ c = _ from leaf0_q0 m ρ c, show kq0_1 m ρ c = _ from leaf0_q1 m ρ c, show kq0_2 m ρ c = _ from leaf0_q2 m ρ c, show kq0_3 m ρ c = _ from leaf0_q3 m ρ c,
    show kq0_4 m ρ c = _ from leaf0_q4 m ρ c, show kq0_5 m ρ c = _ from leaf0_q5 m ρ c, show kq0_6 m ρ c = _ from leaf0_q6 m ρ c, show kq0_7 m ρ c = _ from leaf0_q7 m ρ c,
    show kwx0 m ρ c = _ from leaf0_wx m ρ c, show kwx20 m ρ c = _ from leaf0_wx2 m ρ c, show kwy0 m ρ c = _ from leaf0_wy m ρ c,
    show kwy20 m ρ c = _ from leaf0_wy2 m ρ c, show kwz0 m ρ c = _ from leaf0_wz m ρ c, show kwz20 m ρ c = _ from leaf0_wz2 m ρ c]
  obtain ⟨q0, hq0⟩ := corner_real_v226 (m ((c.tc : Thread nD τ).loc main_arg1)) (m ((c.tc : Thread nD τ).loc main_arg5)) hreal (ix3 b n ch)
  obtain ⟨q1, hq1⟩ := corner_real_v206 (m ((c.tc : Thread nD τ).loc main_arg1)) (m ((c.tc : Thread nD τ).loc main_arg5)) hreal (ix3 b n ch)
  obtain ⟨q2, hq2⟩ := corner_real_v186 (m ((c.tc : Thread nD τ).loc main_arg1)) (m ((c.tc : Thread nD τ).loc main_arg5)) hreal (ix3 b n ch)
  obtain ⟨q3, hq3⟩ := corner_real_v166 (m ((c.tc : Thread nD τ).loc main_arg1)) (m ((c.tc : Thread nD τ).loc main_arg5)) hreal (ix3 b n ch)
  obtain ⟨q4, hq4⟩ := corner_real_v131 (m ((c.tc : Thread nD τ).loc main_arg1)) (m ((c.tc : Thread nD τ).loc main_arg5)) hreal (ix3 b n ch)
  obtain ⟨q5, hq5⟩ := corner_real_v111 (m ((c.tc : Thread nD τ).loc main_arg1)) (m ((c.tc : Thread nD τ).loc main_arg5)) hreal (ix3 b n ch)
  obtain ⟨q6, hq6⟩ := corner_real_v91 (m ((c.tc : Thread nD τ).loc main_arg1)) (m ((c.tc : Thread nD τ).loc main_arg5)) hreal (ix3 b n ch)
  obtain ⟨q7, hq7⟩ := corner_real_v71 (m ((c.tc : Thread nD τ).loc main_arg1)) (m ((c.tc : Thread nD τ).loc main_arg5)) hreal (ix3 b n ch)
  obtain ⟨wx, hwx⟩ := weight_real_v30 (m ((c.tc : Thread nD τ).loc main_arg5)) (ix2 b n)
  obtain ⟨wx2, hwx2⟩ := weight_real_v34 (m ((c.tc : Thread nD τ).loc main_arg5)) (ix2 b n)
  obtain ⟨wy, hwy⟩ := weight_real_v38 (m ((c.tc : Thread nD τ).loc main_arg5)) (ix2 b n)
  obtain ⟨wy2, hwy2⟩ := weight_real_v42 (m ((c.tc : Thread nD τ).loc main_arg5)) (ix2 b n)
  obtain ⟨wz, hwz⟩ := weight_real_v46 (m ((c.tc : Thread nD τ).loc main_arg5)) (ix2 b n)
  obtain ⟨wz2, hwz2⟩ := weight_real_v50 (m ((c.tc : Thread nD τ).loc main_arg5)) (ix2 b n)
  rw [hq0, hq1, hq2, hq3, hq4, hq5, hq6, hq7, hwx, hwx2, hwy, hwy2, hwz, hwz2]
  exact (Cert.Spec.trilerp_eq_comb8 q0 q1 q2 q3 q4 q5 q6 q7 wx wx2 wy wy2 wz wz2).symm

/-- Level 1: the kernel program's part of the result, at (b, n, ch), is the reference's. Both are read down to the same
    eight corners and six weights; those are real numbers, and on real numbers the two arrangements agree. -/
theorem level_eq1 (c : Dev nD) (hreal : ∀ i, IsReal ((m ((c.tc : Thread nD τ).loc main_arg2) : Vec Ideal S2x32x32x32x64 .f32) i))
    (b : Fin 2) (n : Fin 100000) (ch : Fin 64) :
    (W5 m ρ c (Proc.devRef .tc main_v517) : Vec Ideal S2x100000x64 .f32) (ix3 b n ch)
      = Cert.ReferenceIdeal.Read.val_main_v493 (F := Ideal) (m ((c.tc : Thread nD τ).loc main_arg2)) (m ((c.tc : Thread nD τ).loc main_arg5)) (ix3 b n ch) := by
  rw [level1_out, Cert.RefRead.ref_level1]
  rw [show kq1_0 m ρ c = _ from leaf1_q0 m ρ c, show kq1_1 m ρ c = _ from leaf1_q1 m ρ c, show kq1_2 m ρ c = _ from leaf1_q2 m ρ c, show kq1_3 m ρ c = _ from leaf1_q3 m ρ c,
    show kq1_4 m ρ c = _ from leaf1_q4 m ρ c, show kq1_5 m ρ c = _ from leaf1_q5 m ρ c, show kq1_6 m ρ c = _ from leaf1_q6 m ρ c, show kq1_7 m ρ c = _ from leaf1_q7 m ρ c,
    show kwx1 m ρ c = _ from leaf1_wx m ρ c, show kwx21 m ρ c = _ from leaf1_wx2 m ρ c, show kwy1 m ρ c = _ from leaf1_wy m ρ c,
    show kwy21 m ρ c = _ from leaf1_wy2 m ρ c, show kwz1 m ρ c = _ from leaf1_wz m ρ c, show kwz21 m ρ c = _ from leaf1_wz2 m ρ c]
  obtain ⟨q0, hq0⟩ := corner_real_v473 (m ((c.tc : Thread nD τ).loc main_arg2)) (m ((c.tc : Thread nD τ).loc main_arg5)) hreal (ix3 b n ch)
  obtain ⟨q1, hq1⟩ := corner_real_v453 (m ((c.tc : Thread nD τ).loc main_arg2)) (m ((c.tc : Thread nD τ).loc main_arg5)) hreal (ix3 b n ch)
  obtain ⟨q2, hq2⟩ := corner_real_v433 (m ((c.tc : Thread nD τ).loc main_arg2)) (m ((c.tc : Thread nD τ).loc main_arg5)) hreal (ix3 b n ch)
  obtain ⟨q3, hq3⟩ := corner_real_v413 (m ((c.tc : Thread nD τ).loc main_arg2)) (m ((c.tc : Thread nD τ).loc main_arg5)) hreal (ix3 b n ch)
  obtain ⟨q4, hq4⟩ := corner_real_v378 (m ((c.tc : Thread nD τ).loc main_arg2)) (m ((c.tc : Thread nD τ).loc main_arg5)) hreal (ix3 b n ch)
  obtain ⟨q5, hq5⟩ := corner_real_v358 (m ((c.tc : Thread nD τ).loc main_arg2)) (m ((c.tc : Thread nD τ).loc main_arg5)) hreal (ix3 b n ch)
  obtain ⟨q6, hq6⟩ := corner_real_v338 (m ((c.tc : Thread nD τ).loc main_arg2)) (m ((c.tc : Thread nD τ).loc main_arg5)) hreal (ix3 b n ch)
  obtain ⟨q7, hq7⟩ := corner_real_v318 (m ((c.tc : Thread nD τ).loc main_arg2)) (m ((c.tc : Thread nD τ).loc main_arg5)) hreal (ix3 b n ch)
  obtain ⟨wx, hwx⟩ := weight_real_v277 (m ((c.tc : Thread nD τ).loc main_arg5)) (ix2 b n)
  obtain ⟨wx2, hwx2⟩ := weight_real_v281 (m ((c.tc : Thread nD τ).loc main_arg5)) (ix2 b n)
  obtain ⟨wy, hwy⟩ := weight_real_v285 (m ((c.tc : Thread nD τ).loc main_arg5)) (ix2 b n)
  obtain ⟨wy2, hwy2⟩ := weight_real_v289 (m ((c.tc : Thread nD τ).loc main_arg5)) (ix2 b n)
  obtain ⟨wz, hwz⟩ := weight_real_v293 (m ((c.tc : Thread nD τ).loc main_arg5)) (ix2 b n)
  obtain ⟨wz2, hwz2⟩ := weight_real_v297 (m ((c.tc : Thread nD τ).loc main_arg5)) (ix2 b n)
  rw [hq0, hq1, hq2, hq3, hq4, hq5, hq6, hq7, hwx, hwx2, hwy, hwy2, hwz, hwz2]
  exact (Cert.Spec.trilerp_eq_comb8 q0 q1 q2 q3 q4 q5 q6 q7 wx wx2 wy wy2 wz wz2).symm

/-- Level 2: the kernel program's part of the result, at (b, n, ch), is the reference's. Both are read down to the same
    eight corners and six weights; those are real numbers, and on real numbers the two arrangements agree. -/
theorem level_eq2 (c : Dev nD) (hreal : ∀ i, IsReal ((m ((c.tc : Thread nD τ).loc main_arg3) : Vec Ideal S2x16x16x16x128 .f32) i))
    (b : Fin 2) (n : Fin 100000) (ch : Fin 128) :
    (W7 m ρ c (Proc.devRef .tc main_v776) : Vec Ideal S2x100000x128 .f32) (ix3 b n ch)
      = Cert.ReferenceIdeal.Read.val_main_v740 (F := Ideal) (m ((c.tc : Thread nD τ).loc main_arg3)) (m ((c.tc : Thread nD τ).loc main_arg5)) (ix3 b n ch) := by
  rw [level2_out, Cert.RefRead.ref_level2]
  rw [show kq2_0 m ρ c = _ from leaf2_q0 m ρ c, show kq2_1 m ρ c = _ from leaf2_q1 m ρ c, show kq2_2 m ρ c = _ from leaf2_q2 m ρ c, show kq2_3 m ρ c = _ from leaf2_q3 m ρ c,
    show kq2_4 m ρ c = _ from leaf2_q4 m ρ c, show kq2_5 m ρ c = _ from leaf2_q5 m ρ c, show kq2_6 m ρ c = _ from leaf2_q6 m ρ c, show kq2_7 m ρ c = _ from leaf2_q7 m ρ c,
    show kwx2 m ρ c = _ from leaf2_wx m ρ c, show kwx22 m ρ c = _ from leaf2_wx2 m ρ c, show kwy2 m ρ c = _ from leaf2_wy m ρ c,
    show kwy22 m ρ c = _ from leaf2_wy2 m ρ c, show kwz2 m ρ c = _ from leaf2_wz m ρ c, show kwz22 m ρ c = _ from leaf2_wz2 m ρ c]
  obtain ⟨q0, hq0⟩ := corner_real_v720 (m ((c.tc : Thread nD τ).loc main_arg3)) (m ((c.tc : Thread nD τ).loc main_arg5)) hreal (ix3 b n ch)
  obtain ⟨q1, hq1⟩ := corner_real_v700 (m ((c.tc : Thread nD τ).loc main_arg3)) (m ((c.tc : Thread nD τ).loc main_arg5)) hreal (ix3 b n ch)
  obtain ⟨q2, hq2⟩ := corner_real_v680 (m ((c.tc : Thread nD τ).loc main_arg3)) (m ((c.tc : Thread nD τ).loc main_arg5)) hreal (ix3 b n ch)
  obtain ⟨q3, hq3⟩ := corner_real_v660 (m ((c.tc : Thread nD τ).loc main_arg3)) (m ((c.tc : Thread nD τ).loc main_arg5)) hreal (ix3 b n ch)
  obtain ⟨q4, hq4⟩ := corner_real_v625 (m ((c.tc : Thread nD τ).loc main_arg3)) (m ((c.tc : Thread nD τ).loc main_arg5)) hreal (ix3 b n ch)
  obtain ⟨q5, hq5⟩ := corner_real_v605 (m ((c.tc : Thread nD τ).loc main_arg3)) (m ((c.tc : Thread nD τ).loc main_arg5)) hreal (ix3 b n ch)
  obtain ⟨q6, hq6⟩ := corner_real_v585 (m ((c.tc : Thread nD τ).loc main_arg3)) (m ((c.tc : Thread nD τ).loc main_arg5)) hreal (ix3 b n ch)
  obtain ⟨q7, hq7⟩ := corner_real_v565 (m ((c.tc : Thread nD τ).loc main_arg3)) (m ((c.tc : Thread nD τ).loc main_arg5)) hreal (ix3 b n ch)
  obtain ⟨wx, hwx⟩ := weight_real_v524 (m ((c.tc : Thread nD τ).loc main_arg5)) (ix2 b n)
  obtain ⟨wx2, hwx2⟩ := weight_real_v528 (m ((c.tc : Thread nD τ).loc main_arg5)) (ix2 b n)
  obtain ⟨wy, hwy⟩ := weight_real_v532 (m ((c.tc : Thread nD τ).loc main_arg5)) (ix2 b n)
  obtain ⟨wy2, hwy2⟩ := weight_real_v536 (m ((c.tc : Thread nD τ).loc main_arg5)) (ix2 b n)
  obtain ⟨wz, hwz⟩ := weight_real_v540 (m ((c.tc : Thread nD τ).loc main_arg5)) (ix2 b n)
  obtain ⟨wz2, hwz2⟩ := weight_real_v544 (m ((c.tc : Thread nD τ).loc main_arg5)) (ix2 b n)
  rw [hq0, hq1, hq2, hq3, hq4, hq5, hq6, hq7, hwx, hwx2, hwy, hwy2, hwz, hwz2]
  exact (Cert.Spec.trilerp_eq_comb8 q0 q1 q2 q3 q4 q5 q6 q7 wx wx2 wy wy2 wz wz2).symm

/-- The reference's result, as a function of a memory that agrees with the kernel program's on the arguments, is the
    kernel program's last boundary contents at its result buffer: channel by channel the result lies in one of the
    three levels, and there the two programs agree by `level_eq0`, `level_eq1`, `level_eq2`. -/
theorem result_eq
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5))
    (c : Dev nD) :
    Cert.ReferenceIdeal.Read.val_main_v741 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5))
      = W7 m ρ c (Proc.devRef .tc main_v777) := by
  haveI := Cert.Pre_finite_inputs.Gen.facts
  obtain ⟨h1, h2, h3⟩ := Cert.Finite.features_real _ _ _ _ _ _ (hpre c)
  obtain ⟨-, e1, e2, e3, -, e5⟩ := hagree c
  rw [e1, e2, e3, e5]
  show (_ : Vec Ideal S2x100000x224 .f32) = (W7 m ρ c (Proc.devRef .tc main_v777) : Vec Ideal S2x100000x224 .f32)
  funext i
  obtain ⟨b, n, j, rfl⟩ : ∃ (b : Fin 2) (n : Fin 100000) (j : Fin 224), i = ix3 b n j := ⟨i 0, i 1, i 2, eq_ix3 i⟩
  rw [Cert.RefRead.ref_result, kernel_result]
  split_ifs with h0 h1'
  · exact (level_eq0 m ρ c h1 b n ⟨j.val, h0⟩).symm
  · exact (level_eq1 m ρ c h2 b n ⟨j.val - 32, by omega⟩).symm
  · exact (level_eq2 m ρ c h3 b n ⟨j.val - 96, by omega⟩).symm

end Cert.Value

end
-- ==== Proof.lean ====
/-
  Three pyramid levels of trilinear interpolation: for each of 100000 query points in each of 2 batches, and
  each level's feature cube, eight corner values are gathered and combined with weights that are products of the
  point's fractional distances to the cell's faces.

  The kernel program gathers the corners and forms the eight weight products with plain host operations, pads
  the flattened arrays to a whole number of 2048-row blocks, and lets one pipelined kernel per level add up
  "corner times weight" over the eight corners; the padding is sliced off again. The reference interpolates along
  x, then y, then z. On real numbers the two are the same polynomial in the eight corners and six weights, and
  every value involved IS a real number: the features by the precondition, the weights because the coordinates
  are clipped between two finite bounds before their fractional parts are taken.

  The frames (each program terminates, faults nowhere, and leaves its arguments alone) come from the run of
  @main's seven segments for the two kernel programs and from the run of the reference's operations; the ideal
  pass rewrote nothing, so there is nothing to preserve; the value claim is `Cert.Value.result_eq`.
-/
import proofs.«171014_j76854144795318_1_alg».proof.Defs
import proofs.«171014_j76854144795318_1_alg».proof.Proof.Gen.Kernel
import proofs.«171014_j76854144795318_1_alg».proof.Proof.Gen.KernelIdeal
import proofs.«171014_j76854144795318_1_alg».proof.Proof.Gen.ReferenceIdeal
import proofs.«171014_j76854144795318_1_alg».proof.Proof.Gen.Pre_finite_inputs
import proofs.«171014_j76854144795318_1_alg».proof.Proof.K.Run
import proofs.«171014_j76854144795318_1_alg».proof.Proof.KI.Run
import proofs.«171014_j76854144795318_1_alg».proof.Proof.RefP.Link
import proofs.«171014_j76854144795318_1_alg».proof.Proof.Val.Assembly
import Idealize.ShloMosaic.Adequacy
import Idealize.ShloMosaic.Init

noncomputable section

namespace Cert.Proof

open Idealize.ShloMosaic Idealize.ShloMosaic.TcCoe Idealize.SL.Sem

/-- The word-level kernel program runs to the end and leaves its six arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does the idealized kernel program. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- And the reference: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.ref_run m ρ)

/-- From memories that agree on the arguments both idealized programs end with the same result array: the
    kernel program's last boundary contents at its result buffer, which the reference's composed term equals
    element by element. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W7 m ρ c (Proc.devRef .tc Cert.KernelIdeal.main_v777),
    Cert.KernelIdeal.Hand.run_main (F := Ideal) m ρ, ?_⟩
  refine (θ_run Cert.ReferenceIdeal.defs _ _).mono (fun _ h c => ⟨(h c).1.trans ?_, (h c).2⟩)
    (Cert.ReferenceIdeal.Hand.ref_run m' ρ')
  exact Cert.Value.result_eq m ρ m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
